-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v212)) (v1 : (c : Dev Cert.KernelIdeal.nD) → Buf (Elt Ideal) ((c.tc : Thread Cert.KernelIdeal.nD Cert.KernelIdeal.τ).loc Cert.KernelIdeal.main_v213)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_v213) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_v318) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3x64x64 : Shape := ⟨3, ![3, 64, 64]⟩
abbrev S3x64 : Shape := ⟨2, ![3, 64]⟩
abbrev S3x1000000 : Shape := ⟨2, ![3, 1000000]⟩
abbrev S500000 : Shape := ⟨1, ![500000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3x1000000 : S_.BroadcastsInDim S3x1000000 (![] : Fin 0 → Fin S3x1000000.rank)
  reducesTo_S3x1000000_S_d0_1 : S3x1000000.ReducesTo [0, 1] S_
  bcast_S_S500000 : S_.BroadcastsInDim S500000 (![] : Fin 0 → Fin S500000.rank)
  reducesTo_S500000_S_d0 : S500000.ReducesTo [0] S_

variable [Facts]

def fn_part4 {F : FTy → Type} [FloatOps F] (main_arg12 : IVec S500000 32) (main_v65 : IVec S_ 1) : IVec S_ 1 :=
  let main_c_28 : IVec S_ 32 := constantI S_ 32 0#32
  let main_v66 : IVec S500000 32 := broadcastInDim S500000 ![] bcast_S_S500000 main_c_28
  let main_v67 : IVec S500000 1 := cmpi .sge main_arg12 main_v66
  let main_c_29 : IVec S_ 1 := constantI S_ 1 1#1
  let main_v68 : IVec S_ 1 := (fun x v => Host.reduce IntOp.andi x v reducesTo_S500000_S_d0 h_S_) main_v67 main_c_29
  let main_v69 : IVec S_ 1 := andi main_v65 main_v68
  let main_c_30 : IVec S_ 32 := constantI S_ 32 100000#32
  let main_v70 : IVec S500000 32 := broadcastInDim S500000 ![] bcast_S_S500000 main_c_30
  let main_v71 : IVec S500000 1 := cmpi .slt main_arg12 main_v70
  let main_c_31 : IVec S_ 1 := constantI S_ 1 1#1
  let main_v72 : IVec S_ 1 := (fun x v => Host.reduce IntOp.andi x v reducesTo_S500000_S_d0 h_S_) main_v71 main_c_31
  let main_v73 : IVec S_ 1 := andi main_v69 main_v72
  main_v73

def fn_part3 {F : FTy → Type} [FloatOps F] (main_arg10 : IVec S500000 32) (main_arg11 : IVec S500000 32) (main_arg12 : IVec S500000 32) (main_v49 : IVec S_ 1) : IVec S_ 1 :=
  let main_c_20 : IVec S_ 32 := constantI S_ 32 0#32
  let main_v50 : IVec S500000 32 := broadcastInDim S500000 ![] bcast_S_S500000 main_c_20
  let main_v51 : IVec S500000 1 := cmpi .sge main_arg10 main_v50
  let main_c_21 : IVec S_ 1 := constantI S_ 1 1#1
  let main_v52 : IVec S_ 1 := (fun x v => Host.reduce IntOp.andi x v reducesTo_S500000_S_d0 h_S_) main_v51 main_c_21
  let main_v53 : IVec S_ 1 := andi main_v49 main_v52
  let main_c_22 : IVec S_ 32 := constantI S_ 32 100000#32
  let main_v54 : IVec S500000 32 := broadcastInDim S500000 ![] bcast_S_S500000 main_c_22
  let main_v55 : IVec S500000 1 := cmpi .slt main_arg10 main_v54
  let main_c_23 : IVec S_ 1 := constantI S_ 1 1#1
  let main_v56 : IVec S_ 1 := (fun x v => Host.reduce IntOp.andi x v reducesTo_S500000_S_d0 h_S_) main_v55 main_c_23
  let main_v57 : IVec S_ 1 := andi main_v53 main_v56
  let main_c_24 : IVec S_ 32 := constantI S_ 32 0#32
  let main_v58 : IVec S500000 32 := broadcastInDim S500000 ![] bcast_S_S500000 main_c_24
  let main_v59 : IVec S500000 1 := cmpi .sge main_arg11 main_v58
  let main_c_25 : IVec S_ 1 := constantI S_ 1 1#1
  let main_v60 : IVec S_ 1 := (fun x v => Host.reduce IntOp.andi x v reducesTo_S500000_S_d0 h_S_) main_v59 main_c_25
  let main_v61 : IVec S_ 1 := andi main_v57 main_v60
  let main_c_26 : IVec S_ 32 := constantI S_ 32 100000#32
  let main_v62 : IVec S500000 32 := broadcastInDim S500000 ![] bcast_S_S500000 main_c_26
  let main_v63 : IVec S500000 1 := cmpi .slt main_arg11 main_v62
  let main_c_27 : IVec S_ 1 := constantI S_ 1 1#1
  let main_v64 : IVec S_ 1 := (fun x v => Host.reduce IntOp.andi x v reducesTo_S500000_S_d0 h_S_) main_v63 main_c_27
  let main_v65 : IVec S_ 1 := andi main_v61 main_v64
  fn_part4 (F := F) main_arg12 main_v65

def fn_part2 {F : FTy → Type} [FloatOps F] (main_arg7 : IVec S3x1000000 32) (main_arg9 : IVec S500000 32) (main_arg10 : IVec S500000 32) (main_arg11 : IVec S500000 32) (main_arg12 : IVec S500000 32) (main_v33 : IVec S_ 1) : IVec S_ 1 :=
  let main_c_12 : IVec S_ 32 := constantI S_ 32 0#32
  let main_v34 : IVec S3x1000000 32 := broadcastInDim S3x1000000 ![] bcast_S_S3x1000000 main_c_12
  let main_v35 : IVec S3x1000000 1 := cmpi .sge main_arg7 main_v34
  let main_c_13 : IVec S_ 1 := constantI S_ 1 1#1
  let main_v36 : IVec S_ 1 := (fun x v => Host.reduce IntOp.andi x v reducesTo_S3x1000000_S_d0_1 h_S_) main_v35 main_c_13
  let main_v37 : IVec S_ 1 := andi main_v33 main_v36
  let main_c_14 : IVec S_ 32 := constantI S_ 32 100000#32
  let main_v38 : IVec S3x1000000 32 := broadcastInDim S3x1000000 ![] bcast_S_S3x1000000 main_c_14
  let main_v39 : IVec S3x1000000 1 := cmpi .slt main_arg7 main_v38
  let main_c_15 : IVec S_ 1 := constantI S_ 1 1#1
  let main_v40 : IVec S_ 1 := (fun x v => Host.reduce IntOp.andi x v reducesTo_S3x1000000_S_d0_1 h_S_) main_v39 main_c_15
  let main_v41 : IVec S_ 1 := andi main_v37 main_v40
  let main_c_16 : IVec S_ 32 := constantI S_ 32 0#32
  let main_v42 : IVec S500000 32 := broadcastInDim S500000 ![] bcast_S_S500000 main_c_16
  let main_v43 : IVec S500000 1 := cmpi .sge main_arg9 main_v42
  let main_c_17 : IVec S_ 1 := constantI S_ 1 1#1
  let main_v44 : IVec S_ 1 := (fun x v => Host.reduce IntOp.andi x v reducesTo_S500000_S_d0 h_S_) main_v43 main_c_17
  let main_v45 : IVec S_ 1 := andi main_v41 main_v44
  let main_c_18 : IVec S_ 32 := constantI S_ 32 100000#32
  let main_v46 : IVec S500000 32 := broadcastInDim S500000 ![] bcast_S_S500000 main_c_18
  let main_v47 : IVec S500000 1 := cmpi .slt main_arg9 main_v46
  let main_c_19 : IVec S_ 1 := constantI S_ 1 1#1
  let main_v48 : IVec S_ 1 := (fun x v => Host.reduce IntOp.andi x v reducesTo_S500000_S_d0 h_S_) main_v47 main_c_19
  let main_v49 : IVec S_ 1 := andi main_v45 main_v48
  fn_part3 (F := F) main_arg10 main_arg11 main_arg12 main_v49

def fn_part1 {F : FTy → Type} [FloatOps F] (main_arg4 : FVec F S3x64 .f32) (main_arg5 : FVec F S3x64x64 .f32) (main_arg6 : FVec F S3x64 .f32) (main_arg7 : IVec S3x1000000 32) (main_arg9 : IVec S500000 32) (main_arg10 : IVec S500000 32) (main_arg11 : IVec S500000 32) (main_arg12 : IVec S500000 32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg5
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg6
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg7 main_arg9 main_arg10 main_arg11 main_arg12 main_v33

def fn {F : FTy → Type} [FloatOps F] (main_arg0 : FVec F S100000x64 .f32) (main_arg1 : FVec F S3x64x64 .f32) (main_arg2 : FVec F S3x64 .f32) (main_arg3 : FVec F S3x64x64 .f32) (main_arg4 : FVec F S3x64 .f32) (main_arg5 : FVec F S3x64x64 .f32) (main_arg6 : FVec F S3x64 .f32) (main_arg7 : IVec S3x1000000 32) (main_arg8 : IVec S3x1000000 32) (main_arg9 : IVec S500000 32) (main_arg10 : IVec S500000 32) (main_arg11 : IVec S500000 32) (main_arg12 : IVec S500000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg2
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg3
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg4 main_arg5 main_arg6 main_arg7 main_arg9 main_arg10 main_arg11 main_arg12 main_v13 main_v16
-- ==== Kernel.lean ====
abbrev S100000x64 : Shape := ⟨2, ![100000, 64]⟩
abbrev S3x64x64 : Shape := ⟨3, ![3, 64, 64]⟩
abbrev S3x64 : Shape := ⟨2, ![3, 64]⟩
abbrev S3x1000000 : Shape := ⟨2, ![3, 1000000]⟩
abbrev S500000 : Shape := ⟨1, ![500000]⟩
abbrev S_ : Shape := ⟨0, ![]⟩
abbrev S1000000 : Shape := ⟨1, ![1000000]⟩
abbrev S1x1000000 : Shape := ⟨2, ![1, 1000000]⟩
abbrev S100000 : Shape := ⟨1, ![100000]⟩
abbrev S1000000x1 : Shape := ⟨2, ![1000000, 1]⟩
abbrev S1x100000 : Shape := ⟨2, ![1, 100000]⟩
abbrev S3x100000 : Shape := ⟨2, ![3, 100000]⟩
abbrev S3x100352 : Shape := ⟨2, ![3, 100352]⟩
abbrev S3x100352x1 : Shape := ⟨3, ![3, 100352, 1]⟩
abbrev S100352x64 : Shape := ⟨2, ![100352, 64]⟩
abbrev S1000000x64 : Shape := ⟨2, ![1000000, 64]⟩
abbrev S1x100352x1 : Shape := ⟨3, ![1, 100352, 1]⟩
abbrev S100352x1 : Shape := ⟨2, ![100352, 1]⟩
abbrev S1x100352x64 : Shape := ⟨3, ![1, 100352, 64]⟩
abbrev S3x100352x64 : Shape := ⟨3, ![3, 100352, 64]⟩
abbrev S1x1024x64 : Shape := ⟨3, ![1, 1024, 64]⟩
abbrev S1024x64 : Shape := ⟨2, ![1024, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1 : Shape := ⟨1, ![1]⟩
abbrev S1x1 : Shape := ⟨2, ![1, 1]⟩
abbrev S1007616x64 : Shape := ⟨2, ![1007616, 64]⟩
abbrev S1007616 : Shape := ⟨1, ![1007616]⟩
abbrev S8192x64 : Shape := ⟨2, ![8192, 64]⟩
abbrev S8192 : Shape := ⟨1, ![8192]⟩

abbrev nBuf : Space → Nat
  | .hbm => 314
  | .vmem => 27
  | .smem => 0
  | _ => 0

abbrev hbmTy0_0 (i : Nat) : BufTy := match i % 128 with
  | 0 => ⟨S100000x64, .f32⟩
  | 1 => ⟨S3x64x64, .f32⟩
  | 2 => ⟨S3x64, .f32⟩
  | 3 => ⟨S3x64x64, .f32⟩
  | 4 => ⟨S3x64, .f32⟩
  | 5 => ⟨S3x64x64, .f32⟩
  | 6 => ⟨S3x64, .f32⟩
  | 7 => ⟨S3x1000000, .i32⟩
  | 8 => ⟨S3x1000000, .i32⟩
  | 9 => ⟨S500000, .i32⟩
  | 10 => ⟨S500000, .i32⟩
  | 11 => ⟨S500000, .i32⟩
  | 12 => ⟨S500000, .i32⟩
  | 13 => ⟨S_, .f32⟩
  | 14 => ⟨S1000000, .f32⟩
  | 15 => ⟨S1x1000000, .i32⟩
  | 16 => ⟨S1000000, .i32⟩
  | 17 => ⟨S_, .f32⟩
  | 18 => ⟨S100000, .f32⟩
  | 19 => ⟨S1000000x1, .i32⟩
  | 20 => ⟨S100000, .f32⟩
  | 21 => ⟨S1x1000000, .i32⟩
  | 22 => ⟨S1000000, .i32⟩
  | 23 => ⟨S_, .f32⟩
  | 24 => ⟨S100000, .f32⟩
  | 25 => ⟨S1000000x1, .i32⟩
  | 26 => ⟨S100000, .f32⟩
  | 27 => ⟨S1x1000000, .i32⟩
  | 28 => ⟨S1000000, .i32⟩
  | 29 => ⟨S_, .f32⟩
  | 30 => ⟨S100000, .f32⟩
  | 31 => ⟨S1000000x1, .i32⟩
  | 32 => ⟨S100000, .f32⟩
  | 33 => ⟨S1x100000, .f32⟩
  | 34 => ⟨S1x100000, .f32⟩
  | 35 => ⟨S1x100000, .f32⟩
  | 36 => ⟨S3x100000, .f32⟩
  | 37 => ⟨S_, .f32⟩
  | 38 => ⟨S_, .f32⟩
  | 39 => ⟨S3x100000, .f32⟩
  | 40 => ⟨S3x100000, .f32⟩
  | 41 => ⟨S_, .f32⟩
  | 42 => ⟨S3x100000, .f32⟩
  | 43 => ⟨S3x100000, .f32⟩
  | 44 => ⟨S_, .f32⟩
  | 45 => ⟨S_, .f32⟩
  | 46 => ⟨S3x100352, .f32⟩
  | 47 => ⟨S3x100352x1, .f32⟩
  | 48 => ⟨S_, .i32⟩
  | 49 => ⟨S_, .f32⟩
  | 50 => ⟨S100352x64, .f32⟩
  | 51 => ⟨S1x1000000, .i32⟩
  | 52 => ⟨S1000000, .i32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x64, .f32⟩
  | 62 => ⟨S1x1000000, .i32⟩
  | 63 => ⟨S1000000, .i32⟩
  | 64 => ⟨S_, .f32⟩
  | 65 => ⟨S100352x64, .f32⟩
  | 66 => ⟨S1000000x1, .i32⟩
  | 67 => ⟨S100352x64, .f32⟩
  | 68 => ⟨S1x100352x1, .f32⟩
  | 69 => ⟨S100352x1, .f32⟩
  | 70 => ⟨S100352x64, .f32⟩
  | 71 => ⟨S100352x64, .f32⟩
  | 72 => ⟨S1x1000000, .i32⟩
  | 73 => ⟨S1000000, .i32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000x64, .f32⟩
  | 83 => ⟨S1x1000000, .i32⟩
  | 84 => ⟨S1000000, .i32⟩
  | 85 => ⟨S_, .f32⟩
  | 86 => ⟨S100352x64, .f32⟩
  | 87 => ⟨S1000000x1, .i32⟩
  | 88 => ⟨S100352x64, .f32⟩
  | 89 => ⟨S1x100352x1, .f32⟩
  | 90 => ⟨S100352x1, .f32⟩
  | 91 => ⟨S100352x64, .f32⟩
  | 92 => ⟨S100352x64, .f32⟩
  | 93 => ⟨S1x1000000, .i32⟩
  | 94 => ⟨S1000000, .i32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000x64, .f32⟩
  | 104 => ⟨S1x1000000, .i32⟩
  | 105 => ⟨S1000000, .i32⟩
  | 106 => ⟨S_, .f32⟩
  | 107 => ⟨S100352x64, .f32⟩
  | 108 => ⟨S1000000x1, .i32⟩
  | 109 => ⟨S100352x64, .f32⟩
  | 110 => ⟨S1x100352x1, .f32⟩
  | 111 => ⟨S100352x1, .f32⟩
  | 112 => ⟨S100352x64, .f32⟩
  | 113 => ⟨S100352x64, .f32⟩
  | 114 => ⟨S1x100352x64, .f32⟩
  | 115 => ⟨S1x100352x64, .f32⟩
  | 116 => ⟨S1x100352x64, .f32⟩
  | 117 => ⟨S3x100352x64, .f32⟩
  | 118 => ⟨S100352x64, .f32⟩
  | 119 => ⟨S1x1000000, .i32⟩
  | 120 => ⟨S1000000, .i32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S100000x64, .f32⟩

abbrev hbmTy0_1 (i : Nat) : BufTy := match i % 128 with
  | 0 => ⟨S1000000x1, .i32⟩
  | 1 => ⟨S1000000x64, .f32⟩
  | 2 => ⟨S1x1000000, .i32⟩
  | 3 => ⟨S1000000, .i32⟩
  | 4 => ⟨S_, .f32⟩
  | 5 => ⟨S100352x64, .f32⟩
  | 6 => ⟨S1000000x1, .i32⟩
  | 7 => ⟨S100352x64, .f32⟩
  | 8 => ⟨S1x100352x1, .f32⟩
  | 9 => ⟨S100352x1, .f32⟩
  | 10 => ⟨S100352x64, .f32⟩
  | 11 => ⟨S100352x64, .f32⟩
  | 12 => ⟨S1x1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S1x1000000, .i32⟩
  | 24 => ⟨S1000000, .i32⟩
  | 25 => ⟨S_, .f32⟩
  | 26 => ⟨S100352x64, .f32⟩
  | 27 => ⟨S1000000x1, .i32⟩
  | 28 => ⟨S100352x64, .f32⟩
  | 29 => ⟨S1x100352x1, .f32⟩
  | 30 => ⟨S100352x1, .f32⟩
  | 31 => ⟨S100352x64, .f32⟩
  | 32 => ⟨S100352x64, .f32⟩
  | 33 => ⟨S1x1000000, .i32⟩
  | 34 => ⟨S1000000, .i32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S1x1000000, .i32⟩
  | 45 => ⟨S1000000, .i32⟩
  | 46 => ⟨S_, .f32⟩
  | 47 => ⟨S100352x64, .f32⟩
  | 48 => ⟨S1000000x1, .i32⟩
  | 49 => ⟨S100352x64, .f32⟩
  | 50 => ⟨S1x100352x1, .f32⟩
  | 51 => ⟨S100352x1, .f32⟩
  | 52 => ⟨S100352x64, .f32⟩
  | 53 => ⟨S100352x64, .f32⟩
  | 54 => ⟨S1x100352x64, .f32⟩
  | 55 => ⟨S1x100352x64, .f32⟩
  | 56 => ⟨S1x100352x64, .f32⟩
  | 57 => ⟨S3x100352x64, .f32⟩
  | 58 => ⟨S100352x64, .f32⟩
  | 59 => ⟨S1x1000000, .i32⟩
  | 60 => ⟨S1000000, .i32⟩
  | 61 => ⟨S_, .i32⟩
  | 62 => ⟨S1000000, .i32⟩
  | 63 => ⟨S1000000, .i1⟩
  | 64 => ⟨S_, .i32⟩
  | 65 => ⟨S1000000, .i32⟩
  | 66 => ⟨S1000000, .i32⟩
  | 67 => ⟨S1000000, .i32⟩
  | 68 => ⟨S1000000x1, .i32⟩
  | 69 => ⟨S1000000x64, .f32⟩
  | 70 => ⟨S1x1000000, .i32⟩
  | 71 => ⟨S1000000, .i32⟩
  | 72 => ⟨S_, .f32⟩
  | 73 => ⟨S100352x64, .f32⟩
  | 74 => ⟨S1000000x1, .i32⟩
  | 75 => ⟨S100352x64, .f32⟩
  | 76 => ⟨S1x100352x1, .f32⟩
  | 77 => ⟨S100352x1, .f32⟩
  | 78 => ⟨S100352x64, .f32⟩
  | 79 => ⟨S100352x64, .f32⟩
  | 80 => ⟨S1x1000000, .i32⟩
  | 81 => ⟨S1000000, .i32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x64, .f32⟩
  | 91 => ⟨S1x1000000, .i32⟩
  | 92 => ⟨S1000000, .i32⟩
  | 93 => ⟨S_, .f32⟩
  | 94 => ⟨S100352x64, .f32⟩
  | 95 => ⟨S1000000x1, .i32⟩
  | 96 => ⟨S100352x64, .f32⟩
  | 97 => ⟨S1x100352x1, .f32⟩
  | 98 => ⟨S100352x1, .f32⟩
  | 99 => ⟨S100352x64, .f32⟩
  | 100 => ⟨S100352x64, .f32⟩
  | 101 => ⟨S1x1000000, .i32⟩
  | 102 => ⟨S1000000, .i32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x64, .f32⟩
  | 112 => ⟨S1x1000000, .i32⟩
  | 113 => ⟨S1000000, .i32⟩
  | 114 => ⟨S_, .f32⟩
  | 115 => ⟨S100352x64, .f32⟩
  | 116 => ⟨S1000000x1, .i32⟩
  | 117 => ⟨S100352x64, .f32⟩
  | 118 => ⟨S1x100352x1, .f32⟩
  | 119 => ⟨S100352x1, .f32⟩
  | 120 => ⟨S100352x64, .f32⟩
  | 121 => ⟨S100352x64, .f32⟩
  | 122 => ⟨S1x100352x64, .f32⟩
  | 123 => ⟨S1x100352x64, .f32⟩
  | 124 => ⟨S1x100352x64, .f32⟩
  | 125 => ⟨S3x100352x64, .f32⟩
  | 126 => ⟨S100352x64, .f32⟩
  | 127 => ⟨S100000x64, .f32⟩
  | _ => ⟨S100000x64, .f32⟩

abbrev hbmTy0_2 (i : Nat) : BufTy := match i % 128 with
  | 0 => ⟨S1000000, .i32⟩
  | 1 => ⟨S1000000, .i32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1, .i32⟩
  | 11 => ⟨S_, .i32⟩
  | 12 => ⟨S1000000x1, .i32⟩
  | 13 => ⟨S1000000x1, .i1⟩
  | 14 => ⟨S1x1, .i32⟩
  | 15 => ⟨S1000000x1, .i32⟩
  | 16 => ⟨S1000000x1, .i1⟩
  | 17 => ⟨S1000000x1, .i1⟩
  | 18 => ⟨S_, .i1⟩
  | 19 => ⟨S1000000, .i1⟩
  | 20 => ⟨S1000000x64, .f32⟩
  | 21 => ⟨S1000000x64, .i1⟩
  | 22 => ⟨S_, .f32⟩
  | 23 => ⟨S1000000x64, .f32⟩
  | 24 => ⟨S1000000x64, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1, .i32⟩
  | 34 => ⟨S_, .i32⟩
  | 35 => ⟨S1000000x1, .i32⟩
  | 36 => ⟨S1000000x1, .i1⟩
  | 37 => ⟨S1x1, .i32⟩
  | 38 => ⟨S1000000x1, .i32⟩
  | 39 => ⟨S1000000x1, .i1⟩
  | 40 => ⟨S1000000x1, .i1⟩
  | 41 => ⟨S_, .i1⟩
  | 42 => ⟨S1000000, .i1⟩
  | 43 => ⟨S1000000x64, .f32⟩
  | 44 => ⟨S1000000x64, .i1⟩
  | 45 => ⟨S_, .f32⟩
  | 46 => ⟨S1000000x64, .f32⟩
  | 47 => ⟨S1000000x64, .f32⟩
  | 48 => ⟨S_, .i32⟩
  | 49 => ⟨S_, .f32⟩
  | 50 => ⟨S1007616x64, .f32⟩
  | 51 => ⟨S_, .i32⟩
  | 52 => ⟨S_, .f32⟩
  | 53 => ⟨S1007616x64, .f32⟩
  | 54 => ⟨S1007616, .f32⟩
  | 55 => ⟨S1000000, .f32⟩
  | 56 => ⟨S500000, .f32⟩
  | 57 => ⟨S500000, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S1x1024x64, .f32⟩
  | .local _ .vmem, ⟨1, _⟩ => ⟨S1x1024x64, .f32⟩
  | .local _ .vmem, ⟨2, _⟩ => ⟨S3x64x64, .f32⟩
  | .local _ .vmem, ⟨3, _⟩ => ⟨S3x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1x1024x64, .f32⟩
  | .local _ .vmem, ⟨8, _⟩ => ⟨S1x1024x64, .f32⟩
  | .local _ .vmem, ⟨9, _⟩ => ⟨S3x64x64, .f32⟩
  | .local _ .vmem, ⟨10, _⟩ => ⟨S3x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1x1024x64, .f32⟩
  | .local _ .vmem, ⟨15, _⟩ => ⟨S1x1024x64, .f32⟩
  | .local _ .vmem, ⟨16, _⟩ => ⟨S3x64x64, .f32⟩
  | .local _ .vmem, ⟨17, _⟩ => ⟨S3x64, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | .local _ .vmem, ⟨21, _⟩ => ⟨S8192x64, .f32⟩
  | .local _ .vmem, ⟨22, _⟩ => ⟨S8192x64, .f32⟩
  | .local _ .vmem, ⟨23, _⟩ => ⟨S8192x64, .f32⟩
  | .local _ .vmem, ⟨24, _⟩ => ⟨S8192x64, .f32⟩
  | .local _ .vmem, ⟨25, _⟩ => ⟨S8192, .f32⟩
  | .local _ .vmem, ⟨26, _⟩ => ⟨S8192, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_cst_5 : Ref sig .tc := ⟨.hbm, 44, rfl⟩
abbrev main_call1_v0 : Ref sig .tc := ⟨.hbm, 45, rfl⟩
abbrev main_v23 : Ref sig .tc := ⟨.hbm, 46, rfl⟩
abbrev main_v24 : Ref sig .tc := ⟨.hbm, 47, rfl⟩
abbrev main_c : Ref sig .tc := ⟨.hbm, 48, rfl⟩
abbrev main_call2_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_9 : Ref sig .tc := ⟨.hbm, 74, rfl⟩
abbrev main_v46 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_12 : Ref sig .tc := ⟨.hbm, 95, rfl⟩
abbrev main_v64 : Ref sig .tc := ⟨.hbm, 96, rfl⟩
abbrev main_v65 : Ref sig .tc := ⟨.hbm, 97, rfl⟩
abbrev main_c_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_14 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_15 : Ref sig .tc := ⟨.hbm, 121, rfl⟩
abbrev main_v87 : Ref sig .tc := ⟨.hbm, 122, rfl⟩
abbrev main_v88 : Ref sig .tc := ⟨.hbm, 123, rfl⟩
abbrev main_c_16 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_17 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_c_18 : Ref sig .tc := ⟨.hbm, 142, rfl⟩
abbrev main_v105 : Ref sig .tc := ⟨.hbm, 143, rfl⟩
abbrev main_v106 : Ref sig .tc := ⟨.hbm, 144, rfl⟩
abbrev main_c_19 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_20 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_c_21 : Ref sig .tc := ⟨.hbm, 163, rfl⟩
abbrev main_v123 : Ref sig .tc := ⟨.hbm, 164, rfl⟩
abbrev main_v124 : Ref sig .tc := ⟨.hbm, 165, rfl⟩
abbrev main_c_22 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_23 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_c_24 : Ref sig .tc := ⟨.hbm, 189, rfl⟩
abbrev main_v146 : Ref sig .tc := ⟨.hbm, 190, rfl⟩
abbrev main_v147 : Ref sig .tc := ⟨.hbm, 191, rfl⟩
abbrev main_c_25 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_cst_26 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_c_27 : Ref sig .tc := ⟨.hbm, 210, rfl⟩
abbrev main_v164 : Ref sig .tc := ⟨.hbm, 211, rfl⟩
abbrev main_v165 : Ref sig .tc := ⟨.hbm, 212, rfl⟩
abbrev main_c_28 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_cst_29 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_c_30 : Ref sig .tc := ⟨.hbm, 231, rfl⟩
abbrev main_v182 : Ref sig .tc := ⟨.hbm, 232, rfl⟩
abbrev main_v183 : Ref sig .tc := ⟨.hbm, 233, rfl⟩
abbrev main_c_31 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_32 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_call3_c : Ref sig .tc := ⟨.hbm, 258, rfl⟩
abbrev main_call3_v0 : Ref sig .tc := ⟨.hbm, 259, rfl⟩
abbrev main_call3_v1 : Ref sig .tc := ⟨.hbm, 260, rfl⟩
abbrev main_call3_c_0 : Ref sig .tc := ⟨.hbm, 261, rfl⟩
abbrev main_call3_v2 : Ref sig .tc := ⟨.hbm, 262, rfl⟩
abbrev main_call3_v3 : Ref sig .tc := ⟨.hbm, 263, rfl⟩
abbrev main_call3_v4 : Ref sig .tc := ⟨.hbm, 264, rfl⟩
abbrev main_call3_v5 : Ref sig .tc := ⟨.hbm, 265, rfl⟩
abbrev main_call3_c_1 : Ref sig .tc := ⟨.hbm, 266, rfl⟩
abbrev main_call3_c_2 : Ref sig .tc := ⟨.hbm, 267, rfl⟩
abbrev main_call3_v6 : Ref sig .tc := ⟨.hbm, 268, rfl⟩
abbrev main_call3_v7 : Ref sig .tc := ⟨.hbm, 269, rfl⟩
abbrev main_call3_v8 : Ref sig .tc := ⟨.hbm, 270, rfl⟩
abbrev main_call3_v9 : Ref sig .tc := ⟨.hbm, 271, rfl⟩
abbrev main_call3_v10 : Ref sig .tc := ⟨.hbm, 272, rfl⟩
abbrev main_call3_v11 : Ref sig .tc := ⟨.hbm, 273, rfl⟩
abbrev main_call3_c_3 : Ref sig .tc := ⟨.hbm, 274, rfl⟩
abbrev main_call3_v12 : Ref sig .tc := ⟨.hbm, 275, rfl⟩
abbrev main_call3_v13 : Ref sig .tc := ⟨.hbm, 276, rfl⟩
abbrev main_call3_v14 : Ref sig .tc := ⟨.hbm, 277, rfl⟩
abbrev main_call3_cst : Ref sig .tc := ⟨.hbm, 278, rfl⟩
abbrev main_call3_v15 : Ref sig .tc := ⟨.hbm, 279, rfl⟩
abbrev main_v206 : Ref sig .tc := ⟨.hbm, 280, rfl⟩
abbrev main_call4_c : Ref sig .tc := ⟨.hbm, 281, rfl⟩
abbrev main_call4_v0 : Ref sig .tc := ⟨.hbm, 282, rfl⟩
abbrev main_call4_v1 : Ref sig .tc := ⟨.hbm, 283, rfl⟩
abbrev main_call4_c_0 : Ref sig .tc := ⟨.hbm, 284, rfl⟩
abbrev main_call4_v2 : Ref sig .tc := ⟨.hbm, 285, rfl⟩
abbrev main_call4_v3 : Ref sig .tc := ⟨.hbm, 286, rfl⟩
abbrev main_call4_v4 : Ref sig .tc := ⟨.hbm, 287, rfl⟩
abbrev main_call4_v5 : Ref sig .tc := ⟨.hbm, 288, rfl⟩
abbrev main_call4_c_1 : Ref sig .tc := ⟨.hbm, 289, rfl⟩
abbrev main_call4_c_2 : Ref sig .tc := ⟨.hbm, 290, rfl⟩
abbrev main_call4_v6 : Ref sig .tc := ⟨.hbm, 291, rfl⟩
abbrev main_call4_v7 : Ref sig .tc := ⟨.hbm, 292, rfl⟩
abbrev main_call4_v8 : Ref sig .tc := ⟨.hbm, 293, rfl⟩
abbrev main_call4_v9 : Ref sig .tc := ⟨.hbm, 294, rfl⟩
abbrev main_call4_v10 : Ref sig .tc := ⟨.hbm, 295, rfl⟩
abbrev main_call4_v11 : Ref sig .tc := ⟨.hbm, 296, rfl⟩
abbrev main_call4_c_3 : Ref sig .tc := ⟨.hbm, 297, rfl⟩
abbrev main_call4_v12 : Ref sig .tc := ⟨.hbm, 298, rfl⟩
abbrev main_call4_v13 : Ref sig .tc := ⟨.hbm, 299, rfl⟩
abbrev main_call4_v14 : Ref sig .tc := ⟨.hbm, 300, rfl⟩
abbrev main_call4_cst : Ref sig .tc := ⟨.hbm, 301, rfl⟩
abbrev main_call4_v15 : Ref sig .tc := ⟨.hbm, 302, rfl⟩
abbrev main_v207 : Ref sig .tc := ⟨.hbm, 303, rfl⟩
abbrev main_c_33 : Ref sig .tc := ⟨.hbm, 304, rfl⟩
abbrev main_call5_v0 : Ref sig .tc := ⟨.hbm, 305, rfl⟩
abbrev main_v208 : Ref sig .tc := ⟨.hbm, 306, rfl⟩
abbrev main_c_34 : Ref sig .tc := ⟨.hbm, 307, rfl⟩
abbrev main_call6_v0 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨2, ![98, 3], ![false, false]⟩

def k0_off1 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_off2 (i : grid0.Coords) : Fin 2 → Nat :=
  let arg1 : BitVec 32 := BitVec.ofNat 32 (i 1).val
  let v9 : Index := Scalar.indexCast arg1
  let c0_5 : Index := 0#32
  ![v9.toNat, 0]
def k0_cond2 (i : grid0.Coords) : BitVec 1 :=
  let arg1 : BitVec 32 := BitVec.ofNat 32 (i 1).val
  let c2_i32 : BitVec 32 := 2#32
  let v20 : BitVec 1 := Scalar.cmpi .eq arg1 c2_i32
  let v21 : BitVec 32 := Scalar.extui v20
  let c0_i32_10 : BitVec 32 := 0#32
  let v22 : BitVec 1 := Scalar.cmpi .ne v21 c0_i32_10
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![98, 3], ![false, false]⟩

def k1_off1 (i : grid1.Coords) : Fin 3 → Nat :=
  let arg1 : BitVec 32 := BitVec.ofNat 32 (i 1).val
  let v3 : Index := Scalar.indexCast arg1
  let c0 : Index := 0#32
  let c0_1 : Index := 0#32
  ![v3.toNat, 0, 0]
def k1_off2 (i : grid1.Coords) : Fin 2 → Nat :=
  let arg1 : BitVec 32 := BitVec.ofNat 32 (i 1).val
  let v9 : Index := Scalar.indexCast arg1
  let c0_5 : Index := 0#32
  ![v9.toNat, 0]
def k1_cond2 (i : grid1.Coords) : BitVec 1 :=
  let arg1 : BitVec 32 := BitVec.ofNat 32 (i 1).val
  let c2_i32 : BitVec 32 := 2#32
  let v20 : BitVec 1 := Scalar.cmpi .eq arg1 c2_i32
  let v21 : BitVec 32 := Scalar.extui v20
  let c0_i32_10 : BitVec 32 := 0#32
  let v22 : BitVec 1 := Scalar.cmpi .ne v21 c0_i32_10
  v22

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S3x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S3x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![98, 3], ![false, false]⟩

def k2_off1 (i : grid2.Coords) : Fin 3 → Nat :=
  let arg1 : BitVec 32 := BitVec.ofNat 32 (i 1).val
  let v3 : Index := Scalar.indexCast arg1
  let c0 : Index := 0#32
  let c0_1 : Index := 0#32
  ![v3.toNat, 0, 0]
def k2_off2 (i : grid2.Coords) : Fin 2 → Nat :=
  let arg1 : BitVec 32 := BitVec.ofNat 32 (i 1).val
  let v9 : Index := Scalar.indexCast arg1
  let c0_5 : Index := 0#32
  ![v9.toNat, 0]
def k2_cond2 (i : grid2.Coords) : BitVec 1 :=
  let arg1 : BitVec 32 := BitVec.ofNat 32 (i 1).val
  let c2_i32 : BitVec 32 := 2#32
  let v20 : BitVec 1 := Scalar.cmpi .eq arg1 c2_i32
  let v21 : BitVec 32 := Scalar.extui v20
  let c0_i32_10 : BitVec 32 := 0#32
  let v22 : BitVec 1 := Scalar.cmpi .ne v21 c0_i32_10
  v22

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S3x64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S3x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![123], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S1000000 : S_.BroadcastsInDim S1000000 (![] : Fin 0 → Fin S1000000.rank)
  slices_S3x1000000_S1x1000000_0_0 : S3x1000000.Slices ![0, 0] S1x1000000
  shapeCasts_S1x1000000_S1000000 : S1x1000000.ShapeCasts S1000000
  bcast_S_S100000 : S_.BroadcastsInDim S100000 (![] : Fin 0 → Fin S100000.rank)
  bcast_S1000000_S1000000x1_0 : S1000000.BroadcastsInDim S1000000x1 (![0] : Fin 1 → Fin S1000000x1.rank)
  slices_S3x1000000_S1x1000000_1_0 : S3x1000000.Slices ![1, 0] S1x1000000
  slices_S3x1000000_S1x1000000_2_0 : S3x1000000.Slices ![2, 0] S1x1000000
  bcast_S100000_S1x100000_1 : S100000.BroadcastsInDim S1x100000 (![1] : Fin 1 → Fin S1x100000.rank)
  concatenates_S1x100000_S1x100000_S1x100000_S3x100000_d0 : Shape.Concatenates [S1x100000, S1x100000, S1x100000] S3x100000 0
  bcast_S_S3x100000 : S_.BroadcastsInDim S3x100000 (![] : Fin 0 → Fin S3x100000.rank)
  pads_S3x100000_S3x100352_000_03520 : S3x100000.Pads (![0, 0] : Fin 2 → Nat) ![0, 352] ![0, 0] S3x100352
  h_S_ : 0 < S_.numel
  bcast_S3x100352_S3x100352x1_0_1 : S3x100352.BroadcastsInDim S3x100352x1 (![0, 1] : Fin 2 → Fin S3x100352x1.rank)
  pads_S100000x64_S100352x64_03520_000 : S100000x64.Pads (![0, 0] : Fin 2 → Nat) ![352, 0] ![0, 0] S100352x64
  bcast_S_S100352x64 : S_.BroadcastsInDim S100352x64 (![] : Fin 0 → Fin S100352x64.rank)
  slices_S3x100352x1_S1x100352x1_0_0_0 : S3x100352x1.Slices ![0, 0, 0] S1x100352x1
  shapeCasts_S1x100352x1_S100352x1 : S1x100352x1.ShapeCasts S100352x1
  bcast_S100352x1_S100352x64_0_1 : S100352x1.BroadcastsInDim S100352x64 (![0, 1] : Fin 2 → Fin S100352x64.rank)
  slices_S3x100352x1_S1x100352x1_1_0_0 : S3x100352x1.Slices ![1, 0, 0] S1x100352x1
  slices_S3x100352x1_S1x100352x1_2_0_0 : S3x100352x1.Slices ![2, 0, 0] S1x100352x1
  bcast_S100352x64_S1x100352x64_1_2 : S100352x64.BroadcastsInDim S1x100352x64 (![1, 2] : Fin 2 → Fin S1x100352x64.rank)
  concatenates_S1x100352x64_S1x100352x64_S1x100352x64_S3x100352x64_d0 : Shape.Concatenates [S1x100352x64, S1x100352x64, S1x100352x64] S3x100352x64 0
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S1x64x64 : 0 < S1x64x64.numel
  shapeCasts_S1x64x64_S64x64 : S1x64x64.ShapeCasts S64x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  h_S1x64 : 0 < S1x64.numel
  shapeCasts_S1x64_S64 : S1x64.ShapeCasts S64
  shapeCasts_S64_S1x64 : S64.ShapeCasts S1x64
  broadcasts_S1x64_S1024x64 : S1x64.Broadcasts S1024x64
  slices_S100352x64_S100000x64_0_0 : S100352x64.Slices ![0, 0] S100000x64
  concatenates_S500000_S500000_S1000000_d0 : Shape.Concatenates [S500000, S500000] S1000000 0
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  pads_S1000000x64_S1007616x64_076160_000 : S1000000x64.Pads (![0, 0] : Fin 2 → Nat) ![7616, 0] ![0, 0] S1007616x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  inb_S8192_S8192_0 : ∀ a, (![0] : Fin 1 → Nat) a + S8192.size a ≤ S8192.size a
  h_S8192 : 0 < S8192.numel
  slices_S1007616_S1000000_0 : S1007616.Slices ![0] S1000000
  slices_S1000000_S500000_0 : S1000000.Slices ![0] S500000
  slices_S1000000_S500000_500000 : S1000000.Slices ![500000] S500000
  scatter_S100000_S1000000x1_S1000000_n_0_0_1_wf : ScatterDims.WF S100000 S1000000x1 S1000000 [] [0] [0] 1
  gather_S100352x64_S1000000x1_S1000000x64_1_0_n_n_0_1_164_wf : GatherDims.WF S100352x64 S1000000x1 S1000000x64 [1] [0] [] [0] [] 1 ![1, 64]
  scatter_S100352x64_S1000000x1_S1000000x64_1_0_0_1_wf : ScatterDims.WF S100352x64 S1000000x1 S1000000x64 [1] [0] [0] 1
  dot_S1024x64_S64x64_S1024x64_1_0_0_1_n_n_wf : DotDims.WF S1024x64 S64x64 S1024x64 [1] [0] [0] [1] [] []
  gather_S100000x64_S1000000x1_S1000000x64_1_0_n_n_0_1_164_wf : GatherDims.WF S100000x64 S1000000x1 S1000000x64 [1] [0] [] [0] [] 1 ![1, 64]
  hrank0 : 0 < grid0.rank
  k0_off1_inb : ∀ i : grid0.Coords, ∀ a, (k0_off1 i) a + S1x64x64.size a ≤ S3x64x64.size a
  k0_off2_inb : ∀ i : grid0.Coords, ∀ a, (k0_off2 i) a + S1x64.size a ≤ S3x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S3x100352x64.size a
  hwx0_0 : ∀ i : grid0.Coords, EltTy.bits .f32 = 32 ∨ (Rect.block (s := S3x100352x64) S1x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64x64.size a ≤ S3x64x64.size a
  hwx0_1 : ∀ i : grid0.Coords, EltTy.bits .f32 = 32 ∨ (Rect.block (s := S3x64x64) S3x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S100352x64.size a
  hwx0_3 : ∀ i : grid0.Coords, EltTy.bits .f32 = 32 ∨ (Rect.block (s := S100352x64) S1024x64.size (cc0_transform_3 i) (hinb0_3 i)).WholeWords (EltTy.packing .f32)
  hrank1 : 0 < grid1.rank
  k1_off1_inb : ∀ i : grid1.Coords, ∀ a, (k1_off1 i) a + S1x64x64.size a ≤ S3x64x64.size a
  k1_off2_inb : ∀ i : grid1.Coords, ∀ a, (k1_off2 i) a + S1x64.size a ≤ S3x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S3x100352x64.size a
  hwx1_0 : ∀ i : grid1.Coords, EltTy.bits .f32 = 32 ∨ (Rect.block (s := S3x100352x64) S1x1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x64x64.size a ≤ S3x64x64.size a
  hwx1_1 : ∀ i : grid1.Coords, EltTy.bits .f32 = 32 ∨ (Rect.block (s := S3x64x64) S3x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x64.size a ≤ S3x64.size a
  hwx1_2 : ∀ i : grid1.Coords, EltTy.bits .f32 = 32 ∨ (Rect.block (s := S3x64) S3x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S100352x64.size a
  hwx1_3 : ∀ i : grid1.Coords, EltTy.bits .f32 = 32 ∨ (Rect.block (s := S100352x64) S1024x64.size (cc1_transform_3 i) (hinb1_3 i)).WholeWords (EltTy.packing .f32)
  hrank2 : 0 < grid2.rank
  k2_off1_inb : ∀ i : grid2.Coords, ∀ a, (k2_off1 i) a + S1x64x64.size a ≤ S3x64x64.size a
  k2_off2_inb : ∀ i : grid2.Coords, ∀ a, (k2_off2 i) a + S1x64.size a ≤ S3x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x64.size a ≤ S3x100352x64.size a
  hwx2_0 : ∀ i : grid2.Coords, EltTy.bits .f32 = 32 ∨ (Rect.block (s := S3x100352x64) S1x1024x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x64x64.size a ≤ S3x64x64.size a
  hwx2_1 : ∀ i : grid2.Coords, EltTy.bits .f32 = 32 ∨ (Rect.block (s := S3x64x64) S3x64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x64.size a ≤ S3x64.size a
  hwx2_2 : ∀ i : grid2.Coords, EltTy.bits .f32 = 32 ∨ (Rect.block (s := S3x64) S3x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S100352x64.size a
  hwx2_3 : ∀ i : grid2.Coords, EltTy.bits .f32 = 32 ∨ (Rect.block (s := S100352x64) S1024x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S1007616x64.size a
  hwx3_0 : ∀ i : grid3.Coords, EltTy.bits .f32 = 32 ∨ (Rect.block (s := S1007616x64) S8192x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S1007616x64.size a
  hwx3_1 : ∀ i : grid3.Coords, EltTy.bits .f32 = 32 ∨ (Rect.block (s := S1007616x64) S8192x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192.size a ≤ S1007616.size a
  hwx3_2 : ∀ i : grid3.Coords, EltTy.bits .f32 = 32 ∨ (Rect.block (s := S1007616) S8192.size (cc3_transform_2 i) (hinb3_2 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100352x64_S1000000x1_S1000000x64_1_0_n_n_0_1_164 : GatherDims S100352x64 S1000000x1 S1000000x64 where
  offsetDims := [1]
  collapsedSliceDims := [0]
  operandBatchingDims := []
  startIndicesBatchingDims := []
  startIndexMap := [0]
  indexVectorDim := 1
  sliceSizes := ![1, 64]
  wf := gather_S100352x64_S1000000x1_S1000000x64_1_0_n_n_0_1_164_wf
def scatter_S100352x64_S1000000x1_S1000000x64_1_0_0_1 : ScatterDims S100352x64 S1000000x1 S1000000x64 where
  updateWindowDims := [1]
  insertedWindowDims := [0]
  scatterDimsToOperandDims := [0]
  indexVectorDim := 1
  wf := scatter_S100352x64_S1000000x1_S1000000x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

abbrev win0_0 : Pipeline.Window sig grid0 :=
  Pipeline.Window.ofSpec (Memref.whole main_v83) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v84) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v142) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S3x64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S3x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v143) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v201) S1x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S3x64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S3x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v202) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v208) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v209) S8192x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v210) S8192.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S3x64x64 : Shape := ⟨3, ![3, 64, 64]⟩
abbrev S3x64 : Shape := ⟨2, ![3, 64]⟩
abbrev S3x1000000 : Shape := ⟨2, ![3, 1000000]⟩
abbrev S500000 : Shape := ⟨1, ![500000]⟩
abbrev S_ : Shape := ⟨0, ![]⟩
abbrev S1000000 : Shape := ⟨1, ![1000000]⟩
abbrev S1x1000000 : Shape := ⟨2, ![1, 1000000]⟩
abbrev S100000 : Shape := ⟨1, ![100000]⟩
abbrev S1000000x1 : Shape := ⟨2, ![1000000, 1]⟩
abbrev S1x100000 : Shape := ⟨2, ![1, 100000]⟩
abbrev S3x100000 : Shape := ⟨2, ![3, 100000]⟩
abbrev S1000000x64 : Shape := ⟨2, ![1000000, 64]⟩
abbrev S100000x1 : Shape := ⟨2, ![100000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S500000x1 : Shape := ⟨2, ![500000, 1]⟩
abbrev S500000x64 : Shape := ⟨2, ![500000, 64]⟩

abbrev nBuf : Space → Nat
  | .hbm => 394
  | .vmem => 0
  | .smem => 0
  | _ => 0

abbrev hbmTy0_0 (i : Nat) : BufTy := match i % 128 with
  | 0 => ⟨S100000x64, .f32⟩
  | 1 => ⟨S3x64x64, .f32⟩
  | 2 => ⟨S3x64, .f32⟩
  | 3 => ⟨S3x64x64, .f32⟩
  | 4 => ⟨S3x64, .f32⟩
  | 5 => ⟨S3x64x64, .f32⟩
  | 6 => ⟨S3x64, .f32⟩
  | 7 => ⟨S3x1000000, .i32⟩
  | 8 => ⟨S3x1000000, .i32⟩
  | 9 => ⟨S500000, .i32⟩
  | 10 => ⟨S500000, .i32⟩
  | 11 => ⟨S500000, .i32⟩
  | 12 => ⟨S500000, .i32⟩
  | 13 => ⟨S_, .f32⟩
  | 14 => ⟨S1000000, .f32⟩
  | 15 => ⟨S1x1000000, .i32⟩
  | 16 => ⟨S1000000, .i32⟩
  | 17 => ⟨S_, .f32⟩
  | 18 => ⟨S100000, .f32⟩
  | 19 => ⟨S1000000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S1x1000000, .i32⟩
  | 29 => ⟨S1000000, .i32⟩
  | 30 => ⟨S_, .f32⟩
  | 31 => ⟨S100000, .f32⟩
  | 32 => ⟨S1000000x1, .i32⟩
  | 33 => ⟨S100000, .f32⟩
  | 34 => ⟨S_, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .f32⟩
  | 41 => ⟨S1x1000000, .i32⟩
  | 42 => ⟨S1000000, .i32⟩
  | 43 => ⟨S_, .f32⟩
  | 44 => ⟨S100000, .f32⟩
  | 45 => ⟨S1000000x1, .i32⟩
  | 46 => ⟨S100000, .f32⟩
  | 47 => ⟨S_, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .f32⟩
  | 54 => ⟨S1x100000, .f32⟩
  | 55 => ⟨S1x100000, .f32⟩
  | 56 => ⟨S1x100000, .f32⟩
  | 57 => ⟨S3x100000, .f32⟩
  | 58 => ⟨S_, .f32⟩
  | 59 => ⟨S100000x64, .f32⟩
  | 60 => ⟨S1x1000000, .i32⟩
  | 61 => ⟨S1000000, .i32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x64, .f32⟩
  | 71 => ⟨S1x1000000, .i32⟩
  | 72 => ⟨S1000000, .i32⟩
  | 73 => ⟨S_, .f32⟩
  | 74 => ⟨S100000x64, .f32⟩
  | 75 => ⟨S1000000x1, .i32⟩
  | 76 => ⟨S100000x64, .f32⟩
  | 77 => ⟨S1x100000, .f32⟩
  | 78 => ⟨S100000, .f32⟩
  | 79 => ⟨S100000x1, .f32⟩
  | 80 => ⟨S100000x64, .f32⟩
  | 81 => ⟨S100000x64, .f32⟩
  | 82 => ⟨S1x64x64, .f32⟩
  | 83 => ⟨S64x64, .f32⟩
  | 84 => ⟨S100000x64, .f32⟩
  | 85 => ⟨S100000x64, .f32⟩
  | 86 => ⟨S1x64, .f32⟩
  | 87 => ⟨S64, .f32⟩
  | 88 => ⟨S1x64, .f32⟩
  | 89 => ⟨S100000x64, .f32⟩
  | 90 => ⟨S100000x64, .f32⟩
  | 91 => ⟨S1x1000000, .i32⟩
  | 92 => ⟨S1000000, .i32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000x64, .f32⟩
  | 102 => ⟨S1x1000000, .i32⟩
  | 103 => ⟨S1000000, .i32⟩
  | 104 => ⟨S_, .f32⟩
  | 105 => ⟨S100000x64, .f32⟩
  | 106 => ⟨S1000000x1, .i32⟩
  | 107 => ⟨S100000x64, .f32⟩
  | 108 => ⟨S1x100000, .f32⟩
  | 109 => ⟨S100000, .f32⟩
  | 110 => ⟨S100000x1, .f32⟩
  | 111 => ⟨S100000x64, .f32⟩
  | 112 => ⟨S100000x64, .f32⟩
  | 113 => ⟨S1x64x64, .f32⟩
  | 114 => ⟨S64x64, .f32⟩
  | 115 => ⟨S100000x64, .f32⟩
  | 116 => ⟨S100000x64, .f32⟩
  | 117 => ⟨S1x64, .f32⟩
  | 118 => ⟨S64, .f32⟩
  | 119 => ⟨S1x64, .f32⟩
  | 120 => ⟨S100000x64, .f32⟩
  | 121 => ⟨S100000x64, .f32⟩
  | 122 => ⟨S1x1000000, .i32⟩
  | 123 => ⟨S1000000, .i32⟩
  | 124 => ⟨S_, .i32⟩
  | 125 => ⟨S1000000, .i32⟩
  | 126 => ⟨S1000000, .i1⟩
  | 127 => ⟨S_, .i32⟩
  | _ => ⟨S100000x64, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000x64, .f32⟩
  | 5 => ⟨S1x1000000, .i32⟩
  | 6 => ⟨S1000000, .i32⟩
  | 7 => ⟨S_, .f32⟩
  | 8 => ⟨S100000x64, .f32⟩
  | 9 => ⟨S1000000x1, .i32⟩
  | 10 => ⟨S100000x64, .f32⟩
  | 11 => ⟨S1x100000, .f32⟩
  | 12 => ⟨S100000, .f32⟩
  | 13 => ⟨S100000x1, .f32⟩
  | 14 => ⟨S100000x64, .f32⟩
  | 15 => ⟨S100000x64, .f32⟩
  | 16 => ⟨S1x64x64, .f32⟩
  | 17 => ⟨S64x64, .f32⟩
  | 18 => ⟨S100000x64, .f32⟩
  | 19 => ⟨S100000x64, .f32⟩
  | 20 => ⟨S1x64, .f32⟩
  | 21 => ⟨S64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S_, .f32⟩
  | 29 => ⟨S100000x64, .f32⟩
  | 30 => ⟨S1x1000000, .i32⟩
  | 31 => ⟨S1000000, .i32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x64, .f32⟩
  | 41 => ⟨S1x1000000, .i32⟩
  | 42 => ⟨S1000000, .i32⟩
  | 43 => ⟨S_, .f32⟩
  | 44 => ⟨S100000x64, .f32⟩
  | 45 => ⟨S1000000x1, .i32⟩
  | 46 => ⟨S100000x64, .f32⟩
  | 47 => ⟨S1x100000, .f32⟩
  | 48 => ⟨S100000, .f32⟩
  | 49 => ⟨S100000x1, .f32⟩
  | 50 => ⟨S100000x64, .f32⟩
  | 51 => ⟨S100000x64, .f32⟩
  | 52 => ⟨S1x64x64, .f32⟩
  | 53 => ⟨S64x64, .f32⟩
  | 54 => ⟨S100000x64, .f32⟩
  | 55 => ⟨S100000x64, .f32⟩
  | 56 => ⟨S1x64, .f32⟩
  | 57 => ⟨S64, .f32⟩
  | 58 => ⟨S1x64, .f32⟩
  | 59 => ⟨S100000x64, .f32⟩
  | 60 => ⟨S100000x64, .f32⟩
  | 61 => ⟨S1x1000000, .i32⟩
  | 62 => ⟨S1000000, .i32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S1000000x64, .f32⟩
  | 72 => ⟨S1x1000000, .i32⟩
  | 73 => ⟨S1000000, .i32⟩
  | 74 => ⟨S_, .f32⟩
  | 75 => ⟨S100000x64, .f32⟩
  | 76 => ⟨S1000000x1, .i32⟩
  | 77 => ⟨S100000x64, .f32⟩
  | 78 => ⟨S1x100000, .f32⟩
  | 79 => ⟨S100000, .f32⟩
  | 80 => ⟨S100000x1, .f32⟩
  | 81 => ⟨S100000x64, .f32⟩
  | 82 => ⟨S100000x64, .f32⟩
  | 83 => ⟨S1x64x64, .f32⟩
  | 84 => ⟨S64x64, .f32⟩
  | 85 => ⟨S100000x64, .f32⟩
  | 86 => ⟨S100000x64, .f32⟩
  | 87 => ⟨S1x64, .f32⟩
  | 88 => ⟨S64, .f32⟩
  | 89 => ⟨S1x64, .f32⟩
  | 90 => ⟨S100000x64, .f32⟩
  | 91 => ⟨S100000x64, .f32⟩
  | 92 => ⟨S1x1000000, .i32⟩
  | 93 => ⟨S1000000, .i32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S1000000x1, .i32⟩
  | 102 => ⟨S1000000x64, .f32⟩
  | 103 => ⟨S1x1000000, .i32⟩
  | 104 => ⟨S1000000, .i32⟩
  | 105 => ⟨S_, .f32⟩
  | 106 => ⟨S100000x64, .f32⟩
  | 107 => ⟨S1000000x1, .i32⟩
  | 108 => ⟨S100000x64, .f32⟩
  | 109 => ⟨S1x100000, .f32⟩
  | 110 => ⟨S100000, .f32⟩
  | 111 => ⟨S100000x1, .f32⟩
  | 112 => ⟨S100000x64, .f32⟩
  | 113 => ⟨S100000x64, .f32⟩
  | 114 => ⟨S1x64x64, .f32⟩
  | 115 => ⟨S64x64, .f32⟩
  | 116 => ⟨S100000x64, .f32⟩
  | 117 => ⟨S100000x64, .f32⟩
  | 118 => ⟨S1x64, .f32⟩
  | 119 => ⟨S64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S_, .f32⟩
  | 127 => ⟨S100000x64, .f32⟩
  | _ => ⟨S100000x64, .f32⟩

abbrev hbmTy0_2 (i : Nat) : BufTy := match i % 128 with
  | 0 => ⟨S1x1000000, .i32⟩
  | 1 => ⟨S1000000, .i32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1000000x64, .f32⟩
  | 11 => ⟨S1x1000000, .i32⟩
  | 12 => ⟨S1000000, .i32⟩
  | 13 => ⟨S_, .f32⟩
  | 14 => ⟨S100000x64, .f32⟩
  | 15 => ⟨S1000000x1, .i32⟩
  | 16 => ⟨S100000x64, .f32⟩
  | 17 => ⟨S1x100000, .f32⟩
  | 18 => ⟨S100000, .f32⟩
  | 19 => ⟨S100000x1, .f32⟩
  | 20 => ⟨S100000x64, .f32⟩
  | 21 => ⟨S100000x64, .f32⟩
  | 22 => ⟨S1x64x64, .f32⟩
  | 23 => ⟨S64x64, .f32⟩
  | 24 => ⟨S100000x64, .f32⟩
  | 25 => ⟨S100000x64, .f32⟩
  | 26 => ⟨S1x64, .f32⟩
  | 27 => ⟨S64, .f32⟩
  | 28 => ⟨S1x64, .f32⟩
  | 29 => ⟨S100000x64, .f32⟩
  | 30 => ⟨S100000x64, .f32⟩
  | 31 => ⟨S1x1000000, .i32⟩
  | 32 => ⟨S1000000, .i32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000x64, .f32⟩
  | 42 => ⟨S1x1000000, .i32⟩
  | 43 => ⟨S1000000, .i32⟩
  | 44 => ⟨S_, .f32⟩
  | 45 => ⟨S100000x64, .f32⟩
  | 46 => ⟨S1000000x1, .i32⟩
  | 47 => ⟨S100000x64, .f32⟩
  | 48 => ⟨S1x100000, .f32⟩
  | 49 => ⟨S100000, .f32⟩
  | 50 => ⟨S100000x1, .f32⟩
  | 51 => ⟨S100000x64, .f32⟩
  | 52 => ⟨S100000x64, .f32⟩
  | 53 => ⟨S1x64x64, .f32⟩
  | 54 => ⟨S64x64, .f32⟩
  | 55 => ⟨S100000x64, .f32⟩
  | 56 => ⟨S100000x64, .f32⟩
  | 57 => ⟨S1x64, .f32⟩
  | 58 => ⟨S64, .f32⟩
  | 59 => ⟨S1x64, .f32⟩
  | 60 => ⟨S100000x64, .f32⟩
  | 61 => ⟨S100000x64, .f32⟩
  | 62 => ⟨S1x1000000, .i32⟩
  | 63 => ⟨S1000000, .i32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x64, .f32⟩
  | 73 => ⟨S1x1000000, .i32⟩
  | 74 => ⟨S1000000, .i32⟩
  | 75 => ⟨S_, .f32⟩
  | 76 => ⟨S100000x64, .f32⟩
  | 77 => ⟨S1000000x1, .i32⟩
  | 78 => ⟨S100000x64, .f32⟩
  | 79 => ⟨S1x100000, .f32⟩
  | 80 => ⟨S100000, .f32⟩
  | 81 => ⟨S100000x1, .f32⟩
  | 82 => ⟨S100000x64, .f32⟩
  | 83 => ⟨S100000x64, .f32⟩
  | 84 => ⟨S1x64x64, .f32⟩
  | 85 => ⟨S64x64, .f32⟩
  | 86 => ⟨S100000x64, .f32⟩
  | 87 => ⟨S100000x64, .f32⟩
  | 88 => ⟨S1x64, .f32⟩
  | 89 => ⟨S64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000x64, .f32⟩
  | 105 => ⟨S_, .i32⟩
  | 106 => ⟨S500000, .i32⟩
  | 107 => ⟨S500000, .i1⟩
  | 108 => ⟨S_, .i32⟩
  | 109 => ⟨S500000, .i32⟩
  | 110 => ⟨S500000, .i32⟩
  | 111 => ⟨S500000, .i32⟩
  | 112 => ⟨S500000x1, .i32⟩
  | 113 => ⟨S500000x64, .f32⟩
  | 114 => ⟨S500000x64, .f32⟩
  | 115 => ⟨S_, .f32⟩
  | 116 => ⟨S500000, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x64, .f32⟩
  | 126 => ⟨S_, .i32⟩
  | 127 => ⟨S500000, .i32⟩
  | _ => ⟨S100000x64, .f32⟩

abbrev hbmTy0_3 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x64, .f32⟩
  | 7 => ⟨S500000x64, .f32⟩
  | 8 => ⟨S_, .f32⟩
  | 9 => ⟨S500000, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v14 : Ref sig .tc := ⟨.hbm, 37, rfl⟩
abbrev main_cst_5 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_7 : Ref sig .tc := ⟨.hbm, 47, rfl⟩
abbrev main_call2_v0 : Ref sig .tc := ⟨.hbm, 48, rfl⟩
abbrev main_call2_v1 : Ref sig .tc := ⟨.hbm, 49, rfl⟩
abbrev main_v22 : Ref sig .tc := ⟨.hbm, 50, rfl⟩
abbrev main_cst_8 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_9 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c : Ref sig .tc := ⟨.hbm, 62, rfl⟩
abbrev main_v32 : Ref sig .tc := ⟨.hbm, 63, rfl⟩
abbrev main_v33 : Ref sig .tc := ⟨.hbm, 64, rfl⟩
abbrev main_c_10 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_11 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_12 : Ref sig .tc := ⟨.hbm, 93, rfl⟩
abbrev main_v60 : Ref sig .tc := ⟨.hbm, 94, rfl⟩
abbrev main_v61 : Ref sig .tc := ⟨.hbm, 95, rfl⟩
abbrev main_c_13 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_15 : Ref sig .tc := ⟨.hbm, 124, rfl⟩
abbrev main_v88 : Ref sig .tc := ⟨.hbm, 125, rfl⟩
abbrev main_v89 : Ref sig .tc := ⟨.hbm, 126, rfl⟩
abbrev main_c_16 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_17 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_call3_cst : Ref sig .tc := ⟨.hbm, 153, rfl⟩
abbrev main_call3_v0 : Ref sig .tc := ⟨.hbm, 154, rfl⟩
abbrev main_v114 : Ref sig .tc := ⟨.hbm, 155, rfl⟩
abbrev main_cst_18 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_19 : Ref sig .tc := ⟨.hbm, 160, rfl⟩
abbrev main_v118 : Ref sig .tc := ⟨.hbm, 161, rfl⟩
abbrev main_v119 : Ref sig .tc := ⟨.hbm, 162, rfl⟩
abbrev main_c_20 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_21 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_c_22 : Ref sig .tc := ⟨.hbm, 191, rfl⟩
abbrev main_v146 : Ref sig .tc := ⟨.hbm, 192, rfl⟩
abbrev main_v147 : Ref sig .tc := ⟨.hbm, 193, rfl⟩
abbrev main_c_23 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_24 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_c_25 : Ref sig .tc := ⟨.hbm, 222, rfl⟩
abbrev main_v174 : Ref sig .tc := ⟨.hbm, 223, rfl⟩
abbrev main_v175 : Ref sig .tc := ⟨.hbm, 224, rfl⟩
abbrev main_c_26 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_cst_27 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_call4_cst : Ref sig .tc := ⟨.hbm, 251, rfl⟩
abbrev main_call4_v0 : Ref sig .tc := ⟨.hbm, 252, rfl⟩
abbrev main_v200 : Ref sig .tc := ⟨.hbm, 253, rfl⟩
abbrev main_cst_28 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_c_29 : Ref sig .tc := ⟨.hbm, 258, rfl⟩
abbrev main_v204 : Ref sig .tc := ⟨.hbm, 259, rfl⟩
abbrev main_v205 : Ref sig .tc := ⟨.hbm, 260, rfl⟩
abbrev main_c_30 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_cst_31 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_c_32 : Ref sig .tc := ⟨.hbm, 289, rfl⟩
abbrev main_v232 : Ref sig .tc := ⟨.hbm, 290, rfl⟩
abbrev main_v233 : Ref sig .tc := ⟨.hbm, 291, rfl⟩
abbrev main_c_33 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_cst_34 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_c_35 : Ref sig .tc := ⟨.hbm, 320, rfl⟩
abbrev main_v260 : Ref sig .tc := ⟨.hbm, 321, rfl⟩
abbrev main_v261 : Ref sig .tc := ⟨.hbm, 322, rfl⟩
abbrev main_c_36 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_cst_37 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_call5_cst : Ref sig .tc := ⟨.hbm, 349, rfl⟩
abbrev main_call5_v0 : Ref sig .tc := ⟨.hbm, 350, rfl⟩
abbrev main_v286 : Ref sig .tc := ⟨.hbm, 351, rfl⟩
abbrev main_c_38 : Ref sig .tc := ⟨.hbm, 352, rfl⟩
abbrev main_v287 : Ref sig .tc := ⟨.hbm, 353, rfl⟩
abbrev main_v288 : Ref sig .tc := ⟨.hbm, 354, rfl⟩
abbrev main_c_39 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_c_40 : Ref sig .tc := ⟨.hbm, 361, rfl⟩
abbrev main_v294 : Ref sig .tc := ⟨.hbm, 362, rfl⟩
abbrev main_v295 : Ref sig .tc := ⟨.hbm, 363, rfl⟩
abbrev main_c_41 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_cst_42 : Ref sig .tc := ⟨.hbm, 371, rfl⟩
abbrev main_v302 : Ref sig .tc := ⟨.hbm, 372, rfl⟩
abbrev main_c_43 : Ref sig .tc := ⟨.hbm, 373, rfl⟩
abbrev main_v303 : Ref sig .tc := ⟨.hbm, 374, rfl⟩
abbrev main_v304 : Ref sig .tc := ⟨.hbm, 375, rfl⟩
abbrev main_c_44 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_v308 : Ref sig .tc := ⟨.hbm, 380, rfl⟩
abbrev main_v309 : Ref sig .tc := ⟨.hbm, 381, rfl⟩
abbrev main_c_45 : Ref sig .tc := ⟨.hbm, 382, rfl⟩
abbrev main_v310 : Ref sig .tc := ⟨.hbm, 383, rfl⟩
abbrev main_v311 : Ref sig .tc := ⟨.hbm, 384, rfl⟩
abbrev main_c_46 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_cst_47 : Ref sig .tc := ⟨.hbm, 392, rfl⟩
abbrev main_v318 : Ref sig .tc := ⟨.hbm, 393, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  slices_S3x1000000_S1x1000000_0_0 : S3x1000000.Slices ![0, 0] S1x1000000
  shapeCasts_S1x1000000_S1000000 : S1x1000000.ShapeCasts S1000000
  bcast_S_S100000 : S_.BroadcastsInDim S100000 (![] : Fin 0 → Fin S100000.rank)
  bcast_S1000000_S1000000x1_0 : S1000000.BroadcastsInDim S1000000x1 (![0] : Fin 1 → Fin S1000000x1.rank)
  slices_S3x1000000_S1x1000000_1_0 : S3x1000000.Slices ![1, 0] S1x1000000
  slices_S3x1000000_S1x1000000_2_0 : S3x1000000.Slices ![2, 0] S1x1000000
  bcast_S100000_S1x100000_1 : S100000.BroadcastsInDim S1x100000 (![1] : Fin 1 → Fin S1x100000.rank)
  concatenates_S1x100000_S1x100000_S1x100000_S3x100000_d0 : Shape.Concatenates [S1x100000, S1x100000, S1x100000] S3x100000 0
  bcast_S_S100000x64 : S_.BroadcastsInDim S100000x64 (![] : Fin 0 → Fin S100000x64.rank)
  slices_S3x100000_S1x100000_0_0 : S3x100000.Slices ![0, 0] S1x100000
  shapeCasts_S1x100000_S100000 : S1x100000.ShapeCasts S100000
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x100000_S1x100000_1_0 : S3x100000.Slices ![1, 0] S1x100000
  slices_S3x64x64_S1x64x64_1_0_0 : S3x64x64.Slices ![1, 0, 0] S1x64x64
  slices_S3x64_S1x64_1_0 : S3x64.Slices ![1, 0] S1x64
  slices_S3x100000_S1x100000_2_0 : S3x100000.Slices ![2, 0] S1x100000
  slices_S3x64x64_S1x64x64_2_0_0 : S3x64x64.Slices ![2, 0, 0] S1x64x64
  slices_S3x64_S1x64_2_0 : S3x64.Slices ![2, 0] S1x64
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  h_S_ : 0 < S_.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

class Facts : Prop extends Facts₀ where

variable [Facts]
-- ==== Proof.KI.Conv0.lean ====
import proofs.«400914_j13511967113603_4_alg».proof.Proof.Gen.KernelIdeal.Launch
import proofs.«400914_j13511967113603_4_alg».proof.Proof.Gen.KernelIdeal.Skeleton
import proofs.«400914_j13511967113603_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! A convolution call as a pipeline region, at a parameter `V` (the TensorCore's buffer contents when the
    region is entered): each window's block at a grid point, the accumulator the kernel carries in its scratch
    buffer from point to point, the pipeline's proof data and its body obligation.

    The grid is 98 × 3, point `t` at coordinates `(t / 3, t % 3)`. At the second coordinate `r` the body adds
    `m ⬝ W[r] + b[r]` to the accumulator, which it zeroes first when `r = 0`; when `r = 2` it stores
    `max(accumulator, 0)` into the output block, which is written back there and idle at `r = 0, 1`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight slice the body loads at point `t`: row `r` of the weight window (the whole `[3, 64, 64]` array). -/
def wOf0 (c : Dev nD) (t : Fin cfg0.N) : Vec F S1x64x64 .f32 :=
  View.ld (iblk0 V c 1 t) (Rect.unit (s := S3x64x64) (k0_off1 (grid0.coords t)) S1x64x64.size (k0_off1_inb (grid0.coords t)))

/-- The bias row the body loads at point `t`: row `r` of the bias window (the whole `[3, 64]` array). -/
def bOf0 (c : Dev nD) (t : Fin cfg0.N) : Vec F S1x64 .f32 :=
  View.ld (iblk0 V c 2 t) (Rect.unit (s := S3x64) (k0_off2 (grid0.coords t)) S1x64.size (k0_off2_inb (grid0.coords t)))

/-! ## The accumulator -/

/-- What the scratch accumulator holds after the body at position `n`: the point's term `m ⬝ W[r] + b[r]` added to
    zero at the first point of a run of three (`n % 3 = 0`), to what the point before left otherwise. -/
def accAt0 (c : Dev nD) : (n : ℕ) → n < cfg0.N → Vec F S1024x64 .f32
  | 0, hn => k0_pay2 (wOf0 V c ⟨0, hn⟩) (iblk0 V c 0 ⟨0, hn⟩) (bOf0 V c ⟨0, hn⟩) (k0_pay1 (F := F))
  | n + 1, hn =>
    if (n + 1) % 3 = 0 then
      k0_pay2 (wOf0 V c ⟨n + 1, hn⟩) (iblk0 V c 0 ⟨n + 1, hn⟩) (bOf0 V c ⟨n + 1, hn⟩) (k0_pay1 (F := F))
    else
      k0_pay2 (wOf0 V c ⟨n + 1, hn⟩) (iblk0 V c 0 ⟨n + 1, hn⟩) (bOf0 V c ⟨n + 1, hn⟩) (accAt0 c n (Nat.lt_of_succ_lt hn))

/-- At the first point of a run the accumulator starts from zero. -/
theorem accAt0_first (c : Dev nD) (t : Fin cfg0.N) (h : t.val % 3 = 0) :
    accAt0 V c t.val t.isLt = k0_pay2 (wOf0 V c t) (iblk0 V c 0 t) (bOf0 V c t) (k0_pay1 (F := F)) := by
  obtain ⟨n, hn⟩ := t
  cases n with
  | zero => rfl
  | succ n => exact (if_pos h).trans rfl

/-- At the other points it adds to what the point before left. -/
theorem accAt0_next (c : Dev nD) (t : Fin cfg0.N) (h : t.val % 3 ≠ 0) :
    accAt0 V c t.val t.isLt = k0_pay2 (wOf0 V c t) (iblk0 V c 0 t) (bOf0 V c t)
      (accAt0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch accumulator as a memref: a whole scoped buffer of the kernel's own. -/
abbrev scM0 : Memref sig .tc .vmem S1024x64 .f32 := Memref.whole cc0_scratch0

/-- The core's scoped buffers other than this call's staging buffers and its scratch, each at some contents. -/
abbrev rest0 (c : Dev nD) : sProp 𝕄 :=
  Pipeline.scopedRestBut (Ix := Unit) (Name := ℕ) (U := UR sig nD τ) (Lvl := ℕ) (Val := Elt F) spec0 c [cc0_scratch0]

/-- The invariant before position `n`: before the first point what the launch hands the region (every scoped buffer
    at anything); afterwards the scratch at what the point before left in it, the other scoped buffers at anything,
    and the generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ rest0 c) ∗ (∃ r, prngReg c r)) := by
  cases n with
  | zero => exact absurd rfl hz
  | succ n => rfl

/-- What the launch hands the region, with the scratch split off the other scoped buffers. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole, Idealize.SL.BI.bigSepL_singleton]; try rfl

/-! ## The body's branch conditions, in closed form -/

/-- The condition of the body's first conditional (the accumulator's reset), from the grid coordinates. -/
abbrev condA0 (i : grid0.Coords) : Prop := (Scalar.cmpi .ne (Scalar.extui (Scalar.cmpi .eq (BitVec.ofNat 32 (i 1).val) 0#32)) 0#32) = 1#1
/-- It holds at the points ≡ 0 (mod 3). -/
theorem hcondA0 : ∀ t : Fin cfg0.N, condA0 (grid0.coords t) ↔ t.val % 3 = 0 :=
  (by decide +kernel : ∀ t : Fin grid0.N, condA0 (grid0.coords t) ↔ t.val % 3 = 0)

/-- The condition of the body's second conditional (the output's store). -/
abbrev condB0 (i : grid0.Coords) : Prop := k0_cond2 i = 1#1
/-- It holds at the points ≡ 2 (mod 3). -/
theorem hcondB0 : ∀ t : Fin cfg0.N, condB0 (grid0.coords t) ↔ t.val % 3 = 2 :=
  (by decide +kernel : ∀ t : Fin grid0.N, condB0 (grid0.coords t) ↔ t.val % 3 = 2)

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Where the output is not stored it is idle and not written back; where it is stored it is live. -/
theorem idleAt0_3 : ∀ t : Fin cfg0.N, ¬condB0 (grid0.coords t) → cfg0.idle 3 (grid0.coords t) = true := by decide +kernel
theorem noFlush0_3 : ∀ t : Fin cfg0.N, ¬condB0 (grid0.coords t) → (cfg0.win 3).flush t = false := by decide +kernel
theorem liveAt0_3 : ∀ t : Fin cfg0.N, condB0 (grid0.coords t) → cfg0.idle 3 (grid0.coords t) = false := by decide +kernel

/-! ## The body's triples, one per case of its conditionals -/

theorem zoff0_2 : (![0, 0] : Fin 2 → ℕ) = fun _ => 0 := by funext a; fin_cases a <;> rfl
theorem zoff0_3 : (![0, 0, 0] : Fin 3 → ℕ) = fun _ => 0 := by funext a; fin_cases a <;> rfl

/-- The weight slice and the bias row the body loads, through the offsets the program computes from the point. -/
abbrev rW0 (i : grid0.Coords) : Rect S3x64x64 := Rect.unit (s := S3x64x64) (k0_off1 i) S1x64x64.size (k0_off1_inb i)
abbrev rB0 (i : grid0.Coords) : Rect S3x64 := Rect.unit (s := S3x64) (k0_off2 i) S1x64.size (k0_off2_inb i)

set_option maxHeartbeats 1000000 in
/-- At the first point of a run (the reset taken, the output not stored): on whole memrefs, the inputs' at their
    contents and the scratch at anything, the body runs to the continuation holding the inputs' as they were and the
    scratch at the point's term added to zero. The output's memref is not touched. -/
theorem run0_A (c : Dev nD) (E : Set ℕ) (i : grid0.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : condA0 i) (hcB : ¬condB0 i)
    (xm : Vec F S1x1024x64 .f32) (xw : Vec F S3x64x64 .f32) (xb : Vec F S3x64 .f32) (K : PUnit → sProp 𝕄) :
    iprop(owns (c : Thread nD τ) arg2 fullShare xm ∗ owns (c : Thread nD τ) arg3 fullShare xw ∗ owns (c : Thread nD τ) arg4 fullShare xb
        ∗ (∃ d, owns (c : Thread nD τ) arg6 fullShare d)
        ∗ (iprop(owns (c : Thread nD τ) arg2 fullShare xm ∗ owns (c : Thread nD τ) arg3 fullShare xw ∗ owns (c : Thread nD τ) arg4 fullShare xb
            ∗ owns (c : Thread nD τ) arg6 fullShare (k0_pay2 (View.ld xw (rW0 i)) xm (View.ld xb (rB0 i)) (k0_pay1 (F := F)))) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%fm, %hfm, Hm⟩, ⟨%fw, %hfw, Hw⟩, ⟨%fb, %hfb, Hb⟩, ⟨%ds, %fs, -, Hs⟩, Hk⟩
  subst hfm; subst hfw; subst hfb
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  iexists _; isplitr
  swap; · iexact Hs
  ipureintro
  rw [View.read_writes_eq_canon _ _ _ (fun y => ⟨_, List.mem_cons_self, View.mem_set_unit_zero zoff0_2 inb_S1024x64_S1024x64_0_0 y⟩),
    View.canon_cons_unit_zero zoff0_2]
  sl_unfold_run_names
  rw [View.readCov_unit_zero _ zoff0_2,
    show View.readAt (Elt F) arg2.view (Rect.unit ![0, 0, 0] S1x1024x64.size inb_S1x1024x64_S1x1024x64_0_0_0).toLoadRect fm
        = View.read (Elt F) arg2.view fm from View.ld_unit_zero zoff0_3 _ _]
  rfl

set_option maxHeartbeats 1000000 in
/-- At the middle point of a run (no reset, the output not stored): the scratch at the contents `xs` the point before
    left, the body runs to the continuation holding the inputs' as they were and the scratch at the point's term added
    to `xs`. The output's memref is not touched. -/
theorem run0_B (c : Dev nD) (E : Set ℕ) (i : grid0.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : ¬condA0 i) (hcB : ¬condB0 i)
    (xm : Vec F S1x1024x64 .f32) (xw : Vec F S3x64x64 .f32) (xb : Vec F S3x64 .f32) (xs : Vec F S1024x64 .f32) (K : PUnit → sProp 𝕄) :
    iprop(owns (c : Thread nD τ) arg2 fullShare xm ∗ owns (c : Thread nD τ) arg3 fullShare xw ∗ owns (c : Thread nD τ) arg4 fullShare xb
        ∗ owns (c : Thread nD τ) arg6 fullShare xs
        ∗ (iprop(owns (c : Thread nD τ) arg2 fullShare xm ∗ owns (c : Thread nD τ) arg3 fullShare xw ∗ owns (c : Thread nD τ) arg4 fullShare xb
            ∗ owns (c : Thread nD τ) arg6 fullShare (k0_pay2 (View.ld xw (rW0 i)) xm (View.ld xb (rB0 i)) xs)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%fm, %hfm, Hm⟩, ⟨%fw, %hfw, Hw⟩, ⟨%fb, %hfb, Hb⟩, ⟨%fs, %hfs, Hs⟩, Hk⟩
  subst hfm; subst hfw; subst hfb; subst hfs
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  iexists _; isplitr
  swap; · iexact Hs
  ipureintro
  rw [View.read_writes_eq_canon _ _ _ (fun y => ⟨_, List.mem_cons_self, View.mem_set_unit_zero zoff0_2 inb_S1024x64_S1024x64_0_0 y⟩),
    View.canon_cons_unit_zero zoff0_2]
  sl_unfold_run_names
  rw [show View.readAt (Elt F) arg2.view (Rect.unit ![0, 0, 0] S1x1024x64.size inb_S1x1024x64_S1x1024x64_0_0_0).toLoadRect fm
        = View.read (Elt F) arg2.view fm from View.ld_unit_zero zoff0_3 _ _,
    show View.readAt (Elt F) arg6.view (Rect.unit ![0, 0] S1024x64.size inb_S1024x64_S1024x64_0_0).toLoadRect fs
        = View.read (Elt F) arg6.view fs from View.ld_unit_zero zoff0_2 _ _]
  rfl

set_option maxHeartbeats 1000000 in
/-- At the last point of a run (no reset, the output stored): the scratch at the contents `xs` the point before left
    and the output's memref at anything, the body runs to the continuation holding the inputs' as they were, the
    scratch at the point's term added to `xs` and the output's memref at the maximum of that and zero. -/
theorem run0_C (c : Dev nD) (E : Set ℕ) (i : grid0.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : ¬condA0 i) (hcB : condB0 i)
    (xm : Vec F S1x1024x64 .f32) (xw : Vec F S3x64x64 .f32) (xb : Vec F S3x64 .f32) (xs : Vec F S1024x64 .f32) (K : PUnit → sProp 𝕄) :
    iprop(owns (c : Thread nD τ) arg2 fullShare xm ∗ owns (c : Thread nD τ) arg3 fullShare xw ∗ owns (c : Thread nD τ) arg4 fullShare xb
        ∗ (∃ d, owns (c : Thread nD τ) arg5 fullShare d) ∗ owns (c : Thread nD τ) arg6 fullShare xs
        ∗ (iprop(owns (c : Thread nD τ) arg2 fullShare xm ∗ owns (c : Thread nD τ) arg3 fullShare xw ∗ owns (c : Thread nD τ) arg4 fullShare xb
            ∗ owns (c : Thread nD τ) arg5 fullShare (k0_pay3 (k0_pay2 (View.ld xw (rW0 i)) xm (View.ld xb (rB0 i)) xs))
            ∗ owns (c : Thread nD τ) arg6 fullShare (k0_pay2 (View.ld xw (rW0 i)) xm (View.ld xb (rB0 i)) xs)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%fm, %hfm, Hm⟩, ⟨%fw, %hfw, Hw⟩, ⟨%fb, %hfb, Hb⟩, ⟨%dq, %fq, -, Ho⟩, ⟨%fs, %hfs, Hs⟩, Hk⟩
  subst hfm; subst hfw; subst hfb; subst hfs
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  isplitl [Ho]
  · iexists _; isplitr
    swap; · iexact Ho
    ipureintro
    sl_unfold_run_names
    rw [View.read_writes_eq_canon _ _ _ (fun y => ⟨_, List.mem_cons_self, View.mem_set_unit_zero zoff0_2 inb_S1024x64_S1024x64_0_0 y⟩),
      View.canon_cons_unit_zero zoff0_2, View.readCov_unit_zero _ zoff0_2,
      show View.readAt (Elt F) arg2.view (Rect.unit ![0, 0, 0] S1x1024x64.size inb_S1x1024x64_S1x1024x64_0_0_0).toLoadRect fm
        = View.read (Elt F) arg2.view fm from View.ld_unit_zero zoff0_3 _ _,
      show View.readAt (Elt F) arg6.view (Rect.unit ![0, 0] S1024x64.size inb_S1024x64_S1024x64_0_0).toLoadRect fs
        = View.read (Elt F) arg6.view fs from View.ld_unit_zero zoff0_2 _ _]
    rfl
  iexists _; isplitr
  swap; · iexact Hs
  ipureintro
  sl_unfold_run_names
  rw [View.read_writes_eq_canon _ _ _ (fun y => ⟨_, List.mem_cons_self, View.mem_set_unit_zero zoff0_2 inb_S1024x64_S1024x64_0_0 y⟩),
    View.canon_cons_unit_zero zoff0_2,
    show View.readAt (Elt F) arg2.view (Rect.unit ![0, 0, 0] S1x1024x64.size inb_S1x1024x64_S1x1024x64_0_0_0).toLoadRect fm
        = View.read (Elt F) arg2.view fm from View.ld_unit_zero zoff0_3 _ _,
    show View.readAt (Elt F) arg6.view (Rect.unit ![0, 0] S1024x64.size inb_S1024x64_S1024x64_0_0).toLoadRect fs
        = View.read (Elt F) arg6.view fs from View.ld_unit_zero zoff0_2 _ _]
  rfl

/-! ## The pipeline's proof data -/

/-- The proof data of the call's pipeline on core `c`: the arrays as the region finds them (`V`); after the body at
    point `t` each input's buffer at its block and the output's at `max(accumulator, 0)` (read only where it is
    written back, `t % 3 = 2`); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accAt0 V c t.val t.isLt) := by dsimp only [dat0]

theorem owed0 (c : Dev nD) (t) : (dat0 V c).owed t = 0 := rfl
theorem q0 (c : Dev nD) (w) : (dat0 V c).q w = fullShare := rfl

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the body finds in each input's buffer -/

/-- Each input's current staging buffer holds its block at every point, fetched there or not: unfetched, the block
    index has not moved (the windows are uncut and never idle, and the body leaves them as it found them). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's position in its run of three says which
    case applies; the invariant hands the body the scratch at what the point before left (at anything at a run's first
    point, where the body zeroes it) and takes it back at this point's accumulator; the output's buffer is handed back
    untouched where the body does not store it, and at the maximum of the accumulator and zero where it does. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 294 := lt_of_lt_of_eq t.isLt (show cfg0.N = 294 from N_0)
  by_cases hA : t.val % 3 = 0
  · have hB : ¬t.val % 3 = 2 := by omega
    rw [Dat.leavesExact_idle (dat0 V c) 3 t (idleAt0_3 t (fun h => hB ((hcondB0 t).mp h))) (noFlush0_3 t (fun h => hB ((hcondB0 t).mp h)))]
    rw [accAt0_first V c t hA]
    unfold wOf0 bOf0
    by_cases hz : t.val = 0
    · rw [PhiS0_castSucc V c t, PhiS0_zero V c _ _ hz, PhiA0_eq]
      iintro ⟨⟨⟨Hs, Hr⟩, Hg⟩, Hd, ⟨%dm, Hm⟩, ⟨%dw, Hw⟩, ⟨%db, Hb⟩, Ho⟩
      iapply (run0_A c Set.univ (grid0.coords t) _ _ _ _ _ _ _ _ _ _ ((hcondA0 t).mpr hA) (fun h => hB ((hcondB0 t).mp h)) (iblk0 V c 0 t) (iblk0 V c 1 t) (iblk0 V c 2 t) _)
      isplitl [Hm]; · iexact Hm
      isplitl [Hw]; · iexact Hw
      isplitl [Hb]; · iexact Hb
      isplitl [Hs]; · iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
    · rw [PhiS0_castSucc V c t, PhiS0_pos V c _ _ hz]
      iintro ⟨⟨⟨Hs, Hr⟩, Hg⟩, Hd, ⟨%dm, Hm⟩, ⟨%dw, Hw⟩, ⟨%db, Hb⟩, Ho⟩
      iapply (run0_A c Set.univ (grid0.coords t) _ _ _ _ _ _ _ _ _ _ ((hcondA0 t).mpr hA) (fun h => hB ((hcondB0 t).mp h)) (iblk0 V c 0 t) (iblk0 V c 1 t) (iblk0 V c 2 t) _)
      isplitl [Hm]; · iexact Hm
      isplitl [Hw]; · iexact Hw
      isplitl [Hb]; · iexact Hb
      isplitl [Hs]; · iexists _; iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
  · have hz : t.val ≠ 0 := fun h => hA (by rw [h])
    rw [accAt0_next V c t hA]
    unfold wOf0 bOf0
    rw [PhiS0_castSucc V c t, PhiS0_pos V c _ _ hz]
    by_cases hB : t.val % 3 = 2
    · rw [show (dat0 V c).leavesExact 3 t = owns (c : Thread nD τ) (st0_3 t) fullShare ((dat0 V c).after 3 t) from by
        unfold Dat.leavesExact; rw [liveAt0_3 t ((hcondB0 t).mpr hB)], after0_3]
      rw [accAt0_next V c t hA]
      unfold wOf0 bOf0
      iintro ⟨⟨⟨Hs, Hr⟩, Hg⟩, Hd, ⟨%dm, Hm⟩, ⟨%dw, Hw⟩, ⟨%db, Hb⟩, ⟨%dq, Ho⟩⟩
      iapply (run0_C c Set.univ (grid0.coords t) _ _ _ _ _ _ _ _ _ _ (fun h => hA ((hcondA0 t).mp h)) ((hcondB0 t).mpr hB) (iblk0 V c 0 t) (iblk0 V c 1 t) (iblk0 V c 2 t) _ _)
      isplitl [Hm]; · iexact Hm
      isplitl [Hw]; · iexact Hw
      isplitl [Hb]; · iexact Hb
      isplitl [Ho]; · iexists _; iexact Ho
      isplitl [Hs]; · iexact Hs
      iintro ⟨Hm, Hw, Hb, Ho, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
    · rw [Dat.leavesExact_idle (dat0 V c) 3 t (idleAt0_3 t (fun h => hB ((hcondB0 t).mp h))) (noFlush0_3 t (fun h => hB ((hcondB0 t).mp h)))]
      iintro ⟨⟨⟨Hs, Hr⟩, Hg⟩, Hd, ⟨%dm, Hm⟩, ⟨%dw, Hw⟩, ⟨%db, Hb⟩, Ho⟩
      iapply (run0_B c Set.univ (grid0.coords t) _ _ _ _ _ _ _ _ _ _ (fun h => hA ((hcondA0 t).mp h)) (fun h => hB ((hcondB0 t).mp h)) (iblk0 V c 0 t) (iblk0 V c 1 t) (iblk0 V c 2 t) _ _)
      isplitl [Hm]; · iexact Hm
      isplitl [Hw]; · iexact Hw
      isplitl [Hb]; · iexact Hb
      isplitl [Hs]; · iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the launch handed over: the accumulator's named
    contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨Hs, Hr⟩, Hg⟩
  isplitl [Hs Hr]
  · isplitl [Hs]
    · iexists _; iexact Hs
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 294 := N_0; omega)

end Cert.KernelIdeal.Hand

end
-- ==== Proof.KI.Conv1.lean ====
import proofs.«400914_j13511967113603_4_alg».proof.Proof.Gen.KernelIdeal.Launch
import proofs.«400914_j13511967113603_4_alg».proof.Proof.Gen.KernelIdeal.Skeleton
import proofs.«400914_j13511967113603_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! A convolution call as a pipeline region, at a parameter `V` (the TensorCore's buffer contents when the
    region is entered): each window's block at a grid point, the accumulator the kernel carries in its scratch
    buffer from point to point, the pipeline's proof data and its body obligation.

    The grid is 98 × 3, point `t` at coordinates `(t / 3, t % 3)`. At the second coordinate `r` the body adds
    `m ⬝ W[r] + b[r]` to the accumulator, which it zeroes first when `r = 0`; when `r = 2` it stores
    `max(accumulator, 0)` into the output block, which is written back there and idle at `r = 0, 1`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight slice the body loads at point `t`: row `r` of the weight window (the whole `[3, 64, 64]` array). -/
def wOf1 (c : Dev nD) (t : Fin cfg1.N) : Vec F S1x64x64 .f32 :=
  View.ld (iblk1 V c 1 t) (Rect.unit (s := S3x64x64) (k1_off1 (grid1.coords t)) S1x64x64.size (k1_off1_inb (grid1.coords t)))

/-- The bias row the body loads at point `t`: row `r` of the bias window (the whole `[3, 64]` array). -/
def bOf1 (c : Dev nD) (t : Fin cfg1.N) : Vec F S1x64 .f32 :=
  View.ld (iblk1 V c 2 t) (Rect.unit (s := S3x64) (k1_off2 (grid1.coords t)) S1x64.size (k1_off2_inb (grid1.coords t)))

/-! ## The accumulator -/

/-- What the scratch accumulator holds after the body at position `n`: the point's term `m ⬝ W[r] + b[r]` added to
    zero at the first point of a run of three (`n % 3 = 0`), to what the point before left otherwise. -/
def accAt1 (c : Dev nD) : (n : ℕ) → n < cfg1.N → Vec F S1024x64 .f32
  | 0, hn => k1_pay2 (wOf1 V c ⟨0, hn⟩) (iblk1 V c 0 ⟨0, hn⟩) (bOf1 V c ⟨0, hn⟩) (k1_pay1 (F := F))
  | n + 1, hn =>
    if (n + 1) % 3 = 0 then
      k1_pay2 (wOf1 V c ⟨n + 1, hn⟩) (iblk1 V c 0 ⟨n + 1, hn⟩) (bOf1 V c ⟨n + 1, hn⟩) (k1_pay1 (F := F))
    else
      k1_pay2 (wOf1 V c ⟨n + 1, hn⟩) (iblk1 V c 0 ⟨n + 1, hn⟩) (bOf1 V c ⟨n + 1, hn⟩) (accAt1 c n (Nat.lt_of_succ_lt hn))

/-- At the first point of a run the accumulator starts from zero. -/
theorem accAt1_first (c : Dev nD) (t : Fin cfg1.N) (h : t.val % 3 = 0) :
    accAt1 V c t.val t.isLt = k1_pay2 (wOf1 V c t) (iblk1 V c 0 t) (bOf1 V c t) (k1_pay1 (F := F)) := by
  obtain ⟨n, hn⟩ := t
  cases n with
  | zero => rfl
  | succ n => exact (if_pos h).trans rfl

/-- At the other points it adds to what the point before left. -/
theorem accAt1_next (c : Dev nD) (t : Fin cfg1.N) (h : t.val % 3 ≠ 0) :
    accAt1 V c t.val t.isLt = k1_pay2 (wOf1 V c t) (iblk1 V c 0 t) (bOf1 V c t)
      (accAt1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch accumulator as a memref: a whole scoped buffer of the kernel's own. -/
abbrev scM1 : Memref sig .tc .vmem S1024x64 .f32 := Memref.whole cc1_scratch0

/-- The core's scoped buffers other than this call's staging buffers and its scratch, each at some contents. -/
abbrev rest1 (c : Dev nD) : sProp 𝕄 :=
  Pipeline.scopedRestBut (Ix := Unit) (Name := ℕ) (U := UR sig nD τ) (Lvl := ℕ) (Val := Elt F) spec1 c [cc1_scratch0]

/-- The invariant before position `n`: before the first point what the launch hands the region (every scoped buffer
    at anything); afterwards the scratch at what the point before left in it, the other scoped buffers at anything,
    and the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega)) ∗ rest1 c) ∗ (∃ r, prngReg c r)) := by
  cases n with
  | zero => exact absurd rfl hz
  | succ n => rfl

/-- What the launch hands the region, with the scratch split off the other scoped buffers. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, Idealize.SL.BI.bigSepL_singleton]; try rfl

/-! ## The body's branch conditions, in closed form -/

/-- The condition of the body's first conditional (the accumulator's reset), from the grid coordinates. -/
abbrev condA1 (i : grid1.Coords) : Prop := (Scalar.cmpi .ne (Scalar.extui (Scalar.cmpi .eq (BitVec.ofNat 32 (i 1).val) 0#32)) 0#32) = 1#1
/-- It holds at the points ≡ 0 (mod 3). -/
theorem hcondA1 : ∀ t : Fin cfg1.N, condA1 (grid1.coords t) ↔ t.val % 3 = 0 :=
  (by decide +kernel : ∀ t : Fin grid1.N, condA1 (grid1.coords t) ↔ t.val % 3 = 0)

/-- The condition of the body's second conditional (the output's store). -/
abbrev condB1 (i : grid1.Coords) : Prop := k1_cond2 i = 1#1
/-- It holds at the points ≡ 2 (mod 3). -/
theorem hcondB1 : ∀ t : Fin cfg1.N, condB1 (grid1.coords t) ↔ t.val % 3 = 2 :=
  (by decide +kernel : ∀ t : Fin grid1.N, condB1 (grid1.coords t) ↔ t.val % 3 = 2)

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the output is not stored it is idle and not written back; where it is stored it is live. -/
theorem idleAt1_3 : ∀ t : Fin cfg1.N, ¬condB1 (grid1.coords t) → cfg1.idle 3 (grid1.coords t) = true := by decide +kernel
theorem noFlush1_3 : ∀ t : Fin cfg1.N, ¬condB1 (grid1.coords t) → (cfg1.win 3).flush t = false := by decide +kernel
theorem liveAt1_3 : ∀ t : Fin cfg1.N, condB1 (grid1.coords t) → cfg1.idle 3 (grid1.coords t) = false := by decide +kernel

/-! ## The body's triples, one per case of its conditionals -/

theorem zoff1_2 : (![0, 0] : Fin 2 → ℕ) = fun _ => 0 := by funext a; fin_cases a <;> rfl
theorem zoff1_3 : (![0, 0, 0] : Fin 3 → ℕ) = fun _ => 0 := by funext a; fin_cases a <;> rfl

/-- The weight slice and the bias row the body loads, through the offsets the program computes from the point. -/
abbrev rW1 (i : grid1.Coords) : Rect S3x64x64 := Rect.unit (s := S3x64x64) (k1_off1 i) S1x64x64.size (k1_off1_inb i)
abbrev rB1 (i : grid1.Coords) : Rect S3x64 := Rect.unit (s := S3x64) (k1_off2 i) S1x64.size (k1_off2_inb i)

set_option maxHeartbeats 1000000 in
/-- At the first point of a run (the reset taken, the output not stored): on whole memrefs, the inputs' at their
    contents and the scratch at anything, the body runs to the continuation holding the inputs' as they were and the
    scratch at the point's term added to zero. The output's memref is not touched. -/
theorem run1_A (c : Dev nD) (E : Set ℕ) (i : grid1.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : condA1 i) (hcB : ¬condB1 i)
    (xm : Vec F S1x1024x64 .f32) (xw : Vec F S3x64x64 .f32) (xb : Vec F S3x64 .f32) (K : PUnit → sProp 𝕄) :
    iprop(owns (c : Thread nD τ) arg2 fullShare xm ∗ owns (c : Thread nD τ) arg3 fullShare xw ∗ owns (c : Thread nD τ) arg4 fullShare xb
        ∗ (∃ d, owns (c : Thread nD τ) arg6 fullShare d)
        ∗ (iprop(owns (c : Thread nD τ) arg2 fullShare xm ∗ owns (c : Thread nD τ) arg3 fullShare xw ∗ owns (c : Thread nD τ) arg4 fullShare xb
            ∗ owns (c : Thread nD τ) arg6 fullShare (k1_pay2 (View.ld xw (rW1 i)) xm (View.ld xb (rB1 i)) (k1_pay1 (F := F)))) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%fm, %hfm, Hm⟩, ⟨%fw, %hfw, Hw⟩, ⟨%fb, %hfb, Hb⟩, ⟨%ds, %fs, -, Hs⟩, Hk⟩
  subst hfm; subst hfw; subst hfb
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  iexists _; isplitr
  swap; · iexact Hs
  ipureintro
  rw [View.read_writes_eq_canon _ _ _ (fun y => ⟨_, List.mem_cons_self, View.mem_set_unit_zero zoff1_2 inb_S1024x64_S1024x64_0_0 y⟩),
    View.canon_cons_unit_zero zoff1_2]
  sl_unfold_run_names
  rw [View.readCov_unit_zero _ zoff1_2,
    show View.readAt (Elt F) arg2.view (Rect.unit ![0, 0, 0] S1x1024x64.size inb_S1x1024x64_S1x1024x64_0_0_0).toLoadRect fm
        = View.read (Elt F) arg2.view fm from View.ld_unit_zero zoff1_3 _ _]
  rfl

set_option maxHeartbeats 1000000 in
/-- At the middle point of a run (no reset, the output not stored): the scratch at the contents `xs` the point before
    left, the body runs to the continuation holding the inputs' as they were and the scratch at the point's term added
    to `xs`. The output's memref is not touched. -/
theorem run1_B (c : Dev nD) (E : Set ℕ) (i : grid1.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : ¬condA1 i) (hcB : ¬condB1 i)
    (xm : Vec F S1x1024x64 .f32) (xw : Vec F S3x64x64 .f32) (xb : Vec F S3x64 .f32) (xs : Vec F S1024x64 .f32) (K : PUnit → sProp 𝕄) :
    iprop(owns (c : Thread nD τ) arg2 fullShare xm ∗ owns (c : Thread nD τ) arg3 fullShare xw ∗ owns (c : Thread nD τ) arg4 fullShare xb
        ∗ owns (c : Thread nD τ) arg6 fullShare xs
        ∗ (iprop(owns (c : Thread nD τ) arg2 fullShare xm ∗ owns (c : Thread nD τ) arg3 fullShare xw ∗ owns (c : Thread nD τ) arg4 fullShare xb
            ∗ owns (c : Thread nD τ) arg6 fullShare (k1_pay2 (View.ld xw (rW1 i)) xm (View.ld xb (rB1 i)) xs)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%fm, %hfm, Hm⟩, ⟨%fw, %hfw, Hw⟩, ⟨%fb, %hfb, Hb⟩, ⟨%fs, %hfs, Hs⟩, Hk⟩
  subst hfm; subst hfw; subst hfb; subst hfs
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  iexists _; isplitr
  swap; · iexact Hs
  ipureintro
  rw [View.read_writes_eq_canon _ _ _ (fun y => ⟨_, List.mem_cons_self, View.mem_set_unit_zero zoff1_2 inb_S1024x64_S1024x64_0_0 y⟩),
    View.canon_cons_unit_zero zoff1_2]
  sl_unfold_run_names
  rw [show View.readAt (Elt F) arg2.view (Rect.unit ![0, 0, 0] S1x1024x64.size inb_S1x1024x64_S1x1024x64_0_0_0).toLoadRect fm
        = View.read (Elt F) arg2.view fm from View.ld_unit_zero zoff1_3 _ _,
    show View.readAt (Elt F) arg6.view (Rect.unit ![0, 0] S1024x64.size inb_S1024x64_S1024x64_0_0).toLoadRect fs
        = View.read (Elt F) arg6.view fs from View.ld_unit_zero zoff1_2 _ _]
  rfl

set_option maxHeartbeats 1000000 in
/-- At the last point of a run (no reset, the output stored): the scratch at the contents `xs` the point before left
    and the output's memref at anything, the body runs to the continuation holding the inputs' as they were, the
    scratch at the point's term added to `xs` and the output's memref at the maximum of that and zero. -/
theorem run1_C (c : Dev nD) (E : Set ℕ) (i : grid1.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : ¬condA1 i) (hcB : condB1 i)
    (xm : Vec F S1x1024x64 .f32) (xw : Vec F S3x64x64 .f32) (xb : Vec F S3x64 .f32) (xs : Vec F S1024x64 .f32) (K : PUnit → sProp 𝕄) :
    iprop(owns (c : Thread nD τ) arg2 fullShare xm ∗ owns (c : Thread nD τ) arg3 fullShare xw ∗ owns (c : Thread nD τ) arg4 fullShare xb
        ∗ (∃ d, owns (c : Thread nD τ) arg5 fullShare d) ∗ owns (c : Thread nD τ) arg6 fullShare xs
        ∗ (iprop(owns (c : Thread nD τ) arg2 fullShare xm ∗ owns (c : Thread nD τ) arg3 fullShare xw ∗ owns (c : Thread nD τ) arg4 fullShare xb
            ∗ owns (c : Thread nD τ) arg5 fullShare (k1_pay3 (k1_pay2 (View.ld xw (rW1 i)) xm (View.ld xb (rB1 i)) xs))
            ∗ owns (c : Thread nD τ) arg6 fullShare (k1_pay2 (View.ld xw (rW1 i)) xm (View.ld xb (rB1 i)) xs)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%fm, %hfm, Hm⟩, ⟨%fw, %hfw, Hw⟩, ⟨%fb, %hfb, Hb⟩, ⟨%dq, %fq, -, Ho⟩, ⟨%fs, %hfs, Hs⟩, Hk⟩
  subst hfm; subst hfw; subst hfb; subst hfs
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  isplitl [Ho]
  · iexists _; isplitr
    swap; · iexact Ho
    ipureintro
    sl_unfold_run_names
    rw [View.read_writes_eq_canon _ _ _ (fun y => ⟨_, List.mem_cons_self, View.mem_set_unit_zero zoff1_2 inb_S1024x64_S1024x64_0_0 y⟩),
      View.canon_cons_unit_zero zoff1_2, View.readCov_unit_zero _ zoff1_2,
      show View.readAt (Elt F) arg2.view (Rect.unit ![0, 0, 0] S1x1024x64.size inb_S1x1024x64_S1x1024x64_0_0_0).toLoadRect fm
        = View.read (Elt F) arg2.view fm from View.ld_unit_zero zoff1_3 _ _,
      show View.readAt (Elt F) arg6.view (Rect.unit ![0, 0] S1024x64.size inb_S1024x64_S1024x64_0_0).toLoadRect fs
        = View.read (Elt F) arg6.view fs from View.ld_unit_zero zoff1_2 _ _]
    rfl
  iexists _; isplitr
  swap; · iexact Hs
  ipureintro
  sl_unfold_run_names
  rw [View.read_writes_eq_canon _ _ _ (fun y => ⟨_, List.mem_cons_self, View.mem_set_unit_zero zoff1_2 inb_S1024x64_S1024x64_0_0 y⟩),
    View.canon_cons_unit_zero zoff1_2,
    show View.readAt (Elt F) arg2.view (Rect.unit ![0, 0, 0] S1x1024x64.size inb_S1x1024x64_S1x1024x64_0_0_0).toLoadRect fm
        = View.read (Elt F) arg2.view fm from View.ld_unit_zero zoff1_3 _ _,
    show View.readAt (Elt F) arg6.view (Rect.unit ![0, 0] S1024x64.size inb_S1024x64_S1024x64_0_0).toLoadRect fs
        = View.read (Elt F) arg6.view fs from View.ld_unit_zero zoff1_2 _ _]
  rfl

/-! ## The pipeline's proof data -/

/-- The proof data of the call's pipeline on core `c`: the arrays as the region finds them (`V`); after the body at
    point `t` each input's buffer at its block and the output's at `max(accumulator, 0)` (read only where it is
    written back, `t % 3 = 2`); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (accAt1 V c t.val t.isLt) := by dsimp only [dat1]

theorem owed1 (c : Dev nD) (t) : (dat1 V c).owed t = 0 := rfl
theorem q1 (c : Dev nD) (w) : (dat1 V c).q w = fullShare := rfl

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in each input's buffer -/

/-- Each input's current staging buffer holds its block at every point, fetched there or not: unfetched, the block
    index has not moved (the windows are uncut and never idle, and the body leaves them as it found them). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's position in its run of three says which
    case applies; the invariant hands the body the scratch at what the point before left (at anything at a run's first
    point, where the body zeroes it) and takes it back at this point's accumulator; the output's buffer is handed back
    untouched where the body does not store it, and at the maximum of the accumulator and zero where it does. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 294 := lt_of_lt_of_eq t.isLt (show cfg1.N = 294 from N_1)
  by_cases hA : t.val % 3 = 0
  · have hB : ¬t.val % 3 = 2 := by omega
    rw [Dat.leavesExact_idle (dat1 V c) 3 t (idleAt1_3 t (fun h => hB ((hcondB1 t).mp h))) (noFlush1_3 t (fun h => hB ((hcondB1 t).mp h)))]
    rw [accAt1_first V c t hA]
    unfold wOf1 bOf1
    by_cases hz : t.val = 0
    · rw [PhiS1_castSucc V c t, PhiS1_zero V c _ _ hz, PhiA1_eq]
      iintro ⟨⟨⟨Hs, Hr⟩, Hg⟩, Hd, ⟨%dm, Hm⟩, ⟨%dw, Hw⟩, ⟨%db, Hb⟩, Ho⟩
      iapply (run1_A c Set.univ (grid1.coords t) _ _ _ _ _ _ _ _ _ _ ((hcondA1 t).mpr hA) (fun h => hB ((hcondB1 t).mp h)) (iblk1 V c 0 t) (iblk1 V c 1 t) (iblk1 V c 2 t) _)
      isplitl [Hm]; · iexact Hm
      isplitl [Hw]; · iexact Hw
      isplitl [Hb]; · iexact Hb
      isplitl [Hs]; · iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
    · rw [PhiS1_castSucc V c t, PhiS1_pos V c _ _ hz]
      iintro ⟨⟨⟨Hs, Hr⟩, Hg⟩, Hd, ⟨%dm, Hm⟩, ⟨%dw, Hw⟩, ⟨%db, Hb⟩, Ho⟩
      iapply (run1_A c Set.univ (grid1.coords t) _ _ _ _ _ _ _ _ _ _ ((hcondA1 t).mpr hA) (fun h => hB ((hcondB1 t).mp h)) (iblk1 V c 0 t) (iblk1 V c 1 t) (iblk1 V c 2 t) _)
      isplitl [Hm]; · iexact Hm
      isplitl [Hw]; · iexact Hw
      isplitl [Hb]; · iexact Hb
      isplitl [Hs]; · iexists _; iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
  · have hz : t.val ≠ 0 := fun h => hA (by rw [h])
    rw [accAt1_next V c t hA]
    unfold wOf1 bOf1
    rw [PhiS1_castSucc V c t, PhiS1_pos V c _ _ hz]
    by_cases hB : t.val % 3 = 2
    · rw [show (dat1 V c).leavesExact 3 t = owns (c : Thread nD τ) (st1_3 t) fullShare ((dat1 V c).after 3 t) from by
        unfold Dat.leavesExact; rw [liveAt1_3 t ((hcondB1 t).mpr hB)], after1_3]
      rw [accAt1_next V c t hA]
      unfold wOf1 bOf1
      iintro ⟨⟨⟨Hs, Hr⟩, Hg⟩, Hd, ⟨%dm, Hm⟩, ⟨%dw, Hw⟩, ⟨%db, Hb⟩, ⟨%dq, Ho⟩⟩
      iapply (run1_C c Set.univ (grid1.coords t) _ _ _ _ _ _ _ _ _ _ (fun h => hA ((hcondA1 t).mp h)) ((hcondB1 t).mpr hB) (iblk1 V c 0 t) (iblk1 V c 1 t) (iblk1 V c 2 t) _ _)
      isplitl [Hm]; · iexact Hm
      isplitl [Hw]; · iexact Hw
      isplitl [Hb]; · iexact Hb
      isplitl [Ho]; · iexists _; iexact Ho
      isplitl [Hs]; · iexact Hs
      iintro ⟨Hm, Hw, Hb, Ho, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
    · rw [Dat.leavesExact_idle (dat1 V c) 3 t (idleAt1_3 t (fun h => hB ((hcondB1 t).mp h))) (noFlush1_3 t (fun h => hB ((hcondB1 t).mp h)))]
      iintro ⟨⟨⟨Hs, Hr⟩, Hg⟩, Hd, ⟨%dm, Hm⟩, ⟨%dw, Hw⟩, ⟨%db, Hb⟩, Ho⟩
      iapply (run1_B c Set.univ (grid1.coords t) _ _ _ _ _ _ _ _ _ _ (fun h => hA ((hcondA1 t).mp h)) (fun h => hB ((hcondB1 t).mp h)) (iblk1 V c 0 t) (iblk1 V c 1 t) (iblk1 V c 2 t) _ _)
      isplitl [Hm]; · iexact Hm
      isplitl [Hw]; · iexact Hw
      isplitl [Hb]; · iexact Hb
      isplitl [Hs]; · iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hs, Hr⟩, Hg⟩
  isplitl [Hs Hr]
  · isplitl [Hs]
    · iexists _; iexact Hs
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 294 := N_1; omega)

end Cert.KernelIdeal.Hand

end
-- ==== Proof.KI.Conv2.lean ====
import proofs.«400914_j13511967113603_4_alg».proof.Proof.Gen.KernelIdeal.Launch
import proofs.«400914_j13511967113603_4_alg».proof.Proof.Gen.KernelIdeal.Skeleton
import proofs.«400914_j13511967113603_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! A convolution call as a pipeline region, at a parameter `V` (the TensorCore's buffer contents when the
    region is entered): each window's block at a grid point, the accumulator the kernel carries in its scratch
    buffer from point to point, the pipeline's proof data and its body obligation.

    The grid is 98 × 3, point `t` at coordinates `(t / 3, t % 3)`. At the second coordinate `r` the body adds
    `m ⬝ W[r] + b[r]` to the accumulator, which it zeroes first when `r = 0`; when `r = 2` it stores
    `max(accumulator, 0)` into the output block, which is written back there and idle at `r = 0, 1`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight slice the body loads at point `t`: row `r` of the weight window (the whole `[3, 64, 64]` array). -/
def wOf2 (c : Dev nD) (t : Fin cfg2.N) : Vec F S1x64x64 .f32 :=
  View.ld (iblk2 V c 1 t) (Rect.unit (s := S3x64x64) (k2_off1 (grid2.coords t)) S1x64x64.size (k2_off1_inb (grid2.coords t)))

/-- The bias row the body loads at point `t`: row `r` of the bias window (the whole `[3, 64]` array). -/
def bOf2 (c : Dev nD) (t : Fin cfg2.N) : Vec F S1x64 .f32 :=
  View.ld (iblk2 V c 2 t) (Rect.unit (s := S3x64) (k2_off2 (grid2.coords t)) S1x64.size (k2_off2_inb (grid2.coords t)))

/-! ## The accumulator -/

/-- What the scratch accumulator holds after the body at position `n`: the point's term `m ⬝ W[r] + b[r]` added to
    zero at the first point of a run of three (`n % 3 = 0`), to what the point before left otherwise. -/
def accAt2 (c : Dev nD) : (n : ℕ) → n < cfg2.N → Vec F S1024x64 .f32
  | 0, hn => k2_pay2 (wOf2 V c ⟨0, hn⟩) (iblk2 V c 0 ⟨0, hn⟩) (bOf2 V c ⟨0, hn⟩) (k2_pay1 (F := F))
  | n + 1, hn =>
    if (n + 1) % 3 = 0 then
      k2_pay2 (wOf2 V c ⟨n + 1, hn⟩) (iblk2 V c 0 ⟨n + 1, hn⟩) (bOf2 V c ⟨n + 1, hn⟩) (k2_pay1 (F := F))
    else
      k2_pay2 (wOf2 V c ⟨n + 1, hn⟩) (iblk2 V c 0 ⟨n + 1, hn⟩) (bOf2 V c ⟨n + 1, hn⟩) (accAt2 c n (Nat.lt_of_succ_lt hn))

/-- At the first point of a run the accumulator starts from zero. -/
theorem accAt2_first (c : Dev nD) (t : Fin cfg2.N) (h : t.val % 3 = 0) :
    accAt2 V c t.val t.isLt = k2_pay2 (wOf2 V c t) (iblk2 V c 0 t) (bOf2 V c t) (k2_pay1 (F := F)) := by
  obtain ⟨n, hn⟩ := t
  cases n with
  | zero => rfl
  | succ n => exact (if_pos h).trans rfl

/-- At the other points it adds to what the point before left. -/
theorem accAt2_next (c : Dev nD) (t : Fin cfg2.N) (h : t.val % 3 ≠ 0) :
    accAt2 V c t.val t.isLt = k2_pay2 (wOf2 V c t) (iblk2 V c 0 t) (bOf2 V c t)
      (accAt2 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch accumulator as a memref: a whole scoped buffer of the kernel's own. -/
abbrev scM2 : Memref sig .tc .vmem S1024x64 .f32 := Memref.whole cc2_scratch0

/-- The core's scoped buffers other than this call's staging buffers and its scratch, each at some contents. -/
abbrev rest2 (c : Dev nD) : sProp 𝕄 :=
  Pipeline.scopedRestBut (Ix := Unit) (Name := ℕ) (U := UR sig nD τ) (Lvl := ℕ) (Val := Elt F) spec2 c [cc2_scratch0]

/-- The invariant before position `n`: before the first point what the launch hands the region (every scoped buffer
    at anything); afterwards the scratch at what the point before left in it, the other scoped buffers at anything,
    and the generator register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c n hn) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (accAt2 V c (n - 1) (by omega)) ∗ rest2 c) ∗ (∃ r, prngReg c r)) := by
  cases n with
  | zero => exact absurd rfl hz
  | succ n => rfl

/-- What the launch hands the region, with the scratch split off the other scoped buffers. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [scM2, owns_whole, Idealize.SL.BI.bigSepL_singleton]; try rfl

/-! ## The body's branch conditions, in closed form -/

/-- The condition of the body's first conditional (the accumulator's reset), from the grid coordinates. -/
abbrev condA2 (i : grid2.Coords) : Prop := (Scalar.cmpi .ne (Scalar.extui (Scalar.cmpi .eq (BitVec.ofNat 32 (i 1).val) 0#32)) 0#32) = 1#1
/-- It holds at the points ≡ 0 (mod 3). -/
theorem hcondA2 : ∀ t : Fin cfg2.N, condA2 (grid2.coords t) ↔ t.val % 3 = 0 :=
  (by decide +kernel : ∀ t : Fin grid2.N, condA2 (grid2.coords t) ↔ t.val % 3 = 0)

/-- The condition of the body's second conditional (the output's store). -/
abbrev condB2 (i : grid2.Coords) : Prop := k2_cond2 i = 1#1
/-- It holds at the points ≡ 2 (mod 3). -/
theorem hcondB2 : ∀ t : Fin cfg2.N, condB2 (grid2.coords t) ↔ t.val % 3 = 2 :=
  (by decide +kernel : ∀ t : Fin grid2.N, condB2 (grid2.coords t) ↔ t.val % 3 = 2)

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Where the output is not stored it is idle and not written back; where it is stored it is live. -/
theorem idleAt2_3 : ∀ t : Fin cfg2.N, ¬condB2 (grid2.coords t) → cfg2.idle 3 (grid2.coords t) = true := by decide +kernel
theorem noFlush2_3 : ∀ t : Fin cfg2.N, ¬condB2 (grid2.coords t) → (cfg2.win 3).flush t = false := by decide +kernel
theorem liveAt2_3 : ∀ t : Fin cfg2.N, condB2 (grid2.coords t) → cfg2.idle 3 (grid2.coords t) = false := by decide +kernel

/-! ## The body's triples, one per case of its conditionals -/

theorem zoff2_2 : (![0, 0] : Fin 2 → ℕ) = fun _ => 0 := by funext a; fin_cases a <;> rfl
theorem zoff2_3 : (![0, 0, 0] : Fin 3 → ℕ) = fun _ => 0 := by funext a; fin_cases a <;> rfl

/-- The weight slice and the bias row the body loads, through the offsets the program computes from the point. -/
abbrev rW2 (i : grid2.Coords) : Rect S3x64x64 := Rect.unit (s := S3x64x64) (k2_off1 i) S1x64x64.size (k2_off1_inb i)
abbrev rB2 (i : grid2.Coords) : Rect S3x64 := Rect.unit (s := S3x64) (k2_off2 i) S1x64.size (k2_off2_inb i)

set_option maxHeartbeats 1000000 in
/-- At the first point of a run (the reset taken, the output not stored): on whole memrefs, the inputs' at their
    contents and the scratch at anything, the body runs to the continuation holding the inputs' as they were and the
    scratch at the point's term added to zero. The output's memref is not touched. -/
theorem run2_A (c : Dev nD) (E : Set ℕ) (i : grid2.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : condA2 i) (hcB : ¬condB2 i)
    (xm : Vec F S1x1024x64 .f32) (xw : Vec F S3x64x64 .f32) (xb : Vec F S3x64 .f32) (K : PUnit → sProp 𝕄) :
    iprop(owns (c : Thread nD τ) arg2 fullShare xm ∗ owns (c : Thread nD τ) arg3 fullShare xw ∗ owns (c : Thread nD τ) arg4 fullShare xb
        ∗ (∃ d, owns (c : Thread nD τ) arg6 fullShare d)
        ∗ (iprop(owns (c : Thread nD τ) arg2 fullShare xm ∗ owns (c : Thread nD τ) arg3 fullShare xw ∗ owns (c : Thread nD τ) arg4 fullShare xb
            ∗ owns (c : Thread nD τ) arg6 fullShare (k2_pay2 (View.ld xw (rW2 i)) xm (View.ld xb (rB2 i)) (k2_pay1 (F := F)))) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%fm, %hfm, Hm⟩, ⟨%fw, %hfw, Hw⟩, ⟨%fb, %hfb, Hb⟩, ⟨%ds, %fs, -, Hs⟩, Hk⟩
  subst hfm; subst hfw; subst hfb
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  iexists _; isplitr
  swap; · iexact Hs
  ipureintro
  rw [View.read_writes_eq_canon _ _ _ (fun y => ⟨_, List.mem_cons_self, View.mem_set_unit_zero zoff2_2 inb_S1024x64_S1024x64_0_0 y⟩),
    View.canon_cons_unit_zero zoff2_2]
  sl_unfold_run_names
  rw [View.readCov_unit_zero _ zoff2_2,
    show View.readAt (Elt F) arg2.view (Rect.unit ![0, 0, 0] S1x1024x64.size inb_S1x1024x64_S1x1024x64_0_0_0).toLoadRect fm
        = View.read (Elt F) arg2.view fm from View.ld_unit_zero zoff2_3 _ _]
  rfl

set_option maxHeartbeats 1000000 in
/-- At the middle point of a run (no reset, the output not stored): the scratch at the contents `xs` the point before
    left, the body runs to the continuation holding the inputs' as they were and the scratch at the point's term added
    to `xs`. The output's memref is not touched. -/
theorem run2_B (c : Dev nD) (E : Set ℕ) (i : grid2.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : ¬condA2 i) (hcB : ¬condB2 i)
    (xm : Vec F S1x1024x64 .f32) (xw : Vec F S3x64x64 .f32) (xb : Vec F S3x64 .f32) (xs : Vec F S1024x64 .f32) (K : PUnit → sProp 𝕄) :
    iprop(owns (c : Thread nD τ) arg2 fullShare xm ∗ owns (c : Thread nD τ) arg3 fullShare xw ∗ owns (c : Thread nD τ) arg4 fullShare xb
        ∗ owns (c : Thread nD τ) arg6 fullShare xs
        ∗ (iprop(owns (c : Thread nD τ) arg2 fullShare xm ∗ owns (c : Thread nD τ) arg3 fullShare xw ∗ owns (c : Thread nD τ) arg4 fullShare xb
            ∗ owns (c : Thread nD τ) arg6 fullShare (k2_pay2 (View.ld xw (rW2 i)) xm (View.ld xb (rB2 i)) xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%fm, %hfm, Hm⟩, ⟨%fw, %hfw, Hw⟩, ⟨%fb, %hfb, Hb⟩, ⟨%fs, %hfs, Hs⟩, Hk⟩
  subst hfm; subst hfw; subst hfb; subst hfs
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  iexists _; isplitr
  swap; · iexact Hs
  ipureintro
  rw [View.read_writes_eq_canon _ _ _ (fun y => ⟨_, List.mem_cons_self, View.mem_set_unit_zero zoff2_2 inb_S1024x64_S1024x64_0_0 y⟩),
    View.canon_cons_unit_zero zoff2_2]
  sl_unfold_run_names
  rw [show View.readAt (Elt F) arg2.view (Rect.unit ![0, 0, 0] S1x1024x64.size inb_S1x1024x64_S1x1024x64_0_0_0).toLoadRect fm
        = View.read (Elt F) arg2.view fm from View.ld_unit_zero zoff2_3 _ _,
    show View.readAt (Elt F) arg6.view (Rect.unit ![0, 0] S1024x64.size inb_S1024x64_S1024x64_0_0).toLoadRect fs
        = View.read (Elt F) arg6.view fs from View.ld_unit_zero zoff2_2 _ _]
  rfl

set_option maxHeartbeats 1000000 in
/-- At the last point of a run (no reset, the output stored): the scratch at the contents `xs` the point before left
    and the output's memref at anything, the body runs to the continuation holding the inputs' as they were, the
    scratch at the point's term added to `xs` and the output's memref at the maximum of that and zero. -/
theorem run2_C (c : Dev nD) (E : Set ℕ) (i : grid2.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : ¬condA2 i) (hcB : condB2 i)
    (xm : Vec F S1x1024x64 .f32) (xw : Vec F S3x64x64 .f32) (xb : Vec F S3x64 .f32) (xs : Vec F S1024x64 .f32) (K : PUnit → sProp 𝕄) :
    iprop(owns (c : Thread nD τ) arg2 fullShare xm ∗ owns (c : Thread nD τ) arg3 fullShare xw ∗ owns (c : Thread nD τ) arg4 fullShare xb
        ∗ (∃ d, owns (c : Thread nD τ) arg5 fullShare d) ∗ owns (c : Thread nD τ) arg6 fullShare xs
        ∗ (iprop(owns (c : Thread nD τ) arg2 fullShare xm ∗ owns (c : Thread nD τ) arg3 fullShare xw ∗ owns (c : Thread nD τ) arg4 fullShare xb
            ∗ owns (c : Thread nD τ) arg5 fullShare (k2_pay3 (k2_pay2 (View.ld xw (rW2 i)) xm (View.ld xb (rB2 i)) xs))
            ∗ owns (c : Thread nD τ) arg6 fullShare (k2_pay2 (View.ld xw (rW2 i)) xm (View.ld xb (rB2 i)) xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%fm, %hfm, Hm⟩, ⟨%fw, %hfw, Hw⟩, ⟨%fb, %hfb, Hb⟩, ⟨%dq, %fq, -, Ho⟩, ⟨%fs, %hfs, Hs⟩, Hk⟩
  subst hfm; subst hfw; subst hfb; subst hfs
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  isplitl [Ho]
  · iexists _; isplitr
    swap; · iexact Ho
    ipureintro
    sl_unfold_run_names
    rw [View.read_writes_eq_canon _ _ _ (fun y => ⟨_, List.mem_cons_self, View.mem_set_unit_zero zoff2_2 inb_S1024x64_S1024x64_0_0 y⟩),
      View.canon_cons_unit_zero zoff2_2, View.readCov_unit_zero _ zoff2_2,
      show View.readAt (Elt F) arg2.view (Rect.unit ![0, 0, 0] S1x1024x64.size inb_S1x1024x64_S1x1024x64_0_0_0).toLoadRect fm
        = View.read (Elt F) arg2.view fm from View.ld_unit_zero zoff2_3 _ _,
      show View.readAt (Elt F) arg6.view (Rect.unit ![0, 0] S1024x64.size inb_S1024x64_S1024x64_0_0).toLoadRect fs
        = View.read (Elt F) arg6.view fs from View.ld_unit_zero zoff2_2 _ _]
    rfl
  iexists _; isplitr
  swap; · iexact Hs
  ipureintro
  sl_unfold_run_names
  rw [View.read_writes_eq_canon _ _ _ (fun y => ⟨_, List.mem_cons_self, View.mem_set_unit_zero zoff2_2 inb_S1024x64_S1024x64_0_0 y⟩),
    View.canon_cons_unit_zero zoff2_2,
    show View.readAt (Elt F) arg2.view (Rect.unit ![0, 0, 0] S1x1024x64.size inb_S1x1024x64_S1x1024x64_0_0_0).toLoadRect fm
        = View.read (Elt F) arg2.view fm from View.ld_unit_zero zoff2_3 _ _,
    show View.readAt (Elt F) arg6.view (Rect.unit ![0, 0] S1024x64.size inb_S1024x64_S1024x64_0_0).toLoadRect fs
        = View.read (Elt F) arg6.view fs from View.ld_unit_zero zoff2_2 _ _]
  rfl

/-! ## The pipeline's proof data -/

/-- The proof data of the call's pipeline on core `c`: the arrays as the region finds them (`V`); after the body at
    point `t` each input's buffer at its block and the output's at `max(accumulator, 0)` (read only where it is
    written back, `t % 3 = 2`); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (accAt2 V c t.val t.isLt) := by dsimp only [dat2]

theorem owed2 (c : Dev nD) (t) : (dat2 V c).owed t = 0 := rfl
theorem q2 (c : Dev nD) (w) : (dat2 V c).q w = fullShare := rfl

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in each input's buffer -/

/-- Each input's current staging buffer holds its block at every point, fetched there or not: unfetched, the block
    index has not moved (the windows are uncut and never idle, and the body leaves them as it found them). -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the point's position in its run of three says which
    case applies; the invariant hands the body the scratch at what the point before left (at anything at a run's first
    point, where the body zeroes it) and takes it back at this point's accumulator; the output's buffer is handed back
    untouched where the body does not store it, and at the maximum of the accumulator and zero where it does. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 294 := lt_of_lt_of_eq t.isLt (show cfg2.N = 294 from N_2)
  by_cases hA : t.val % 3 = 0
  · have hB : ¬t.val % 3 = 2 := by omega
    rw [Dat.leavesExact_idle (dat2 V c) 3 t (idleAt2_3 t (fun h => hB ((hcondB2 t).mp h))) (noFlush2_3 t (fun h => hB ((hcondB2 t).mp h)))]
    rw [accAt2_first V c t hA]
    unfold wOf2 bOf2
    by_cases hz : t.val = 0
    · rw [PhiS2_castSucc V c t, PhiS2_zero V c _ _ hz, PhiA2_eq]
      iintro ⟨⟨⟨Hs, Hr⟩, Hg⟩, Hd, ⟨%dm, Hm⟩, ⟨%dw, Hw⟩, ⟨%db, Hb⟩, Ho⟩
      iapply (run2_A c Set.univ (grid2.coords t) _ _ _ _ _ _ _ _ _ _ ((hcondA2 t).mpr hA) (fun h => hB ((hcondB2 t).mp h)) (iblk2 V c 0 t) (iblk2 V c 1 t) (iblk2 V c 2 t) _)
      isplitl [Hm]; · iexact Hm
      isplitl [Hw]; · iexact Hw
      isplitl [Hb]; · iexact Hb
      isplitl [Hs]; · iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
    · rw [PhiS2_castSucc V c t, PhiS2_pos V c _ _ hz]
      iintro ⟨⟨⟨Hs, Hr⟩, Hg⟩, Hd, ⟨%dm, Hm⟩, ⟨%dw, Hw⟩, ⟨%db, Hb⟩, Ho⟩
      iapply (run2_A c Set.univ (grid2.coords t) _ _ _ _ _ _ _ _ _ _ ((hcondA2 t).mpr hA) (fun h => hB ((hcondB2 t).mp h)) (iblk2 V c 0 t) (iblk2 V c 1 t) (iblk2 V c 2 t) _)
      isplitl [Hm]; · iexact Hm
      isplitl [Hw]; · iexact Hw
      isplitl [Hb]; · iexact Hb
      isplitl [Hs]; · iexists _; iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
  · have hz : t.val ≠ 0 := fun h => hA (by rw [h])
    rw [accAt2_next V c t hA]
    unfold wOf2 bOf2
    rw [PhiS2_castSucc V c t, PhiS2_pos V c _ _ hz]
    by_cases hB : t.val % 3 = 2
    · rw [show (dat2 V c).leavesExact 3 t = owns (c : Thread nD τ) (st2_3 t) fullShare ((dat2 V c).after 3 t) from by
        unfold Dat.leavesExact; rw [liveAt2_3 t ((hcondB2 t).mpr hB)], after2_3]
      rw [accAt2_next V c t hA]
      unfold wOf2 bOf2
      iintro ⟨⟨⟨Hs, Hr⟩, Hg⟩, Hd, ⟨%dm, Hm⟩, ⟨%dw, Hw⟩, ⟨%db, Hb⟩, ⟨%dq, Ho⟩⟩
      iapply (run2_C c Set.univ (grid2.coords t) _ _ _ _ _ _ _ _ _ _ (fun h => hA ((hcondA2 t).mp h)) ((hcondB2 t).mpr hB) (iblk2 V c 0 t) (iblk2 V c 1 t) (iblk2 V c 2 t) _ _)
      isplitl [Hm]; · iexact Hm
      isplitl [Hw]; · iexact Hw
      isplitl [Hb]; · iexact Hb
      isplitl [Ho]; · iexists _; iexact Ho
      isplitl [Hs]; · iexact Hs
      iintro ⟨Hm, Hw, Hb, Ho, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
    · rw [Dat.leavesExact_idle (dat2 V c) 3 t (idleAt2_3 t (fun h => hB ((hcondB2 t).mp h))) (noFlush2_3 t (fun h => hB ((hcondB2 t).mp h)))]
      iintro ⟨⟨⟨Hs, Hr⟩, Hg⟩, Hd, ⟨%dm, Hm⟩, ⟨%dw, Hw⟩, ⟨%db, Hb⟩, Ho⟩
      iapply (run2_B c Set.univ (grid2.coords t) _ _ _ _ _ _ _ _ _ _ (fun h => hA ((hcondA2 t).mp h)) (fun h => hB ((hcondB2 t).mp h)) (iblk2 V c 0 t) (iblk2 V c 1 t) (iblk2 V c 2 t) _ _)
      isplitl [Hm]; · iexact Hm
      isplitl [Hw]; · iexact Hw
      isplitl [Hb]; · iexact Hb
      isplitl [Hs]; · iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the accumulator's named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨Hs, Hr⟩, Hg⟩
  isplitl [Hs Hr]
  · isplitl [Hs]
    · iexists _; iexact Hs
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 294 := N_2; omega)

end Cert.KernelIdeal.Hand

end
-- ==== Proof.KI.Score3.lean ====
import proofs.«400914_j13511967113603_4_alg».proof.Proof.Gen.KernelIdeal.Launch
import proofs.«400914_j13511967113603_4_alg».proof.Proof.Gen.KernelIdeal.Skeleton
import proofs.«400914_j13511967113603_4_alg».proof.Proof.Gen.KernelIdeal.Points
import Idealize.ShloMosaic.Lib.Pipeline.FrameBody
import Idealize.ShloMosaic.Lib.Tactic

/-! # The last pipeline (custom_call 3, `cc3_kernel`): its proof data and body obligation

The region's half at a PARAMETER `V`, the TensorCore's buffer contents when the region is entered, generic in the
float family: each window's block at a point, what the body leaves in the output window's staging buffer
(`out[i] = Σ_k rs[i,k]·rd[i,k]` over the 8192 rows of a block, as the payload states it), the body's triple, the
proof data and the body obligation at every point of the grid. Every window is fetched or written back at every
point, there is no scratch buffer, no idle point and no branch. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S8192x64 := Rect.unit (s := S8192x64) ![0, 0] S8192x64.size inb_S8192x64_S8192x64_0_0
abbrev r3_1 : Rect S8192 := Rect.unit (s := S8192) ![0] S8192.size inb_S8192_S8192_0

/-! ## What the body leaves in the output window's buffer -/

/-- Window 2's staging buffer after the body, from the input windows' blocks: its one store. -/
def out3_2 (x0 x1 : Vec F S8192x64 .f32) : Vec F S8192 .f32 :=
  View.canon [⟨r3_1, k3_pay1 (View.ld x0 r3_0) (View.ld x1 r3_0)⟩]

/-- The store tiles the buffer, so it covers it. -/
theorem cover3_2 (p0 : Vec F S8192 .f32) (y : S8192.Idx) :
    ∃ pc ∈ ([⟨r3_1, p0⟩] : List (View.Piece (Elt F) S8192 .f32)), y ∈ pc.1.set :=
  View.cover_of_tiled [⟨r3_1, p0⟩] S8192.size (by rfl) y

/-! ## The body's triple -/

set_option maxHeartbeats 1000000 in
/-- The kernel body on whole staging memrefs, the inputs' at read contents `x0`, `x1` and the output's at anything,
    runs to the continuation holding the inputs' as they were and the output's at `out3_2` of the inputs': the printed
    function is its skeleton, run operation by operation (the load of the output's buffer reads what nothing uses). -/
theorem sound_kernel3 (c : Dev nD) (E : Set ℕ) (i : grid3.Coords)
    (arg1 : Memref sig .tc .vmem S8192x64 .f32) (harg1 : arg1.IsWhole) (arg2 : Memref sig .tc .vmem S8192x64 .f32) (harg2 : arg2.IsWhole)
    (arg3 : Memref sig .tc .vmem S8192 .f32) (harg3 : arg3.IsWhole)
    (x0 x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point
    `t` each input's buffer at its block and the output's at `out3_2` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.RunDefs.lean ====
import proofs.«400914_j13511967113603_4_alg».proof.Proof.KI.Conv0
import proofs.«400914_j13511967113603_4_alg».proof.Proof.KI.Conv1
import proofs.«400914_j13511967113603_4_alg».proof.Proof.KI.Conv2
import proofs.«400914_j13511967113603_4_alg».proof.Proof.KI.Score3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The buffer contents at every boundary of @main

@main is twenty-one items in order: seven stretches of host operations, the first convolution call, a stretch, the
second call, a stretch, the third call, seven stretches, the scoring call, a last stretch.  The contents of core
`c`'s buffers at each boundary are a fold from the launch memory: a stretch applies its operations' composed
function; a call leaves its windowed arrays at what its write-backs leave and every other buffer as it found it.
Each call's proof data is taken at the contents its region is entered with. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- The contents call 0's region is entered with, read at the TensorCore's references. -/
abbrev V7 : (c : Dev nD) → (b : Ref sig .tc) → Buf (Elt F) ((c : Thread nD τ).loc b) := fun c b => W7 m ρ c b
/-- At call 0's exit: its arrays at what the pipeline leaves, every other buffer as entered. -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev V8 : (c : Dev nD) → (b : Ref sig .tc) → Buf (Elt F) ((c : Thread nD τ).loc b) := fun c b => W8 m ρ c b
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)
/-- After `hostOps1`. -/
abbrev W9 : Dev nD → Valuation τ sig (Elt F) := fun c => StableHlo.after hostOps1 (W8 m ρ c)
/-- The contents call 1's region is entered with, read at the TensorCore's references. -/
abbrev V9 : (c : Dev nD) → (b : Ref sig .tc) → Buf (Elt F) ((c : Thread nD τ).loc b) := fun c b => W9 m ρ c b
/-- At call 1's exit: its arrays at what the pipeline leaves, every other buffer as entered. -/
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev V10 : (c : Dev nD) → (b : Ref sig .tc) → Buf (Elt F) ((c : Thread nD τ).loc b) := fun c b => W10 m ρ c b
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)
/-- After `hostOps2`. -/
abbrev W11 : Dev nD → Valuation τ sig (Elt F) := fun c => StableHlo.after hostOps2 (W10 m ρ c)
/-- The contents call 2's region is entered with, read at the TensorCore's references. -/
abbrev V11 : (c : Dev nD) → (b : Ref sig .tc) → Buf (Elt F) ((c : Thread nD τ).loc b) := fun c b => W11 m ρ c b
/-- At call 2's exit: its arrays at what the pipeline leaves, every other buffer as entered. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
/-- After `hostOps3`. -/
abbrev W13 : Dev nD → Valuation τ sig (Elt F) := fun c => StableHlo.after hostOps3 (W12 m ρ c)
/-- After `hostOps3_1`. -/
abbrev W14 : Dev nD → Valuation τ sig (Elt F) := fun c => StableHlo.after hostOps3_1 (W13 m ρ c)
/-- After `hostOps3_2`. -/
abbrev W15 : Dev nD → Valuation τ sig (Elt F) := fun c => StableHlo.after hostOps3_2 (W14 m ρ c)
/-- After `hostOps3_3`. -/
abbrev W16 : Dev nD → Valuation τ sig (Elt F) := fun c => StableHlo.after hostOps3_3 (W15 m ρ c)
/-- After `hostOps3_4`. -/
abbrev W17 : Dev nD → Valuation τ sig (Elt F) := fun c => StableHlo.after hostOps3_4 (W16 m ρ c)
/-- After `hostOps3_5`. -/
abbrev W18 : Dev nD → Valuation τ sig (Elt F) := fun c => StableHlo.after hostOps3_5 (W17 m ρ c)
/-- After `hostOps3_6`. -/
abbrev W19 : Dev nD → Valuation τ sig (Elt F) := fun c => StableHlo.after hostOps3_6 (W18 m ρ c)
/-- The contents call 3's region is entered with, read at the TensorCore's references. -/
abbrev V19 : (c : Dev nD) → (b : Ref sig .tc) → Buf (Elt F) ((c : Thread nD τ).loc b) := fun c b => W19 m ρ c b
/-- At call 3's exit: its arrays at what the pipeline leaves, every other buffer as entered. -/
def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N := by
  unfold W20; exact Pipeline.withArrays_arr spec3 launch3.win.arr_inj c _ _ w
theorem W20_of_ne (c : Dev nD) (b : Ref sig .tc) (hb : ∀ w, Pipeline.arrRef spec3 w ≠ b) :
    W20 m ρ c (Proc.devRef .tc b) = W19 m ρ c (Proc.devRef .tc b) := by
  unfold W20; exact Pipeline.withArrays_of_ne spec3 c _ _ b hb
abbrev V20 : (c : Dev nD) → (b : Ref sig .tc) → Buf (Elt F) ((c : Thread nD τ).loc b) := fun c b => W20 m ρ c b
theorem hF3 (c : Dev nD) (w : Fin cfg3.W) : (dat3 (V19 m ρ) c).arrAt w cfg3.N = V20 m ρ c (Pipeline.arrRef spec3 w) :=
  (W20_arr m ρ c w).symm
theorem hrest3 (c : Dev nD) : ∀ b, b ∉ Finset.univ.image (Pipeline.arrRef spec3) → V20 m ρ c b = V19 m ρ c b :=
  fun b hb => W20_of_ne m ρ c b fun w e => hb (Finset.mem_image.mpr ⟨w, Finset.mem_univ _, e⟩)
/-- After `hostOps4`. -/
abbrev W21 : Dev nD → Valuation τ sig (Elt F) := fun c => StableHlo.after hostOps4 (W20 m ρ c)

/-! ## The proof data family -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V9 m ρ) c
  | ⟨2, _⟩ => fun c => dat2 (V11 m ρ) c
  | ⟨3, _⟩ => fun c => dat3 (V19 m ρ) c

end Cert.KernelIdeal.Hand

end
-- ==== Proof.KI.Run.lean ====
import proofs.«400914_j13511967113603_4_alg».proof.Proof.KI.RunDefs

/-! # The run of @main

Each stretch of host operations is a segment over the thread state "every unscoped buffer at the boundary's
contents, the generator register at some state, nothing owed"; each call is a region segment entered from the
contents before it and left at the contents after it.  The launch theorem for a list of segments then gives: every
weakly fair execution terminates without a fault, and every unscoped buffer ends at the last boundary's contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of `hostOps0` allocates a buffer. -/
theorem hostOps0_fresh : (hostOps0 : List (HloOp τ sig (Elt F))).Forall fun op => op.fresh = ∅ := by
  simp only [List.Forall]; repeat' constructor
set_option maxHeartbeats 4000000 in
/-- No operation of `hostOps0_1` allocates a buffer. -/
theorem hostOps0_1_fresh : (hostOps0_1 : List (HloOp τ sig (Elt F))).Forall fun op => op.fresh = ∅ := by
  simp only [List.Forall]; repeat' constructor
set_option maxHeartbeats 4000000 in
/-- No operation of `hostOps0_2` allocates a buffer. -/
theorem hostOps0_2_fresh : (hostOps0_2 : List (HloOp τ sig (Elt F))).Forall fun op => op.fresh = ∅ := by
  simp only [List.Forall]; repeat' constructor
set_option maxHeartbeats 4000000 in
/-- No operation of `hostOps0_3` allocates a buffer. -/
theorem hostOps0_3_fresh : (hostOps0_3 : List (HloOp τ sig (Elt F))).Forall fun op => op.fresh = ∅ := by
  simp only [List.Forall]; repeat' constructor
set_option maxHeartbeats 4000000 in
/-- No operation of `hostOps0_4` allocates a buffer. -/
theorem hostOps0_4_fresh : (hostOps0_4 : List (HloOp τ sig (Elt F))).Forall fun op => op.fresh = ∅ := by
  simp only [List.Forall]; repeat' constructor
set_option maxHeartbeats 4000000 in
/-- No operation of `hostOps0_5` allocates a buffer. -/
theorem hostOps0_5_fresh : (hostOps0_5 : List (HloOp τ sig (Elt F))).Forall fun op => op.fresh = ∅ := by
  simp only [List.Forall]; repeat' constructor
set_option maxHeartbeats 4000000 in
/-- No operation of `hostOps0_6` allocates a buffer. -/
theorem hostOps0_6_fresh : (hostOps0_6 : List (HloOp τ sig (Elt F))).Forall fun op => op.fresh = ∅ := by
  simp only [List.Forall]; repeat' constructor
set_option maxHeartbeats 4000000 in
/-- No operation of `hostOps1` allocates a buffer. -/
theorem hostOps1_fresh : (hostOps1 : List (HloOp τ sig (Elt F))).Forall fun op => op.fresh = ∅ := by
  simp only [List.Forall]; repeat' constructor
set_option maxHeartbeats 4000000 in
/-- No operation of `hostOps2` allocates a buffer. -/
theorem hostOps2_fresh : (hostOps2 : List (HloOp τ sig (Elt F))).Forall fun op => op.fresh = ∅ := by
  simp only [List.Forall]; repeat' constructor
set_option maxHeartbeats 4000000 in
/-- No operation of `hostOps3` allocates a buffer. -/
theorem hostOps3_fresh : (hostOps3 : List (HloOp τ sig (Elt F))).Forall fun op => op.fresh = ∅ := by
  simp only [List.Forall]; repeat' constructor
set_option maxHeartbeats 4000000 in
/-- No operation of `hostOps3_1` allocates a buffer. -/
theorem hostOps3_1_fresh : (hostOps3_1 : List (HloOp τ sig (Elt F))).Forall fun op => op.fresh = ∅ := by
  simp only [List.Forall]; repeat' constructor
set_option maxHeartbeats 4000000 in
/-- No operation of `hostOps3_2` allocates a buffer. -/
theorem hostOps3_2_fresh : (hostOps3_2 : List (HloOp τ sig (Elt F))).Forall fun op => op.fresh = ∅ := by
  simp only [List.Forall]; repeat' constructor
set_option maxHeartbeats 4000000 in
/-- No operation of `hostOps3_3` allocates a buffer. -/
theorem hostOps3_3_fresh : (hostOps3_3 : List (HloOp τ sig (Elt F))).Forall fun op => op.fresh = ∅ := by
  simp only [List.Forall]; repeat' constructor
set_option maxHeartbeats 4000000 in
/-- No operation of `hostOps3_4` allocates a buffer. -/
theorem hostOps3_4_fresh : (hostOps3_4 : List (HloOp τ sig (Elt F))).Forall fun op => op.fresh = ∅ := by
  simp only [List.Forall]; repeat' constructor
set_option maxHeartbeats 4000000 in
/-- No operation of `hostOps3_5` allocates a buffer. -/
theorem hostOps3_5_fresh : (hostOps3_5 : List (HloOp τ sig (Elt F))).Forall fun op => op.fresh = ∅ := by
  simp only [List.Forall]; repeat' constructor
set_option maxHeartbeats 4000000 in
/-- No operation of `hostOps3_6` allocates a buffer. -/
theorem hostOps3_6_fresh : (hostOps3_6 : List (HloOp τ sig (Elt F))).Forall fun op => op.fresh = ∅ := by
  simp only [List.Forall]; repeat' constructor
set_option maxHeartbeats 4000000 in
/-- No operation of `hostOps4` allocates a buffer. -/
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W21 m ρ c) ∗ ∃ r, prngReg c r)

/-! ## The calls as segments -/

set_option backward.isDefEq.respectTransparency.types false in
/-- Call 0 over the thread state: entered from every unscoped buffer at `W7`, left at `W8`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V7 m ρ) c).Φ 0 from rfl]
    exact (show _ ⊢ Pipeline.ΦA spec0 c from by
      unfold Pipeline.ΦA
      iintro ⟨Hp, -, Hr⟩
      isplitl [Hr]; · iexact Hr
      iexact Hp).trans (hin0 (V7 m ρ) c)
  hout c := by
    rw [Pipeline.ownSems0_none, show (pdats m ρ 0 c).Φ (Fin.last _) = (dat0 (V7 m ρ) c).Φ (Fin.last cfg0.N) from rfl]
    exact (hout0 (V7 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W9`, left at `W10`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V9 m ρ) c).Φ 0 from rfl]
    exact (show _ ⊢ Pipeline.ΦA spec1 c from by
      unfold Pipeline.ΦA
      iintro ⟨Hp, -, Hr⟩
      isplitl [Hr]; · iexact Hr
      iexact Hp).trans (hin1 (V9 m ρ) c)
  hout c := by
    rw [Pipeline.ownSems0_none, show (pdats m ρ 1 c).Φ (Fin.last _) = (dat1 (V9 m ρ) c).Φ (Fin.last cfg1.N) from rfl]
    exact (hout1 (V9 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W11`, left at `W12`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V11 m ρ) c).Φ 0 from rfl]
    exact (show _ ⊢ Pipeline.ΦA spec2 c from by
      unfold Pipeline.ΦA
      iintro ⟨Hp, -, Hr⟩
      isplitl [Hr]; · iexact Hr
      iexact Hp).trans (hin2 (V11 m ρ) c)
  hout c := by
    rw [Pipeline.ownSems0_none, show (pdats m ρ 2 c).Φ (Fin.last _) = (dat2 (V11 m ρ) c).Φ (Fin.last cfg2.N) from rfl]
    exact (hout2 (V11 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W19`, left at `W20`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V19 m ρ) c).loose
  hwaits := Pipeline.hwaits_of_owed_zero _ _ _ _ L lv 3 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec3 c (V19 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V19 m ρ c) (V20 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twenty-one segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .region (reg1 m ρ),
    .host (hseg hostOps2 hostOps2_sub hostOps2_fresh (W10 m ρ)),
    .region (reg2 m ρ),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .host (hseg hostOps3_3 hostOps3_3_sub hostOps3_3_fresh (W15 m ρ)),
    .host (hseg hostOps3_4 hostOps3_4_sub hostOps3_4_fresh (W16 m ρ)),
    .host (hseg hostOps3_5 hostOps3_5_sub hostOps3_5_fresh (W17 m ρ)),
    .host (hseg hostOps3_6 hostOps3_6_sub hostOps3_6_fresh (W18 m ρ)),
    .region (reg3 m ρ),
    .host (hseg hostOps4 hostOps4_sub hostOps4_fresh (W20 m ρ)) ]

set_option maxHeartbeats 4000000 in
/-- @main is the run of the segments. -/
theorem main_run (c : Dev nD) : main (F := F) c = Pipeline.Seg.run (segs m ρ) := (main_chain c).trans (by chain_rfl)

set_option backward.isDefEq.respectTransparency.types false in
set_option maxHeartbeats 4000000 in
/-- THE RUN: from any memory with zero counters every weakly fair execution of @main on the TensorCores terminates,
    nothing faulting, and every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W21 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c => h c)

end Cert.KernelIdeal.Hand

end
-- ==== Proof.KI.Kept.lean ====
import proofs.«400914_j13511967113603_4_alg».proof.Proof.KI.RunDefs

/-! # What every item of @main leaves unchanged

Per stretch of host operations, the references its operations write, in order (each operation writes its one result);
so a reference not among them holds after the stretch what it held before.  A call leaves every buffer but its output
array as it found it: an input window's array is never written back, and a buffer that is no window's array is not
touched.  Chained from the launch: no item writes an argument, so at every boundary each argument holds its launch
contents; and the gathered table `main_v24` is as the first call finds it until the third call is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the host stretches write -/

/-- An operation whose one result is `y` writes inside any list of references holding `y`. -/
theorem writes_sub_of_mem {W : List (Ref sig .tc)} (op : HloOp τ sig (Elt F)) (y : Ref sig .tc)
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map_of_mem hy

/-- Operations whose results are, one by one, the references of a list write inside any list holding those. -/
theorem forall_writes_of_forall₂ {ops : List (HloOp τ sig (Elt F))} {W : List (Ref sig .tc)}
    (h : List.Forall₂ (fun op y => op.writes = {Proc.devRef (τ := τ) .tc y}) ops W) (W' : List (Ref sig .tc))
    (hW : ∀ y ∈ W, y ∈ W') :
    ops.Forall fun op => op.writes ⊆ (W'.map (Proc.devRef (τ := τ) .tc)).toFinset := by
  rw [List.forall_iff_forall_mem]
  induction h with
  | nil => intro op hop; cases hop
  | cons hab _ ih =>
    intro op hop
    rcases List.mem_cons.mp hop with rfl | hop
    · exact writes_sub_of_mem _ _ hab (hW _ List.mem_cons_self)
    · exact ih (fun y hy => hW y (List.mem_cons_of_mem _ hy)) op hop

/-- The references `hostOps0`'s operations write, in order. -/
abbrev hostOps0_W : List (Ref sig .tc) := [main_cst, main_v0, main_v1, main_v2, main_cst_0, main_v3, main_v4, main_v5, main_v6, main_v7, main_cst_1, main_v8, main_v9, main_v10, main_v11, main_v12, main_cst_2, main_v13, main_v14, main_v15, main_v16, main_v17, main_v18, main_v19, main_cst_3]
theorem hostOps0_writes : (hostOps0 : List (HloOp τ sig (Elt F))).Forall fun op => op.writes ⊆ (hostOps0_W.map (Proc.devRef (τ := τ) .tc)).toFinset :=
  forall_writes_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))) _ fun _ h => h
/-- The references `hostOps0_1`'s operations write, in order. -/
abbrev hostOps0_1_W : List (Ref sig .tc) := [main_call0_v0, main_call0_v1, main_v20]
theorem hostOps0_1_writes : (hostOps0_1 : List (HloOp τ sig (Elt F))).Forall fun op => op.writes ⊆ (hostOps0_1_W.map (Proc.devRef (τ := τ) .tc)).toFinset :=
  forall_writes_of_forall₂ (.cons rfl (.cons rfl (.cons rfl .nil))) _ fun _ h => h
/-- The references `hostOps0_2`'s operations write, in order. -/
abbrev hostOps0_2_W : List (Ref sig .tc) := [main_cst_4, main_v21, main_v22, main_cst_5]
theorem hostOps0_2_writes : (hostOps0_2 : List (HloOp τ sig (Elt F))).Forall fun op => op.writes ⊆ (hostOps0_2_W.map (Proc.devRef (τ := τ) .tc)).toFinset :=
  forall_writes_of_forall₂ (.cons rfl (.cons rfl (.cons rfl (.cons rfl .nil)))) _ fun _ h => h
/-- The references `hostOps0_3`'s operations write, in order. -/
abbrev hostOps0_3_W : List (Ref sig .tc) := [main_call1_v0, main_v23]
theorem hostOps0_3_writes : (hostOps0_3 : List (HloOp τ sig (Elt F))).Forall fun op => op.writes ⊆ (hostOps0_3_W.map (Proc.devRef (τ := τ) .tc)).toFinset :=
  forall_writes_of_forall₂ (.cons rfl (.cons rfl .nil)) _ fun _ h => h
/-- The references `hostOps0_4`'s operations write, in order. -/
abbrev hostOps0_4_W : List (Ref sig .tc) := [main_v24, main_c]
theorem hostOps0_4_writes : (hostOps0_4 : List (HloOp τ sig (Elt F))).Forall fun op => op.writes ⊆ (hostOps0_4_W.map (Proc.devRef (τ := τ) .tc)).toFinset :=
  forall_writes_of_forall₂ (.cons rfl (.cons rfl .nil)) _ fun _ h => h
/-- The references `hostOps0_5`'s operations write, in order. -/
abbrev hostOps0_5_W : List (Ref sig .tc) := [main_call2_v0, main_v25]
theorem hostOps0_5_writes : (hostOps0_5 : List (HloOp τ sig (Elt F))).Forall fun op => op.writes ⊆ (hostOps0_5_W.map (Proc.devRef (τ := τ) .tc)).toFinset :=
  forall_writes_of_forall₂ (.cons rfl (.cons rfl .nil)) _ fun _ h => h
/-- The references `hostOps0_6`'s operations write, in order. -/
abbrev hostOps0_6_W : List (Ref sig .tc) := [main_v26, main_v27, main_c_6, main_v28, main_v29, main_c_7, main_v30, main_v31, main_v32, main_v33, main_v34, main_v35, main_v36, main_cst_8, main_v37, main_v38, main_v39, main_v40, main_v41, main_v42, main_v43, main_v44, main_v45, main_c_9, main_v46, main_v47, main_c_10, main_v48, main_v49, main_v50, main_v51, main_v52, main_v53, main_v54, main_cst_11, main_v55, main_v56, main_v57, main_v58, main_v59, main_v60, main_v61, main_v62, main_v63, main_c_12, main_v64, main_v65, main_c_13, main_v66, main_v67, main_v68, main_v69, main_v70, main_v71, main_v72, main_cst_14, main_v73, main_v74, main_v75, main_v76, main_v77, main_v78, main_v79, main_v80, main_v81, main_v82, main_v83]
theorem hostOps0_6_writes : (hostOps0_6 : List (HloOp τ sig (Elt F))).Forall fun op => op.writes ⊆ (hostOps0_6_W.map (Proc.devRef (τ := τ) .tc)).toFinset :=
  forall_writes_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))) _ fun _ h => h
/-- The references `hostOps1`'s operations write, in order. -/
abbrev hostOps1_W : List (Ref sig .tc) := [main_v85, main_v86, main_c_15, main_v87, main_v88, main_c_16, main_v89, main_v90, main_v91, main_v92, main_v93, main_v94, main_v95, main_cst_17, main_v96, main_v97, main_v98, main_v99, main_v100, main_v101, main_v102, main_v103, main_v104, main_c_18, main_v105, main_v106, main_c_19, main_v107, main_v108, main_v109, main_v110, main_v111, main_v112, main_v113, main_cst_20, main_v114, main_v115, main_v116, main_v117, main_v118, main_v119, main_v120, main_v121, main_v122, main_c_21, main_v123, main_v124, main_c_22, main_v125, main_v126, main_v127, main_v128, main_v129, main_v130, main_v131, main_cst_23, main_v132, main_v133, main_v134, main_v135, main_v136, main_v137, main_v138, main_v139, main_v140, main_v141, main_v142]
theorem hostOps1_writes : (hostOps1 : List (HloOp τ sig (Elt F))).Forall fun op => op.writes ⊆ (hostOps1_W.map (Proc.devRef (τ := τ) .tc)).toFinset :=
  forall_writes_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))) _ fun _ h => h
/-- The references `hostOps2`'s operations write, in order. -/
abbrev hostOps2_W : List (Ref sig .tc) := [main_v144, main_v145, main_c_24, main_v146, main_v147, main_c_25, main_v148, main_v149, main_v150, main_v151, main_v152, main_v153, main_v154, main_cst_26, main_v155, main_v156, main_v157, main_v158, main_v159, main_v160, main_v161, main_v162, main_v163, main_c_27, main_v164, main_v165, main_c_28, main_v166, main_v167, main_v168, main_v169, main_v170, main_v171, main_v172, main_cst_29, main_v173, main_v174, main_v175, main_v176, main_v177, main_v178, main_v179, main_v180, main_v181, main_c_30, main_v182, main_v183, main_c_31, main_v184, main_v185, main_v186, main_v187, main_v188, main_v189, main_v190, main_cst_32, main_v191, main_v192, main_v193, main_v194, main_v195, main_v196, main_v197, main_v198, main_v199, main_v200, main_v201]
theorem hostOps2_writes : (hostOps2 : List (HloOp τ sig (Elt F))).Forall fun op => op.writes ⊆ (hostOps2_W.map (Proc.devRef (τ := τ) .tc)).toFinset :=
  forall_writes_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))) _ fun _ h => h
/-- The references `hostOps3`'s operations write, in order. -/
abbrev hostOps3_W : List (Ref sig .tc) := [main_v203, main_v204, main_v205]
theorem hostOps3_writes : (hostOps3 : List (HloOp τ sig (Elt F))).Forall fun op => op.writes ⊆ (hostOps3_W.map (Proc.devRef (τ := τ) .tc)).toFinset :=
  forall_writes_of_forall₂ (.cons rfl (.cons rfl (.cons rfl .nil))) _ fun _ h => h
/-- The references `hostOps3_1`'s operations write, in order. -/
abbrev hostOps3_1_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v206]
theorem hostOps3_1_writes : (hostOps3_1 : List (HloOp τ sig (Elt F))).Forall fun op => op.writes ⊆ (hostOps3_1_W.map (Proc.devRef (τ := τ) .tc)).toFinset :=
  forall_writes_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))) _ fun _ h => h
/-- The references `hostOps3_2`'s operations write, in order. -/
abbrev hostOps3_2_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v207]
theorem hostOps3_2_writes : (hostOps3_2 : List (HloOp τ sig (Elt F))).Forall fun op => op.writes ⊆ (hostOps3_2_W.map (Proc.devRef (τ := τ) .tc)).toFinset :=
  forall_writes_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))) _ fun _ h => h
/-- The references `hostOps3_3`'s operations write, in order. -/
abbrev hostOps3_3_W : List (Ref sig .tc) := [main_c_33]
theorem hostOps3_3_writes : (hostOps3_3 : List (HloOp τ sig (Elt F))).Forall fun op => op.writes ⊆ (hostOps3_3_W.map (Proc.devRef (τ := τ) .tc)).toFinset :=
  forall_writes_of_forall₂ (.cons rfl .nil) _ fun _ h => h
/-- The references `hostOps3_4`'s operations write, in order. -/
abbrev hostOps3_4_W : List (Ref sig .tc) := [main_call5_v0, main_v208]
theorem hostOps3_4_writes : (hostOps3_4 : List (HloOp τ sig (Elt F))).Forall fun op => op.writes ⊆ (hostOps3_4_W.map (Proc.devRef (τ := τ) .tc)).toFinset :=
  forall_writes_of_forall₂ (.cons rfl (.cons rfl .nil)) _ fun _ h => h
/-- The references `hostOps3_5`'s operations write, in order. -/
abbrev hostOps3_5_W : List (Ref sig .tc) := [main_c_34]
theorem hostOps3_5_writes : (hostOps3_5 : List (HloOp τ sig (Elt F))).Forall fun op => op.writes ⊆ (hostOps3_5_W.map (Proc.devRef (τ := τ) .tc)).toFinset :=
  forall_writes_of_forall₂ (.cons rfl .nil) _ fun _ h => h
/-- The references `hostOps3_6`'s operations write, in order. -/
abbrev hostOps3_6_W : List (Ref sig .tc) := [main_call6_v0, main_v209]
theorem hostOps3_6_writes : (hostOps3_6 : List (HloOp τ sig (Elt F))).Forall fun op => op.writes ⊆ (hostOps3_6_W.map (Proc.devRef (τ := τ) .tc)).toFinset :=
  forall_writes_of_forall₂ (.cons rfl (.cons rfl .nil)) _ fun _ h => h
/-- The references `hostOps4`'s operations write, in order. -/
abbrev hostOps4_W : List (Ref sig .tc) := [main_v211, main_v212, main_v213]
theorem hostOps4_writes : (hostOps4 : List (HloOp τ sig (Elt F))).Forall fun op => op.writes ⊆ (hostOps4_W.map (Proc.devRef (τ := τ) .tc)).toFinset :=
  forall_writes_of_forall₂ (.cons rfl (.cons rfl (.cons rfl .nil))) _ fun _ h => h

variable (m : (ℓ : Loc nD τ sig) → Buf (Elt F) ℓ) (ρ : Dev nD → PrngReg)

/-! ## What each item leaves unchanged -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
theorem W6_of (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h
theorem W7_of (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h
/-- Call 0 leaves every buffer but its output array `main_v84` as it found it: an input window's array is never
    written back, a buffer that is no window's array is not touched. -/
theorem W8_of (c : Dev nD) (r : Ref sig .tc) (h : r ≠ main_v84) :
    W8 m ρ c (Proc.devRef .tc r) = W7 m ρ c (Proc.devRef .tc r) := by
  by_cases hr : ∃ w : Fin cfg0.W, Pipeline.arrRef spec0 w = r
  · obtain ⟨w, rfl⟩ := hr
    have hw : (cfg0.win w).isOut = false ∨ Pipeline.arrRef spec0 w = main_v84 := by
      match w with
      | ⟨0, _⟩ => exact .inl rfl
      | ⟨1, _⟩ => exact .inl rfl
      | ⟨2, _⟩ => exact .inl rfl
      | ⟨3, _⟩ => exact .inr rfl
    rcases hw with hin | hout
    · exact (W8_arr m ρ c w).trans (((dat0 (V7 m ρ) c).arrAt_in w hin _).trans (A_eq0 (V7 m ρ) c w))
    · exact absurd hout h
  · exact W8_of_ne m ρ c r fun w e => hr ⟨w, e⟩
theorem W9_of (c : Dev nD) (r : Ref sig .tc) (h : r ∉ hostOps1_W) :
    W9 m ρ c (Proc.devRef .tc r) = W8 m ρ c (Proc.devRef .tc r) :=
  StableHlo.after_of_writes_sub hostOps1 _ hostOps1_writes h
/-- Call 1 leaves every buffer but its output array `main_v143` as it found it: an input window's array is never
    written back, a buffer that is no window's array is not touched. -/
theorem W10_of (c : Dev nD) (r : Ref sig .tc) (h : r ≠ main_v143) :
    W10 m ρ c (Proc.devRef .tc r) = W9 m ρ c (Proc.devRef .tc r) := by
  by_cases hr : ∃ w : Fin cfg1.W, Pipeline.arrRef spec1 w = r
  · obtain ⟨w, rfl⟩ := hr
    have hw : (cfg1.win w).isOut = false ∨ Pipeline.arrRef spec1 w = main_v143 := by
      match w with
      | ⟨0, _⟩ => exact .inl rfl
      | ⟨1, _⟩ => exact .inl rfl
      | ⟨2, _⟩ => exact .inl rfl
      | ⟨3, _⟩ => exact .inr rfl
    rcases hw with hin | hout
    · exact (W10_arr m ρ c w).trans (((dat1 (V9 m ρ) c).arrAt_in w hin _).trans (A_eq1 (V9 m ρ) c w))
    · exact absurd hout h
  · exact W10_of_ne m ρ c r fun w e => hr ⟨w, e⟩
theorem W11_of (c : Dev nD) (r : Ref sig .tc) (h : r ∉ hostOps2_W) :
    W11 m ρ c (Proc.devRef .tc r) = W10 m ρ c (Proc.devRef .tc r) :=
  StableHlo.after_of_writes_sub hostOps2 _ hostOps2_writes h
/-- Call 2 leaves every buffer but its output array `main_v202` as it found it: an input window's array is never
    written back, a buffer that is no window's array is not touched. -/
theorem W12_of (c : Dev nD) (r : Ref sig .tc) (h : r ≠ main_v202) :
    W12 m ρ c (Proc.devRef .tc r) = W11 m ρ c (Proc.devRef .tc r) := by
  by_cases hr : ∃ w : Fin cfg2.W, Pipeline.arrRef spec2 w = r
  · obtain ⟨w, rfl⟩ := hr
    have hw : (cfg2.win w).isOut = false ∨ Pipeline.arrRef spec2 w = main_v202 := by
      match w with
      | ⟨0, _⟩ => exact .inl rfl
      | ⟨1, _⟩ => exact .inl rfl
      | ⟨2, _⟩ => exact .inl rfl
      | ⟨3, _⟩ => exact .inr rfl
    rcases hw with hin | hout
    · exact (W12_arr m ρ c w).trans (((dat2 (V11 m ρ) c).arrAt_in w hin _).trans (A_eq2 (V11 m ρ) c w))
    · exact absurd hout h
  · exact W12_of_ne m ρ c r fun w e => hr ⟨w, e⟩
theorem W13_of (c : Dev nD) (r : Ref sig .tc) (h : r ∉ hostOps3_W) :
    W13 m ρ c (Proc.devRef .tc r) = W12 m ρ c (Proc.devRef .tc r) :=
  StableHlo.after_of_writes_sub hostOps3 _ hostOps3_writes h
theorem W14_of (c : Dev nD) (r : Ref sig .tc) (h : r ∉ hostOps3_1_W) :
    W14 m ρ c (Proc.devRef .tc r) = W13 m ρ c (Proc.devRef .tc r) :=
  StableHlo.after_of_writes_sub hostOps3_1 _ hostOps3_1_writes h
theorem W15_of (c : Dev nD) (r : Ref sig .tc) (h : r ∉ hostOps3_2_W) :
    W15 m ρ c (Proc.devRef .tc r) = W14 m ρ c (Proc.devRef .tc r) :=
  StableHlo.after_of_writes_sub hostOps3_2 _ hostOps3_2_writes h
theorem W16_of (c : Dev nD) (r : Ref sig .tc) (h : r ∉ hostOps3_3_W) :
    W16 m ρ c (Proc.devRef .tc r) = W15 m ρ c (Proc.devRef .tc r) :=
  StableHlo.after_of_writes_sub hostOps3_3 _ hostOps3_3_writes h
theorem W17_of (c : Dev nD) (r : Ref sig .tc) (h : r ∉ hostOps3_4_W) :
    W17 m ρ c (Proc.devRef .tc r) = W16 m ρ c (Proc.devRef .tc r) :=
  StableHlo.after_of_writes_sub hostOps3_4 _ hostOps3_4_writes h
theorem W18_of (c : Dev nD) (r : Ref sig .tc) (h : r ∉ hostOps3_5_W) :
    W18 m ρ c (Proc.devRef .tc r) = W17 m ρ c (Proc.devRef .tc r) :=
  StableHlo.after_of_writes_sub hostOps3_5 _ hostOps3_5_writes h
theorem W19_of (c : Dev nD) (r : Ref sig .tc) (h : r ∉ hostOps3_6_W) :
    W19 m ρ c (Proc.devRef .tc r) = W18 m ρ c (Proc.devRef .tc r) :=
  StableHlo.after_of_writes_sub hostOps3_6 _ hostOps3_6_writes h
/-- Call 3 leaves every buffer but its output array `main_v210` as it found it: an input window's array is never
    written back, a buffer that is no window's array is not touched. -/
theorem W20_of (c : Dev nD) (r : Ref sig .tc) (h : r ≠ main_v210) :
    W20 m ρ c (Proc.devRef .tc r) = W19 m ρ c (Proc.devRef .tc r) := by
  by_cases hr : ∃ w : Fin cfg3.W, Pipeline.arrRef spec3 w = r
  · obtain ⟨w, rfl⟩ := hr
    have hw : (cfg3.win w).isOut = false ∨ Pipeline.arrRef spec3 w = main_v210 := by
      match w with
      | ⟨0, _⟩ => exact .inl rfl
      | ⟨1, _⟩ => exact .inl rfl
      | ⟨2, _⟩ => exact .inr rfl
    rcases hw with hin | hout
    · exact (W20_arr m ρ c w).trans (((dat3 (V19 m ρ) c).arrAt_in w hin _).trans (A_eq3 (V19 m ρ) c w))
    · exact absurd hout h
  · exact W20_of_ne m ρ c r fun w e => hr ⟨w, e⟩
theorem W21_of (c : Dev nD) (r : Ref sig .tc) (h : r ∉ hostOps4_W) :
    W21 m ρ c (Proc.devRef .tc r) = W20 m ρ c (Proc.devRef .tc r) :=
  StableHlo.after_of_writes_sub hostOps4 _ hostOps4_writes h

/-! ## No item writes an argument -/

theorem args_not_mem_hostOps0 : ∀ r ∈ ([main_arg0, main_arg1, main_arg2, main_arg3, main_arg4, main_arg5, main_arg6, main_arg7, main_arg8, main_arg9, main_arg10, main_arg11, main_arg12] : List (Ref sig .tc)), r ∉ hostOps0_W := by
  intro r h
  fin_cases h <;> decide
theorem args_not_mem_hostOps0_1 : ∀ r ∈ ([main_arg0, main_arg1, main_arg2, main_arg3, main_arg4, main_arg5, main_arg6, main_arg7, main_arg8, main_arg9, main_arg10, main_arg11, main_arg12] : List (Ref sig .tc)), r ∉ hostOps0_1_W := by
  intro r h
  fin_cases h <;> decide
theorem args_not_mem_hostOps0_2 : ∀ r ∈ ([main_arg0, main_arg1, main_arg2, main_arg3, main_arg4, main_arg5, main_arg6, main_arg7, main_arg8, main_arg9, main_arg10, main_arg11, main_arg12] : List (Ref sig .tc)), r ∉ hostOps0_2_W := by
  intro r h
  fin_cases h <;> decide
theorem args_not_mem_hostOps0_3 : ∀ r ∈ ([main_arg0, main_arg1, main_arg2, main_arg3, main_arg4, main_arg5, main_arg6, main_arg7, main_arg8, main_arg9, main_arg10, main_arg11, main_arg12] : List (Ref sig .tc)), r ∉ hostOps0_3_W := by
  intro r h
  fin_cases h <;> decide
theorem args_not_mem_hostOps0_4 : ∀ r ∈ ([main_arg0, main_arg1, main_arg2, main_arg3, main_arg4, main_arg5, main_arg6, main_arg7, main_arg8, main_arg9, main_arg10, main_arg11, main_arg12] : List (Ref sig .tc)), r ∉ hostOps0_4_W := by
  intro r h
  fin_cases h <;> decide
theorem args_not_mem_hostOps0_5 : ∀ r ∈ ([main_arg0, main_arg1, main_arg2, main_arg3, main_arg4, main_arg5, main_arg6, main_arg7, main_arg8, main_arg9, main_arg10, main_arg11, main_arg12] : List (Ref sig .tc)), r ∉ hostOps0_5_W := by
  intro r h
  fin_cases h <;> decide
theorem args_not_mem_hostOps0_6 : ∀ r ∈ ([main_arg0, main_arg1, main_arg2, main_arg3, main_arg4, main_arg5, main_arg6, main_arg7, main_arg8, main_arg9, main_arg10, main_arg11, main_arg12] : List (Ref sig .tc)), r ∉ hostOps0_6_W := by
  intro r h
  fin_cases h <;> decide
theorem args_not_mem_hostOps1 : ∀ r ∈ ([main_arg0, main_arg1, main_arg2, main_arg3, main_arg4, main_arg5, main_arg6, main_arg7, main_arg8, main_arg9, main_arg10, main_arg11, main_arg12] : List (Ref sig .tc)), r ∉ hostOps1_W := by
  intro r h
  fin_cases h <;> decide
theorem args_not_mem_hostOps2 : ∀ r ∈ ([main_arg0, main_arg1, main_arg2, main_arg3, main_arg4, main_arg5, main_arg6, main_arg7, main_arg8, main_arg9, main_arg10, main_arg11, main_arg12] : List (Ref sig .tc)), r ∉ hostOps2_W := by
  intro r h
  fin_cases h <;> decide
theorem args_not_mem_hostOps3 : ∀ r ∈ ([main_arg0, main_arg1, main_arg2, main_arg3, main_arg4, main_arg5, main_arg6, main_arg7, main_arg8, main_arg9, main_arg10, main_arg11, main_arg12] : List (Ref sig .tc)), r ∉ hostOps3_W := by
  intro r h
  fin_cases h <;> decide
theorem args_not_mem_hostOps3_1 : ∀ r ∈ ([main_arg0, main_arg1, main_arg2, main_arg3, main_arg4, main_arg5, main_arg6, main_arg7, main_arg8, main_arg9, main_arg10, main_arg11, main_arg12] : List (Ref sig .tc)), r ∉ hostOps3_1_W := by
  intro r h
  fin_cases h <;> decide
theorem args_not_mem_hostOps3_2 : ∀ r ∈ ([main_arg0, main_arg1, main_arg2, main_arg3, main_arg4, main_arg5, main_arg6, main_arg7, main_arg8, main_arg9, main_arg10, main_arg11, main_arg12] : List (Ref sig .tc)), r ∉ hostOps3_2_W := by
  intro r h
  fin_cases h <;> decide
theorem args_not_mem_hostOps3_3 : ∀ r ∈ ([main_arg0, main_arg1, main_arg2, main_arg3, main_arg4, main_arg5, main_arg6, main_arg7, main_arg8, main_arg9, main_arg10, main_arg11, main_arg12] : List (Ref sig .tc)), r ∉ hostOps3_3_W := by
  intro r h
  fin_cases h <;> decide
theorem args_not_mem_hostOps3_4 : ∀ r ∈ ([main_arg0, main_arg1, main_arg2, main_arg3, main_arg4, main_arg5, main_arg6, main_arg7, main_arg8, main_arg9, main_arg10, main_arg11, main_arg12] : List (Ref sig .tc)), r ∉ hostOps3_4_W := by
  intro r h
  fin_cases h <;> decide
theorem args_not_mem_hostOps3_5 : ∀ r ∈ ([main_arg0, main_arg1, main_arg2, main_arg3, main_arg4, main_arg5, main_arg6, main_arg7, main_arg8, main_arg9, main_arg10, main_arg11, main_arg12] : List (Ref sig .tc)), r ∉ hostOps3_5_W := by
  intro r h
  fin_cases h <;> decide
theorem args_not_mem_hostOps3_6 : ∀ r ∈ ([main_arg0, main_arg1, main_arg2, main_arg3, main_arg4, main_arg5, main_arg6, main_arg7, main_arg8, main_arg9, main_arg10, main_arg11, main_arg12] : List (Ref sig .tc)), r ∉ hostOps3_6_W := by
  intro r h
  fin_cases h <;> decide
theorem args_not_mem_hostOps4 : ∀ r ∈ ([main_arg0, main_arg1, main_arg2, main_arg3, main_arg4, main_arg5, main_arg6, main_arg7, main_arg8, main_arg9, main_arg10, main_arg11, main_arg12] : List (Ref sig .tc)), r ∉ hostOps4_W := by
  intro r h
  fin_cases h <;> decide
theorem args_ne_out0 : ∀ r ∈ ([main_arg0, main_arg1, main_arg2, main_arg3, main_arg4, main_arg5, main_arg6, main_arg7, main_arg8, main_arg9, main_arg10, main_arg11, main_arg12] : List (Ref sig .tc)), r ≠ main_v84 := by
  intro r h
  fin_cases h <;> decide
theorem args_ne_out1 : ∀ r ∈ ([main_arg0, main_arg1, main_arg2, main_arg3, main_arg4, main_arg5, main_arg6, main_arg7, main_arg8, main_arg9, main_arg10, main_arg11, main_arg12] : List (Ref sig .tc)), r ≠ main_v143 := by
  intro r h
  fin_cases h <;> decide
theorem args_ne_out2 : ∀ r ∈ ([main_arg0, main_arg1, main_arg2, main_arg3, main_arg4, main_arg5, main_arg6, main_arg7, main_arg8, main_arg9, main_arg10, main_arg11, main_arg12] : List (Ref sig .tc)), r ≠ main_v202 := by
  intro r h
  fin_cases h <;> decide
theorem args_ne_out3 : ∀ r ∈ ([main_arg0, main_arg1, main_arg2, main_arg3, main_arg4, main_arg5, main_arg6, main_arg7, main_arg8, main_arg9, main_arg10, main_arg11, main_arg12] : List (Ref sig .tc)), r ≠ main_v210 := by
  intro r h
  fin_cases h <;> decide

/-- At boundary 1 every argument holds its launch contents. -/
theorem W1_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W1 m ρ c (Proc.devRef .tc r) = m ((c : Thread nD τ).loc r) :=
  (W1_of m ρ c r (args_not_mem_hostOps0 r h)).trans (rfl)
/-- At boundary 2 every argument holds its launch contents. -/
theorem W2_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W2 m ρ c (Proc.devRef .tc r) = m ((c : Thread nD τ).loc r) :=
  (W2_of m ρ c r (args_not_mem_hostOps0_1 r h)).trans (W1_arg m ρ c r h)
/-- At boundary 3 every argument holds its launch contents. -/
theorem W3_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W3 m ρ c (Proc.devRef .tc r) = m ((c : Thread nD τ).loc r) :=
  (W3_of m ρ c r (args_not_mem_hostOps0_2 r h)).trans (W2_arg m ρ c r h)
/-- At boundary 4 every argument holds its launch contents. -/
theorem W4_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W4 m ρ c (Proc.devRef .tc r) = m ((c : Thread nD τ).loc r) :=
  (W4_of m ρ c r (args_not_mem_hostOps0_3 r h)).trans (W3_arg m ρ c r h)
/-- At boundary 5 every argument holds its launch contents. -/
theorem W5_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W5 m ρ c (Proc.devRef .tc r) = m ((c : Thread nD τ).loc r) :=
  (W5_of m ρ c r (args_not_mem_hostOps0_4 r h)).trans (W4_arg m ρ c r h)
/-- At boundary 6 every argument holds its launch contents. -/
theorem W6_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W6 m ρ c (Proc.devRef .tc r) = m ((c : Thread nD τ).loc r) :=
  (W6_of m ρ c r (args_not_mem_hostOps0_5 r h)).trans (W5_arg m ρ c r h)
/-- At boundary 7 every argument holds its launch contents. -/
theorem W7_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W7 m ρ c (Proc.devRef .tc r) = m ((c : Thread nD τ).loc r) :=
  (W7_of m ρ c r (args_not_mem_hostOps0_6 r h)).trans (W6_arg m ρ c r h)
/-- At boundary 8 every argument holds its launch contents. -/
theorem W8_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W8 m ρ c (Proc.devRef .tc r) = m ((c : Thread nD τ).loc r) :=
  (W8_of m ρ c r (args_ne_out0 r h)).trans (W7_arg m ρ c r h)
/-- At boundary 9 every argument holds its launch contents. -/
theorem W9_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W9 m ρ c (Proc.devRef .tc r) = m ((c : Thread nD τ).loc r) :=
  (W9_of m ρ c r (args_not_mem_hostOps1 r h)).trans (W8_arg m ρ c r h)
/-- At boundary 10 every argument holds its launch contents. -/
theorem W10_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W10 m ρ c (Proc.devRef .tc r) = m ((c : Thread nD τ).loc r) :=
  (W10_of m ρ c r (args_ne_out1 r h)).trans (W9_arg m ρ c r h)
/-- At boundary 11 every argument holds its launch contents. -/
theorem W11_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W11 m ρ c (Proc.devRef .tc r) = m ((c : Thread nD τ).loc r) :=
  (W11_of m ρ c r (args_not_mem_hostOps2 r h)).trans (W10_arg m ρ c r h)
/-- At boundary 12 every argument holds its launch contents. -/
theorem W12_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W12 m ρ c (Proc.devRef .tc r) = m ((c : Thread nD τ).loc r) :=
  (W12_of m ρ c r (args_ne_out2 r h)).trans (W11_arg m ρ c r h)
/-- At boundary 13 every argument holds its launch contents. -/
theorem W13_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W13 m ρ c (Proc.devRef .tc r) = m ((c : Thread nD τ).loc r) :=
  (W13_of m ρ c r (args_not_mem_hostOps3 r h)).trans (W12_arg m ρ c r h)
/-- At boundary 14 every argument holds its launch contents. -/
theorem W14_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W14 m ρ c (Proc.devRef .tc r) = m ((c : Thread nD τ).loc r) :=
  (W14_of m ρ c r (args_not_mem_hostOps3_1 r h)).trans (W13_arg m ρ c r h)
/-- At boundary 15 every argument holds its launch contents. -/
theorem W15_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W15 m ρ c (Proc.devRef .tc r) = m ((c : Thread nD τ).loc r) :=
  (W15_of m ρ c r (args_not_mem_hostOps3_2 r h)).trans (W14_arg m ρ c r h)
/-- At boundary 16 every argument holds its launch contents. -/
theorem W16_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W16 m ρ c (Proc.devRef .tc r) = m ((c : Thread nD τ).loc r) :=
  (W16_of m ρ c r (args_not_mem_hostOps3_3 r h)).trans (W15_arg m ρ c r h)
/-- At boundary 17 every argument holds its launch contents. -/
theorem W17_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W17 m ρ c (Proc.devRef .tc r) = m ((c : Thread nD τ).loc r) :=
  (W17_of m ρ c r (args_not_mem_hostOps3_4 r h)).trans (W16_arg m ρ c r h)
/-- At boundary 18 every argument holds its launch contents. -/
theorem W18_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W18 m ρ c (Proc.devRef .tc r) = m ((c : Thread nD τ).loc r) :=
  (W18_of m ρ c r (args_not_mem_hostOps3_5 r h)).trans (W17_arg m ρ c r h)
/-- At boundary 19 every argument holds its launch contents. -/
theorem W19_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W19 m ρ c (Proc.devRef .tc r) = m ((c : Thread nD τ).loc r) :=
  (W19_of m ρ c r (args_not_mem_hostOps3_6 r h)).trans (W18_arg m ρ c r h)
/-- At boundary 20 every argument holds its launch contents. -/
theorem W20_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W20 m ρ c (Proc.devRef .tc r) = m ((c : Thread nD τ).loc r) :=
  (W20_of m ρ c r (args_ne_out3 r h)).trans (W19_arg m ρ c r h)
/-- At boundary 21 every argument holds its launch contents. -/
theorem W21_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W21 m ρ c (Proc.devRef .tc r) = m ((c : Thread nD τ).loc r) :=
  (W21_of m ρ c r (args_not_mem_hostOps4 r h)).trans (W20_arg m ρ c r h)

/-! ## The table `main_v24` from the first call's entry to the third's -/

theorem W8_v24 (c : Dev nD) : W8 m ρ c (Proc.devRef .tc main_v24) = W7 m ρ c (Proc.devRef .tc main_v24) :=
  (W8_of m ρ c main_v24 (by decide)).trans (rfl)
theorem W9_v24 (c : Dev nD) : W9 m ρ c (Proc.devRef .tc main_v24) = W7 m ρ c (Proc.devRef .tc main_v24) :=
  (W9_of m ρ c main_v24 (by decide)).trans (W8_v24 m ρ c)
theorem W10_v24 (c : Dev nD) : W10 m ρ c (Proc.devRef .tc main_v24) = W7 m ρ c (Proc.devRef .tc main_v24) :=
  (W10_of m ρ c main_v24 (by decide)).trans (W9_v24 m ρ c)
theorem W11_v24 (c : Dev nD) : W11 m ρ c (Proc.devRef .tc main_v24) = W7 m ρ c (Proc.devRef .tc main_v24) :=
  (W11_of m ρ c main_v24 (by decide)).trans (W10_v24 m ρ c)

end Cert.KernelIdeal.Hand

end
-- ==== Proof.KB.Conv0.lean ====
import proofs.«400914_j13511967113603_4_alg».proof.Proof.Gen.Kernel.Launch
import proofs.«400914_j13511967113603_4_alg».proof.Proof.Gen.Kernel.Skeleton
import proofs.«400914_j13511967113603_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! A convolution call as a pipeline region, at a parameter `V` (the TensorCore's buffer contents when the
    region is entered): each window's block at a grid point, the accumulator the kernel carries in its scratch
    buffer from point to point, the pipeline's proof data and its body obligation.

    The grid is 98 × 3, point `t` at coordinates `(t / 3, t % 3)`. At the second coordinate `r` the body adds
    `m ⬝ W[r] + b[r]` to the accumulator, which it zeroes first when `r = 0`; when `r = 2` it stores
    `max(accumulator, 0)` into the output block, which is written back there and idle at `r = 0, 1`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight slice the body loads at point `t`: row `r` of the weight window (the whole `[3, 64, 64]` array). -/
def wOf0 (c : Dev nD) (t : Fin cfg0.N) : Vec F S1x64x64 .f32 :=
  View.ld (iblk0 V c 1 t) (Rect.unit (s := S3x64x64) (k0_off1 (grid0.coords t)) S1x64x64.size (k0_off1_inb (grid0.coords t)))

/-- The bias row the body loads at point `t`: row `r` of the bias window (the whole `[3, 64]` array). -/
def bOf0 (c : Dev nD) (t : Fin cfg0.N) : Vec F S1x64 .f32 :=
  View.ld (iblk0 V c 2 t) (Rect.unit (s := S3x64) (k0_off2 (grid0.coords t)) S1x64.size (k0_off2_inb (grid0.coords t)))

/-! ## The accumulator -/

/-- What the scratch accumulator holds after the body at position `n`: the point's term `m ⬝ W[r] + b[r]` added to
    zero at the first point of a run of three (`n % 3 = 0`), to what the point before left otherwise. -/
def accAt0 (c : Dev nD) : (n : ℕ) → n < cfg0.N → Vec F S1024x64 .f32
  | 0, hn => k0_pay2 (wOf0 V c ⟨0, hn⟩) (iblk0 V c 0 ⟨0, hn⟩) (bOf0 V c ⟨0, hn⟩) (k0_pay1 (F := F))
  | n + 1, hn =>
    if (n + 1) % 3 = 0 then
      k0_pay2 (wOf0 V c ⟨n + 1, hn⟩) (iblk0 V c 0 ⟨n + 1, hn⟩) (bOf0 V c ⟨n + 1, hn⟩) (k0_pay1 (F := F))
    else
      k0_pay2 (wOf0 V c ⟨n + 1, hn⟩) (iblk0 V c 0 ⟨n + 1, hn⟩) (bOf0 V c ⟨n + 1, hn⟩) (accAt0 c n (Nat.lt_of_succ_lt hn))

/-- At the first point of a run the accumulator starts from zero. -/
theorem accAt0_first (c : Dev nD) (t : Fin cfg0.N) (h : t.val % 3 = 0) :
    accAt0 V c t.val t.isLt = k0_pay2 (wOf0 V c t) (iblk0 V c 0 t) (bOf0 V c t) (k0_pay1 (F := F)) := by
  obtain ⟨n, hn⟩ := t
  cases n with
  | zero => rfl
  | succ n => exact (if_pos h).trans rfl

/-- At the other points it adds to what the point before left. -/
theorem accAt0_next (c : Dev nD) (t : Fin cfg0.N) (h : t.val % 3 ≠ 0) :
    accAt0 V c t.val t.isLt = k0_pay2 (wOf0 V c t) (iblk0 V c 0 t) (bOf0 V c t)
      (accAt0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch accumulator as a memref: a whole scoped buffer of the kernel's own. -/
abbrev scM0 : Memref sig .tc .vmem S1024x64 .f32 := Memref.whole cc0_scratch0

/-- The core's scoped buffers other than this call's staging buffers and its scratch, each at some contents. -/
abbrev rest0 (c : Dev nD) : sProp 𝕄 :=
  Pipeline.scopedRestBut (Ix := Unit) (Name := ℕ) (U := UR sig nD τ) (Lvl := ℕ) (Val := Elt F) spec0 c [cc0_scratch0]

/-- The invariant before position `n`: before the first point what the launch hands the region (every scoped buffer
    at anything); afterwards the scratch at what the point before left in it, the other scoped buffers at anything,
    and the generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ rest0 c) ∗ (∃ r, prngReg c r)) := by
  cases n with
  | zero => exact absurd rfl hz
  | succ n => rfl

/-- What the launch hands the region, with the scratch split off the other scoped buffers. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole, Idealize.SL.BI.bigSepL_singleton]; try rfl

/-! ## The body's branch conditions, in closed form -/

/-- The condition of the body's first conditional (the accumulator's reset), from the grid coordinates. -/
abbrev condA0 (i : grid0.Coords) : Prop := (Scalar.cmpi .ne (Scalar.extui (Scalar.cmpi .eq (BitVec.ofNat 32 (i 1).val) 0#32)) 0#32) = 1#1
/-- It holds at the points ≡ 0 (mod 3). -/
theorem hcondA0 : ∀ t : Fin cfg0.N, condA0 (grid0.coords t) ↔ t.val % 3 = 0 :=
  (by decide +kernel : ∀ t : Fin grid0.N, condA0 (grid0.coords t) ↔ t.val % 3 = 0)

/-- The condition of the body's second conditional (the output's store). -/
abbrev condB0 (i : grid0.Coords) : Prop := k0_cond2 i = 1#1
/-- It holds at the points ≡ 2 (mod 3). -/
theorem hcondB0 : ∀ t : Fin cfg0.N, condB0 (grid0.coords t) ↔ t.val % 3 = 2 :=
  (by decide +kernel : ∀ t : Fin grid0.N, condB0 (grid0.coords t) ↔ t.val % 3 = 2)

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Where the output is not stored it is idle and not written back; where it is stored it is live. -/
theorem idleAt0_3 : ∀ t : Fin cfg0.N, ¬condB0 (grid0.coords t) → cfg0.idle 3 (grid0.coords t) = true := by decide +kernel
theorem noFlush0_3 : ∀ t : Fin cfg0.N, ¬condB0 (grid0.coords t) → (cfg0.win 3).flush t = false := by decide +kernel
theorem liveAt0_3 : ∀ t : Fin cfg0.N, condB0 (grid0.coords t) → cfg0.idle 3 (grid0.coords t) = false := by decide +kernel

/-! ## The body's triples, one per case of its conditionals -/

theorem zoff0_2 : (![0, 0] : Fin 2 → ℕ) = fun _ => 0 := by funext a; fin_cases a <;> rfl
theorem zoff0_3 : (![0, 0, 0] : Fin 3 → ℕ) = fun _ => 0 := by funext a; fin_cases a <;> rfl

/-- The weight slice and the bias row the body loads, through the offsets the program computes from the point. -/
abbrev rW0 (i : grid0.Coords) : Rect S3x64x64 := Rect.unit (s := S3x64x64) (k0_off1 i) S1x64x64.size (k0_off1_inb i)
abbrev rB0 (i : grid0.Coords) : Rect S3x64 := Rect.unit (s := S3x64) (k0_off2 i) S1x64.size (k0_off2_inb i)

set_option maxHeartbeats 1000000 in
/-- At the first point of a run (the reset taken, the output not stored): on whole memrefs, the inputs' at their
    contents and the scratch at anything, the body runs to the continuation holding the inputs' as they were and the
    scratch at the point's term added to zero. The output's memref is not touched. -/
theorem run0_A (c : Dev nD) (E : Set ℕ) (i : grid0.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : condA0 i) (hcB : ¬condB0 i)
    (xm : Vec F S1x1024x64 .f32) (xw : Vec F S3x64x64 .f32) (xb : Vec F S3x64 .f32) (K : PUnit → sProp 𝕄) :
    iprop(owns (c : Thread nD τ) arg2 fullShare xm ∗ owns (c : Thread nD τ) arg3 fullShare xw ∗ owns (c : Thread nD τ) arg4 fullShare xb
        ∗ (∃ d, owns (c : Thread nD τ) arg6 fullShare d)
        ∗ (iprop(owns (c : Thread nD τ) arg2 fullShare xm ∗ owns (c : Thread nD τ) arg3 fullShare xw ∗ owns (c : Thread nD τ) arg4 fullShare xb
            ∗ owns (c : Thread nD τ) arg6 fullShare (k0_pay2 (View.ld xw (rW0 i)) xm (View.ld xb (rB0 i)) (k0_pay1 (F := F)))) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%fm, %hfm, Hm⟩, ⟨%fw, %hfw, Hw⟩, ⟨%fb, %hfb, Hb⟩, ⟨%ds, %fs, -, Hs⟩, Hk⟩
  subst hfm; subst hfw; subst hfb
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  iexists _; isplitr
  swap; · iexact Hs
  ipureintro
  rw [View.read_writes_eq_canon _ _ _ (fun y => ⟨_, List.mem_cons_self, View.mem_set_unit_zero zoff0_2 inb_S1024x64_S1024x64_0_0 y⟩),
    View.canon_cons_unit_zero zoff0_2]
  sl_unfold_run_names
  rw [View.readCov_unit_zero _ zoff0_2,
    show View.readAt (Elt F) arg2.view (Rect.unit ![0, 0, 0] S1x1024x64.size inb_S1x1024x64_S1x1024x64_0_0_0).toLoadRect fm
        = View.read (Elt F) arg2.view fm from View.ld_unit_zero zoff0_3 _ _]
  rfl

set_option maxHeartbeats 1000000 in
/-- At the middle point of a run (no reset, the output not stored): the scratch at the contents `xs` the point before
    left, the body runs to the continuation holding the inputs' as they were and the scratch at the point's term added
    to `xs`. The output's memref is not touched. -/
theorem run0_B (c : Dev nD) (E : Set ℕ) (i : grid0.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : ¬condA0 i) (hcB : ¬condB0 i)
    (xm : Vec F S1x1024x64 .f32) (xw : Vec F S3x64x64 .f32) (xb : Vec F S3x64 .f32) (xs : Vec F S1024x64 .f32) (K : PUnit → sProp 𝕄) :
    iprop(owns (c : Thread nD τ) arg2 fullShare xm ∗ owns (c : Thread nD τ) arg3 fullShare xw ∗ owns (c : Thread nD τ) arg4 fullShare xb
        ∗ owns (c : Thread nD τ) arg6 fullShare xs
        ∗ (iprop(owns (c : Thread nD τ) arg2 fullShare xm ∗ owns (c : Thread nD τ) arg3 fullShare xw ∗ owns (c : Thread nD τ) arg4 fullShare xb
            ∗ owns (c : Thread nD τ) arg6 fullShare (k0_pay2 (View.ld xw (rW0 i)) xm (View.ld xb (rB0 i)) xs)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%fm, %hfm, Hm⟩, ⟨%fw, %hfw, Hw⟩, ⟨%fb, %hfb, Hb⟩, ⟨%fs, %hfs, Hs⟩, Hk⟩
  subst hfm; subst hfw; subst hfb; subst hfs
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  iexists _; isplitr
  swap; · iexact Hs
  ipureintro
  rw [View.read_writes_eq_canon _ _ _ (fun y => ⟨_, List.mem_cons_self, View.mem_set_unit_zero zoff0_2 inb_S1024x64_S1024x64_0_0 y⟩),
    View.canon_cons_unit_zero zoff0_2]
  sl_unfold_run_names
  rw [show View.readAt (Elt F) arg2.view (Rect.unit ![0, 0, 0] S1x1024x64.size inb_S1x1024x64_S1x1024x64_0_0_0).toLoadRect fm
        = View.read (Elt F) arg2.view fm from View.ld_unit_zero zoff0_3 _ _,
    show View.readAt (Elt F) arg6.view (Rect.unit ![0, 0] S1024x64.size inb_S1024x64_S1024x64_0_0).toLoadRect fs
        = View.read (Elt F) arg6.view fs from View.ld_unit_zero zoff0_2 _ _]
  rfl

set_option maxHeartbeats 1000000 in
/-- At the last point of a run (no reset, the output stored): the scratch at the contents `xs` the point before left
    and the output's memref at anything, the body runs to the continuation holding the inputs' as they were, the
    scratch at the point's term added to `xs` and the output's memref at the maximum of that and zero. -/
theorem run0_C (c : Dev nD) (E : Set ℕ) (i : grid0.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : ¬condA0 i) (hcB : condB0 i)
    (xm : Vec F S1x1024x64 .f32) (xw : Vec F S3x64x64 .f32) (xb : Vec F S3x64 .f32) (xs : Vec F S1024x64 .f32) (K : PUnit → sProp 𝕄) :
    iprop(owns (c : Thread nD τ) arg2 fullShare xm ∗ owns (c : Thread nD τ) arg3 fullShare xw ∗ owns (c : Thread nD τ) arg4 fullShare xb
        ∗ (∃ d, owns (c : Thread nD τ) arg5 fullShare d) ∗ owns (c : Thread nD τ) arg6 fullShare xs
        ∗ (iprop(owns (c : Thread nD τ) arg2 fullShare xm ∗ owns (c : Thread nD τ) arg3 fullShare xw ∗ owns (c : Thread nD τ) arg4 fullShare xb
            ∗ owns (c : Thread nD τ) arg5 fullShare (k0_pay3 (k0_pay2 (View.ld xw (rW0 i)) xm (View.ld xb (rB0 i)) xs))
            ∗ owns (c : Thread nD τ) arg6 fullShare (k0_pay2 (View.ld xw (rW0 i)) xm (View.ld xb (rB0 i)) xs)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%fm, %hfm, Hm⟩, ⟨%fw, %hfw, Hw⟩, ⟨%fb, %hfb, Hb⟩, ⟨%dq, %fq, -, Ho⟩, ⟨%fs, %hfs, Hs⟩, Hk⟩
  subst hfm; subst hfw; subst hfb; subst hfs
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  isplitl [Ho]
  · iexists _; isplitr
    swap; · iexact Ho
    ipureintro
    sl_unfold_run_names
    rw [View.read_writes_eq_canon _ _ _ (fun y => ⟨_, List.mem_cons_self, View.mem_set_unit_zero zoff0_2 inb_S1024x64_S1024x64_0_0 y⟩),
      View.canon_cons_unit_zero zoff0_2, View.readCov_unit_zero _ zoff0_2,
      show View.readAt (Elt F) arg2.view (Rect.unit ![0, 0, 0] S1x1024x64.size inb_S1x1024x64_S1x1024x64_0_0_0).toLoadRect fm
        = View.read (Elt F) arg2.view fm from View.ld_unit_zero zoff0_3 _ _,
      show View.readAt (Elt F) arg6.view (Rect.unit ![0, 0] S1024x64.size inb_S1024x64_S1024x64_0_0).toLoadRect fs
        = View.read (Elt F) arg6.view fs from View.ld_unit_zero zoff0_2 _ _]
    rfl
  iexists _; isplitr
  swap; · iexact Hs
  ipureintro
  sl_unfold_run_names
  rw [View.read_writes_eq_canon _ _ _ (fun y => ⟨_, List.mem_cons_self, View.mem_set_unit_zero zoff0_2 inb_S1024x64_S1024x64_0_0 y⟩),
    View.canon_cons_unit_zero zoff0_2,
    show View.readAt (Elt F) arg2.view (Rect.unit ![0, 0, 0] S1x1024x64.size inb_S1x1024x64_S1x1024x64_0_0_0).toLoadRect fm
        = View.read (Elt F) arg2.view fm from View.ld_unit_zero zoff0_3 _ _,
    show View.readAt (Elt F) arg6.view (Rect.unit ![0, 0] S1024x64.size inb_S1024x64_S1024x64_0_0).toLoadRect fs
        = View.read (Elt F) arg6.view fs from View.ld_unit_zero zoff0_2 _ _]
  rfl

/-! ## The pipeline's proof data -/

/-- The proof data of the call's pipeline on core `c`: the arrays as the region finds them (`V`); after the body at
    point `t` each input's buffer at its block and the output's at `max(accumulator, 0)` (read only where it is
    written back, `t % 3 = 2`); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accAt0 V c t.val t.isLt) := by dsimp only [dat0]

theorem owed0 (c : Dev nD) (t) : (dat0 V c).owed t = 0 := rfl
theorem q0 (c : Dev nD) (w) : (dat0 V c).q w = fullShare := rfl

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the body finds in each input's buffer -/

/-- Each input's current staging buffer holds its block at every point, fetched there or not: unfetched, the block
    index has not moved (the windows are uncut and never idle, and the body leaves them as it found them). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's position in its run of three says which
    case applies; the invariant hands the body the scratch at what the point before left (at anything at a run's first
    point, where the body zeroes it) and takes it back at this point's accumulator; the output's buffer is handed back
    untouched where the body does not store it, and at the maximum of the accumulator and zero where it does. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 294 := lt_of_lt_of_eq t.isLt (show cfg0.N = 294 from N_0)
  by_cases hA : t.val % 3 = 0
  · have hB : ¬t.val % 3 = 2 := by omega
    rw [Dat.leavesExact_idle (dat0 V c) 3 t (idleAt0_3 t (fun h => hB ((hcondB0 t).mp h))) (noFlush0_3 t (fun h => hB ((hcondB0 t).mp h)))]
    rw [accAt0_first V c t hA]
    unfold wOf0 bOf0
    by_cases hz : t.val = 0
    · rw [PhiS0_castSucc V c t, PhiS0_zero V c _ _ hz, PhiA0_eq]
      iintro ⟨⟨⟨Hs, Hr⟩, Hg⟩, Hd, ⟨%dm, Hm⟩, ⟨%dw, Hw⟩, ⟨%db, Hb⟩, Ho⟩
      iapply (run0_A c Set.univ (grid0.coords t) _ _ _ _ _ _ _ _ _ _ ((hcondA0 t).mpr hA) (fun h => hB ((hcondB0 t).mp h)) (iblk0 V c 0 t) (iblk0 V c 1 t) (iblk0 V c 2 t) _)
      isplitl [Hm]; · iexact Hm
      isplitl [Hw]; · iexact Hw
      isplitl [Hb]; · iexact Hb
      isplitl [Hs]; · iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
    · rw [PhiS0_castSucc V c t, PhiS0_pos V c _ _ hz]
      iintro ⟨⟨⟨Hs, Hr⟩, Hg⟩, Hd, ⟨%dm, Hm⟩, ⟨%dw, Hw⟩, ⟨%db, Hb⟩, Ho⟩
      iapply (run0_A c Set.univ (grid0.coords t) _ _ _ _ _ _ _ _ _ _ ((hcondA0 t).mpr hA) (fun h => hB ((hcondB0 t).mp h)) (iblk0 V c 0 t) (iblk0 V c 1 t) (iblk0 V c 2 t) _)
      isplitl [Hm]; · iexact Hm
      isplitl [Hw]; · iexact Hw
      isplitl [Hb]; · iexact Hb
      isplitl [Hs]; · iexists _; iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
  · have hz : t.val ≠ 0 := fun h => hA (by rw [h])
    rw [accAt0_next V c t hA]
    unfold wOf0 bOf0
    rw [PhiS0_castSucc V c t, PhiS0_pos V c _ _ hz]
    by_cases hB : t.val % 3 = 2
    · rw [show (dat0 V c).leavesExact 3 t = owns (c : Thread nD τ) (st0_3 t) fullShare ((dat0 V c).after 3 t) from by
        unfold Dat.leavesExact; rw [liveAt0_3 t ((hcondB0 t).mpr hB)], after0_3]
      rw [accAt0_next V c t hA]
      unfold wOf0 bOf0
      iintro ⟨⟨⟨Hs, Hr⟩, Hg⟩, Hd, ⟨%dm, Hm⟩, ⟨%dw, Hw⟩, ⟨%db, Hb⟩, ⟨%dq, Ho⟩⟩
      iapply (run0_C c Set.univ (grid0.coords t) _ _ _ _ _ _ _ _ _ _ (fun h => hA ((hcondA0 t).mp h)) ((hcondB0 t).mpr hB) (iblk0 V c 0 t) (iblk0 V c 1 t) (iblk0 V c 2 t) _ _)
      isplitl [Hm]; · iexact Hm
      isplitl [Hw]; · iexact Hw
      isplitl [Hb]; · iexact Hb
      isplitl [Ho]; · iexists _; iexact Ho
      isplitl [Hs]; · iexact Hs
      iintro ⟨Hm, Hw, Hb, Ho, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
    · rw [Dat.leavesExact_idle (dat0 V c) 3 t (idleAt0_3 t (fun h => hB ((hcondB0 t).mp h))) (noFlush0_3 t (fun h => hB ((hcondB0 t).mp h)))]
      iintro ⟨⟨⟨Hs, Hr⟩, Hg⟩, Hd, ⟨%dm, Hm⟩, ⟨%dw, Hw⟩, ⟨%db, Hb⟩, Ho⟩
      iapply (run0_B c Set.univ (grid0.coords t) _ _ _ _ _ _ _ _ _ _ (fun h => hA ((hcondA0 t).mp h)) (fun h => hB ((hcondB0 t).mp h)) (iblk0 V c 0 t) (iblk0 V c 1 t) (iblk0 V c 2 t) _ _)
      isplitl [Hm]; · iexact Hm
      isplitl [Hw]; · iexact Hw
      isplitl [Hb]; · iexact Hb
      isplitl [Hs]; · iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the launch handed over: the accumulator's named
    contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨Hs, Hr⟩, Hg⟩
  isplitl [Hs Hr]
  · isplitl [Hs]
    · iexists _; iexact Hs
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 294 := N_0; omega)

end Cert.Kernel.Hand

end
-- ==== Proof.KB.Conv1.lean ====
import proofs.«400914_j13511967113603_4_alg».proof.Proof.Gen.Kernel.Launch
import proofs.«400914_j13511967113603_4_alg».proof.Proof.Gen.Kernel.Skeleton
import proofs.«400914_j13511967113603_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! A convolution call as a pipeline region, at a parameter `V` (the TensorCore's buffer contents when the
    region is entered): each window's block at a grid point, the accumulator the kernel carries in its scratch
    buffer from point to point, the pipeline's proof data and its body obligation.

    The grid is 98 × 3, point `t` at coordinates `(t / 3, t % 3)`. At the second coordinate `r` the body adds
    `m ⬝ W[r] + b[r]` to the accumulator, which it zeroes first when `r = 0`; when `r = 2` it stores
    `max(accumulator, 0)` into the output block, which is written back there and idle at `r = 0, 1`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight slice the body loads at point `t`: row `r` of the weight window (the whole `[3, 64, 64]` array). -/
def wOf1 (c : Dev nD) (t : Fin cfg1.N) : Vec F S1x64x64 .f32 :=
  View.ld (iblk1 V c 1 t) (Rect.unit (s := S3x64x64) (k1_off1 (grid1.coords t)) S1x64x64.size (k1_off1_inb (grid1.coords t)))

/-- The bias row the body loads at point `t`: row `r` of the bias window (the whole `[3, 64]` array). -/
def bOf1 (c : Dev nD) (t : Fin cfg1.N) : Vec F S1x64 .f32 :=
  View.ld (iblk1 V c 2 t) (Rect.unit (s := S3x64) (k1_off2 (grid1.coords t)) S1x64.size (k1_off2_inb (grid1.coords t)))

/-! ## The accumulator -/

/-- What the scratch accumulator holds after the body at position `n`: the point's term `m ⬝ W[r] + b[r]` added to
    zero at the first point of a run of three (`n % 3 = 0`), to what the point before left otherwise. -/
def accAt1 (c : Dev nD) : (n : ℕ) → n < cfg1.N → Vec F S1024x64 .f32
  | 0, hn => k1_pay2 (wOf1 V c ⟨0, hn⟩) (iblk1 V c 0 ⟨0, hn⟩) (bOf1 V c ⟨0, hn⟩) (k1_pay1 (F := F))
  | n + 1, hn =>
    if (n + 1) % 3 = 0 then
      k1_pay2 (wOf1 V c ⟨n + 1, hn⟩) (iblk1 V c 0 ⟨n + 1, hn⟩) (bOf1 V c ⟨n + 1, hn⟩) (k1_pay1 (F := F))
    else
      k1_pay2 (wOf1 V c ⟨n + 1, hn⟩) (iblk1 V c 0 ⟨n + 1, hn⟩) (bOf1 V c ⟨n + 1, hn⟩) (accAt1 c n (Nat.lt_of_succ_lt hn))

/-- At the first point of a run the accumulator starts from zero. -/
theorem accAt1_first (c : Dev nD) (t : Fin cfg1.N) (h : t.val % 3 = 0) :
    accAt1 V c t.val t.isLt = k1_pay2 (wOf1 V c t) (iblk1 V c 0 t) (bOf1 V c t) (k1_pay1 (F := F)) := by
  obtain ⟨n, hn⟩ := t
  cases n with
  | zero => rfl
  | succ n => exact (if_pos h).trans rfl

/-- At the other points it adds to what the point before left. -/
theorem accAt1_next (c : Dev nD) (t : Fin cfg1.N) (h : t.val % 3 ≠ 0) :
    accAt1 V c t.val t.isLt = k1_pay2 (wOf1 V c t) (iblk1 V c 0 t) (bOf1 V c t)
      (accAt1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch accumulator as a memref: a whole scoped buffer of the kernel's own. -/
abbrev scM1 : Memref sig .tc .vmem S1024x64 .f32 := Memref.whole cc1_scratch0

/-- The core's scoped buffers other than this call's staging buffers and its scratch, each at some contents. -/
abbrev rest1 (c : Dev nD) : sProp 𝕄 :=
  Pipeline.scopedRestBut (Ix := Unit) (Name := ℕ) (U := UR sig nD τ) (Lvl := ℕ) (Val := Elt F) spec1 c [cc1_scratch0]

/-- The invariant before position `n`: before the first point what the launch hands the region (every scoped buffer
    at anything); afterwards the scratch at what the point before left in it, the other scoped buffers at anything,
    and the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega)) ∗ rest1 c) ∗ (∃ r, prngReg c r)) := by
  cases n with
  | zero => exact absurd rfl hz
  | succ n => rfl

/-- What the launch hands the region, with the scratch split off the other scoped buffers. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, Idealize.SL.BI.bigSepL_singleton]; try rfl

/-! ## The body's branch conditions, in closed form -/

/-- The condition of the body's first conditional (the accumulator's reset), from the grid coordinates. -/
abbrev condA1 (i : grid1.Coords) : Prop := (Scalar.cmpi .ne (Scalar.extui (Scalar.cmpi .eq (BitVec.ofNat 32 (i 1).val) 0#32)) 0#32) = 1#1
/-- It holds at the points ≡ 0 (mod 3). -/
theorem hcondA1 : ∀ t : Fin cfg1.N, condA1 (grid1.coords t) ↔ t.val % 3 = 0 :=
  (by decide +kernel : ∀ t : Fin grid1.N, condA1 (grid1.coords t) ↔ t.val % 3 = 0)

/-- The condition of the body's second conditional (the output's store). -/
abbrev condB1 (i : grid1.Coords) : Prop := k1_cond2 i = 1#1
/-- It holds at the points ≡ 2 (mod 3). -/
theorem hcondB1 : ∀ t : Fin cfg1.N, condB1 (grid1.coords t) ↔ t.val % 3 = 2 :=
  (by decide +kernel : ∀ t : Fin grid1.N, condB1 (grid1.coords t) ↔ t.val % 3 = 2)

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the output is not stored it is idle and not written back; where it is stored it is live. -/
theorem idleAt1_3 : ∀ t : Fin cfg1.N, ¬condB1 (grid1.coords t) → cfg1.idle 3 (grid1.coords t) = true := by decide +kernel
theorem noFlush1_3 : ∀ t : Fin cfg1.N, ¬condB1 (grid1.coords t) → (cfg1.win 3).flush t = false := by decide +kernel
theorem liveAt1_3 : ∀ t : Fin cfg1.N, condB1 (grid1.coords t) → cfg1.idle 3 (grid1.coords t) = false := by decide +kernel

/-! ## The body's triples, one per case of its conditionals -/

theorem zoff1_2 : (![0, 0] : Fin 2 → ℕ) = fun _ => 0 := by funext a; fin_cases a <;> rfl
theorem zoff1_3 : (![0, 0, 0] : Fin 3 → ℕ) = fun _ => 0 := by funext a; fin_cases a <;> rfl

/-- The weight slice and the bias row the body loads, through the offsets the program computes from the point. -/
abbrev rW1 (i : grid1.Coords) : Rect S3x64x64 := Rect.unit (s := S3x64x64) (k1_off1 i) S1x64x64.size (k1_off1_inb i)
abbrev rB1 (i : grid1.Coords) : Rect S3x64 := Rect.unit (s := S3x64) (k1_off2 i) S1x64.size (k1_off2_inb i)

set_option maxHeartbeats 1000000 in
/-- At the first point of a run (the reset taken, the output not stored): on whole memrefs, the inputs' at their
    contents and the scratch at anything, the body runs to the continuation holding the inputs' as they were and the
    scratch at the point's term added to zero. The output's memref is not touched. -/
theorem run1_A (c : Dev nD) (E : Set ℕ) (i : grid1.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : condA1 i) (hcB : ¬condB1 i)
    (xm : Vec F S1x1024x64 .f32) (xw : Vec F S3x64x64 .f32) (xb : Vec F S3x64 .f32) (K : PUnit → sProp 𝕄) :
    iprop(owns (c : Thread nD τ) arg2 fullShare xm ∗ owns (c : Thread nD τ) arg3 fullShare xw ∗ owns (c : Thread nD τ) arg4 fullShare xb
        ∗ (∃ d, owns (c : Thread nD τ) arg6 fullShare d)
        ∗ (iprop(owns (c : Thread nD τ) arg2 fullShare xm ∗ owns (c : Thread nD τ) arg3 fullShare xw ∗ owns (c : Thread nD τ) arg4 fullShare xb
            ∗ owns (c : Thread nD τ) arg6 fullShare (k1_pay2 (View.ld xw (rW1 i)) xm (View.ld xb (rB1 i)) (k1_pay1 (F := F)))) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%fm, %hfm, Hm⟩, ⟨%fw, %hfw, Hw⟩, ⟨%fb, %hfb, Hb⟩, ⟨%ds, %fs, -, Hs⟩, Hk⟩
  subst hfm; subst hfw; subst hfb
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  iexists _; isplitr
  swap; · iexact Hs
  ipureintro
  rw [View.read_writes_eq_canon _ _ _ (fun y => ⟨_, List.mem_cons_self, View.mem_set_unit_zero zoff1_2 inb_S1024x64_S1024x64_0_0 y⟩),
    View.canon_cons_unit_zero zoff1_2]
  sl_unfold_run_names
  rw [View.readCov_unit_zero _ zoff1_2,
    show View.readAt (Elt F) arg2.view (Rect.unit ![0, 0, 0] S1x1024x64.size inb_S1x1024x64_S1x1024x64_0_0_0).toLoadRect fm
        = View.read (Elt F) arg2.view fm from View.ld_unit_zero zoff1_3 _ _]
  rfl

set_option maxHeartbeats 1000000 in
/-- At the middle point of a run (no reset, the output not stored): the scratch at the contents `xs` the point before
    left, the body runs to the continuation holding the inputs' as they were and the scratch at the point's term added
    to `xs`. The output's memref is not touched. -/
theorem run1_B (c : Dev nD) (E : Set ℕ) (i : grid1.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : ¬condA1 i) (hcB : ¬condB1 i)
    (xm : Vec F S1x1024x64 .f32) (xw : Vec F S3x64x64 .f32) (xb : Vec F S3x64 .f32) (xs : Vec F S1024x64 .f32) (K : PUnit → sProp 𝕄) :
    iprop(owns (c : Thread nD τ) arg2 fullShare xm ∗ owns (c : Thread nD τ) arg3 fullShare xw ∗ owns (c : Thread nD τ) arg4 fullShare xb
        ∗ owns (c : Thread nD τ) arg6 fullShare xs
        ∗ (iprop(owns (c : Thread nD τ) arg2 fullShare xm ∗ owns (c : Thread nD τ) arg3 fullShare xw ∗ owns (c : Thread nD τ) arg4 fullShare xb
            ∗ owns (c : Thread nD τ) arg6 fullShare (k1_pay2 (View.ld xw (rW1 i)) xm (View.ld xb (rB1 i)) xs)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%fm, %hfm, Hm⟩, ⟨%fw, %hfw, Hw⟩, ⟨%fb, %hfb, Hb⟩, ⟨%fs, %hfs, Hs⟩, Hk⟩
  subst hfm; subst hfw; subst hfb; subst hfs
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  iexists _; isplitr
  swap; · iexact Hs
  ipureintro
  rw [View.read_writes_eq_canon _ _ _ (fun y => ⟨_, List.mem_cons_self, View.mem_set_unit_zero zoff1_2 inb_S1024x64_S1024x64_0_0 y⟩),
    View.canon_cons_unit_zero zoff1_2]
  sl_unfold_run_names
  rw [show View.readAt (Elt F) arg2.view (Rect.unit ![0, 0, 0] S1x1024x64.size inb_S1x1024x64_S1x1024x64_0_0_0).toLoadRect fm
        = View.read (Elt F) arg2.view fm from View.ld_unit_zero zoff1_3 _ _,
    show View.readAt (Elt F) arg6.view (Rect.unit ![0, 0] S1024x64.size inb_S1024x64_S1024x64_0_0).toLoadRect fs
        = View.read (Elt F) arg6.view fs from View.ld_unit_zero zoff1_2 _ _]
  rfl

set_option maxHeartbeats 1000000 in
/-- At the last point of a run (no reset, the output stored): the scratch at the contents `xs` the point before left
    and the output's memref at anything, the body runs to the continuation holding the inputs' as they were, the
    scratch at the point's term added to `xs` and the output's memref at the maximum of that and zero. -/
theorem run1_C (c : Dev nD) (E : Set ℕ) (i : grid1.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : ¬condA1 i) (hcB : condB1 i)
    (xm : Vec F S1x1024x64 .f32) (xw : Vec F S3x64x64 .f32) (xb : Vec F S3x64 .f32) (xs : Vec F S1024x64 .f32) (K : PUnit → sProp 𝕄) :
    iprop(owns (c : Thread nD τ) arg2 fullShare xm ∗ owns (c : Thread nD τ) arg3 fullShare xw ∗ owns (c : Thread nD τ) arg4 fullShare xb
        ∗ (∃ d, owns (c : Thread nD τ) arg5 fullShare d) ∗ owns (c : Thread nD τ) arg6 fullShare xs
        ∗ (iprop(owns (c : Thread nD τ) arg2 fullShare xm ∗ owns (c : Thread nD τ) arg3 fullShare xw ∗ owns (c : Thread nD τ) arg4 fullShare xb
            ∗ owns (c : Thread nD τ) arg5 fullShare (k1_pay3 (k1_pay2 (View.ld xw (rW1 i)) xm (View.ld xb (rB1 i)) xs))
            ∗ owns (c : Thread nD τ) arg6 fullShare (k1_pay2 (View.ld xw (rW1 i)) xm (View.ld xb (rB1 i)) xs)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%fm, %hfm, Hm⟩, ⟨%fw, %hfw, Hw⟩, ⟨%fb, %hfb, Hb⟩, ⟨%dq, %fq, -, Ho⟩, ⟨%fs, %hfs, Hs⟩, Hk⟩
  subst hfm; subst hfw; subst hfb; subst hfs
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  isplitl [Ho]
  · iexists _; isplitr
    swap; · iexact Ho
    ipureintro
    sl_unfold_run_names
    rw [View.read_writes_eq_canon _ _ _ (fun y => ⟨_, List.mem_cons_self, View.mem_set_unit_zero zoff1_2 inb_S1024x64_S1024x64_0_0 y⟩),
      View.canon_cons_unit_zero zoff1_2, View.readCov_unit_zero _ zoff1_2,
      show View.readAt (Elt F) arg2.view (Rect.unit ![0, 0, 0] S1x1024x64.size inb_S1x1024x64_S1x1024x64_0_0_0).toLoadRect fm
        = View.read (Elt F) arg2.view fm from View.ld_unit_zero zoff1_3 _ _,
      show View.readAt (Elt F) arg6.view (Rect.unit ![0, 0] S1024x64.size inb_S1024x64_S1024x64_0_0).toLoadRect fs
        = View.read (Elt F) arg6.view fs from View.ld_unit_zero zoff1_2 _ _]
    rfl
  iexists _; isplitr
  swap; · iexact Hs
  ipureintro
  sl_unfold_run_names
  rw [View.read_writes_eq_canon _ _ _ (fun y => ⟨_, List.mem_cons_self, View.mem_set_unit_zero zoff1_2 inb_S1024x64_S1024x64_0_0 y⟩),
    View.canon_cons_unit_zero zoff1_2,
    show View.readAt (Elt F) arg2.view (Rect.unit ![0, 0, 0] S1x1024x64.size inb_S1x1024x64_S1x1024x64_0_0_0).toLoadRect fm
        = View.read (Elt F) arg2.view fm from View.ld_unit_zero zoff1_3 _ _,
    show View.readAt (Elt F) arg6.view (Rect.unit ![0, 0] S1024x64.size inb_S1024x64_S1024x64_0_0).toLoadRect fs
        = View.read (Elt F) arg6.view fs from View.ld_unit_zero zoff1_2 _ _]
  rfl

/-! ## The pipeline's proof data -/

/-- The proof data of the call's pipeline on core `c`: the arrays as the region finds them (`V`); after the body at
    point `t` each input's buffer at its block and the output's at `max(accumulator, 0)` (read only where it is
    written back, `t % 3 = 2`); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (accAt1 V c t.val t.isLt) := by dsimp only [dat1]

theorem owed1 (c : Dev nD) (t) : (dat1 V c).owed t = 0 := rfl
theorem q1 (c : Dev nD) (w) : (dat1 V c).q w = fullShare := rfl

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in each input's buffer -/

/-- Each input's current staging buffer holds its block at every point, fetched there or not: unfetched, the block
    index has not moved (the windows are uncut and never idle, and the body leaves them as it found them). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's position in its run of three says which
    case applies; the invariant hands the body the scratch at what the point before left (at anything at a run's first
    point, where the body zeroes it) and takes it back at this point's accumulator; the output's buffer is handed back
    untouched where the body does not store it, and at the maximum of the accumulator and zero where it does. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 294 := lt_of_lt_of_eq t.isLt (show cfg1.N = 294 from N_1)
  by_cases hA : t.val % 3 = 0
  · have hB : ¬t.val % 3 = 2 := by omega
    rw [Dat.leavesExact_idle (dat1 V c) 3 t (idleAt1_3 t (fun h => hB ((hcondB1 t).mp h))) (noFlush1_3 t (fun h => hB ((hcondB1 t).mp h)))]
    rw [accAt1_first V c t hA]
    unfold wOf1 bOf1
    by_cases hz : t.val = 0
    · rw [PhiS1_castSucc V c t, PhiS1_zero V c _ _ hz, PhiA1_eq]
      iintro ⟨⟨⟨Hs, Hr⟩, Hg⟩, Hd, ⟨%dm, Hm⟩, ⟨%dw, Hw⟩, ⟨%db, Hb⟩, Ho⟩
      iapply (run1_A c Set.univ (grid1.coords t) _ _ _ _ _ _ _ _ _ _ ((hcondA1 t).mpr hA) (fun h => hB ((hcondB1 t).mp h)) (iblk1 V c 0 t) (iblk1 V c 1 t) (iblk1 V c 2 t) _)
      isplitl [Hm]; · iexact Hm
      isplitl [Hw]; · iexact Hw
      isplitl [Hb]; · iexact Hb
      isplitl [Hs]; · iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
    · rw [PhiS1_castSucc V c t, PhiS1_pos V c _ _ hz]
      iintro ⟨⟨⟨Hs, Hr⟩, Hg⟩, Hd, ⟨%dm, Hm⟩, ⟨%dw, Hw⟩, ⟨%db, Hb⟩, Ho⟩
      iapply (run1_A c Set.univ (grid1.coords t) _ _ _ _ _ _ _ _ _ _ ((hcondA1 t).mpr hA) (fun h => hB ((hcondB1 t).mp h)) (iblk1 V c 0 t) (iblk1 V c 1 t) (iblk1 V c 2 t) _)
      isplitl [Hm]; · iexact Hm
      isplitl [Hw]; · iexact Hw
      isplitl [Hb]; · iexact Hb
      isplitl [Hs]; · iexists _; iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
  · have hz : t.val ≠ 0 := fun h => hA (by rw [h])
    rw [accAt1_next V c t hA]
    unfold wOf1 bOf1
    rw [PhiS1_castSucc V c t, PhiS1_pos V c _ _ hz]
    by_cases hB : t.val % 3 = 2
    · rw [show (dat1 V c).leavesExact 3 t = owns (c : Thread nD τ) (st1_3 t) fullShare ((dat1 V c).after 3 t) from by
        unfold Dat.leavesExact; rw [liveAt1_3 t ((hcondB1 t).mpr hB)], after1_3]
      rw [accAt1_next V c t hA]
      unfold wOf1 bOf1
      iintro ⟨⟨⟨Hs, Hr⟩, Hg⟩, Hd, ⟨%dm, Hm⟩, ⟨%dw, Hw⟩, ⟨%db, Hb⟩, ⟨%dq, Ho⟩⟩
      iapply (run1_C c Set.univ (grid1.coords t) _ _ _ _ _ _ _ _ _ _ (fun h => hA ((hcondA1 t).mp h)) ((hcondB1 t).mpr hB) (iblk1 V c 0 t) (iblk1 V c 1 t) (iblk1 V c 2 t) _ _)
      isplitl [Hm]; · iexact Hm
      isplitl [Hw]; · iexact Hw
      isplitl [Hb]; · iexact Hb
      isplitl [Ho]; · iexists _; iexact Ho
      isplitl [Hs]; · iexact Hs
      iintro ⟨Hm, Hw, Hb, Ho, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
    · rw [Dat.leavesExact_idle (dat1 V c) 3 t (idleAt1_3 t (fun h => hB ((hcondB1 t).mp h))) (noFlush1_3 t (fun h => hB ((hcondB1 t).mp h)))]
      iintro ⟨⟨⟨Hs, Hr⟩, Hg⟩, Hd, ⟨%dm, Hm⟩, ⟨%dw, Hw⟩, ⟨%db, Hb⟩, Ho⟩
      iapply (run1_B c Set.univ (grid1.coords t) _ _ _ _ _ _ _ _ _ _ (fun h => hA ((hcondA1 t).mp h)) (fun h => hB ((hcondB1 t).mp h)) (iblk1 V c 0 t) (iblk1 V c 1 t) (iblk1 V c 2 t) _ _)
      isplitl [Hm]; · iexact Hm
      isplitl [Hw]; · iexact Hw
      isplitl [Hb]; · iexact Hb
      isplitl [Hs]; · iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hs, Hr⟩, Hg⟩
  isplitl [Hs Hr]
  · isplitl [Hs]
    · iexists _; iexact Hs
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 294 := N_1; omega)

end Cert.Kernel.Hand

end
-- ==== Proof.KB.Conv2.lean ====
import proofs.«400914_j13511967113603_4_alg».proof.Proof.Gen.Kernel.Launch
import proofs.«400914_j13511967113603_4_alg».proof.Proof.Gen.Kernel.Skeleton
import proofs.«400914_j13511967113603_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! A convolution call as a pipeline region, at a parameter `V` (the TensorCore's buffer contents when the
    region is entered): each window's block at a grid point, the accumulator the kernel carries in its scratch
    buffer from point to point, the pipeline's proof data and its body obligation.

    The grid is 98 × 3, point `t` at coordinates `(t / 3, t % 3)`. At the second coordinate `r` the body adds
    `m ⬝ W[r] + b[r]` to the accumulator, which it zeroes first when `r = 0`; when `r = 2` it stores
    `max(accumulator, 0)` into the output block, which is written back there and idle at `r = 0, 1`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight slice the body loads at point `t`: row `r` of the weight window (the whole `[3, 64, 64]` array). -/
def wOf2 (c : Dev nD) (t : Fin cfg2.N) : Vec F S1x64x64 .f32 :=
  View.ld (iblk2 V c 1 t) (Rect.unit (s := S3x64x64) (k2_off1 (grid2.coords t)) S1x64x64.size (k2_off1_inb (grid2.coords t)))

/-- The bias row the body loads at point `t`: row `r` of the bias window (the whole `[3, 64]` array). -/
def bOf2 (c : Dev nD) (t : Fin cfg2.N) : Vec F S1x64 .f32 :=
  View.ld (iblk2 V c 2 t) (Rect.unit (s := S3x64) (k2_off2 (grid2.coords t)) S1x64.size (k2_off2_inb (grid2.coords t)))

/-! ## The accumulator -/

/-- What the scratch accumulator holds after the body at position `n`: the point's term `m ⬝ W[r] + b[r]` added to
    zero at the first point of a run of three (`n % 3 = 0`), to what the point before left otherwise. -/
def accAt2 (c : Dev nD) : (n : ℕ) → n < cfg2.N → Vec F S1024x64 .f32
  | 0, hn => k2_pay2 (wOf2 V c ⟨0, hn⟩) (iblk2 V c 0 ⟨0, hn⟩) (bOf2 V c ⟨0, hn⟩) (k2_pay1 (F := F))
  | n + 1, hn =>
    if (n + 1) % 3 = 0 then
      k2_pay2 (wOf2 V c ⟨n + 1, hn⟩) (iblk2 V c 0 ⟨n + 1, hn⟩) (bOf2 V c ⟨n + 1, hn⟩) (k2_pay1 (F := F))
    else
      k2_pay2 (wOf2 V c ⟨n + 1, hn⟩) (iblk2 V c 0 ⟨n + 1, hn⟩) (bOf2 V c ⟨n + 1, hn⟩) (accAt2 c n (Nat.lt_of_succ_lt hn))

/-- At the first point of a run the accumulator starts from zero. -/
theorem accAt2_first (c : Dev nD) (t : Fin cfg2.N) (h : t.val % 3 = 0) :
    accAt2 V c t.val t.isLt = k2_pay2 (wOf2 V c t) (iblk2 V c 0 t) (bOf2 V c t) (k2_pay1 (F := F)) := by
  obtain ⟨n, hn⟩ := t
  cases n with
  | zero => rfl
  | succ n => exact (if_pos h).trans rfl

/-- At the other points it adds to what the point before left. -/
theorem accAt2_next (c : Dev nD) (t : Fin cfg2.N) (h : t.val % 3 ≠ 0) :
    accAt2 V c t.val t.isLt = k2_pay2 (wOf2 V c t) (iblk2 V c 0 t) (bOf2 V c t)
      (accAt2 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch accumulator as a memref: a whole scoped buffer of the kernel's own. -/
abbrev scM2 : Memref sig .tc .vmem S1024x64 .f32 := Memref.whole cc2_scratch0

/-- The core's scoped buffers other than this call's staging buffers and its scratch, each at some contents. -/
abbrev rest2 (c : Dev nD) : sProp 𝕄 :=
  Pipeline.scopedRestBut (Ix := Unit) (Name := ℕ) (U := UR sig nD τ) (Lvl := ℕ) (Val := Elt F) spec2 c [cc2_scratch0]

/-- The invariant before position `n`: before the first point what the launch hands the region (every scoped buffer
    at anything); afterwards the scratch at what the point before left in it, the other scoped buffers at anything,
    and the generator register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c n hn) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (accAt2 V c (n - 1) (by omega)) ∗ rest2 c) ∗ (∃ r, prngReg c r)) := by
  cases n with
  | zero => exact absurd rfl hz
  | succ n => rfl

/-- What the launch hands the region, with the scratch split off the other scoped buffers. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [scM2, owns_whole, Idealize.SL.BI.bigSepL_singleton]; try rfl

/-! ## The body's branch conditions, in closed form -/

/-- The condition of the body's first conditional (the accumulator's reset), from the grid coordinates. -/
abbrev condA2 (i : grid2.Coords) : Prop := (Scalar.cmpi .ne (Scalar.extui (Scalar.cmpi .eq (BitVec.ofNat 32 (i 1).val) 0#32)) 0#32) = 1#1
/-- It holds at the points ≡ 0 (mod 3). -/
theorem hcondA2 : ∀ t : Fin cfg2.N, condA2 (grid2.coords t) ↔ t.val % 3 = 0 :=
  (by decide +kernel : ∀ t : Fin grid2.N, condA2 (grid2.coords t) ↔ t.val % 3 = 0)

/-- The condition of the body's second conditional (the output's store). -/
abbrev condB2 (i : grid2.Coords) : Prop := k2_cond2 i = 1#1
/-- It holds at the points ≡ 2 (mod 3). -/
theorem hcondB2 : ∀ t : Fin cfg2.N, condB2 (grid2.coords t) ↔ t.val % 3 = 2 :=
  (by decide +kernel : ∀ t : Fin grid2.N, condB2 (grid2.coords t) ↔ t.val % 3 = 2)

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Where the output is not stored it is idle and not written back; where it is stored it is live. -/
theorem idleAt2_3 : ∀ t : Fin cfg2.N, ¬condB2 (grid2.coords t) → cfg2.idle 3 (grid2.coords t) = true := by decide +kernel
theorem noFlush2_3 : ∀ t : Fin cfg2.N, ¬condB2 (grid2.coords t) → (cfg2.win 3).flush t = false := by decide +kernel
theorem liveAt2_3 : ∀ t : Fin cfg2.N, condB2 (grid2.coords t) → cfg2.idle 3 (grid2.coords t) = false := by decide +kernel

/-! ## The body's triples, one per case of its conditionals -/

theorem zoff2_2 : (![0, 0] : Fin 2 → ℕ) = fun _ => 0 := by funext a; fin_cases a <;> rfl
theorem zoff2_3 : (![0, 0, 0] : Fin 3 → ℕ) = fun _ => 0 := by funext a; fin_cases a <;> rfl

/-- The weight slice and the bias row the body loads, through the offsets the program computes from the point. -/
abbrev rW2 (i : grid2.Coords) : Rect S3x64x64 := Rect.unit (s := S3x64x64) (k2_off1 i) S1x64x64.size (k2_off1_inb i)
abbrev rB2 (i : grid2.Coords) : Rect S3x64 := Rect.unit (s := S3x64) (k2_off2 i) S1x64.size (k2_off2_inb i)

set_option maxHeartbeats 1000000 in
/-- At the first point of a run (the reset taken, the output not stored): on whole memrefs, the inputs' at their
    contents and the scratch at anything, the body runs to the continuation holding the inputs' as they were and the
    scratch at the point's term added to zero. The output's memref is not touched. -/
theorem run2_A (c : Dev nD) (E : Set ℕ) (i : grid2.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : condA2 i) (hcB : ¬condB2 i)
    (xm : Vec F S1x1024x64 .f32) (xw : Vec F S3x64x64 .f32) (xb : Vec F S3x64 .f32) (K : PUnit → sProp 𝕄) :
    iprop(owns (c : Thread nD τ) arg2 fullShare xm ∗ owns (c : Thread nD τ) arg3 fullShare xw ∗ owns (c : Thread nD τ) arg4 fullShare xb
        ∗ (∃ d, owns (c : Thread nD τ) arg6 fullShare d)
        ∗ (iprop(owns (c : Thread nD τ) arg2 fullShare xm ∗ owns (c : Thread nD τ) arg3 fullShare xw ∗ owns (c : Thread nD τ) arg4 fullShare xb
            ∗ owns (c : Thread nD τ) arg6 fullShare (k2_pay2 (View.ld xw (rW2 i)) xm (View.ld xb (rB2 i)) (k2_pay1 (F := F)))) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%fm, %hfm, Hm⟩, ⟨%fw, %hfw, Hw⟩, ⟨%fb, %hfb, Hb⟩, ⟨%ds, %fs, -, Hs⟩, Hk⟩
  subst hfm; subst hfw; subst hfb
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  iexists _; isplitr
  swap; · iexact Hs
  ipureintro
  rw [View.read_writes_eq_canon _ _ _ (fun y => ⟨_, List.mem_cons_self, View.mem_set_unit_zero zoff2_2 inb_S1024x64_S1024x64_0_0 y⟩),
    View.canon_cons_unit_zero zoff2_2]
  sl_unfold_run_names
  rw [View.readCov_unit_zero _ zoff2_2,
    show View.readAt (Elt F) arg2.view (Rect.unit ![0, 0, 0] S1x1024x64.size inb_S1x1024x64_S1x1024x64_0_0_0).toLoadRect fm
        = View.read (Elt F) arg2.view fm from View.ld_unit_zero zoff2_3 _ _]
  rfl

set_option maxHeartbeats 1000000 in
/-- At the middle point of a run (no reset, the output not stored): the scratch at the contents `xs` the point before
    left, the body runs to the continuation holding the inputs' as they were and the scratch at the point's term added
    to `xs`. The output's memref is not touched. -/
theorem run2_B (c : Dev nD) (E : Set ℕ) (i : grid2.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : ¬condA2 i) (hcB : ¬condB2 i)
    (xm : Vec F S1x1024x64 .f32) (xw : Vec F S3x64x64 .f32) (xb : Vec F S3x64 .f32) (xs : Vec F S1024x64 .f32) (K : PUnit → sProp 𝕄) :
    iprop(owns (c : Thread nD τ) arg2 fullShare xm ∗ owns (c : Thread nD τ) arg3 fullShare xw ∗ owns (c : Thread nD τ) arg4 fullShare xb
        ∗ owns (c : Thread nD τ) arg6 fullShare xs
        ∗ (iprop(owns (c : Thread nD τ) arg2 fullShare xm ∗ owns (c : Thread nD τ) arg3 fullShare xw ∗ owns (c : Thread nD τ) arg4 fullShare xb
            ∗ owns (c : Thread nD τ) arg6 fullShare (k2_pay2 (View.ld xw (rW2 i)) xm (View.ld xb (rB2 i)) xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%fm, %hfm, Hm⟩, ⟨%fw, %hfw, Hw⟩, ⟨%fb, %hfb, Hb⟩, ⟨%fs, %hfs, Hs⟩, Hk⟩
  subst hfm; subst hfw; subst hfb; subst hfs
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  iexists _; isplitr
  swap; · iexact Hs
  ipureintro
  rw [View.read_writes_eq_canon _ _ _ (fun y => ⟨_, List.mem_cons_self, View.mem_set_unit_zero zoff2_2 inb_S1024x64_S1024x64_0_0 y⟩),
    View.canon_cons_unit_zero zoff2_2]
  sl_unfold_run_names
  rw [show View.readAt (Elt F) arg2.view (Rect.unit ![0, 0, 0] S1x1024x64.size inb_S1x1024x64_S1x1024x64_0_0_0).toLoadRect fm
        = View.read (Elt F) arg2.view fm from View.ld_unit_zero zoff2_3 _ _,
    show View.readAt (Elt F) arg6.view (Rect.unit ![0, 0] S1024x64.size inb_S1024x64_S1024x64_0_0).toLoadRect fs
        = View.read (Elt F) arg6.view fs from View.ld_unit_zero zoff2_2 _ _]
  rfl

set_option maxHeartbeats 1000000 in
/-- At the last point of a run (no reset, the output stored): the scratch at the contents `xs` the point before left
    and the output's memref at anything, the body runs to the continuation holding the inputs' as they were, the
    scratch at the point's term added to `xs` and the output's memref at the maximum of that and zero. -/
theorem run2_C (c : Dev nD) (E : Set ℕ) (i : grid2.Coords) (arg2 : Memref sig .tc .vmem S1x1024x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S1024x64 .f32) (harg5 : arg5.IsWhole) (arg6 : Memref sig .tc .vmem S1024x64 .f32) (harg6 : arg6.IsWhole)
    (hcA : ¬condA2 i) (hcB : condB2 i)
    (xm : Vec F S1x1024x64 .f32) (xw : Vec F S3x64x64 .f32) (xb : Vec F S3x64 .f32) (xs : Vec F S1024x64 .f32) (K : PUnit → sProp 𝕄) :
    iprop(owns (c : Thread nD τ) arg2 fullShare xm ∗ owns (c : Thread nD τ) arg3 fullShare xw ∗ owns (c : Thread nD τ) arg4 fullShare xb
        ∗ (∃ d, owns (c : Thread nD τ) arg5 fullShare d) ∗ owns (c : Thread nD τ) arg6 fullShare xs
        ∗ (iprop(owns (c : Thread nD τ) arg2 fullShare xm ∗ owns (c : Thread nD τ) arg3 fullShare xw ∗ owns (c : Thread nD τ) arg4 fullShare xb
            ∗ owns (c : Thread nD τ) arg5 fullShare (k2_pay3 (k2_pay2 (View.ld xw (rW2 i)) xm (View.ld xb (rB2 i)) xs))
            ∗ owns (c : Thread nD τ) arg6 fullShare (k2_pay2 (View.ld xw (rW2 i)) xm (View.ld xb (rB2 i)) xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%fm, %hfm, Hm⟩, ⟨%fw, %hfw, Hw⟩, ⟨%fb, %hfb, Hb⟩, ⟨%dq, %fq, -, Ho⟩, ⟨%fs, %hfs, Hs⟩, Hk⟩
  subst hfm; subst hfw; subst hfb; subst hfs
  sl_exec (disch := first | exact hcA | exact hcB)
  sl_step
  iapply Hk
  isplitl [Hm]
  · iexists fm; isplitr; · ipureintro; rfl
    iexact Hm
  isplitl [Hw]
  · iexists fw; isplitr; · ipureintro; rfl
    iexact Hw
  isplitl [Hb]
  · iexists fb; isplitr; · ipureintro; rfl
    iexact Hb
  isplitl [Ho]
  · iexists _; isplitr
    swap; · iexact Ho
    ipureintro
    sl_unfold_run_names
    rw [View.read_writes_eq_canon _ _ _ (fun y => ⟨_, List.mem_cons_self, View.mem_set_unit_zero zoff2_2 inb_S1024x64_S1024x64_0_0 y⟩),
      View.canon_cons_unit_zero zoff2_2, View.readCov_unit_zero _ zoff2_2,
      show View.readAt (Elt F) arg2.view (Rect.unit ![0, 0, 0] S1x1024x64.size inb_S1x1024x64_S1x1024x64_0_0_0).toLoadRect fm
        = View.read (Elt F) arg2.view fm from View.ld_unit_zero zoff2_3 _ _,
      show View.readAt (Elt F) arg6.view (Rect.unit ![0, 0] S1024x64.size inb_S1024x64_S1024x64_0_0).toLoadRect fs
        = View.read (Elt F) arg6.view fs from View.ld_unit_zero zoff2_2 _ _]
    rfl
  iexists _; isplitr
  swap; · iexact Hs
  ipureintro
  sl_unfold_run_names
  rw [View.read_writes_eq_canon _ _ _ (fun y => ⟨_, List.mem_cons_self, View.mem_set_unit_zero zoff2_2 inb_S1024x64_S1024x64_0_0 y⟩),
    View.canon_cons_unit_zero zoff2_2,
    show View.readAt (Elt F) arg2.view (Rect.unit ![0, 0, 0] S1x1024x64.size inb_S1x1024x64_S1x1024x64_0_0_0).toLoadRect fm
        = View.read (Elt F) arg2.view fm from View.ld_unit_zero zoff2_3 _ _,
    show View.readAt (Elt F) arg6.view (Rect.unit ![0, 0] S1024x64.size inb_S1024x64_S1024x64_0_0).toLoadRect fs
        = View.read (Elt F) arg6.view fs from View.ld_unit_zero zoff2_2 _ _]
  rfl

/-! ## The pipeline's proof data -/

/-- The proof data of the call's pipeline on core `c`: the arrays as the region finds them (`V`); after the body at
    point `t` each input's buffer at its block and the output's at `max(accumulator, 0)` (read only where it is
    written back, `t % 3 = 2`); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (accAt2 V c t.val t.isLt) := by dsimp only [dat2]

theorem owed2 (c : Dev nD) (t) : (dat2 V c).owed t = 0 := rfl
theorem q2 (c : Dev nD) (w) : (dat2 V c).q w = fullShare := rfl

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in each input's buffer -/

/-- Each input's current staging buffer holds its block at every point, fetched there or not: unfetched, the block
    index has not moved (the windows are uncut and never idle, and the body leaves them as it found them). -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the point's position in its run of three says which
    case applies; the invariant hands the body the scratch at what the point before left (at anything at a run's first
    point, where the body zeroes it) and takes it back at this point's accumulator; the output's buffer is handed back
    untouched where the body does not store it, and at the maximum of the accumulator and zero where it does. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 294 := lt_of_lt_of_eq t.isLt (show cfg2.N = 294 from N_2)
  by_cases hA : t.val % 3 = 0
  · have hB : ¬t.val % 3 = 2 := by omega
    rw [Dat.leavesExact_idle (dat2 V c) 3 t (idleAt2_3 t (fun h => hB ((hcondB2 t).mp h))) (noFlush2_3 t (fun h => hB ((hcondB2 t).mp h)))]
    rw [accAt2_first V c t hA]
    unfold wOf2 bOf2
    by_cases hz : t.val = 0
    · rw [PhiS2_castSucc V c t, PhiS2_zero V c _ _ hz, PhiA2_eq]
      iintro ⟨⟨⟨Hs, Hr⟩, Hg⟩, Hd, ⟨%dm, Hm⟩, ⟨%dw, Hw⟩, ⟨%db, Hb⟩, Ho⟩
      iapply (run2_A c Set.univ (grid2.coords t) _ _ _ _ _ _ _ _ _ _ ((hcondA2 t).mpr hA) (fun h => hB ((hcondB2 t).mp h)) (iblk2 V c 0 t) (iblk2 V c 1 t) (iblk2 V c 2 t) _)
      isplitl [Hm]; · iexact Hm
      isplitl [Hw]; · iexact Hw
      isplitl [Hb]; · iexact Hb
      isplitl [Hs]; · iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
    · rw [PhiS2_castSucc V c t, PhiS2_pos V c _ _ hz]
      iintro ⟨⟨⟨Hs, Hr⟩, Hg⟩, Hd, ⟨%dm, Hm⟩, ⟨%dw, Hw⟩, ⟨%db, Hb⟩, Ho⟩
      iapply (run2_A c Set.univ (grid2.coords t) _ _ _ _ _ _ _ _ _ _ ((hcondA2 t).mpr hA) (fun h => hB ((hcondB2 t).mp h)) (iblk2 V c 0 t) (iblk2 V c 1 t) (iblk2 V c 2 t) _)
      isplitl [Hm]; · iexact Hm
      isplitl [Hw]; · iexact Hw
      isplitl [Hb]; · iexact Hb
      isplitl [Hs]; · iexists _; iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
  · have hz : t.val ≠ 0 := fun h => hA (by rw [h])
    rw [accAt2_next V c t hA]
    unfold wOf2 bOf2
    rw [PhiS2_castSucc V c t, PhiS2_pos V c _ _ hz]
    by_cases hB : t.val % 3 = 2
    · rw [show (dat2 V c).leavesExact 3 t = owns (c : Thread nD τ) (st2_3 t) fullShare ((dat2 V c).after 3 t) from by
        unfold Dat.leavesExact; rw [liveAt2_3 t ((hcondB2 t).mpr hB)], after2_3]
      rw [accAt2_next V c t hA]
      unfold wOf2 bOf2
      iintro ⟨⟨⟨Hs, Hr⟩, Hg⟩, Hd, ⟨%dm, Hm⟩, ⟨%dw, Hw⟩, ⟨%db, Hb⟩, ⟨%dq, Ho⟩⟩
      iapply (run2_C c Set.univ (grid2.coords t) _ _ _ _ _ _ _ _ _ _ (fun h => hA ((hcondA2 t).mp h)) ((hcondB2 t).mpr hB) (iblk2 V c 0 t) (iblk2 V c 1 t) (iblk2 V c 2 t) _ _)
      isplitl [Hm]; · iexact Hm
      isplitl [Hw]; · iexact Hw
      isplitl [Hb]; · iexact Hb
      isplitl [Ho]; · iexists _; iexact Ho
      isplitl [Hs]; · iexact Hs
      iintro ⟨Hm, Hw, Hb, Ho, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho
    · rw [Dat.leavesExact_idle (dat2 V c) 3 t (idleAt2_3 t (fun h => hB ((hcondB2 t).mp h))) (noFlush2_3 t (fun h => hB ((hcondB2 t).mp h)))]
      iintro ⟨⟨⟨Hs, Hr⟩, Hg⟩, Hd, ⟨%dm, Hm⟩, ⟨%dw, Hw⟩, ⟨%db, Hb⟩, Ho⟩
      iapply (run2_B c Set.univ (grid2.coords t) _ _ _ _ _ _ _ _ _ _ (fun h => hA ((hcondA2 t).mp h)) (fun h => hB ((hcondB2 t).mp h)) (iblk2 V c 0 t) (iblk2 V c 1 t) (iblk2 V c 2 t) _ _)
      isplitl [Hm]; · iexact Hm
      isplitl [Hw]; · iexact Hw
      isplitl [Hb]; · iexact Hb
      isplitl [Hs]; · iexact Hs
      iintro ⟨Hm, Hw, Hb, Hs⟩
      isplitl [Hs Hr Hg]
      · isplitl [Hs Hr]
        · isplitl [Hs]; · iexact Hs
          iexact Hr
        iexact Hg
      isplitl [Hd]; · iexact Hd
      isplitl [Hm]; · iexact Hm
      isplitl [Hw]; · iexact Hw
      isplitl [Hb]; · iexact Hb
      iexact Ho

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the accumulator's named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨Hs, Hr⟩, Hg⟩
  isplitl [Hs Hr]
  · isplitl [Hs]
    · iexists _; iexact Hs
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 294 := N_2; omega)

end Cert.Kernel.Hand

end
-- ==== Proof.KB.Score3.lean ====
import proofs.«400914_j13511967113603_4_alg».proof.Proof.Gen.Kernel.Launch
import proofs.«400914_j13511967113603_4_alg».proof.Proof.Gen.Kernel.Skeleton
import proofs.«400914_j13511967113603_4_alg».proof.Proof.Gen.Kernel.Points
import Idealize.ShloMosaic.Lib.Pipeline.FrameBody
import Idealize.ShloMosaic.Lib.Tactic

/-! # The last pipeline (custom_call 3, `cc3_kernel`): its proof data and body obligation

The region's half at a PARAMETER `V`, the TensorCore's buffer contents when the region is entered, generic in the
float family: each window's block at a point, what the body leaves in the output window's staging buffer
(`out[i] = Σ_k rs[i,k]·rd[i,k]` over the 8192 rows of a block, as the payload states it), the body's triple, the
proof data and the body obligation at every point of the grid. Every window is fetched or written back at every
point, there is no scratch buffer, no idle point and no branch. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S8192x64 := Rect.unit (s := S8192x64) ![0, 0] S8192x64.size inb_S8192x64_S8192x64_0_0
abbrev r3_1 : Rect S8192 := Rect.unit (s := S8192) ![0] S8192.size inb_S8192_S8192_0

/-! ## What the body leaves in the output window's buffer -/

/-- Window 2's staging buffer after the body, from the input windows' blocks: its one store. -/
def out3_2 (x0 x1 : Vec F S8192x64 .f32) : Vec F S8192 .f32 :=
  View.canon [⟨r3_1, k3_pay1 (View.ld x0 r3_0) (View.ld x1 r3_0)⟩]

/-- The store tiles the buffer, so it covers it. -/
theorem cover3_2 (p0 : Vec F S8192 .f32) (y : S8192.Idx) :
    ∃ pc ∈ ([⟨r3_1, p0⟩] : List (View.Piece (Elt F) S8192 .f32)), y ∈ pc.1.set :=
  View.cover_of_tiled [⟨r3_1, p0⟩] S8192.size (by rfl) y

/-! ## The body's triple -/

set_option maxHeartbeats 1000000 in
/-- The kernel body on whole staging memrefs, the inputs' at read contents `x0`, `x1` and the output's at anything,
    runs to the continuation holding the inputs' as they were and the output's at `out3_2` of the inputs': the printed
    function is its skeleton, run operation by operation (the load of the output's buffer reads what nothing uses). -/
theorem sound_kernel3 (c : Dev nD) (E : Set ℕ) (i : grid3.Coords)
    (arg1 : Memref sig .tc .vmem S8192x64 .f32) (harg1 : arg1.IsWhole) (arg2 : Memref sig .tc .vmem S8192x64 .f32) (harg2 : arg2.IsWhole)
    (arg3 : Memref sig .tc .vmem S8192 .f32) (harg3 : arg3.IsWhole)
    (x0 x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point
    `t` each input's buffer at its block and the output's at `out3_2` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.KB.RunDefs.lean ====
import proofs.«400914_j13511967113603_4_alg».proof.Proof.KB.Conv0
import proofs.«400914_j13511967113603_4_alg».proof.Proof.KB.Conv1
import proofs.«400914_j13511967113603_4_alg».proof.Proof.KB.Conv2
import proofs.«400914_j13511967113603_4_alg».proof.Proof.KB.Score3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The buffer contents at every boundary of @main

@main is twenty-one items in order: seven stretches of host operations, the first convolution call, a stretch, the
second call, a stretch, the third call, seven stretches, the scoring call, a last stretch.  The contents of core
`c`'s buffers at each boundary are a fold from the launch memory: a stretch applies its operations' composed
function; a call leaves its windowed arrays at what its write-backs leave and every other buffer as it found it.
Each call's proof data is taken at the contents its region is entered with. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- The contents call 0's region is entered with, read at the TensorCore's references. -/
abbrev V7 : (c : Dev nD) → (b : Ref sig .tc) → Buf (Elt F) ((c : Thread nD τ).loc b) := fun c b => W7 m ρ c b
/-- At call 0's exit: its arrays at what the pipeline leaves, every other buffer as entered. -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev V8 : (c : Dev nD) → (b : Ref sig .tc) → Buf (Elt F) ((c : Thread nD τ).loc b) := fun c b => W8 m ρ c b
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)
/-- After `hostOps1`. -/
abbrev W9 : Dev nD → Valuation τ sig (Elt F) := fun c => StableHlo.after hostOps1 (W8 m ρ c)
/-- The contents call 1's region is entered with, read at the TensorCore's references. -/
abbrev V9 : (c : Dev nD) → (b : Ref sig .tc) → Buf (Elt F) ((c : Thread nD τ).loc b) := fun c b => W9 m ρ c b
/-- At call 1's exit: its arrays at what the pipeline leaves, every other buffer as entered. -/
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev V10 : (c : Dev nD) → (b : Ref sig .tc) → Buf (Elt F) ((c : Thread nD τ).loc b) := fun c b => W10 m ρ c b
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)
/-- After `hostOps2`. -/
abbrev W11 : Dev nD → Valuation τ sig (Elt F) := fun c => StableHlo.after hostOps2 (W10 m ρ c)
/-- The contents call 2's region is entered with, read at the TensorCore's references. -/
abbrev V11 : (c : Dev nD) → (b : Ref sig .tc) → Buf (Elt F) ((c : Thread nD τ).loc b) := fun c b => W11 m ρ c b
/-- At call 2's exit: its arrays at what the pipeline leaves, every other buffer as entered. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
/-- After `hostOps3`. -/
abbrev W13 : Dev nD → Valuation τ sig (Elt F) := fun c => StableHlo.after hostOps3 (W12 m ρ c)
/-- After `hostOps3_1`. -/
abbrev W14 : Dev nD → Valuation τ sig (Elt F) := fun c => StableHlo.after hostOps3_1 (W13 m ρ c)
/-- After `hostOps3_2`. -/
abbrev W15 : Dev nD → Valuation τ sig (Elt F) := fun c => StableHlo.after hostOps3_2 (W14 m ρ c)
/-- After `hostOps3_3`. -/
abbrev W16 : Dev nD → Valuation τ sig (Elt F) := fun c => StableHlo.after hostOps3_3 (W15 m ρ c)
/-- After `hostOps3_4`. -/
abbrev W17 : Dev nD → Valuation τ sig (Elt F) := fun c => StableHlo.after hostOps3_4 (W16 m ρ c)
/-- After `hostOps3_5`. -/
abbrev W18 : Dev nD → Valuation τ sig (Elt F) := fun c => StableHlo.after hostOps3_5 (W17 m ρ c)
/-- After `hostOps3_6`. -/
abbrev W19 : Dev nD → Valuation τ sig (Elt F) := fun c => StableHlo.after hostOps3_6 (W18 m ρ c)
/-- The contents call 3's region is entered with, read at the TensorCore's references. -/
abbrev V19 : (c : Dev nD) → (b : Ref sig .tc) → Buf (Elt F) ((c : Thread nD τ).loc b) := fun c b => W19 m ρ c b
/-- At call 3's exit: its arrays at what the pipeline leaves, every other buffer as entered. -/
def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N := by
  unfold W20; exact Pipeline.withArrays_arr spec3 launch3.win.arr_inj c _ _ w
theorem W20_of_ne (c : Dev nD) (b : Ref sig .tc) (hb : ∀ w, Pipeline.arrRef spec3 w ≠ b) :
    W20 m ρ c (Proc.devRef .tc b) = W19 m ρ c (Proc.devRef .tc b) := by
  unfold W20; exact Pipeline.withArrays_of_ne spec3 c _ _ b hb
abbrev V20 : (c : Dev nD) → (b : Ref sig .tc) → Buf (Elt F) ((c : Thread nD τ).loc b) := fun c b => W20 m ρ c b
theorem hF3 (c : Dev nD) (w : Fin cfg3.W) : (dat3 (V19 m ρ) c).arrAt w cfg3.N = V20 m ρ c (Pipeline.arrRef spec3 w) :=
  (W20_arr m ρ c w).symm
theorem hrest3 (c : Dev nD) : ∀ b, b ∉ Finset.univ.image (Pipeline.arrRef spec3) → V20 m ρ c b = V19 m ρ c b :=
  fun b hb => W20_of_ne m ρ c b fun w e => hb (Finset.mem_image.mpr ⟨w, Finset.mem_univ _, e⟩)
/-- After `hostOps4`. -/
abbrev W21 : Dev nD → Valuation τ sig (Elt F) := fun c => StableHlo.after hostOps4 (W20 m ρ c)

/-! ## The proof data family -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V9 m ρ) c
  | ⟨2, _⟩ => fun c => dat2 (V11 m ρ) c
  | ⟨3, _⟩ => fun c => dat3 (V19 m ρ) c

end Cert.Kernel.Hand

end
-- ==== Proof.KB.Run.lean ====
import proofs.«400914_j13511967113603_4_alg».proof.Proof.KB.RunDefs

/-! # The run of @main

Each stretch of host operations is a segment over the thread state "every unscoped buffer at the boundary's
contents, the generator register at some state, nothing owed"; each call is a region segment entered from the
contents before it and left at the contents after it.  The launch theorem for a list of segments then gives: every
weakly fair execution terminates without a fault, and every unscoped buffer ends at the last boundary's contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of `hostOps0` allocates a buffer. -/
theorem hostOps0_fresh : (hostOps0 : List (HloOp τ sig (Elt F))).Forall fun op => op.fresh = ∅ := by
  simp only [List.Forall]; repeat' constructor
set_option maxHeartbeats 4000000 in
/-- No operation of `hostOps0_1` allocates a buffer. -/
theorem hostOps0_1_fresh : (hostOps0_1 : List (HloOp τ sig (Elt F))).Forall fun op => op.fresh = ∅ := by
  simp only [List.Forall]; repeat' constructor
set_option maxHeartbeats 4000000 in
/-- No operation of `hostOps0_2` allocates a buffer. -/
theorem hostOps0_2_fresh : (hostOps0_2 : List (HloOp τ sig (Elt F))).Forall fun op => op.fresh = ∅ := by
  simp only [List.Forall]; repeat' constructor
set_option maxHeartbeats 4000000 in
/-- No operation of `hostOps0_3` allocates a buffer. -/
theorem hostOps0_3_fresh : (hostOps0_3 : List (HloOp τ sig (Elt F))).Forall fun op => op.fresh = ∅ := by
  simp only [List.Forall]; repeat' constructor
set_option maxHeartbeats 4000000 in
/-- No operation of `hostOps0_4` allocates a buffer. -/
theorem hostOps0_4_fresh : (hostOps0_4 : List (HloOp τ sig (Elt F))).Forall fun op => op.fresh = ∅ := by
  simp only [List.Forall]; repeat' constructor
set_option maxHeartbeats 4000000 in
/-- No operation of `hostOps0_5` allocates a buffer. -/
theorem hostOps0_5_fresh : (hostOps0_5 : List (HloOp τ sig (Elt F))).Forall fun op => op.fresh = ∅ := by
  simp only [List.Forall]; repeat' constructor
set_option maxHeartbeats 4000000 in
/-- No operation of `hostOps0_6` allocates a buffer. -/
theorem hostOps0_6_fresh : (hostOps0_6 : List (HloOp τ sig (Elt F))).Forall fun op => op.fresh = ∅ := by
  simp only [List.Forall]; repeat' constructor
set_option maxHeartbeats 4000000 in
/-- No operation of `hostOps1` allocates a buffer. -/
theorem hostOps1_fresh : (hostOps1 : List (HloOp τ sig (Elt F))).Forall fun op => op.fresh = ∅ := by
  simp only [List.Forall]; repeat' constructor
set_option maxHeartbeats 4000000 in
/-- No operation of `hostOps2` allocates a buffer. -/
theorem hostOps2_fresh : (hostOps2 : List (HloOp τ sig (Elt F))).Forall fun op => op.fresh = ∅ := by
  simp only [List.Forall]; repeat' constructor
set_option maxHeartbeats 4000000 in
/-- No operation of `hostOps3` allocates a buffer. -/
theorem hostOps3_fresh : (hostOps3 : List (HloOp τ sig (Elt F))).Forall fun op => op.fresh = ∅ := by
  simp only [List.Forall]; repeat' constructor
set_option maxHeartbeats 4000000 in
/-- No operation of `hostOps3_1` allocates a buffer. -/
theorem hostOps3_1_fresh : (hostOps3_1 : List (HloOp τ sig (Elt F))).Forall fun op => op.fresh = ∅ := by
  simp only [List.Forall]; repeat' constructor
set_option maxHeartbeats 4000000 in
/-- No operation of `hostOps3_2` allocates a buffer. -/
theorem hostOps3_2_fresh : (hostOps3_2 : List (HloOp τ sig (Elt F))).Forall fun op => op.fresh = ∅ := by
  simp only [List.Forall]; repeat' constructor
set_option maxHeartbeats 4000000 in
/-- No operation of `hostOps3_3` allocates a buffer. -/
theorem hostOps3_3_fresh : (hostOps3_3 : List (HloOp τ sig (Elt F))).Forall fun op => op.fresh = ∅ := by
  simp only [List.Forall]; repeat' constructor
set_option maxHeartbeats 4000000 in
/-- No operation of `hostOps3_4` allocates a buffer. -/
theorem hostOps3_4_fresh : (hostOps3_4 : List (HloOp τ sig (Elt F))).Forall fun op => op.fresh = ∅ := by
  simp only [List.Forall]; repeat' constructor
set_option maxHeartbeats 4000000 in
/-- No operation of `hostOps3_5` allocates a buffer. -/
theorem hostOps3_5_fresh : (hostOps3_5 : List (HloOp τ sig (Elt F))).Forall fun op => op.fresh = ∅ := by
  simp only [List.Forall]; repeat' constructor
set_option maxHeartbeats 4000000 in
/-- No operation of `hostOps3_6` allocates a buffer. -/
theorem hostOps3_6_fresh : (hostOps3_6 : List (HloOp τ sig (Elt F))).Forall fun op => op.fresh = ∅ := by
  simp only [List.Forall]; repeat' constructor
set_option maxHeartbeats 4000000 in
/-- No operation of `hostOps4` allocates a buffer. -/
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W21 m ρ c) ∗ ∃ r, prngReg c r)

/-! ## The calls as segments -/

set_option backward.isDefEq.respectTransparency.types false in
/-- Call 0 over the thread state: entered from every unscoped buffer at `W7`, left at `W8`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V7 m ρ) c).Φ 0 from rfl]
    exact (show _ ⊢ Pipeline.ΦA spec0 c from by
      unfold Pipeline.ΦA
      iintro ⟨Hp, -, Hr⟩
      isplitl [Hr]; · iexact Hr
      iexact Hp).trans (hin0 (V7 m ρ) c)
  hout c := by
    rw [Pipeline.ownSems0_none, show (pdats m ρ 0 c).Φ (Fin.last _) = (dat0 (V7 m ρ) c).Φ (Fin.last cfg0.N) from rfl]
    exact (hout0 (V7 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W9`, left at `W10`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V9 m ρ) c).Φ 0 from rfl]
    exact (show _ ⊢ Pipeline.ΦA spec1 c from by
      unfold Pipeline.ΦA
      iintro ⟨Hp, -, Hr⟩
      isplitl [Hr]; · iexact Hr
      iexact Hp).trans (hin1 (V9 m ρ) c)
  hout c := by
    rw [Pipeline.ownSems0_none, show (pdats m ρ 1 c).Φ (Fin.last _) = (dat1 (V9 m ρ) c).Φ (Fin.last cfg1.N) from rfl]
    exact (hout1 (V9 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W11`, left at `W12`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V11 m ρ) c).Φ 0 from rfl]
    exact (show _ ⊢ Pipeline.ΦA spec2 c from by
      unfold Pipeline.ΦA
      iintro ⟨Hp, -, Hr⟩
      isplitl [Hr]; · iexact Hr
      iexact Hp).trans (hin2 (V11 m ρ) c)
  hout c := by
    rw [Pipeline.ownSems0_none, show (pdats m ρ 2 c).Φ (Fin.last _) = (dat2 (V11 m ρ) c).Φ (Fin.last cfg2.N) from rfl]
    exact (hout2 (V11 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W19`, left at `W20`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V19 m ρ) c).loose
  hwaits := Pipeline.hwaits_of_owed_zero _ _ _ _ L lv 3 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec3 c (V19 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V19 m ρ c) (V20 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twenty-one segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .region (reg1 m ρ),
    .host (hseg hostOps2 hostOps2_sub hostOps2_fresh (W10 m ρ)),
    .region (reg2 m ρ),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .host (hseg hostOps3_3 hostOps3_3_sub hostOps3_3_fresh (W15 m ρ)),
    .host (hseg hostOps3_4 hostOps3_4_sub hostOps3_4_fresh (W16 m ρ)),
    .host (hseg hostOps3_5 hostOps3_5_sub hostOps3_5_fresh (W17 m ρ)),
    .host (hseg hostOps3_6 hostOps3_6_sub hostOps3_6_fresh (W18 m ρ)),
    .region (reg3 m ρ),
    .host (hseg hostOps4 hostOps4_sub hostOps4_fresh (W20 m ρ)) ]

set_option maxHeartbeats 4000000 in
/-- @main is the run of the segments. -/
theorem main_run (c : Dev nD) : main (F := F) c = Pipeline.Seg.run (segs m ρ) := (main_chain c).trans (by chain_rfl)

set_option backward.isDefEq.respectTransparency.types false in
set_option maxHeartbeats 4000000 in
/-- THE RUN: from any memory with zero counters every weakly fair execution of @main on the TensorCores terminates,
    nothing faulting, and every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W21 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c => h c)

end Cert.Kernel.Hand

end
-- ==== Proof.KB.Kept.lean ====
import proofs.«400914_j13511967113603_4_alg».proof.Proof.KB.RunDefs

/-! # What every item of @main leaves unchanged

Per stretch of host operations, the references its operations write, in order (each operation writes its one result);
so a reference not among them holds after the stretch what it held before.  A call leaves every buffer but its output
array as it found it: an input window's array is never written back, and a buffer that is no window's array is not
touched.  Chained from the launch: no item writes an argument, so at every boundary each argument holds its launch
contents; and the gathered table `main_v24` is as the first call finds it until the third call is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the host stretches write -/

/-- An operation whose one result is `y` writes inside any list of references holding `y`. -/
theorem writes_sub_of_mem {W : List (Ref sig .tc)} (op : HloOp τ sig (Elt F)) (y : Ref sig .tc)
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map_of_mem hy

/-- Operations whose results are, one by one, the references of a list write inside any list holding those. -/
theorem forall_writes_of_forall₂ {ops : List (HloOp τ sig (Elt F))} {W : List (Ref sig .tc)}
    (h : List.Forall₂ (fun op y => op.writes = {Proc.devRef (τ := τ) .tc y}) ops W) (W' : List (Ref sig .tc))
    (hW : ∀ y ∈ W, y ∈ W') :
    ops.Forall fun op => op.writes ⊆ (W'.map (Proc.devRef (τ := τ) .tc)).toFinset := by
  rw [List.forall_iff_forall_mem]
  induction h with
  | nil => intro op hop; cases hop
  | cons hab _ ih =>
    intro op hop
    rcases List.mem_cons.mp hop with rfl | hop
    · exact writes_sub_of_mem _ _ hab (hW _ List.mem_cons_self)
    · exact ih (fun y hy => hW y (List.mem_cons_of_mem _ hy)) op hop

/-- The references `hostOps0`'s operations write, in order. -/
abbrev hostOps0_W : List (Ref sig .tc) := [main_cst, main_v0, main_v1, main_v2, main_cst_0, main_v3, main_v4, main_v5, main_v6, main_v7, main_cst_1, main_v8, main_v9, main_v10, main_v11, main_v12, main_cst_2, main_v13, main_v14, main_v15, main_v16, main_v17, main_v18, main_v19, main_cst_3]
theorem hostOps0_writes : (hostOps0 : List (HloOp τ sig (Elt F))).Forall fun op => op.writes ⊆ (hostOps0_W.map (Proc.devRef (τ := τ) .tc)).toFinset :=
  forall_writes_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))) _ fun _ h => h
/-- The references `hostOps0_1`'s operations write, in order. -/
abbrev hostOps0_1_W : List (Ref sig .tc) := [main_call0_v0, main_call0_v1, main_v20]
theorem hostOps0_1_writes : (hostOps0_1 : List (HloOp τ sig (Elt F))).Forall fun op => op.writes ⊆ (hostOps0_1_W.map (Proc.devRef (τ := τ) .tc)).toFinset :=
  forall_writes_of_forall₂ (.cons rfl (.cons rfl (.cons rfl .nil))) _ fun _ h => h
/-- The references `hostOps0_2`'s operations write, in order. -/
abbrev hostOps0_2_W : List (Ref sig .tc) := [main_cst_4, main_v21, main_v22, main_cst_5]
theorem hostOps0_2_writes : (hostOps0_2 : List (HloOp τ sig (Elt F))).Forall fun op => op.writes ⊆ (hostOps0_2_W.map (Proc.devRef (τ := τ) .tc)).toFinset :=
  forall_writes_of_forall₂ (.cons rfl (.cons rfl (.cons rfl (.cons rfl .nil)))) _ fun _ h => h
/-- The references `hostOps0_3`'s operations write, in order. -/
abbrev hostOps0_3_W : List (Ref sig .tc) := [main_call1_v0, main_v23]
theorem hostOps0_3_writes : (hostOps0_3 : List (HloOp τ sig (Elt F))).Forall fun op => op.writes ⊆ (hostOps0_3_W.map (Proc.devRef (τ := τ) .tc)).toFinset :=
  forall_writes_of_forall₂ (.cons rfl (.cons rfl .nil)) _ fun _ h => h
/-- The references `hostOps0_4`'s operations write, in order. -/
abbrev hostOps0_4_W : List (Ref sig .tc) := [main_v24, main_c]
theorem hostOps0_4_writes : (hostOps0_4 : List (HloOp τ sig (Elt F))).Forall fun op => op.writes ⊆ (hostOps0_4_W.map (Proc.devRef (τ := τ) .tc)).toFinset :=
  forall_writes_of_forall₂ (.cons rfl (.cons rfl .nil)) _ fun _ h => h
/-- The references `hostOps0_5`'s operations write, in order. -/
abbrev hostOps0_5_W : List (Ref sig .tc) := [main_call2_v0, main_v25]
theorem hostOps0_5_writes : (hostOps0_5 : List (HloOp τ sig (Elt F))).Forall fun op => op.writes ⊆ (hostOps0_5_W.map (Proc.devRef (τ := τ) .tc)).toFinset :=
  forall_writes_of_forall₂ (.cons rfl (.cons rfl .nil)) _ fun _ h => h
/-- The references `hostOps0_6`'s operations write, in order. -/
abbrev hostOps0_6_W : List (Ref sig .tc) := [main_v26, main_v27, main_c_6, main_v28, main_v29, main_c_7, main_v30, main_v31, main_v32, main_v33, main_v34, main_v35, main_v36, main_cst_8, main_v37, main_v38, main_v39, main_v40, main_v41, main_v42, main_v43, main_v44, main_v45, main_c_9, main_v46, main_v47, main_c_10, main_v48, main_v49, main_v50, main_v51, main_v52, main_v53, main_v54, main_cst_11, main_v55, main_v56, main_v57, main_v58, main_v59, main_v60, main_v61, main_v62, main_v63, main_c_12, main_v64, main_v65, main_c_13, main_v66, main_v67, main_v68, main_v69, main_v70, main_v71, main_v72, main_cst_14, main_v73, main_v74, main_v75, main_v76, main_v77, main_v78, main_v79, main_v80, main_v81, main_v82, main_v83]
theorem hostOps0_6_writes : (hostOps0_6 : List (HloOp τ sig (Elt F))).Forall fun op => op.writes ⊆ (hostOps0_6_W.map (Proc.devRef (τ := τ) .tc)).toFinset :=
  forall_writes_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))) _ fun _ h => h
/-- The references `hostOps1`'s operations write, in order. -/
abbrev hostOps1_W : List (Ref sig .tc) := [main_v85, main_v86, main_c_15, main_v87, main_v88, main_c_16, main_v89, main_v90, main_v91, main_v92, main_v93, main_v94, main_v95, main_cst_17, main_v96, main_v97, main_v98, main_v99, main_v100, main_v101, main_v102, main_v103, main_v104, main_c_18, main_v105, main_v106, main_c_19, main_v107, main_v108, main_v109, main_v110, main_v111, main_v112, main_v113, main_cst_20, main_v114, main_v115, main_v116, main_v117, main_v118, main_v119, main_v120, main_v121, main_v122, main_c_21, main_v123, main_v124, main_c_22, main_v125, main_v126, main_v127, main_v128, main_v129, main_v130, main_v131, main_cst_23, main_v132, main_v133, main_v134, main_v135, main_v136, main_v137, main_v138, main_v139, main_v140, main_v141, main_v142]
theorem hostOps1_writes : (hostOps1 : List (HloOp τ sig (Elt F))).Forall fun op => op.writes ⊆ (hostOps1_W.map (Proc.devRef (τ := τ) .tc)).toFinset :=
  forall_writes_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))) _ fun _ h => h
/-- The references `hostOps2`'s operations write, in order. -/
abbrev hostOps2_W : List (Ref sig .tc) := [main_v144, main_v145, main_c_24, main_v146, main_v147, main_c_25, main_v148, main_v149, main_v150, main_v151, main_v152, main_v153, main_v154, main_cst_26, main_v155, main_v156, main_v157, main_v158, main_v159, main_v160, main_v161, main_v162, main_v163, main_c_27, main_v164, main_v165, main_c_28, main_v166, main_v167, main_v168, main_v169, main_v170, main_v171, main_v172, main_cst_29, main_v173, main_v174, main_v175, main_v176, main_v177, main_v178, main_v179, main_v180, main_v181, main_c_30, main_v182, main_v183, main_c_31, main_v184, main_v185, main_v186, main_v187, main_v188, main_v189, main_v190, main_cst_32, main_v191, main_v192, main_v193, main_v194, main_v195, main_v196, main_v197, main_v198, main_v199, main_v200, main_v201]
theorem hostOps2_writes : (hostOps2 : List (HloOp τ sig (Elt F))).Forall fun op => op.writes ⊆ (hostOps2_W.map (Proc.devRef (τ := τ) .tc)).toFinset :=
  forall_writes_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))) _ fun _ h => h
/-- The references `hostOps3`'s operations write, in order. -/
abbrev hostOps3_W : List (Ref sig .tc) := [main_v203, main_v204, main_v205]
theorem hostOps3_writes : (hostOps3 : List (HloOp τ sig (Elt F))).Forall fun op => op.writes ⊆ (hostOps3_W.map (Proc.devRef (τ := τ) .tc)).toFinset :=
  forall_writes_of_forall₂ (.cons rfl (.cons rfl (.cons rfl .nil))) _ fun _ h => h
/-- The references `hostOps3_1`'s operations write, in order. -/
abbrev hostOps3_1_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v206]
theorem hostOps3_1_writes : (hostOps3_1 : List (HloOp τ sig (Elt F))).Forall fun op => op.writes ⊆ (hostOps3_1_W.map (Proc.devRef (τ := τ) .tc)).toFinset :=
  forall_writes_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))) _ fun _ h => h
/-- The references `hostOps3_2`'s operations write, in order. -/
abbrev hostOps3_2_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v207]
theorem hostOps3_2_writes : (hostOps3_2 : List (HloOp τ sig (Elt F))).Forall fun op => op.writes ⊆ (hostOps3_2_W.map (Proc.devRef (τ := τ) .tc)).toFinset :=
  forall_writes_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))) _ fun _ h => h
/-- The references `hostOps3_3`'s operations write, in order. -/
abbrev hostOps3_3_W : List (Ref sig .tc) := [main_c_33]
theorem hostOps3_3_writes : (hostOps3_3 : List (HloOp τ sig (Elt F))).Forall fun op => op.writes ⊆ (hostOps3_3_W.map (Proc.devRef (τ := τ) .tc)).toFinset :=
  forall_writes_of_forall₂ (.cons rfl .nil) _ fun _ h => h
/-- The references `hostOps3_4`'s operations write, in order. -/
abbrev hostOps3_4_W : List (Ref sig .tc) := [main_call5_v0, main_v208]
theorem hostOps3_4_writes : (hostOps3_4 : List (HloOp τ sig (Elt F))).Forall fun op => op.writes ⊆ (hostOps3_4_W.map (Proc.devRef (τ := τ) .tc)).toFinset :=
  forall_writes_of_forall₂ (.cons rfl (.cons rfl .nil)) _ fun _ h => h
/-- The references `hostOps3_5`'s operations write, in order. -/
abbrev hostOps3_5_W : List (Ref sig .tc) := [main_c_34]
theorem hostOps3_5_writes : (hostOps3_5 : List (HloOp τ sig (Elt F))).Forall fun op => op.writes ⊆ (hostOps3_5_W.map (Proc.devRef (τ := τ) .tc)).toFinset :=
  forall_writes_of_forall₂ (.cons rfl .nil) _ fun _ h => h
/-- The references `hostOps3_6`'s operations write, in order. -/
abbrev hostOps3_6_W : List (Ref sig .tc) := [main_call6_v0, main_v209]
theorem hostOps3_6_writes : (hostOps3_6 : List (HloOp τ sig (Elt F))).Forall fun op => op.writes ⊆ (hostOps3_6_W.map (Proc.devRef (τ := τ) .tc)).toFinset :=
  forall_writes_of_forall₂ (.cons rfl (.cons rfl .nil)) _ fun _ h => h
/-- The references `hostOps4`'s operations write, in order. -/
abbrev hostOps4_W : List (Ref sig .tc) := [main_v211, main_v212, main_v213]
theorem hostOps4_writes : (hostOps4 : List (HloOp τ sig (Elt F))).Forall fun op => op.writes ⊆ (hostOps4_W.map (Proc.devRef (τ := τ) .tc)).toFinset :=
  forall_writes_of_forall₂ (.cons rfl (.cons rfl (.cons rfl .nil))) _ fun _ h => h

variable (m : (ℓ : Loc nD τ sig) → Buf (Elt F) ℓ) (ρ : Dev nD → PrngReg)

/-! ## What each item leaves unchanged -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
theorem W6_of (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h
theorem W7_of (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h
/-- Call 0 leaves every buffer but its output array `main_v84` as it found it: an input window's array is never
    written back, a buffer that is no window's array is not touched. -/
theorem W8_of (c : Dev nD) (r : Ref sig .tc) (h : r ≠ main_v84) :
    W8 m ρ c (Proc.devRef .tc r) = W7 m ρ c (Proc.devRef .tc r) := by
  by_cases hr : ∃ w : Fin cfg0.W, Pipeline.arrRef spec0 w = r
  · obtain ⟨w, rfl⟩ := hr
    have hw : (cfg0.win w).isOut = false ∨ Pipeline.arrRef spec0 w = main_v84 := by
      match w with
      | ⟨0, _⟩ => exact .inl rfl
      | ⟨1, _⟩ => exact .inl rfl
      | ⟨2, _⟩ => exact .inl rfl
      | ⟨3, _⟩ => exact .inr rfl
    rcases hw with hin | hout
    · exact (W8_arr m ρ c w).trans (((dat0 (V7 m ρ) c).arrAt_in w hin _).trans (A_eq0 (V7 m ρ) c w))
    · exact absurd hout h
  · exact W8_of_ne m ρ c r fun w e => hr ⟨w, e⟩
theorem W9_of (c : Dev nD) (r : Ref sig .tc) (h : r ∉ hostOps1_W) :
    W9 m ρ c (Proc.devRef .tc r) = W8 m ρ c (Proc.devRef .tc r) :=
  StableHlo.after_of_writes_sub hostOps1 _ hostOps1_writes h
/-- Call 1 leaves every buffer but its output array `main_v143` as it found it: an input window's array is never
    written back, a buffer that is no window's array is not touched. -/
theorem W10_of (c : Dev nD) (r : Ref sig .tc) (h : r ≠ main_v143) :
    W10 m ρ c (Proc.devRef .tc r) = W9 m ρ c (Proc.devRef .tc r) := by
  by_cases hr : ∃ w : Fin cfg1.W, Pipeline.arrRef spec1 w = r
  · obtain ⟨w, rfl⟩ := hr
    have hw : (cfg1.win w).isOut = false ∨ Pipeline.arrRef spec1 w = main_v143 := by
      match w with
      | ⟨0, _⟩ => exact .inl rfl
      | ⟨1, _⟩ => exact .inl rfl
      | ⟨2, _⟩ => exact .inl rfl
      | ⟨3, _⟩ => exact .inr rfl
    rcases hw with hin | hout
    · exact (W10_arr m ρ c w).trans (((dat1 (V9 m ρ) c).arrAt_in w hin _).trans (A_eq1 (V9 m ρ) c w))
    · exact absurd hout h
  · exact W10_of_ne m ρ c r fun w e => hr ⟨w, e⟩
theorem W11_of (c : Dev nD) (r : Ref sig .tc) (h : r ∉ hostOps2_W) :
    W11 m ρ c (Proc.devRef .tc r) = W10 m ρ c (Proc.devRef .tc r) :=
  StableHlo.after_of_writes_sub hostOps2 _ hostOps2_writes h
/-- Call 2 leaves every buffer but its output array `main_v202` as it found it: an input window's array is never
    written back, a buffer that is no window's array is not touched. -/
theorem W12_of (c : Dev nD) (r : Ref sig .tc) (h : r ≠ main_v202) :
    W12 m ρ c (Proc.devRef .tc r) = W11 m ρ c (Proc.devRef .tc r) := by
  by_cases hr : ∃ w : Fin cfg2.W, Pipeline.arrRef spec2 w = r
  · obtain ⟨w, rfl⟩ := hr
    have hw : (cfg2.win w).isOut = false ∨ Pipeline.arrRef spec2 w = main_v202 := by
      match w with
      | ⟨0, _⟩ => exact .inl rfl
      | ⟨1, _⟩ => exact .inl rfl
      | ⟨2, _⟩ => exact .inl rfl
      | ⟨3, _⟩ => exact .inr rfl
    rcases hw with hin | hout
    · exact (W12_arr m ρ c w).trans (((dat2 (V11 m ρ) c).arrAt_in w hin _).trans (A_eq2 (V11 m ρ) c w))
    · exact absurd hout h
  · exact W12_of_ne m ρ c r fun w e => hr ⟨w, e⟩
theorem W13_of (c : Dev nD) (r : Ref sig .tc) (h : r ∉ hostOps3_W) :
    W13 m ρ c (Proc.devRef .tc r) = W12 m ρ c (Proc.devRef .tc r) :=
  StableHlo.after_of_writes_sub hostOps3 _ hostOps3_writes h
theorem W14_of (c : Dev nD) (r : Ref sig .tc) (h : r ∉ hostOps3_1_W) :
    W14 m ρ c (Proc.devRef .tc r) = W13 m ρ c (Proc.devRef .tc r) :=
  StableHlo.after_of_writes_sub hostOps3_1 _ hostOps3_1_writes h
theorem W15_of (c : Dev nD) (r : Ref sig .tc) (h : r ∉ hostOps3_2_W) :
    W15 m ρ c (Proc.devRef .tc r) = W14 m ρ c (Proc.devRef .tc r) :=
  StableHlo.after_of_writes_sub hostOps3_2 _ hostOps3_2_writes h
theorem W16_of (c : Dev nD) (r : Ref sig .tc) (h : r ∉ hostOps3_3_W) :
    W16 m ρ c (Proc.devRef .tc r) = W15 m ρ c (Proc.devRef .tc r) :=
  StableHlo.after_of_writes_sub hostOps3_3 _ hostOps3_3_writes h
theorem W17_of (c : Dev nD) (r : Ref sig .tc) (h : r ∉ hostOps3_4_W) :
    W17 m ρ c (Proc.devRef .tc r) = W16 m ρ c (Proc.devRef .tc r) :=
  StableHlo.after_of_writes_sub hostOps3_4 _ hostOps3_4_writes h
theorem W18_of (c : Dev nD) (r : Ref sig .tc) (h : r ∉ hostOps3_5_W) :
    W18 m ρ c (Proc.devRef .tc r) = W17 m ρ c (Proc.devRef .tc r) :=
  StableHlo.after_of_writes_sub hostOps3_5 _ hostOps3_5_writes h
theorem W19_of (c : Dev nD) (r : Ref sig .tc) (h : r ∉ hostOps3_6_W) :
    W19 m ρ c (Proc.devRef .tc r) = W18 m ρ c (Proc.devRef .tc r) :=
  StableHlo.after_of_writes_sub hostOps3_6 _ hostOps3_6_writes h
/-- Call 3 leaves every buffer but its output array `main_v210` as it found it: an input window's array is never
    written back, a buffer that is no window's array is not touched. -/
theorem W20_of (c : Dev nD) (r : Ref sig .tc) (h : r ≠ main_v210) :
    W20 m ρ c (Proc.devRef .tc r) = W19 m ρ c (Proc.devRef .tc r) := by
  by_cases hr : ∃ w : Fin cfg3.W, Pipeline.arrRef spec3 w = r
  · obtain ⟨w, rfl⟩ := hr
    have hw : (cfg3.win w).isOut = false ∨ Pipeline.arrRef spec3 w = main_v210 := by
      match w with
      | ⟨0, _⟩ => exact .inl rfl
      | ⟨1, _⟩ => exact .inl rfl
      | ⟨2, _⟩ => exact .inr rfl
    rcases hw with hin | hout
    · exact (W20_arr m ρ c w).trans (((dat3 (V19 m ρ) c).arrAt_in w hin _).trans (A_eq3 (V19 m ρ) c w))
    · exact absurd hout h
  · exact W20_of_ne m ρ c r fun w e => hr ⟨w, e⟩
theorem W21_of (c : Dev nD) (r : Ref sig .tc) (h : r ∉ hostOps4_W) :
    W21 m ρ c (Proc.devRef .tc r) = W20 m ρ c (Proc.devRef .tc r) :=
  StableHlo.after_of_writes_sub hostOps4 _ hostOps4_writes h

/-! ## No item writes an argument -/

theorem args_not_mem_hostOps0 : ∀ r ∈ ([main_arg0, main_arg1, main_arg2, main_arg3, main_arg4, main_arg5, main_arg6, main_arg7, main_arg8, main_arg9, main_arg10, main_arg11, main_arg12] : List (Ref sig .tc)), r ∉ hostOps0_W := by
  intro r h
  fin_cases h <;> decide
theorem args_not_mem_hostOps0_1 : ∀ r ∈ ([main_arg0, main_arg1, main_arg2, main_arg3, main_arg4, main_arg5, main_arg6, main_arg7, main_arg8, main_arg9, main_arg10, main_arg11, main_arg12] : List (Ref sig .tc)), r ∉ hostOps0_1_W := by
  intro r h
  fin_cases h <;> decide
theorem args_not_mem_hostOps0_2 : ∀ r ∈ ([main_arg0, main_arg1, main_arg2, main_arg3, main_arg4, main_arg5, main_arg6, main_arg7, main_arg8, main_arg9, main_arg10, main_arg11, main_arg12] : List (Ref sig .tc)), r ∉ hostOps0_2_W := by
  intro r h
  fin_cases h <;> decide
theorem args_not_mem_hostOps0_3 : ∀ r ∈ ([main_arg0, main_arg1, main_arg2, main_arg3, main_arg4, main_arg5, main_arg6, main_arg7, main_arg8, main_arg9, main_arg10, main_arg11, main_arg12] : List (Ref sig .tc)), r ∉ hostOps0_3_W := by
  intro r h
  fin_cases h <;> decide
theorem args_not_mem_hostOps0_4 : ∀ r ∈ ([main_arg0, main_arg1, main_arg2, main_arg3, main_arg4, main_arg5, main_arg6, main_arg7, main_arg8, main_arg9, main_arg10, main_arg11, main_arg12] : List (Ref sig .tc)), r ∉ hostOps0_4_W := by
  intro r h
  fin_cases h <;> decide
theorem args_not_mem_hostOps0_5 : ∀ r ∈ ([main_arg0, main_arg1, main_arg2, main_arg3, main_arg4, main_arg5, main_arg6, main_arg7, main_arg8, main_arg9, main_arg10, main_arg11, main_arg12] : List (Ref sig .tc)), r ∉ hostOps0_5_W := by
  intro r h
  fin_cases h <;> decide
theorem args_not_mem_hostOps0_6 : ∀ r ∈ ([main_arg0, main_arg1, main_arg2, main_arg3, main_arg4, main_arg5, main_arg6, main_arg7, main_arg8, main_arg9, main_arg10, main_arg11, main_arg12] : List (Ref sig .tc)), r ∉ hostOps0_6_W := by
  intro r h
  fin_cases h <;> decide
theorem args_not_mem_hostOps1 : ∀ r ∈ ([main_arg0, main_arg1, main_arg2, main_arg3, main_arg4, main_arg5, main_arg6, main_arg7, main_arg8, main_arg9, main_arg10, main_arg11, main_arg12] : List (Ref sig .tc)), r ∉ hostOps1_W := by
  intro r h
  fin_cases h <;> decide
theorem args_not_mem_hostOps2 : ∀ r ∈ ([main_arg0, main_arg1, main_arg2, main_arg3, main_arg4, main_arg5, main_arg6, main_arg7, main_arg8, main_arg9, main_arg10, main_arg11, main_arg12] : List (Ref sig .tc)), r ∉ hostOps2_W := by
  intro r h
  fin_cases h <;> decide
theorem args_not_mem_hostOps3 : ∀ r ∈ ([main_arg0, main_arg1, main_arg2, main_arg3, main_arg4, main_arg5, main_arg6, main_arg7, main_arg8, main_arg9, main_arg10, main_arg11, main_arg12] : List (Ref sig .tc)), r ∉ hostOps3_W := by
  intro r h
  fin_cases h <;> decide
theorem args_not_mem_hostOps3_1 : ∀ r ∈ ([main_arg0, main_arg1, main_arg2, main_arg3, main_arg4, main_arg5, main_arg6, main_arg7, main_arg8, main_arg9, main_arg10, main_arg11, main_arg12] : List (Ref sig .tc)), r ∉ hostOps3_1_W := by
  intro r h
  fin_cases h <;> decide
theorem args_not_mem_hostOps3_2 : ∀ r ∈ ([main_arg0, main_arg1, main_arg2, main_arg3, main_arg4, main_arg5, main_arg6, main_arg7, main_arg8, main_arg9, main_arg10, main_arg11, main_arg12] : List (Ref sig .tc)), r ∉ hostOps3_2_W := by
  intro r h
  fin_cases h <;> decide
theorem args_not_mem_hostOps3_3 : ∀ r ∈ ([main_arg0, main_arg1, main_arg2, main_arg3, main_arg4, main_arg5, main_arg6, main_arg7, main_arg8, main_arg9, main_arg10, main_arg11, main_arg12] : List (Ref sig .tc)), r ∉ hostOps3_3_W := by
  intro r h
  fin_cases h <;> decide
theorem args_not_mem_hostOps3_4 : ∀ r ∈ ([main_arg0, main_arg1, main_arg2, main_arg3, main_arg4, main_arg5, main_arg6, main_arg7, main_arg8, main_arg9, main_arg10, main_arg11, main_arg12] : List (Ref sig .tc)), r ∉ hostOps3_4_W := by
  intro r h
  fin_cases h <;> decide
theorem args_not_mem_hostOps3_5 : ∀ r ∈ ([main_arg0, main_arg1, main_arg2, main_arg3, main_arg4, main_arg5, main_arg6, main_arg7, main_arg8, main_arg9, main_arg10, main_arg11, main_arg12] : List (Ref sig .tc)), r ∉ hostOps3_5_W := by
  intro r h
  fin_cases h <;> decide
theorem args_not_mem_hostOps3_6 : ∀ r ∈ ([main_arg0, main_arg1, main_arg2, main_arg3, main_arg4, main_arg5, main_arg6, main_arg7, main_arg8, main_arg9, main_arg10, main_arg11, main_arg12] : List (Ref sig .tc)), r ∉ hostOps3_6_W := by
  intro r h
  fin_cases h <;> decide
theorem args_not_mem_hostOps4 : ∀ r ∈ ([main_arg0, main_arg1, main_arg2, main_arg3, main_arg4, main_arg5, main_arg6, main_arg7, main_arg8, main_arg9, main_arg10, main_arg11, main_arg12] : List (Ref sig .tc)), r ∉ hostOps4_W := by
  intro r h
  fin_cases h <;> decide
theorem args_ne_out0 : ∀ r ∈ ([main_arg0, main_arg1, main_arg2, main_arg3, main_arg4, main_arg5, main_arg6, main_arg7, main_arg8, main_arg9, main_arg10, main_arg11, main_arg12] : List (Ref sig .tc)), r ≠ main_v84 := by
  intro r h
  fin_cases h <;> decide
theorem args_ne_out1 : ∀ r ∈ ([main_arg0, main_arg1, main_arg2, main_arg3, main_arg4, main_arg5, main_arg6, main_arg7, main_arg8, main_arg9, main_arg10, main_arg11, main_arg12] : List (Ref sig .tc)), r ≠ main_v143 := by
  intro r h
  fin_cases h <;> decide
theorem args_ne_out2 : ∀ r ∈ ([main_arg0, main_arg1, main_arg2, main_arg3, main_arg4, main_arg5, main_arg6, main_arg7, main_arg8, main_arg9, main_arg10, main_arg11, main_arg12] : List (Ref sig .tc)), r ≠ main_v202 := by
  intro r h
  fin_cases h <;> decide
theorem args_ne_out3 : ∀ r ∈ ([main_arg0, main_arg1, main_arg2, main_arg3, main_arg4, main_arg5, main_arg6, main_arg7, main_arg8, main_arg9, main_arg10, main_arg11, main_arg12] : List (Ref sig .tc)), r ≠ main_v210 := by
  intro r h
  fin_cases h <;> decide

/-- At boundary 1 every argument holds its launch contents. -/
theorem W1_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W1 m ρ c (Proc.devRef .tc r) = m ((c : Thread nD τ).loc r) :=
  (W1_of m ρ c r (args_not_mem_hostOps0 r h)).trans (rfl)
/-- At boundary 2 every argument holds its launch contents. -/
theorem W2_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W2 m ρ c (Proc.devRef .tc r) = m ((c : Thread nD τ).loc r) :=
  (W2_of m ρ c r (args_not_mem_hostOps0_1 r h)).trans (W1_arg m ρ c r h)
/-- At boundary 3 every argument holds its launch contents. -/
theorem W3_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W3 m ρ c (Proc.devRef .tc r) = m ((c : Thread nD τ).loc r) :=
  (W3_of m ρ c r (args_not_mem_hostOps0_2 r h)).trans (W2_arg m ρ c r h)
/-- At boundary 4 every argument holds its launch contents. -/
theorem W4_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W4 m ρ c (Proc.devRef .tc r) = m ((c : Thread nD τ).loc r) :=
  (W4_of m ρ c r (args_not_mem_hostOps0_3 r h)).trans (W3_arg m ρ c r h)
/-- At boundary 5 every argument holds its launch contents. -/
theorem W5_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W5 m ρ c (Proc.devRef .tc r) = m ((c : Thread nD τ).loc r) :=
  (W5_of m ρ c r (args_not_mem_hostOps0_4 r h)).trans (W4_arg m ρ c r h)
/-- At boundary 6 every argument holds its launch contents. -/
theorem W6_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W6 m ρ c (Proc.devRef .tc r) = m ((c : Thread nD τ).loc r) :=
  (W6_of m ρ c r (args_not_mem_hostOps0_5 r h)).trans (W5_arg m ρ c r h)
/-- At boundary 7 every argument holds its launch contents. -/
theorem W7_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W7 m ρ c (Proc.devRef .tc r) = m ((c : Thread nD τ).loc r) :=
  (W7_of m ρ c r (args_not_mem_hostOps0_6 r h)).trans (W6_arg m ρ c r h)
/-- At boundary 8 every argument holds its launch contents. -/
theorem W8_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W8 m ρ c (Proc.devRef .tc r) = m ((c : Thread nD τ).loc r) :=
  (W8_of m ρ c r (args_ne_out0 r h)).trans (W7_arg m ρ c r h)
/-- At boundary 9 every argument holds its launch contents. -/
theorem W9_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W9 m ρ c (Proc.devRef .tc r) = m ((c : Thread nD τ).loc r) :=
  (W9_of m ρ c r (args_not_mem_hostOps1 r h)).trans (W8_arg m ρ c r h)
/-- At boundary 10 every argument holds its launch contents. -/
theorem W10_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W10 m ρ c (Proc.devRef .tc r) = m ((c : Thread nD τ).loc r) :=
  (W10_of m ρ c r (args_ne_out1 r h)).trans (W9_arg m ρ c r h)
/-- At boundary 11 every argument holds its launch contents. -/
theorem W11_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W11 m ρ c (Proc.devRef .tc r) = m ((c : Thread nD τ).loc r) :=
  (W11_of m ρ c r (args_not_mem_hostOps2 r h)).trans (W10_arg m ρ c r h)
/-- At boundary 12 every argument holds its launch contents. -/
theorem W12_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W12 m ρ c (Proc.devRef .tc r) = m ((c : Thread nD τ).loc r) :=
  (W12_of m ρ c r (args_ne_out2 r h)).trans (W11_arg m ρ c r h)
/-- At boundary 13 every argument holds its launch contents. -/
theorem W13_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W13 m ρ c (Proc.devRef .tc r) = m ((c : Thread nD τ).loc r) :=
  (W13_of m ρ c r (args_not_mem_hostOps3 r h)).trans (W12_arg m ρ c r h)
/-- At boundary 14 every argument holds its launch contents. -/
theorem W14_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W14 m ρ c (Proc.devRef .tc r) = m ((c : Thread nD τ).loc r) :=
  (W14_of m ρ c r (args_not_mem_hostOps3_1 r h)).trans (W13_arg m ρ c r h)
/-- At boundary 15 every argument holds its launch contents. -/
theorem W15_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W15 m ρ c (Proc.devRef .tc r) = m ((c : Thread nD τ).loc r) :=
  (W15_of m ρ c r (args_not_mem_hostOps3_2 r h)).trans (W14_arg m ρ c r h)
/-- At boundary 16 every argument holds its launch contents. -/
theorem W16_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W16 m ρ c (Proc.devRef .tc r) = m ((c : Thread nD τ).loc r) :=
  (W16_of m ρ c r (args_not_mem_hostOps3_3 r h)).trans (W15_arg m ρ c r h)
/-- At boundary 17 every argument holds its launch contents. -/
theorem W17_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W17 m ρ c (Proc.devRef .tc r) = m ((c : Thread nD τ).loc r) :=
  (W17_of m ρ c r (args_not_mem_hostOps3_4 r h)).trans (W16_arg m ρ c r h)
/-- At boundary 18 every argument holds its launch contents. -/
theorem W18_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W18 m ρ c (Proc.devRef .tc r) = m ((c : Thread nD τ).loc r) :=
  (W18_of m ρ c r (args_not_mem_hostOps3_5 r h)).trans (W17_arg m ρ c r h)
/-- At boundary 19 every argument holds its launch contents. -/
theorem W19_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W19 m ρ c (Proc.devRef .tc r) = m ((c : Thread nD τ).loc r) :=
  (W19_of m ρ c r (args_not_mem_hostOps3_6 r h)).trans (W18_arg m ρ c r h)
/-- At boundary 20 every argument holds its launch contents. -/
theorem W20_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W20 m ρ c (Proc.devRef .tc r) = m ((c : Thread nD τ).loc r) :=
  (W20_of m ρ c r (args_ne_out3 r h)).trans (W19_arg m ρ c r h)
/-- At boundary 21 every argument holds its launch contents. -/
theorem W21_arg (c : Dev nD) (r : Ref sig .tc) (h : r ∈ ([main_arg0, main_arg1, main_arg2, main_arg3, main_arg4, main_arg5, main_arg6, main_arg7, main_arg8, main_arg9, main_arg10, main_arg11, main_arg12] : List (Ref sig .tc))) :
    W21 m ρ c (Proc.devRef .tc r) = m ((c : Thread nD τ).loc r) :=
  (W21_of m ρ c r (args_not_mem_hostOps4 r h)).trans (W20_arg m ρ c r h)

/-! ## The table `main_v24` from the first call's entry to the third's -/

theorem W8_v24 (c : Dev nD) : W8 m ρ c (Proc.devRef .tc main_v24) = W7 m ρ c (Proc.devRef .tc main_v24) :=
  (W8_of m ρ c main_v24 (by decide)).trans (rfl)
theorem W9_v24 (c : Dev nD) : W9 m ρ c (Proc.devRef .tc main_v24) = W7 m ρ c (Proc.devRef .tc main_v24) :=
  (W9_of m ρ c main_v24 (by decide)).trans (W8_v24 m ρ c)
theorem W10_v24 (c : Dev nD) : W10 m ρ c (Proc.devRef .tc main_v24) = W7 m ρ c (Proc.devRef .tc main_v24) :=
  (W10_of m ρ c main_v24 (by decide)).trans (W9_v24 m ρ c)
theorem W11_v24 (c : Dev nD) : W11 m ρ c (Proc.devRef .tc main_v24) = W7 m ρ c (Proc.devRef .tc main_v24) :=
  (W11_of m ρ c main_v24 (by decide)).trans (W10_v24 m ρ c)

end Cert.Kernel.Hand

end
-- ==== Proof.Frames.lean ====
import proofs.«400914_j13511967113603_4_alg».proof.Defs
import proofs.«400914_j13511967113603_4_alg».proof.Proof.Gen.Pre_finite_inputs
import proofs.«400914_j13511967113603_4_alg».proof.Proof.KI.Run
import proofs.«400914_j13511967113603_4_alg».proof.Proof.KI.Kept
import proofs.«400914_j13511967113603_4_alg».proof.Proof.KB.Run
import proofs.«400914_j13511967113603_4_alg».proof.Proof.KB.Kept

/-! The two frame conjuncts of the claim: each instance of the kernel's program runs to the end, nothing faulting, and
    leaves its thirteen argument arrays as they were launched. The run ends with every unscoped buffer at the last
    boundary's contents (`run_main`), and at that boundary every argument array still holds its launch contents
    (`W21_arg`): no host operation and no write-back of the four calls touches an argument. -/

set_option maxRecDepth 16384

noncomputable section

namespace Cert.Proof.Frames

open Idealize.ShloMosaic Idealize.ShloMosaic.TcCoe Idealize.SL.Sem

set_option maxHeartbeats 1000000 in
/-- The real-number instance. -/
theorem frame_kernelIdeal : Cert.frame_KernelIdeal := fun m ρ _ =>
  (θ_run _ _ _).mono (fun r h c => ⟨
      (h c _ (Cert.KernelIdeal.Hand.mem_uc Cert.KernelIdeal.main_arg0 (by decide))).trans (Cert.KernelIdeal.Hand.W21_arg m ρ c Cert.KernelIdeal.main_arg0 (by decide)),
      (h c _ (Cert.KernelIdeal.Hand.mem_uc Cert.KernelIdeal.main_arg1 (by decide))).trans (Cert.KernelIdeal.Hand.W21_arg m ρ c Cert.KernelIdeal.main_arg1 (by decide)),
      (h c _ (Cert.KernelIdeal.Hand.mem_uc Cert.KernelIdeal.main_arg2 (by decide))).trans (Cert.KernelIdeal.Hand.W21_arg m ρ c Cert.KernelIdeal.main_arg2 (by decide)),
      (h c _ (Cert.KernelIdeal.Hand.mem_uc Cert.KernelIdeal.main_arg3 (by decide))).trans (Cert.KernelIdeal.Hand.W21_arg m ρ c Cert.KernelIdeal.main_arg3 (by decide)),
      (h c _ (Cert.KernelIdeal.Hand.mem_uc Cert.KernelIdeal.main_arg4 (by decide))).trans (Cert.KernelIdeal.Hand.W21_arg m ρ c Cert.KernelIdeal.main_arg4 (by decide)),
      (h c _ (Cert.KernelIdeal.Hand.mem_uc Cert.KernelIdeal.main_arg5 (by decide))).trans (Cert.KernelIdeal.Hand.W21_arg m ρ c Cert.KernelIdeal.main_arg5 (by decide)),
      (h c _ (Cert.KernelIdeal.Hand.mem_uc Cert.KernelIdeal.main_arg6 (by decide))).trans (Cert.KernelIdeal.Hand.W21_arg m ρ c Cert.KernelIdeal.main_arg6 (by decide)),
      (h c _ (Cert.KernelIdeal.Hand.mem_uc Cert.KernelIdeal.main_arg7 (by decide))).trans (Cert.KernelIdeal.Hand.W21_arg m ρ c Cert.KernelIdeal.main_arg7 (by decide)),
      (h c _ (Cert.KernelIdeal.Hand.mem_uc Cert.KernelIdeal.main_arg8 (by decide))).trans (Cert.KernelIdeal.Hand.W21_arg m ρ c Cert.KernelIdeal.main_arg8 (by decide)),
      (h c _ (Cert.KernelIdeal.Hand.mem_uc Cert.KernelIdeal.main_arg9 (by decide))).trans (Cert.KernelIdeal.Hand.W21_arg m ρ c Cert.KernelIdeal.main_arg9 (by decide)),
      (h c _ (Cert.KernelIdeal.Hand.mem_uc Cert.KernelIdeal.main_arg10 (by decide))).trans (Cert.KernelIdeal.Hand.W21_arg m ρ c Cert.KernelIdeal.main_arg10 (by decide)),
      (h c _ (Cert.KernelIdeal.Hand.mem_uc Cert.KernelIdeal.main_arg11 (by decide))).trans (Cert.KernelIdeal.Hand.W21_arg m ρ c Cert.KernelIdeal.main_arg11 (by decide)),
      (h c _ (Cert.KernelIdeal.Hand.mem_uc Cert.KernelIdeal.main_arg12 (by decide))).trans (Cert.KernelIdeal.Hand.W21_arg m ρ c Cert.KernelIdeal.main_arg12 (by decide))⟩)
    (Cert.KernelIdeal.Hand.run_main (F := Ideal) m ρ)

set_option maxHeartbeats 1000000 in
/-- The word-level instance. -/
theorem frame_kernel : Cert.frame_Kernel := fun m ρ _ =>
  (θ_run _ _ _).mono (fun r h c => ⟨
      (h c _ (Cert.Kernel.Hand.mem_uc Cert.Kernel.main_arg0 (by decide))).trans (Cert.Kernel.Hand.W21_arg m ρ c Cert.Kernel.main_arg0 (by decide)),
      (h c _ (Cert.Kernel.Hand.mem_uc Cert.Kernel.main_arg1 (by decide))).trans (Cert.Kernel.Hand.W21_arg m ρ c Cert.Kernel.main_arg1 (by decide)),
      (h c _ (Cert.Kernel.Hand.mem_uc Cert.Kernel.main_arg2 (by decide))).trans (Cert.Kernel.Hand.W21_arg m ρ c Cert.Kernel.main_arg2 (by decide)),
      (h c _ (Cert.Kernel.Hand.mem_uc Cert.Kernel.main_arg3 (by decide))).trans (Cert.Kernel.Hand.W21_arg m ρ c Cert.Kernel.main_arg3 (by decide)),
      (h c _ (Cert.Kernel.Hand.mem_uc Cert.Kernel.main_arg4 (by decide))).trans (Cert.Kernel.Hand.W21_arg m ρ c Cert.Kernel.main_arg4 (by decide)),
      (h c _ (Cert.Kernel.Hand.mem_uc Cert.Kernel.main_arg5 (by decide))).trans (Cert.Kernel.Hand.W21_arg m ρ c Cert.Kernel.main_arg5 (by decide)),
      (h c _ (Cert.Kernel.Hand.mem_uc Cert.Kernel.main_arg6 (by decide))).trans (Cert.Kernel.Hand.W21_arg m ρ c Cert.Kernel.main_arg6 (by decide)),
      (h c _ (Cert.Kernel.Hand.mem_uc Cert.Kernel.main_arg7 (by decide))).trans (Cert.Kernel.Hand.W21_arg m ρ c Cert.Kernel.main_arg7 (by decide)),
      (h c _ (Cert.Kernel.Hand.mem_uc Cert.Kernel.main_arg8 (by decide))).trans (Cert.Kernel.Hand.W21_arg m ρ c Cert.Kernel.main_arg8 (by decide)),
      (h c _ (Cert.Kernel.Hand.mem_uc Cert.Kernel.main_arg9 (by decide))).trans (Cert.Kernel.Hand.W21_arg m ρ c Cert.Kernel.main_arg9 (by decide)),
      (h c _ (Cert.Kernel.Hand.mem_uc Cert.Kernel.main_arg10 (by decide))).trans (Cert.Kernel.Hand.W21_arg m ρ c Cert.Kernel.main_arg10 (by decide)),
      (h c _ (Cert.Kernel.Hand.mem_uc Cert.Kernel.main_arg11 (by decide))).trans (Cert.Kernel.Hand.W21_arg m ρ c Cert.Kernel.main_arg11 (by decide)),
      (h c _ (Cert.Kernel.Hand.mem_uc Cert.Kernel.main_arg12 (by decide))).trans (Cert.Kernel.Hand.W21_arg m ρ c Cert.Kernel.main_arg12 (by decide))⟩)
    (Cert.Kernel.Hand.run_main (F := Bits) m ρ)

end Cert.Proof.Frames

end
-- ==== Proof.PreRange.lean ====
/-
  The index ranges the precondition states, read back.

  The precondition is a conjunction: a chain of `and`s of `i1` scalars, one scalar per fact, each a `jnp.all`. For
  each of the five index arrays a it holds the two facts `jnp.all(a ≥ 0)` and `jnp.all(a < 100000)`: a signed
  comparison of a with a broadcast scalar, reduced by `and` over every axis from the constant 1.

  Three readings give the ranges. A conjunction of one-bit words that is 1 has every conjunct 1. A reduction by `and`
  over all axes that is 1 met a 1 at every index. A signed comparison word that is 1 orders its two operands as
  integers read signed. So every entry of each index array, read signed, lies in [0, 100000).

  The printed function is cut into parts, each ending in the call of the next; each part is read on its own, the last
  first, and a part hands back, beside the ranges it holds, that the conjunction it was given is 1.
-/
import proofs.«400914_j13511967113603_4_alg».proof.Defs
import Idealize.ShloMosaic.Lib.ReduceAll

noncomputable section

namespace Cert.Proof.PreRange

open Idealize.ShloMosaic Idealize.SL.Sem
open Cert.Pre_finite_inputs Cert.Pre_finite_inputs.Facts

variable [Cert.Pre_finite_inputs.Facts]

/-- The scalar shape has exactly one index. -/
instance : Subsingleton S_.Idx := ⟨fun a b => funext fun d => d.elim0⟩

/-- `jnp.all(a ≥ z)` where z is 0 everywhere: every entry of a, read signed, is nonnegative. -/
theorem all_sge {s : Shape} {axes : List (Fin s.rank)} (a z : IVec s 32) (hz : ∀ i, z i = 0#32) (init : IVec S_ 1)
    (hr : s.ReducesTo axes S_) (hu : 0 < S_.numel) (j : S_.Idx)
    (h : Host.reduce IntOp.andi (cmpi .sge a z) init hr hu j = 1#1) (i : s.Idx) : 0 ≤ (a i).toInt := by
  have e : IntOp.cmpi .sge (a i) (z i) = 1#1 := Host.reduce_andi_all (cmpi .sge a z) init hr hu j h i
  rw [hz i] at e
  have := IntOp.cmpi_sge.1 e
  rwa [show (0#32 : BitVec 32).toInt = 0 from by decide] at this

/-- `jnp.all(a < z)` where z is 100000 everywhere: every entry of a, read signed, is below 100000. -/
theorem all_slt {s : Shape} {axes : List (Fin s.rank)} (a z : IVec s 32) (hz : ∀ i, z i = 100000#32) (init : IVec S_ 1)
    (hr : s.ReducesTo axes S_) (hu : 0 < S_.numel) (j : S_.Idx)
    (h : Host.reduce IntOp.andi (cmpi .slt a z) init hr hu j = 1#1) (i : s.Idx) : (a i).toInt < 100000 := by
  have e : IntOp.cmpi .slt (a i) (z i) = 1#1 := Host.reduce_andi_all (cmpi .slt a z) init hr hu j h i
  rw [hz i] at e
  have := IntOp.cmpi_slt.1 e
  rwa [show (100000#32 : BitVec 32).toInt = 100000 from by decide] at this

/-- The two facts of one index array together: every entry lies in [0, 100000). -/
theorem all_range {s : Shape} {axes : List (Fin s.rank)} (a z₀ z₁ : IVec s 32) (hz₀ : ∀ i, z₀ i = 0#32)
    (hz₁ : ∀ i, z₁ i = 100000#32) (init₀ init₁ : IVec S_ 1) (hr : s.ReducesTo axes S_) (hu : 0 < S_.numel) (j : S_.Idx)
    (h₀ : Host.reduce IntOp.andi (cmpi .sge a z₀) init₀ hr hu j = 1#1)
    (h₁ : Host.reduce IntOp.andi (cmpi .slt a z₁) init₁ hr hu j = 1#1) :
    ∀ i, 0 ≤ (a i).toInt ∧ (a i).toInt < 100000 :=
  fun i => ⟨all_sge a z₀ hz₀ init₀ hr hu j h₀ i, all_slt a z₁ hz₁ init₁ hr hu j h₁ i⟩

/-- The last part: the conjunction it was given, and the two facts of the fifth index array. -/
theorem part4 {F : FTy → Type} [FloatOps F] (a12 : IVec S500000 32) (v : IVec S_ 1) (j : S_.Idx)
    (h : fn_part4 (F := F) a12 v j = 1#1) :
    v j = 1#1 ∧ (∀ i, 0 ≤ (a12 i).toInt ∧ (a12 i).toInt < 100000) := by
  dsimp only [fn_part4, andi] at h
  simp only [IntOp.andi_eq_one] at h
  obtain ⟨⟨hv, h0⟩, h1⟩ := h
  exact ⟨hv, all_range a12 _ _ (fun _ => rfl) (fun _ => rfl) _ _ _ _ j h0 h1⟩

/-- The third part: the conjunction it was given, the facts of the third and fourth index arrays, then the last part. -/
theorem part3 {F : FTy → Type} [FloatOps F] (a10 a11 a12 : IVec S500000 32) (v : IVec S_ 1) (j : S_.Idx)
    (h : fn_part3 (F := F) a10 a11 a12 v j = 1#1) :
    v j = 1#1 ∧ (∀ i, 0 ≤ (a10 i).toInt ∧ (a10 i).toInt < 100000) ∧ (∀ i, 0 ≤ (a11 i).toInt ∧ (a11 i).toInt < 100000)
      ∧ (∀ i, 0 ≤ (a12 i).toInt ∧ (a12 i).toInt < 100000) := by
  dsimp only [fn_part3] at h
  obtain ⟨h', r12⟩ := part4 a12 _ j h
  dsimp only [andi] at h'
  simp only [IntOp.andi_eq_one] at h'
  obtain ⟨⟨⟨⟨hv, h10a⟩, h10b⟩, h11a⟩, h11b⟩ := h'
  exact ⟨hv, all_range a10 _ _ (fun _ => rfl) (fun _ => rfl) _ _ _ _ j h10a h10b,
    all_range a11 _ _ (fun _ => rfl) (fun _ => rfl) _ _ _ _ j h11a h11b, r12⟩

/-- The second part: the conjunction it was given, the facts of the first and second index arrays, then the third part. -/
theorem part2 {F : FTy → Type} [FloatOps F] (a7 : IVec S3x1000000 32) (a9 a10 a11 a12 : IVec S500000 32) (v : IVec S_ 1)
    (j : S_.Idx) (h : fn_part2 (F := F) a7 a9 a10 a11 a12 v j = 1#1) :
    v j = 1#1 ∧ (∀ i, 0 ≤ (a7 i).toInt ∧ (a7 i).toInt < 100000) ∧ (∀ i, 0 ≤ (a9 i).toInt ∧ (a9 i).toInt < 100000)
      ∧ (∀ i, 0 ≤ (a10 i).toInt ∧ (a10 i).toInt < 100000) ∧ (∀ i, 0 ≤ (a11 i).toInt ∧ (a11 i).toInt < 100000)
      ∧ (∀ i, 0 ≤ (a12 i).toInt ∧ (a12 i).toInt < 100000) := by
  dsimp only [fn_part2] at h
  obtain ⟨h', r10, r11, r12⟩ := part3 a10 a11 a12 _ j h
  dsimp only [andi] at h'
  simp only [IntOp.andi_eq_one] at h'
  obtain ⟨⟨⟨⟨hv, h7a⟩, h7b⟩, h9a⟩, h9b⟩ := h'
  exact ⟨hv, all_range a7 _ _ (fun _ => rfl) (fun _ => rfl) _ _ _ _ j h7a h7b,
    all_range a9 _ _ (fun _ => rfl) (fun _ => rfl) _ _ _ _ j h9a h9b, r10, r11, r12⟩

/-- The first part holds only facts of float arrays; it ends in the second part, given the conjunction so far. -/
theorem part1 {F : FTy → Type} [FloatOps F] (a4 : FVec F S3x64 .f32) (a5 : FVec F S3x64x64 .f32) (a6 : FVec F S3x64 .f32)
    (a7 : IVec S3x1000000 32) (a9 a10 a11 a12 : IVec S500000 32) (v13 : IVec S_ 1) (v16 : IVec S3x64x64 1) (j : S_.Idx)
    (h : fn_part1 (F := F) a4 a5 a6 a7 a9 a10 a11 a12 v13 v16 j = 1#1) :
    (∀ i, 0 ≤ (a7 i).toInt ∧ (a7 i).toInt < 100000) ∧ (∀ i, 0 ≤ (a9 i).toInt ∧ (a9 i).toInt < 100000)
      ∧ (∀ i, 0 ≤ (a10 i).toInt ∧ (a10 i).toInt < 100000) ∧ (∀ i, 0 ≤ (a11 i).toInt ∧ (a11 i).toInt < 100000)
      ∧ (∀ i, 0 ≤ (a12 i).toInt ∧ (a12 i).toInt < 100000) := by
  dsimp only [fn_part1] at h
  exact (part2 a7 a9 a10 a11 a12 _ j h).2

/-- THE RANGES. If the precondition of the thirteen argument arrays is all ones, every entry of each of the five index
    arrays, read signed, lies in [0, 100000) — at any float family: the facts read are facts of integer words. -/
theorem ranges {F : FTy → Type} [FloatOps F] (a0 : FVec F S100000x64 .f32) (a1 : FVec F S3x64x64 .f32) (a2 : FVec F S3x64 .f32)
    (a3 : FVec F S3x64x64 .f32) (a4 : FVec F S3x64 .f32) (a5 : FVec F S3x64x64 .f32) (a6 : FVec F S3x64 .f32)
    (a7 a8 : IVec S3x1000000 32) (a9 a10 a11 a12 : IVec S500000 32)
    (h : Cert.Pre_finite_inputs.fn (F := F) a0 a1 a2 a3 a4 a5 a6 a7 a8 a9 a10 a11 a12 = fun _ => 1#1) :
    (∀ i, 0 ≤ (a7 i).toInt ∧ (a7 i).toInt < 100000) ∧ (∀ i, 0 ≤ (a9 i).toInt ∧ (a9 i).toInt < 100000)
      ∧ (∀ i, 0 ≤ (a10 i).toInt ∧ (a10 i).toInt < 100000) ∧ (∀ i, 0 ≤ (a11 i).toInt ∧ (a11 i).toInt < 100000)
      ∧ (∀ i, 0 ≤ (a12 i).toInt ∧ (a12 i).toInt < 100000) := by
  have e := congrFun h (fun d => d.elim0)
  dsimp only [Cert.Pre_finite_inputs.fn] at e
  exact part1 a4 a5 a6 a7 a9 a10 a11 a12 _ _ _ e

/-- At the idealized kernel: under its precondition, on every device, the five index arrays of the launch memory hold
    entries in [0, 100000). -/
theorem of_pre_KernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, 0 ≤ ((m ((c.tc : Thread Cert.KernelIdeal.nD Cert.KernelIdeal.τ).loc Cert.KernelIdeal.main_arg7)) i).toInt ∧ ((m ((c.tc : Thread Cert.KernelIdeal.nD Cert.KernelIdeal.τ).loc Cert.KernelIdeal.main_arg7)) i).toInt < 100000)
      ∧ (∀ i, 0 ≤ ((m ((c.tc : Thread Cert.KernelIdeal.nD Cert.KernelIdeal.τ).loc Cert.KernelIdeal.main_arg9)) i).toInt ∧ ((m ((c.tc : Thread Cert.KernelIdeal.nD Cert.KernelIdeal.τ).loc Cert.KernelIdeal.main_arg9)) i).toInt < 100000)
      ∧ (∀ i, 0 ≤ ((m ((c.tc : Thread Cert.KernelIdeal.nD Cert.KernelIdeal.τ).loc Cert.KernelIdeal.main_arg10)) i).toInt ∧ ((m ((c.tc : Thread Cert.KernelIdeal.nD Cert.KernelIdeal.τ).loc Cert.KernelIdeal.main_arg10)) i).toInt < 100000)
      ∧ (∀ i, 0 ≤ ((m ((c.tc : Thread Cert.KernelIdeal.nD Cert.KernelIdeal.τ).loc Cert.KernelIdeal.main_arg11)) i).toInt ∧ ((m ((c.tc : Thread Cert.KernelIdeal.nD Cert.KernelIdeal.τ).loc Cert.KernelIdeal.main_arg11)) i).toInt < 100000)
      ∧ (∀ i, 0 ≤ ((m ((c.tc : Thread Cert.KernelIdeal.nD Cert.KernelIdeal.τ).loc Cert.KernelIdeal.main_arg12)) i).toInt ∧ ((m ((c.tc : Thread Cert.KernelIdeal.nD Cert.KernelIdeal.τ).loc Cert.KernelIdeal.main_arg12)) i).toInt < 100000) :=
  ranges _ _ _ _ _ _ _ _ _ _ _ _ _ (h c)

/-- At the kernel as printed: the same ranges, the integer arrays being the same words at either float family. -/
theorem of_pre_Kernel
    (m : (ℓ : Loc Cert.Kernel.nD Cert.Kernel.τ Cert.Kernel.sig) → Buf (Elt Bits) ℓ)
    (h : Cert.Pre_Kernel m) (c : Dev Cert.Kernel.nD) :
    (∀ i, 0 ≤ ((m ((c.tc : Thread Cert.Kernel.nD Cert.Kernel.τ).loc Cert.Kernel.main_arg7)) i).toInt ∧ ((m ((c.tc : Thread Cert.Kernel.nD Cert.Kernel.τ).loc Cert.Kernel.main_arg7)) i).toInt < 100000)
      ∧ (∀ i, 0 ≤ ((m ((c.tc : Thread Cert.Kernel.nD Cert.Kernel.τ).loc Cert.Kernel.main_arg9)) i).toInt ∧ ((m ((c.tc : Thread Cert.Kernel.nD Cert.Kernel.τ).loc Cert.Kernel.main_arg9)) i).toInt < 100000)
      ∧ (∀ i, 0 ≤ ((m ((c.tc : Thread Cert.Kernel.nD Cert.Kernel.τ).loc Cert.Kernel.main_arg10)) i).toInt ∧ ((m ((c.tc : Thread Cert.Kernel.nD Cert.Kernel.τ).loc Cert.Kernel.main_arg10)) i).toInt < 100000)
      ∧ (∀ i, 0 ≤ ((m ((c.tc : Thread Cert.Kernel.nD Cert.Kernel.τ).loc Cert.Kernel.main_arg11)) i).toInt ∧ ((m ((c.tc : Thread Cert.Kernel.nD Cert.Kernel.τ).loc Cert.Kernel.main_arg11)) i).toInt < 100000)
      ∧ (∀ i, 0 ≤ ((m ((c.tc : Thread Cert.Kernel.nD Cert.Kernel.τ).loc Cert.Kernel.main_arg12)) i).toInt ∧ ((m ((c.tc : Thread Cert.Kernel.nD Cert.Kernel.τ).loc Cert.Kernel.main_arg12)) i).toInt < 100000) :=
  ranges _ _ _ _ _ _ _ _ _ _ _ _ _ (h c)

end Cert.Proof.PreRange

end
-- ==== Proof.KI.Conv0Value.lean ====
import proofs.«400914_j13511967113603_4_alg».proof.Proof.KI.Conv0
import Idealize.ShloMosaic.Lib.Pipeline.Value
import Idealize.ShloMosaic.Lib.ValueIdx
import Idealize.ShloMosaic.Lib.ValueLayout
import Idealize.ShloMosaic.PureOps.Ideal.Laws

/-! The value of the first convolution call's result array over the extended reals, index by index.

    The grid is 98 × 3, point `t` at node block `t / 3` and relation `t % 3`. Over the three points of a node block
    the accumulator runs through `((0 + (A₀ + b₀)) + (A₁ + b₁)) + (A₂ + b₂)` with
    `A_r[n, j] = Σ_k m[r, n, k] · W[r, k, j]` (a product into a zero accumulator is the plain sum over the contracted
    coordinate), and the third point stores `max(accumulator, 0)` into rows `1024 (t / 3) … 1024 (t / 3) + 1023` of the
    result. Addition of extended reals is associative and `0` is neutral, so the row's value is
    `max(A₀ + b₀ + A₁ + b₁ + A₂ + b₂, 0)`, the additions nested from the left; every row is in exactly the block of
    its node block's third point, so the result array holds that value everywhere. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The body's operations at an index -/

/-- The product's operand indices, axis by axis: the left operand is read at (row, contracted), the right at
    (contracted, column). -/
theorem dot0_lhs_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem dot0_lhs_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem dot0_rhs_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem dot0_rhs_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The product into a zero accumulator, at an index: the sum over the contracted coordinate. -/
theorem matmul0_apply (x : FVec Ideal S1024x64 .f32) (w : FVec Ideal S64x64 .f32) (p : Fin 1024) (q : Fin 64) :
    matmul dot_S1024x64_S64x64_S1024x64_1_0_0_1_n_n none x w (constant (F := Ideal) S1024x64 .f32 0x00000000#32) (ix2 p q)
      = ∑ k : Fin 64, x (ix2 p k) * w (ix2 k q) := by
  simp only [matmul]
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 p q) ((ValueIdx.contrEquiv1 dot_S1024x64_S64x64_S1024x64_1_0_0_1_n_n 64 rfl rfl).symm k) = ix2 p k := funext fun a => Fin.ext (by
    match a with
    | ⟨0, _⟩ => exact dot0_lhs_0 _ _
    | ⟨1, _⟩ => exact (dot0_lhs_1 _ _).trans hk)
  have er : dot_S1024x64_S64x64_S1024x64_1_0_0_1_n_n.rhsIdx (ix2 p q) ((ValueIdx.contrEquiv1 dot_S1024x64_S64x64_S1024x64_1_0_0_1_n_n 64 rfl rfl).symm k) = ix2 k q := funext fun a => Fin.ext (by
    match a with
    | ⟨0, _⟩ => exact (dot0_rhs_0 _ _).trans hk
    | ⟨1, _⟩ => exact dot0_rhs_1 _ _)
  rw [el, er]

/-- The zero block. -/
theorem zero0_apply (p : Fin 1024) (q : Fin 64) : k0_pay1 (F := Ideal) (ix2 p q) = 0 := by
  unfold k0_pay1
  refine (congrFun (shapeCast_self _ _) (ix2 p q)).trans ?_
  exact Ideal.ofBits_zero_f32

/-- The point's update of the accumulator `a` at an index: `a + (x ⬝ w + b)`. -/
theorem step0_apply (w : Vec Ideal S1x64x64 .f32) (x : Vec Ideal S1x1024x64 .f32) (b : Vec Ideal S1x64 .f32) (a : Vec Ideal S1024x64 .f32)
    (p : Fin 1024) (q : Fin 64) :
    k0_pay2 w x b a (ix2 p q) = a (ix2 p q) + ((∑ k : Fin 64, x (ix3 0 p k) * w (ix3 0 k q)) + b (ix2 0 q)) := by
  unfold k0_pay2
  refine (congrFun (shapeCast_self _ _) (ix2 p q)).trans ?_
  refine (addf_apply _ _ _).trans ?_
  refine congrArg (a (ix2 p q) + ·) ?_
  refine (addf_apply _ _ _).trans ?_
  refine congrArg₂ (· + ·) ?_ ?_
  · refine (matmul0_apply _ _ p q).trans ?_
    refine Finset.sum_congr rfl fun k _ => ?_
    exact congrArg₂ (· * ·) (shapeCast_1ab_ab_apply x _ p k) (shapeCast_1ab_ab_apply w _ k q)
  · refine (broadcastTo_1b_ab_apply _ _ p q).trans ?_
    exact congrFun (shapeCast_shapeCast b _ _) (ix2 0 q)

/-- The stored block at an index: the accumulator, at least zero. -/
theorem relu0_apply (a : Vec Ideal S1024x64 .f32) (p : Fin 1024) (q : Fin 64) :
    k0_pay3 a (ix2 p q) = max (a (ix2 p q)) 0 := by
  unfold k0_pay3
  refine (maximumf_apply _ _ _).trans ?_
  exact congrArg (max (a (ix2 p q))) Ideal.ofBits_zero_f32

/-! ## The arrays and the blocks, at their literal types -/

/-- The aggregates `m : [3, 100352, 64]` as the call finds them. -/
abbrev mArr0 (c : Dev nD) : Vec Ideal S3x100352x64 .f32 := V c (Pipeline.arrRef spec0 0)
/-- The weights `W : [3, 64, 64]`. -/
abbrev wArr0 (c : Dev nD) : Vec Ideal S3x64x64 .f32 := V c (Pipeline.arrRef spec0 1)
/-- The biases `b : [3, 64]`. -/
abbrev bArr0 (c : Dev nD) : Vec Ideal S3x64 .f32 := V c (Pipeline.arrRef spec0 2)
/-- The result array after the call. -/
abbrev oArr0 (c : Dev nD) : Vec Ideal S100352x64 .f32 := (dat0 V c).arrAt 3 cfg0.N

/-- The aggregates' block at point `t`. -/
abbrev xblk0 (c : Dev nD) (t : Fin cfg0.N) : Vec Ideal S1x1024x64 .f32 := iblk0 V c 0 t

/-- The index maps over the grid: point `t` is node block `t / 3`, relation `t % 3`. -/
theorem idx_facts0 : ∀ t : Fin cfg0.N,
    win0_0.index t (0 : Fin 3) = t.val % 3 ∧ win0_0.index t (1 : Fin 3) = t.val / 3 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val / 3 ∧ win0_3.index t (1 : Fin 2) = 0
    ∧ (grid0.coords t 1).val = t.val % 3 :=
  (by decide +kernel : ∀ t : Fin grid0.N, _)

/-- The aggregates' block at point `t` is rows `1024 (t / 3) …` of relation `t % 3`. -/
theorem xblk0_apply (c : Dev nD) (t : Fin cfg0.N) (p : Fin 1024) (k : Fin 64) (r : Fin 3) (n : Fin 100352)
    (hr : r.val = t.val % 3) (hn : n.val = 1024 * (t.val / 3) + p.val) :
    xblk0 V c t (ix3 0 p k) = mArr0 V c (ix3 r n k) := by
  obtain ⟨e0, e1, e2, -⟩ := idx_facts0 t
  show V c (Pipeline.arrRef spec0 0) (((cfg0.win 0).blk t).view.emb (ix3 0 p k)) = V c (Pipeline.arrRef spec0 0) (ix3 r n k)
  refine congrArg (V c (Pipeline.arrRef spec0 0)) (funext fun a => Fin.ext ?_)
  match a with
  | ⟨0, _⟩ => show win0_0.index t (0 : Fin 3) * 1 + 1 * 0 = r.val; omega
  | ⟨1, _⟩ => show win0_0.index t (1 : Fin 3) * 1024 + 1 * p.val = n.val; omega
  | ⟨2, _⟩ => show win0_0.index t (2 : Fin 3) * 64 + 1 * k.val = k.val; omega

/-- The weight slice the body loads at point `t` is `W[t % 3]`. -/
theorem wOf0_apply (c : Dev nD) (t : Fin cfg0.N) (k q : Fin 64) (r : Fin 3) (hr : r.val = t.val % 3) :
    wOf0 V c t (ix3 0 k q) = wArr0 V c (ix3 r k q) := by
  obtain ⟨-, -, -, e0, e1, e2, -, -, -, -, eg⟩ := idx_facts0 t
  have ho := k0_off1_eq (grid0.coords t)
  have ho0 : k0_off1 (grid0.coords t) (0 : Fin 3) = (grid0.coords t 1).val := congrFun ho 0
  have ho1 : k0_off1 (grid0.coords t) (1 : Fin 3) = 0 := congrFun ho 1
  have ho2 : k0_off1 (grid0.coords t) (2 : Fin 3) = 0 := congrFun ho 2
  show V c (Pipeline.arrRef spec0 1) (((cfg0.win 1).blk t).view.emb ((Rect.unit (s := S3x64x64) (k0_off1 (grid0.coords t)) S1x64x64.size (k0_off1_inb (grid0.coords t))).idx (ix3 0 k q))) = V c (Pipeline.arrRef spec0 1) (ix3 r k q)
  refine congrArg (V c (Pipeline.arrRef spec0 1)) (funext fun a => Fin.ext ?_)
  match a with
  | ⟨0, _⟩ => show win0_1.index t (0 : Fin 3) * 3 + 1 * (k0_off1 (grid0.coords t) (0 : Fin 3) + 1 * 0) = r.val; omega
  | ⟨1, _⟩ => show win0_1.index t (1 : Fin 3) * 64 + 1 * (k0_off1 (grid0.coords t) (1 : Fin 3) + 1 * k.val) = k.val; omega
  | ⟨2, _⟩ => show win0_1.index t (2 : Fin 3) * 64 + 1 * (k0_off1 (grid0.coords t) (2 : Fin 3) + 1 * q.val) = q.val; omega

/-- The bias row the body loads at point `t` is `b[t % 3]`. -/
theorem bOf0_apply (c : Dev nD) (t : Fin cfg0.N) (q : Fin 64) (r : Fin 3) (hr : r.val = t.val % 3) :
    bOf0 V c t (ix2 0 q) = bArr0 V c (ix2 r q) := by
  obtain ⟨-, -, -, -, -, -, e0, e1, -, -, eg⟩ := idx_facts0 t
  have ho := k0_off2_eq (grid0.coords t)
  have ho0 : k0_off2 (grid0.coords t) (0 : Fin 2) = (grid0.coords t 1).val := congrFun ho 0
  have ho1 : k0_off2 (grid0.coords t) (1 : Fin 2) = 0 := congrFun ho 1
  show V c (Pipeline.arrRef spec0 2) (((cfg0.win 2).blk t).view.emb ((Rect.unit (s := S3x64) (k0_off2 (grid0.coords t)) S1x64.size (k0_off2_inb (grid0.coords t))).idx (ix2 0 q))) = V c (Pipeline.arrRef spec0 2) (ix2 r q)
  refine congrArg (V c (Pipeline.arrRef spec0 2)) (funext fun a => Fin.ext ?_)
  match a with
  | ⟨0, _⟩ => show win0_2.index t (0 : Fin 2) * 3 + 1 * (k0_off2 (grid0.coords t) (0 : Fin 2) + 1 * 0) = r.val; omega
  | ⟨1, _⟩ => show win0_2.index t (1 : Fin 2) * 64 + 1 * (k0_off2 (grid0.coords t) (1 : Fin 2) + 1 * q.val) = q.val; omega

/-! ## The accumulator over the three points of a node block -/

/-- Relation `r`'s term at row `n`, feature `j`: `Σ_k m[r, n, k] · W[r, k, j] + b[r, j]`. -/
def term0 (c : Dev nD) (r : Fin 3) (n : Fin 100352) (j : Fin 64) : EReal :=
  (∑ k : Fin 64, mArr0 V c (ix3 r n k) * wArr0 V c (ix3 r k j)) + bArr0 V c (ix2 r j)

/-- The body's update at point `t` adds relation `t % 3`'s term at the block's rows. -/
theorem point0_apply (c : Dev nD) (t : Fin cfg0.N) (a : Vec Ideal S1024x64 .f32) (p : Fin 1024) (q : Fin 64) (r : Fin 3) (n : Fin 100352)
    (hr : r.val = t.val % 3) (hn : n.val = 1024 * (t.val / 3) + p.val) :
    k0_pay2 (wOf0 V c t) (xblk0 V c t) (bOf0 V c t) a (ix2 p q) = a (ix2 p q) + term0 V c r n q := by
  refine (step0_apply (wOf0 V c t) (xblk0 V c t) (bOf0 V c t) a p q).trans ?_
  refine congrArg (a (ix2 p q) + ·) ?_
  refine congrArg₂ (· + ·) (Finset.sum_congr rfl fun k _ => ?_) (bOf0_apply V c t q r hr)
  exact congrArg₂ (· * ·) (xblk0_apply V c t p k r n hr hn) (wOf0_apply V c t k q r hr)

/-- After the first point of a node block: relation 0's term. -/
theorem acc0_r0 (c : Dev nD) (t : Fin cfg0.N) (h : t.val % 3 = 0) (p : Fin 1024) (q : Fin 64) (n : Fin 100352)
    (hn : n.val = 1024 * (t.val / 3) + p.val) :
    accAt0 V c t.val t.isLt (ix2 p q) = term0 V c 0 n q := by
  refine (congrFun (accAt0_first V c t h) (ix2 p q)).trans ?_
  refine (point0_apply V c t (k0_pay1 (F := Ideal)) p q 0 n (by show 0 = t.val % 3; omega) hn).trans ?_
  refine (congrArg (· + term0 V c 0 n q) (zero0_apply p q)).trans ?_
  exact zero_add _

/-- After the second: relations 0 and 1. -/
theorem acc0_r1 (c : Dev nD) (t : Fin cfg0.N) (h : t.val % 3 = 1) (p : Fin 1024) (q : Fin 64) (n : Fin 100352)
    (hn : n.val = 1024 * (t.val / 3) + p.val) :
    accAt0 V c t.val t.isLt (ix2 p q) = term0 V c 0 n q + term0 V c 1 n q := by
  have hlt : t.val - 1 < cfg0.N := Nat.lt_of_le_of_lt (Nat.sub_le _ _) t.isLt
  refine (congrFun (accAt0_next V c t (by omega)) (ix2 p q)).trans ?_
  refine (point0_apply V c t (accAt0 V c (t.val - 1) hlt) p q 1 n (by show 1 = t.val % 3; omega) hn).trans ?_
  exact congrArg (· + term0 V c 1 n q)
    (acc0_r0 V c ⟨t.val - 1, hlt⟩ (by show (t.val - 1) % 3 = 0; omega) p q n (by show n.val = 1024 * ((t.val - 1) / 3) + p.val; omega))

/-- After the third: all three. -/
theorem acc0_r2 (c : Dev nD) (t : Fin cfg0.N) (h : t.val % 3 = 2) (p : Fin 1024) (q : Fin 64) (n : Fin 100352)
    (hn : n.val = 1024 * (t.val / 3) + p.val) :
    accAt0 V c t.val t.isLt (ix2 p q) = term0 V c 0 n q + term0 V c 1 n q + term0 V c 2 n q := by
  have hlt : t.val - 1 < cfg0.N := Nat.lt_of_le_of_lt (Nat.sub_le _ _) t.isLt
  refine (congrFun (accAt0_next V c t (by omega)) (ix2 p q)).trans ?_
  refine (point0_apply V c t (accAt0 V c (t.val - 1) hlt) p q 2 n (by show 2 = t.val % 3; omega) hn).trans ?_
  exact congrArg (· + term0 V c 2 n q)
    (acc0_r1 V c ⟨t.val - 1, hlt⟩ (by show (t.val - 1) % 3 = 1; omega) p q n (by show n.val = 1024 * ((t.val - 1) / 3) + p.val; omega))

/-! ## From the blocks to the array -/

/-- What the result array ends holding, index by index. -/
def G0 (c : Dev nD) : Vec Ideal S100352x64 .f32 := fun i =>
  max ((∑ k : Fin 64, mArr0 V c (ix3 0 (i 0) k) * wArr0 V c (ix3 0 k (i 1))) + bArr0 V c (ix2 0 (i 1))
     + (∑ k : Fin 64, mArr0 V c (ix3 1 (i 0) k) * wArr0 V c (ix3 1 k (i 1))) + bArr0 V c (ix2 1 (i 1))
     + (∑ k : Fin 64, mArr0 V c (ix3 2 (i 0) k) * wArr0 V c (ix3 2 k (i 1))) + bArr0 V c (ix2 2 (i 1))) 0

/-- What the last point of a node block stores is the block's rows of `G0`. -/
theorem out0_apply (c : Dev nD) (t : Fin cfg0.N) (h : t.val % 3 = 2) (y : S1024x64.Idx) (i : S100352x64.Idx)
    (h0 : (i 0).val = 1024 * (t.val / 3) + (y 0).val) (h1 : (i 1).val = (y 1).val) :
    k0_pay3 (accAt0 V c t.val t.isLt) y = G0 V c i := by
  obtain ⟨p, q, rfl⟩ : ∃ (p : Fin 1024) (q : Fin 64), y = ix2 p q := ⟨y 0, y 1, eq_ix2 y⟩
  obtain ⟨n, j, rfl⟩ : ∃ (n : Fin 100352) (j : Fin 64), i = ix2 n j := ⟨i 0, i 1, eq_ix2 i⟩
  obtain rfl : j = q := Fin.ext h1
  refine (relu0_apply (accAt0 V c t.val t.isLt) p j).trans ?_
  refine congrArg (max · 0) ?_
  refine (acc0_r2 V c t h p j n h0).trans ?_
  unfold term0
  exact (add_assoc _ _ _).symm.trans (congrArg (fun z => z + _ + _) (add_assoc _ _ _).symm)

/-- What point `t` writes back is block `t` of `G0`. -/
theorem flushed0_eq (c : Dev nD) (t : Fin cfg0.N) (hf : (cfg0.win 3).flush t = true) :
    (dat0 V c).flushed 3 t = ((cfg0.win 3).blk t).view.read (Elt Ideal) (G0 V c) := by
  have h2 : t.val % 3 = 2 := (flush0_3 t).mp hf
  obtain ⟨-, -, -, -, -, -, -, -, e0, e1, -⟩ := idx_facts0 t
  show (cfg0.win 3).cut (grid0.coords t) ((dat0 V c).after 3 t) = _
  rw [after0_3]
  funext y
  show k0_pay3 (accAt0 V c t.val t.isLt) ((cfg0.win 3).xinj (grid0.coords t) y) = G0 V c (((cfg0.win 3).blk t).view.emb y)
  refine out0_apply V c t h2 ((cfg0.win 3).xinj (grid0.coords t) y) (((cfg0.win 3).blk t).view.emb y) ?_ ?_
  · show win0_3.index t (0 : Fin 2) * 1024 + 1 * (y 0).val = 1024 * (t.val / 3) + (y 0).val; omega
  · show win0_3.index t (1 : Fin 2) * 64 + 1 * (y 1).val = (y 1).val; omega

/-- An index of the result array is in point `t`'s block iff each coordinate is in the block's range. -/
theorem mem_blk0 (t : Fin cfg0.N) (i : S100352x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v84).slice (win0_3.rect t)).set ↔ _
  rw [View.set_slice_whole, Rect.mem_set_unit]
  exact Iff.rfl

/-- Row `n` is written by the last point of its node block. -/
theorem cover0 (i : S100352x64.Idx) : ∃ t : Fin cfg0.N, (cfg0.win 3).flush t = true ∧ i ∈ ((cfg0.win 3).blk t).view.set := by
  have hN : cfg0.N = 294 := N_0
  have hi0 : (i 0).val < 100352 := (i 0).isLt
  have hi1 : (i 1).val < 64 := (i 1).isLt
  obtain ⟨t, ht⟩ : ∃ t : Fin cfg0.N, t.val = 3 * ((i 0).val / 1024) + 2 := ⟨⟨3 * ((i 0).val / 1024) + 2, by omega⟩, rfl⟩
  obtain ⟨-, -, -, -, -, -, -, -, e0, e1, -⟩ := idx_facts0 t
  refine ⟨t, (flush0_3 t).mpr (by omega), ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 64 ≤ (i 1).val ∧ (i 1).val < win0_3.index t (1 : Fin 2) * 64 + 64; omega

/-- The result array after the call. -/
theorem final0 (c : Dev nD) : (dat0 V c).arrAt 3 cfg0.N = G0 V c :=
  (dat0 V c).arrAt_eq_of_cover 3 (G0 V c) (fun t hf => flushed0_eq V c t hf) cover0

/-- The result array at row `n`, feature `j`: the three relations' terms added from the left, at least zero. -/
theorem conv0_arr (c : Dev nD) (n : Fin 100352) (j : Fin 64) :
    oArr0 V c (ix2 n j)
      = max ((∑ k : Fin 64, mArr0 V c (ix3 0 n k) * wArr0 V c (ix3 0 k j)) + bArr0 V c (ix2 0 j)
           + (∑ k : Fin 64, mArr0 V c (ix3 1 n k) * wArr0 V c (ix3 1 k j)) + bArr0 V c (ix2 1 j)
           + (∑ k : Fin 64, mArr0 V c (ix3 2 n k) * wArr0 V c (ix3 2 k j)) + bArr0 V c (ix2 2 j)) 0 :=
  congrFun (final0 V c) (ix2 n j)

end Cert.KernelIdeal.HandValue

end
-- ==== Proof.KI.Conv1Value.lean ====
import proofs.«400914_j13511967113603_4_alg».proof.Proof.KI.Conv1
import Idealize.ShloMosaic.Lib.Pipeline.Value
import Idealize.ShloMosaic.Lib.ValueIdx
import Idealize.ShloMosaic.Lib.ValueLayout
import Idealize.ShloMosaic.PureOps.Ideal.Laws

/-! The value of the second convolution call's result array over the extended reals, index by index.

    The grid is 98 × 3, point `t` at node block `t / 3` and relation `t % 3`. Over the three points of a node block
    the accumulator runs through `((0 + (A₀ + b₀)) + (A₁ + b₁)) + (A₂ + b₂)` with
    `A_r[n, j] = Σ_k m[r, n, k] · W[r, k, j]` (a product into a zero accumulator is the plain sum over the contracted
    coordinate), and the third point stores `max(accumulator, 0)` into rows `1024 (t / 3) … 1024 (t / 3) + 1023` of the
    result. Addition of extended reals is associative and `0` is neutral, so the row's value is
    `max(A₀ + b₀ + A₁ + b₁ + A₂ + b₂, 0)`, the additions nested from the left; every row is in exactly the block of
    its node block's third point, so the result array holds that value everywhere. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The body's operations at an index -/

/-- The product's operand indices, axis by axis: the left operand is read at (row, contracted), the right at
    (contracted, column). -/
theorem dot1_lhs_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem dot1_lhs_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem dot1_rhs_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem dot1_rhs_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The product into a zero accumulator, at an index: the sum over the contracted coordinate. -/
theorem matmul1_apply (x : FVec Ideal S1024x64 .f32) (w : FVec Ideal S64x64 .f32) (p : Fin 1024) (q : Fin 64) :
    matmul dot_S1024x64_S64x64_S1024x64_1_0_0_1_n_n none x w (constant (F := Ideal) S1024x64 .f32 0x00000000#32) (ix2 p q)
      = ∑ k : Fin 64, x (ix2 p k) * w (ix2 k q) := by
  simp only [matmul]
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 p q) ((ValueIdx.contrEquiv1 dot_S1024x64_S64x64_S1024x64_1_0_0_1_n_n 64 rfl rfl).symm k) = ix2 p k := funext fun a => Fin.ext (by
    match a with
    | ⟨0, _⟩ => exact dot1_lhs_0 _ _
    | ⟨1, _⟩ => exact (dot1_lhs_1 _ _).trans hk)
  have er : dot_S1024x64_S64x64_S1024x64_1_0_0_1_n_n.rhsIdx (ix2 p q) ((ValueIdx.contrEquiv1 dot_S1024x64_S64x64_S1024x64_1_0_0_1_n_n 64 rfl rfl).symm k) = ix2 k q := funext fun a => Fin.ext (by
    match a with
    | ⟨0, _⟩ => exact (dot1_rhs_0 _ _).trans hk
    | ⟨1, _⟩ => exact dot1_rhs_1 _ _)
  rw [el, er]

/-- The zero block. -/
theorem zero1_apply (p : Fin 1024) (q : Fin 64) : k1_pay1 (F := Ideal) (ix2 p q) = 0 := by
  unfold k1_pay1
  refine (congrFun (shapeCast_self _ _) (ix2 p q)).trans ?_
  exact Ideal.ofBits_zero_f32

/-- The point's update of the accumulator `a` at an index: `a + (x ⬝ w + b)`. -/
theorem step1_apply (w : Vec Ideal S1x64x64 .f32) (x : Vec Ideal S1x1024x64 .f32) (b : Vec Ideal S1x64 .f32) (a : Vec Ideal S1024x64 .f32)
    (p : Fin 1024) (q : Fin 64) :
    k1_pay2 w x b a (ix2 p q) = a (ix2 p q) + ((∑ k : Fin 64, x (ix3 0 p k) * w (ix3 0 k q)) + b (ix2 0 q)) := by
  unfold k1_pay2
  refine (congrFun (shapeCast_self _ _) (ix2 p q)).trans ?_
  refine (addf_apply _ _ _).trans ?_
  refine congrArg (a (ix2 p q) + ·) ?_
  refine (addf_apply _ _ _).trans ?_
  refine congrArg₂ (· + ·) ?_ ?_
  · refine (matmul1_apply _ _ p q).trans ?_
    refine Finset.sum_congr rfl fun k _ => ?_
    exact congrArg₂ (· * ·) (shapeCast_1ab_ab_apply x _ p k) (shapeCast_1ab_ab_apply w _ k q)
  · refine (broadcastTo_1b_ab_apply _ _ p q).trans ?_
    exact congrFun (shapeCast_shapeCast b _ _) (ix2 0 q)

/-- The stored block at an index: the accumulator, at least zero. -/
theorem relu1_apply (a : Vec Ideal S1024x64 .f32) (p : Fin 1024) (q : Fin 64) :
    k1_pay3 a (ix2 p q) = max (a (ix2 p q)) 0 := by
  unfold k1_pay3
  refine (maximumf_apply _ _ _).trans ?_
  exact congrArg (max (a (ix2 p q))) Ideal.ofBits_zero_f32

/-! ## The arrays and the blocks, at their literal types -/

/-- The aggregates `m : [3, 100352, 64]` as the call finds them. -/
abbrev mArr1 (c : Dev nD) : Vec Ideal S3x100352x64 .f32 := V c (Pipeline.arrRef spec1 0)
/-- The weights `W : [3, 64, 64]`. -/
abbrev wArr1 (c : Dev nD) : Vec Ideal S3x64x64 .f32 := V c (Pipeline.arrRef spec1 1)
/-- The biases `b : [3, 64]`. -/
abbrev bArr1 (c : Dev nD) : Vec Ideal S3x64 .f32 := V c (Pipeline.arrRef spec1 2)
/-- The result array after the call. -/
abbrev oArr1 (c : Dev nD) : Vec Ideal S100352x64 .f32 := (dat1 V c).arrAt 3 cfg1.N

/-- The aggregates' block at point `t`. -/
abbrev xblk1 (c : Dev nD) (t : Fin cfg1.N) : Vec Ideal S1x1024x64 .f32 := iblk1 V c 0 t

/-- The index maps over the grid: point `t` is node block `t / 3`, relation `t % 3`. -/
theorem idx_facts1 : ∀ t : Fin cfg1.N,
    win1_0.index t (0 : Fin 3) = t.val % 3 ∧ win1_0.index t (1 : Fin 3) = t.val / 3 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = t.val / 3 ∧ win1_3.index t (1 : Fin 2) = 0
    ∧ (grid1.coords t 1).val = t.val % 3 :=
  (by decide +kernel : ∀ t : Fin grid1.N, _)

/-- The aggregates' block at point `t` is rows `1024 (t / 3) …` of relation `t % 3`. -/
theorem xblk1_apply (c : Dev nD) (t : Fin cfg1.N) (p : Fin 1024) (k : Fin 64) (r : Fin 3) (n : Fin 100352)
    (hr : r.val = t.val % 3) (hn : n.val = 1024 * (t.val / 3) + p.val) :
    xblk1 V c t (ix3 0 p k) = mArr1 V c (ix3 r n k) := by
  obtain ⟨e0, e1, e2, -⟩ := idx_facts1 t
  show V c (Pipeline.arrRef spec1 0) (((cfg1.win 0).blk t).view.emb (ix3 0 p k)) = V c (Pipeline.arrRef spec1 0) (ix3 r n k)
  refine congrArg (V c (Pipeline.arrRef spec1 0)) (funext fun a => Fin.ext ?_)
  match a with
  | ⟨0, _⟩ => show win1_0.index t (0 : Fin 3) * 1 + 1 * 0 = r.val; omega
  | ⟨1, _⟩ => show win1_0.index t (1 : Fin 3) * 1024 + 1 * p.val = n.val; omega
  | ⟨2, _⟩ => show win1_0.index t (2 : Fin 3) * 64 + 1 * k.val = k.val; omega

/-- The weight slice the body loads at point `t` is `W[t % 3]`. -/
theorem wOf1_apply (c : Dev nD) (t : Fin cfg1.N) (k q : Fin 64) (r : Fin 3) (hr : r.val = t.val % 3) :
    wOf1 V c t (ix3 0 k q) = wArr1 V c (ix3 r k q) := by
  obtain ⟨-, -, -, e0, e1, e2, -, -, -, -, eg⟩ := idx_facts1 t
  have ho := k1_off1_eq (grid1.coords t)
  have ho0 : k1_off1 (grid1.coords t) (0 : Fin 3) = (grid1.coords t 1).val := congrFun ho 0
  have ho1 : k1_off1 (grid1.coords t) (1 : Fin 3) = 0 := congrFun ho 1
  have ho2 : k1_off1 (grid1.coords t) (2 : Fin 3) = 0 := congrFun ho 2
  show V c (Pipeline.arrRef spec1 1) (((cfg1.win 1).blk t).view.emb ((Rect.unit (s := S3x64x64) (k1_off1 (grid1.coords t)) S1x64x64.size (k1_off1_inb (grid1.coords t))).idx (ix3 0 k q))) = V c (Pipeline.arrRef spec1 1) (ix3 r k q)
  refine congrArg (V c (Pipeline.arrRef spec1 1)) (funext fun a => Fin.ext ?_)
  match a with
  | ⟨0, _⟩ => show win1_1.index t (0 : Fin 3) * 3 + 1 * (k1_off1 (grid1.coords t) (0 : Fin 3) + 1 * 0) = r.val; omega
  | ⟨1, _⟩ => show win1_1.index t (1 : Fin 3) * 64 + 1 * (k1_off1 (grid1.coords t) (1 : Fin 3) + 1 * k.val) = k.val; omega
  | ⟨2, _⟩ => show win1_1.index t (2 : Fin 3) * 64 + 1 * (k1_off1 (grid1.coords t) (2 : Fin 3) + 1 * q.val) = q.val; omega

/-- The bias row the body loads at point `t` is `b[t % 3]`. -/
theorem bOf1_apply (c : Dev nD) (t : Fin cfg1.N) (q : Fin 64) (r : Fin 3) (hr : r.val = t.val % 3) :
    bOf1 V c t (ix2 0 q) = bArr1 V c (ix2 r q) := by
  obtain ⟨-, -, -, -, -, -, e0, e1, -, -, eg⟩ := idx_facts1 t
  have ho := k1_off2_eq (grid1.coords t)
  have ho0 : k1_off2 (grid1.coords t) (0 : Fin 2) = (grid1.coords t 1).val := congrFun ho 0
  have ho1 : k1_off2 (grid1.coords t) (1 : Fin 2) = 0 := congrFun ho 1
  show V c (Pipeline.arrRef spec1 2) (((cfg1.win 2).blk t).view.emb ((Rect.unit (s := S3x64) (k1_off2 (grid1.coords t)) S1x64.size (k1_off2_inb (grid1.coords t))).idx (ix2 0 q))) = V c (Pipeline.arrRef spec1 2) (ix2 r q)
  refine congrArg (V c (Pipeline.arrRef spec1 2)) (funext fun a => Fin.ext ?_)
  match a with
  | ⟨0, _⟩ => show win1_2.index t (0 : Fin 2) * 3 + 1 * (k1_off2 (grid1.coords t) (0 : Fin 2) + 1 * 0) = r.val; omega
  | ⟨1, _⟩ => show win1_2.index t (1 : Fin 2) * 64 + 1 * (k1_off2 (grid1.coords t) (1 : Fin 2) + 1 * q.val) = q.val; omega

/-! ## The accumulator over the three points of a node block -/

/-- Relation `r`'s term at row `n`, feature `j`: `Σ_k m[r, n, k] · W[r, k, j] + b[r, j]`. -/
def term1 (c : Dev nD) (r : Fin 3) (n : Fin 100352) (j : Fin 64) : EReal :=
  (∑ k : Fin 64, mArr1 V c (ix3 r n k) * wArr1 V c (ix3 r k j)) + bArr1 V c (ix2 r j)

/-- The body's update at point `t` adds relation `t % 3`'s term at the block's rows. -/
theorem point1_apply (c : Dev nD) (t : Fin cfg1.N) (a : Vec Ideal S1024x64 .f32) (p : Fin 1024) (q : Fin 64) (r : Fin 3) (n : Fin 100352)
    (hr : r.val = t.val % 3) (hn : n.val = 1024 * (t.val / 3) + p.val) :
    k1_pay2 (wOf1 V c t) (xblk1 V c t) (bOf1 V c t) a (ix2 p q) = a (ix2 p q) + term1 V c r n q := by
  refine (step1_apply (wOf1 V c t) (xblk1 V c t) (bOf1 V c t) a p q).trans ?_
  refine congrArg (a (ix2 p q) + ·) ?_
  refine congrArg₂ (· + ·) (Finset.sum_congr rfl fun k _ => ?_) (bOf1_apply V c t q r hr)
  exact congrArg₂ (· * ·) (xblk1_apply V c t p k r n hr hn) (wOf1_apply V c t k q r hr)

/-- After the first point of a node block: relation 0's term. -/
theorem acc1_r0 (c : Dev nD) (t : Fin cfg1.N) (h : t.val % 3 = 0) (p : Fin 1024) (q : Fin 64) (n : Fin 100352)
    (hn : n.val = 1024 * (t.val / 3) + p.val) :
    accAt1 V c t.val t.isLt (ix2 p q) = term1 V c 0 n q := by
  refine (congrFun (accAt1_first V c t h) (ix2 p q)).trans ?_
  refine (point1_apply V c t (k1_pay1 (F := Ideal)) p q 0 n (by show 0 = t.val % 3; omega) hn).trans ?_
  refine (congrArg (· + term1 V c 0 n q) (zero1_apply p q)).trans ?_
  exact zero_add _

/-- After the second: relations 0 and 1. -/
theorem acc1_r1 (c : Dev nD) (t : Fin cfg1.N) (h : t.val % 3 = 1) (p : Fin 1024) (q : Fin 64) (n : Fin 100352)
    (hn : n.val = 1024 * (t.val / 3) + p.val) :
    accAt1 V c t.val t.isLt (ix2 p q) = term1 V c 0 n q + term1 V c 1 n q := by
  have hlt : t.val - 1 < cfg1.N := Nat.lt_of_le_of_lt (Nat.sub_le _ _) t.isLt
  refine (congrFun (accAt1_next V c t (by omega)) (ix2 p q)).trans ?_
  refine (point1_apply V c t (accAt1 V c (t.val - 1) hlt) p q 1 n (by show 1 = t.val % 3; omega) hn).trans ?_
  exact congrArg (· + term1 V c 1 n q)
    (acc1_r0 V c ⟨t.val - 1, hlt⟩ (by show (t.val - 1) % 3 = 0; omega) p q n (by show n.val = 1024 * ((t.val - 1) / 3) + p.val; omega))

/-- After the third: all three. -/
theorem acc1_r2 (c : Dev nD) (t : Fin cfg1.N) (h : t.val % 3 = 2) (p : Fin 1024) (q : Fin 64) (n : Fin 100352)
    (hn : n.val = 1024 * (t.val / 3) + p.val) :
    accAt1 V c t.val t.isLt (ix2 p q) = term1 V c 0 n q + term1 V c 1 n q + term1 V c 2 n q := by
  have hlt : t.val - 1 < cfg1.N := Nat.lt_of_le_of_lt (Nat.sub_le _ _) t.isLt
  refine (congrFun (accAt1_next V c t (by omega)) (ix2 p q)).trans ?_
  refine (point1_apply V c t (accAt1 V c (t.val - 1) hlt) p q 2 n (by show 2 = t.val % 3; omega) hn).trans ?_
  exact congrArg (· + term1 V c 2 n q)
    (acc1_r1 V c ⟨t.val - 1, hlt⟩ (by show (t.val - 1) % 3 = 1; omega) p q n (by show n.val = 1024 * ((t.val - 1) / 3) + p.val; omega))

/-! ## From the blocks to the array -/

/-- What the result array ends holding, index by index. -/
def G1 (c : Dev nD) : Vec Ideal S100352x64 .f32 := fun i =>
  max ((∑ k : Fin 64, mArr1 V c (ix3 0 (i 0) k) * wArr1 V c (ix3 0 k (i 1))) + bArr1 V c (ix2 0 (i 1))
     + (∑ k : Fin 64, mArr1 V c (ix3 1 (i 0) k) * wArr1 V c (ix3 1 k (i 1))) + bArr1 V c (ix2 1 (i 1))
     + (∑ k : Fin 64, mArr1 V c (ix3 2 (i 0) k) * wArr1 V c (ix3 2 k (i 1))) + bArr1 V c (ix2 2 (i 1))) 0

/-- What the last point of a node block stores is the block's rows of `G1`. -/
theorem out1_apply (c : Dev nD) (t : Fin cfg1.N) (h : t.val % 3 = 2) (y : S1024x64.Idx) (i : S100352x64.Idx)
    (h0 : (i 0).val = 1024 * (t.val / 3) + (y 0).val) (h1 : (i 1).val = (y 1).val) :
    k1_pay3 (accAt1 V c t.val t.isLt) y = G1 V c i := by
  obtain ⟨p, q, rfl⟩ : ∃ (p : Fin 1024) (q : Fin 64), y = ix2 p q := ⟨y 0, y 1, eq_ix2 y⟩
  obtain ⟨n, j, rfl⟩ : ∃ (n : Fin 100352) (j : Fin 64), i = ix2 n j := ⟨i 0, i 1, eq_ix2 i⟩
  obtain rfl : j = q := Fin.ext h1
  refine (relu1_apply (accAt1 V c t.val t.isLt) p j).trans ?_
  refine congrArg (max · 0) ?_
  refine (acc1_r2 V c t h p j n h0).trans ?_
  unfold term1
  exact (add_assoc _ _ _).symm.trans (congrArg (fun z => z + _ + _) (add_assoc _ _ _).symm)

/-- What point `t` writes back is block `t` of `G1`. -/
theorem flushed1_eq (c : Dev nD) (t : Fin cfg1.N) (hf : (cfg1.win 3).flush t = true) :
    (dat1 V c).flushed 3 t = ((cfg1.win 3).blk t).view.read (Elt Ideal) (G1 V c) := by
  have h2 : t.val % 3 = 2 := (flush1_3 t).mp hf
  obtain ⟨-, -, -, -, -, -, -, -, e0, e1, -⟩ := idx_facts1 t
  show (cfg1.win 3).cut (grid1.coords t) ((dat1 V c).after 3 t) = _
  rw [after1_3]
  funext y
  show k1_pay3 (accAt1 V c t.val t.isLt) ((cfg1.win 3).xinj (grid1.coords t) y) = G1 V c (((cfg1.win 3).blk t).view.emb y)
  refine out1_apply V c t h2 ((cfg1.win 3).xinj (grid1.coords t) y) (((cfg1.win 3).blk t).view.emb y) ?_ ?_
  · show win1_3.index t (0 : Fin 2) * 1024 + 1 * (y 0).val = 1024 * (t.val / 3) + (y 0).val; omega
  · show win1_3.index t (1 : Fin 2) * 64 + 1 * (y 1).val = (y 1).val; omega

/-- An index of the result array is in point `t`'s block iff each coordinate is in the block's range. -/
theorem mem_blk1 (t : Fin cfg1.N) (i : S100352x64.Idx) :
    i ∈ ((cfg1.win 3).blk t).view.set ↔ ∀ a : Fin 2, win1_3.index t a * S1024x64.size a ≤ (i a).val ∧ (i a).val < win1_3.index t a * S1024x64.size a + S1024x64.size a := by
  show i ∈ ((View.whole main_v143).slice (win1_3.rect t)).set ↔ _
  rw [View.set_slice_whole, Rect.mem_set_unit]
  exact Iff.rfl

/-- Row `n` is written by the last point of its node block. -/
theorem cover1 (i : S100352x64.Idx) : ∃ t : Fin cfg1.N, (cfg1.win 3).flush t = true ∧ i ∈ ((cfg1.win 3).blk t).view.set := by
  have hN : cfg1.N = 294 := N_1
  have hi0 : (i 0).val < 100352 := (i 0).isLt
  have hi1 : (i 1).val < 64 := (i 1).isLt
  obtain ⟨t, ht⟩ : ∃ t : Fin cfg1.N, t.val = 3 * ((i 0).val / 1024) + 2 := ⟨⟨3 * ((i 0).val / 1024) + 2, by omega⟩, rfl⟩
  obtain ⟨-, -, -, -, -, -, -, -, e0, e1, -⟩ := idx_facts1 t
  refine ⟨t, (flush1_3 t).mpr (by omega), ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 64 ≤ (i 1).val ∧ (i 1).val < win1_3.index t (1 : Fin 2) * 64 + 64; omega

/-- The result array after the call. -/
theorem final1 (c : Dev nD) : (dat1 V c).arrAt 3 cfg1.N = G1 V c :=
  (dat1 V c).arrAt_eq_of_cover 3 (G1 V c) (fun t hf => flushed1_eq V c t hf) cover1

/-- The result array at row `n`, feature `j`: the three relations' terms added from the left, at least zero. -/
theorem conv1_arr (c : Dev nD) (n : Fin 100352) (j : Fin 64) :
    oArr1 V c (ix2 n j)
      = max ((∑ k : Fin 64, mArr1 V c (ix3 0 n k) * wArr1 V c (ix3 0 k j)) + bArr1 V c (ix2 0 j)
           + (∑ k : Fin 64, mArr1 V c (ix3 1 n k) * wArr1 V c (ix3 1 k j)) + bArr1 V c (ix2 1 j)
           + (∑ k : Fin 64, mArr1 V c (ix3 2 n k) * wArr1 V c (ix3 2 k j)) + bArr1 V c (ix2 2 j)) 0 :=
  congrFun (final1 V c) (ix2 n j)

end Cert.KernelIdeal.HandValue

end
-- ==== Proof.KI.Conv2Value.lean ====
import proofs.«400914_j13511967113603_4_alg».proof.Proof.KI.Conv2
import Idealize.ShloMosaic.Lib.Pipeline.Value
import Idealize.ShloMosaic.Lib.ValueIdx
import Idealize.ShloMosaic.Lib.ValueLayout
import Idealize.ShloMosaic.PureOps.Ideal.Laws

/-! The value of the third convolution call's result array over the extended reals, index by index.

    The grid is 98 × 3, point `t` at node block `t / 3` and relation `t % 3`. Over the three points of a node block
    the accumulator runs through `((0 + (A₀ + b₀)) + (A₁ + b₁)) + (A₂ + b₂)` with
    `A_r[n, j] = Σ_k m[r, n, k] · W[r, k, j]` (a product into a zero accumulator is the plain sum over the contracted
    coordinate), and the third point stores `max(accumulator, 0)` into rows `1024 (t / 3) … 1024 (t / 3) + 1023` of the
    result. Addition of extended reals is associative and `0` is neutral, so the row's value is
    `max(A₀ + b₀ + A₁ + b₁ + A₂ + b₂, 0)`, the additions nested from the left; every row is in exactly the block of
    its node block's third point, so the result array holds that value everywhere. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The body's operations at an index -/

/-- The product's operand indices, axis by axis: the left operand is read at (row, contracted), the right at
    (contracted, column). -/
theorem dot2_lhs_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem dot2_lhs_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem dot2_rhs_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem dot2_rhs_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The product into a zero accumulator, at an index: the sum over the contracted coordinate. -/
theorem matmul2_apply (x : FVec Ideal S1024x64 .f32) (w : FVec Ideal S64x64 .f32) (p : Fin 1024) (q : Fin 64) :
    matmul dot_S1024x64_S64x64_S1024x64_1_0_0_1_n_n none x w (constant (F := Ideal) S1024x64 .f32 0x00000000#32) (ix2 p q)
      = ∑ k : Fin 64, x (ix2 p k) * w (ix2 k q) := by
  simp only [matmul]
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 p q) ((ValueIdx.contrEquiv1 dot_S1024x64_S64x64_S1024x64_1_0_0_1_n_n 64 rfl rfl).symm k) = ix2 p k := funext fun a => Fin.ext (by
    match a with
    | ⟨0, _⟩ => exact dot2_lhs_0 _ _
    | ⟨1, _⟩ => exact (dot2_lhs_1 _ _).trans hk)
  have er : dot_S1024x64_S64x64_S1024x64_1_0_0_1_n_n.rhsIdx (ix2 p q) ((ValueIdx.contrEquiv1 dot_S1024x64_S64x64_S1024x64_1_0_0_1_n_n 64 rfl rfl).symm k) = ix2 k q := funext fun a => Fin.ext (by
    match a with
    | ⟨0, _⟩ => exact (dot2_rhs_0 _ _).trans hk
    | ⟨1, _⟩ => exact dot2_rhs_1 _ _)
  rw [el, er]

/-- The zero block. -/
theorem zero2_apply (p : Fin 1024) (q : Fin 64) : k2_pay1 (F := Ideal) (ix2 p q) = 0 := by
  unfold k2_pay1
  refine (congrFun (shapeCast_self _ _) (ix2 p q)).trans ?_
  exact Ideal.ofBits_zero_f32

/-- The point's update of the accumulator `a` at an index: `a + (x ⬝ w + b)`. -/
theorem step2_apply (w : Vec Ideal S1x64x64 .f32) (x : Vec Ideal S1x1024x64 .f32) (b : Vec Ideal S1x64 .f32) (a : Vec Ideal S1024x64 .f32)
    (p : Fin 1024) (q : Fin 64) :
    k2_pay2 w x b a (ix2 p q) = a (ix2 p q) + ((∑ k : Fin 64, x (ix3 0 p k) * w (ix3 0 k q)) + b (ix2 0 q)) := by
  unfold k2_pay2
  refine (congrFun (shapeCast_self _ _) (ix2 p q)).trans ?_
  refine (addf_apply _ _ _).trans ?_
  refine congrArg (a (ix2 p q) + ·) ?_
  refine (addf_apply _ _ _).trans ?_
  refine congrArg₂ (· + ·) ?_ ?_
  · refine (matmul2_apply _ _ p q).trans ?_
    refine Finset.sum_congr rfl fun k _ => ?_
    exact congrArg₂ (· * ·) (shapeCast_1ab_ab_apply x _ p k) (shapeCast_1ab_ab_apply w _ k q)
  · refine (broadcastTo_1b_ab_apply _ _ p q).trans ?_
    exact congrFun (shapeCast_shapeCast b _ _) (ix2 0 q)

/-- The stored block at an index: the accumulator, at least zero. -/
theorem relu2_apply (a : Vec Ideal S1024x64 .f32) (p : Fin 1024) (q : Fin 64) :
    k2_pay3 a (ix2 p q) = max (a (ix2 p q)) 0 := by
  unfold k2_pay3
  refine (maximumf_apply _ _ _).trans ?_
  exact congrArg (max (a (ix2 p q))) Ideal.ofBits_zero_f32

/-! ## The arrays and the blocks, at their literal types -/

/-- The aggregates `m : [3, 100352, 64]` as the call finds them. -/
abbrev mArr2 (c : Dev nD) : Vec Ideal S3x100352x64 .f32 := V c (Pipeline.arrRef spec2 0)
/-- The weights `W : [3, 64, 64]`. -/
abbrev wArr2 (c : Dev nD) : Vec Ideal S3x64x64 .f32 := V c (Pipeline.arrRef spec2 1)
/-- The biases `b : [3, 64]`. -/
abbrev bArr2 (c : Dev nD) : Vec Ideal S3x64 .f32 := V c (Pipeline.arrRef spec2 2)
/-- The result array after the call. -/
abbrev oArr2 (c : Dev nD) : Vec Ideal S100352x64 .f32 := (dat2 V c).arrAt 3 cfg2.N

/-- The aggregates' block at point `t`. -/
abbrev xblk2 (c : Dev nD) (t : Fin cfg2.N) : Vec Ideal S1x1024x64 .f32 := iblk2 V c 0 t

/-- The index maps over the grid: point `t` is node block `t / 3`, relation `t % 3`. -/
theorem idx_facts2 : ∀ t : Fin cfg2.N,
    win2_0.index t (0 : Fin 3) = t.val % 3 ∧ win2_0.index t (1 : Fin 3) = t.val / 3 ∧ win2_0.index t (2 : Fin 3) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val / 3 ∧ win2_3.index t (1 : Fin 2) = 0
    ∧ (grid2.coords t 1).val = t.val % 3 :=
  (by decide +kernel : ∀ t : Fin grid2.N, _)

/-- The aggregates' block at point `t` is rows `1024 (t / 3) …` of relation `t % 3`. -/
theorem xblk2_apply (c : Dev nD) (t : Fin cfg2.N) (p : Fin 1024) (k : Fin 64) (r : Fin 3) (n : Fin 100352)
    (hr : r.val = t.val % 3) (hn : n.val = 1024 * (t.val / 3) + p.val) :
    xblk2 V c t (ix3 0 p k) = mArr2 V c (ix3 r n k) := by
  obtain ⟨e0, e1, e2, -⟩ := idx_facts2 t
  show V c (Pipeline.arrRef spec2 0) (((cfg2.win 0).blk t).view.emb (ix3 0 p k)) = V c (Pipeline.arrRef spec2 0) (ix3 r n k)
  refine congrArg (V c (Pipeline.arrRef spec2 0)) (funext fun a => Fin.ext ?_)
  match a with
  | ⟨0, _⟩ => show win2_0.index t (0 : Fin 3) * 1 + 1 * 0 = r.val; omega
  | ⟨1, _⟩ => show win2_0.index t (1 : Fin 3) * 1024 + 1 * p.val = n.val; omega
  | ⟨2, _⟩ => show win2_0.index t (2 : Fin 3) * 64 + 1 * k.val = k.val; omega

/-- The weight slice the body loads at point `t` is `W[t % 3]`. -/
theorem wOf2_apply (c : Dev nD) (t : Fin cfg2.N) (k q : Fin 64) (r : Fin 3) (hr : r.val = t.val % 3) :
    wOf2 V c t (ix3 0 k q) = wArr2 V c (ix3 r k q) := by
  obtain ⟨-, -, -, e0, e1, e2, -, -, -, -, eg⟩ := idx_facts2 t
  have ho := k2_off1_eq (grid2.coords t)
  have ho0 : k2_off1 (grid2.coords t) (0 : Fin 3) = (grid2.coords t 1).val := congrFun ho 0
  have ho1 : k2_off1 (grid2.coords t) (1 : Fin 3) = 0 := congrFun ho 1
  have ho2 : k2_off1 (grid2.coords t) (2 : Fin 3) = 0 := congrFun ho 2
  show V c (Pipeline.arrRef spec2 1) (((cfg2.win 1).blk t).view.emb ((Rect.unit (s := S3x64x64) (k2_off1 (grid2.coords t)) S1x64x64.size (k2_off1_inb (grid2.coords t))).idx (ix3 0 k q))) = V c (Pipeline.arrRef spec2 1) (ix3 r k q)
  refine congrArg (V c (Pipeline.arrRef spec2 1)) (funext fun a => Fin.ext ?_)
  match a with
  | ⟨0, _⟩ => show win2_1.index t (0 : Fin 3) * 3 + 1 * (k2_off1 (grid2.coords t) (0 : Fin 3) + 1 * 0) = r.val; omega
  | ⟨1, _⟩ => show win2_1.index t (1 : Fin 3) * 64 + 1 * (k2_off1 (grid2.coords t) (1 : Fin 3) + 1 * k.val) = k.val; omega
  | ⟨2, _⟩ => show win2_1.index t (2 : Fin 3) * 64 + 1 * (k2_off1 (grid2.coords t) (2 : Fin 3) + 1 * q.val) = q.val; omega

/-- The bias row the body loads at point `t` is `b[t % 3]`. -/
theorem bOf2_apply (c : Dev nD) (t : Fin cfg2.N) (q : Fin 64) (r : Fin 3) (hr : r.val = t.val % 3) :
    bOf2 V c t (ix2 0 q) = bArr2 V c (ix2 r q) := by
  obtain ⟨-, -, -, -, -, -, e0, e1, -, -, eg⟩ := idx_facts2 t
  have ho := k2_off2_eq (grid2.coords t)
  have ho0 : k2_off2 (grid2.coords t) (0 : Fin 2) = (grid2.coords t 1).val := congrFun ho 0
  have ho1 : k2_off2 (grid2.coords t) (1 : Fin 2) = 0 := congrFun ho 1
  show V c (Pipeline.arrRef spec2 2) (((cfg2.win 2).blk t).view.emb ((Rect.unit (s := S3x64) (k2_off2 (grid2.coords t)) S1x64.size (k2_off2_inb (grid2.coords t))).idx (ix2 0 q))) = V c (Pipeline.arrRef spec2 2) (ix2 r q)
  refine congrArg (V c (Pipeline.arrRef spec2 2)) (funext fun a => Fin.ext ?_)
  match a with
  | ⟨0, _⟩ => show win2_2.index t (0 : Fin 2) * 3 + 1 * (k2_off2 (grid2.coords t) (0 : Fin 2) + 1 * 0) = r.val; omega
  | ⟨1, _⟩ => show win2_2.index t (1 : Fin 2) * 64 + 1 * (k2_off2 (grid2.coords t) (1 : Fin 2) + 1 * q.val) = q.val; omega

/-! ## The accumulator over the three points of a node block -/

/-- Relation `r`'s term at row `n`, feature `j`: `Σ_k m[r, n, k] · W[r, k, j] + b[r, j]`. -/
def term2 (c : Dev nD) (r : Fin 3) (n : Fin 100352) (j : Fin 64) : EReal :=
  (∑ k : Fin 64, mArr2 V c (ix3 r n k) * wArr2 V c (ix3 r k j)) + bArr2 V c (ix2 r j)

/-- The body's update at point `t` adds relation `t % 3`'s term at the block's rows. -/
theorem point2_apply (c : Dev nD) (t : Fin cfg2.N) (a : Vec Ideal S1024x64 .f32) (p : Fin 1024) (q : Fin 64) (r : Fin 3) (n : Fin 100352)
    (hr : r.val = t.val % 3) (hn : n.val = 1024 * (t.val / 3) + p.val) :
    k2_pay2 (wOf2 V c t) (xblk2 V c t) (bOf2 V c t) a (ix2 p q) = a (ix2 p q) + term2 V c r n q := by
  refine (step2_apply (wOf2 V c t) (xblk2 V c t) (bOf2 V c t) a p q).trans ?_
  refine congrArg (a (ix2 p q) + ·) ?_
  refine congrArg₂ (· + ·) (Finset.sum_congr rfl fun k _ => ?_) (bOf2_apply V c t q r hr)
  exact congrArg₂ (· * ·) (xblk2_apply V c t p k r n hr hn) (wOf2_apply V c t k q r hr)

/-- After the first point of a node block: relation 0's term. -/
theorem acc2_r0 (c : Dev nD) (t : Fin cfg2.N) (h : t.val % 3 = 0) (p : Fin 1024) (q : Fin 64) (n : Fin 100352)
    (hn : n.val = 1024 * (t.val / 3) + p.val) :
    accAt2 V c t.val t.isLt (ix2 p q) = term2 V c 0 n q := by
  refine (congrFun (accAt2_first V c t h) (ix2 p q)).trans ?_
  refine (point2_apply V c t (k2_pay1 (F := Ideal)) p q 0 n (by show 0 = t.val % 3; omega) hn).trans ?_
  refine (congrArg (· + term2 V c 0 n q) (zero2_apply p q)).trans ?_
  exact zero_add _

/-- After the second: relations 0 and 1. -/
theorem acc2_r1 (c : Dev nD) (t : Fin cfg2.N) (h : t.val % 3 = 1) (p : Fin 1024) (q : Fin 64) (n : Fin 100352)
    (hn : n.val = 1024 * (t.val / 3) + p.val) :
    accAt2 V c t.val t.isLt (ix2 p q) = term2 V c 0 n q + term2 V c 1 n q := by
  have hlt : t.val - 1 < cfg2.N := Nat.lt_of_le_of_lt (Nat.sub_le _ _) t.isLt
  refine (congrFun (accAt2_next V c t (by omega)) (ix2 p q)).trans ?_
  refine (point2_apply V c t (accAt2 V c (t.val - 1) hlt) p q 1 n (by show 1 = t.val % 3; omega) hn).trans ?_
  exact congrArg (· + term2 V c 1 n q)
    (acc2_r0 V c ⟨t.val - 1, hlt⟩ (by show (t.val - 1) % 3 = 0; omega) p q n (by show n.val = 1024 * ((t.val - 1) / 3) + p.val; omega))

/-- After the third: all three. -/
theorem acc2_r2 (c : Dev nD) (t : Fin cfg2.N) (h : t.val % 3 = 2) (p : Fin 1024) (q : Fin 64) (n : Fin 100352)
    (hn : n.val = 1024 * (t.val / 3) + p.val) :
    accAt2 V c t.val t.isLt (ix2 p q) = term2 V c 0 n q + term2 V c 1 n q + term2 V c 2 n q := by
  have hlt : t.val - 1 < cfg2.N := Nat.lt_of_le_of_lt (Nat.sub_le _ _) t.isLt
  refine (congrFun (accAt2_next V c t (by omega)) (ix2 p q)).trans ?_
  refine (point2_apply V c t (accAt2 V c (t.val - 1) hlt) p q 2 n (by show 2 = t.val % 3; omega) hn).trans ?_
  exact congrArg (· + term2 V c 2 n q)
    (acc2_r1 V c ⟨t.val - 1, hlt⟩ (by show (t.val - 1) % 3 = 1; omega) p q n (by show n.val = 1024 * ((t.val - 1) / 3) + p.val; omega))

/-! ## From the blocks to the array -/

/-- What the result array ends holding, index by index. -/
def G2 (c : Dev nD) : Vec Ideal S100352x64 .f32 := fun i =>
  max ((∑ k : Fin 64, mArr2 V c (ix3 0 (i 0) k) * wArr2 V c (ix3 0 k (i 1))) + bArr2 V c (ix2 0 (i 1))
     + (∑ k : Fin 64, mArr2 V c (ix3 1 (i 0) k) * wArr2 V c (ix3 1 k (i 1))) + bArr2 V c (ix2 1 (i 1))
     + (∑ k : Fin 64, mArr2 V c (ix3 2 (i 0) k) * wArr2 V c (ix3 2 k (i 1))) + bArr2 V c (ix2 2 (i 1))) 0

/-- What the last point of a node block stores is the block's rows of `G2`. -/
theorem out2_apply (c : Dev nD) (t : Fin cfg2.N) (h : t.val % 3 = 2) (y : S1024x64.Idx) (i : S100352x64.Idx)
    (h0 : (i 0).val = 1024 * (t.val / 3) + (y 0).val) (h1 : (i 1).val = (y 1).val) :
    k2_pay3 (accAt2 V c t.val t.isLt) y = G2 V c i := by
  obtain ⟨p, q, rfl⟩ : ∃ (p : Fin 1024) (q : Fin 64), y = ix2 p q := ⟨y 0, y 1, eq_ix2 y⟩
  obtain ⟨n, j, rfl⟩ : ∃ (n : Fin 100352) (j : Fin 64), i = ix2 n j := ⟨i 0, i 1, eq_ix2 i⟩
  obtain rfl : j = q := Fin.ext h1
  refine (relu2_apply (accAt2 V c t.val t.isLt) p j).trans ?_
  refine congrArg (max · 0) ?_
  refine (acc2_r2 V c t h p j n h0).trans ?_
  unfold term2
  exact (add_assoc _ _ _).symm.trans (congrArg (fun z => z + _ + _) (add_assoc _ _ _).symm)

/-- What point `t` writes back is block `t` of `G2`. -/
theorem flushed2_eq (c : Dev nD) (t : Fin cfg2.N) (hf : (cfg2.win 3).flush t = true) :
    (dat2 V c).flushed 3 t = ((cfg2.win 3).blk t).view.read (Elt Ideal) (G2 V c) := by
  have h2 : t.val % 3 = 2 := (flush2_3 t).mp hf
  obtain ⟨-, -, -, -, -, -, -, -, e0, e1, -⟩ := idx_facts2 t
  show (cfg2.win 3).cut (grid2.coords t) ((dat2 V c).after 3 t) = _
  rw [after2_3]
  funext y
  show k2_pay3 (accAt2 V c t.val t.isLt) ((cfg2.win 3).xinj (grid2.coords t) y) = G2 V c (((cfg2.win 3).blk t).view.emb y)
  refine out2_apply V c t h2 ((cfg2.win 3).xinj (grid2.coords t) y) (((cfg2.win 3).blk t).view.emb y) ?_ ?_
  · show win2_3.index t (0 : Fin 2) * 1024 + 1 * (y 0).val = 1024 * (t.val / 3) + (y 0).val; omega
  · show win2_3.index t (1 : Fin 2) * 64 + 1 * (y 1).val = (y 1).val; omega

/-- An index of the result array is in point `t`'s block iff each coordinate is in the block's range. -/
theorem mem_blk2 (t : Fin cfg2.N) (i : S100352x64.Idx) :
    i ∈ ((cfg2.win 3).blk t).view.set ↔ ∀ a : Fin 2, win2_3.index t a * S1024x64.size a ≤ (i a).val ∧ (i a).val < win2_3.index t a * S1024x64.size a + S1024x64.size a := by
  show i ∈ ((View.whole main_v202).slice (win2_3.rect t)).set ↔ _
  rw [View.set_slice_whole, Rect.mem_set_unit]
  exact Iff.rfl

/-- Row `n` is written by the last point of its node block. -/
theorem cover2 (i : S100352x64.Idx) : ∃ t : Fin cfg2.N, (cfg2.win 3).flush t = true ∧ i ∈ ((cfg2.win 3).blk t).view.set := by
  have hN : cfg2.N = 294 := N_2
  have hi0 : (i 0).val < 100352 := (i 0).isLt
  have hi1 : (i 1).val < 64 := (i 1).isLt
  obtain ⟨t, ht⟩ : ∃ t : Fin cfg2.N, t.val = 3 * ((i 0).val / 1024) + 2 := ⟨⟨3 * ((i 0).val / 1024) + 2, by omega⟩, rfl⟩
  obtain ⟨-, -, -, -, -, -, -, -, e0, e1, -⟩ := idx_facts2 t
  refine ⟨t, (flush2_3 t).mpr (by omega), ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 64 ≤ (i 1).val ∧ (i 1).val < win2_3.index t (1 : Fin 2) * 64 + 64; omega

/-- The result array after the call. -/
theorem final2 (c : Dev nD) : (dat2 V c).arrAt 3 cfg2.N = G2 V c :=
  (dat2 V c).arrAt_eq_of_cover 3 (G2 V c) (fun t hf => flushed2_eq V c t hf) cover2

/-- The result array at row `n`, feature `j`: the three relations' terms added from the left, at least zero. -/
theorem conv2_arr (c : Dev nD) (n : Fin 100352) (j : Fin 64) :
    oArr2 V c (ix2 n j)
      = max ((∑ k : Fin 64, mArr2 V c (ix3 0 n k) * wArr2 V c (ix3 0 k j)) + bArr2 V c (ix2 0 j)
           + (∑ k : Fin 64, mArr2 V c (ix3 1 n k) * wArr2 V c (ix3 1 k j)) + bArr2 V c (ix2 1 j)
           + (∑ k : Fin 64, mArr2 V c (ix3 2 n k) * wArr2 V c (ix3 2 k j)) + bArr2 V c (ix2 2 j)) 0 :=
  congrFun (final2 V c) (ix2 n j)

end Cert.KernelIdeal.HandValue

end
-- ==== Proof.KI.Score3Value.lean ====
import proofs.«400914_j13511967113603_4_alg».proof.Proof.KI.Score3
import Idealize.ShloMosaic.Lib.Pipeline.Value
import Idealize.ShloMosaic.Lib.ValueIdx
import Idealize.ShloMosaic.PureOps.Ideal.Laws

/-! # The last pipeline's result array at the ideal values, index by index

With the float family the ideal values (the extended reals), the array the region's write-backs leave holds at row `i`
the sum over the 64 lanes `k` of `rs[i,k]·rd[i,k]`, the two input arrays read as the region finds them: the payload
at a row is the lane sum of the products; point `t`'s write-back is block `t` of that function of the input arrays
(each window's block index is the grid point); row `i` lies in the block of point `i / 8192`, so the blocks cover
the array. -/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

theorem hz2 : (![0, 0] : Fin 2 → Nat) = fun _ => 0 := funext fun a => by fin_cases a <;> rfl
theorem hz1 : (![0] : Fin 1 → Nat) = fun _ => 0 := funext fun a => by fin_cases a; rfl

/-! ## The payload at a row -/

/-- The payload at row `r` of a block: the sum over the 64 lanes of the products (a lane sum at the ideal values is
    the `Fin`-indexed sum; the shape casts are identities; the product is pointwise). -/
theorem pay_apply (x0 x1 : Vec Ideal S8192x64 .f32) (r : Fin 8192) :
    k3_pay1 x0 x1 (ix1 r) = ∑ k : Fin 64, x0 (ix2 r k) * x1 (ix2 r k) := by
  unfold k3_pay1
  simp only [shapeCast_self]
  refine (Ideal.multiReduction_add_single _ 0x00000000#32 reduces_S8192x64_S8192 (.inl rfl) rfl (ix1 r)).trans ?_
  refine Finset.sum_congr rfl fun k _ => ?_
  rw [mulf_apply]
  have e : reduces_S8192x64_S8192.lift (ix1 r) k = ix2 r k := by
    funext a; apply Fin.ext
    match a with
    | ⟨0, _⟩ => rfl
    | ⟨1, _⟩ => rfl
  rw [e]
  rfl

/-! ## The windows' index maps -/

/-- Each window's block index along the rows is the grid point, and the inputs' along the lanes is 0 (decided over
    the 123 points). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = t.val :=
  (by decide +kernel : ∀ t : Fin grid3.N, _)

section Region3
variable (V : (c : Dev nD) → (b : Ref sig .tc) → Buf (Elt Ideal) ((c : Thread nD τ).loc b))

/-- Input window 0's block at point `t`, at row `r` and lane `k`: its array at row `8192·t + r`, lane `k`. -/
theorem iblk0_apply (c : Dev nD) (t : Fin cfg3.N) (r : Fin 8192) (k : Fin 64) (i : S1007616x64.Idx)
    (hi0 : (i 0).val = 8192 * t.val + r.val) (hi1 : (i 1).val = k.val) :
    (iblk3 V c 0 t : Vec Ideal S8192x64 .f32) (ix2 r k) = (V c (Pipeline.arrRef spec3 0) : S1007616x64.Idx → Elt Ideal .f32) i := by
  obtain ⟨e0, e1, -, -, -⟩ := idx_facts t
  unfold iblk3
  rw [View.read_apply]
  refine congrArg (V c (Pipeline.arrRef spec3 0) : S1007616x64.Idx → Elt Ideal .f32) (funext fun a => Fin.ext ?_)
  match a with
  | ⟨0, _⟩ => show win3_0.index t 0 * 8192 + 1 * r.val = (i 0).val; rw [e0, hi0]; omega
  | ⟨1, _⟩ => show win3_0.index t 1 * 64 + 1 * k.val = (i 1).val; rw [e1, hi1]; omega

/-- Input window 1's likewise. -/
theorem iblk1_apply (c : Dev nD) (t : Fin cfg3.N) (r : Fin 8192) (k : Fin 64) (i : S1007616x64.Idx)
    (hi0 : (i 0).val = 8192 * t.val + r.val) (hi1 : (i 1).val = k.val) :
    (iblk3 V c 1 t : Vec Ideal S8192x64 .f32) (ix2 r k) = (V c (Pipeline.arrRef spec3 1) : S1007616x64.Idx → Elt Ideal .f32) i := by
  obtain ⟨-, -, e0, e1, -⟩ := idx_facts t
  unfold iblk3
  rw [View.read_apply]
  refine congrArg (V c (Pipeline.arrRef spec3 1) : S1007616x64.Idx → Elt Ideal .f32) (funext fun a => Fin.ext ?_)
  match a with
  | ⟨0, _⟩ => show win3_1.index t 0 * 8192 + 1 * r.val = (i 0).val; rw [e0, hi0]; omega
  | ⟨1, _⟩ => show win3_1.index t 1 * 64 + 1 * k.val = (i 1).val; rw [e1, hi1]; omega

/-! ## The result as one function of the input arrays -/

/-- Row `i` of two [1007616, 64] arrays multiplied lane by lane and summed over the 64 lanes. -/
abbrev rowDot (a0 a1 : S1007616x64.Idx → Elt Ideal .f32) (i : Fin 1007616) : Elt Ideal .f32 :=
  ∑ k : Fin 64, a0 (ix2 i k) * a1 (ix2 i k)

/-- The result array as one function of the two input arrays: row `i` holds their `rowDot` at `i`. -/
abbrev score (a0 a1 : S1007616x64.Idx → Elt Ideal .f32) : S1007616.Idx → Elt Ideal .f32 :=
  fun i => rowDot a0 a1 (i 0)

/-- What point `t` writes back is block `t` of `score` of the input arrays as the region finds them. -/
theorem flushed_eq (c : Dev nD) (t : Fin cfg3.N) :
    (dat3 V c).flushed 2 t = ((cfg3.win 2).blk t).view.read (Elt Ideal) (score (V c (Pipeline.arrRef spec3 0)) (V c (Pipeline.arrRef spec3 1))) := by
  show (cfg3.win 2).cut (grid3.coords t) ((dat3 V c).after 2 t) = _
  rw [after3_2]
  unfold out3_2
  rw [View.canon_unit_zero hz1]
  simp only [View.ld_unit_zero (S := S8192x64) hz2]
  obtain ⟨-, -, -, -, e4⟩ := idx_facts t
  funext j
  obtain ⟨r, rfl⟩ : ∃ r : Fin 8192, j = ix1 r := ⟨j 0, eq_ix1 j⟩
  refine (pay_apply _ _ r).trans ?_
  rw [View.read_apply]
  refine Finset.sum_congr rfl fun k _ => ?_
  have hr : ((((cfg3.win 2).blk t).view.emb (ix1 r)) 0).val = 8192 * t.val + r.val := by
    show win3_2.index t 0 * 8192 + 1 * r.val = _; rw [e4]; omega
  rw [iblk0_apply V c t r k (ix2 (n0 := 1007616) (n1 := 64) ((((cfg3.win 2).blk t).view.emb (ix1 r)) 0) k) hr rfl,
    iblk1_apply V c t r k (ix2 (n0 := 1007616) (n1 := 64) ((((cfg3.win 2).blk t).view.emb (ix1 r)) 0) k) hr rfl]

/-- An index of the array is in point `t`'s block iff its coordinate is in the block's range. -/
theorem mem_blk (t : Fin cfg3.N) (i : S1007616.Idx) :
    i ∈ ((cfg3.win 2).blk t).view.set ↔ ∀ a : Fin 1, win3_2.index t a * S8192.size a ≤ (i a).val ∧ (i a).val < win3_2.index t a * S8192.size a + S8192.size a := by
  show i ∈ ((View.whole main_v210).slice (win3_2.rect t)).set ↔ _
  rw [View.set_slice_whole, Rect.mem_set_unit]
  exact Iff.rfl

/-- Row `i` is in the block of point `i / 8192`, which writes back: the blocks cover the array. -/
theorem cover (i : S1007616.Idx) : ∃ t : Fin cfg3.N, (cfg3.win 2).flush t = true ∧ i ∈ ((cfg3.win 2).blk t).view.set := by
  have hi : (i 0).val < 1007616 := (i 0).isLt
  have hN : cfg3.N = 123 := N_3
  refine ⟨⟨(i 0).val / 8192, by rw [hN]; omega⟩, flush3_2 _, ?_⟩
  rw [mem_blk]
  intro a
  obtain ⟨-, -, -, -, e⟩ := idx_facts ⟨(i 0).val / 8192, by rw [hN]; omega⟩
  match a with
  | ⟨0, _⟩ =>
    show win3_2.index _ (0 : Fin 1) * 8192 ≤ (i 0).val ∧ (i 0).val < win3_2.index _ (0 : Fin 1) * 8192 + 8192
    rw [e]
    show (i 0).val / 8192 * 8192 ≤ (i 0).val ∧ (i 0).val < (i 0).val / 8192 * 8192 + 8192
    omega

/-- So the result array after the region's last point is `score` of the input arrays. -/
theorem final (c : Dev nD) :
    (dat3 V c).arrAt 2 cfg3.N = score (V c (Pipeline.arrRef spec3 0)) (V c (Pipeline.arrRef spec3 1)) :=
  (dat3 V c).arrAt_eq_of_cover 2 _ (fun t _ => flushed_eq V c t) cover

/-- The region's result array read at row `i`: the sum over the 64 lanes of the products of the two input arrays
    at that row, as the region finds them. -/
theorem score_arr (c : Dev nD) (i : Fin 1007616) :
    (dat3 V c).arrAt 2 cfg3.N (ix1 i) = rowDot (V c (Pipeline.arrRef spec3 0)) (V c (Pipeline.arrRef spec3 1)) i := by
  rw [final V c]

/-- The same with the two input arrays named at their literal shape: the explicit sum. -/
theorem score_arr_of (c : Dev nD) (a0 a1 : S1007616x64.Idx → Elt Ideal .f32)
    (h0 : V c (Pipeline.arrRef spec3 0) = a0) (h1 : V c (Pipeline.arrRef spec3 1) = a1) (i : Fin 1007616) :
    (dat3 V c).arrAt 2 cfg3.N (ix1 i) = ∑ k : Fin 64, a0 (ix2 i k) * a1 (ix2 i k) := by
  rw [score_arr V c i, h0, h1]

end Region3

end Cert.KernelIdeal.HandValue

end
-- ==== Proof.Spec.lean ====
/-
  The mathematics both programs compute, index by index, over plain index types.

  Three rounds of a relational graph convolution over N = 100000 nodes with D = 64 features and three relations of
  E = 1000000 edges each, followed by a dot-product score on 500000 node pairs.  For relation r and node n the
  in-degree is the number of edges of r whose destination word, read signed, is n; the normaliser is 1 / max(1, degree).
  A round maps features h to
      h'(n, j) = max(Σ_r (Σ_k a_r(n, k) · W(r, k, j) + b(r, j)), 0),   a_r(n, k) = (Σ_{e → n} h(row(src_r e), k)) · dinv_r(n),
  the outer sum taken relation by relation from the left, and the score of a pair (u, v) is Σ_k h(row u, k) · h(row v, k).
  A source word names its row the way an indexing expression does: a negative word is first shifted by N, and the
  result is clamped into [0, N - 1]; for a word already in [0, N) it is the word itself.
-/
import Idealize.ShloMosaic.PureOps.Ideal
import Idealize.ShloMosaic.PureOps.Ideal.Laws

noncomputable section

namespace Cert.Spec

open Idealize.ShloMosaic

/-- The value of the float word 1.0. -/
def oneE : EReal := Ideal.ofBits .f32 0x3F800000#32

/-- A negative index word shifted by the table's height; any other word unchanged. -/
def wrapWord (w : BitVec 32) : BitVec 32 := if w.slt 0#32 then w + 100000#32 else w

/-- The row an index word names: shifted if negative, then clamped into the table. -/
def rowRef (w : BitVec 32) : Fin 100000 := ⟨min (wrapWord w).toInt.toNat 99999, by omega⟩

/-- A word already in range names its own row. -/
theorem rowRef_of_range (w : BitVec 32) (h0 : 0 ≤ w.toInt) (h1 : w.toInt < 100000) : (rowRef w).val = w.toInt.toNat := by
  have hs : w.slt 0#32 = false := by
    simp only [BitVec.slt, BitVec.toInt_zero]
    exact decide_eq_false (by omega)
  simp only [rowRef, wrapWord, hs]
  simp only [Bool.false_eq_true, if_false]
  omega

variable (src dst : Fin 3 → Fin 1000000 → BitVec 32)

/-- The normaliser of node n under relation r: one over the in-degree, the in-degree raised to at least one. -/
def dinv (r : Fin 3) (n : Fin 100000) : EReal :=
  Ideal.div oneE (max oneE (∑ _e ∈ Finset.univ.filter (fun e : Fin 1000000 => (dst r e).toInt = (n.val : ℤ)), oneE))

/-- The normalised aggregate of relation r at node n, feature k. -/
def agg (h : Fin 100000 → Fin 64 → EReal) (r : Fin 3) (n : Fin 100000) (k : Fin 64) : EReal :=
  (∑ e ∈ Finset.univ.filter (fun e : Fin 1000000 => (dst r e).toInt = (n.val : ℤ)), h (rowRef (src r e)) k) * dinv dst r n

/-- One round. -/
def layerS (W : Fin 3 → Fin 64 → Fin 64 → EReal) (b : Fin 3 → Fin 64 → EReal) (h : Fin 100000 → Fin 64 → EReal)
    (n : Fin 100000) (j : Fin 64) : EReal :=
  max ((∑ k : Fin 64, agg src dst h 0 n k * W 0 k j) + b 0 j + (∑ k : Fin 64, agg src dst h 1 n k * W 1 k j) + b 1 j
    + (∑ k : Fin 64, agg src dst h 2 n k * W 2 k j) + b 2 j) 0

/-- The score of pair i. -/
def scoreS (h : Fin 100000 → Fin 64 → EReal) (u v : Fin 500000 → BitVec 32) (i : Fin 500000) : EReal :=
  ∑ k : Fin 64, h (rowRef (u i)) k * h (rowRef (v i)) k

/-- The features after the three rounds. -/
def feat3 (x : Fin 100000 → Fin 64 → EReal) (W1 : Fin 3 → Fin 64 → Fin 64 → EReal) (b1 : Fin 3 → Fin 64 → EReal)
    (W2 : Fin 3 → Fin 64 → Fin 64 → EReal) (b2 : Fin 3 → Fin 64 → EReal)
    (W3 : Fin 3 → Fin 64 → Fin 64 → EReal) (b3 : Fin 3 → Fin 64 → EReal) : Fin 100000 → Fin 64 → EReal :=
  layerS src dst W3 b3 (layerS src dst W2 b2 (layerS src dst W1 b1 x))

end Cert.Spec

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.KI.StretchLib.lean ====
/-
  The normalised aggregates of a relational graph convolution, read at an index.

  One relation's table: the source words of the relation's edges (row r of the [3, E] source table; a negative word
  shifted by the padded height) select rows of an [N, C] table; the selected rows are summed into the rows their
  destination words name (a word outside [0, N) dropped), starting from zero; row n of the sum is multiplied by the
  relation's normaliser at n.  At (n, c) that is
      (Σ_{e : dst_r(e) = n} table(row(src_r(e)), c)) · norm(r, n, 0),
  row(w) the word shifted if negative and clamped into [0, N - 1] — for a word in [0, 100000) the word itself.  The three
  relations' tables are stacked along a new leading axis.  When the source words are in range, the table's first
  100000 rows are the features and the normaliser's rows are the specification's normalisers, the stack at (r, n, k),
  n a node, is the specification's normalised aggregate.

  Before that, two facts about running a list of host operations: a three-operand operation's result with each
  operand read at its own buffer, and a list run as a prefix and then the rest.
-/
import proofs.«400914_j13511967113603_4_alg».proof.Proof.Spec
import proofs.«400914_j13511967113603_4_alg».proof.Proof.LibRowOps
import proofs.«400914_j13511967113603_4_alg».proof.Proof.Gen.KernelIdeal
import Idealize.ShloMosaic.Lib.ValueIdx
import Idealize.ShloMosaic.Lib.ValueLayout
import Idealize.ShloMosaic.Lib.Pipeline.Value
import Idealize.ShloMosaic.Lib.Pipeline.Frame
import Idealize.ShloMosaic.Lib.StableHlo.Run
import Idealize.ShloMosaic.PureOps.Ideal.Laws

noncomputable section

namespace Idealize.ShloMosaic.StableHlo

variable {τ : Topo} {sig : RefSig} {Val : EltTy → Type} {x a b y : Ref sig .tc}

/-- `nary` over a literal family of three references: the result with each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

namespace Idealize.ShloMosaic.StableHlo

variable {τ : Topo} {sig : RefSig} {Val : EltTy → Type}

/-- A list of operations run as its first `n` and then the rest. -/
theorem after_take_drop (n : Nat) (l : List (HloOp τ sig Val)) (W : Valuation τ sig Val) :
    after l W = after (l.drop n) (after (l.take n) W) := by
  rw [← StableHlo.after_append, List.take_append_drop]

end Idealize.ShloMosaic.StableHlo

namespace Cert.KernelIdeal.HandValue

open Idealize.ShloMosaic Idealize.ShloMosaic.ValueIdx Idealize.ShloMosaic.RowOps
open Cert.KernelIdeal Cert.KernelIdeal.Gen

/-- The source words of one relation (row `off 0` of the edge table), a negative word shifted by the padded height,
    as a column of start indices. -/
def srcIdx (off : Fin 2 → Nat) (hs : S3x1000000.Slices off S1x1000000) (src : IVec S3x1000000 32) : IVec S1000000x1 32 :=
  broadcastInDim S1000000x1 ![0] bcast_S1000000_S1000000x1_0
    (select
      (cmpi .slt (shapeCast S1000000 (extractStridedSlice S1x1000000 off src hs) shapeCasts_S1x1000000_S1000000)
        (broadcastInDim S1000000 ![] bcast_S_S1000000 (constantI S_ 32 0#32)))
      (addi (shapeCast S1000000 (extractStridedSlice S1x1000000 off src hs) shapeCasts_S1x1000000_S1000000)
        (broadcastInDim S1000000 ![] bcast_S_S1000000 (constantI S_ 32 100352#32)))
      (shapeCast S1000000 (extractStridedSlice S1x1000000 off src hs) shapeCasts_S1x1000000_S1000000))

/-- The destination words of one relation, as a column of scatter indices. -/
def dstIdx (off : Fin 2 → Nat) (hs : S3x1000000.Slices off S1x1000000) (dst : IVec S3x1000000 32) : IVec S1000000x1 32 :=
  broadcastInDim S1000000x1 ![0] bcast_S1000000_S1000000x1_0
    (shapeCast S1000000 (extractStridedSlice S1x1000000 off dst hs) shapeCasts_S1x1000000_S1000000)

/-- The normaliser of one relation, repeated along the features. -/
def normRow (off : Fin 3 → Nat) (hs : S3x100352x1.Slices off S1x100352x1) (D : FVec Ideal S3x100352x1 .f32) :
    FVec Ideal S100352x64 .f32 :=
  broadcastInDim S100352x64 ![0, 1] bcast_S100352x1_S100352x64_0_1
    (shapeCast S100352x1 (extractStridedSlice S1x100352x1 off D hs) shapeCasts_S1x100352x1_S100352x1)

/-- One relation's normalised aggregate: the gathered source rows, summed into their destination rows, times the
    normaliser. -/
def relAgg (off : Fin 2 → Nat) (hs : S3x1000000.Slices off S1x1000000) (off3 : Fin 3 → Nat)
    (hs3 : S3x100352x1.Slices off3 S1x100352x1) (src dst : IVec S3x1000000 32) (H : FVec Ideal S100352x64 .f32)
    (D : FVec Ideal S3x100352x1 .f32) : FVec Ideal S100352x64 .f32 :=
  mulf
    (Host.scatterAdd scatter_S100352x64_S1000000x1_S1000000x64_1_0_0_1
      (broadcastInDim S100352x64 ![] bcast_S_S100352x64 (constant S_ .f32 0x00000000#32))
      (dstIdx off hs dst)
      (Host.gather gather_S100352x64_S1000000x1_S1000000x64_1_0_n_n_0_1_164 H (srcIdx off hs src)))
    (normRow off3 hs3 D)

/-! ## Words -/

/-- The row a source word names in the padded table: shifted by the padded height if negative, then clamped. -/
def kRow (w : BitVec 32) : Fin 100352 :=
  ⟨min (Scalar.select (IntOp.cmpi .slt w 0#32) (IntOp.addi w 100352#32) w).toInt.toNat (100352 - 1), by omega⟩

/-- A word in [0, 100000) names its own row. -/
theorem kRow_of_range (w : BitVec 32) (h0 : 0 ≤ w.toInt) (h1 : w.toInt < 100000) : (kRow w).val = w.toInt.toNat := by
  have hs : w.slt 0#32 = false := by
    simp only [BitVec.slt, BitVec.toInt_zero]
    exact decide_eq_false (by omega)
  have hsel : Scalar.select (IntOp.cmpi .slt w 0#32) (IntOp.addi w 100352#32) w = w := by
    unfold Scalar.select IntOp.cmpi
    simp only [hs]
    rfl
  show min (Scalar.select (IntOp.cmpi .slt w 0#32) (IntOp.addi w 100352#32) w).toInt.toNat (100352 - 1) = w.toInt.toNat
  rw [hsel]
  omega

/-! ## The pieces read at an index -/

/-- Row `r` of the edge table, as a vector, read at `e`. -/
theorem edgeRow_apply (off : Fin 2 → Nat) (hs : S3x1000000.Slices off S1x1000000) (t : IVec S3x1000000 32)
    (r : Fin 3) (h0 : off 0 = r.val) (h1 : off 1 = 0) (e : Fin 1000000) :
    shapeCast S1000000 (extractStridedSlice S1x1000000 off t hs) shapeCasts_S1x1000000_S1000000 (ix1 e) = t (ix2 r e) := by
  rw [shapeCast_1a_a_apply]
  exact extractStridedSlice_apply off t hs (ix2 (0 : Fin 1) e) (ix2 r e) (fun a => by
    match a with
    | ⟨0, _⟩ => show r.val = off 0 + 0; omega
    | ⟨1, _⟩ => show e.val = off 1 + e.val; omega)

/-- The start index of edge `e`: its source word, shifted if negative. -/
theorem srcIdx_apply (off : Fin 2 → Nat) (hs : S3x1000000.Slices off S1x1000000) (src : IVec S3x1000000 32)
    (r : Fin 3) (h0 : off 0 = r.val) (h1 : off 1 = 0) (e : Fin 1000000) :
    srcIdx off hs src (ix2 e (0 : Fin 1))
      = Scalar.select (IntOp.cmpi .slt (src (ix2 r e)) 0#32) (IntOp.addi (src (ix2 r e)) 100352#32) (src (ix2 r e)) := by
  unfold srcIdx
  rw [broadcastInDim_apply ![0] _ _ (ix2 e (0 : Fin 1)) (ix1 e) (fun a => by match a with | ⟨0, _⟩ => rfl)]
  show Scalar.select (IntOp.cmpi .slt
      (shapeCast S1000000 (extractStridedSlice S1x1000000 off src hs) shapeCasts_S1x1000000_S1000000 (ix1 e)) 0#32)
    (IntOp.addi (shapeCast S1000000 (extractStridedSlice S1x1000000 off src hs) shapeCasts_S1x1000000_S1000000 (ix1 e)) 100352#32)
    (shapeCast S1000000 (extractStridedSlice S1x1000000 off src hs) shapeCasts_S1x1000000_S1000000 (ix1 e)) = _
  rw [edgeRow_apply off hs src r h0 h1 e]

/-- The scatter index of edge `e`: its destination word. -/
theorem dstIdx_apply (off : Fin 2 → Nat) (hs : S3x1000000.Slices off S1x1000000) (dst : IVec S3x1000000 32)
    (r : Fin 3) (h0 : off 0 = r.val) (h1 : off 1 = 0) (e : Fin 1000000) :
    dstIdx off hs dst (ix2 e (0 : Fin 1)) = dst (ix2 r e) := by
  unfold dstIdx
  rw [broadcastInDim_apply ![0] _ _ (ix2 e (0 : Fin 1)) (ix1 e) (fun a => by match a with | ⟨0, _⟩ => rfl)]
  exact edgeRow_apply off hs dst r h0 h1 e

/-- The normaliser of relation `r` at row `n`, whatever the feature. -/
theorem normRow_apply (off : Fin 3 → Nat) (hs : S3x100352x1.Slices off S1x100352x1) (D : FVec Ideal S3x100352x1 .f32)
    (r : Fin 3) (h0 : off 0 = r.val) (h1 : off 1 = 0) (h2 : off 2 = 0) (n : Fin 100352) (c : Fin 64) :
    normRow off hs D (ix2 n c) = D (ix3 r n (0 : Fin 1)) := by
  unfold normRow
  rw [broadcastInDim_apply ![0, 1] _ _ (ix2 n c) (ix2 n (0 : Fin 1)) (fun a => by
    match a with
    | ⟨0, _⟩ => rfl
    | ⟨1, _⟩ => rfl)]
  rw [shapeCast_1ab_ab_apply]
  exact extractStridedSlice_apply off D hs (ix3 (0 : Fin 1) n (0 : Fin 1)) (ix3 r n (0 : Fin 1)) (fun a => by
    match a with
    | ⟨0, _⟩ => show r.val = off 0 + 0; omega
    | ⟨1, _⟩ => show n.val = off 1 + n.val; omega
    | ⟨2, _⟩ => show 0 = off 2 + 0; omega)

/-- The row scatter-add of this program read at (n, c). -/
theorem scatterRows_apply (x : FVec Ideal S100352x64 .f32) (idx : IVec S1000000x1 32) (upd : FVec Ideal S1000000x64 .f32)
    (n : Fin 100352) (c : Fin 64) :
    Host.scatterAdd scatter_S100352x64_S1000000x1_S1000000x64_1_0_0_1 x idx upd (ix2 n c)
      = x (ix2 n c) + ∑ e ∈ Finset.univ.filter (fun e : Fin 1000000 => (idx (ix2 e (0 : Fin 1))).toInt = (n.val : ℤ)),
          upd (ix2 e c) := by
  unfold Host.scatterAdd
  rw [Ideal.hostScatterAdd_def]
  exact rowScatterAdd_apply scatter_S100352x64_S1000000x1_S1000000x64_1_0_0_1_wf x idx upd n c

/-- The row gather of this program read at (e, c). -/
theorem gatherRows_apply (H : FVec Ideal S100352x64 .f32) (idx : IVec S1000000x1 32) (e : Fin 1000000) (c : Fin 64) :
    Host.gather gather_S100352x64_S1000000x1_S1000000x64_1_0_n_n_0_1_164 H idx (ix2 e c)
      = H (ix2 (⟨min (idx (ix2 e (0 : Fin 1))).toInt.toNat (100352 - 1), by omega⟩ : Fin 100352) c) :=
  rowGather_apply (by decide) gather_S100352x64_S1000000x1_S1000000x64_1_0_n_n_0_1_164_wf H idx e c

/-- One relation's aggregate at row `n`, feature `c`: the sum, over the edges sent to `n`, of the table at the
    edge's source row, times the normaliser. -/
theorem relAgg_apply (off : Fin 2 → Nat) (hs : S3x1000000.Slices off S1x1000000) (off3 : Fin 3 → Nat)
    (hs3 : S3x100352x1.Slices off3 S1x100352x1) (src dst : IVec S3x1000000 32) (H : FVec Ideal S100352x64 .f32)
    (D : FVec Ideal S3x100352x1 .f32) (r : Fin 3) (h0 : off 0 = r.val) (h1 : off 1 = 0)
    (g0 : off3 0 = r.val) (g1 : off3 1 = 0) (g2 : off3 2 = 0) (n : Fin 100352) (c : Fin 64) :
    relAgg off hs off3 hs3 src dst H D (ix2 n c)
      = (∑ e ∈ Finset.univ.filter (fun e : Fin 1000000 => (dst (ix2 r e)).toInt = (n.val : ℤ)),
          H (ix2 (kRow (src (ix2 r e))) c)) * D (ix3 r n (0 : Fin 1)) := by
  unfold relAgg
  rw [mulf_apply, normRow_apply off3 hs3 D r g0 g1 g2 n c]
  refine congrArg (fun z => z * D (ix3 r n (0 : Fin 1))) ?_
  rw [scatterRows_apply]
  have hz : (broadcastInDim S100352x64 ![] bcast_S_S100352x64 (constant (F := Ideal) S_ .f32 0x00000000#32)) (ix2 n c) = 0 := by
    show Ideal.ofBits .f32 0x00000000#32 = 0
    exact Ideal.ofBits_zero_f32
  rw [hz, zero_add]
  refine Finset.sum_congr ?_ ?_
  · ext e
    simp only [Finset.mem_filter, Finset.mem_univ, true_and]
    rw [dstIdx_apply off hs dst r h0 h1 e]
  · intro e _
    rw [gatherRows_apply]
    refine congrArg (fun q : Fin 100352 => H (ix2 q c)) (Fin.ext ?_)
    show min (srcIdx off hs src (ix2 e (0 : Fin 1))).toInt.toNat (100352 - 1) = (kRow (src (ix2 r e))).val
    rw [srcIdx_apply off hs src r h0 h1 e]
    rfl

/-- Three tables stacked along a new leading axis. -/
def stack3 (A B C : FVec Ideal S100352x64 .f32) : FVec Ideal S3x100352x64 .f32 :=
  concatenate S3x100352x64 0
    [⟨S1x100352x64, broadcastInDim S1x100352x64 ![1, 2] bcast_S100352x64_S1x100352x64_1_2 A⟩,
     ⟨S1x100352x64, broadcastInDim S1x100352x64 ![1, 2] bcast_S100352x64_S1x100352x64_1_2 B⟩,
     ⟨S1x100352x64, broadcastInDim S1x100352x64 ![1, 2] bcast_S100352x64_S1x100352x64_1_2 C⟩]
    concatenates_S1x100352x64_S1x100352x64_S1x100352x64_S3x100352x64_d0

/-- A table under a new leading unit axis, read at (0, n, c). -/
theorem lead_apply (A : FVec Ideal S100352x64 .f32) (n : Fin 100352) (c : Fin 64) :
    broadcastInDim S1x100352x64 ![1, 2] bcast_S100352x64_S1x100352x64_1_2 A (ix3 (0 : Fin 1) n c) = A (ix2 n c) :=
  broadcastInDim_apply ![1, 2] _ A (ix3 (0 : Fin 1) n c) (ix2 n c) (fun a => by
    match a with
    | ⟨0, _⟩ => rfl
    | ⟨1, _⟩ => rfl)

/-- The stack read at (0, n, c), (1, n, c), (2, n, c). -/
theorem stack3_apply0 (A B C : FVec Ideal S100352x64 .f32) (n : Fin 100352) (c : Fin 64) :
    stack3 A B C (ix3 (0 : Fin 3) n c) = A (ix2 n c) := by
  unfold stack3
  rw [concatenate_apply_piece (0 : Fin 3) _ _ (ix3 (0 : Fin 3) n c) 0 (by show (0 : Nat) < 3; decide) S1x100352x64 _ rfl rfl 0 rfl
    (ix3 (0 : Fin 1) n c) (fun b hb => by
      match b with
      | ⟨0, _⟩ => exact absurd rfl hb
      | ⟨1, _⟩ => rfl
      | ⟨2, _⟩ => rfl) rfl]
  exact lead_apply A n c

theorem stack3_apply1 (A B C : FVec Ideal S100352x64 .f32) (n : Fin 100352) (c : Fin 64) :
    stack3 A B C (ix3 (1 : Fin 3) n c) = B (ix2 n c) := by
  unfold stack3
  rw [concatenate_apply_piece (0 : Fin 3) _ _ (ix3 (1 : Fin 3) n c) 1 (by show (1 : Nat) < 3; decide) S1x100352x64 _ rfl rfl 1 rfl
    (ix3 (0 : Fin 1) n c) (fun b hb => by
      match b with
      | ⟨0, _⟩ => exact absurd rfl hb
      | ⟨1, _⟩ => rfl
      | ⟨2, _⟩ => rfl) rfl]
  exact lead_apply B n c

theorem stack3_apply2 (A B C : FVec Ideal S100352x64 .f32) (n : Fin 100352) (c : Fin 64) :
    stack3 A B C (ix3 (2 : Fin 3) n c) = C (ix2 n c) := by
  unfold stack3
  rw [concatenate_apply_piece (0 : Fin 3) _ _ (ix3 (2 : Fin 3) n c) 2 (by show (2 : Nat) < 3; decide) S1x100352x64 _ rfl rfl 2 rfl
    (ix3 (0 : Fin 1) n c) (fun b hb => by
      match b with
      | ⟨0, _⟩ => exact absurd rfl hb
      | ⟨1, _⟩ => rfl
      | ⟨2, _⟩ => rfl) rfl]
  exact lead_apply C n c

/-! ## Against the specification -/

/-- The sum over the edges sent to node `n` of the table at the edges' source rows, times the normaliser, is the
    specification's normalised aggregate: a source word in range names its own row both ways, and the table's first
    100000 rows are the features. -/
theorem relSum_spec (src dst : IVec S3x1000000 32) (H : FVec Ideal S100352x64 .f32) (D : FVec Ideal S3x100352x1 .f32)
    (hsrc : ∀ (r : Fin 3) (e : Fin 1000000), 0 ≤ (src (ix2 r e)).toInt ∧ (src (ix2 r e)).toInt < 100000)
    (h : Fin 100000 → Fin 64 → EReal)
    (hH : ∀ (n : Fin 100000) (k : Fin 64), H (ix2 (⟨n.val, by omega⟩ : Fin 100352) k) = h n k)
    (hD : ∀ (r : Fin 3) (n : Fin 100000), D (ix3 r (⟨n.val, by omega⟩ : Fin 100352) (0 : Fin 1))
      = Cert.Spec.dinv (fun r e => dst (ix2 r e)) r n)
    (r : Fin 3) (n : Fin 100000) (k : Fin 64) :
    (∑ e ∈ Finset.univ.filter (fun e : Fin 1000000 => (dst (ix2 r e)).toInt = (n.val : ℤ)),
        H (ix2 (kRow (src (ix2 r e))) k)) * D (ix3 r (⟨n.val, by omega⟩ : Fin 100352) (0 : Fin 1))
      = Cert.Spec.agg (fun r e => src (ix2 r e)) (fun r e => dst (ix2 r e)) h r n k := by
  unfold Cert.Spec.agg
  rw [hD r n]
  refine congrArg (fun z => z * Cert.Spec.dinv (fun r e => dst (ix2 r e)) r n) ?_
  refine Finset.sum_congr rfl ?_
  intro e _
  have hr := hsrc r e
  have hrow : kRow (src (ix2 r e))
      = (⟨(Cert.Spec.rowRef (src (ix2 r e))).val, by have := (Cert.Spec.rowRef (src (ix2 r e))).isLt; omega⟩ : Fin 100352) := by
    apply Fin.ext
    rw [kRow_of_range _ hr.1 hr.2]
    exact (Cert.Spec.rowRef_of_range _ hr.1 hr.2).symm
  rw [hrow]
  exact hH (Cert.Spec.rowRef (src (ix2 r e))) k

/-- The stacked aggregates of the three relations, read at (r, n, k) for a node `n`, are the specification's. -/
theorem aggStack_spec (src dst : IVec S3x1000000 32) (H : FVec Ideal S100352x64 .f32) (D : FVec Ideal S3x100352x1 .f32)
    (hsrc : ∀ (r : Fin 3) (e : Fin 1000000), 0 ≤ (src (ix2 r e)).toInt ∧ (src (ix2 r e)).toInt < 100000)
    (h : Fin 100000 → Fin 64 → EReal)
    (hH : ∀ (n : Fin 100000) (k : Fin 64), H (ix2 (⟨n.val, by omega⟩ : Fin 100352) k) = h n k)
    (hD : ∀ (r : Fin 3) (n : Fin 100000), D (ix3 r (⟨n.val, by omega⟩ : Fin 100352) (0 : Fin 1))
      = Cert.Spec.dinv (fun r e => dst (ix2 r e)) r n)
    (r : Fin 3) (n : Fin 100000) (k : Fin 64) :
    stack3
        (relAgg ![0, 0] slices_S3x1000000_S1x1000000_0_0 ![0, 0, 0] slices_S3x100352x1_S1x100352x1_0_0_0 src dst H D)
        (relAgg ![1, 0] slices_S3x1000000_S1x1000000_1_0 ![1, 0, 0] slices_S3x100352x1_S1x100352x1_1_0_0 src dst H D)
        (relAgg ![2, 0] slices_S3x1000000_S1x1000000_2_0 ![2, 0, 0] slices_S3x100352x1_S1x100352x1_2_0_0 src dst H D)
        (ix3 r (⟨n.val, by omega⟩ : Fin 100352) k)
      = Cert.Spec.agg (fun r e => src (ix2 r e)) (fun r e => dst (ix2 r e)) h r n k := by
  match r with
  | ⟨0, _⟩ =>
    show stack3 _ _ _ (ix3 (0 : Fin 3) _ k) = Cert.Spec.agg _ _ h (0 : Fin 3) n k
    rw [stack3_apply0, relAgg_apply ![0, 0] slices_S3x1000000_S1x1000000_0_0 ![0, 0, 0] slices_S3x100352x1_S1x100352x1_0_0_0 src dst H D (0 : Fin 3) rfl rfl rfl rfl rfl]
    exact relSum_spec src dst H D hsrc h hH hD 0 n k
  | ⟨1, _⟩ =>
    show stack3 _ _ _ (ix3 (1 : Fin 3) _ k) = Cert.Spec.agg _ _ h (1 : Fin 3) n k
    rw [stack3_apply1, relAgg_apply ![1, 0] slices_S3x1000000_S1x1000000_1_0 ![1, 0, 0] slices_S3x100352x1_S1x100352x1_1_0_0 src dst H D (1 : Fin 3) rfl rfl rfl rfl rfl]
    exact relSum_spec src dst H D hsrc h hH hD 1 n k
  | ⟨2, _⟩ =>
    show stack3 _ _ _ (ix3 (2 : Fin 3) _ k) = Cert.Spec.agg _ _ h (2 : Fin 3) n k
    rw [stack3_apply2, relAgg_apply ![2, 0] slices_S3x1000000_S1x1000000_2_0 ![2, 0, 0] slices_S3x100352x1_S1x100352x1_2_0_0 src dst H D (2 : Fin 3) rfl rfl rfl rfl rfl]
    exact relSum_spec src dst H D hsrc h hH hD 2 n k

end Cert.KernelIdeal.HandValue

end
-- ==== Proof.KI.Stretch0.lean ====
/-
  The host operations before the first convolution call, read at an index.

  For relation r and node n the in-degree is the number of edges of r whose destination word, read signed, is n.  The
  operations scatter ones, accumulating, into zeros at the destination words of each relation, stack the three degree
  vectors, raise them to at least one, divide one by them, pad each row with 352 ones and add a trailing unit axis: the
  normaliser array holds 1 / max(1, degree) at (r, n, 0) for a node n.  They pad the features with 352 zero rows, and
  from the padded features, the edge tables and the normaliser they build the first round's stacked aggregates, which
  at (r, n, k), n a node, are the specification's normalised aggregate of the input features.
-/
import proofs.«400914_j13511967113603_4_alg».proof.Proof.Spec
import proofs.«400914_j13511967113603_4_alg».proof.Proof.LibRowOps
import proofs.«400914_j13511967113603_4_alg».proof.Proof.KI.StretchLib
import proofs.«400914_j13511967113603_4_alg».proof.Proof.Gen.KernelIdeal.Launch
import Idealize.ShloMosaic.Lib.Pipeline.Value
import Idealize.ShloMosaic.Lib.KernelVsHost
import Idealize.ShloMosaic.Lib.ValueIdx
import Idealize.ShloMosaic.Lib.ValueLayout
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem

/-- The buffer contents after the first six of the seven host stretches that precede the first convolution call. -/
abbrev pre5 (W : Valuation τ sig (Elt Ideal)) : Valuation τ sig (Elt Ideal) :=
  StableHlo.after hostOps0_5 (StableHlo.after hostOps0_4 (StableHlo.after hostOps0_3
    (StableHlo.after hostOps0_2 (StableHlo.after hostOps0_1 (StableHlo.after hostOps0 W)))))

/-- The buffer contents after the seven host stretches that precede the first convolution call. -/
abbrev after0 (W : Valuation τ sig (Elt Ideal)) : Valuation τ sig (Elt Ideal) :=
  StableHlo.after hostOps0_6 (StableHlo.after hostOps0_5 (StableHlo.after hostOps0_4 (StableHlo.after hostOps0_3
    (StableHlo.after hostOps0_2 (StableHlo.after hostOps0_1 (StableHlo.after hostOps0 W))))))

namespace Stretch0

/-! ## Layout operations read at an index, over any extents -/

section Layout
variable {α : Type}

/-- Three [1, A] arrays stacked along the leading axis, read at (r, n): array `r` at (0, n). -/
theorem stack3_rank2_apply {A : Nat} (x0 x1 x2 : (⟨2, ![1, A]⟩ : Shape).Idx → α)
    (h : Shape.Concatenates [(⟨2, ![1, A]⟩ : Shape), ⟨2, ![1, A]⟩, ⟨2, ![1, A]⟩] ⟨2, ![3, A]⟩ 0) (r : Fin 3) (n : Fin A) :
    concatenate (⟨2, ![3, A]⟩ : Shape) 0 [⟨⟨2, ![1, A]⟩, x0⟩, ⟨⟨2, ![1, A]⟩, x1⟩, ⟨⟨2, ![1, A]⟩, x2⟩] h (ix2 r n)
      = (match r with | ⟨0, _⟩ => x0 | ⟨1, _⟩ => x1 | ⟨2, _⟩ => x2) (ix2 (0 : Fin 1) n) := by
  have hi : ∀ (r : Fin 3) (b : Fin (⟨2, ![1, A]⟩ : Shape).rank),
      b.cast (rfl : (⟨2, ![1, A]⟩ : Shape).rank = (⟨2, ![3, A]⟩ : Shape).rank) ≠ (0 : Fin 2) →
      ((ix2 (0 : Fin 1) n : (⟨2, ![1, A]⟩ : Shape).Idx) b).val = ((ix2 r n : (⟨2, ![3, A]⟩ : Shape).Idx) (b.cast rfl)).val :=
    fun r b hb => by
      match b with
      | ⟨0, _⟩ => exact absurd rfl hb
      | ⟨1, _⟩ => rfl
  match r with
  | ⟨0, _⟩ =>
    exact concatenate_apply_piece (t := (⟨2, ![3, A]⟩ : Shape)) (0 : Fin 2) [⟨⟨2, ![1, A]⟩, x0⟩, ⟨⟨2, ![1, A]⟩, x1⟩, ⟨⟨2, ![1, A]⟩, x2⟩] h _ 0
      (show 0 < 3 by omega) ⟨2, ![1, A]⟩ x0 rfl rfl 0 rfl (ix2 (0 : Fin 1) n) (hi _) rfl
  | ⟨1, _⟩ =>
    exact concatenate_apply_piece (t := (⟨2, ![3, A]⟩ : Shape)) (0 : Fin 2) [⟨⟨2, ![1, A]⟩, x0⟩, ⟨⟨2, ![1, A]⟩, x1⟩, ⟨⟨2, ![1, A]⟩, x2⟩] h _ 1
      (show 1 < 3 by omega) ⟨2, ![1, A]⟩ x1 rfl rfl 1 rfl (ix2 (0 : Fin 1) n) (hi _) rfl
  | ⟨2, _⟩ =>
    exact concatenate_apply_piece (t := (⟨2, ![3, A]⟩ : Shape)) (0 : Fin 2) [⟨⟨2, ![1, A]⟩, x0⟩, ⟨⟨2, ![1, A]⟩, x1⟩, ⟨⟨2, ![1, A]⟩, x2⟩] h _ 2
      (show 2 < 3 by omega) ⟨2, ![1, A]⟩ x2 rfl rfl 2 rfl (ix2 (0 : Fin 1) n) (hi _) rfl

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- An [A] array given a trailing unit axis reads, at (e, u), the operand at e. -/
theorem bcast_a_a1_apply {A : Nat} (h : (⟨1, ![A]⟩ : Shape).BroadcastsInDim ⟨2, ![A, 1]⟩ ![0])
    (x : (⟨1, ![A]⟩ : Shape).Idx → α) (e : Fin A) (u : Fin 1) :
    broadcastInDim (⟨2, ![A, 1]⟩ : Shape) ![0] h x (ix2 e u) = x (ix1 e) :=
  broadcastInDim_apply _ h x _ (ix1 e) (fun a => by
    match a with
    | ⟨0, _⟩ =>
      show e.val = if A = 1 then 0 else e.val
      split
      · omega
      · rfl)

/-- An [A] array given a leading unit axis reads, at (u, n), the operand at n. -/
theorem bcast_a_1a_apply {A : Nat} (h : (⟨1, ![A]⟩ : Shape).BroadcastsInDim ⟨2, ![1, A]⟩ ![1])
    (x : (⟨1, ![A]⟩ : Shape).Idx → α) (u : Fin 1) (n : Fin A) :
    broadcastInDim (⟨2, ![1, A]⟩ : Shape) ![1] h x (ix2 u n) = x (ix1 n) :=
  broadcastInDim_apply _ h x _ (ix1 n) (fun a => by
    match a with
    | ⟨0, _⟩ =>
      show n.val = if A = 1 then 0 else n.val
      split
      · omega
      · rfl)

/-- An [A, B] array given a trailing unit axis reads, at (a, b, u), the operand at (a, b). -/
theorem bcast_ab_ab1_apply {A B : Nat} (h : (⟨2, ![A, B]⟩ : Shape).BroadcastsInDim ⟨3, ![A, B, 1]⟩ ![0, 1])
    (x : (⟨2, ![A, B]⟩ : Shape).Idx → α) (a : Fin A) (b : Fin B) (u : Fin 1) :
    broadcastInDim (⟨3, ![A, B, 1]⟩ : Shape) ![0, 1] h x (ix3 a b u) = x (ix2 a b) :=
  broadcastInDim_apply _ h x _ (ix2 a b) (fun c => by
    match c with
    | ⟨0, _⟩ =>
      show a.val = if A = 1 then 0 else a.val
      split
      · omega
      · rfl
    | ⟨1, _⟩ =>
      show b.val = if B = 1 then 0 else b.val
      split
      · omega
      · rfl)

/-- Row r of an [R, E] array sliced out as [1, E] reads, at (u, e), the operand at (r, e). -/
theorem slice_row_apply {R E : Nat} (x : (⟨2, ![R, E]⟩ : Shape).Idx → α) (o : Nat)
    (h : (⟨2, ![R, E]⟩ : Shape).Slices ![o, 0] ⟨2, ![1, E]⟩) (r : Fin R) (hr : r.val = o) (u : Fin 1) (e : Fin E) :
    extractStridedSlice (⟨2, ![1, E]⟩ : Shape) ![o, 0] x h (ix2 u e) = x (ix2 r e) :=
  extractStridedSlice_apply _ x h _ (ix2 r e) (fun a => by
    match a with
    | ⟨0, _⟩ => (show r.val = o + u.val; omega)
    | ⟨1, _⟩ => (show e.val = 0 + e.val; omega))

/-- An [R, A] array padded on the right of its rows reads, at (r, n) with n inside, the operand there. -/
theorem pad_cols_apply {R A A' P : Nat} (x : (⟨2, ![R, A]⟩ : Shape).Idx → α) {u : Shape} (v : u.Idx → α)
    (h : (⟨2, ![R, A]⟩ : Shape).Pads ![0, 0] ![0, P] ![0, 0] ⟨2, ![R, A']⟩) (hu : 0 < u.numel)
    (r : Fin R) (n : Fin A) (n' : Fin A') (hn : n'.val = n.val) :
    pad (⟨2, ![R, A']⟩ : Shape) ![0, 0] ![0, P] ![0, 0] x v h hu (ix2 r n') = x (ix2 r n) :=
  pad_apply_of_inside _ _ _ x v h hu _ (ix2 r n) (fun a => by
    match a with
    | ⟨0, _⟩ => (show r.val = 0 + r.val * (0 + 1); omega)
    | ⟨1, _⟩ => (show n'.val = 0 + n.val * (0 + 1); omega))

/-- An [A, B] array padded below its rows reads, at (n, k) with n inside, the operand there. -/
theorem pad_rows_apply {A A' B P : Nat} (x : (⟨2, ![A, B]⟩ : Shape).Idx → α) {u : Shape} (v : u.Idx → α)
    (h : (⟨2, ![A, B]⟩ : Shape).Pads ![0, 0] ![P, 0] ![0, 0] ⟨2, ![A', B]⟩) (hu : 0 < u.numel)
    (n : Fin A) (n' : Fin A') (hn : n'.val = n.val) (k : Fin B) :
    pad (⟨2, ![A', B]⟩ : Shape) ![0, 0] ![P, 0] ![0, 0] x v h hu (ix2 n' k) = x (ix2 n k) :=
  pad_apply_of_inside _ _ _ x v h hu _ (ix2 n k) (fun a => by
    match a with
    | ⟨0, _⟩ => (show n'.val = 0 + n.val * (0 + 1); omega)
    | ⟨1, _⟩ => (show k.val = 0 + k.val * (0 + 1); omega))

end Layout

/-! ## Running a literal list of operations -/

open StableHlo in
/-- The contents of one buffer after a literal list of operations, operation by operation. -/
local macro "after_results3" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

open StableHlo in
/-- A buffer none of a literal list of operations writes keeps its contents. -/
local macro "after_keeps" : tactic =>
  `(tactic| (refine after_of_forall_not_mem _ _ (List.forall_iff_forall_mem.mp ?_)
             simp only [List.Forall, nullary_writes, unary_writes, binary_writes, ternary_writes, reshape_writes, nary_writes,
               Finset.mem_singleton]
             repeat' apply And.intro
             all_goals exact devRef_ne_of_ne (by decide)))

/-! ## The normaliser as a function of the destination words -/

/-- The in-degrees under one relation: ones scattered, accumulating, into zeros at the relation's destination words. -/
def degT (d : IVec S3x1000000 32) (off : Fin 2 → Nat) (hs : S3x1000000.Slices off S1x1000000) : FVec Ideal S100000 .f32 :=
  Host.scatterAdd (F := Ideal) scatter_S100000_S1000000x1_S1000000_n_0_0_1
    (broadcastInDim S100000 ![] bcast_S_S100000 (constant (F := Ideal) S_ .f32 0x00000000#32))
    (broadcastInDim S1000000x1 ![0] bcast_S1000000_S1000000x1_0
      (shapeCast S1000000 (extractStridedSlice S1x1000000 off d hs) shapeCasts_S1x1000000_S1000000))
    (broadcastInDim S1000000 ![] bcast_S_S1000000 (constant (F := Ideal) S_ .f32 0x3F800000#32))

/-- The three relations' in-degrees stacked. -/
def degsT (d : IVec S3x1000000 32) : FVec Ideal S3x100000 .f32 :=
  concatenate S3x100000 0
    [⟨S1x100000, broadcastInDim S1x100000 ![1] bcast_S100000_S1x100000_1 (degT d ![0, 0] slices_S3x1000000_S1x1000000_0_0)⟩,
     ⟨S1x100000, broadcastInDim S1x100000 ![1] bcast_S100000_S1x100000_1 (degT d ![1, 0] slices_S3x1000000_S1x1000000_1_0)⟩,
     ⟨S1x100000, broadcastInDim S1x100000 ![1] bcast_S100000_S1x100000_1 (degT d ![2, 0] slices_S3x1000000_S1x1000000_2_0)⟩]
    concatenates_S1x100000_S1x100000_S1x100000_S3x100000_d0

/-- The normaliser array: one over the in-degrees raised to at least one, 1 on the padding rows. -/
def normT (d : IVec S3x1000000 32) : FVec Ideal S3x100352x1 .f32 :=
  broadcastInDim S3x100352x1 ![0, 1] bcast_S3x100352_S3x100352x1_0_1
    (pad S3x100352 ![0, 0] ![0, 352] ![0, 0]
      (Host.divf (F := Ideal) (broadcastInDim S3x100000 ![] bcast_S_S3x100000 (constant (F := Ideal) S_ .f32 0x3F800000#32))
        (maximumf (broadcastInDim S3x100000 ![] bcast_S_S3x100000 (constant (F := Ideal) S_ .f32 0x3F800000#32)) (degsT d)))
      (constant (F := Ideal) S_ .f32 0x3F800000#32) pads_S3x100000_S3x100352_000_03520 h_S_)

/-! ## The normaliser read at an index -/

/-- Row `r` of a [3, E] word array, sliced out, flattened and given a unit column axis, read at (e, 0). -/
theorem rowWords_apply (d : IVec S3x1000000 32) (r : Fin 3) (hs : S3x1000000.Slices ![r.val, 0] S1x1000000) (e : Fin 1000000) :
    broadcastInDim S1000000x1 ![0] bcast_S1000000_S1000000x1_0
      (shapeCast S1000000 (extractStridedSlice S1x1000000 ![r.val, 0] d hs) shapeCasts_S1x1000000_S1000000) (ix2 e (0 : Fin 1))
      = d (ix2 r e) :=
  (bcast_a_a1_apply _ _ e 0).trans ((shapeCast_1a_a_apply _ _ e).trans (slice_row_apply d r.val hs r rfl 0 e))

/-- The vector scatter-add of this program read at n. -/
theorem scatterVec_apply (x : FVec Ideal S100000 .f32) (idx : IVec S1000000x1 32) (upd : FVec Ideal S1000000 .f32)
    (n : Fin 100000) :
    Host.scatterAdd scatter_S100000_S1000000x1_S1000000_n_0_0_1 x idx upd (ix1 n)
      = x (ix1 n) + ∑ e ∈ Finset.univ.filter (fun e : Fin 1000000 => (idx (ix2 e (0 : Fin 1))).toInt = (n.val : ℤ)),
          upd (ix1 e) := by
  unfold Host.scatterAdd
  rw [Ideal.hostScatterAdd_def]
  exact RowOps.vecScatterAdd_apply scatter_S100000_S1000000x1_S1000000_n_0_0_1_wf x idx upd n

/-- The in-degree of node `n` under relation `r`: one for every edge of `r` whose destination word, read signed, is `n`. -/
theorem degT_apply (d : IVec S3x1000000 32) (r : Fin 3) (hs : S3x1000000.Slices ![r.val, 0] S1x1000000) (n : Fin 100000) :
    degT d ![r.val, 0] hs (ix1 n)
      = ∑ _e ∈ Finset.univ.filter (fun e : Fin 1000000 => (d (ix2 r e)).toInt = (n.val : ℤ)), Cert.Spec.oneE := by
  unfold degT
  rw [scatterVec_apply]
  rw [show broadcastInDim S100000 ![] bcast_S_S100000 (constant (F := Ideal) S_ .f32 0x00000000#32) (ix1 n) = 0 from
    (bcast_scalar_apply _ _ _).trans ((constant_apply _ _).trans Ideal.ofBits_zero_f32), zero_add]
  refine Finset.sum_congr (Finset.filter_congr fun e _ => by rw [rowWords_apply d r hs e]) (fun e _ => ?_)
  exact (bcast_scalar_apply _ _ _).trans (constant_apply _ _)

/-- The stacked in-degrees at (r, n). -/
theorem degsT_apply (d : IVec S3x1000000 32) (r : Fin 3) (n : Fin 100000) :
    degsT d (ix2 r n)
      = ∑ _e ∈ Finset.univ.filter (fun e : Fin 1000000 => (d (ix2 r e)).toInt = (n.val : ℤ)), Cert.Spec.oneE := by
  have piece : ∀ (r : Fin 3) (hs : S3x1000000.Slices ![r.val, 0] S1x1000000),
      broadcastInDim S1x100000 ![1] bcast_S100000_S1x100000_1 (degT d ![r.val, 0] hs) (ix2 (0 : Fin 1) n)
        = ∑ _e ∈ Finset.univ.filter (fun e : Fin 1000000 => (d (ix2 r e)).toInt = (n.val : ℤ)), Cert.Spec.oneE :=
    fun r hs => (bcast_a_1a_apply _ _ 0 n).trans (degT_apply d r hs n)
  unfold degsT
  refine (stack3_rank2_apply _ _ _ _ r n).trans ?_
  match r with
  | ⟨0, _⟩ => exact piece 0 _
  | ⟨1, _⟩ => exact piece 1 _
  | ⟨2, _⟩ => exact piece 2 _

/-- The normaliser array at (r, n, 0), n < 100000. -/
theorem normT_apply (d : IVec S3x1000000 32) (r : Fin 3) (n : Fin 100000) :
    normT d (ix3 r (⟨n.val, by omega⟩ : Fin 100352) (0 : Fin 1)) = Cert.Spec.dinv (fun r e => d (ix2 r e)) r n := by
  unfold normT
  refine (bcast_ab_ab1_apply _ _ r _ 0).trans ((pad_cols_apply _ _ _ _ r n (⟨n.val, by omega⟩ : Fin 100352) rfl).trans ?_)
  show Ideal.div _ _ = _
  unfold Cert.Spec.dinv
  refine congrArg₂ Ideal.div ?_ ?_
  · exact (bcast_scalar_apply _ _ _).trans (constant_apply _ _)
  · show max _ _ = max _ _
    refine congrArg₂ max ?_ ?_
    · exact (bcast_scalar_apply _ _ _).trans (constant_apply _ _)
    · exact degsT_apply d r n

/-! ## The stretches, one by one, from any contents `V` -/

section Stretches
variable (V : Valuation τ sig (Elt Ideal))

set_option maxHeartbeats 4000000 in
theorem s0_v19 :
    (StableHlo.after (hostOps0 (F := Ideal)) V (Proc.devRef .tc main_v19) : S3x100000.Idx → EReal)
      = degsT (V (Proc.devRef .tc main_arg8)) := by
  after_results3
  try rfl

set_option maxHeartbeats 4000000 in
theorem s0_cst3 :
    (StableHlo.after (hostOps0 (F := Ideal)) V (Proc.devRef .tc main_cst_3) : S_.Idx → EReal)
      = constant (F := Ideal) S_ .f32 0x3F800000#32 := by
  after_results3

theorem s1_v20 :
    (StableHlo.after (hostOps0_1 (F := Ideal)) V (Proc.devRef .tc main_v20) : S3x100000.Idx → EReal)
      = maximumf (F := Ideal) (s := S3x100000) (φ := .f32) (broadcastInDim S3x100000 ![] bcast_S_S3x100000 (V (Proc.devRef .tc main_cst_3) : S_.Idx → EReal))
          (V (Proc.devRef .tc main_v19) : S3x100000.Idx → EReal) := by
  after_results3
  try rfl

theorem s2_v22 :
    (StableHlo.after (hostOps0_2 (F := Ideal)) V (Proc.devRef .tc main_v22) : S3x100000.Idx → EReal)
      = Host.divf (F := Ideal) (broadcastInDim S3x100000 ![] bcast_S_S3x100000 (constant (F := Ideal) S_ .f32 0x3F800000#32))
          (V (Proc.devRef .tc main_v20) : S3x100000.Idx → EReal) := by
  after_results3
  try rfl

theorem s2_cst5 :
    (StableHlo.after (hostOps0_2 (F := Ideal)) V (Proc.devRef .tc main_cst_5) : S_.Idx → EReal)
      = constant (F := Ideal) S_ .f32 0x3F800000#32 := by
  after_results3

theorem s3_v23 :
    (StableHlo.after (hostOps0_3 (F := Ideal)) V (Proc.devRef .tc main_v23) : S3x100352.Idx → EReal)
      = pad S3x100352 ![0, 0] ![0, 352] ![0, 0] (V (Proc.devRef .tc main_v22) : S3x100000.Idx → EReal)
          (V (Proc.devRef .tc main_cst_5) : S_.Idx → EReal) pads_S3x100000_S3x100352_000_03520 h_S_ := by
  after_results3
  try rfl

theorem s4_v24 :
    (StableHlo.after (hostOps0_4 (F := Ideal)) V (Proc.devRef .tc main_v24) : S3x100352x1.Idx → EReal)
      = broadcastInDim S3x100352x1 ![0, 1] bcast_S3x100352_S3x100352x1_0_1 (V (Proc.devRef .tc main_v23) : S3x100352.Idx → EReal) := by
  after_results3

theorem s5_v24 :
    StableHlo.after (hostOps0_5 (F := Ideal)) V (Proc.devRef .tc main_v24) = V (Proc.devRef .tc main_v24) := by
  after_keeps

set_option maxHeartbeats 4000000 in
theorem s6_v24 :
    StableHlo.after (hostOps0_6 (F := Ideal)) V (Proc.devRef .tc main_v24) = V (Proc.devRef .tc main_v24) := by
  after_keeps

end Stretches

/-! ## What the stretches leave alone -/

section Keeps
variable (V : Valuation τ sig (Elt Ideal))

set_option maxHeartbeats 1000000 in
theorem k0_arg0 :
    StableHlo.after (hostOps0 (F := Ideal)) V (Proc.devRef .tc main_arg0) = V (Proc.devRef .tc main_arg0) := by
  after_keeps

theorem k1_arg0 :
    StableHlo.after (hostOps0_1 (F := Ideal)) V (Proc.devRef .tc main_arg0) = V (Proc.devRef .tc main_arg0) := by
  after_keeps

theorem k2_arg0 :
    StableHlo.after (hostOps0_2 (F := Ideal)) V (Proc.devRef .tc main_arg0) = V (Proc.devRef .tc main_arg0) := by
  after_keeps

theorem k3_arg0 :
    StableHlo.after (hostOps0_3 (F := Ideal)) V (Proc.devRef .tc main_arg0) = V (Proc.devRef .tc main_arg0) := by
  after_keeps

theorem k4_arg0 :
    StableHlo.after (hostOps0_4 (F := Ideal)) V (Proc.devRef .tc main_arg0) = V (Proc.devRef .tc main_arg0) := by
  after_keeps

set_option maxHeartbeats 1000000 in
theorem k0_arg7 :
    StableHlo.after (hostOps0 (F := Ideal)) V (Proc.devRef .tc main_arg7) = V (Proc.devRef .tc main_arg7) := by
  after_keeps

theorem k1_arg7 :
    StableHlo.after (hostOps0_1 (F := Ideal)) V (Proc.devRef .tc main_arg7) = V (Proc.devRef .tc main_arg7) := by
  after_keeps

theorem k2_arg7 :
    StableHlo.after (hostOps0_2 (F := Ideal)) V (Proc.devRef .tc main_arg7) = V (Proc.devRef .tc main_arg7) := by
  after_keeps

theorem k3_arg7 :
    StableHlo.after (hostOps0_3 (F := Ideal)) V (Proc.devRef .tc main_arg7) = V (Proc.devRef .tc main_arg7) := by
  after_keeps

theorem k4_arg7 :
    StableHlo.after (hostOps0_4 (F := Ideal)) V (Proc.devRef .tc main_arg7) = V (Proc.devRef .tc main_arg7) := by
  after_keeps

theorem k5_arg7 :
    StableHlo.after (hostOps0_5 (F := Ideal)) V (Proc.devRef .tc main_arg7) = V (Proc.devRef .tc main_arg7) := by
  after_keeps

set_option maxHeartbeats 1000000 in
theorem k0_arg8 :
    StableHlo.after (hostOps0 (F := Ideal)) V (Proc.devRef .tc main_arg8) = V (Proc.devRef .tc main_arg8) := by
  after_keeps

theorem k1_arg8 :
    StableHlo.after (hostOps0_1 (F := Ideal)) V (Proc.devRef .tc main_arg8) = V (Proc.devRef .tc main_arg8) := by
  after_keeps

theorem k2_arg8 :
    StableHlo.after (hostOps0_2 (F := Ideal)) V (Proc.devRef .tc main_arg8) = V (Proc.devRef .tc main_arg8) := by
  after_keeps

theorem k3_arg8 :
    StableHlo.after (hostOps0_3 (F := Ideal)) V (Proc.devRef .tc main_arg8) = V (Proc.devRef .tc main_arg8) := by
  after_keeps

theorem k4_arg8 :
    StableHlo.after (hostOps0_4 (F := Ideal)) V (Proc.devRef .tc main_arg8) = V (Proc.devRef .tc main_arg8) := by
  after_keeps

theorem k5_arg8 :
    StableHlo.after (hostOps0_5 (F := Ideal)) V (Proc.devRef .tc main_arg8) = V (Proc.devRef .tc main_arg8) := by
  after_keeps

end Keeps

/-! ## The padded features -/

/-- Row n < 100000 of the padded feature table is row n of the features. -/
theorem s5_v25_apply (V : Valuation τ sig (Elt Ideal)) (n : Fin 100000) (k : Fin 64) :
    (StableHlo.after (hostOps0_5 (F := Ideal)) V (Proc.devRef .tc main_v25) : S100352x64.Idx → EReal)
        (ix2 (⟨n.val, by omega⟩ : Fin 100352) k)
      = (V (Proc.devRef .tc main_arg0) : S100000x64.Idx → EReal) (ix2 n k) := by
  have e : (StableHlo.after (hostOps0_5 (F := Ideal)) V (Proc.devRef .tc main_v25) : S100352x64.Idx → EReal)
      = pad S100352x64 ![0, 0] ![352, 0] ![0, 0] (V (Proc.devRef .tc main_arg0) : S100000x64.Idx → EReal)
          (sitofp (F := Ideal) .f32 (V (Proc.devRef .tc main_c) : S_.Idx → BitVec 32))
          pads_S100000x64_S100352x64_03520_000 h_S_ := by
    after_results3
    try rfl
  rw [e]
  exact pad_rows_apply _ _ _ _ n (⟨n.val, by omega⟩ : Fin 100352) rfl k

/-! ## The last stretch: the stacked aggregates -/

open Idealize.ShloMosaic.StableHlo in
set_option maxHeartbeats 4000000 in
/-- The stretch's last four operations stack the three relations' tables. -/
theorem ops6_tail (V : Valuation τ sig (Elt Ideal)) :
    (StableHlo.after ((hostOps0_6 (F := Ideal)).drop 63) V (Proc.devRef .tc main_v83) : S3x100352x64.Idx → EReal)
      = stack3 (V (Proc.devRef .tc main_v43)) (V (Proc.devRef .tc main_v61)) (V (Proc.devRef .tc main_v79)) := by
  simp only [List.drop_succ_cons, List.drop_zero, after_cons, after_nil]
  rw [nary3_result]
  repeat (first
    | rw [unary_result]
    | (rw [unary_result_ne]; rotate_left; decide))
  rfl

open Idealize.ShloMosaic.StableHlo in
set_option maxHeartbeats 4000000 in
/-- Twenty-one of the first sixty-three operations compute relation 0's table from the stretch's inputs. -/
theorem ops6_rel0 (V : Valuation τ sig (Elt Ideal)) :
    (StableHlo.after ((hostOps0_6 (F := Ideal)).take 63) V (Proc.devRef .tc main_v43) : S100352x64.Idx → EReal)
      = relAgg ![0, 0] slices_S3x1000000_S1x1000000_0_0 ![0, 0, 0] slices_S3x100352x1_S1x100352x1_0_0_0
          (V (Proc.devRef .tc main_arg7)) (V (Proc.devRef .tc main_arg8)) (V (Proc.devRef .tc main_v25))
          (V (Proc.devRef .tc main_v24)) := by
  simp (disch := decide) only [List.take_succ_cons, List.take_zero, after_cons, after_nil,
      nullary_result', unary_result', binary_result', ternary_result', reshape_result',
      nullary_result_ne', unary_result_ne', binary_result_ne', ternary_result_ne', reshape_result_ne']
  rfl

open Idealize.ShloMosaic.StableHlo in
set_option maxHeartbeats 4000000 in
/-- Twenty-one of the first sixty-three operations compute relation 1's table from the stretch's inputs. -/
theorem ops6_rel1 (V : Valuation τ sig (Elt Ideal)) :
    (StableHlo.after ((hostOps0_6 (F := Ideal)).take 63) V (Proc.devRef .tc main_v61) : S100352x64.Idx → EReal)
      = relAgg ![1, 0] slices_S3x1000000_S1x1000000_1_0 ![1, 0, 0] slices_S3x100352x1_S1x100352x1_1_0_0
          (V (Proc.devRef .tc main_arg7)) (V (Proc.devRef .tc main_arg8)) (V (Proc.devRef .tc main_v25))
          (V (Proc.devRef .tc main_v24)) := by
  simp (disch := decide) only [List.take_succ_cons, List.take_zero, after_cons, after_nil,
      nullary_result', unary_result', binary_result', ternary_result', reshape_result',
      nullary_result_ne', unary_result_ne', binary_result_ne', ternary_result_ne', reshape_result_ne']
  rfl

open Idealize.ShloMosaic.StableHlo in
set_option maxHeartbeats 4000000 in
/-- Twenty-one of the first sixty-three operations compute relation 2's table from the stretch's inputs. -/
theorem ops6_rel2 (V : Valuation τ sig (Elt Ideal)) :
    (StableHlo.after ((hostOps0_6 (F := Ideal)).take 63) V (Proc.devRef .tc main_v79) : S100352x64.Idx → EReal)
      = relAgg ![2, 0] slices_S3x1000000_S1x1000000_2_0 ![2, 0, 0] slices_S3x100352x1_S1x100352x1_2_0_0
          (V (Proc.devRef .tc main_arg7)) (V (Proc.devRef .tc main_arg8)) (V (Proc.devRef .tc main_v25))
          (V (Proc.devRef .tc main_v24)) := by
  simp (disch := decide) only [List.take_succ_cons, List.take_zero, after_cons, after_nil,
      nullary_result', unary_result', binary_result', ternary_result', reshape_result',
      nullary_result_ne', unary_result_ne', binary_result_ne', ternary_result_ne', reshape_result_ne']
  rfl

/-- After the last stretch, from any contents, the stacked table at (r, n, k), n a node, is the specification's
    normalised aggregate of the features in the first 100000 rows of the padded table the stretch found. -/
theorem agg6 (V : Valuation τ sig (Elt Ideal))
    (hsrc : ∀ (r : Fin 3) (e : Fin 1000000),
      0 ≤ ((V (Proc.devRef .tc main_arg7) : S3x1000000.Idx → BitVec 32) (ix2 r e)).toInt
        ∧ ((V (Proc.devRef .tc main_arg7) : S3x1000000.Idx → BitVec 32) (ix2 r e)).toInt < 100000)
    (h : Fin 100000 → Fin 64 → EReal)
    (hH : ∀ (n : Fin 100000) (k : Fin 64),
      (V (Proc.devRef .tc main_v25) : S100352x64.Idx → EReal) (ix2 (⟨n.val, by omega⟩ : Fin 100352) k) = h n k)
    (hD : ∀ (r : Fin 3) (n : Fin 100000),
      (V (Proc.devRef .tc main_v24) : S3x100352x1.Idx → EReal) (ix3 r (⟨n.val, by omega⟩ : Fin 100352) (0 : Fin 1))
        = Cert.Spec.dinv (fun r e => (V (Proc.devRef .tc main_arg8) : S3x1000000.Idx → BitVec 32) (ix2 r e)) r n)
    (r : Fin 3) (n : Fin 100000) (k : Fin 64) :
    (StableHlo.after (hostOps0_6 (F := Ideal)) V (Proc.devRef .tc main_v83) : S3x100352x64.Idx → EReal)
        (ix3 r (⟨n.val, by omega⟩ : Fin 100352) k)
      = Cert.Spec.agg (fun r e => (V (Proc.devRef .tc main_arg7) : S3x1000000.Idx → BitVec 32) (ix2 r e))
          (fun r e => (V (Proc.devRef .tc main_arg8) : S3x1000000.Idx → BitVec 32) (ix2 r e)) h r n k := by
  rw [StableHlo.after_take_drop 63 (hostOps0_6 (F := Ideal)) V, ops6_tail, ops6_rel0, ops6_rel1, ops6_rel2]
  exact aggStack_spec _ _ _ _ hsrc h hH hD r n k

/-! ## The six first stretches composed -/

section Composed
variable (W : Valuation τ sig (Elt Ideal))

/-- The normaliser buffer after the first six stretches is the normaliser array of the destination words. -/
theorem pre5_v24 :
    (pre5 W (Proc.devRef .tc main_v24) : S3x100352x1.Idx → EReal) = normT (W (Proc.devRef .tc main_arg8)) := by
  show StableHlo.after hostOps0_5 _ (Proc.devRef .tc main_v24) = _
  rw [s5_v24, s4_v24, s3_v23, s2_v22, s2_cst5, s1_v20, s0_cst3, s0_v19]
  rfl

theorem pre5_arg7 : pre5 W (Proc.devRef .tc main_arg7) = W (Proc.devRef .tc main_arg7) := by
  show StableHlo.after hostOps0_5 _ (Proc.devRef .tc main_arg7) = _
  rw [k5_arg7, k4_arg7, k3_arg7, k2_arg7, k1_arg7, k0_arg7]

theorem pre5_arg8 : pre5 W (Proc.devRef .tc main_arg8) = W (Proc.devRef .tc main_arg8) := by
  show StableHlo.after hostOps0_5 _ (Proc.devRef .tc main_arg8) = _
  rw [k5_arg8, k4_arg8, k3_arg8, k2_arg8, k1_arg8, k0_arg8]

/-- The padded feature table after the first six stretches holds the features in its first 100000 rows. -/
theorem pre5_v25_apply (n : Fin 100000) (k : Fin 64) :
    (pre5 W (Proc.devRef .tc main_v25) : S100352x64.Idx → EReal) (ix2 (⟨n.val, by omega⟩ : Fin 100352) k)
      = (W (Proc.devRef .tc main_arg0) : S100000x64.Idx → EReal) (ix2 n k) := by
  show (StableHlo.after (hostOps0_5 (F := Ideal)) _ (Proc.devRef .tc main_v25) : S100352x64.Idx → EReal) _ = _
  rw [s5_v25_apply, k4_arg0, k3_arg0, k2_arg0, k1_arg0, k0_arg0]

/-- The normaliser buffer after the first six stretches, at (r, n, 0), is the specification's normaliser. -/
theorem pre5_dinv (r : Fin 3) (n : Fin 100000) :
    (pre5 W (Proc.devRef .tc main_v24) : S3x100352x1.Idx → EReal) (ix3 r (⟨n.val, by omega⟩ : Fin 100352) (0 : Fin 1))
      = Cert.Spec.dinv (fun r e => (W (Proc.devRef .tc main_arg8) : S3x1000000.Idx → BitVec 32) (ix2 r e)) r n := by
  rw [pre5_v24]
  exact normT_apply _ r n

end Composed

end Stretch0

open Stretch0

/-- The normaliser array at (r, n, 0), n < 100000, is the specification's normaliser of the destination words. -/
theorem dinv0 (W : Valuation τ sig (Elt Ideal)) (r : Fin 3) (n : Fin 100000) :
    (after0 W (Proc.devRef .tc main_v24) : S3x100352x1.Idx → EReal) (ix3 r (⟨n.val, by omega⟩ : Fin 100352) (0 : Fin 1))
      = Cert.Spec.dinv (fun r e => (W (Proc.devRef .tc main_arg8) : S3x1000000.Idx → BitVec 32) (ix2 r e)) r n := by
  show (StableHlo.after hostOps0_6 (pre5 W) (Proc.devRef .tc main_v24) : S3x100352x1.Idx → EReal) _ = _
  rw [s6_v24]
  exact pre5_dinv W r n

/-- The first round's aggregate array at (r, n, k), n < 100000, is the specification's normalised aggregate of the
    input features, the source words being in range. -/
theorem mall0_agg (W : Valuation τ sig (Elt Ideal))
    (hsrc : ∀ (r : Fin 3) (e : Fin 1000000),
      0 ≤ ((W (Proc.devRef .tc main_arg7) : S3x1000000.Idx → BitVec 32) (ix2 r e)).toInt
        ∧ ((W (Proc.devRef .tc main_arg7) : S3x1000000.Idx → BitVec 32) (ix2 r e)).toInt < 100000)
    (r : Fin 3) (n : Fin 100000) (k : Fin 64) :
    (after0 W (Proc.devRef .tc main_v83) : S3x100352x64.Idx → EReal) (ix3 r (⟨n.val, by omega⟩ : Fin 100352) k)
      = Cert.Spec.agg (fun r e => (W (Proc.devRef .tc main_arg7) : S3x1000000.Idx → BitVec 32) (ix2 r e))
          (fun r e => (W (Proc.devRef .tc main_arg8) : S3x1000000.Idx → BitVec 32) (ix2 r e))
          (fun n k => (W (Proc.devRef .tc main_arg0) : S100000x64.Idx → EReal) (ix2 n k)) r n k := by
  have h := agg6 (pre5 W) (by rw [pre5_arg7]; exact hsrc)
    (fun n k => (W (Proc.devRef .tc main_arg0) : S100000x64.Idx → EReal) (ix2 n k))
    (fun n k => pre5_v25_apply W n k) (fun r n => by rw [pre5_arg8]; exact pre5_dinv W r n) r n k
  rw [pre5_arg7, pre5_arg8] at h
  exact h

end Cert.KernelIdeal.HandValue

end
-- ==== Proof.KI.Stretch1.lean ====
/-
  The second round's normalised aggregates: what the host operations between the first and the second kernel leave in
  the stacked table, read at an index.

  The stretch is three times the same twenty-one operations — one relation's table from the edge tables, the first
  round's output and the normaliser — and four that stack the three tables.  Run as its first sixty-three operations
  and then the last four, its result is the stack of the three relations' tables over the stretch's inputs; at
  (r, n, k), n a node, that is the specification's normalised aggregate of the features in the input table's first
  100000 rows.
-/
import proofs.«400914_j13511967113603_4_alg».proof.Proof.KI.StretchLib
import proofs.«400914_j13511967113603_4_alg».proof.Proof.Gen.KernelIdeal.Launch

noncomputable section

namespace Cert.KernelIdeal.HandValue

open Idealize.ShloMosaic Idealize.ShloMosaic.ValueIdx
open Cert.KernelIdeal Cert.KernelIdeal.Gen

open Idealize.ShloMosaic.StableHlo in
set_option maxHeartbeats 4000000 in
set_option maxRecDepth 16384 in
/-- The stretch's last four operations stack the three relations' tables. -/
theorem ops1_tail (V : Valuation τ sig (Elt Ideal)) :
    (StableHlo.after ((hostOps1 (F := Ideal)).drop 63) V (Proc.devRef .tc main_v142) : S3x100352x64.Idx → EReal)
      = stack3 (V (Proc.devRef .tc main_v102)) (V (Proc.devRef .tc main_v120)) (V (Proc.devRef .tc main_v138)) := by
  simp only [List.drop_succ_cons, List.drop_zero, after_cons, after_nil]
  rw [nary3_result]
  repeat (first
    | rw [unary_result]
    | (rw [unary_result_ne]; rotate_left; decide))
  rfl

open Idealize.ShloMosaic.StableHlo in
set_option maxHeartbeats 4000000 in
set_option maxRecDepth 16384 in
/-- Its first twenty-one operations compute relation 0's table from the stretch's inputs. -/
theorem ops1_rel0 (W : Valuation τ sig (Elt Ideal)) :
    (StableHlo.after ((hostOps1 (F := Ideal)).take 63) W (Proc.devRef .tc main_v102) : S100352x64.Idx → EReal)
      = relAgg ![0, 0] slices_S3x1000000_S1x1000000_0_0 ![0, 0, 0] slices_S3x100352x1_S1x100352x1_0_0_0
          (W (Proc.devRef .tc main_arg7)) (W (Proc.devRef .tc main_arg8)) (W (Proc.devRef .tc main_v84))
          (W (Proc.devRef .tc main_v24)) := by
  simp (disch := decide) only [List.take_succ_cons, List.take_zero, after_cons, after_nil,
      nullary_result', unary_result', binary_result', ternary_result', reshape_result',
      nullary_result_ne', unary_result_ne', binary_result_ne', ternary_result_ne', reshape_result_ne']
  rfl

open Idealize.ShloMosaic.StableHlo in
set_option maxHeartbeats 4000000 in
set_option maxRecDepth 16384 in
/-- The next twenty-one compute relation 1's. -/
theorem ops1_rel1 (W : Valuation τ sig (Elt Ideal)) :
    (StableHlo.after ((hostOps1 (F := Ideal)).take 63) W (Proc.devRef .tc main_v120) : S100352x64.Idx → EReal)
      = relAgg ![1, 0] slices_S3x1000000_S1x1000000_1_0 ![1, 0, 0] slices_S3x100352x1_S1x100352x1_1_0_0
          (W (Proc.devRef .tc main_arg7)) (W (Proc.devRef .tc main_arg8)) (W (Proc.devRef .tc main_v84))
          (W (Proc.devRef .tc main_v24)) := by
  simp (disch := decide) only [List.take_succ_cons, List.take_zero, after_cons, after_nil,
      nullary_result', unary_result', binary_result', ternary_result', reshape_result',
      nullary_result_ne', unary_result_ne', binary_result_ne', ternary_result_ne', reshape_result_ne']
  rfl

open Idealize.ShloMosaic.StableHlo in
set_option maxHeartbeats 4000000 in
set_option maxRecDepth 16384 in
/-- The next twenty-one compute relation 2's. -/
theorem ops1_rel2 (W : Valuation τ sig (Elt Ideal)) :
    (StableHlo.after ((hostOps1 (F := Ideal)).take 63) W (Proc.devRef .tc main_v138) : S100352x64.Idx → EReal)
      = relAgg ![2, 0] slices_S3x1000000_S1x1000000_2_0 ![2, 0, 0] slices_S3x100352x1_S1x100352x1_2_0_0
          (W (Proc.devRef .tc main_arg7)) (W (Proc.devRef .tc main_arg8)) (W (Proc.devRef .tc main_v84))
          (W (Proc.devRef .tc main_v24)) := by
  simp (disch := decide) only [List.take_succ_cons, List.take_zero, after_cons, after_nil,
      nullary_result', unary_result', binary_result', ternary_result', reshape_result',
      nullary_result_ne', unary_result_ne', binary_result_ne', ternary_result_ne', reshape_result_ne']
  rfl

/-- After the stretch, the stacked table read at (r, n, k), `n` a node, is the specification's normalised aggregate of
    the features the stretch found in the first 100000 rows of its input table: every source word is in range, the
    input table's rows are the features, and the normaliser's rows are the specification's normalisers. -/
theorem mall1_agg (W : Valuation τ sig (Elt Ideal))
    (hsrc : ∀ (r : Fin 3) (e : Fin 1000000),
      0 ≤ ((W (Proc.devRef .tc main_arg7) : S3x1000000.Idx → BitVec 32) (ix2 r e)).toInt
        ∧ ((W (Proc.devRef .tc main_arg7) : S3x1000000.Idx → BitVec 32) (ix2 r e)).toInt < 100000)
    (h : Fin 100000 → Fin 64 → EReal)
    (hH : ∀ (n : Fin 100000) (k : Fin 64),
      (W (Proc.devRef .tc main_v84) : S100352x64.Idx → EReal) (ix2 (⟨n.val, by omega⟩ : Fin 100352) k) = h n k)
    (hD : ∀ (r : Fin 3) (n : Fin 100000),
      (W (Proc.devRef .tc main_v24) : S3x100352x1.Idx → EReal) (ix3 r (⟨n.val, by omega⟩ : Fin 100352) (0 : Fin 1))
        = Cert.Spec.dinv (fun r e => (W (Proc.devRef .tc main_arg8) : S3x1000000.Idx → BitVec 32) (ix2 r e)) r n)
    (r : Fin 3) (n : Fin 100000) (k : Fin 64) :
    (StableHlo.after (hostOps1 (F := Ideal)) W (Proc.devRef .tc main_v142) : S3x100352x64.Idx → EReal)
        (ix3 r (⟨n.val, by omega⟩ : Fin 100352) k)
      = Cert.Spec.agg (fun r e => (W (Proc.devRef .tc main_arg7) : S3x1000000.Idx → BitVec 32) (ix2 r e))
          (fun r e => (W (Proc.devRef .tc main_arg8) : S3x1000000.Idx → BitVec 32) (ix2 r e)) h r n k := by
  rw [StableHlo.after_take_drop 63 (hostOps1 (F := Ideal)) W, ops1_tail, ops1_rel0, ops1_rel1, ops1_rel2]
  exact aggStack_spec _ _ _ _ hsrc h hH hD r n k

end Cert.KernelIdeal.HandValue

end
-- ==== Proof.KI.Stretch2.lean ====
/-
  The third round's normalised aggregates: what the host operations between the second and the third kernel leave in
  the stacked table, read at an index.

  The stretch is three times the same twenty-one operations — one relation's table from the edge tables, the second
  round's output and the normaliser — and four that stack the three tables.  Run as its first sixty-three operations
  and then the last four, its result is the stack of the three relations' tables over the stretch's inputs; at
  (r, n, k), n a node, that is the specification's normalised aggregate of the features in the input table's first
  100000 rows.
-/
import proofs.«400914_j13511967113603_4_alg».proof.Proof.KI.StretchLib
import proofs.«400914_j13511967113603_4_alg».proof.Proof.Gen.KernelIdeal.Launch

noncomputable section

namespace Cert.KernelIdeal.HandValue

open Idealize.ShloMosaic Idealize.ShloMosaic.ValueIdx
open Cert.KernelIdeal Cert.KernelIdeal.Gen

open Idealize.ShloMosaic.StableHlo in
set_option maxHeartbeats 4000000 in
set_option maxRecDepth 16384 in
/-- The stretch's last four operations stack the three relations' tables. -/
theorem ops2_tail (V : Valuation τ sig (Elt Ideal)) :
    (StableHlo.after ((hostOps2 (F := Ideal)).drop 63) V (Proc.devRef .tc main_v201) : S3x100352x64.Idx → EReal)
      = stack3 (V (Proc.devRef .tc main_v161)) (V (Proc.devRef .tc main_v179)) (V (Proc.devRef .tc main_v197)) := by
  simp only [List.drop_succ_cons, List.drop_zero, after_cons, after_nil]
  rw [nary3_result]
  repeat (first
    | rw [unary_result]
    | (rw [unary_result_ne]; rotate_left; decide))
  rfl

open Idealize.ShloMosaic.StableHlo in
set_option maxHeartbeats 4000000 in
set_option maxRecDepth 16384 in
/-- Its first twenty-one operations compute relation 0's table from the stretch's inputs. -/
theorem ops2_rel0 (W : Valuation τ sig (Elt Ideal)) :
    (StableHlo.after ((hostOps2 (F := Ideal)).take 63) W (Proc.devRef .tc main_v161) : S100352x64.Idx → EReal)
      = relAgg ![0, 0] slices_S3x1000000_S1x1000000_0_0 ![0, 0, 0] slices_S3x100352x1_S1x100352x1_0_0_0
          (W (Proc.devRef .tc main_arg7)) (W (Proc.devRef .tc main_arg8)) (W (Proc.devRef .tc main_v143))
          (W (Proc.devRef .tc main_v24)) := by
  simp (disch := decide) only [List.take_succ_cons, List.take_zero, after_cons, after_nil,
      nullary_result', unary_result', binary_result', ternary_result', reshape_result',
      nullary_result_ne', unary_result_ne', binary_result_ne', ternary_result_ne', reshape_result_ne']
  rfl

open Idealize.ShloMosaic.StableHlo in
set_option maxHeartbeats 4000000 in
set_option maxRecDepth 16384 in
/-- The next twenty-one compute relation 1's. -/
theorem ops2_rel1 (W : Valuation τ sig (Elt Ideal)) :
    (StableHlo.after ((hostOps2 (F := Ideal)).take 63) W (Proc.devRef .tc main_v179) : S100352x64.Idx → EReal)
      = relAgg ![1, 0] slices_S3x1000000_S1x1000000_1_0 ![1, 0, 0] slices_S3x100352x1_S1x100352x1_1_0_0
          (W (Proc.devRef .tc main_arg7)) (W (Proc.devRef .tc main_arg8)) (W (Proc.devRef .tc main_v143))
          (W (Proc.devRef .tc main_v24)) := by
  simp (disch := decide) only [List.take_succ_cons, List.take_zero, after_cons, after_nil,
      nullary_result', unary_result', binary_result', ternary_result', reshape_result',
      nullary_result_ne', unary_result_ne', binary_result_ne', ternary_result_ne', reshape_result_ne']
  rfl

open Idealize.ShloMosaic.StableHlo in
set_option maxHeartbeats 4000000 in
set_option maxRecDepth 16384 in
/-- The next twenty-one compute relation 2's. -/
theorem ops2_rel2 (W : Valuation τ sig (Elt Ideal)) :
    (StableHlo.after ((hostOps2 (F := Ideal)).take 63) W (Proc.devRef .tc main_v197) : S100352x64.Idx → EReal)
      = relAgg ![2, 0] slices_S3x1000000_S1x1000000_2_0 ![2, 0, 0] slices_S3x100352x1_S1x100352x1_2_0_0
          (W (Proc.devRef .tc main_arg7)) (W (Proc.devRef .tc main_arg8)) (W (Proc.devRef .tc main_v143))
          (W (Proc.devRef .tc main_v24)) := by
  simp (disch := decide) only [List.take_succ_cons, List.take_zero, after_cons, after_nil,
      nullary_result', unary_result', binary_result', ternary_result', reshape_result',
      nullary_result_ne', unary_result_ne', binary_result_ne', ternary_result_ne', reshape_result_ne']
  rfl

/-- After the stretch, the stacked table read at (r, n, k), `n` a node, is the specification's normalised aggregate of
    the features the stretch found in the first 100000 rows of its input table: every source word is in range, the
    input table's rows are the features, and the normaliser's rows are the specification's normalisers. -/
theorem mall2_agg (W : Valuation τ sig (Elt Ideal))
    (hsrc : ∀ (r : Fin 3) (e : Fin 1000000),
      0 ≤ ((W (Proc.devRef .tc main_arg7) : S3x1000000.Idx → BitVec 32) (ix2 r e)).toInt
        ∧ ((W (Proc.devRef .tc main_arg7) : S3x1000000.Idx → BitVec 32) (ix2 r e)).toInt < 100000)
    (h : Fin 100000 → Fin 64 → EReal)
    (hH : ∀ (n : Fin 100000) (k : Fin 64),
      (W (Proc.devRef .tc main_v143) : S100352x64.Idx → EReal) (ix2 (⟨n.val, by omega⟩ : Fin 100352) k) = h n k)
    (hD : ∀ (r : Fin 3) (n : Fin 100000),
      (W (Proc.devRef .tc main_v24) : S3x100352x1.Idx → EReal) (ix3 r (⟨n.val, by omega⟩ : Fin 100352) (0 : Fin 1))
        = Cert.Spec.dinv (fun r e => (W (Proc.devRef .tc main_arg8) : S3x1000000.Idx → BitVec 32) (ix2 r e)) r n)
    (r : Fin 3) (n : Fin 100000) (k : Fin 64) :
    (StableHlo.after (hostOps2 (F := Ideal)) W (Proc.devRef .tc main_v201) : S3x100352x64.Idx → EReal)
        (ix3 r (⟨n.val, by omega⟩ : Fin 100352) k)
      = Cert.Spec.agg (fun r e => (W (Proc.devRef .tc main_arg7) : S3x1000000.Idx → BitVec 32) (ix2 r e))
          (fun r e => (W (Proc.devRef .tc main_arg8) : S3x1000000.Idx → BitVec 32) (ix2 r e)) h r n k := by
  rw [StableHlo.after_take_drop 63 (hostOps2 (F := Ideal)) W, ops2_tail, ops2_rel0, ops2_rel1, ops2_rel2]
  exact aggStack_spec _ _ _ _ hsrc h hH hD r n k

end Cert.KernelIdeal.HandValue

end
-- ==== Proof.KI.Stretch34.lean ====
/-
  The host operations between the third round and the scoring kernel, and after it, read at an index.

  Before the scoring kernel: the features are cut to their first 100000 rows; the positive and negative source words
  are laid end to end into one vector of 1000000 words, likewise the destination words; each vector takes rows of the
  features the way an indexing expression does — a negative word is shifted by 100000, the row is gathered at the word
  clamped into the table, and a row whose word lies outside [0, 99999] is replaced by a fill value —; and each result
  is padded below with 7616 zero rows. For words in [0, 100000) the shift, the clamp and the fill do nothing: row i of
  the first half holds the features' row named by the positive word i, row 500000 + i the row named by the negative
  word i.

  After the scoring kernel: its vector is cut to 1000000 entries, and those into the two halves of 500000.
-/
import proofs.«400914_j13511967113603_4_alg».proof.Proof.Spec
import proofs.«400914_j13511967113603_4_alg».proof.Proof.LibRowOps
import proofs.«400914_j13511967113603_4_alg».proof.Proof.Gen.KernelIdeal.Launch
import Idealize.ShloMosaic.Lib.StableHlo.Run
import Idealize.ShloMosaic.Lib.KernelVsHost

noncomputable section

namespace Cert.KernelIdeal.HandValue

open Idealize.ShloMosaic Idealize.SL.Sem
open Cert.KernelIdeal Cert.KernelIdeal.Gen

/-- The buffer contents after the seven host stretches that follow the third round, run in order from contents W. -/
abbrev after3 (W : Valuation τ sig (Elt Ideal)) : Valuation τ sig (Elt Ideal) :=
  StableHlo.after (hostOps3_6 (F := Ideal)) (StableHlo.after (hostOps3_5 (F := Ideal)) (StableHlo.after (hostOps3_4 (F := Ideal))
    (StableHlo.after (hostOps3_3 (F := Ideal)) (StableHlo.after (hostOps3_2 (F := Ideal)) (StableHlo.after (hostOps3_1 (F := Ideal))
      (StableHlo.after (hostOps3 (F := Ideal)) W))))))

open ValueIdx

/-! ## The operations of one take, over plain vectors -/

/-- A left fold by `and` that starts at 1 and meets only 1s ends at 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    refine foldl_andi_ones f l _ ?_ (fun n hn => hl n (List.mem_cons_of_mem _ hn))
    rw [h, hl a List.mem_cons_self]
    rfl

/-- A reduction by `and` from 1 of an array that is 1 everywhere is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_ones x _ _ hinit (fun n _ => hx n)

/-- A select whose condition word is 1 takes its first branch. -/
theorem select_of_one {α : Type} (c : BitVec 1) (a b : α) (hc : c = 1#1) : Scalar.select c a b = a := by
  rw [hc]; exact if_pos rfl

/-- The index words as the gather reads them: a negative word shifted by the table's height, laid as a column. -/
abbrev wrapCol (idx : IVec S1000000 32) (hb0 : S_.BroadcastsInDim S1000000 (![] : Fin 0 → Fin S1000000.rank))
    (hb1 : S1000000.BroadcastsInDim S1000000x1 (![0] : Fin 1 → Fin S1000000x1.rank)) : IVec S1000000x1 32 :=
  broadcastInDim S1000000x1 ![0] hb1
    (select (cmpi .slt idx (broadcastInDim S1000000 ![] hb0 (constantI S_ 32 0#32)))
      (addi idx (broadcastInDim S1000000 ![] hb0 (constantI S_ 32 100000#32))) idx)

/-- A nonnegative word is not shifted: the column holds the word itself. -/
theorem wrapCol_apply (idx : IVec S1000000 32) (hb0 : S_.BroadcastsInDim S1000000 (![] : Fin 0 → Fin S1000000.rank))
    (hb1 : S1000000.BroadcastsInDim S1000000x1 (![0] : Fin 1 → Fin S1000000x1.rank)) (e : Fin 1000000) (q : Fin 1)
    (h0 : 0 ≤ (idx (ix1 e)).toInt) : wrapCol idx hb0 hb1 (ix2 e q) = idx (ix1 e) := by
  refine (broadcastInDim_apply _ hb1 _ (ix2 e q) (ix1 e) ?_).trans ?_
  · intro a; match a with | ⟨0, _⟩ => rfl
  · show Scalar.select (IntOp.cmpi .slt (idx (ix1 e)) 0#32) _ _ = _
    have hc : ¬ IntOp.cmpi .slt (idx (ix1 e)) 0#32 = 1#1 := by
      rw [IntOp.cmpi_slt, show (0#32 : BitVec 32).toInt = 0 from by decide]; omega
    exact if_neg hc

/-- ONE TAKE READ AT (e, k). With every index word in [0, 100000) the range mask is 1 everywhere, so the select keeps
    the gathered row, and the gather reads the table at the row the word names. -/
theorem take_apply (tbl : S100000x64.Idx → EReal) (idx : IVec S1000000 32)
    (hb0 : S_.BroadcastsInDim S1000000 (![] : Fin 0 → Fin S1000000.rank))
    (hb1 : S1000000.BroadcastsInDim S1000000x1 (![0] : Fin 1 → Fin S1000000x1.rank))
    (hb2 : S_.BroadcastsInDim S1000000x1 (![] : Fin 0 → Fin S1000000x1.rank))
    (hb3 : S1.BroadcastsInDim S1x1 (![1] : Fin 1 → Fin S1x1.rank))
    (hb4 : S1x1.BroadcastsInDim S1000000x1 (![0, 1] : Fin 2 → Fin S1000000x1.rank))
    (hr : S1000000x1.ReducesTo [1] S1000000) (hu : 0 < S_.numel)
    (hb5 : S1000000.BroadcastsInDim S1000000x64 (![0] : Fin 1 → Fin S1000000x64.rank))
    (hb6 : S_.BroadcastsInDim S1000000x64 (![] : Fin 0 → Fin S1000000x64.rank))
    (wf : GatherDims.WF S100000x64 S1000000x1 S1000000x64 [1] [0] [] [0] [] 1 ![1, 64])
    (hidx : ∀ e : Fin 1000000, 0 ≤ (idx (ix1 e)).toInt ∧ (idx (ix1 e)).toInt < 100000)
    (e : Fin 1000000) (k : Fin 64) :
    (select
        (broadcastInDim S1000000x64 ![0] hb5
          (Host.reduce IntOp.andi
            (andi
              (cmpi .sge (wrapCol idx hb0 hb1) (broadcastInDim S1000000x1 ![] hb2 (constantI S_ 32 0#32)))
              (cmpi .sle (wrapCol idx hb0 hb1)
                (broadcastInDim S1000000x1 ![0, 1] hb4 (broadcastInDim S1x1 ![1] hb3 (constantI S1 32 99999#32)))))
            (constantI S_ 1 1#1) hr hu))
        (Host.gather (RowOps.rowGather 100000 1000000 64 wf) tbl (wrapCol idx hb0 hb1))
        (broadcastInDim S1000000x64 ![] hb6 (constant (F := Ideal) S_ .f32 0x7FC00000#32)) : S1000000x64.Idx → EReal)
        (ix2 e k)
      = tbl (ix2 (Cert.Spec.rowRef (idx (ix1 e))) k) := by
  have hw : ∀ (p : Fin 1000000) (q : Fin 1), wrapCol idx hb0 hb1 (ix2 p q) = idx (ix1 p) :=
    fun p q => wrapCol_apply idx hb0 hb1 p q (hidx p).1
  rw [ValueIdx.select_apply]
  refine (select_of_one _ _ _ ?_).trans ?_
  · -- the mask
    refine (broadcastInDim_apply _ hb5 _ (ix2 e k) (ix1 e) ?_).trans ?_
    · intro a; match a with | ⟨0, _⟩ => rfl
    · refine reduce_andi_ones _ _ hr hu rfl (fun i => ?_) _
      obtain ⟨p, q, rfl⟩ : ∃ (p : Fin 1000000) (q : Fin 1), i = ix2 p q := ⟨i 0, i 1, eq_ix2 i⟩
      show IntOp.andi (IntOp.cmpi .sge (wrapCol idx hb0 hb1 (ix2 p q)) 0#32)
        (IntOp.cmpi .sle (wrapCol idx hb0 hb1 (ix2 p q)) 99999#32) = 1#1
      rw [hw p q, IntOp.andi_eq_one, IntOp.cmpi_sge, IntOp.cmpi_sle, show (0#32 : BitVec 32).toInt = 0 from by decide,
        show (99999#32 : BitVec 32).toInt = 99999 from by decide]
      have := hidx p
      omega
  · -- the gather
    refine (RowOps.rowGather_apply (by omega) wf tbl _ e k).trans (congrArg (fun n => tbl (ix2 n k)) (Fin.ext ?_))
    show min (wrapCol idx hb0 hb1 (ix2 e (0 : Fin 1))).toInt.toNat (100000 - 1) = (Cert.Spec.rowRef (idx (ix1 e))).val
    rw [hw e 0, Cert.Spec.rowRef_of_range _ (hidx e).1 (hidx e).2]
    have := hidx e
    omega

/-- Contents moved to a typed reference's buffer type and back are the contents. -/
theorem ofBuf_toBuf {sig : RefSig} {Val : EltTy → Type} {T : BufTy} (x : StableHlo.TRef sig T) (v : T.Contents Val) :
    x.ofBuf (x.toBuf v) = v := by
  obtain ⟨r, rfl, h2, h3⟩ := x
  rfl

/-! At a literal reference the move to the buffer's type is the identity. -/
theorem toBuf_v206 (f : S1000000x64.Idx → EReal) (j : S1000000x64.Idx) :
    ((StableHlo.TRef.toBuf (Val := Elt Ideal) (StableHlo.TRef.of main_v206 : StableHlo.TRef sig ⟨S1000000x64, .f32⟩) f) : S1000000x64.Idx → EReal) j = f j := rfl

theorem toBuf_v207 (f : S1000000x64.Idx → EReal) (j : S1000000x64.Idx) :
    ((StableHlo.TRef.toBuf (Val := Elt Ideal) (StableHlo.TRef.of main_v207 : StableHlo.TRef sig ⟨S1000000x64, .f32⟩) f) : S1000000x64.Idx → EReal) j = f j := rfl

theorem toBuf_v208 (f : S1007616x64.Idx → EReal) (j : S1007616x64.Idx) :
    ((StableHlo.TRef.toBuf (Val := Elt Ideal) (StableHlo.TRef.of main_v208 : StableHlo.TRef sig ⟨S1007616x64, .f32⟩) f) : S1007616x64.Idx → EReal) j = f j := rfl

theorem toBuf_v209 (f : S1007616x64.Idx → EReal) (j : S1007616x64.Idx) :
    ((StableHlo.TRef.toBuf (Val := Elt Ideal) (StableHlo.TRef.of main_v209 : StableHlo.TRef sig ⟨S1007616x64, .f32⟩) f) : S1007616x64.Idx → EReal) j = f j := rfl

/-! ## The stretches, each from any contents -/

/-- The cut of the features to their first 100000 rows. -/
theorem s3_v203 (W : Valuation τ sig (Elt Ideal)) (n : Fin 100000) (k : Fin 64) :
    (StableHlo.after (hostOps3 (F := Ideal)) W (Proc.devRef .tc main_v203) : S100000x64.Idx → EReal) (ix2 n k)
      = (W (Proc.devRef .tc main_v202) : S100352x64.Idx → EReal) (ix2 ⟨n.val, by omega⟩ k) := by
  dsimp only [hostOps3]
  after_results
  refine extractStridedSlice_apply _ _ _ (ix2 n k) (ix2 (⟨n.val, by omega⟩ : Fin 100352) k) ?_
  intro a
  match a with
  | ⟨0, _⟩ => show n.val = 0 + n.val; omega
  | ⟨1, _⟩ => show k.val = 0 + k.val; omega

/-- The joined source words: the positive words, then the negative words. -/
theorem s3_v204_left (W : Valuation τ sig (Elt Ideal)) (i : Fin 500000) :
    (StableHlo.after (hostOps3 (F := Ideal)) W (Proc.devRef .tc main_v204) : IVec S1000000 32) (ix1 ⟨i.val, by omega⟩)
      = (W (Proc.devRef .tc main_arg9) : IVec S500000 32) (ix1 i) := by
  dsimp only [hostOps3]
  after_results
  refine concatenate_pair_apply_left (t := S1000000) (s₁ := S500000) (s₂ := S500000) 0 _ _ _ (ix1 (⟨i.val, by omega⟩ : Fin 1000000)) rfl (ix1 i) ?_
  intro b; match b with | ⟨0, _⟩ => rfl

theorem s3_v204_right (W : Valuation τ sig (Elt Ideal)) (i : Fin 500000) :
    (StableHlo.after (hostOps3 (F := Ideal)) W (Proc.devRef .tc main_v204) : IVec S1000000 32) (ix1 ⟨500000 + i.val, by omega⟩)
      = (W (Proc.devRef .tc main_arg11) : IVec S500000 32) (ix1 i) := by
  dsimp only [hostOps3]
  after_results
  refine concatenate_pair_apply_right (t := S1000000) (s₁ := S500000) (s₂ := S500000) 0 _ _ _ (ix1 (⟨500000 + i.val, by omega⟩ : Fin 1000000)) rfl rfl (ix1 i) ?_ ?_
  · intro b hb; exact absurd (Subsingleton.elim _ _) hb
  · show i.val + 500000 = 500000 + i.val; omega

/-- Both halves in range: every word of the joined vector is in range. -/
theorem s3_v204_range (W : Valuation τ sig (Elt Ideal))
    (hl : ∀ i : S500000.Idx, 0 ≤ ((W (Proc.devRef .tc main_arg9) : IVec S500000 32) i).toInt ∧ ((W (Proc.devRef .tc main_arg9) : IVec S500000 32) i).toInt < 100000)
    (hr : ∀ i : S500000.Idx, 0 ≤ ((W (Proc.devRef .tc main_arg11) : IVec S500000 32) i).toInt ∧ ((W (Proc.devRef .tc main_arg11) : IVec S500000 32) i).toInt < 100000)
    (e : Fin 1000000) :
    0 ≤ ((StableHlo.after (hostOps3 (F := Ideal)) W (Proc.devRef .tc main_v204) : IVec S1000000 32) (ix1 e)).toInt
      ∧ ((StableHlo.after (hostOps3 (F := Ideal)) W (Proc.devRef .tc main_v204) : IVec S1000000 32) (ix1 e)).toInt < 100000 := by
  by_cases he : e.val < 500000
  · have := s3_v204_left W ⟨e.val, he⟩
    rw [show (⟨(⟨e.val, he⟩ : Fin 500000).val, by omega⟩ : Fin 1000000) = e from Fin.ext rfl] at this
    rw [this]; exact hl _
  · have := s3_v204_right W ⟨e.val - 500000, by omega⟩
    rw [show (⟨500000 + (⟨e.val - 500000, by omega⟩ : Fin 500000).val, by omega⟩ : Fin 1000000) = e from Fin.ext (by show 500000 + (e.val - 500000) = e.val; omega)] at this
    rw [this]; exact hr _

/-- The joined destination words: the positive words, then the negative words. -/
theorem s3_v205_left (W : Valuation τ sig (Elt Ideal)) (i : Fin 500000) :
    (StableHlo.after (hostOps3 (F := Ideal)) W (Proc.devRef .tc main_v205) : IVec S1000000 32) (ix1 ⟨i.val, by omega⟩)
      = (W (Proc.devRef .tc main_arg10) : IVec S500000 32) (ix1 i) := by
  dsimp only [hostOps3]
  after_results
  refine concatenate_pair_apply_left (t := S1000000) (s₁ := S500000) (s₂ := S500000) 0 _ _ _ (ix1 (⟨i.val, by omega⟩ : Fin 1000000)) rfl (ix1 i) ?_
  intro b; match b with | ⟨0, _⟩ => rfl

theorem s3_v205_right (W : Valuation τ sig (Elt Ideal)) (i : Fin 500000) :
    (StableHlo.after (hostOps3 (F := Ideal)) W (Proc.devRef .tc main_v205) : IVec S1000000 32) (ix1 ⟨500000 + i.val, by omega⟩)
      = (W (Proc.devRef .tc main_arg12) : IVec S500000 32) (ix1 i) := by
  dsimp only [hostOps3]
  after_results
  refine concatenate_pair_apply_right (t := S1000000) (s₁ := S500000) (s₂ := S500000) 0 _ _ _ (ix1 (⟨500000 + i.val, by omega⟩ : Fin 1000000)) rfl rfl (ix1 i) ?_ ?_
  · intro b hb; exact absurd (Subsingleton.elim _ _) hb
  · show i.val + 500000 = 500000 + i.val; omega

/-- Both halves in range: every word of the joined vector is in range. -/
theorem s3_v205_range (W : Valuation τ sig (Elt Ideal))
    (hl : ∀ i : S500000.Idx, 0 ≤ ((W (Proc.devRef .tc main_arg10) : IVec S500000 32) i).toInt ∧ ((W (Proc.devRef .tc main_arg10) : IVec S500000 32) i).toInt < 100000)
    (hr : ∀ i : S500000.Idx, 0 ≤ ((W (Proc.devRef .tc main_arg12) : IVec S500000 32) i).toInt ∧ ((W (Proc.devRef .tc main_arg12) : IVec S500000 32) i).toInt < 100000)
    (e : Fin 1000000) :
    0 ≤ ((StableHlo.after (hostOps3 (F := Ideal)) W (Proc.devRef .tc main_v205) : IVec S1000000 32) (ix1 e)).toInt
      ∧ ((StableHlo.after (hostOps3 (F := Ideal)) W (Proc.devRef .tc main_v205) : IVec S1000000 32) (ix1 e)).toInt < 100000 := by
  by_cases he : e.val < 500000
  · have := s3_v205_left W ⟨e.val, he⟩
    rw [show (⟨(⟨e.val, he⟩ : Fin 500000).val, by omega⟩ : Fin 1000000) = e from Fin.ext rfl] at this
    rw [this]; exact hl _
  · have := s3_v205_right W ⟨e.val - 500000, by omega⟩
    rw [show (⟨500000 + (⟨e.val - 500000, by omega⟩ : Fin 500000).val, by omega⟩ : Fin 1000000) = e from Fin.ext (by show 500000 + (e.val - 500000) = e.val; omega)] at this
    rw [this]; exact hr _

/-- The first take: rows of the cut features named by the joined source words. -/
theorem take1_row (V : Valuation τ sig (Elt Ideal))
    (hidx : ∀ e : Fin 1000000, 0 ≤ ((V (Proc.devRef .tc main_v204) : IVec S1000000 32) (ix1 e)).toInt
      ∧ ((V (Proc.devRef .tc main_v204) : IVec S1000000 32) (ix1 e)).toInt < 100000)
    (e : Fin 1000000) (k : Fin 64) :
    (StableHlo.after (hostOps3_1 (F := Ideal)) V (Proc.devRef .tc main_v206) : S1000000x64.Idx → EReal) (ix2 e k)
      = (V (Proc.devRef .tc main_v203) : S100000x64.Idx → EReal)
          (ix2 (Cert.Spec.rowRef ((V (Proc.devRef .tc main_v204) : IVec S1000000 32) (ix1 e))) k) := by
  dsimp only [hostOps3_1]
  after_results_simp
  simp only [ofBuf_toBuf]
  refine (toBuf_v206 _ _).trans ?_
  refine (take_apply _ _ _ _ _ _ _ _ _ _ _ _ ?_ e k).trans ?_
  · exact hidx
  · rfl

/-- The second take: rows of the cut features named by the joined destination words. -/
theorem take2_row (V : Valuation τ sig (Elt Ideal))
    (hidx : ∀ e : Fin 1000000, 0 ≤ ((V (Proc.devRef .tc main_v205) : IVec S1000000 32) (ix1 e)).toInt
      ∧ ((V (Proc.devRef .tc main_v205) : IVec S1000000 32) (ix1 e)).toInt < 100000)
    (e : Fin 1000000) (k : Fin 64) :
    (StableHlo.after (hostOps3_2 (F := Ideal)) V (Proc.devRef .tc main_v207) : S1000000x64.Idx → EReal) (ix2 e k)
      = (V (Proc.devRef .tc main_v203) : S100000x64.Idx → EReal)
          (ix2 (Cert.Spec.rowRef ((V (Proc.devRef .tc main_v205) : IVec S1000000 32) (ix1 e))) k) := by
  dsimp only [hostOps3_2]
  after_results_simp
  simp only [ofBuf_toBuf]
  refine (toBuf_v207 _ _).trans ?_
  refine (take_apply _ _ _ _ _ _ _ _ _ _ _ _ ?_ e k).trans ?_
  · exact hidx
  · rfl

/-- The first padding keeps the rows it is given. -/
theorem pad1_row (V : Valuation τ sig (Elt Ideal)) (e : Fin 1000000) (k : Fin 64) :
    (StableHlo.after (hostOps3_4 (F := Ideal)) V (Proc.devRef .tc main_v208) : S1007616x64.Idx → EReal) (ix2 ⟨e.val, by omega⟩ k)
      = (V (Proc.devRef .tc main_v206) : S1000000x64.Idx → EReal) (ix2 e k) := by
  dsimp only [hostOps3_4]
  after_results_simp
  simp only [ofBuf_toBuf]
  refine (toBuf_v208 _ _).trans ?_
  refine (pad_apply_of_inside _ _ _ _ _ _ _ _ (ix2 e k) ?_).trans ?_
  · intro a
    match a with
    | ⟨0, _⟩ => show e.val = 0 + e.val * (0 + 1); omega
    | ⟨1, _⟩ => show k.val = 0 + k.val * (0 + 1); omega
  · rfl

/-- The second padding keeps the rows it is given. -/
theorem pad2_row (V : Valuation τ sig (Elt Ideal)) (e : Fin 1000000) (k : Fin 64) :
    (StableHlo.after (hostOps3_6 (F := Ideal)) V (Proc.devRef .tc main_v209) : S1007616x64.Idx → EReal) (ix2 ⟨e.val, by omega⟩ k)
      = (V (Proc.devRef .tc main_v207) : S1000000x64.Idx → EReal) (ix2 e k) := by
  dsimp only [hostOps3_6]
  after_results_simp
  simp only [ofBuf_toBuf]
  refine (toBuf_v209 _ _).trans ?_
  refine (pad_apply_of_inside _ _ _ _ _ _ _ _ (ix2 e k) ?_).trans ?_
  · intro a
    match a with
    | ⟨0, _⟩ => show e.val = 0 + e.val * (0 + 1); omega
    | ⟨1, _⟩ => show k.val = 0 + k.val * (0 + 1); omega
  · rfl

/-! What each stretch leaves as it found it (of the buffers read later). -/

theorem frame31_v203 (V : Valuation τ sig (Elt Ideal)) :
    StableHlo.after (hostOps3_1 (F := Ideal)) V (Proc.devRef .tc main_v203) = V (Proc.devRef .tc main_v203) := by
  dsimp only [hostOps3_1]
  after_results_simp

theorem frame31_v205 (V : Valuation τ sig (Elt Ideal)) :
    StableHlo.after (hostOps3_1 (F := Ideal)) V (Proc.devRef .tc main_v205) = V (Proc.devRef .tc main_v205) := by
  dsimp only [hostOps3_1]
  after_results_simp

theorem frame32_v206 (V : Valuation τ sig (Elt Ideal)) :
    StableHlo.after (hostOps3_2 (F := Ideal)) V (Proc.devRef .tc main_v206) = V (Proc.devRef .tc main_v206) := by
  dsimp only [hostOps3_2]
  after_results_simp

theorem frame33_v206 (V : Valuation τ sig (Elt Ideal)) :
    StableHlo.after (hostOps3_3 (F := Ideal)) V (Proc.devRef .tc main_v206) = V (Proc.devRef .tc main_v206) := by
  dsimp only [hostOps3_3]
  after_results_simp

theorem frame33_v207 (V : Valuation τ sig (Elt Ideal)) :
    StableHlo.after (hostOps3_3 (F := Ideal)) V (Proc.devRef .tc main_v207) = V (Proc.devRef .tc main_v207) := by
  dsimp only [hostOps3_3]
  after_results_simp

theorem frame34_v207 (V : Valuation τ sig (Elt Ideal)) :
    StableHlo.after (hostOps3_4 (F := Ideal)) V (Proc.devRef .tc main_v207) = V (Proc.devRef .tc main_v207) := by
  dsimp only [hostOps3_4]
  after_results_simp

theorem frame35_v207 (V : Valuation τ sig (Elt Ideal)) :
    StableHlo.after (hostOps3_5 (F := Ideal)) V (Proc.devRef .tc main_v207) = V (Proc.devRef .tc main_v207) := by
  dsimp only [hostOps3_5]
  after_results_simp

theorem frame35_v208 (V : Valuation τ sig (Elt Ideal)) :
    StableHlo.after (hostOps3_5 (F := Ideal)) V (Proc.devRef .tc main_v208) = V (Proc.devRef .tc main_v208) := by
  dsimp only [hostOps3_5]
  after_results_simp

theorem frame36_v208 (V : Valuation τ sig (Elt Ideal)) :
    StableHlo.after (hostOps3_6 (F := Ideal)) V (Proc.devRef .tc main_v208) = V (Proc.devRef .tc main_v208) := by
  dsimp only [hostOps3_6]
  after_results_simp

/-! ## The seven stretches together -/

/-- Row e of the first padded table is the features' row named by word e of the joined source words. -/
theorem v208_row (W : Valuation τ sig (Elt Ideal))
    (hl : (∀ i : S500000.Idx, 0 ≤ ((W (Proc.devRef .tc main_arg9) : IVec S500000 32) i).toInt ∧ ((W (Proc.devRef .tc main_arg9) : IVec S500000 32) i).toInt < 100000))
    (hr : (∀ i : S500000.Idx, 0 ≤ ((W (Proc.devRef .tc main_arg11) : IVec S500000 32) i).toInt ∧ ((W (Proc.devRef .tc main_arg11) : IVec S500000 32) i).toInt < 100000))
    (h : Fin 100000 → Fin 64 → EReal)
    (hH : ∀ (n : Fin 100000) (k : Fin 64), (W (Proc.devRef .tc main_v202) : S100352x64.Idx → EReal) (ValueIdx.ix2 ⟨n.val, by omega⟩ k) = h n k)
    (e : Fin 1000000) (k : Fin 64) :
    (after3 W (Proc.devRef .tc main_v208) : S1007616x64.Idx → EReal) (ix2 ⟨e.val, by omega⟩ k)
      = h (Cert.Spec.rowRef ((StableHlo.after (hostOps3 (F := Ideal)) W (Proc.devRef .tc main_v204) : IVec S1000000 32) (ix1 e))) k := by
  dsimp only [after3]
  rw [frame36_v208, frame35_v208]
  refine (pad1_row _ e k).trans ?_
  rw [frame33_v206, frame32_v206]
  refine (take1_row _ (s3_v204_range W hl hr) e k).trans ?_
  exact (s3_v203 W _ k).trans (hH _ k)

/-- Row e of the second padded table is the features' row named by word e of the joined destination words. -/
theorem v209_row (W : Valuation τ sig (Elt Ideal))
    (hl : (∀ i : S500000.Idx, 0 ≤ ((W (Proc.devRef .tc main_arg10) : IVec S500000 32) i).toInt ∧ ((W (Proc.devRef .tc main_arg10) : IVec S500000 32) i).toInt < 100000))
    (hr : (∀ i : S500000.Idx, 0 ≤ ((W (Proc.devRef .tc main_arg12) : IVec S500000 32) i).toInt ∧ ((W (Proc.devRef .tc main_arg12) : IVec S500000 32) i).toInt < 100000))
    (h : Fin 100000 → Fin 64 → EReal)
    (hH : ∀ (n : Fin 100000) (k : Fin 64), (W (Proc.devRef .tc main_v202) : S100352x64.Idx → EReal) (ValueIdx.ix2 ⟨n.val, by omega⟩ k) = h n k)
    (e : Fin 1000000) (k : Fin 64) :
    (after3 W (Proc.devRef .tc main_v209) : S1007616x64.Idx → EReal) (ix2 ⟨e.val, by omega⟩ k)
      = h (Cert.Spec.rowRef ((StableHlo.after (hostOps3 (F := Ideal)) W (Proc.devRef .tc main_v205) : IVec S1000000 32) (ix1 e))) k := by
  dsimp only [after3]
  refine (pad2_row _ e k).trans ?_
  rw [frame35_v207, frame34_v207, frame33_v207]
  refine (take2_row _ ?_ e k).trans ?_
  · intro e'
    rw [frame31_v205]
    exact s3_v205_range W hl hr e'
  · rw [frame31_v203, frame31_v205]
    exact (s3_v203 W _ k).trans (hH _ k)

/-- Rows of the first half: row i of either padded table is the features' row the positive word i names. -/
theorem rows_pos (W : Valuation τ sig (Elt Ideal))
    (hps : (∀ i : S500000.Idx, 0 ≤ ((W (Proc.devRef .tc main_arg9) : IVec S500000 32) i).toInt ∧ ((W (Proc.devRef .tc main_arg9) : IVec S500000 32) i).toInt < 100000))
    (hpd : (∀ i : S500000.Idx, 0 ≤ ((W (Proc.devRef .tc main_arg10) : IVec S500000 32) i).toInt ∧ ((W (Proc.devRef .tc main_arg10) : IVec S500000 32) i).toInt < 100000))
    (hns : (∀ i : S500000.Idx, 0 ≤ ((W (Proc.devRef .tc main_arg11) : IVec S500000 32) i).toInt ∧ ((W (Proc.devRef .tc main_arg11) : IVec S500000 32) i).toInt < 100000))
    (hnd : (∀ i : S500000.Idx, 0 ≤ ((W (Proc.devRef .tc main_arg12) : IVec S500000 32) i).toInt ∧ ((W (Proc.devRef .tc main_arg12) : IVec S500000 32) i).toInt < 100000))
    (h : Fin 100000 → Fin 64 → EReal)
    (hH : ∀ (n : Fin 100000) (k : Fin 64), (W (Proc.devRef .tc main_v202) : S100352x64.Idx → EReal) (ValueIdx.ix2 ⟨n.val, by omega⟩ k) = h n k)
    (i : Fin 500000) (k : Fin 64) :
    (after3 W (Proc.devRef .tc main_v208) : S1007616x64.Idx → EReal) (ValueIdx.ix2 ⟨i.val, by omega⟩ k)
        = h (Cert.Spec.rowRef ((W (Proc.devRef .tc main_arg9) : IVec S500000 32) (ValueIdx.ix1 i))) k
      ∧ (after3 W (Proc.devRef .tc main_v209) : S1007616x64.Idx → EReal) (ValueIdx.ix2 ⟨i.val, by omega⟩ k)
        = h (Cert.Spec.rowRef ((W (Proc.devRef .tc main_arg10) : IVec S500000 32) (ValueIdx.ix1 i))) k := by
  refine ⟨?_, ?_⟩
  · refine (v208_row W hps hns h hH ⟨i.val, by omega⟩ k).trans ?_
    rw [s3_v204_left W i]
  · refine (v209_row W hpd hnd h hH ⟨i.val, by omega⟩ k).trans ?_
    rw [s3_v205_left W i]

/-- Rows of the second half: row 500000 + i of either padded table is the features' row the negative word i names. -/
theorem rows_neg (W : Valuation τ sig (Elt Ideal))
    (hps : (∀ i : S500000.Idx, 0 ≤ ((W (Proc.devRef .tc main_arg9) : IVec S500000 32) i).toInt ∧ ((W (Proc.devRef .tc main_arg9) : IVec S500000 32) i).toInt < 100000))
    (hpd : (∀ i : S500000.Idx, 0 ≤ ((W (Proc.devRef .tc main_arg10) : IVec S500000 32) i).toInt ∧ ((W (Proc.devRef .tc main_arg10) : IVec S500000 32) i).toInt < 100000))
    (hns : (∀ i : S500000.Idx, 0 ≤ ((W (Proc.devRef .tc main_arg11) : IVec S500000 32) i).toInt ∧ ((W (Proc.devRef .tc main_arg11) : IVec S500000 32) i).toInt < 100000))
    (hnd : (∀ i : S500000.Idx, 0 ≤ ((W (Proc.devRef .tc main_arg12) : IVec S500000 32) i).toInt ∧ ((W (Proc.devRef .tc main_arg12) : IVec S500000 32) i).toInt < 100000))
    (h : Fin 100000 → Fin 64 → EReal)
    (hH : ∀ (n : Fin 100000) (k : Fin 64), (W (Proc.devRef .tc main_v202) : S100352x64.Idx → EReal) (ValueIdx.ix2 ⟨n.val, by omega⟩ k) = h n k)
    (i : Fin 500000) (k : Fin 64) :
    (after3 W (Proc.devRef .tc main_v208) : S1007616x64.Idx → EReal) (ValueIdx.ix2 ⟨500000 + i.val, by omega⟩ k)
        = h (Cert.Spec.rowRef ((W (Proc.devRef .tc main_arg11) : IVec S500000 32) (ValueIdx.ix1 i))) k
      ∧ (after3 W (Proc.devRef .tc main_v209) : S1007616x64.Idx → EReal) (ValueIdx.ix2 ⟨500000 + i.val, by omega⟩ k)
        = h (Cert.Spec.rowRef ((W (Proc.devRef .tc main_arg12) : IVec S500000 32) (ValueIdx.ix1 i))) k := by
  refine ⟨?_, ?_⟩
  · refine (v208_row W hps hns h hH ⟨500000 + i.val, by omega⟩ k).trans ?_
    rw [s3_v204_right W i]
  · refine (v209_row W hpd hnd h hH ⟨500000 + i.val, by omega⟩ k).trans ?_
    rw [s3_v205_right W i]

/-! ## After the scoring kernel -/

/-- The first result: entry i of the scoring kernel's vector. -/
theorem out_pos (W : Valuation τ sig (Elt Ideal)) (i : Fin 500000) :
    (StableHlo.after (hostOps4 (F := Ideal)) W (Proc.devRef .tc main_v212) : S500000.Idx → EReal) (ValueIdx.ix1 i)
      = (W (Proc.devRef .tc main_v210) : S1007616.Idx → EReal) (ValueIdx.ix1 ⟨i.val, by omega⟩) := by
  dsimp only [hostOps4]
  after_results
  refine (extractStridedSlice_apply _ _ _ (ValueIdx.ix1 i) (ValueIdx.ix1 (⟨i.val, by omega⟩ : Fin 1000000)) ?_).trans ?_
  · intro a; match a with | ⟨0, _⟩ => show i.val = 0 + i.val; omega
  refine extractStridedSlice_apply _ _ _ (ValueIdx.ix1 (⟨i.val, by omega⟩ : Fin 1000000)) (ValueIdx.ix1 (⟨i.val, by omega⟩ : Fin 1007616)) ?_
  intro a; match a with | ⟨0, _⟩ => show i.val = 0 + i.val; omega

/-- The second result: entry 500000 + i of the scoring kernel's vector. -/
theorem out_neg (W : Valuation τ sig (Elt Ideal)) (i : Fin 500000) :
    (StableHlo.after (hostOps4 (F := Ideal)) W (Proc.devRef .tc main_v213) : S500000.Idx → EReal) (ValueIdx.ix1 i)
      = (W (Proc.devRef .tc main_v210) : S1007616.Idx → EReal) (ValueIdx.ix1 ⟨500000 + i.val, by omega⟩) := by
  dsimp only [hostOps4]
  after_results
  refine (extractStridedSlice_apply _ _ _ (ValueIdx.ix1 i) (ValueIdx.ix1 (⟨500000 + i.val, by omega⟩ : Fin 1000000)) ?_).trans ?_
  · intro a; match a with | ⟨0, _⟩ => show 500000 + i.val = 500000 + i.val; omega
  refine extractStridedSlice_apply _ _ _ (ValueIdx.ix1 (⟨500000 + i.val, by omega⟩ : Fin 1000000)) (ValueIdx.ix1 (⟨500000 + i.val, by omega⟩ : Fin 1007616)) ?_
  intro a; match a with | ⟨0, _⟩ => show 500000 + i.val = 0 + (500000 + i.val); omega

end Cert.KernelIdeal.HandValue

end
-- ==== Proof.KI.KernelValue.lean ====
import proofs.«400914_j13511967113603_4_alg».proof.Proof.KI.Kept
import proofs.«400914_j13511967113603_4_alg».proof.Proof.KI.Conv0Value
import proofs.«400914_j13511967113603_4_alg».proof.Proof.KI.Conv1Value
import proofs.«400914_j13511967113603_4_alg».proof.Proof.KI.Conv2Value
import proofs.«400914_j13511967113603_4_alg».proof.Proof.KI.Score3Value
import proofs.«400914_j13511967113603_4_alg».proof.Proof.KI.Stretch0
import proofs.«400914_j13511967113603_4_alg».proof.Proof.KI.Stretch1
import proofs.«400914_j13511967113603_4_alg».proof.Proof.KI.Stretch2
import proofs.«400914_j13511967113603_4_alg».proof.Proof.KI.Stretch34

/-! # What the kernel program's results hold, index by index

Under the index ranges the precondition states, the program's two result arrays are the pair scores of the
specification.  The boundary contents are followed from the launch memory: the first stretches leave the degree
normaliser and the first round's aggregates; each convolution call leaves a round's features on the first 100000
rows, and the stretch after it the next round's aggregates; the last stretches gather the pairs' rows, the scoring
call takes their dot products, and the final slices split the positive from the negative pairs. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## The inputs as curried functions -/

abbrev srcS : Fin 3 → Fin 1000000 → BitVec 32 := fun r e => (m ((c : Thread nD τ).loc main_arg7) : S3x1000000.Idx → BitVec 32) (ix2 r e)
abbrev dstS : Fin 3 → Fin 1000000 → BitVec 32 := fun r e => (m ((c : Thread nD τ).loc main_arg8) : S3x1000000.Idx → BitVec 32) (ix2 r e)
abbrev xS : Fin 100000 → Fin 64 → EReal := fun n k => (m ((c : Thread nD τ).loc main_arg0) : S100000x64.Idx → EReal) (ix2 n k)
abbrev w1S : Fin 3 → Fin 64 → Fin 64 → EReal := fun r k j => (m ((c : Thread nD τ).loc main_arg1) : S3x64x64.Idx → EReal) (ix3 r k j)
abbrev b1S : Fin 3 → Fin 64 → EReal := fun r j => (m ((c : Thread nD τ).loc main_arg2) : S3x64.Idx → EReal) (ix2 r j)
abbrev w2S : Fin 3 → Fin 64 → Fin 64 → EReal := fun r k j => (m ((c : Thread nD τ).loc main_arg3) : S3x64x64.Idx → EReal) (ix3 r k j)
abbrev b2S : Fin 3 → Fin 64 → EReal := fun r j => (m ((c : Thread nD τ).loc main_arg4) : S3x64.Idx → EReal) (ix2 r j)
abbrev w3S : Fin 3 → Fin 64 → Fin 64 → EReal := fun r k j => (m ((c : Thread nD τ).loc main_arg5) : S3x64x64.Idx → EReal) (ix3 r k j)
abbrev b3S : Fin 3 → Fin 64 → EReal := fun r j => (m ((c : Thread nD τ).loc main_arg6) : S3x64.Idx → EReal) (ix2 r j)
abbrev psS : Fin 500000 → BitVec 32 := fun i => (m ((c : Thread nD τ).loc main_arg9) : S500000.Idx → BitVec 32) (ix1 i)
abbrev pdS : Fin 500000 → BitVec 32 := fun i => (m ((c : Thread nD τ).loc main_arg10) : S500000.Idx → BitVec 32) (ix1 i)
abbrev nsS : Fin 500000 → BitVec 32 := fun i => (m ((c : Thread nD τ).loc main_arg11) : S500000.Idx → BitVec 32) (ix1 i)
abbrev ndS : Fin 500000 → BitVec 32 := fun i => (m ((c : Thread nD τ).loc main_arg12) : S500000.Idx → BitVec 32) (ix1 i)

/-- The features after one, two and three rounds. -/
abbrev h1S : Fin 100000 → Fin 64 → EReal := Cert.Spec.layerS (srcS m c) (dstS m c) (w1S m c) (b1S m c) (xS m c)
abbrev h2S : Fin 100000 → Fin 64 → EReal := Cert.Spec.layerS (srcS m c) (dstS m c) (w2S m c) (b2S m c) (h1S m c)
abbrev h3S : Fin 100000 → Fin 64 → EReal := Cert.Spec.layerS (srcS m c) (dstS m c) (w3S m c) (b3S m c) (h2S m c)

/-- The index ranges the precondition states. -/
structure Ranges : Prop where
  src : ∀ i : S3x1000000.Idx, 0 ≤ ((m ((c : Thread nD τ).loc main_arg7) : S3x1000000.Idx → BitVec 32) i).toInt ∧ ((m ((c : Thread nD τ).loc main_arg7) : S3x1000000.Idx → BitVec 32) i).toInt < 100000
  ps : ∀ i : S500000.Idx, 0 ≤ ((m ((c : Thread nD τ).loc main_arg9) : S500000.Idx → BitVec 32) i).toInt ∧ ((m ((c : Thread nD τ).loc main_arg9) : S500000.Idx → BitVec 32) i).toInt < 100000
  pd : ∀ i : S500000.Idx, 0 ≤ ((m ((c : Thread nD τ).loc main_arg10) : S500000.Idx → BitVec 32) i).toInt ∧ ((m ((c : Thread nD τ).loc main_arg10) : S500000.Idx → BitVec 32) i).toInt < 100000
  ns : ∀ i : S500000.Idx, 0 ≤ ((m ((c : Thread nD τ).loc main_arg11) : S500000.Idx → BitVec 32) i).toInt ∧ ((m ((c : Thread nD τ).loc main_arg11) : S500000.Idx → BitVec 32) i).toInt < 100000
  nd : ∀ i : S500000.Idx, 0 ≤ ((m ((c : Thread nD τ).loc main_arg12) : S500000.Idx → BitVec 32) i).toInt ∧ ((m ((c : Thread nD τ).loc main_arg12) : S500000.Idx → BitVec 32) i).toInt < 100000

variable {m c}

/-! ## The normaliser and the first round -/

/-- An argument's contents at a boundary are its launch contents (a restatement over the launch valuation). -/
theorem W0_apply (b : Ref sig .tc) : W0 m ρ c (Proc.devRef .tc b) = m ((c : Thread nD τ).loc b) := rfl

/-- The degree normaliser as the first call finds it. -/
theorem dinv_W7 (r : Fin 3) (n : Fin 100000) :
    (W7 m ρ c (Proc.devRef .tc main_v24) : S3x100352x1.Idx → EReal) (ix3 r (⟨n.val, by omega⟩ : Fin 100352) (0 : Fin 1))
      = Cert.Spec.dinv (dstS m c) r n :=
  dinv0 (W0 m ρ c) r n

/-- The first round's aggregates as the first call finds them. -/
theorem agg_W7 (hR : Ranges m c) (r : Fin 3) (n : Fin 100000) (k : Fin 64) :
    (W7 m ρ c (Proc.devRef .tc main_v83) : S3x100352x64.Idx → EReal) (ix3 r (⟨n.val, by omega⟩ : Fin 100352) k)
      = Cert.Spec.agg (srcS m c) (dstS m c) (xS m c) r n k :=
  mall0_agg (W0 m ρ c) (fun r e => hR.src (ix2 r e)) r n k

/-- The first call's result on the first 100000 rows: one round of the specification. -/
theorem feat_W8 (hR : Ranges m c) (n : Fin 100000) (j : Fin 64) :
    (W8 m ρ c (Proc.devRef .tc main_v84) : S100352x64.Idx → EReal) (ix2 (⟨n.val, by omega⟩ : Fin 100352) j) = h1S m c n j := by
  have e := conv0_arr (V7 m ρ) c (⟨n.val, by omega⟩ : Fin 100352) j
  have hm : ∀ (r : Fin 3) (k : Fin 64), mArr0 (V7 m ρ) c (ix3 r (⟨n.val, by omega⟩ : Fin 100352) k) = Cert.Spec.agg (srcS m c) (dstS m c) (xS m c) r n k :=
    fun r k => agg_W7 ρ hR r n k
  have hw : ∀ (r : Fin 3) (k j : Fin 64), wArr0 (V7 m ρ) c (ix3 r k j) = w1S m c r k j :=
    fun r k j => congrFun (W7_arg m ρ c main_arg1 (by decide)) (ix3 r k j)
  have hb : ∀ (r : Fin 3) (j : Fin 64), bArr0 (V7 m ρ) c (ix2 r j) = b1S m c r j :=
    fun r j => congrFun (W7_arg m ρ c main_arg2 (by decide)) (ix2 r j)
  have ho : (W8 m ρ c (Proc.devRef .tc main_v84) : S100352x64.Idx → EReal) = oArr0 (V7 m ρ) c := W8_arr m ρ c 3
  rw [ho, e]
  simp only [hm, hw, hb]
  rfl

/-! ## The second and third rounds -/

/-- The source words as a boundary holds them are the launch's. -/
theorem src_at {W : Valuation τ sig (Elt Ideal)} (hW : W (Proc.devRef .tc main_arg7) = m ((c : Thread nD τ).loc main_arg7)) (hR : Ranges m c)
    (r : Fin 3) (e : Fin 1000000) :
    0 ≤ ((W (Proc.devRef .tc main_arg7) : S3x1000000.Idx → BitVec 32) (ix2 r e)).toInt
      ∧ ((W (Proc.devRef .tc main_arg7) : S3x1000000.Idx → BitVec 32) (ix2 r e)).toInt < 100000 := by
  rw [hW]; exact hR.src (ix2 r e)

/-- The second round's aggregates as the second call finds them. -/
theorem agg_W9 (hR : Ranges m c) (r : Fin 3) (n : Fin 100000) (k : Fin 64) :
    (W9 m ρ c (Proc.devRef .tc main_v142) : S3x100352x64.Idx → EReal) (ix3 r (⟨n.val, by omega⟩ : Fin 100352) k)
      = Cert.Spec.agg (srcS m c) (dstS m c) (h1S m c) r n k := by
  have h7 := W8_arg m ρ c main_arg7 (by decide)
  have h8 := W8_arg m ρ c main_arg8 (by decide)
  have h := mall1_agg (W8 m ρ c) (src_at h7 hR) (h1S m c) (fun n k => feat_W8 ρ hR n k)
    (fun r n => by rw [h8, W8_v24 m ρ c]; exact dinv_W7 ρ r n) r n k
  rw [h7, h8] at h
  exact h

/-- The second call's result on the first 100000 rows: two rounds. -/
theorem feat_W10 (hR : Ranges m c) (n : Fin 100000) (j : Fin 64) :
    (W10 m ρ c (Proc.devRef .tc main_v143) : S100352x64.Idx → EReal) (ix2 (⟨n.val, by omega⟩ : Fin 100352) j) = h2S m c n j := by
  have e := conv1_arr (V9 m ρ) c (⟨n.val, by omega⟩ : Fin 100352) j
  have hm : ∀ (r : Fin 3) (k : Fin 64), mArr1 (V9 m ρ) c (ix3 r (⟨n.val, by omega⟩ : Fin 100352) k) = Cert.Spec.agg (srcS m c) (dstS m c) (h1S m c) r n k :=
    fun r k => agg_W9 ρ hR r n k
  have hw : ∀ (r : Fin 3) (k j : Fin 64), wArr1 (V9 m ρ) c (ix3 r k j) = w2S m c r k j :=
    fun r k j => congrFun (W9_arg m ρ c main_arg3 (by decide)) (ix3 r k j)
  have hb : ∀ (r : Fin 3) (j : Fin 64), bArr1 (V9 m ρ) c (ix2 r j) = b2S m c r j :=
    fun r j => congrFun (W9_arg m ρ c main_arg4 (by decide)) (ix2 r j)
  have ho : (W10 m ρ c (Proc.devRef .tc main_v143) : S100352x64.Idx → EReal) = oArr1 (V9 m ρ) c := W10_arr m ρ c 3
  rw [ho, e]
  simp only [hm, hw, hb]
  rfl

/-- The third round's aggregates as the third call finds them. -/
theorem agg_W11 (hR : Ranges m c) (r : Fin 3) (n : Fin 100000) (k : Fin 64) :
    (W11 m ρ c (Proc.devRef .tc main_v201) : S3x100352x64.Idx → EReal) (ix3 r (⟨n.val, by omega⟩ : Fin 100352) k)
      = Cert.Spec.agg (srcS m c) (dstS m c) (h2S m c) r n k := by
  have h7 := W10_arg m ρ c main_arg7 (by decide)
  have h8 := W10_arg m ρ c main_arg8 (by decide)
  have h := mall2_agg (W10 m ρ c) (src_at h7 hR) (h2S m c) (fun n k => feat_W10 ρ hR n k)
    (fun r n => by rw [h8, W10_v24 m ρ c]; exact dinv_W7 ρ r n) r n k
  rw [h7, h8] at h
  exact h

/-- The third call's result on the first 100000 rows: the three rounds. -/
theorem feat_W12 (hR : Ranges m c) (n : Fin 100000) (j : Fin 64) :
    (W12 m ρ c (Proc.devRef .tc main_v202) : S100352x64.Idx → EReal) (ix2 (⟨n.val, by omega⟩ : Fin 100352) j) = h3S m c n j := by
  have e := conv2_arr (V11 m ρ) c (⟨n.val, by omega⟩ : Fin 100352) j
  have hm : ∀ (r : Fin 3) (k : Fin 64), mArr2 (V11 m ρ) c (ix3 r (⟨n.val, by omega⟩ : Fin 100352) k) = Cert.Spec.agg (srcS m c) (dstS m c) (h2S m c) r n k :=
    fun r k => agg_W11 ρ hR r n k
  have hw : ∀ (r : Fin 3) (k j : Fin 64), wArr2 (V11 m ρ) c (ix3 r k j) = w3S m c r k j :=
    fun r k j => congrFun (W11_arg m ρ c main_arg5 (by decide)) (ix3 r k j)
  have hb : ∀ (r : Fin 3) (j : Fin 64), bArr2 (V11 m ρ) c (ix2 r j) = b3S m c r j :=
    fun r j => congrFun (W11_arg m ρ c main_arg6 (by decide)) (ix2 r j)
  have ho : (W12 m ρ c (Proc.devRef .tc main_v202) : S100352x64.Idx → EReal) = oArr2 (V11 m ρ) c := W12_arr m ρ c 3
  rw [ho, e]
  simp only [hm, hw, hb]
  rfl

/-! ## The scores -/

variable (m c) in
/-- The two gathered row tables as the scoring call finds them, and its result array. -/
abbrev rsArr : S1007616x64.Idx → EReal := W19 m ρ c (Proc.devRef .tc main_v208)
variable (m c) in
abbrev rdArr : S1007616x64.Idx → EReal := W19 m ρ c (Proc.devRef .tc main_v209)
variable (m c) in
abbrev scArr : S1007616.Idx → EReal := W20 m ρ c (Proc.devRef .tc main_v210)

/-- The scoring call's result at a row: the dot product of the two gathered rows. -/
theorem score_W20 (i : Fin 1007616) :
    scArr m ρ c (ix1 i) = ∑ k : Fin 64, rsArr m ρ c (ix2 i k) * rdArr m ρ c (ix2 i k) := by
  have ho : scArr m ρ c = (dat3 (V19 m ρ) c).arrAt 2 cfg3.N := W20_arr m ρ c 2
  rw [ho]
  exact score_arr_of (V19 m ρ) c (rsArr m ρ c) (rdArr m ρ c) rfl rfl i

/-- The first result: the positive pairs' scores. -/
theorem out_pos_eq (hR : Ranges m c) (i : Fin 500000) :
    (W21 m ρ c (Proc.devRef .tc main_v212) : S500000.Idx → EReal) (ix1 i) = Cert.Spec.scoreS (h3S m c) (psS m c) (pdS m c) i := by
  have h9 := W12_arg m ρ c main_arg9 (by decide)
  have h10 := W12_arg m ρ c main_arg10 (by decide)
  have h11 := W12_arg m ρ c main_arg11 (by decide)
  have h12 := W12_arg m ρ c main_arg12 (by decide)
  refine (out_pos (W20 m ρ c) i).trans ?_
  refine (score_W20 ρ _).trans ?_
  unfold Cert.Spec.scoreS
  refine Finset.sum_congr rfl fun k _ => ?_
  have hrow := rows_pos (W12 m ρ c) (by rw [h9]; exact hR.ps) (by rw [h10]; exact hR.pd) (by rw [h11]; exact hR.ns) (by rw [h12]; exact hR.nd)
    (h3S m c) (fun n k => feat_W12 ρ hR n k) i k
  rw [h9, h10] at hrow
  exact congrArg₂ (· * ·) hrow.1 hrow.2

/-- The second result: the negative pairs' scores. -/
theorem out_neg_eq (hR : Ranges m c) (i : Fin 500000) :
    (W21 m ρ c (Proc.devRef .tc main_v213) : S500000.Idx → EReal) (ix1 i) = Cert.Spec.scoreS (h3S m c) (nsS m c) (ndS m c) i := by
  have h9 := W12_arg m ρ c main_arg9 (by decide)
  have h10 := W12_arg m ρ c main_arg10 (by decide)
  have h11 := W12_arg m ρ c main_arg11 (by decide)
  have h12 := W12_arg m ρ c main_arg12 (by decide)
  refine (out_neg (W20 m ρ c) i).trans ?_
  refine (score_W20 ρ _).trans ?_
  unfold Cert.Spec.scoreS
  refine Finset.sum_congr rfl fun k _ => ?_
  have hrow := rows_neg (W12 m ρ c) (by rw [h9]; exact hR.ps) (by rw [h10]; exact hR.pd) (by rw [h11]; exact hR.ns) (by rw [h12]; exact hR.nd)
    (h3S m c) (fun n k => feat_W12 ρ hR n k) i k
  rw [h11, h12] at hrow
  exact congrArg₂ (· * ·) hrow.1 hrow.2

end Cert.KernelIdeal.HandValue

end
-- ==== Proof.RefRun.lean ====
/- The reference program's @main as the list of its 381 host operations, cut into 14 windows, and its run read back window by
   window: every weakly fair execution terminates with each result buffer at the operations' composed term of the arguments'
   launch contents, the arguments unchanged. Each operation's value has a name (`st_‹buffer›`: the operation's function of its
   operands' values); `valK` is the device's contents after the first K windows, and for every buffer live at a window's end a
   lemma reads `valK` there as the buffer's stage value. The stage value of a result unfolds to the composed term. -/
import proofs.«400914_j13511967113603_4_alg».proof.Proof.Gen.ReferenceIdeal
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's, from the first line's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- `nary` over a literal family of three references: each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-! ## The operations, window by window -/

set_option maxRecDepth 8192 in
set_option maxHeartbeats 4000000 in
/-- @main's operations 1 … 44 of 381. -/
abbrev ops1 : List (HloOp τ sig (Elt F)) :=
  [ nullary main_cst (constant S_ .f32 0x3F800000#32),
    unary main_cst main_v0 (broadcastInDim S1000000 ![] bcast_S_S1000000 : (⟨S_, .f32⟩ : BufTy).Contents (Elt F) → (⟨S1000000, .f32⟩ : BufTy).Contents (Elt F)),
    unary main_arg8 main_v1 ((extractStridedSlice S1x1000000 ![0, 0] · slices_S3x1000000_S1x1000000_0_0) : (⟨S3x1000000, .i32⟩ : BufTy).Contents (Elt F) → (⟨S1x1000000, .i32⟩ : BufTy).Contents (Elt F)),
    reshape main_v1 main_v2 rfl shapeCasts_S1x1000000_S1000000,
    nullary main_cst_0 (constant S_ .f32 0x00000000#32),
    unary main_cst_0 main_v3 (broadcastInDim S100000 ![] bcast_S_S100000 : (⟨S_, .f32⟩ : BufTy).Contents (Elt F) → (⟨S100000, .f32⟩ : BufTy).Contents (Elt F)),
    unary main_v2 main_v4 (broadcastInDim S1000000x1 ![0] bcast_S1000000_S1000000x1_0 : (⟨S1000000, .i32⟩ : BufTy).Contents (Elt F) → (⟨S1000000x1, .i32⟩ : BufTy).Contents (Elt F)),
    ternary main_v3 main_v4 main_v0 main_v5 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_v5) (TRef.of (T := ⟨S100000, .f32⟩) main_v6) maximumf,
    nullary main_cst_2 (constant S_ .f32 0x3F800000#32),
    unary main_cst_2 main_v7 (broadcastInDim S100000 ![] bcast_S_S100000 : (⟨S_, .f32⟩ : BufTy).Contents (Elt F) → (⟨S100000, .f32⟩ : BufTy).Contents (Elt F)),
    binary main_v7 main_v6 main_v8 (Host.divf : (⟨S100000, .f32⟩ : BufTy).Contents (Elt F) → (⟨S100000, .f32⟩ : BufTy).Contents (Elt F) → (⟨S100000, .f32⟩ : BufTy).Contents (Elt F)),
    unary main_arg8 main_v9 ((extractStridedSlice S1x1000000 ![1, 0] · slices_S3x1000000_S1x1000000_1_0) : (⟨S3x1000000, .i32⟩ : BufTy).Contents (Elt F) → (⟨S1x1000000, .i32⟩ : BufTy).Contents (Elt F)),
    reshape main_v9 main_v10 rfl shapeCasts_S1x1000000_S1000000,
    nullary main_cst_3 (constant S_ .f32 0x00000000#32),
    unary main_cst_3 main_v11 (broadcastInDim S100000 ![] bcast_S_S100000 : (⟨S_, .f32⟩ : BufTy).Contents (Elt F) → (⟨S100000, .f32⟩ : BufTy).Contents (Elt F)),
    unary main_v10 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v0 main_v13 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_4 (constant S_ .f32 0x3F800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_v13) (TRef.of (T := ⟨S100000, .f32⟩) main_v14) maximumf,
    nullary main_cst_5 (constant S_ .f32 0x3F800000#32),
    unary main_cst_5 main_v15 (broadcastInDim S100000 ![] bcast_S_S100000 : (⟨S_, .f32⟩ : BufTy).Contents (Elt F) → (⟨S100000, .f32⟩ : BufTy).Contents (Elt F)),
    binary main_v15 main_v14 main_v16 (Host.divf : (⟨S100000, .f32⟩ : BufTy).Contents (Elt F) → (⟨S100000, .f32⟩ : BufTy).Contents (Elt F) → (⟨S100000, .f32⟩ : BufTy).Contents (Elt F)),
    unary main_arg8 main_v17 ((extractStridedSlice S1x1000000 ![2, 0] · slices_S3x1000000_S1x1000000_2_0) : (⟨S3x1000000, .i32⟩ : BufTy).Contents (Elt F) → (⟨S1x1000000, .i32⟩ : BufTy).Contents (Elt F)),
    reshape main_v17 main_v18 rfl shapeCasts_S1x1000000_S1000000,
    nullary main_cst_6 (constant S_ .f32 0x00000000#32),
    unary main_cst_6 main_v19 (broadcastInDim S100000 ![] bcast_S_S100000 : (⟨S_, .f32⟩ : BufTy).Contents (Elt F) → (⟨S100000, .f32⟩ : BufTy).Contents (Elt F)),
    unary main_v18 main_v20 (broadcastInDim S1000000x1 ![0] bcast_S1000000_S1000000x1_0 : (⟨S1000000, .i32⟩ : BufTy).Contents (Elt F) → (⟨S1000000x1, .i32⟩ : BufTy).Contents (Elt F)),
    ternary main_v19 main_v20 main_v0 main_v21 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_7 (constant S_ .f32 0x3F800000#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_v21) (TRef.of (T := ⟨S100000, .f32⟩) main_v22) maximumf,
    nullary main_cst_8 (constant S_ .f32 0x3F800000#32),
    unary main_cst_8 main_v23 (broadcastInDim S100000 ![] bcast_S_S100000 : (⟨S_, .f32⟩ : BufTy).Contents (Elt F) → (⟨S100000, .f32⟩ : BufTy).Contents (Elt F)),
    binary main_v23 main_v22 main_v24 (Host.divf : (⟨S100000, .f32⟩ : BufTy).Contents (Elt F) → (⟨S100000, .f32⟩ : BufTy).Contents (Elt F) → (⟨S100000, .f32⟩ : BufTy).Contents (Elt F)),
    unary main_v8 main_v25 (broadcastInDim S1x100000 ![1] bcast_S100000_S1x100000_1 : (⟨S100000, .f32⟩ : BufTy).Contents (Elt F) → (⟨S1x100000, .f32⟩ : BufTy).Contents (Elt F)),
    unary main_v16 main_v26 (broadcastInDim S1x100000 ![1] bcast_S100000_S1x100000_1 : (⟨S100000, .f32⟩ : BufTy).Contents (Elt F) → (⟨S1x100000, .f32⟩ : BufTy).Contents (Elt F)),
    unary main_v24 main_v27 (broadcastInDim S1x100000 ![1] bcast_S100000_S1x100000_1 : (⟨S100000, .f32⟩ : BufTy).Contents (Elt F) → (⟨S1x100000, .f32⟩ : BufTy).Contents (Elt F)) ]

set_option maxRecDepth 8192 in
set_option maxHeartbeats 4000000 in
/-- @main's operations 45 … 45 of 381. -/
abbrev ops2 : List (HloOp τ sig (Elt F)) :=
  [ nary ![main_v25, main_v26, main_v27] main_v28 (fun u => concatenate S3x100000 0 [⟨S1x100000, u 0⟩, ⟨S1x100000, u 1⟩, ⟨S1x100000, u 2⟩] concatenates_S1x100000_S1x100000_S1x100000_S3x100000_d0) ]

set_option maxRecDepth 8192 in
set_option maxHeartbeats 4000000 in
/-- @main's operations 46 … 66 of 381. -/
abbrev ops3 : List (HloOp τ sig (Elt F)) :=
  [ nullary main_cst_9 (constant S_ .f32 0x00000000#32),
    unary main_cst_9 main_v29 (broadcastInDim S100000x64 ![] bcast_S_S100000x64 : (⟨S_, .f32⟩ : BufTy).Contents (Elt F) → (⟨S100000x64, .f32⟩ : BufTy).Contents (Elt F)),
    unary main_arg7 main_v30 ((extractStridedSlice S1x1000000 ![0, 0] · slices_S3x1000000_S1x1000000_0_0) : (⟨S3x1000000, .i32⟩ : BufTy).Contents (Elt F) → (⟨S1x1000000, .i32⟩ : BufTy).Contents (Elt F)),
    reshape main_v30 main_v31 rfl shapeCasts_S1x1000000_S1000000,
    nullary main_c (constantI S_ 32 0#32),
    unary main_c main_v32 (broadcastInDim S1000000 ![] bcast_S_S1000000 : (⟨S_, .i32⟩ : BufTy).Contents (Elt F) → (⟨S1000000, .i32⟩ : BufTy).Contents (Elt F)),
    binary main_v31 main_v32 main_v33 (cmpi .slt : (⟨S1000000, .i32⟩ : BufTy).Contents (Elt F) → (⟨S1000000, .i32⟩ : BufTy).Contents (Elt F) → (⟨S1000000, .i1⟩ : BufTy).Contents (Elt F)),
    nullary main_c_10 (constantI S_ 32 100000#32),
    unary main_c_10 main_v34 (broadcastInDim S1000000 ![] bcast_S_S1000000 : (⟨S_, .i32⟩ : BufTy).Contents (Elt F) → (⟨S1000000, .i32⟩ : BufTy).Contents (Elt F)),
    binary main_v31 main_v34 main_v35 (addi : (⟨S1000000, .i32⟩ : BufTy).Contents (Elt F) → (⟨S1000000, .i32⟩ : BufTy).Contents (Elt F) → (⟨S1000000, .i32⟩ : BufTy).Contents (Elt F)),
    ternary main_v33 main_v35 main_v31 main_v36 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v36 main_v37 (broadcastInDim S1000000x1 ![0] bcast_S1000000_S1000000x1_0 : (⟨S1000000, .i32⟩ : BufTy).Contents (Elt F) → (⟨S1000000x1, .i32⟩ : BufTy).Contents (Elt F)),
    binary main_arg0 main_v37 main_v38 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_arg8 main_v39 ((extractStridedSlice S1x1000000 ![0, 0] · slices_S3x1000000_S1x1000000_0_0) : (⟨S3x1000000, .i32⟩ : BufTy).Contents (Elt F) → (⟨S1x1000000, .i32⟩ : BufTy).Contents (Elt F)),
    reshape main_v39 main_v40 rfl shapeCasts_S1x1000000_S1000000,
    nullary main_cst_11 (constant S_ .f32 0x00000000#32),
    unary main_cst_11 main_v41 (broadcastInDim S100000x64 ![] bcast_S_S100000x64 : (⟨S_, .f32⟩ : BufTy).Contents (Elt F) → (⟨S100000x64, .f32⟩ : BufTy).Contents (Elt F)),
    unary main_v40 main_v42 (broadcastInDim S1000000x1 ![0] bcast_S1000000_S1000000x1_0 : (⟨S1000000, .i32⟩ : BufTy).Contents (Elt F) → (⟨S1000000x1, .i32⟩ : BufTy).Contents (Elt F)),
    ternary main_v41 main_v42 main_v38 main_v43 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_v28 main_v44 ((extractStridedSlice S1x100000 ![0, 0] · slices_S3x100000_S1x100000_0_0) : (⟨S3x100000, .f32⟩ : BufTy).Contents (Elt F) → (⟨S1x100000, .f32⟩ : BufTy).Contents (Elt F)),
    reshape main_v44 main_v45 rfl shapeCasts_S1x100000_S100000 ]

set_option maxRecDepth 8192 in
set_option maxHeartbeats 4000000 in
/-- @main's operations 67 … 95 of 381. -/
abbrev ops4 : List (HloOp τ sig (Elt F)) :=
  [ unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x64 ![0, 1] bcast_S100000x1_S100000x64_0_1 : (⟨S100000x1, .f32⟩ : BufTy).Contents (Elt F) → (⟨S100000x64, .f32⟩ : BufTy).Contents (Elt F)),
    binary main_v43 main_v47 main_v48 (mulf : (⟨S100000x64, .f32⟩ : BufTy).Contents (Elt F) → (⟨S100000x64, .f32⟩ : BufTy).Contents (Elt F) → (⟨S100000x64, .f32⟩ : BufTy).Contents (Elt F)),
    unary main_arg1 main_v49 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v49 main_v50 rfl shapeCasts_S1x64x64_S64x64,
    binary main_v48 main_v50 main_v51 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v29 main_v51 main_v52 (addf : (⟨S100000x64, .f32⟩ : BufTy).Contents (Elt F) → (⟨S100000x64, .f32⟩ : BufTy).Contents (Elt F) → (⟨S100000x64, .f32⟩ : BufTy).Contents (Elt F)),
    unary main_arg2 main_v53 ((extractStridedSlice S1x64 ![0, 0] · slices_S3x64_S1x64_0_0) : (⟨S3x64, .f32⟩ : BufTy).Contents (Elt F) → (⟨S1x64, .f32⟩ : BufTy).Contents (Elt F)),
    reshape main_v53 main_v54 rfl shapeCasts_S1x64_S64,
    unary main_v54 main_v55 (broadcastInDim S1x64 ![1] bcast_S64_S1x64_1 : (⟨S64, .f32⟩ : BufTy).Contents (Elt F) → (⟨S1x64, .f32⟩ : BufTy).Contents (Elt F)),
    unary main_v55 main_v56 (broadcastInDim S100000x64 ![0, 1] bcast_S1x64_S100000x64_0_1 : (⟨S1x64, .f32⟩ : BufTy).Contents (Elt F) → (⟨S100000x64, .f32⟩ : BufTy).Contents (Elt F)),
    binary main_v52 main_v56 main_v57 (addf : (⟨S100000x64, .f32⟩ : BufTy).Contents (Elt F) → (⟨S100000x64, .f32⟩ : BufTy).Contents (Elt F) → (⟨S100000x64, .f32⟩ : BufTy).Contents (Elt F)),
    unary main_arg7 main_v58 ((extractStridedSlice S1x1000000 ![1, 0] · slices_S3x1000000_S1x1000000_1_0) : (⟨S3x1000000, .i32⟩ : BufTy).Contents (Elt F) → (⟨S1x1000000, .i32⟩ : BufTy).Contents (Elt F)),
    reshape main_v58 main_v59 rfl shapeCasts_S1x1000000_S1000000,
    nullary main_c_12 (constantI S_ 32 0#32),
    unary main_c_12 main_v60 (broadcastInDim S1000000 ![] bcast_S_S1000000 : (⟨S_, .i32⟩ : BufTy).Contents (Elt F) → (⟨S1000000, .i32⟩ : BufTy).Contents (Elt F)),
    binary main_v59 main_v60 main_v61 (cmpi .slt : (⟨S1000000, .i32⟩ : BufTy).Contents (Elt F) → (⟨S1000000, .i32⟩ : BufTy).Contents (Elt F) → (⟨S1000000, .i1⟩ : BufTy).Contents (Elt F)),
    nullary main_c_13 (constantI S_ 32 100000#32),
    unary main_c_13 main_v62 (broadcastInDim S1000000 ![] bcast_S_S1000000 : (⟨S_, .i32⟩ : BufTy).Contents (Elt F) → (⟨S1000000, .i32⟩ : BufTy).Contents (Elt F)),
    binary main_v59 main_v62 main_v63 (addi : (⟨S1000000, .i32⟩ : BufTy).Contents (Elt F) → (⟨S1000000, .i32⟩ : BufTy).Contents (Elt F) → (⟨S1000000, .i32⟩ : BufTy).Contents (Elt F)),
    ternary main_v61 main_v63 main_v59 main_v64 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v64 main_v65 (broadcastInDim S1000000x1 ![0] bcast_S1000000_S1000000x1_0 : (⟨S1000000, .i32⟩ : BufTy).Contents (Elt F) → (⟨S1000000x1, .i32⟩ : BufTy).Contents (Elt F)),
    binary main_arg0 main_v65 main_v66 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_arg8 main_v67 ((extractStridedSlice S1x1000000 ![1, 0] · slices_S3x1000000_S1x1000000_1_0) : (⟨S3x1000000, .i32⟩ : BufTy).Contents (Elt F) → (⟨S1x1000000, .i32⟩ : BufTy).Contents (Elt F)),
    reshape main_v67 main_v68 rfl shapeCasts_S1x1000000_S1000000,
    nullary main_cst_14 (constant S_ .f32 0x00000000#32),
    unary main_cst_14 main_v69 (broadcastInDim S100000x64 ![] bcast_S_S100000x64 : (⟨S_, .f32⟩ : BufTy).Contents (Elt F) → (⟨S100000x64, .f32⟩ : BufTy).Contents (Elt F)),
    unary main_v68 main_v70 (broadcastInDim S1000000x1 ![0] bcast_S1000000_S1000000x1_0 : (⟨S1000000, .i32⟩ : BufTy).Contents (Elt F) → (⟨S1000000x1, .i32⟩ : BufTy).Contents (Elt F)),
    ternary main_v69 main_v70 main_v66 main_v71 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]

set_option maxRecDepth 8192 in
set_option maxHeartbeats 4000000 in
/-- @main's operations 96 … 126 of 381. -/
abbrev ops5 : List (HloOp τ sig (Elt F)) :=
  [ unary main_v28 main_v72 ((extractStridedSlice S1x100000 ![1, 0] · slices_S3x100000_S1x100000_1_0) : (⟨S3x100000, .f32⟩ : BufTy).Contents (Elt F) → (⟨S1x100000, .f32⟩ : BufTy).Contents (Elt F)),
    reshape main_v72 main_v73 rfl shapeCasts_S1x100000_S100000,
    unary main_v73 main_v74 (broadcastInDim S100000x1 ![0] bcast_S100000_S100000x1_0 : (⟨S100000, .f32⟩ : BufTy).Contents (Elt F) → (⟨S100000x1, .f32⟩ : BufTy).Contents (Elt F)),
    unary main_v74 main_v75 (broadcastInDim S100000x64 ![0, 1] bcast_S100000x1_S100000x64_0_1 : (⟨S100000x1, .f32⟩ : BufTy).Contents (Elt F) → (⟨S100000x64, .f32⟩ : BufTy).Contents (Elt F)),
    binary main_v71 main_v75 main_v76 (mulf : (⟨S100000x64, .f32⟩ : BufTy).Contents (Elt F) → (⟨S100000x64, .f32⟩ : BufTy).Contents (Elt F) → (⟨S100000x64, .f32⟩ : BufTy).Contents (Elt F)),
    unary main_arg1 main_v77 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v77 main_v78 rfl shapeCasts_S1x64x64_S64x64,
    binary main_v76 main_v78 main_v79 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v57 main_v79 main_v80 (addf : (⟨S100000x64, .f32⟩ : BufTy).Contents (Elt F) → (⟨S100000x64, .f32⟩ : BufTy).Contents (Elt F) → (⟨S100000x64, .f32⟩ : BufTy).Contents (Elt F)),
    unary main_arg2 main_v81 ((extractStridedSlice S1x64 ![1, 0] · slices_S3x64_S1x64_1_0) : (⟨S3x64, .f32⟩ : BufTy).Contents (Elt F) → (⟨S1x64, .f32⟩ : BufTy).Contents (Elt F)),
    reshape main_v81 main_v82 rfl shapeCasts_S1x64_S64,
    unary main_v82 main_v83 (broadcastInDim S1x64 ![1] bcast_S64_S1x64_1 : (⟨S64, .f32⟩ : BufTy).Contents (Elt F) → (⟨S1x64, .f32⟩ : BufTy).Contents (Elt F)),
    unary main_v83 main_v84 (broadcastInDim S100000x64 ![0, 1] bcast_S1x64_S100000x64_0_1 : (⟨S1x64, .f32⟩ : BufTy).Contents (Elt F) → (⟨S100000x64, .f32⟩ : BufTy).Contents (Elt F)),
    binary main_v80 main_v84 main_v85 (addf : (⟨S100000x64, .f32⟩ : BufTy).Contents (Elt F) → (⟨S100000x64, .f32⟩ : BufTy).Contents (Elt F) → (⟨S100000x64, .f32⟩ : BufTy).Contents (Elt F)),
    unary main_arg7 main_v86 ((extractStridedSlice S1x1000000 ![2, 0] · slices_S3x1000000_S1x1000000_2_0) : (⟨S3x1000000, .i32⟩ : BufTy).Contents (Elt F) → (⟨S1x1000000, .i32⟩ : BufTy).Contents (Elt F)),
    reshape main_v86 main_v87 rfl shapeCasts_S1x1000000_S1000000,
    nullary main_c_15 (constantI S_ 32 0#32),
    unary main_c_15 main_v88 (broadcastInDim S1000000 ![] bcast_S_S1000000 : (⟨S_, .i32⟩ : BufTy).Contents (Elt F) → (⟨S1000000, .i32⟩ : BufTy).Contents (Elt F)),
    binary main_v87 main_v88 main_v89 (cmpi .slt : (⟨S1000000, .i32⟩ : BufTy).Contents (Elt F) → (⟨S1000000, .i32⟩ : BufTy).Contents (Elt F) → (⟨S1000000, .i1⟩ : BufTy).Contents (Elt F)),
    nullary main_c_16 (constantI S_ 32 100000#32),
    unary main_c_16 main_v90 (broadcastInDim S1000000 ![] bcast_S_S1000000 : (⟨S_, .i32⟩ : BufTy).Contents (Elt F) → (⟨S1000000, .i32⟩ : BufTy).Contents (Elt F)),
    binary main_v87 main_v90 main_v91 (addi : (⟨S1000000, .i32⟩ : BufTy).Contents (Elt F) → (⟨S1000000, .i32⟩ : BufTy).Contents (Elt F) → (⟨S1000000, .i32⟩ : BufTy).Contents (Elt F)),
    ternary main_v89 main_v91 main_v87 main_v92 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v92 main_v93 (broadcastInDim S1000000x1 ![0] bcast_S1000000_S1000000x1_0 : (⟨S1000000, .i32⟩ : BufTy).Contents (Elt F) → (⟨S1000000x1, .i32⟩ : BufTy).Contents (Elt F)),
    binary main_arg0 main_v93 main_v94 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_arg8 main_v95 ((extractStridedSlice S1x1000000 ![2, 0] · slices_S3x1000000_S1x1000000_2_0) : (⟨S3x1000000, .i32⟩ : BufTy).Contents (Elt F) → (⟨S1x1000000, .i32⟩ : BufTy).Contents (Elt F)),
    reshape main_v95 main_v96 rfl shapeCasts_S1x1000000_S1000000,
    nullary main_cst_17 (constant S_ .f32 0x00000000#32),
    unary main_cst_17 main_v97 (broadcastInDim S100000x64 ![] bcast_S_S100000x64 : (⟨S_, .f32⟩ : BufTy).Contents (Elt F) → (⟨S100000x64, .f32⟩ : BufTy).Contents (Elt F)),
    unary main_v96 main_v98 (broadcastInDim S1000000x1 ![0] bcast_S1000000_S1000000x1_0 : (⟨S1000000, .i32⟩ : BufTy).Contents (Elt F) → (⟨S1000000x1, .i32⟩ : BufTy).Contents (Elt F)),
    ternary main_v97 main_v98 main_v94 main_v99 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]

set_option maxRecDepth 8192 in
set_option maxHeartbeats 4000000 in
/-- @main's operations 127 … 154 of 381. -/
abbrev ops6 : List (HloOp τ sig (Elt F)) :=
  [ unary main_v28 main_v100 ((extractStridedSlice S1x100000 ![2, 0] · slices_S3x100000_S1x100000_2_0) : (⟨S3x100000, .f32⟩ : BufTy).Contents (Elt F) → (⟨S1x100000, .f32⟩ : BufTy).Contents (Elt F)),
    reshape main_v100 main_v101 rfl shapeCasts_S1x100000_S100000,
    unary main_v101 main_v102 (broadcastInDim S100000x1 ![0] bcast_S100000_S100000x1_0 : (⟨S100000, .f32⟩ : BufTy).Contents (Elt F) → (⟨S100000x1, .f32⟩ : BufTy).Contents (Elt F)),
    unary main_v102 main_v103 (broadcastInDim S100000x64 ![0, 1] bcast_S100000x1_S100000x64_0_1 : (⟨S100000x1, .f32⟩ : BufTy).Contents (Elt F) → (⟨S100000x64, .f32⟩ : BufTy).Contents (Elt F)),
    binary main_v99 main_v103 main_v104 (mulf : (⟨S100000x64, .f32⟩ : BufTy).Contents (Elt F) → (⟨S100000x64, .f32⟩ : BufTy).Contents (Elt F) → (⟨S100000x64, .f32⟩ : BufTy).Contents (Elt F)),
    unary main_arg1 main_v105 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v105 main_v106 rfl shapeCasts_S1x64x64_S64x64,
    binary main_v104 main_v106 main_v107 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v85 main_v107 main_v108 (addf : (⟨S100000x64, .f32⟩ : BufTy).Contents (Elt F) → (⟨S100000x64, .f32⟩ : BufTy).Contents (Elt F) → (⟨S100000x64, .f32⟩ : BufTy).Contents (Elt F)),
    unary main_arg2 main_v109 ((extractStridedSlice S1x64 ![2, 0] · slices_S3x64_S1x64_2_0) : (⟨S3x64, .f32⟩ : BufTy).Contents (Elt F) → (⟨S1x64, .f32⟩ : BufTy).Contents (Elt F)),
    reshape main_v109 main_v110 rfl shapeCasts_S1x64_S64,
    unary main_v110 main_v111 (broadcastInDim S1x64 ![1] bcast_S64_S1x64_1 : (⟨S64, .f32⟩ : BufTy).Contents (Elt F) → (⟨S1x64, .f32⟩ : BufTy).Contents (Elt F)),
    unary main_v111 main_v112 (broadcastInDim S100000x64 ![0, 1] bcast_S1x64_S100000x64_0_1 : (⟨S1x64, .f32⟩ : BufTy).Contents (Elt F) → (⟨S100000x64, .f32⟩ : BufTy).Contents (Elt F)),
    binary main_v108 main_v112 main_v113 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v113) (TRef.of (T := ⟨S100000x64, .f32⟩) main_call3_v0) (TRef.of (T := ⟨S100000x64, .f32⟩) main_v114) maximumf,
    nullary main_cst_18 (constant S_ .f32 0x00000000#32),
    unary main_cst_18 main_v115 (broadcastInDim S100000x64 ![] bcast_S_S100000x64 : (⟨S_, .f32⟩ : BufTy).Contents (Elt F) → (⟨S100000x64, .f32⟩ : BufTy).Contents (Elt F)),
    unary main_arg7 main_v116 ((extractStridedSlice S1x1000000 ![0, 0] · slices_S3x1000000_S1x1000000_0_0) : (⟨S3x1000000, .i32⟩ : BufTy).Contents (Elt F) → (⟨S1x1000000, .i32⟩ : BufTy).Contents (Elt F)),
    reshape main_v116 main_v117 rfl shapeCasts_S1x1000000_S1000000,
    nullary main_c_19 (constantI S_ 32 0#32),
    unary main_c_19 main_v118 (broadcastInDim S1000000 ![] bcast_S_S1000000 : (⟨S_, .i32⟩ : BufTy).Contents (Elt F) → (⟨S1000000, .i32⟩ : BufTy).Contents (Elt F)),
    binary main_v117 main_v118 main_v119 (cmpi .slt : (⟨S1000000, .i32⟩ : BufTy).Contents (Elt F) → (⟨S1000000, .i32⟩ : BufTy).Contents (Elt F) → (⟨S1000000, .i1⟩ : BufTy).Contents (Elt F)),
    nullary main_c_20 (constantI S_ 32 100000#32),
    unary main_c_20 main_v120 (broadcastInDim S1000000 ![] bcast_S_S1000000 : (⟨S_, .i32⟩ : BufTy).Contents (Elt F) → (⟨S1000000, .i32⟩ : BufTy).Contents (Elt F)),
    binary main_v117 main_v120 main_v121 (addi : (⟨S1000000, .i32⟩ : BufTy).Contents (Elt F) → (⟨S1000000, .i32⟩ : BufTy).Contents (Elt F) → (⟨S1000000, .i32⟩ : BufTy).Contents (Elt F)),
    ternary main_v119 main_v121 main_v117 main_v122 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ]

set_option maxRecDepth 8192 in
set_option maxHeartbeats 4000000 in
/-- @main's operations 155 … 188 of 381. -/
abbrev ops7 : List (HloOp τ sig (Elt F)) :=
  [ unary main_v122 main_v123 (broadcastInDim S1000000x1 ![0] bcast_S1000000_S1000000x1_0 : (⟨S1000000, .i32⟩ : BufTy).Contents (Elt F) → (⟨S1000000x1, .i32⟩ : BufTy).Contents (Elt F)),
    binary main_v114 main_v123 main_v124 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_arg8 main_v125 ((extractStridedSlice S1x1000000 ![0, 0] · slices_S3x1000000_S1x1000000_0_0) : (⟨S3x1000000, .i32⟩ : BufTy).Contents (Elt F) → (⟨S1x1000000, .i32⟩ : BufTy).Contents (Elt F)),
    reshape main_v125 main_v126 rfl shapeCasts_S1x1000000_S1000000,
    nullary main_cst_21 (constant S_ .f32 0x00000000#32),
    unary main_cst_21 main_v127 (broadcastInDim S100000x64 ![] bcast_S_S100000x64 : (⟨S_, .f32⟩ : BufTy).Contents (Elt F) → (⟨S100000x64, .f32⟩ : BufTy).Contents (Elt F)),
    unary main_v126 main_v128 (broadcastInDim S1000000x1 ![0] bcast_S1000000_S1000000x1_0 : (⟨S1000000, .i32⟩ : BufTy).Contents (Elt F) → (⟨S1000000x1, .i32⟩ : BufTy).Contents (Elt F)),
    ternary main_v127 main_v128 main_v124 main_v129 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_v28 main_v130 ((extractStridedSlice S1x100000 ![0, 0] · slices_S3x100000_S1x100000_0_0) : (⟨S3x100000, .f32⟩ : BufTy).Contents (Elt F) → (⟨S1x100000, .f32⟩ : BufTy).Contents (Elt F)),
    reshape main_v130 main_v131 rfl shapeCasts_S1x100000_S100000,
    unary main_v131 main_v132 (broadcastInDim S100000x1 ![0] bcast_S100000_S100000x1_0 : (⟨S100000, .f32⟩ : BufTy).Contents (Elt F) → (⟨S100000x1, .f32⟩ : BufTy).Contents (Elt F)),
    unary main_v132 main_v133 (broadcastInDim S100000x64 ![0, 1] bcast_S100000x1_S100000x64_0_1 : (⟨S100000x1, .f32⟩ : BufTy).Contents (Elt F) → (⟨S100000x64, .f32⟩ : BufTy).Contents (Elt F)),
    binary main_v129 main_v133 main_v134 (mulf : (⟨S100000x64, .f32⟩ : BufTy).Contents (Elt F) → (⟨S100000x64, .f32⟩ : BufTy).Contents (Elt F) → (⟨S100000x64, .f32⟩ : BufTy).Contents (Elt F)),
    unary main_arg3 main_v135 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v135 main_v136 rfl shapeCasts_S1x64x64_S64x64,
    binary main_v134 main_v136 main_v137 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v115 main_v137 main_v138 (addf : (⟨S100000x64, .f32⟩ : BufTy).Contents (Elt F) → (⟨S100000x64, .f32⟩ : BufTy).Contents (Elt F) → (⟨S100000x64, .f32⟩ : BufTy).Contents (Elt F)),
    unary main_arg4 main_v139 ((extractStridedSlice S1x64 ![0, 0] · slices_S3x64_S1x64_0_0) : (⟨S3x64, .f32⟩ : BufTy).Contents (Elt F) → (⟨S1x64, .f32⟩ : BufTy).Contents (Elt F)),
    reshape main_v139 main_v140 rfl shapeCasts_S1x64_S64,
    unary main_v140 main_v141 (broadcastInDim S1x64 ![1] bcast_S64_S1x64_1 : (⟨S64, .f32⟩ : BufTy).Contents (Elt F) → (⟨S1x64, .f32⟩ : BufTy).Contents (Elt F)),
    unary main_v141 main_v142 (broadcastInDim S100000x64 ![0, 1] bcast_S1x64_S100000x64_0_1 : (⟨S1x64, .f32⟩ : BufTy).Contents (Elt F) → (⟨S100000x64, .f32⟩ : BufTy).Contents (Elt F)),
    binary main_v138 main_v142 main_v143 (addf : (⟨S100000x64, .f32⟩ : BufTy).Contents (Elt F) → (⟨S100000x64, .f32⟩ : BufTy).Contents (Elt F) → (⟨S100000x64, .f32⟩ : BufTy).Contents (Elt F)),
    unary main_arg7 main_v144 ((extractStridedSlice S1x1000000 ![1, 0] · slices_S3x1000000_S1x1000000_1_0) : (⟨S3x1000000, .i32⟩ : BufTy).Contents (Elt F) → (⟨S1x1000000, .i32⟩ : BufTy).Contents (Elt F)),
    reshape main_v144 main_v145 rfl shapeCasts_S1x1000000_S1000000,
    nullary main_c_22 (constantI S_ 32 0#32),
    unary main_c_22 main_v146 (broadcastInDim S1000000 ![] bcast_S_S1000000 : (⟨S_, .i32⟩ : BufTy).Contents (Elt F) → (⟨S1000000, .i32⟩ : BufTy).Contents (Elt F)),
    binary main_v145 main_v146 main_v147 (cmpi .slt : (⟨S1000000, .i32⟩ : BufTy).Contents (Elt F) → (⟨S1000000, .i32⟩ : BufTy).Contents (Elt F) → (⟨S1000000, .i1⟩ : BufTy).Contents (Elt F)),
    nullary main_c_23 (constantI S_ 32 100000#32),
    unary main_c_23 main_v148 (broadcastInDim S1000000 ![] bcast_S_S1000000 : (⟨S_, .i32⟩ : BufTy).Contents (Elt F) → (⟨S1000000, .i32⟩ : BufTy).Contents (Elt F)),
    binary main_v145 main_v148 main_v149 (addi : (⟨S1000000, .i32⟩ : BufTy).Contents (Elt F) → (⟨S1000000, .i32⟩ : BufTy).Contents (Elt F) → (⟨S1000000, .i32⟩ : BufTy).Contents (Elt F)),
    ternary main_v147 main_v149 main_v145 main_v150 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v150 main_v151 (broadcastInDim S1000000x1 ![0] bcast_S1000000_S1000000x1_0 : (⟨S1000000, .i32⟩ : BufTy).Contents (Elt F) → (⟨S1000000x1, .i32⟩ : BufTy).Contents (Elt F)),
    binary main_v114 main_v151 main_v152 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_arg8 main_v153 ((extractStridedSlice S1x1000000 ![1, 0] · slices_S3x1000000_S1x1000000_1_0) : (⟨S3x1000000, .i32⟩ : BufTy).Contents (Elt F) → (⟨S1x1000000, .i32⟩ : BufTy).Contents (Elt F)) ]

set_option maxRecDepth 8192 in
set_option maxHeartbeats 4000000 in
/-- @main's operations 189 … 218 of 381. -/
abbrev ops8 : List (HloOp τ sig (Elt F)) :=
  [ reshape main_v153 main_v154 rfl shapeCasts_S1x1000000_S1000000,
    nullary main_cst_24 (constant S_ .f32 0x00000000#32),
    unary main_cst_24 main_v155 (broadcastInDim S100000x64 ![] bcast_S_S100000x64 : (⟨S_, .f32⟩ : BufTy).Contents (Elt F) → (⟨S100000x64, .f32⟩ : BufTy).Contents (Elt F)),
    unary main_v154 main_v156 (broadcastInDim S1000000x1 ![0] bcast_S1000000_S1000000x1_0 : (⟨S1000000, .i32⟩ : BufTy).Contents (Elt F) → (⟨S1000000x1, .i32⟩ : BufTy).Contents (Elt F)),
    ternary main_v155 main_v156 main_v152 main_v157 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_v28 main_v158 ((extractStridedSlice S1x100000 ![1, 0] · slices_S3x100000_S1x100000_1_0) : (⟨S3x100000, .f32⟩ : BufTy).Contents (Elt F) → (⟨S1x100000, .f32⟩ : BufTy).Contents (Elt F)),
    reshape main_v158 main_v159 rfl shapeCasts_S1x100000_S100000,
    unary main_v159 main_v160 (broadcastInDim S100000x1 ![0] bcast_S100000_S100000x1_0 : (⟨S100000, .f32⟩ : BufTy).Contents (Elt F) → (⟨S100000x1, .f32⟩ : BufTy).Contents (Elt F)),
    unary main_v160 main_v161 (broadcastInDim S100000x64 ![0, 1] bcast_S100000x1_S100000x64_0_1 : (⟨S100000x1, .f32⟩ : BufTy).Contents (Elt F) → (⟨S100000x64, .f32⟩ : BufTy).Contents (Elt F)),
    binary main_v157 main_v161 main_v162 (mulf : (⟨S100000x64, .f32⟩ : BufTy).Contents (Elt F) → (⟨S100000x64, .f32⟩ : BufTy).Contents (Elt F) → (⟨S100000x64, .f32⟩ : BufTy).Contents (Elt F)),
    unary main_arg3 main_v163 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v163 main_v164 rfl shapeCasts_S1x64x64_S64x64,
    binary main_v162 main_v164 main_v165 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v143 main_v165 main_v166 (addf : (⟨S100000x64, .f32⟩ : BufTy).Contents (Elt F) → (⟨S100000x64, .f32⟩ : BufTy).Contents (Elt F) → (⟨S100000x64, .f32⟩ : BufTy).Contents (Elt F)),
    unary main_arg4 main_v167 ((extractStridedSlice S1x64 ![1, 0] · slices_S3x64_S1x64_1_0) : (⟨S3x64, .f32⟩ : BufTy).Contents (Elt F) → (⟨S1x64, .f32⟩ : BufTy).Contents (Elt F)),
    reshape main_v167 main_v168 rfl shapeCasts_S1x64_S64,
    unary main_v168 main_v169 (broadcastInDim S1x64 ![1] bcast_S64_S1x64_1 : (⟨S64, .f32⟩ : BufTy).Contents (Elt F) → (⟨S1x64, .f32⟩ : BufTy).Contents (Elt F)),
    unary main_v169 main_v170 (broadcastInDim S100000x64 ![0, 1] bcast_S1x64_S100000x64_0_1 : (⟨S1x64, .f32⟩ : BufTy).Contents (Elt F) → (⟨S100000x64, .f32⟩ : BufTy).Contents (Elt F)),
    binary main_v166 main_v170 main_v171 (addf : (⟨S100000x64, .f32⟩ : BufTy).Contents (Elt F) → (⟨S100000x64, .f32⟩ : BufTy).Contents (Elt F) → (⟨S100000x64, .f32⟩ : BufTy).Contents (Elt F)),
    unary main_arg7 main_v172 ((extractStridedSlice S1x1000000 ![2, 0] · slices_S3x1000000_S1x1000000_2_0) : (⟨S3x1000000, .i32⟩ : BufTy).Contents (Elt F) → (⟨S1x1000000, .i32⟩ : BufTy).Contents (Elt F)),
    reshape main_v172 main_v173 rfl shapeCasts_S1x1000000_S1000000,
    nullary main_c_25 (constantI S_ 32 0#32),
    unary main_c_25 main_v174 (broadcastInDim S1000000 ![] bcast_S_S1000000 : (⟨S_, .i32⟩ : BufTy).Contents (Elt F) → (⟨S1000000, .i32⟩ : BufTy).Contents (Elt F)),
    binary main_v173 main_v174 main_v175 (cmpi .slt : (⟨S1000000, .i32⟩ : BufTy).Contents (Elt F) → (⟨S1000000, .i32⟩ : BufTy).Contents (Elt F) → (⟨S1000000, .i1⟩ : BufTy).Contents (Elt F)),
    nullary main_c_26 (constantI S_ 32 100000#32),
    unary main_c_26 main_v176 (broadcastInDim S1000000 ![] bcast_S_S1000000 : (⟨S_, .i32⟩ : BufTy).Contents (Elt F) → (⟨S1000000, .i32⟩ : BufTy).Contents (Elt F)),
    binary main_v173 main_v176 main_v177 (addi : (⟨S1000000, .i32⟩ : BufTy).Contents (Elt F) → (⟨S1000000, .i32⟩ : BufTy).Contents (Elt F) → (⟨S1000000, .i32⟩ : BufTy).Contents (Elt F)),
    ternary main_v175 main_v177 main_v173 main_v178 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v178 main_v179 (broadcastInDim S1000000x1 ![0] bcast_S1000000_S1000000x1_0 : (⟨S1000000, .i32⟩ : BufTy).Contents (Elt F) → (⟨S1000000x1, .i32⟩ : BufTy).Contents (Elt F)),
    binary main_v114 main_v179 main_v180 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]

set_option maxRecDepth 8192 in
set_option maxHeartbeats 4000000 in
/-- @main's operations 219 … 250 of 381. -/
abbrev ops9 : List (HloOp τ sig (Elt F)) :=
  [ unary main_arg8 main_v181 ((extractStridedSlice S1x1000000 ![2, 0] · slices_S3x1000000_S1x1000000_2_0) : (⟨S3x1000000, .i32⟩ : BufTy).Contents (Elt F) → (⟨S1x1000000, .i32⟩ : BufTy).Contents (Elt F)),
    reshape main_v181 main_v182 rfl shapeCasts_S1x1000000_S1000000,
    nullary main_cst_27 (constant S_ .f32 0x00000000#32),
    unary main_cst_27 main_v183 (broadcastInDim S100000x64 ![] bcast_S_S100000x64 : (⟨S_, .f32⟩ : BufTy).Contents (Elt F) → (⟨S100000x64, .f32⟩ : BufTy).Contents (Elt F)),
    unary main_v182 main_v184 (broadcastInDim S1000000x1 ![0] bcast_S1000000_S1000000x1_0 : (⟨S1000000, .i32⟩ : BufTy).Contents (Elt F) → (⟨S1000000x1, .i32⟩ : BufTy).Contents (Elt F)),
    ternary main_v183 main_v184 main_v180 main_v185 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_v28 main_v186 ((extractStridedSlice S1x100000 ![2, 0] · slices_S3x100000_S1x100000_2_0) : (⟨S3x100000, .f32⟩ : BufTy).Contents (Elt F) → (⟨S1x100000, .f32⟩ : BufTy).Contents (Elt F)),
    reshape main_v186 main_v187 rfl shapeCasts_S1x100000_S100000,
    unary main_v187 main_v188 (broadcastInDim S100000x1 ![0] bcast_S100000_S100000x1_0 : (⟨S100000, .f32⟩ : BufTy).Contents (Elt F) → (⟨S100000x1, .f32⟩ : BufTy).Contents (Elt F)),
    unary main_v188 main_v189 (broadcastInDim S100000x64 ![0, 1] bcast_S100000x1_S100000x64_0_1 : (⟨S100000x1, .f32⟩ : BufTy).Contents (Elt F) → (⟨S100000x64, .f32⟩ : BufTy).Contents (Elt F)),
    binary main_v185 main_v189 main_v190 (mulf : (⟨S100000x64, .f32⟩ : BufTy).Contents (Elt F) → (⟨S100000x64, .f32⟩ : BufTy).Contents (Elt F) → (⟨S100000x64, .f32⟩ : BufTy).Contents (Elt F)),
    unary main_arg3 main_v191 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v191 main_v192 rfl shapeCasts_S1x64x64_S64x64,
    binary main_v190 main_v192 main_v193 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v171 main_v193 main_v194 (addf : (⟨S100000x64, .f32⟩ : BufTy).Contents (Elt F) → (⟨S100000x64, .f32⟩ : BufTy).Contents (Elt F) → (⟨S100000x64, .f32⟩ : BufTy).Contents (Elt F)),
    unary main_arg4 main_v195 ((extractStridedSlice S1x64 ![2, 0] · slices_S3x64_S1x64_2_0) : (⟨S3x64, .f32⟩ : BufTy).Contents (Elt F) → (⟨S1x64, .f32⟩ : BufTy).Contents (Elt F)),
    reshape main_v195 main_v196 rfl shapeCasts_S1x64_S64,
    unary main_v196 main_v197 (broadcastInDim S1x64 ![1] bcast_S64_S1x64_1 : (⟨S64, .f32⟩ : BufTy).Contents (Elt F) → (⟨S1x64, .f32⟩ : BufTy).Contents (Elt F)),
    unary main_v197 main_v198 (broadcastInDim S100000x64 ![0, 1] bcast_S1x64_S100000x64_0_1 : (⟨S1x64, .f32⟩ : BufTy).Contents (Elt F) → (⟨S100000x64, .f32⟩ : BufTy).Contents (Elt F)),
    binary main_v194 main_v198 main_v199 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v199) (TRef.of (T := ⟨S100000x64, .f32⟩) main_call4_v0) (TRef.of (T := ⟨S100000x64, .f32⟩) main_v200) maximumf,
    nullary main_cst_28 (constant S_ .f32 0x00000000#32),
    unary main_cst_28 main_v201 (broadcastInDim S100000x64 ![] bcast_S_S100000x64 : (⟨S_, .f32⟩ : BufTy).Contents (Elt F) → (⟨S100000x64, .f32⟩ : BufTy).Contents (Elt F)),
    unary main_arg7 main_v202 ((extractStridedSlice S1x1000000 ![0, 0] · slices_S3x1000000_S1x1000000_0_0) : (⟨S3x1000000, .i32⟩ : BufTy).Contents (Elt F) → (⟨S1x1000000, .i32⟩ : BufTy).Contents (Elt F)),
    reshape main_v202 main_v203 rfl shapeCasts_S1x1000000_S1000000,
    nullary main_c_29 (constantI S_ 32 0#32),
    unary main_c_29 main_v204 (broadcastInDim S1000000 ![] bcast_S_S1000000 : (⟨S_, .i32⟩ : BufTy).Contents (Elt F) → (⟨S1000000, .i32⟩ : BufTy).Contents (Elt F)),
    binary main_v203 main_v204 main_v205 (cmpi .slt : (⟨S1000000, .i32⟩ : BufTy).Contents (Elt F) → (⟨S1000000, .i32⟩ : BufTy).Contents (Elt F) → (⟨S1000000, .i1⟩ : BufTy).Contents (Elt F)),
    nullary main_c_30 (constantI S_ 32 100000#32),
    unary main_c_30 main_v206 (broadcastInDim S1000000 ![] bcast_S_S1000000 : (⟨S_, .i32⟩ : BufTy).Contents (Elt F) → (⟨S1000000, .i32⟩ : BufTy).Contents (Elt F)) ]

set_option maxRecDepth 8192 in
set_option maxHeartbeats 4000000 in
/-- @main's operations 251 … 274 of 381. -/
abbrev ops10 : List (HloOp τ sig (Elt F)) :=
  [ binary main_v203 main_v206 main_v207 (addi : (⟨S1000000, .i32⟩ : BufTy).Contents (Elt F) → (⟨S1000000, .i32⟩ : BufTy).Contents (Elt F) → (⟨S1000000, .i32⟩ : BufTy).Contents (Elt F)),
    ternary main_v205 main_v207 main_v203 main_v208 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v208 main_v209 (broadcastInDim S1000000x1 ![0] bcast_S1000000_S1000000x1_0 : (⟨S1000000, .i32⟩ : BufTy).Contents (Elt F) → (⟨S1000000x1, .i32⟩ : BufTy).Contents (Elt F)),
    binary main_v200 main_v209 main_v210 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_arg8 main_v211 ((extractStridedSlice S1x1000000 ![0, 0] · slices_S3x1000000_S1x1000000_0_0) : (⟨S3x1000000, .i32⟩ : BufTy).Contents (Elt F) → (⟨S1x1000000, .i32⟩ : BufTy).Contents (Elt F)),
    reshape main_v211 main_v212 rfl shapeCasts_S1x1000000_S1000000,
    nullary main_cst_31 (constant S_ .f32 0x00000000#32),
    unary main_cst_31 main_v213 (broadcastInDim S100000x64 ![] bcast_S_S100000x64 : (⟨S_, .f32⟩ : BufTy).Contents (Elt F) → (⟨S100000x64, .f32⟩ : BufTy).Contents (Elt F)),
    unary main_v212 main_v214 (broadcastInDim S1000000x1 ![0] bcast_S1000000_S1000000x1_0 : (⟨S1000000, .i32⟩ : BufTy).Contents (Elt F) → (⟨S1000000x1, .i32⟩ : BufTy).Contents (Elt F)),
    ternary main_v213 main_v214 main_v210 main_v215 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_v28 main_v216 ((extractStridedSlice S1x100000 ![0, 0] · slices_S3x100000_S1x100000_0_0) : (⟨S3x100000, .f32⟩ : BufTy).Contents (Elt F) → (⟨S1x100000, .f32⟩ : BufTy).Contents (Elt F)),
    reshape main_v216 main_v217 rfl shapeCasts_S1x100000_S100000,
    unary main_v217 main_v218 (broadcastInDim S100000x1 ![0] bcast_S100000_S100000x1_0 : (⟨S100000, .f32⟩ : BufTy).Contents (Elt F) → (⟨S100000x1, .f32⟩ : BufTy).Contents (Elt F)),
    unary main_v218 main_v219 (broadcastInDim S100000x64 ![0, 1] bcast_S100000x1_S100000x64_0_1 : (⟨S100000x1, .f32⟩ : BufTy).Contents (Elt F) → (⟨S100000x64, .f32⟩ : BufTy).Contents (Elt F)),
    binary main_v215 main_v219 main_v220 (mulf : (⟨S100000x64, .f32⟩ : BufTy).Contents (Elt F) → (⟨S100000x64, .f32⟩ : BufTy).Contents (Elt F) → (⟨S100000x64, .f32⟩ : BufTy).Contents (Elt F)),
    unary main_arg5 main_v221 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v221 main_v222 rfl shapeCasts_S1x64x64_S64x64,
    binary main_v220 main_v222 main_v223 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v201 main_v223 main_v224 (addf : (⟨S100000x64, .f32⟩ : BufTy).Contents (Elt F) → (⟨S100000x64, .f32⟩ : BufTy).Contents (Elt F) → (⟨S100000x64, .f32⟩ : BufTy).Contents (Elt F)),
    unary main_arg6 main_v225 ((extractStridedSlice S1x64 ![0, 0] · slices_S3x64_S1x64_0_0) : (⟨S3x64, .f32⟩ : BufTy).Contents (Elt F) → (⟨S1x64, .f32⟩ : BufTy).Contents (Elt F)),
    reshape main_v225 main_v226 rfl shapeCasts_S1x64_S64,
    unary main_v226 main_v227 (broadcastInDim S1x64 ![1] bcast_S64_S1x64_1 : (⟨S64, .f32⟩ : BufTy).Contents (Elt F) → (⟨S1x64, .f32⟩ : BufTy).Contents (Elt F)),
    unary main_v227 main_v228 (broadcastInDim S100000x64 ![0, 1] bcast_S1x64_S100000x64_0_1 : (⟨S1x64, .f32⟩ : BufTy).Contents (Elt F) → (⟨S100000x64, .f32⟩ : BufTy).Contents (Elt F)),
    binary main_v224 main_v228 main_v229 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- @main's operations 275 … 310 of 381. -/
abbrev ops11 : List (HloOp τ sig (Elt F)) :=
  [ unary main_arg7 main_v230 ((extractStridedSlice S1x1000000 ![1, 0] · slices_S3x1000000_S1x1000000_1_0) : (⟨S3x1000000, .i32⟩ : BufTy).Contents (Elt F) → (⟨S1x1000000, .i32⟩ : BufTy).Contents (Elt F)),
    reshape main_v230 main_v231 rfl shapeCasts_S1x1000000_S1000000,
    nullary main_c_32 (constantI S_ 32 0#32),
    unary main_c_32 main_v232 (broadcastInDim S1000000 ![] bcast_S_S1000000 : (⟨S_, .i32⟩ : BufTy).Contents (Elt F) → (⟨S1000000, .i32⟩ : BufTy).Contents (Elt F)),
    binary main_v231 main_v232 main_v233 (cmpi .slt : (⟨S1000000, .i32⟩ : BufTy).Contents (Elt F) → (⟨S1000000, .i32⟩ : BufTy).Contents (Elt F) → (⟨S1000000, .i1⟩ : BufTy).Contents (Elt F)),
    nullary main_c_33 (constantI S_ 32 100000#32),
    unary main_c_33 main_v234 (broadcastInDim S1000000 ![] bcast_S_S1000000 : (⟨S_, .i32⟩ : BufTy).Contents (Elt F) → (⟨S1000000, .i32⟩ : BufTy).Contents (Elt F)),
    binary main_v231 main_v234 main_v235 (addi : (⟨S1000000, .i32⟩ : BufTy).Contents (Elt F) → (⟨S1000000, .i32⟩ : BufTy).Contents (Elt F) → (⟨S1000000, .i32⟩ : BufTy).Contents (Elt F)),
    ternary main_v233 main_v235 main_v231 main_v236 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v236 main_v237 (broadcastInDim S1000000x1 ![0] bcast_S1000000_S1000000x1_0 : (⟨S1000000, .i32⟩ : BufTy).Contents (Elt F) → (⟨S1000000x1, .i32⟩ : BufTy).Contents (Elt F)),
    binary main_v200 main_v237 main_v238 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_arg8 main_v239 ((extractStridedSlice S1x1000000 ![1, 0] · slices_S3x1000000_S1x1000000_1_0) : (⟨S3x1000000, .i32⟩ : BufTy).Contents (Elt F) → (⟨S1x1000000, .i32⟩ : BufTy).Contents (Elt F)),
    reshape main_v239 main_v240 rfl shapeCasts_S1x1000000_S1000000,
    nullary main_cst_34 (constant S_ .f32 0x00000000#32),
    unary main_cst_34 main_v241 (broadcastInDim S100000x64 ![] bcast_S_S100000x64 : (⟨S_, .f32⟩ : BufTy).Contents (Elt F) → (⟨S100000x64, .f32⟩ : BufTy).Contents (Elt F)),
    unary main_v240 main_v242 (broadcastInDim S1000000x1 ![0] bcast_S1000000_S1000000x1_0 : (⟨S1000000, .i32⟩ : BufTy).Contents (Elt F) → (⟨S1000000x1, .i32⟩ : BufTy).Contents (Elt F)),
    ternary main_v241 main_v242 main_v238 main_v243 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_v28 main_v244 ((extractStridedSlice S1x100000 ![1, 0] · slices_S3x100000_S1x100000_1_0) : (⟨S3x100000, .f32⟩ : BufTy).Contents (Elt F) → (⟨S1x100000, .f32⟩ : BufTy).Contents (Elt F)),
    reshape main_v244 main_v245 rfl shapeCasts_S1x100000_S100000,
    unary main_v245 main_v246 (broadcastInDim S100000x1 ![0] bcast_S100000_S100000x1_0 : (⟨S100000, .f32⟩ : BufTy).Contents (Elt F) → (⟨S100000x1, .f32⟩ : BufTy).Contents (Elt F)),
    unary main_v246 main_v247 (broadcastInDim S100000x64 ![0, 1] bcast_S100000x1_S100000x64_0_1 : (⟨S100000x1, .f32⟩ : BufTy).Contents (Elt F) → (⟨S100000x64, .f32⟩ : BufTy).Contents (Elt F)),
    binary main_v243 main_v247 main_v248 (mulf : (⟨S100000x64, .f32⟩ : BufTy).Contents (Elt F) → (⟨S100000x64, .f32⟩ : BufTy).Contents (Elt F) → (⟨S100000x64, .f32⟩ : BufTy).Contents (Elt F)),
    unary main_arg5 main_v249 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v249 main_v250 rfl shapeCasts_S1x64x64_S64x64,
    binary main_v248 main_v250 main_v251 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v229 main_v251 main_v252 (addf : (⟨S100000x64, .f32⟩ : BufTy).Contents (Elt F) → (⟨S100000x64, .f32⟩ : BufTy).Contents (Elt F) → (⟨S100000x64, .f32⟩ : BufTy).Contents (Elt F)),
    unary main_arg6 main_v253 ((extractStridedSlice S1x64 ![1, 0] · slices_S3x64_S1x64_1_0) : (⟨S3x64, .f32⟩ : BufTy).Contents (Elt F) → (⟨S1x64, .f32⟩ : BufTy).Contents (Elt F)),
    reshape main_v253 main_v254 rfl shapeCasts_S1x64_S64,
    unary main_v254 main_v255 (broadcastInDim S1x64 ![1] bcast_S64_S1x64_1 : (⟨S64, .f32⟩ : BufTy).Contents (Elt F) → (⟨S1x64, .f32⟩ : BufTy).Contents (Elt F)),
    unary main_v255 main_v256 (broadcastInDim S100000x64 ![0, 1] bcast_S1x64_S100000x64_0_1 : (⟨S1x64, .f32⟩ : BufTy).Contents (Elt F) → (⟨S100000x64, .f32⟩ : BufTy).Contents (Elt F)),
    binary main_v252 main_v256 main_v257 (addf : (⟨S100000x64, .f32⟩ : BufTy).Contents (Elt F) → (⟨S100000x64, .f32⟩ : BufTy).Contents (Elt F) → (⟨S100000x64, .f32⟩ : BufTy).Contents (Elt F)),
    unary main_arg7 main_v258 ((extractStridedSlice S1x1000000 ![2, 0] · slices_S3x1000000_S1x1000000_2_0) : (⟨S3x1000000, .i32⟩ : BufTy).Contents (Elt F) → (⟨S1x1000000, .i32⟩ : BufTy).Contents (Elt F)),
    reshape main_v258 main_v259 rfl shapeCasts_S1x1000000_S1000000,
    nullary main_c_35 (constantI S_ 32 0#32),
    unary main_c_35 main_v260 (broadcastInDim S1000000 ![] bcast_S_S1000000 : (⟨S_, .i32⟩ : BufTy).Contents (Elt F) → (⟨S1000000, .i32⟩ : BufTy).Contents (Elt F)),
    binary main_v259 main_v260 main_v261 (cmpi .slt : (⟨S1000000, .i32⟩ : BufTy).Contents (Elt F) → (⟨S1000000, .i32⟩ : BufTy).Contents (Elt F) → (⟨S1000000, .i1⟩ : BufTy).Contents (Elt F)) ]

set_option maxRecDepth 8192 in
set_option maxHeartbeats 4000000 in
/-- @main's operations 311 … 336 of 381. -/
abbrev ops12 : List (HloOp τ sig (Elt F)) :=
  [ nullary main_c_36 (constantI S_ 32 100000#32),
    unary main_c_36 main_v262 (broadcastInDim S1000000 ![] bcast_S_S1000000 : (⟨S_, .i32⟩ : BufTy).Contents (Elt F) → (⟨S1000000, .i32⟩ : BufTy).Contents (Elt F)),
    binary main_v259 main_v262 main_v263 (addi : (⟨S1000000, .i32⟩ : BufTy).Contents (Elt F) → (⟨S1000000, .i32⟩ : BufTy).Contents (Elt F) → (⟨S1000000, .i32⟩ : BufTy).Contents (Elt F)),
    ternary main_v261 main_v263 main_v259 main_v264 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v264 main_v265 (broadcastInDim S1000000x1 ![0] bcast_S1000000_S1000000x1_0 : (⟨S1000000, .i32⟩ : BufTy).Contents (Elt F) → (⟨S1000000x1, .i32⟩ : BufTy).Contents (Elt F)),
    binary main_v200 main_v265 main_v266 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_arg8 main_v267 ((extractStridedSlice S1x1000000 ![2, 0] · slices_S3x1000000_S1x1000000_2_0) : (⟨S3x1000000, .i32⟩ : BufTy).Contents (Elt F) → (⟨S1x1000000, .i32⟩ : BufTy).Contents (Elt F)),
    reshape main_v267 main_v268 rfl shapeCasts_S1x1000000_S1000000,
    nullary main_cst_37 (constant S_ .f32 0x00000000#32),
    unary main_cst_37 main_v269 (broadcastInDim S100000x64 ![] bcast_S_S100000x64 : (⟨S_, .f32⟩ : BufTy).Contents (Elt F) → (⟨S100000x64, .f32⟩ : BufTy).Contents (Elt F)),
    unary main_v268 main_v270 (broadcastInDim S1000000x1 ![0] bcast_S1000000_S1000000x1_0 : (⟨S1000000, .i32⟩ : BufTy).Contents (Elt F) → (⟨S1000000x1, .i32⟩ : BufTy).Contents (Elt F)),
    ternary main_v269 main_v270 main_v266 main_v271 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_v28 main_v272 ((extractStridedSlice S1x100000 ![2, 0] · slices_S3x100000_S1x100000_2_0) : (⟨S3x100000, .f32⟩ : BufTy).Contents (Elt F) → (⟨S1x100000, .f32⟩ : BufTy).Contents (Elt F)),
    reshape main_v272 main_v273 rfl shapeCasts_S1x100000_S100000,
    unary main_v273 main_v274 (broadcastInDim S100000x1 ![0] bcast_S100000_S100000x1_0 : (⟨S100000, .f32⟩ : BufTy).Contents (Elt F) → (⟨S100000x1, .f32⟩ : BufTy).Contents (Elt F)),
    unary main_v274 main_v275 (broadcastInDim S100000x64 ![0, 1] bcast_S100000x1_S100000x64_0_1 : (⟨S100000x1, .f32⟩ : BufTy).Contents (Elt F) → (⟨S100000x64, .f32⟩ : BufTy).Contents (Elt F)),
    binary main_v271 main_v275 main_v276 (mulf : (⟨S100000x64, .f32⟩ : BufTy).Contents (Elt F) → (⟨S100000x64, .f32⟩ : BufTy).Contents (Elt F) → (⟨S100000x64, .f32⟩ : BufTy).Contents (Elt F)),
    unary main_arg5 main_v277 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v277 main_v278 rfl shapeCasts_S1x64x64_S64x64,
    binary main_v276 main_v278 main_v279 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v257 main_v279 main_v280 (addf : (⟨S100000x64, .f32⟩ : BufTy).Contents (Elt F) → (⟨S100000x64, .f32⟩ : BufTy).Contents (Elt F) → (⟨S100000x64, .f32⟩ : BufTy).Contents (Elt F)),
    unary main_arg6 main_v281 ((extractStridedSlice S1x64 ![2, 0] · slices_S3x64_S1x64_2_0) : (⟨S3x64, .f32⟩ : BufTy).Contents (Elt F) → (⟨S1x64, .f32⟩ : BufTy).Contents (Elt F)),
    reshape main_v281 main_v282 rfl shapeCasts_S1x64_S64,
    unary main_v282 main_v283 (broadcastInDim S1x64 ![1] bcast_S64_S1x64_1 : (⟨S64, .f32⟩ : BufTy).Contents (Elt F) → (⟨S1x64, .f32⟩ : BufTy).Contents (Elt F)),
    unary main_v283 main_v284 (broadcastInDim S100000x64 ![0, 1] bcast_S1x64_S100000x64_0_1 : (⟨S1x64, .f32⟩ : BufTy).Contents (Elt F) → (⟨S100000x64, .f32⟩ : BufTy).Contents (Elt F)),
    binary main_v280 main_v284 main_v285 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- @main's operations 337 … 372 of 381. -/
abbrev ops13 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v285) (TRef.of (T := ⟨S100000x64, .f32⟩) main_call5_v0) (TRef.of (T := ⟨S100000x64, .f32⟩) main_v286) maximumf,
    nullary main_c_38 (constantI S_ 32 0#32),
    unary main_c_38 main_v287 (broadcastInDim S500000 ![] bcast_S_S500000 : (⟨S_, .i32⟩ : BufTy).Contents (Elt F) → (⟨S500000, .i32⟩ : BufTy).Contents (Elt F)),
    binary main_arg9 main_v287 main_v288 (cmpi .slt : (⟨S500000, .i32⟩ : BufTy).Contents (Elt F) → (⟨S500000, .i32⟩ : BufTy).Contents (Elt F) → (⟨S500000, .i1⟩ : BufTy).Contents (Elt F)),
    nullary main_c_39 (constantI S_ 32 100000#32),
    unary main_c_39 main_v289 (broadcastInDim S500000 ![] bcast_S_S500000 : (⟨S_, .i32⟩ : BufTy).Contents (Elt F) → (⟨S500000, .i32⟩ : BufTy).Contents (Elt F)),
    binary main_arg9 main_v289 main_v290 (addi : (⟨S500000, .i32⟩ : BufTy).Contents (Elt F) → (⟨S500000, .i32⟩ : BufTy).Contents (Elt F) → (⟨S500000, .i32⟩ : BufTy).Contents (Elt F)),
    ternary main_v288 main_v290 main_arg9 main_v291 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v291 main_v292 (broadcastInDim S500000x1 ![0] bcast_S500000_S500000x1_0 : (⟨S500000, .i32⟩ : BufTy).Contents (Elt F) → (⟨S500000x1, .i32⟩ : BufTy).Contents (Elt F)),
    binary main_v286 main_v292 main_v293 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    nullary main_c_40 (constantI S_ 32 0#32),
    unary main_c_40 main_v294 (broadcastInDim S500000 ![] bcast_S_S500000 : (⟨S_, .i32⟩ : BufTy).Contents (Elt F) → (⟨S500000, .i32⟩ : BufTy).Contents (Elt F)),
    binary main_arg10 main_v294 main_v295 (cmpi .slt : (⟨S500000, .i32⟩ : BufTy).Contents (Elt F) → (⟨S500000, .i32⟩ : BufTy).Contents (Elt F) → (⟨S500000, .i1⟩ : BufTy).Contents (Elt F)),
    nullary main_c_41 (constantI S_ 32 100000#32),
    unary main_c_41 main_v296 (broadcastInDim S500000 ![] bcast_S_S500000 : (⟨S_, .i32⟩ : BufTy).Contents (Elt F) → (⟨S500000, .i32⟩ : BufTy).Contents (Elt F)),
    binary main_arg10 main_v296 main_v297 (addi : (⟨S500000, .i32⟩ : BufTy).Contents (Elt F) → (⟨S500000, .i32⟩ : BufTy).Contents (Elt F) → (⟨S500000, .i32⟩ : BufTy).Contents (Elt F)),
    ternary main_v295 main_v297 main_arg10 main_v298 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v298 main_v299 (broadcastInDim S500000x1 ![0] bcast_S500000_S500000x1_0 : (⟨S500000, .i32⟩ : BufTy).Contents (Elt F) → (⟨S500000x1, .i32⟩ : BufTy).Contents (Elt F)),
    binary main_v286 main_v299 main_v300 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v293 main_v300 main_v301 (mulf : (⟨S500000x64, .f32⟩ : BufTy).Contents (Elt F) → (⟨S500000x64, .f32⟩ : BufTy).Contents (Elt F) → (⟨S500000x64, .f32⟩ : BufTy).Contents (Elt F)),
    nullary main_cst_42 (constant S_ .f32 0x00000000#32),
    binary main_v301 main_cst_42 main_v302 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    nullary main_c_43 (constantI S_ 32 0#32),
    unary main_c_43 main_v303 (broadcastInDim S500000 ![] bcast_S_S500000 : (⟨S_, .i32⟩ : BufTy).Contents (Elt F) → (⟨S500000, .i32⟩ : BufTy).Contents (Elt F)),
    binary main_arg11 main_v303 main_v304 (cmpi .slt : (⟨S500000, .i32⟩ : BufTy).Contents (Elt F) → (⟨S500000, .i32⟩ : BufTy).Contents (Elt F) → (⟨S500000, .i1⟩ : BufTy).Contents (Elt F)),
    nullary main_c_44 (constantI S_ 32 100000#32),
    unary main_c_44 main_v305 (broadcastInDim S500000 ![] bcast_S_S500000 : (⟨S_, .i32⟩ : BufTy).Contents (Elt F) → (⟨S500000, .i32⟩ : BufTy).Contents (Elt F)),
    binary main_arg11 main_v305 main_v306 (addi : (⟨S500000, .i32⟩ : BufTy).Contents (Elt F) → (⟨S500000, .i32⟩ : BufTy).Contents (Elt F) → (⟨S500000, .i32⟩ : BufTy).Contents (Elt F)),
    ternary main_v304 main_v306 main_arg11 main_v307 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v307 main_v308 (broadcastInDim S500000x1 ![0] bcast_S500000_S500000x1_0 : (⟨S500000, .i32⟩ : BufTy).Contents (Elt F) → (⟨S500000x1, .i32⟩ : BufTy).Contents (Elt F)),
    binary main_v286 main_v308 main_v309 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    nullary main_c_45 (constantI S_ 32 0#32),
    unary main_c_45 main_v310 (broadcastInDim S500000 ![] bcast_S_S500000 : (⟨S_, .i32⟩ : BufTy).Contents (Elt F) → (⟨S500000, .i32⟩ : BufTy).Contents (Elt F)),
    binary main_arg12 main_v310 main_v311 (cmpi .slt : (⟨S500000, .i32⟩ : BufTy).Contents (Elt F) → (⟨S500000, .i32⟩ : BufTy).Contents (Elt F) → (⟨S500000, .i1⟩ : BufTy).Contents (Elt F)) ]

set_option maxRecDepth 8192 in
set_option maxHeartbeats 4000000 in
/-- @main's operations 373 … 381 of 381. -/
abbrev ops14 : List (HloOp τ sig (Elt F)) :=
  [ nullary main_c_46 (constantI S_ 32 100000#32),
    unary main_c_46 main_v312 (broadcastInDim S500000 ![] bcast_S_S500000 : (⟨S_, .i32⟩ : BufTy).Contents (Elt F) → (⟨S500000, .i32⟩ : BufTy).Contents (Elt F)),
    binary main_arg12 main_v312 main_v313 (addi : (⟨S500000, .i32⟩ : BufTy).Contents (Elt F) → (⟨S500000, .i32⟩ : BufTy).Contents (Elt F) → (⟨S500000, .i32⟩ : BufTy).Contents (Elt F)),
    ternary main_v311 main_v313 main_arg12 main_v314 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v314 main_v315 (broadcastInDim S500000x1 ![0] bcast_S500000_S500000x1_0 : (⟨S500000, .i32⟩ : BufTy).Contents (Elt F) → (⟨S500000x1, .i32⟩ : BufTy).Contents (Elt F)),
    binary main_v286 main_v315 main_v316 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v309 main_v316 main_v317 (mulf : (⟨S500000x64, .f32⟩ : BufTy).Contents (Elt F) → (⟨S500000x64, .f32⟩ : BufTy).Contents (Elt F) → (⟨S500000x64, .f32⟩ : BufTy).Contents (Elt F)),
    nullary main_cst_47 (constant S_ .f32 0x00000000#32),
    binary main_v317 main_cst_47 main_v318 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)) ]

/-- The operations of @main's part 0. -/
def opsP0 : List (HloOp τ sig (Elt F)) := ops1 ++ (ops2 ++ (ops3))
set_option maxRecDepth 8192 in
set_option maxHeartbeats 4000000 in
theorem main_part0_eq (c : Dev nD) : main_part0 (F := F) c = seq opsP0 := rfl

/-- The operations of @main's part 1. -/
def opsP1 : List (HloOp τ sig (Elt F)) := ops4 ++ (ops5)
set_option maxRecDepth 8192 in
set_option maxHeartbeats 4000000 in
theorem main_part1_eq (c : Dev nD) : main_part1 (F := F) c = seq opsP1 := rfl

/-- The operations of @main's part 2. -/
def opsP2 : List (HloOp τ sig (Elt F)) := ops6 ++ (ops7)
set_option maxRecDepth 8192 in
set_option maxHeartbeats 4000000 in
theorem main_part2_eq (c : Dev nD) : main_part2 (F := F) c = seq opsP2 := rfl

/-- The operations of @main's part 3. -/
def opsP3 : List (HloOp τ sig (Elt F)) := ops8 ++ (ops9)
set_option maxRecDepth 8192 in
set_option maxHeartbeats 4000000 in
theorem main_part3_eq (c : Dev nD) : main_part3 (F := F) c = seq opsP3 := rfl

/-- The operations of @main's part 4. -/
def opsP4 : List (HloOp τ sig (Elt F)) := ops10 ++ (ops11)
set_option maxRecDepth 8192 in
set_option maxHeartbeats 4000000 in
theorem main_part4_eq (c : Dev nD) : main_part4 (F := F) c = seq opsP4 := rfl

/-- The operations of @main's part 5. -/
def opsP5 : List (HloOp τ sig (Elt F)) := ops12 ++ (ops13)
set_option maxRecDepth 8192 in
set_option maxHeartbeats 4000000 in
theorem main_part5_eq (c : Dev nD) : main_part5 (F := F) c = seq opsP5 := rfl

/-- The operations of @main's part 6. -/
def opsP6 : List (HloOp τ sig (Elt F)) := ops14
set_option maxRecDepth 8192 in
set_option maxHeartbeats 4000000 in
theorem main_part6_eq (c : Dev nD) : main_part6 (F := F) c = seq opsP6 := rfl

/-- @main's 381 operations, in order (a called function's operations stand in its call's place). -/
def ops : List (HloOp τ sig (Elt F)) := opsP0 ++ (opsP1 ++ (opsP2 ++ (opsP3 ++ (opsP4 ++ (opsP5 ++ (opsP6))))))

theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops1_sub : (ops1 : List (HloOp τ sig (Elt F))).Forall fun op => op.bufs ⊆ tcRefs τ sig :=
  ⟨nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., unary_bufs_sub .., unary_bufs_sub ..⟩
set_option maxRecDepth 8192 in
theorem ops1_fresh : ∀ op ∈ (ops1 : List (HloOp τ sig (Elt F))), op.fresh = ∅ := by
  intro _ h; (repeat (cases h with | head => rfl | tail _ h => ?_)); exact nomatch h

set_option maxRecDepth 8192 in
theorem ops2_sub : (ops2 : List (HloOp τ sig (Elt F))).Forall fun op => op.bufs ⊆ tcRefs τ sig :=
  nary_bufs_sub ..
set_option maxRecDepth 8192 in
theorem ops2_fresh : ∀ op ∈ (ops2 : List (HloOp τ sig (Elt F))), op.fresh = ∅ := by
  intro _ h; (repeat (cases h with | head => rfl | tail _ h => ?_)); exact nomatch h

set_option maxRecDepth 8192 in
theorem ops3_sub : (ops3 : List (HloOp τ sig (Elt F))).Forall fun op => op.bufs ⊆ tcRefs τ sig :=
  ⟨nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., unary_bufs_sub .., reshape_bufs_sub ..⟩
set_option maxRecDepth 8192 in
theorem ops3_fresh : ∀ op ∈ (ops3 : List (HloOp τ sig (Elt F))), op.fresh = ∅ := by
  intro _ h; (repeat (cases h with | head => rfl | tail _ h => ?_)); exact nomatch h

set_option maxRecDepth 8192 in
theorem ops4_sub : (ops4 : List (HloOp τ sig (Elt F))).Forall fun op => op.bufs ⊆ tcRefs τ sig :=
  ⟨unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub ..⟩
set_option maxRecDepth 8192 in
theorem ops4_fresh : ∀ op ∈ (ops4 : List (HloOp τ sig (Elt F))), op.fresh = ∅ := by
  intro _ h; (repeat (cases h with | head => rfl | tail _ h => ?_)); exact nomatch h

set_option maxRecDepth 8192 in
theorem ops5_sub : (ops5 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub ..⟩
set_option maxRecDepth 8192 in
theorem ops5_fresh : ∀ op ∈ (ops5 : List (HloOp τ sig (Elt F))), op.fresh = ∅ := by
  intro _ h; (repeat (cases h with | head => rfl | tail _ h => ?_)); exact nomatch h

set_option maxRecDepth 8192 in
theorem ops6_sub : (ops6 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub ..⟩
set_option maxRecDepth 8192 in
theorem ops6_fresh : ∀ op ∈ (ops6 : List (HloOp τ sig (Elt F))), op.fresh = ∅ := by
  intro _ h; (repeat (cases h with | head => rfl | tail _ h => ?_)); exact nomatch h

set_option maxRecDepth 8192 in
theorem ops7_sub : (ops7 : List (HloOp τ sig (Elt F))).Forall fun op => op.bufs ⊆ tcRefs τ sig :=
  ⟨unary_bufs_sub .., binary_bufs_sub .., unary_bufs_sub .., reshape_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩
set_option maxRecDepth 8192 in
theorem ops7_fresh : ∀ op ∈ (ops7 : List (HloOp τ sig (Elt F))), op.fresh = ∅ := by
  intro _ h; (repeat (cases h with | head => rfl | tail _ h => ?_)); exact nomatch h

set_option maxRecDepth 8192 in
theorem ops8_sub : (ops8 : List (HloOp τ sig (Elt F))).Forall fun op => op.bufs ⊆ tcRefs τ sig :=
  ⟨reshape_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem ops8_fresh : ∀ op ∈ (ops8 : List (HloOp τ sig (Elt F))), op.fresh = ∅ := by
  intro _ h; (repeat (cases h with | head => rfl | tail _ h => ?_)); exact nomatch h

set_option maxRecDepth 8192 in
theorem ops9_sub : (ops9 : List (HloOp τ sig (Elt F))).Forall fun op => op.bufs ⊆ tcRefs τ sig :=
  ⟨unary_bufs_sub .., reshape_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., reshape_bufs_sub .., nullary_bufs_sub .., unary_bufs_sub .., binary_bufs_sub .., nullary_bufs_sub .., unary_bufs_sub ..⟩
set_option maxRecDepth 8192 in
theorem ops9_fresh : ∀ op ∈ (ops9 : List (HloOp τ sig (Elt F))), op.fresh = ∅ := by
  intro _ h; (repeat (cases h with | head => rfl | tail _ h => ?_)); exact nomatch h

set_option maxRecDepth 8192 in
theorem ops10_sub : (ops10 : List (HloOp τ sig (Elt F))).Forall fun op => op.bufs ⊆ tcRefs τ sig :=
  ⟨binary_bufs_sub .., ternary_bufs_sub .., unary_bufs_sub .., binary_bufs_sub .., unary_bufs_sub .., reshape_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub ..⟩
set_option maxRecDepth 8192 in
theorem ops10_fresh : ∀ op ∈ (ops10 : List (HloOp τ sig (Elt F))), op.fresh = ∅ := by
  intro _ h; (repeat (cases h with | head => rfl | tail _ h => ?_)); exact nomatch h

set_option maxRecDepth 8192 in
theorem ops11_sub : (ops11 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub ..⟩
set_option maxRecDepth 8192 in
theorem ops11_fresh : ∀ op ∈ (ops11 : List (HloOp τ sig (Elt F))), op.fresh = ∅ := by
  intro _ h; (repeat (cases h with | head => rfl | tail _ h => ?_)); exact nomatch h

set_option maxRecDepth 8192 in
theorem ops12_sub : (ops12 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub ..⟩
set_option maxRecDepth 8192 in
theorem ops12_fresh : ∀ op ∈ (ops12 : List (HloOp τ sig (Elt F))), op.fresh = ∅ := by
  intro _ h; (repeat (cases h with | head => rfl | tail _ h => ?_)); exact nomatch h

set_option maxRecDepth 8192 in
theorem ops13_sub : (ops13 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩
set_option maxRecDepth 8192 in
theorem ops13_fresh : ∀ op ∈ (ops13 : List (HloOp τ sig (Elt F))), op.fresh = ∅ := by
  intro _ h; (repeat (cases h with | head => rfl | tail _ h => ?_)); exact nomatch h

set_option maxRecDepth 8192 in
theorem ops14_sub : (ops14 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., nullary_bufs_sub .., binary_bufs_sub ..⟩
set_option maxRecDepth 8192 in
theorem ops14_fresh : ∀ op ∈ (ops14 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, opsP0, opsP1, opsP2, opsP3, opsP4, opsP5, opsP6, List.mem_append] at h
    rcases h with (h | h | h) | (h | h) | (h | h) | (h | h) | (h | h) | (h | h) | h
    exacts [List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h, List.forall_iff_forall_mem.mp ops13_sub op h, List.forall_iff_forall_mem.mp ops14_sub op h]

theorem ops_fresh : ∀ op ∈ (ops : List (HloOp τ sig (Elt F))), op.fresh = ∅ := by
  intro op h
  simp only [ops, opsP0, opsP1, opsP2, opsP3, opsP4, opsP5, opsP6, List.mem_append] at h
  rcases h with (h | h | h) | (h | h) | (h | h) | (h | h) | (h | h) | (h | h) | h
  exacts [ops1_fresh op h, ops2_fresh op h, ops3_fresh op h, ops4_fresh op h, ops5_fresh op h, ops6_fresh op h, ops7_fresh op h, ops8_fresh op h, ops9_fresh op h, ops10_fresh op h, ops11_fresh op h, ops12_fresh op h, ops13_fresh op h, ops14_fresh op h]

/-! ## The operations' values, each the operation's function of its operands' values -/

def st_main_cst (m : (ℓ : Loc nD τ sig) → Buf (Elt F) ℓ) (c : Dev nD) : Buf (Elt F) ((c.tc : Thread nD τ).loc main_cst) :=
  constant S_ .f32 0x3F800000#32
def st_main_v0 (m : (ℓ : Loc nD τ sig) → Buf (Elt F) ℓ) (c : Dev nD) : Buf (Elt F) ((c.tc : Thread nD τ).loc main_v0) :=
  broadcastInDim S1000000 ![] bcast_S_S1000000 (st_main_cst m c)
def st_main_v1 (m : (ℓ : Loc nD τ sig) → Buf (Elt F) ℓ) (c : Dev nD) : Buf (Elt F) ((c.tc : Thread nD τ).loc main_v1) :=
  extractStridedSlice S1x1000000 ![0, 0] (m ((c.tc : Thread nD τ).loc main_arg8)) slices_S3x1000000_S1x1000000_0_0
def st_main_v2 (m : (ℓ : Loc nD τ sig) → Buf (Elt F) ℓ) (c : Dev nD) : Buf (Elt F) ((c.tc : Thread nD τ).loc main_v2) :=
  shapeCast _ (st_main_v1 m c) shapeCasts_S1x1000000_S1000000
def st_main_cst_0 (m : (ℓ : Loc nD τ sig) → Buf (Elt F) ℓ) (c : Dev nD) : Buf (Elt F) ((c.tc : Thread nD τ).loc main_cst_0) :=
  constant S_ .f32 0x00000000#32
def st_main_v3 (m : (ℓ : Loc nD τ sig) → Buf (Elt F) ℓ) (c : Dev nD) : Buf (Elt F) ((c.tc : Thread nD τ).loc main_v3) :=
  broadcastInDim S100000 ![] bcast_S_S100000 (st_main_cst_0 m c)
def st_main_v4 (m : (ℓ : Loc nD τ sig) → Buf (Elt F) ℓ) (c : Dev nD) : Buf (Elt F) ((c.tc : Thread nD τ).loc main_v4) :=
  broadcastInDim S1000000x1 ![0] bcast_S1000000_S1000000x1_0 (st_main_v2 m c)
def st_main_v5 (m : (ℓ : Loc nD τ sig) → Buf (Elt F) ℓ) (c : Dev nD) : Buf (Elt F) ((c.tc : Thread nD τ).loc main_v5) :=
  Host.scatterAdd scatter_S100000_S1000000x1_S1000000_n_0_0_1 (st_main_v3 m c) (st_main_v4 m c) (st_main_v0 m c)
def st_main_cst_1 (m : (ℓ : Loc nD τ sig) → Buf (Elt F) ℓ) (c : Dev nD) : Buf (Elt F) ((c.tc : Thread nD τ).loc main_cst_1) :=
  constant S_ .f32 0x3F800000#32
def st_main_call0_v0 (m : (ℓ : Loc nD τ sig) → Buf (Elt F) ℓ) (c : Dev nD) : Buf (Elt F) ((c.tc : Thread nD τ).loc main_call0_v0) :=
  id (st_main_cst_1 m c)
def st_main_call0_v1 (m : (ℓ : Loc nD τ sig) → Buf (Elt F) ℓ) (c : Dev nD) : Buf (Elt F) ((c.tc : Thread nD τ).loc main_call0_v1) :=
  broadcastInDim S100000 ![] bcast_S_S100000 (st_main_call0_v0 m c)
def st_main_v6 (m : (ℓ : Loc nD τ sig) → Buf (Elt F) ℓ) (c : Dev nD) : Buf (Elt F) ((c.tc : Thread nD τ).loc main_v6) :=
  maximumf (st_main_call0_v1 m c) (st_main_v5 m c)
def st_main_cst_2 (m : (ℓ : Loc nD τ sig) → Buf (Elt F) ℓ) (c : Dev nD) : Buf (Elt F) ((c.tc : Thread nD τ).loc main_cst_2) :=
  constant S_ .f32 0x3F800000#32
def st_main_v7 (m : (ℓ : Loc nD τ sig) → Buf (Elt F) ℓ) (c : Dev nD) : Buf (Elt F) ((c.tc : Thread nD τ).loc main_v7) :=
  broadcastInDim S100000 ![] bcast_S_S100000 (st_main_cst_2 m c)
def st_main_v8 (m : (ℓ : Loc nD τ sig) → Buf (Elt F) ℓ) (c : Dev nD) : Buf (Elt F) ((c.tc : Thread nD τ).loc main_v8) :=
  Host.divf (st_main_v7 m c) (st_main_v6 m c)
def st_main_v9 (m : (ℓ : Loc nD τ sig) → Buf (Elt F) ℓ) (c : Dev nD) : Buf (Elt F) ((c.tc : Thread nD τ).loc main_v9) :=
  extractStridedSlice S1x1000000 ![1, 0] (m ((c.tc : Thread nD τ).loc main_arg8)) slices_S3x1000000_S1x1000000_1_0
def st_main_v10 (m : (ℓ : Loc nD τ sig) → Buf (Elt F) ℓ) (c : Dev nD) : Buf (Elt F) ((c.tc : Thread nD τ).loc main_v10) :=
  shapeCast _ (st_main_v9 m c) shapeCasts_S1x1000000_S1000000
def st_main_cst_3 (m : (ℓ : Loc nD τ sig) → Buf (Elt F) ℓ) (c : Dev nD) : Buf (Elt F) ((c.tc : Thread nD τ).loc main_cst_3) :=
  constant S_ .f32 0x00000000#32
def st_main_v11 (m : (ℓ : Loc nD τ sig) → Buf (Elt F) ℓ) (c : Dev nD) : Buf (Elt F) ((c.tc : Thread nD τ).loc main_v11) :=
  broadcastInDim S100000 ![] bcast_S_S100000 (st_main_cst_3 m c)
def st_main_v12 (m : (ℓ : Loc nD τ sig) → Buf (Elt F) ℓ) (c : Dev nD) : Buf (Elt F) ((c.tc : Thread nD τ).loc main_v12) :=
  broadcastInDim S1000000x1 ![0] bcast_S1000000_S1000000x1_0 (st_main_v10 m c)
def st_main_v13 (m : (ℓ : Loc nD τ sig) → Buf (Elt F) ℓ) (c : Dev nD) : Buf (Elt F) ((c.tc : Thread nD τ).loc main_v13) :=
  Host.scatterAdd scatter_S100000_S1000000x1_S1000000_n_0_0_1 (st_main_v11 m c) (st_main_v12 m c) (st_main_v0 m c)
def st_main_cst_4 (m : (ℓ : Loc nD τ sig) → Buf (Elt F) ℓ) (c : Dev nD) : Buf (Elt F) ((c.tc : Thread nD τ).loc main_cst_4) :=
  constant S_ .f32 0x3F800000#32
def st_main_call1_v0 (m : (ℓ : Loc nD τ sig) → Buf (Elt F) ℓ) (c : Dev nD) : Buf (Elt F) ((c.tc : Thread nD τ).loc main_call1_v0) :=
  id (st_main_cst_4 m c)
def st_main_call1_v1 (m : (ℓ : Loc nD τ sig) → Buf (Elt F) ℓ) (c : Dev nD) : Buf (Elt F) ((c.tc : Thread nD τ).loc main_call1_v1) :=
  broadcastInDim S100000 ![] bcast_S_S100000 (st_main_call1_v0 m c)
def st_main_v14 (m : (ℓ : Loc nD τ sig) → Buf (Elt F) ℓ) (c : Dev nD) : Buf (Elt F) ((c.tc : Thread nD τ).loc main_v14) :=
  maximumf (st_main_call1_v1 m c) (st_main_v13 m c)
def st_main_cst_5 (m : (ℓ : Loc nD τ sig) → Buf (Elt F) ℓ) (c : Dev nD) : Buf (Elt F) ((c.tc : Thread nD τ).loc main_cst_5) :=
  constant S_ .f32 0x3F800000#32
def st_main_v15 (m : (ℓ : Loc nD τ sig) → Buf (Elt F) ℓ) (c : Dev nD) : Buf (Elt F) ((c.tc : Thread nD τ).loc main_v15) :=
  broadcastInDim S100000 ![] bcast_S_S100000 (st_main_cst_5 m c)
def st_main_v16 (m : (ℓ : Loc nD τ sig) → Buf (Elt F) ℓ) (c : Dev nD) : Buf (Elt F) ((c.tc : Thread nD τ).loc main_v16) :=
  Host.divf (st_main_v15 m c) (st_main_v14 m c)
def st_main_v17 (m : (ℓ : Loc nD τ sig) → Buf (Elt F) ℓ) (c : Dev nD) : Buf (Elt F) ((c.tc : Thread nD τ).loc main_v17) :=
  extractStridedSlice S1x1000000 ![2, 0] (m ((c.tc : Thread nD τ).loc main_arg8)) slices_S3x1000000_S1x1000000_2_0
def st_main_v18 (m : (ℓ : Loc nD τ sig) → Buf (Elt F) ℓ) (c : Dev nD) : Buf (Elt F) ((c.tc : Thread nD τ).loc main_v18) :=
  shapeCast _ (st_main_v17 m c) shapeCasts_S1x1000000_S1000000
def st_main_cst_6 (m : (ℓ : Loc nD τ sig) → Buf (Elt F) ℓ) (c : Dev nD) : Buf (Elt F) ((c.tc : Thread nD τ).loc main_cst_6) :=
  constant S_ .f32 0x00000000#32
def st_main_v19 (m : (ℓ : Loc nD τ sig) → Buf (Elt F) ℓ) (c : Dev nD) : Buf (Elt F) ((c.tc : Thread nD τ).loc main_v19) :=
  broadcastInDim S100000 ![] bcast_S_S100000 (st_main_cst_6 m c)
def st_main_v20 (m : (ℓ : Loc nD τ sig) → Buf (Elt F) ℓ) (c : Dev nD) : Buf (Elt F) ((c.tc : Thread nD τ).loc main_v20) :=
  broadcastInDim S1000000x1 ![0] bcast_S1000000_S1000000x1_0 (st_main_v18 m c)
def st_main_v21 (m : (ℓ : Loc nD τ sig) → Buf (Elt F) ℓ) (c : Dev nD) : Buf (Elt F) ((c.tc : Thread nD τ).loc main_v21) :=
  Host.scatterAdd scatter_S100000_S1000000x1_S1000000_n_0_0_1 (st_main_v19 m c) (st_main_v20 m c) (st_main_v0 m c)
def st_main_cst_7 (m : (ℓ : Loc nD τ sig) → Buf (Elt F) ℓ) (c : Dev nD) : Buf (Elt F) ((c.tc : Thread nD τ).loc main_cst_7) :=
  constant S_ .f32 0x3F800000#32
def st_main_call2_v0 (m : (ℓ : Loc nD τ sig) → Buf (Elt F) ℓ) (c : Dev nD) : Buf (Elt F) ((c.tc : Thread nD τ).loc main_call2_v0) :=
  id (st_main_cst_7 m c)
def st_main_call2_v1 (m : (ℓ : Loc nD τ sig) → Buf (Elt F) ℓ) (c : Dev nD) : Buf (Elt F) ((c.tc : Thread nD τ).loc main_call2_v1) :=
  broadcastInDim S100000 ![] bcast_S_S100000 (st_main_call2_v0 m c)
def st_main_v22 (m : (ℓ : Loc nD τ sig) → Buf (Elt F) ℓ) (c : Dev nD) : Buf (Elt F) ((c.tc : Thread nD τ).loc main_v22) :=
  maximumf (st_main_call2_v1 m c) (st_main_v21 m c)
def st_main_cst_8 (m : (ℓ : Loc nD τ sig) → Buf (Elt F) ℓ) (c : Dev nD) : Buf (Elt F) ((c.tc : Thread nD τ).loc main_cst_8) :=
  constant S_ .f32 0x3F800000#32
def st_main_v23 (m : (ℓ : Loc nD τ sig) → Buf (Elt F) ℓ) (c : Dev nD) : Buf (Elt F) ((c.tc : Thread nD τ).loc main_v23) :=
  broadcastInDim S100000 ![] bcast_S_S100000 (st_main_cst_8 m c)
def st_main_v24 (m : (ℓ : Loc nD τ sig) → Buf (Elt F) ℓ) (c : Dev nD) : Buf (Elt F) ((c.tc : Thread nD τ).loc main_v24) :=
  Host.divf (st_main_v23 m c) (st_main_v22 m c)
def st_main_v25 (m : (ℓ : Loc nD τ sig) → Buf (Elt F) ℓ) (c : Dev nD) : Buf (Elt F) ((c.tc : Thread nD τ).loc main_v25) :=
  broadcastInDim S1x100000 ![1] bcast_S100000_S1x100000_1 (st_main_v8 m c)
def st_main_v26 (m : (ℓ : Loc nD τ sig) → Buf (Elt F) ℓ) (c : Dev nD) : Buf (Elt F) ((c.tc : Thread nD τ).loc main_v26) :=
  broadcastInDim S1x100000 ![1] bcast_S100000_S1x100000_1 (st_main_v16 m c)
def st_main_v27 (m : (ℓ : Loc nD τ sig) → Buf (Elt F) ℓ) (c : Dev nD) : Buf (Elt F) ((c.tc : Thread nD τ).loc main_v27) :=
  broadcastInDim S1x100000 ![1] bcast_S100000_S1x100000_1 (st_main_v24 m c)
def st_main_v28 (m : (ℓ : Loc nD τ sig) → Buf (Elt F) ℓ) (c : Dev nD) : Buf (Elt F) ((c.tc : Thread nD τ).loc main_v28) :=
  concatenate S3x100000 0 [⟨S1x100000, (st_main_v25 m c)⟩, ⟨S1x100000, (st_main_v26 m c)⟩, ⟨S1x100000, (st_main_v27 m c)⟩] concatenates_S1x100000_S1x100000_S1x100000_S3x100000_d0
def st_main_cst_9 (m : (ℓ : Loc nD τ sig) → Buf (Elt F) ℓ) (c : Dev nD) : Buf (Elt F) ((c.tc : Thread nD τ).loc main_cst_9) :=
  constant S_ .f32 0x00000000#32
def st_main_v29 (m : (ℓ : Loc nD τ sig) → Buf (Elt F) ℓ) (c : Dev nD) : Buf (Elt F) ((c.tc : Thread nD τ).loc main_v29) :=
  broadcastInDim S100000x64 ![] bcast_S_S100000x64 (st_main_cst_9 m c)
def st_main_v30 (m : (ℓ : Loc nD τ sig) → Buf (Elt F) ℓ) (c : Dev nD) : Buf (Elt F) ((c.tc : Thread nD τ).loc main_v30) :=
  extractStridedSlice S1x1000000 ![0, 0] (m ((c.tc : Thread nD τ).loc main_arg7)) slices_S3x1000000_S1x1000000_0_0
def st_main_v31 (m : (ℓ : Loc nD τ sig) → Buf (Elt F) ℓ) (c : Dev nD) : Buf (Elt F) ((c.tc : Thread nD τ).loc main_v31) :=
  shapeCast _ (st_main_v30 m c) shapeCasts_S1x1000000_S1000000
def st_main_c (m : (ℓ : Loc nD τ sig) → Buf (Elt F) ℓ) (c : Dev nD) : Buf (Elt F) ((c.tc : Thread nD τ).loc main_c) :=
  constantI S_ 32 0#32
def st_main_v32 (m : (ℓ : Loc nD τ sig) → Buf (Elt F) ℓ) (c : Dev nD) : Buf (Elt F) ((c.tc : Thread nD τ).loc main_v32) :=
  broadcastInDim S1000000 ![] bcast_S_S1000000 (st_main_c m c)
def st_main_v33 (m : (ℓ : Loc nD τ sig) → Buf (Elt F) ℓ) (c : Dev nD) : Buf (Elt F) ((c.tc : Thread nD τ).loc main_v33) :=
  cmpi .slt (st_main_v31 m c) (st_main_v32 m c)
def st_main_c_10 (m : (ℓ : Loc nD τ sig) → Buf (Elt F) ℓ) (c : Dev nD) : Buf (Elt F) ((c.tc : Thread nD τ).loc main_c_10) :=
  constantI S_ 32 100000#32
def st_main_v34 (m : (ℓ : Loc nD τ sig) → Buf (Elt F) ℓ) (c : Dev nD) : Buf (Elt F) ((c.tc : Thread nD τ).loc main_v34) :=
  broadcastInDim S1000000 ![] bcast_S_S1000000 (st_main_c_10 m c)
def st_main_v35 (m : (ℓ : Loc nD τ sig) → Buf (Elt F) ℓ) (c : Dev nD) : Buf (Elt F) ((c.tc : Thread nD τ).loc main_v35) :=
  addi (st_main_v31 m c) (st_main_v34 m c)
def st_main_v36 (m : (ℓ : Loc nD τ sig) → Buf (Elt F) ℓ) (c : Dev nD) : Buf (Elt F) ((c.tc : Thread nD τ).loc main_v36) :=
  select (st_main_v33 m c) (st_main_v35 m c) (st_main_v31 m c)
def st_main_v37 (m : (ℓ : Loc nD τ sig) → Buf (Elt F) ℓ) (c : Dev nD) : Buf (Elt F) ((c.tc : Thread nD τ).loc main_v37) :=
  broadcastInDim S1000000x1 ![0] bcast_S1000000_S1000000x1_0 (st_main_v36 m c)
def st_main_v38 (m : (ℓ : Loc nD τ sig) → Buf (Elt F) ℓ) (c : Dev nD) : Buf (Elt F) ((c.tc : Thread nD τ).loc main_v38) :=
  Host.gather gather_S100000x64_S1000000x1_S1000000x64_1_0_n_n_0_1_164 (m ((c.tc : Thread nD τ).loc main_arg0)) (st_main_v37 m c)
def st_main_v39 (m : (ℓ : Loc nD τ sig) → Buf (Elt F) ℓ) (c : Dev nD) : Buf (Elt F) ((c.tc : Thread nD τ).loc main_v39) :=
  extractStridedSlice S1x1000000 ![0, 0] (m ((c.tc : Thread nD τ).loc main_arg8)) slices_S3x1000000_S1x1000000_0_0
def st_main_v40 (m : (ℓ : Loc nD τ sig) → Buf (Elt F) ℓ) (c : Dev nD) : Buf (Elt F) ((c.tc : Thread nD τ).loc main_v40) :=
  shapeCast _ (st_main_v39 m c) shapeCasts_S1x1000000_S1000000
def st_main_cst_11 (m : (ℓ : Loc nD τ sig) → Buf (Elt F) ℓ) (c : Dev nD) : Buf (Elt F) ((c.tc : Thread nD τ).loc main_cst_11) :=
  constant S_ .f32 0x00000000#32
def st_main_v41 (m : (ℓ : Loc nD τ sig) → Buf (Elt F) ℓ) (c : Dev nD) : Buf (Elt F) ((c.tc : Thread nD τ).loc main_v41) :=
  broadcastInDim S100000x64 ![] bcast_S_S100000x64 (st_main_cst_11 m c)
def st_main_v42 (m : (ℓ : Loc nD τ sig) → Buf (Elt F) ℓ) (c : Dev nD) : Buf (Elt F) ((c.tc : Thread nD τ).loc main_v42) :=
  broadcastInDim S1000000x1 ![0] bcast_S1000000_S1000000x1_0 (st_main_v40 m c)
def st_main_v43 (m : (ℓ : Loc nD τ sig) → Buf (Elt F) ℓ) (c : Dev nD) : Buf (Elt F) ((c.tc : Thread nD τ).loc main_v43) :=
  Host.scatterAdd scatter_S100000x64_S1000000x1_S1000000x64_1_0_0_1 (st_main_v41 m c) (st_main_v42 m c) (st_main_v38 m c)
def st_main_v44 (m : (ℓ : Loc nD τ sig) → Buf (Elt F) ℓ) (c : Dev nD) : Buf (Elt F) ((c.tc : Thread nD τ).loc main_v44) :=
  extractStridedSlice S1x100000 ![0, 0] (st_main_v28 m c) slices_S3x100000_S1x100000_0_0
def st_main_v45 (m : (ℓ : Loc nD τ sig) → Buf (Elt F) ℓ) (c : Dev nD) : Buf (Elt F) ((c.tc : Thread nD τ).loc main_v45) :=
  shapeCast _ (st_main_v44 m c) shapeCasts_S1x100000_S100000
def st_main_v46 (m : (ℓ : Loc nD τ sig) → Buf (Elt F) ℓ) (c : Dev nD) : Buf (Elt F) ((c.tc : Thread nD τ).loc main_v46) :=
  broadcastInDim S100000x1 ![0] bcast_S100000_S100000x1_0 (st_main_v45 m c)
def st_main_v47 (m : (ℓ : Loc nD τ sig) → Buf (Elt F) ℓ) (c : Dev nD) : Buf (Elt F) ((c.tc : Thread nD τ).loc main_v47) :=
  broadcastInDim S100000x64 ![0, 1] bcast_S100000x1_S100000x64_0_1 (st_main_v46 m c)
def st_main_v48 (m : (ℓ : Loc nD τ sig) → Buf (Elt F) ℓ) (c : Dev nD) : Buf (Elt F) ((c.tc : Thread nD τ).loc main_v48) :=
  mulf (st_main_v43 m c) (st_main_v47 m c)
def st_main_v49 (m : (ℓ : Loc nD τ sig) → Buf (Elt F) ℓ) (c : Dev nD) : Buf (Elt F) ((c.tc : Thread nD τ).loc main_v49) :=
  extractStridedSlice S1x64x64 ![0, 0, 0] (m ((c.tc : Thread nD τ).loc main_arg1)) slices_S3x64x64_S1x64x64_0_0_0
def st_main_v50 (m : (ℓ : Loc nD τ sig) → Buf (Elt F) ℓ) (c : Dev nD) : Buf (Elt F) ((c.tc : Thread nD τ).loc main_v50) :=
  shapeCast _ (st_main_v49 m c) shapeCasts_S1x64x64_S64x64
def st_main_v51 (m : (ℓ : Loc nD τ sig) → Buf (Elt F) ℓ) (c : Dev nD) : Buf (Elt F) ((c.tc : Thread nD τ).loc main_v51) :=
  Host.dotGeneral dot_S100000x64_S64x64_S100000x64_1_0_0_1_n_n none (st_main_v48 m c) (st_main_v50 m c)
def st_main_v52 (m : (ℓ : Loc nD τ sig) → Buf (Elt F) ℓ) (c : Dev nD) : Buf (Elt F) ((c.tc : Thread nD τ).loc main_v52) :=
  addf (st_main_v29 m c) (st_main_v51 m c)
def st_main_v53 (m : (ℓ : Loc nD τ sig) → Buf (Elt F) ℓ) (c : Dev nD) : Buf (Elt F) ((c.tc : Thread nD τ).loc main_v53) :=
  extractStridedSlice S1x64 ![0, 0] (m ((c.tc : Thread nD τ).loc main_arg2)) slices_S3x64_S1x64_0_0
def st_main_v54 (m : (ℓ : Loc nD τ sig) → Buf (Elt F) ℓ) (c : Dev nD) : Buf (Elt F) ((c.tc : Thread nD τ).loc main_v54) :=
  shapeCast _ (st_main_v53 m c) shapeCasts_S1x64_S64
def st_main_v55 (m : (ℓ : Loc nD τ sig) → Buf (Elt F) ℓ) (c : Dev nD) : Buf (Elt F) ((c.tc : Thread nD τ).loc main_v55) :=
  broadcastInDim S1x64 ![1] bcast_S64_S1x64_1 (st_main_v54 m c)
def st_main_v56 (m : (ℓ : Loc nD τ sig) → Buf (Elt F) ℓ) (c : Dev nD) : Buf (Elt F) ((c.tc : Thread nD τ).loc main_v56) :=
  broadcastInDim S100000x64 ![0, 1] bcast_S1x64_S100000x64_0_1 (st_main_v55 m c)
def st_main_v57 (m : (ℓ : Loc nD τ sig) → Buf (Elt F) ℓ) (c : Dev nD) : Buf (Elt F) ((c.tc : Thread nD τ).loc main_v57) :=
  addf (st_main_v52 m c) (st_main_v56 m c)
def st_main_v58 (m : (ℓ : Loc nD τ sig) → Buf (Elt F) ℓ) (c : Dev nD) : Buf (Elt F) ((c.tc : Thread nD τ).loc main_v58) :=
  extractStridedSlice S1x1000000 ![1, 0] (m ((c.tc : Thread nD τ).loc main_arg7)) slices_S3x1000000_S1x1000000_1_0
def st_main_v59 (m : (ℓ : Loc nD τ sig) → Buf (Elt F) ℓ) (c : Dev nD) : Buf (Elt F) ((c.tc : Thread nD τ).loc main_v59) :=
  shapeCast _ (st_main_v58 m c) shapeCasts_S1x1000000_S1000000
def st_main_c_12 (m : (ℓ : Loc nD τ sig) → Buf (Elt F) ℓ) (c : Dev nD) : Buf (Elt F) ((c.tc : Thread nD τ).loc main_c_12) :=
  constantI S_ 32 0#32
def st_main_v60 (m : (ℓ : Loc nD τ sig) → Buf (Elt F) ℓ) (c : Dev nD) : Buf (Elt F) ((c.tc : Thread nD τ).loc main_v60) :=
  broadcastInDim S1000000 ![] bcast_S_S1000000 (st_main_c_12 m c)
def st_main_v61 (m : (ℓ : Loc nD τ sig) → Buf (Elt F) ℓ) (c : Dev nD) : Buf (Elt F) ((c.tc : Thread nD τ).loc main_v61) :=
  cmpi .slt (st_main_v59 m c) (st_main_v60 m c)
def st_main_c_13 (m : (ℓ : Loc nD τ sig) → Buf (Elt F) ℓ) (c : Dev nD) : Buf (Elt F) ((c.tc : Thread nD τ).loc main_c_13) :=
  constantI S_ 32 100000#32
def st_main_v62 (m : (ℓ : Loc nD τ sig) → Buf (Elt F) ℓ) (c : Dev nD) : Buf (Elt F) ((c.tc : Thread nD τ).loc main_v62) :=
  broadcastInDim S1000000 ![] bcast_S_S1000000 (st_main_c_13 m c)
def st_main_v63 (m : (ℓ : Loc nD τ sig) → Buf (Elt F) ℓ) (c : Dev nD) : Buf (Elt F) ((c.tc : Thread nD τ).loc main_v63) :=
  addi (st_main_v59 m c) (st_main_v62 m c)
def st_main_v64 (m : (ℓ : Loc nD τ sig) → Buf (Elt F) ℓ) (c : Dev nD) : Buf (Elt F) ((c.tc : Thread nD τ).loc main_v64) :=
  select (st_main_v61 m c) (st_main_v63 m c) (st_main_v59 m c)
def st_main_v65 (m : (ℓ : Loc nD τ sig) → Buf (Elt F) ℓ) (c : Dev nD) : Buf (Elt F) ((c.tc : Thread nD τ).loc main_v65) :=
  broadcastInDim S1000000x1 ![0] bcast_S1000000_S1000000x1_0 (st_main_v64 m c)
def st_main_v66 (m : (ℓ : Loc nD τ sig) → Buf (Elt F) ℓ) (c : Dev nD) : Buf (Elt F) ((c.tc : Thread nD τ).loc main_v66) :=
  Host.gather gather_S100000x64_S1000000x1_S1000000x64_1_0_n_n_0_1_164 (m ((c.tc : Thread nD τ).loc main_arg0)) (st_main_v65 m c)
def st_main_v67 (m : (ℓ : Loc nD τ sig) → Buf (Elt F) ℓ) (c : Dev nD) : Buf (Elt F) ((c.tc : Thread nD τ).loc main_v67) :=
  extractStridedSlice S1x1000000 ![1, 0] (m ((c.tc : Thread nD τ).loc main_arg8)) slices_S3x1000000_S1x1000000_1_0
def st_main_v68 (m : (ℓ : Loc nD τ sig) → Buf (Elt F) ℓ) (c : Dev nD) : Buf (Elt F) ((c.tc : Thread nD τ).loc main_v68) :=
  shapeCast _ (st_main_v67 m c) shapeCasts_S1x1000000_S1000000
def st_main_cst_14 (m : (ℓ : Loc nD τ sig) → Buf (Elt F) ℓ) (c : Dev nD) : Buf (Elt F) ((c.tc : Thread nD τ).loc main_cst_14) :=
  constant S_ .f32 0x00000000#32
def st_main_v69 (m : (ℓ : Loc nD τ sig) → Buf (Elt F) ℓ) (c : Dev nD) : Buf (Elt F) ((c.tc : Thread nD τ).loc main_v69) :=
  broadcastInDim S100000x64 ![] bcast_S_S100000x64 (st_main_cst_14 m c)
def st_main_v70 (m : (ℓ : Loc nD τ sig) → Buf (Elt F) ℓ) (c : Dev nD) : Buf (Elt F) ((c.tc : Thread nD τ).loc main_v70) :=
  broadcastInDim S1000000x1 ![0] bcast_S1000000_S1000000x1_0 (st_main_v68 m c)
def st_main_v71 (m : (ℓ : Loc nD τ sig) → Buf (Elt F) ℓ) (c : Dev nD) : Buf (Elt F) ((c.tc : Thread nD τ).loc main_v71) :=
  Host.scatterAdd scatter_S100000x64_S1000000x1_S1000000x64_1_0_0_1 (st_main_v69 m c) (st_main_v70 m c) (st_main_v66 m c)
def st_main_v72 (m : (ℓ : Loc nD τ sig) → Buf (Elt F) ℓ) (c : Dev nD) : Buf (Elt F) ((c.tc : Thread nD τ).loc main_v72) :=
  extractStridedSlice S1x100000 ![1, 0] (st_main_v28 m c) slices_S3x100000_S1x100000_1_0
def st_main_v73 (m : (ℓ : Loc nD τ sig) → Buf (Elt F) ℓ) (c : Dev nD) : Buf (Elt F) ((c.tc : Thread nD τ).loc main_v73) :=
  shapeCast _ (st_main_v72 m c) shapeCasts_S1x100000_S100000
def st_main_v74 (m : (ℓ : Loc nD τ sig) → Buf (Elt F) ℓ) (c : Dev nD) : Buf (Elt F) ((c.tc : Thread nD τ).loc main_v74) :=
  broadcastInDim S100000x1 ![0] bcast_S100000_S100000x1_0 (st_main_v73 m c)
def st_main_v75 (m : (ℓ : Loc nD τ sig) → Buf (Elt F) ℓ) (c : Dev nD) : Buf (Elt F) ((c.tc : Thread nD τ).loc main_v75) :=
  broadcastInDim S100000x64 ![0, 1] bcast_S100000x1_S100000x64_0_1 (st_main_v74 m c)
def st_main_v76 (m : (ℓ : Loc nD τ sig) → Buf (Elt F) ℓ) (c : Dev nD) : Buf (Elt F) ((c.tc : Thread nD τ).loc main_v76) :=
  mulf (st_main_v71 m c) (st_main_v75 m c)
def st_main_v77 (m : (ℓ : Loc nD τ sig) → Buf (Elt F) ℓ) (c : Dev nD) : Buf (Elt F) ((c.tc : Thread nD τ).loc main_v77) :=
  extractStridedSlice S1x64x64 ![1, 0, 0] (m ((c.tc : Thread nD τ).loc main_arg1)) slices_S3x64x64_S1x64x64_1_0_0
def st_main_v78 (m : (ℓ : Loc nD τ sig) → Buf (Elt F) ℓ) (c : Dev nD) : Buf (Elt F) ((c.tc : Thread nD τ).loc main_v78) :=
  shapeCast _ (st_main_v77 m c) shapeCasts_S1x64x64_S64x64
def st_main_v79 (m : (ℓ : Loc nD τ sig) → Buf (Elt F) ℓ) (c : Dev nD) : Buf (Elt F) ((c.tc : Thread nD τ).loc main_v79) :=
  Host.dotGeneral dot_S100000x64_S64x64_S100000x64_1_0_0_1_n_n none (st_main_v76 m c) (st_main_v78 m c)
def st_main_v80 (m : (ℓ : Loc nD τ sig) → Buf (Elt F) ℓ) (c : Dev nD) : Buf (Elt F) ((c.tc : Thread nD τ).loc main_v80) :=
  addf (st_main_v57 m c) (st_main_v79 m c)
def st_main_v81 (m : (ℓ : Loc nD τ sig) → Buf (Elt F) ℓ) (c : Dev nD) : Buf (Elt F) ((c.tc : Thread nD τ).loc main_v81) :=
  extractStridedSlice S1x64 ![1, 0] (m ((c.tc : Thread nD τ).loc main_arg2)) slices_S3x64_S1x64_1_0
def st_main_v82 (m : (ℓ : Loc nD τ sig) → Buf (Elt F) ℓ) (c : Dev nD) : Buf (Elt F) ((c.tc : Thread nD τ).loc main_v82) :=
  shapeCast _ (st_main_v81 m c) shapeCasts_S1x64_S64
def st_main_v83 (m : (ℓ : Loc nD τ sig) → Buf (Elt F) ℓ) (c : Dev nD) : Buf (Elt F) ((c.tc : Thread nD τ).loc main_v83) :=
  broadcastInDim S1x64 ![1] bcast_S64_S1x64_1 (st_main_v82 m c)
def st_main_v84 (m : (ℓ : Loc nD τ sig) → Buf (Elt F) ℓ) (c : Dev nD) : Buf (Elt F) ((c.tc : Thread nD τ).loc main_v84) :=
  broadcastInDim S100000x64 ![0, 1] bcast_S1x64_S100000x64_0_1 (st_main_v83 m c)
def st_main_v85 (m : (ℓ : Loc nD τ sig) → Buf (Elt F) ℓ) (c : Dev nD) : Buf (Elt F) ((c.tc : Thread nD τ).loc main_v85) :=
  addf (st_main_v80 m c) (st_main_v84 m c)
def st_main_v86 (m : (ℓ : Loc nD τ sig) → Buf (Elt F) ℓ) (c : Dev nD) : Buf (Elt F) ((c.tc : Thread nD τ).loc main_v86) :=
  extractStridedSlice S1x1000000 ![2, 0] (m ((c.tc : Thread nD τ).loc main_arg7)) slices_S3x1000000_S1x1000000_2_0
def st_main_v87 (m : (ℓ : Loc nD τ sig) → Buf (Elt F) ℓ) (c : Dev nD) : Buf (Elt F) ((c.tc : Thread nD τ).loc main_v87) :=
  shapeCast _ (st_main_v86 m c) shapeCasts_S1x1000000_S1000000
def st_main_c_15 (m : (ℓ : Loc nD τ sig) → Buf (Elt F) ℓ) (c : Dev nD) : Buf (Elt F) ((c.tc : Thread nD τ).loc main_c_15) :=
  constantI S_ 32 0#32
def st_main_v88 (m : (ℓ : Loc nD τ sig) → Buf (Elt F) ℓ) (c : Dev nD) : Buf (Elt F) ((c.tc : Thread nD τ).loc main_v88) :=
  broadcastInDim S1000000 ![] bcast_S_S1000000 (st_main_c_15 m c)
def st_main_v89 (m : (ℓ : Loc nD τ sig) → Buf (Elt F) ℓ) (c : Dev nD) : Buf (Elt F) ((c.tc : Thread nD τ).loc main_v89) :=
  cmpi .slt (st_main_v87 m c) (st_main_v88 m c)
def st_main_c_16 (m : (ℓ : Loc nD τ sig) → Buf (Elt F) ℓ) (c : Dev nD) : Buf (Elt F) ((c.tc : Thread nD τ).loc main_c_16) :=
  constantI S_ 32 100000#32
def st_main_v90 (m : (ℓ : Loc nD τ sig) → Buf (Elt F) ℓ) (c : Dev nD) : Buf (Elt F) ((c.tc : Thread nD τ).loc main_v90) :=
  broadcastInDim S1000000 ![] bcast_S_S1000000 (st_main_c_16 m c)
def st_main_v91 (m : (ℓ : Loc nD τ sig) → Buf (Elt F) ℓ) (c : Dev nD) : Buf (Elt F) ((c.tc : Thread nD τ).loc main_v91) :=
  addi (st_main_v87 m c) (st_main_v90 m c)
def st_main_v92 (m : (ℓ : Loc nD τ sig) → Buf (Elt F) ℓ) (c : Dev nD) : Buf (Elt F) ((c.tc : Thread nD τ).loc main_v92) :=
  select (st_main_v89 m c) (st_main_v91 m c) (st_main_v87 m c)
def st_main_v93 (m : (ℓ : Loc nD τ sig) → Buf (Elt F) ℓ) (c : Dev nD) : Buf (Elt F) ((c.tc : Thread nD τ).loc main_v93) :=
  broadcastInDim S1000000x1 ![0] bcast_S1000000_S1000000x1_0 (st_main_v92 m c)
def st_main_v94 (m : (ℓ : Loc nD τ sig) → Buf (Elt F) ℓ) (c : Dev nD) : Buf (Elt F) ((c.tc : Thread nD τ).loc main_v94) :=
  Host.gather gather_S100000x64_S1000000x1_S1000000x64_1_0_n_n_0_1_164 (m ((c.tc : Thread nD τ).loc main_arg0)) (st_main_v93 m c)
def st_main_v95 (m : (ℓ : Loc nD τ sig) → Buf (Elt F) ℓ) (c : Dev nD) : Buf (Elt F) ((c.tc : Thread nD τ).loc main_v95) :=
  extractStridedSlice S1x1000000 ![2, 0] (m ((c.tc : Thread nD τ).loc main_arg8)) slices_S3x1000000_S1x1000000_2_0
def st_main_v96 (m : (ℓ : Loc nD τ sig) → Buf (Elt F) ℓ) (c : Dev nD) : Buf (Elt F) ((c.tc : Thread nD τ).loc main_v96) :=
  shapeCast _ (st_main_v95 m c) shapeCasts_S1x1000000_S1000000
def st_main_cst_17 (m : (ℓ : Loc nD τ sig) → Buf (Elt F) ℓ) (c : Dev nD) : Buf (Elt F) ((c.tc : Thread nD τ).loc main_cst_17) :=
  constant S_ .f32 0x00000000#32
def st_main_v97 (m : (ℓ : Loc nD τ sig) → Buf (Elt F) ℓ) (c : Dev nD) : Buf (Elt F) ((c.tc : Thread nD τ).loc main_v97) :=
  broadcastInDim S100000x64 ![] bcast_S_S100000x64 (st_main_cst_17 m c)
def st_main_v98 (m : (ℓ : Loc nD τ sig) → Buf (Elt F) ℓ) (c : Dev nD) : Buf (Elt F) ((c.tc : Thread nD τ).loc main_v98) :=
  broadcastInDim S1000000x1 ![0] bcast_S1000000_S1000000x1_0 (st_main_v96 m c)
def st_main_v99 (m : (ℓ : Loc nD τ sig) → Buf (Elt F) ℓ) (c : Dev nD) : Buf (Elt F) ((c.tc : Thread nD τ).loc main_v99) :=
  Host.scatterAdd scatter_S100000x64_S1000000x1_S1000000x64_1_0_0_1 (st_main_v97 m c) (st_main_v98 m c) (st_main_v94 m c)
def st_main_v100 (m : (ℓ : Loc nD τ sig) → Buf (Elt F) ℓ) (c : Dev nD) : Buf (Elt F) ((c.tc : Thread nD τ).loc main_v100) :=
  extractStridedSlice S1x100000 ![2, 0] (st_main_v28 m c) slices_S3x100000_S1x100000_2_0
def st_main_v101 (m : (ℓ : Loc nD τ sig) → Buf (Elt F) ℓ) (c : Dev nD) : Buf (Elt F) ((c.tc : Thread nD τ).loc main_v101) :=
  shapeCast _ (st_main_v100 m c) shapeCasts_S1x100000_S100000
def st_main_v102 (m : (ℓ : Loc nD τ sig) → Buf (Elt F) ℓ) (c : Dev nD) : Buf (Elt F) ((c.tc : Thread nD τ).loc main_v102) :=
  broadcastInDim S100000x1 ![0] bcast_S100000_S100000x1_0 (st_main_v101 m c)
def st_main_v103 (m : (ℓ : Loc nD τ sig) → Buf (Elt F) ℓ) (c : Dev nD) : Buf (Elt F) ((c.tc : Thread nD τ).loc main_v103) :=
  broadcastInDim S100000x64 ![0, 1] bcast_S100000x1_S100000x64_0_1 (st_main_v102 m c)
def st_main_v104 (m : (ℓ : Loc nD τ sig) → Buf (Elt F) ℓ) (c : Dev nD) : Buf (Elt F) ((c.tc : Thread nD τ).loc main_v104) :=
  mulf (st_main_v99 m c) (st_main_v103 m c)
def st_main_v105 (m : (ℓ : Loc nD τ sig) → Buf (Elt F) ℓ) (c : Dev nD) : Buf (Elt F) ((c.tc : Thread nD τ).loc main_v105) :=
  extractStridedSlice S1x64x64 ![2, 0, 0] (m ((c.tc : Thread nD τ).loc main_arg1)) slices_S3x64x64_S1x64x64_2_0_0
def st_main_v106 (m : (ℓ : Loc nD τ sig) → Buf (Elt F) ℓ) (c : Dev nD) : Buf (Elt F) ((c.tc : Thread nD τ).loc main_v106) :=
  shapeCast _ (st_main_v105 m c) shapeCasts_S1x64x64_S64x64
def st_main_v107 (m : (ℓ : Loc nD τ sig) → Buf (Elt F) ℓ) (c : Dev nD) : Buf (Elt F) ((c.tc : Thread nD τ).loc main_v107) :=
  Host.dotGeneral dot_S100000x64_S64x64_S100000x64_1_0_0_1_n_n none (st_main_v104 m c) (st_main_v106 m c)
def st_main_v108 (m : (ℓ : Loc nD τ sig) → Buf (Elt F) ℓ) (c : Dev nD) : Buf (Elt F) ((c.tc : Thread nD τ).loc main_v108) :=
  addf (st_main_v85 m c) (st_main_v107 m c)
def st_main_v109 (m : (ℓ : Loc nD τ sig) → Buf (Elt F) ℓ) (c : Dev nD) : Buf (Elt F) ((c.tc : Thread nD τ).loc main_v109) :=
  extractStridedSlice S1x64 ![2, 0] (m ((c.tc : Thread nD τ).loc main_arg2)) slices_S3x64_S1x64_2_0
def st_main_v110 (m : (ℓ : Loc nD τ sig) → Buf (Elt F) ℓ) (c : Dev nD) : Buf (Elt F) ((c.tc : Thread nD τ).loc main_v110) :=
  shapeCast _ (st_main_v109 m c) shapeCasts_S1x64_S64
def st_main_v111 (m : (ℓ : Loc nD τ sig) → Buf (Elt F) ℓ) (c : Dev nD) : Buf (Elt F) ((c.tc : Thread nD τ).loc main_v111) :=
  broadcastInDim S1x64 ![1] bcast_S64_S1x64_1 (st_main_v110 m c)
def st_main_v112 (m : (ℓ : Loc nD τ sig) → Buf (Elt F) ℓ) (c : Dev nD) : Buf (Elt F) ((c.tc : Thread nD τ).loc main_v112) :=
  broadcastInDim S100000x64 ![0, 1] bcast_S1x64_S100000x64_0_1 (st_main_v111 m c)
def st_main_v113 (m : (ℓ : Loc nD τ sig) → Buf (Elt F) ℓ) (c : Dev nD) : Buf (Elt F) ((c.tc : Thread nD τ).loc main_v113) :=
  addf (st_main_v108 m c) (st_main_v112 m c)
def st_main_call3_cst (m : (ℓ : Loc nD τ sig) → Buf (Elt F) ℓ) (c : Dev nD) : Buf (Elt F) ((c.tc : Thread nD τ).loc main_call3_cst) :=
  constant S_ .f32 0x00000000#32
def st_main_call3_v0 (m : (ℓ : Loc nD τ sig) → Buf (Elt F) ℓ) (c : Dev nD) : Buf (Elt F) ((c.tc : Thread nD τ).loc main_call3_v0) :=
  broadcastInDim S100000x64 ![] bcast_S_S100000x64 (st_main_call3_cst m c)
def st_main_v114 (m : (ℓ : Loc nD τ sig) → Buf (Elt F) ℓ) (c : Dev nD) : Buf (Elt F) ((c.tc : Thread nD τ).loc main_v114) :=
  maximumf (st_main_v113 m c) (st_main_call3_v0 m c)
def st_main_cst_18 (m : (ℓ : Loc nD τ sig) → Buf (Elt F) ℓ) (c : Dev nD) : Buf (Elt F) ((c.tc : Thread nD τ).loc main_cst_18) :=
  constant S_ .f32 0x00000000#32
def st_main_v115 (m : (ℓ : Loc nD τ sig) → Buf (Elt F) ℓ) (c : Dev nD) : Buf (Elt F) ((c.tc : Thread nD τ).loc main_v115) :=
  broadcastInDim S100000x64 ![] bcast_S_S100000x64 (st_main_cst_18 m c)
def st_main_v116 (m : (ℓ : Loc nD τ sig) → Buf (Elt F) ℓ) (c : Dev nD) : Buf (Elt F) ((c.tc : Thread nD τ).loc main_v116) :=
  extractStridedSlice S1x1000000 ![0, 0] (m ((c.tc : Thread nD τ).loc main_arg7)) slices_S3x1000000_S1x1000000_0_0
def st_main_v117 (m : (ℓ : Loc nD τ sig) → Buf (Elt F) ℓ) (c : Dev nD) : Buf (Elt F) ((c.tc : Thread nD τ).loc main_v117) :=
  shapeCast _ (st_main_v116 m c) shapeCasts_S1x1000000_S1000000
def st_main_c_19 (m : (ℓ : Loc nD τ sig) → Buf (Elt F) ℓ) (c : Dev nD) : Buf (Elt F) ((c.tc : Thread nD τ).loc main_c_19) :=
  constantI S_ 32 0#32
def st_main_v118 (m : (ℓ : Loc nD τ sig) → Buf (Elt F) ℓ) (c : Dev nD) : Buf (Elt F) ((c.tc : Thread nD τ).loc main_v118) :=
  broadcastInDim S1000000 ![] bcast_S_S1000000 (st_main_c_19 m c)
def st_main_v119 (m : (ℓ : Loc nD τ sig) → Buf (Elt F) ℓ) (c : Dev nD) : Buf (Elt F) ((c.tc : Thread nD τ).loc main_v119) :=
  cmpi .slt (st_main_v117 m c) (st_main_v118 m c)
def st_main_c_20 (m : (ℓ : Loc nD τ sig) → Buf (Elt F) ℓ) (c : Dev nD) : Buf (Elt F) ((c.tc : Thread nD τ).loc main_c_20) :=
  constantI S_ 32 100000#32
def st_main_v120 (m : (ℓ : Loc nD τ sig) → Buf (Elt F) ℓ) (c : Dev nD) : Buf (Elt F) ((c.tc : Thread nD τ).loc main_v120) :=
  broadcastInDim S1000000 ![] bcast_S_S1000000 (st_main_c_20 m c)
def st_main_v121 (m : (ℓ : Loc nD τ sig) → Buf (Elt F) ℓ) (c : Dev nD) : Buf (Elt F) ((c.tc : Thread nD τ).loc main_v121) :=
  addi (st_main_v117 m c) (st_main_v120 m c)
def st_main_v122 (m : (ℓ : Loc nD τ sig) → Buf (Elt F) ℓ) (c : Dev nD) : Buf (Elt F) ((c.tc : Thread nD τ).loc main_v122) :=
  select (st_main_v119 m c) (st_main_v121 m c) (st_main_v117 m c)
def st_main_v123 (m : (ℓ : Loc nD τ sig) → Buf (Elt F) ℓ) (c : Dev nD) : Buf (Elt F) ((c.tc : Thread nD τ).loc main_v123) :=
  broadcastInDim S1000000x1 ![0] bcast_S1000000_S1000000x1_0 (st_main_v122 m c)
def st_main_v124 (m : (ℓ : Loc nD τ sig) → Buf (Elt F) ℓ) (c : Dev nD) : Buf (Elt F) ((c.tc : Thread nD τ).loc main_v124) :=
  Host.gather gather_S100000x64_S1000000x1_S1000000x64_1_0_n_n_0_1_164 (st_main_v114 m c) (st_main_v123 m c)
def st_main_v125 (m : (ℓ : Loc nD τ sig) → Buf (Elt F) ℓ) (c : Dev nD) : Buf (Elt F) ((c.tc : Thread nD τ).loc main_v125) :=
  extractStridedSlice S1x1000000 ![0, 0] (m ((c.tc : Thread nD τ).loc main_arg8)) slices_S3x1000000_S1x1000000_0_0
def st_main_v126 (m : (ℓ : Loc nD τ sig) → Buf (Elt F) ℓ) (c : Dev nD) : Buf (Elt F) ((c.tc : Thread nD τ).loc main_v126) :=
  shapeCast _ (st_main_v125 m c) shapeCasts_S1x1000000_S1000000
def st_main_cst_21 (m : (ℓ : Loc nD τ sig) → Buf (Elt F) ℓ) (c : Dev nD) : Buf (Elt F) ((c.tc : Thread nD τ).loc main_cst_21) :=
  constant S_ .f32 0x00000000#32
def st_main_v127 (m : (ℓ : Loc nD τ sig) → Buf (Elt F) ℓ) (c : Dev nD) : Buf (Elt F) ((c.tc : Thread nD τ).loc main_v127) :=
  broadcastInDim S100000x64 ![] bcast_S_S100000x64 (st_main_cst_21 m c)
def st_main_v128 (m : (ℓ : Loc nD τ sig) → Buf (Elt F) ℓ) (c : Dev nD) : Buf (Elt F) ((c.tc : Thread nD τ).loc main_v128) :=
  broadcastInDim S1000000x1 ![0] bcast_S1000000_S1000000x1_0 (st_main_v126 m c)
def st_main_v129 (m : (ℓ : Loc nD τ sig) → Buf (Elt F) ℓ) (c : Dev nD) : Buf (Elt F) ((c.tc : Thread nD τ).loc main_v129) :=
  Host.scatterAdd scatter_S100000x64_S1000000x1_S1000000x64_1_0_0_1 (st_main_v127 m c) (st_main_v128 m c) (st_main_v124 m c)
def st_main_v130 (m : (ℓ : Loc nD τ sig) → Buf (Elt F) ℓ) (c : Dev nD) : Buf (Elt F) ((c.tc : Thread nD τ).loc main_v130) :=
  extractStridedSlice S1x100000 ![0, 0] (st_main_v28 m c) slices_S3x100000_S1x100000_0_0
def st_main_v131 (m : (ℓ : Loc nD τ sig) → Buf (Elt F) ℓ) (c : Dev nD) : Buf (Elt F) ((c.tc : Thread nD τ).loc main_v131) :=
  shapeCast _ (st_main_v130 m c) shapeCasts_S1x100000_S100000
def st_main_v132 (m : (ℓ : Loc nD τ sig) → Buf (Elt F) ℓ) (c : Dev nD) : Buf (Elt F) ((c.tc : Thread nD τ).loc main_v132) :=
  broadcastInDim S100000x1 ![0] bcast_S100000_S100000x1_0 (st_main_v131 m c)
def st_main_v133 (m : (ℓ : Loc nD τ sig) → Buf (Elt F) ℓ) (c : Dev nD) : Buf (Elt F) ((c.tc : Thread nD τ).loc main_v133) :=
  broadcastInDim S100000x64 ![0, 1] bcast_S100000x1_S100000x64_0_1 (st_main_v132 m c)
def st_main_v134 (m : (ℓ : Loc nD τ sig) → Buf (Elt F) ℓ) (c : Dev nD) : Buf (Elt F) ((c.tc : Thread nD τ).loc main_v134) :=
  mulf (st_main_v129 m c) (st_main_v133 m c)
def st_main_v135 (m : (ℓ : Loc nD τ sig) → Buf (Elt F) ℓ) (c : Dev nD) : Buf (Elt F) ((c.tc : Thread nD τ).loc main_v135) :=
  extractStridedSlice S1x64x64 ![0, 0, 0] (m ((c.tc : Thread nD τ).loc main_arg3)) slices_S3x64x64_S1x64x64_0_0_0
def st_main_v136 (m : (ℓ : Loc nD τ sig) → Buf (Elt F) ℓ) (c : Dev nD) : Buf (Elt F) ((c.tc : Thread nD τ).loc main_v136) :=
  shapeCast _ (st_main_v135 m c) shapeCasts_S1x64x64_S64x64
def st_main_v137 (m : (ℓ : Loc nD τ sig) → Buf (Elt F) ℓ) (c : Dev nD) : Buf (Elt F) ((c.tc : Thread nD τ).loc main_v137) :=
  Host.dotGeneral dot_S100000x64_S64x64_S100000x64_1_0_0_1_n_n none (st_main_v134 m c) (st_main_v136 m c)
def st_main_v138 (m : (ℓ : Loc nD τ sig) → Buf (Elt F) ℓ) (c : Dev nD) : Buf (Elt F) ((c.tc : Thread nD τ).loc main_v138) :=
  addf (st_main_v115 m c) (st_main_v137 m c)
def st_main_v139 (m : (ℓ : Loc nD τ sig) → Buf (Elt F) ℓ) (c : Dev nD) : Buf (Elt F) ((c.tc : Thread nD τ).loc main_v139) :=
  extractStridedSlice S1x64 ![0, 0] (m ((c.tc : Thread nD τ).loc main_arg4)) slices_S3x64_S1x64_0_0
def st_main_v140 (m : (ℓ : Loc nD τ sig) → Buf (Elt F) ℓ) (c : Dev nD) : Buf (Elt F) ((c.tc : Thread nD τ).loc main_v140) :=
  shapeCast _ (st_main_v139 m c) shapeCasts_S1x64_S64
def st_main_v141 (m : (ℓ : Loc nD τ sig) → Buf (Elt F) ℓ) (c : Dev nD) : Buf (Elt F) ((c.tc : Thread nD τ).loc main_v141) :=
  broadcastInDim S1x64 ![1] bcast_S64_S1x64_1 (st_main_v140 m c)
def st_main_v142 (m : (ℓ : Loc nD τ sig) → Buf (Elt F) ℓ) (c : Dev nD) : Buf (Elt F) ((c.tc : Thread nD τ).loc main_v142) :=
  broadcastInDim S100000x64 ![0, 1] bcast_S1x64_S100000x64_0_1 (st_main_v141 m c)
def st_main_v143 (m : (ℓ : Loc nD τ sig) → Buf (Elt F) ℓ) (c : Dev nD) : Buf (Elt F) ((c.tc : Thread nD τ).loc main_v143) :=
  addf (st_main_v138 m c) (st_main_v142 m c)
def st_main_v144 (m : (ℓ : Loc nD τ sig) → Buf (Elt F) ℓ) (c : Dev nD) : Buf (Elt F) ((c.tc : Thread nD τ).loc main_v144) :=
  extractStridedSlice S1x1000000 ![1, 0] (m ((c.tc : Thread nD τ).loc main_arg7)) slices_S3x1000000_S1x1000000_1_0
def st_main_v145 (m : (ℓ : Loc nD τ sig) → Buf (Elt F) ℓ) (c : Dev nD) : Buf (Elt F) ((c.tc : Thread nD τ).loc main_v145) :=
  shapeCast _ (st_main_v144 m c) shapeCasts_S1x1000000_S1000000
def st_main_c_22 (m : (ℓ : Loc nD τ sig) → Buf (Elt F) ℓ) (c : Dev nD) : Buf (Elt F) ((c.tc : Thread nD τ).loc main_c_22) :=
  constantI S_ 32 0#32
def st_main_v146 (m : (ℓ : Loc nD τ sig) → Buf (Elt F) ℓ) (c : Dev nD) : Buf (Elt F) ((c.tc : Thread nD τ).loc main_v146) :=
  broadcastInDim S1000000 ![] bcast_S_S1000000 (st_main_c_22 m c)
def st_main_v147 (m : (ℓ : Loc nD τ sig) → Buf (Elt F) ℓ) (c : Dev nD) : Buf (Elt F) ((c.tc : Thread nD τ).loc main_v147) :=
  cmpi .slt (st_main_v145 m c) (st_main_v146 m c)
def st_main_c_23 (m : (ℓ : Loc nD τ sig) → Buf (Elt F) ℓ) (c : Dev nD) : Buf (Elt F) ((c.tc : Thread nD τ).loc main_c_23) :=
  constantI S_ 32 100000#32
def st_main_v148 (m : (ℓ : Loc nD τ sig) → Buf (Elt F) ℓ) (c : Dev nD) : Buf (Elt F) ((c.tc : Thread nD τ).loc main_v148) :=
  broadcastInDim S1000000 ![] bcast_S_S1000000 (st_main_c_23 m c)
def st_main_v149 (m : (ℓ : Loc nD τ sig) → Buf (Elt F) ℓ) (c : Dev nD) : Buf (Elt F) ((c.tc : Thread nD τ).loc main_v149) :=
  addi (st_main_v145 m c) (st_main_v148 m c)
def st_main_v150 (m : (ℓ : Loc nD τ sig) → Buf (Elt F) ℓ) (c : Dev nD) : Buf (Elt F) ((c.tc : Thread nD τ).loc main_v150) :=
  select (st_main_v147 m c) (st_main_v149 m c) (st_main_v145 m c)
def st_main_v151 (m : (ℓ : Loc nD τ sig) → Buf (Elt F) ℓ) (c : Dev nD) : Buf (Elt F) ((c.tc : Thread nD τ).loc main_v151) :=
  broadcastInDim S1000000x1 ![0] bcast_S1000000_S1000000x1_0 (st_main_v150 m c)
def st_main_v152 (m : (ℓ : Loc nD τ sig) → Buf (Elt F) ℓ) (c : Dev nD) : Buf (Elt F) ((c.tc : Thread nD τ).loc main_v152) :=
  Host.gather gather_S100000x64_S1000000x1_S1000000x64_1_0_n_n_0_1_164 (st_main_v114 m c) (st_main_v151 m c)
def st_main_v153 (m : (ℓ : Loc nD τ sig) → Buf (Elt F) ℓ) (c : Dev nD) : Buf (Elt F) ((c.tc : Thread nD τ).loc main_v153) :=
  extractStridedSlice S1x1000000 ![1, 0] (m ((c.tc : Thread nD τ).loc main_arg8)) slices_S3x1000000_S1x1000000_1_0
def st_main_v154 (m : (ℓ : Loc nD τ sig) → Buf (Elt F) ℓ) (c : Dev nD) : Buf (Elt F) ((c.tc : Thread nD τ).loc main_v154) :=
  shapeCast _ (st_main_v153 m c) shapeCasts_S1x1000000_S1000000
def st_main_cst_24 (m : (ℓ : Loc nD τ sig) → Buf (Elt F) ℓ) (c : Dev nD) : Buf (Elt F) ((c.tc : Thread nD τ).loc main_cst_24) :=
  constant S_ .f32 0x00000000#32
def st_main_v155 (m : (ℓ : Loc nD τ sig) → Buf (Elt F) ℓ) (c : Dev nD) : Buf (Elt F) ((c.tc : Thread nD τ).loc main_v155) :=
  broadcastInDim S100000x64 ![] bcast_S_S100000x64 (st_main_cst_24 m c)
def st_main_v156 (m : (ℓ : Loc nD τ sig) → Buf (Elt F) ℓ) (c : Dev nD) : Buf (Elt F) ((c.tc : Thread nD τ).loc main_v156) :=
  broadcastInDim S1000000x1 ![0] bcast_S1000000_S1000000x1_0 (st_main_v154 m c)
def st_main_v157 (m : (ℓ : Loc nD τ sig) → Buf (Elt F) ℓ) (c : Dev nD) : Buf (Elt F) ((c.tc : Thread nD τ).loc main_v157) :=
  Host.scatterAdd scatter_S100000x64_S1000000x1_S1000000x64_1_0_0_1 (st_main_v155 m c) (st_main_v156 m c) (st_main_v152 m c)
def st_main_v158 (m : (ℓ : Loc nD τ sig) → Buf (Elt F) ℓ) (c : Dev nD) : Buf (Elt F) ((c.tc : Thread nD τ).loc main_v158) :=
  extractStridedSlice S1x100000 ![1, 0] (st_main_v28 m c) slices_S3x100000_S1x100000_1_0
def st_main_v159 (m : (ℓ : Loc nD τ sig) → Buf (Elt F) ℓ) (c : Dev nD) : Buf (Elt F) ((c.tc : Thread nD τ).loc main_v159) :=
  shapeCast _ (st_main_v158 m c) shapeCasts_S1x100000_S100000
def st_main_v160 (m : (ℓ : Loc nD τ sig) → Buf (Elt F) ℓ) (c : Dev nD) : Buf (Elt F) ((c.tc : Thread nD τ).loc main_v160) :=
  broadcastInDim S100000x1 ![0] bcast_S100000_S100000x1_0 (st_main_v159 m c)
def st_main_v161 (m : (ℓ : Loc nD τ sig) → Buf (Elt F) ℓ) (c : Dev nD) : Buf (Elt F) ((c.tc : Thread nD τ).loc main_v161) :=
  broadcastInDim S100000x64 ![0, 1] bcast_S100000x1_S100000x64_0_1 (st_main_v160 m c)
def st_main_v162 (m : (ℓ : Loc nD τ sig) → Buf (Elt F) ℓ) (c : Dev nD) : Buf (Elt F) ((c.tc : Thread nD τ).loc main_v162) :=
  mulf (st_main_v157 m c) (st_main_v161 m c)
def st_main_v163 (m : (ℓ : Loc nD τ sig) → Buf (Elt F) ℓ) (c : Dev nD) : Buf (Elt F) ((c.tc : Thread nD τ).loc main_v163) :=
  extractStridedSlice S1x64x64 ![1, 0, 0] (m ((c.tc : Thread nD τ).loc main_arg3)) slices_S3x64x64_S1x64x64_1_0_0
def st_main_v164 (m : (ℓ : Loc nD τ sig) → Buf (Elt F) ℓ) (c : Dev nD) : Buf (Elt F) ((c.tc : Thread nD τ).loc main_v164) :=
  shapeCast _ (st_main_v163 m c) shapeCasts_S1x64x64_S64x64
def st_main_v165 (m : (ℓ : Loc nD τ sig) → Buf (Elt F) ℓ) (c : Dev nD) : Buf (Elt F) ((c.tc : Thread nD τ).loc main_v165) :=
  Host.dotGeneral dot_S100000x64_S64x64_S100000x64_1_0_0_1_n_n none (st_main_v162 m c) (st_main_v164 m c)
def st_main_v166 (m : (ℓ : Loc nD τ sig) → Buf (Elt F) ℓ) (c : Dev nD) : Buf (Elt F) ((c.tc : Thread nD τ).loc main_v166) :=
  addf (st_main_v143 m c) (st_main_v165 m c)
def st_main_v167 (m : (ℓ : Loc nD τ sig) → Buf (Elt F) ℓ) (c : Dev nD) : Buf (Elt F) ((c.tc : Thread nD τ).loc main_v167) :=
  extractStridedSlice S1x64 ![1, 0] (m ((c.tc : Thread nD τ).loc main_arg4)) slices_S3x64_S1x64_1_0
def st_main_v168 (m : (ℓ : Loc nD τ sig) → Buf (Elt F) ℓ) (c : Dev nD) : Buf (Elt F) ((c.tc : Thread nD τ).loc main_v168) :=
  shapeCast _ (st_main_v167 m c) shapeCasts_S1x64_S64
def st_main_v169 (m : (ℓ : Loc nD τ sig) → Buf (Elt F) ℓ) (c : Dev nD) : Buf (Elt F) ((c.tc : Thread nD τ).loc main_v169) :=
  broadcastInDim S1x64 ![1] bcast_S64_S1x64_1 (st_main_v168 m c)
def st_main_v170 (m : (ℓ : Loc nD τ sig) → Buf (Elt F) ℓ) (c : Dev nD) : Buf (Elt F) ((c.tc : Thread nD τ).loc main_v170) :=
  broadcastInDim S100000x64 ![0, 1] bcast_S1x64_S100000x64_0_1 (st_main_v169 m c)
def st_main_v171 (m : (ℓ : Loc nD τ sig) → Buf (Elt F) ℓ) (c : Dev nD) : Buf (Elt F) ((c.tc : Thread nD τ).loc main_v171) :=
  addf (st_main_v166 m c) (st_main_v170 m c)
def st_main_v172 (m : (ℓ : Loc nD τ sig) → Buf (Elt F) ℓ) (c : Dev nD) : Buf (Elt F) ((c.tc : Thread nD τ).loc main_v172) :=
  extractStridedSlice S1x1000000 ![2, 0] (m ((c.tc : Thread nD τ).loc main_arg7)) slices_S3x1000000_S1x1000000_2_0
def st_main_v173 (m : (ℓ : Loc nD τ sig) → Buf (Elt F) ℓ) (c : Dev nD) : Buf (Elt F) ((c.tc : Thread nD τ).loc main_v173) :=
  shapeCast _ (st_main_v172 m c) shapeCasts_S1x1000000_S1000000
def st_main_c_25 (m : (ℓ : Loc nD τ sig) → Buf (Elt F) ℓ) (c : Dev nD) : Buf (Elt F) ((c.tc : Thread nD τ).loc main_c_25) :=
  constantI S_ 32 0#32
def st_main_v174 (m : (ℓ : Loc nD τ sig) → Buf (Elt F) ℓ) (c : Dev nD) : Buf (Elt F) ((c.tc : Thread nD τ).loc main_v174) :=
  broadcastInDim S1000000 ![] bcast_S_S1000000 (st_main_c_25 m c)
def st_main_v175 (m : (ℓ : Loc nD τ sig) → Buf (Elt F) ℓ) (c : Dev nD) : Buf (Elt F) ((c.tc : Thread nD τ).loc main_v175) :=
  cmpi .slt (st_main_v173 m c) (st_main_v174 m c)
def st_main_c_26 (m : (ℓ : Loc nD τ sig) → Buf (Elt F) ℓ) (c : Dev nD) : Buf (Elt F) ((c.tc : Thread nD τ).loc main_c_26) :=
  constantI S_ 32 100000#32
def st_main_v176 (m : (ℓ : Loc nD τ sig) → Buf (Elt F) ℓ) (c : Dev nD) : Buf (Elt F) ((c.tc : Thread nD τ).loc main_v176) :=
  broadcastInDim S1000000 ![] bcast_S_S1000000 (st_main_c_26 m c)
def st_main_v177 (m : (ℓ : Loc nD τ sig) → Buf (Elt F) ℓ) (c : Dev nD) : Buf (Elt F) ((c.tc : Thread nD τ).loc main_v177) :=
  addi (st_main_v173 m c) (st_main_v176 m c)
def st_main_v178 (m : (ℓ : Loc nD τ sig) → Buf (Elt F) ℓ) (c : Dev nD) : Buf (Elt F) ((c.tc : Thread nD τ).loc main_v178) :=
  select (st_main_v175 m c) (st_main_v177 m c) (st_main_v173 m c)
def st_main_v179 (m : (ℓ : Loc nD τ sig) → Buf (Elt F) ℓ) (c : Dev nD) : Buf (Elt F) ((c.tc : Thread nD τ).loc main_v179) :=
  broadcastInDim S1000000x1 ![0] bcast_S1000000_S1000000x1_0 (st_main_v178 m c)
def st_main_v180 (m : (ℓ : Loc nD τ sig) → Buf (Elt F) ℓ) (c : Dev nD) : Buf (Elt F) ((c.tc : Thread nD τ).loc main_v180) :=
  Host.gather gather_S100000x64_S1000000x1_S1000000x64_1_0_n_n_0_1_164 (st_main_v114 m c) (st_main_v179 m c)
def st_main_v181 (m : (ℓ : Loc nD τ sig) → Buf (Elt F) ℓ) (c : Dev nD) : Buf (Elt F) ((c.tc : Thread nD τ).loc main_v181) :=
  extractStridedSlice S1x1000000 ![2, 0] (m ((c.tc : Thread nD τ).loc main_arg8)) slices_S3x1000000_S1x1000000_2_0
def st_main_v182 (m : (ℓ : Loc nD τ sig) → Buf (Elt F) ℓ) (c : Dev nD) : Buf (Elt F) ((c.tc : Thread nD τ).loc main_v182) :=
  shapeCast _ (st_main_v181 m c) shapeCasts_S1x1000000_S1000000
def st_main_cst_27 (m : (ℓ : Loc nD τ sig) → Buf (Elt F) ℓ) (c : Dev nD) : Buf (Elt F) ((c.tc : Thread nD τ).loc main_cst_27) :=
  constant S_ .f32 0x00000000#32
def st_main_v183 (m : (ℓ : Loc nD τ sig) → Buf (Elt F) ℓ) (c : Dev nD) : Buf (Elt F) ((c.tc : Thread nD τ).loc main_v183) :=
  broadcastInDim S100000x64 ![] bcast_S_S100000x64 (st_main_cst_27 m c)
def st_main_v184 (m : (ℓ : Loc nD τ sig) → Buf (Elt F) ℓ) (c : Dev nD) : Buf (Elt F) ((c.tc : Thread nD τ).loc main_v184) :=
  broadcastInDim S1000000x1 ![0] bcast_S1000000_S1000000x1_0 (st_main_v182 m c)
def st_main_v185 (m : (ℓ : Loc nD τ sig) → Buf (Elt F) ℓ) (c : Dev nD) : Buf (Elt F) ((c.tc : Thread nD τ).loc main_v185) :=
  Host.scatterAdd scatter_S100000x64_S1000000x1_S1000000x64_1_0_0_1 (st_main_v183 m c) (st_main_v184 m c) (st_main_v180 m c)
def st_main_v186 (m : (ℓ : Loc nD τ sig) → Buf (Elt F) ℓ) (c : Dev nD) : Buf (Elt F) ((c.tc : Thread nD τ).loc main_v186) :=
  extractStridedSlice S1x100000 ![2, 0] (st_main_v28 m c) slices_S3x100000_S1x100000_2_0
def st_main_v187 (m : (ℓ : Loc nD τ sig) → Buf (Elt F) ℓ) (c : Dev nD) : Buf (Elt F) ((c.tc : Thread nD τ).loc main_v187) :=
  shapeCast _ (st_main_v186 m c) shapeCasts_S1x100000_S100000
def st_main_v188 (m : (ℓ : Loc nD τ sig) → Buf (Elt F) ℓ) (c : Dev nD) : Buf (Elt F) ((c.tc : Thread nD τ).loc main_v188) :=
  broadcastInDim S100000x1 ![0] bcast_S100000_S100000x1_0 (st_main_v187 m c)
def st_main_v189 (m : (ℓ : Loc nD τ sig) → Buf (Elt F) ℓ) (c : Dev nD) : Buf (Elt F) ((c.tc : Thread nD τ).loc main_v189) :=
  broadcastInDim S100000x64 ![0, 1] bcast_S100000x1_S100000x64_0_1 (st_main_v188 m c)
def st_main_v190 (m : (ℓ : Loc nD τ sig) → Buf (Elt F) ℓ) (c : Dev nD) : Buf (Elt F) ((c.tc : Thread nD τ).loc main_v190) :=
  mulf (st_main_v185 m c) (st_main_v189 m c)
def st_main_v191 (m : (ℓ : Loc nD τ sig) → Buf (Elt F) ℓ) (c : Dev nD) : Buf (Elt F) ((c.tc : Thread nD τ).loc main_v191) :=
  extractStridedSlice S1x64x64 ![2, 0, 0] (m ((c.tc : Thread nD τ).loc main_arg3)) slices_S3x64x64_S1x64x64_2_0_0
def st_main_v192 (m : (ℓ : Loc nD τ sig) → Buf (Elt F) ℓ) (c : Dev nD) : Buf (Elt F) ((c.tc : Thread nD τ).loc main_v192) :=
  shapeCast _ (st_main_v191 m c) shapeCasts_S1x64x64_S64x64
def st_main_v193 (m : (ℓ : Loc nD τ sig) → Buf (Elt F) ℓ) (c : Dev nD) : Buf (Elt F) ((c.tc : Thread nD τ).loc main_v193) :=
  Host.dotGeneral dot_S100000x64_S64x64_S100000x64_1_0_0_1_n_n none (st_main_v190 m c) (st_main_v192 m c)
def st_main_v194 (m : (ℓ : Loc nD τ sig) → Buf (Elt F) ℓ) (c : Dev nD) : Buf (Elt F) ((c.tc : Thread nD τ).loc main_v194) :=
  addf (st_main_v171 m c) (st_main_v193 m c)
def st_main_v195 (m : (ℓ : Loc nD τ sig) → Buf (Elt F) ℓ) (c : Dev nD) : Buf (Elt F) ((c.tc : Thread nD τ).loc main_v195) :=
  extractStridedSlice S1x64 ![2, 0] (m ((c.tc : Thread nD τ).loc main_arg4)) slices_S3x64_S1x64_2_0
def st_main_v196 (m : (ℓ : Loc nD τ sig) → Buf (Elt F) ℓ) (c : Dev nD) : Buf (Elt F) ((c.tc : Thread nD τ).loc main_v196) :=
  shapeCast _ (st_main_v195 m c) shapeCasts_S1x64_S64
def st_main_v197 (m : (ℓ : Loc nD τ sig) → Buf (Elt F) ℓ) (c : Dev nD) : Buf (Elt F) ((c.tc : Thread nD τ).loc main_v197) :=
  broadcastInDim S1x64 ![1] bcast_S64_S1x64_1 (st_main_v196 m c)
def st_main_v198 (m : (ℓ : Loc nD τ sig) → Buf (Elt F) ℓ) (c : Dev nD) : Buf (Elt F) ((c.tc : Thread nD τ).loc main_v198) :=
  broadcastInDim S100000x64 ![0, 1] bcast_S1x64_S100000x64_0_1 (st_main_v197 m c)
def st_main_v199 (m : (ℓ : Loc nD τ sig) → Buf (Elt F) ℓ) (c : Dev nD) : Buf (Elt F) ((c.tc : Thread nD τ).loc main_v199) :=
  addf (st_main_v194 m c) (st_main_v198 m c)
def st_main_call4_cst (m : (ℓ : Loc nD τ sig) → Buf (Elt F) ℓ) (c : Dev nD) : Buf (Elt F) ((c.tc : Thread nD τ).loc main_call4_cst) :=
  constant S_ .f32 0x00000000#32
def st_main_call4_v0 (m : (ℓ : Loc nD τ sig) → Buf (Elt F) ℓ) (c : Dev nD) : Buf (Elt F) ((c.tc : Thread nD τ).loc main_call4_v0) :=
  broadcastInDim S100000x64 ![] bcast_S_S100000x64 (st_main_call4_cst m c)
def st_main_v200 (m : (ℓ : Loc nD τ sig) → Buf (Elt F) ℓ) (c : Dev nD) : Buf (Elt F) ((c.tc : Thread nD τ).loc main_v200) :=
  maximumf (st_main_v199 m c) (st_main_call4_v0 m c)
def st_main_cst_28 (m : (ℓ : Loc nD τ sig) → Buf (Elt F) ℓ) (c : Dev nD) : Buf (Elt F) ((c.tc : Thread nD τ).loc main_cst_28) :=
  constant S_ .f32 0x00000000#32
def st_main_v201 (m : (ℓ : Loc nD τ sig) → Buf (Elt F) ℓ) (c : Dev nD) : Buf (Elt F) ((c.tc : Thread nD τ).loc main_v201) :=
  broadcastInDim S100000x64 ![] bcast_S_S100000x64 (st_main_cst_28 m c)
def st_main_v202 (m : (ℓ : Loc nD τ sig) → Buf (Elt F) ℓ) (c : Dev nD) : Buf (Elt F) ((c.tc : Thread nD τ).loc main_v202) :=
  extractStridedSlice S1x1000000 ![0, 0] (m ((c.tc : Thread nD τ).loc main_arg7)) slices_S3x1000000_S1x1000000_0_0
def st_main_v203 (m : (ℓ : Loc nD τ sig) → Buf (Elt F) ℓ) (c : Dev nD) : Buf (Elt F) ((c.tc : Thread nD τ).loc main_v203) :=
  shapeCast _ (st_main_v202 m c) shapeCasts_S1x1000000_S1000000
def st_main_c_29 (m : (ℓ : Loc nD τ sig) → Buf (Elt F) ℓ) (c : Dev nD) : Buf (Elt F) ((c.tc : Thread nD τ).loc main_c_29) :=
  constantI S_ 32 0#32
def st_main_v204 (m : (ℓ : Loc nD τ sig) → Buf (Elt F) ℓ) (c : Dev nD) : Buf (Elt F) ((c.tc : Thread nD τ).loc main_v204) :=
  broadcastInDim S1000000 ![] bcast_S_S1000000 (st_main_c_29 m c)
def st_main_v205 (m : (ℓ : Loc nD τ sig) → Buf (Elt F) ℓ) (c : Dev nD) : Buf (Elt F) ((c.tc : Thread nD τ).loc main_v205) :=
  cmpi .slt (st_main_v203 m c) (st_main_v204 m c)
def st_main_c_30 (m : (ℓ : Loc nD τ sig) → Buf (Elt F) ℓ) (c : Dev nD) : Buf (Elt F) ((c.tc : Thread nD τ).loc main_c_30) :=
  constantI S_ 32 100000#32
def st_main_v206 (m : (ℓ : Loc nD τ sig) → Buf (Elt F) ℓ) (c : Dev nD) : Buf (Elt F) ((c.tc : Thread nD τ).loc main_v206) :=
  broadcastInDim S1000000 ![] bcast_S_S1000000 (st_main_c_30 m c)
def st_main_v207 (m : (ℓ : Loc nD τ sig) → Buf (Elt F) ℓ) (c : Dev nD) : Buf (Elt F) ((c.tc : Thread nD τ).loc main_v207) :=
  addi (st_main_v203 m c) (st_main_v206 m c)
def st_main_v208 (m : (ℓ : Loc nD τ sig) → Buf (Elt F) ℓ) (c : Dev nD) : Buf (Elt F) ((c.tc : Thread nD τ).loc main_v208) :=
  select (st_main_v205 m c) (st_main_v207 m c) (st_main_v203 m c)
def st_main_v209 (m : (ℓ : Loc nD τ sig) → Buf (Elt F) ℓ) (c : Dev nD) : Buf (Elt F) ((c.tc : Thread nD τ).loc main_v209) :=
  broadcastInDim S1000000x1 ![0] bcast_S1000000_S1000000x1_0 (st_main_v208 m c)
def st_main_v210 (m : (ℓ : Loc nD τ sig) → Buf (Elt F) ℓ) (c : Dev nD) : Buf (Elt F) ((c.tc : Thread nD τ).loc main_v210) :=
  Host.gather gather_S100000x64_S1000000x1_S1000000x64_1_0_n_n_0_1_164 (st_main_v200 m c) (st_main_v209 m c)
def st_main_v211 (m : (ℓ : Loc nD τ sig) → Buf (Elt F) ℓ) (c : Dev nD) : Buf (Elt F) ((c.tc : Thread nD τ).loc main_v211) :=
  extractStridedSlice S1x1000000 ![0, 0] (m ((c.tc : Thread nD τ).loc main_arg8)) slices_S3x1000000_S1x1000000_0_0
def st_main_v212 (m : (ℓ : Loc nD τ sig) → Buf (Elt F) ℓ) (c : Dev nD) : Buf (Elt F) ((c.tc : Thread nD τ).loc main_v212) :=
  shapeCast _ (st_main_v211 m c) shapeCasts_S1x1000000_S1000000
def st_main_cst_31 (m : (ℓ : Loc nD τ sig) → Buf (Elt F) ℓ) (c : Dev nD) : Buf (Elt F) ((c.tc : Thread nD τ).loc main_cst_31) :=
  constant S_ .f32 0x00000000#32
def st_main_v213 (m : (ℓ : Loc nD τ sig) → Buf (Elt F) ℓ) (c : Dev nD) : Buf (Elt F) ((c.tc : Thread nD τ).loc main_v213) :=
  broadcastInDim S100000x64 ![] bcast_S_S100000x64 (st_main_cst_31 m c)
def st_main_v214 (m : (ℓ : Loc nD τ sig) → Buf (Elt F) ℓ) (c : Dev nD) : Buf (Elt F) ((c.tc : Thread nD τ).loc main_v214) :=
  broadcastInDim S1000000x1 ![0] bcast_S1000000_S1000000x1_0 (st_main_v212 m c)
def st_main_v215 (m : (ℓ : Loc nD τ sig) → Buf (Elt F) ℓ) (c : Dev nD) : Buf (Elt F) ((c.tc : Thread nD τ).loc main_v215) :=
  Host.scatterAdd scatter_S100000x64_S1000000x1_S1000000x64_1_0_0_1 (st_main_v213 m c) (st_main_v214 m c) (st_main_v210 m c)
def st_main_v216 (m : (ℓ : Loc nD τ sig) → Buf (Elt F) ℓ) (c : Dev nD) : Buf (Elt F) ((c.tc : Thread nD τ).loc main_v216) :=
  extractStridedSlice S1x100000 ![0, 0] (st_main_v28 m c) slices_S3x100000_S1x100000_0_0
def st_main_v217 (m : (ℓ : Loc nD τ sig) → Buf (Elt F) ℓ) (c : Dev nD) : Buf (Elt F) ((c.tc : Thread nD τ).loc main_v217) :=
  shapeCast _ (st_main_v216 m c) shapeCasts_S1x100000_S100000
def st_main_v218 (m : (ℓ : Loc nD τ sig) → Buf (Elt F) ℓ) (c : Dev nD) : Buf (Elt F) ((c.tc : Thread nD τ).loc main_v218) :=
  broadcastInDim S100000x1 ![0] bcast_S100000_S100000x1_0 (st_main_v217 m c)
def st_main_v219 (m : (ℓ : Loc nD τ sig) → Buf (Elt F) ℓ) (c : Dev nD) : Buf (Elt F) ((c.tc : Thread nD τ).loc main_v219) :=
  broadcastInDim S100000x64 ![0, 1] bcast_S100000x1_S100000x64_0_1 (st_main_v218 m c)
def st_main_v220 (m : (ℓ : Loc nD τ sig) → Buf (Elt F) ℓ) (c : Dev nD) : Buf (Elt F) ((c.tc : Thread nD τ).loc main_v220) :=
  mulf (st_main_v215 m c) (st_main_v219 m c)
def st_main_v221 (m : (ℓ : Loc nD τ sig) → Buf (Elt F) ℓ) (c : Dev nD) : Buf (Elt F) ((c.tc : Thread nD τ).loc main_v221) :=
  extractStridedSlice S1x64x64 ![0, 0, 0] (m ((c.tc : Thread nD τ).loc main_arg5)) slices_S3x64x64_S1x64x64_0_0_0
def st_main_v222 (m : (ℓ : Loc nD τ sig) → Buf (Elt F) ℓ) (c : Dev nD) : Buf (Elt F) ((c.tc : Thread nD τ).loc main_v222) :=
  shapeCast _ (st_main_v221 m c) shapeCasts_S1x64x64_S64x64
def st_main_v223 (m : (ℓ : Loc nD τ sig) → Buf (Elt F) ℓ) (c : Dev nD) : Buf (Elt F) ((c.tc : Thread nD τ).loc main_v223) :=
  Host.dotGeneral dot_S100000x64_S64x64_S100000x64_1_0_0_1_n_n none (st_main_v220 m c) (st_main_v222 m c)
def st_main_v224 (m : (ℓ : Loc nD τ sig) → Buf (Elt F) ℓ) (c : Dev nD) : Buf (Elt F) ((c.tc : Thread nD τ).loc main_v224) :=
  addf (st_main_v201 m c) (st_main_v223 m c)
def st_main_v225 (m : (ℓ : Loc nD τ sig) → Buf (Elt F) ℓ) (c : Dev nD) : Buf (Elt F) ((c.tc : Thread nD τ).loc main_v225) :=
  extractStridedSlice S1x64 ![0, 0] (m ((c.tc : Thread nD τ).loc main_arg6)) slices_S3x64_S1x64_0_0
def st_main_v226 (m : (ℓ : Loc nD τ sig) → Buf (Elt F) ℓ) (c : Dev nD) : Buf (Elt F) ((c.tc : Thread nD τ).loc main_v226) :=
  shapeCast _ (st_main_v225 m c) shapeCasts_S1x64_S64
def st_main_v227 (m : (ℓ : Loc nD τ sig) → Buf (Elt F) ℓ) (c : Dev nD) : Buf (Elt F) ((c.tc : Thread nD τ).loc main_v227) :=
  broadcastInDim S1x64 ![1] bcast_S64_S1x64_1 (st_main_v226 m c)
def st_main_v228 (m : (ℓ : Loc nD τ sig) → Buf (Elt F) ℓ) (c : Dev nD) : Buf (Elt F) ((c.tc : Thread nD τ).loc main_v228) :=
  broadcastInDim S100000x64 ![0, 1] bcast_S1x64_S100000x64_0_1 (st_main_v227 m c)
def st_main_v229 (m : (ℓ : Loc nD τ sig) → Buf (Elt F) ℓ) (c : Dev nD) : Buf (Elt F) ((c.tc : Thread nD τ).loc main_v229) :=
  addf (st_main_v224 m c) (st_main_v228 m c)
def st_main_v230 (m : (ℓ : Loc nD τ sig) → Buf (Elt F) ℓ) (c : Dev nD) : Buf (Elt F) ((c.tc : Thread nD τ).loc main_v230) :=
  extractStridedSlice S1x1000000 ![1, 0] (m ((c.tc : Thread nD τ).loc main_arg7)) slices_S3x1000000_S1x1000000_1_0
def st_main_v231 (m : (ℓ : Loc nD τ sig) → Buf (Elt F) ℓ) (c : Dev nD) : Buf (Elt F) ((c.tc : Thread nD τ).loc main_v231) :=
  shapeCast _ (st_main_v230 m c) shapeCasts_S1x1000000_S1000000
def st_main_c_32 (m : (ℓ : Loc nD τ sig) → Buf (Elt F) ℓ) (c : Dev nD) : Buf (Elt F) ((c.tc : Thread nD τ).loc main_c_32) :=
  constantI S_ 32 0#32
def st_main_v232 (m : (ℓ : Loc nD τ sig) → Buf (Elt F) ℓ) (c : Dev nD) : Buf (Elt F) ((c.tc : Thread nD τ).loc main_v232) :=
  broadcastInDim S1000000 ![] bcast_S_S1000000 (st_main_c_32 m c)
def st_main_v233 (m : (ℓ : Loc nD τ sig) → Buf (Elt F) ℓ) (c : Dev nD) : Buf (Elt F) ((c.tc : Thread nD τ).loc main_v233) :=
  cmpi .slt (st_main_v231 m c) (st_main_v232 m c)
def st_main_c_33 (m : (ℓ : Loc nD τ sig) → Buf (Elt F) ℓ) (c : Dev nD) : Buf (Elt F) ((c.tc : Thread nD τ).loc main_c_33) :=
  constantI S_ 32 100000#32
def st_main_v234 (m : (ℓ : Loc nD τ sig) → Buf (Elt F) ℓ) (c : Dev nD) : Buf (Elt F) ((c.tc : Thread nD τ).loc main_v234) :=
  broadcastInDim S1000000 ![] bcast_S_S1000000 (st_main_c_33 m c)
def st_main_v235 (m : (ℓ : Loc nD τ sig) → Buf (Elt F) ℓ) (c : Dev nD) : Buf (Elt F) ((c.tc : Thread nD τ).loc main_v235) :=
  addi (st_main_v231 m c) (st_main_v234 m c)
def st_main_v236 (m : (ℓ : Loc nD τ sig) → Buf (Elt F) ℓ) (c : Dev nD) : Buf (Elt F) ((c.tc : Thread nD τ).loc main_v236) :=
  select (st_main_v233 m c) (st_main_v235 m c) (st_main_v231 m c)
def st_main_v237 (m : (ℓ : Loc nD τ sig) → Buf (Elt F) ℓ) (c : Dev nD) : Buf (Elt F) ((c.tc : Thread nD τ).loc main_v237) :=
  broadcastInDim S1000000x1 ![0] bcast_S1000000_S1000000x1_0 (st_main_v236 m c)
def st_main_v238 (m : (ℓ : Loc nD τ sig) → Buf (Elt F) ℓ) (c : Dev nD) : Buf (Elt F) ((c.tc : Thread nD τ).loc main_v238) :=
  Host.gather gather_S100000x64_S1000000x1_S1000000x64_1_0_n_n_0_1_164 (st_main_v200 m c) (st_main_v237 m c)
def st_main_v239 (m : (ℓ : Loc nD τ sig) → Buf (Elt F) ℓ) (c : Dev nD) : Buf (Elt F) ((c.tc : Thread nD τ).loc main_v239) :=
  extractStridedSlice S1x1000000 ![1, 0] (m ((c.tc : Thread nD τ).loc main_arg8)) slices_S3x1000000_S1x1000000_1_0
def st_main_v240 (m : (ℓ : Loc nD τ sig) → Buf (Elt F) ℓ) (c : Dev nD) : Buf (Elt F) ((c.tc : Thread nD τ).loc main_v240) :=
  shapeCast _ (st_main_v239 m c) shapeCasts_S1x1000000_S1000000
def st_main_cst_34 (m : (ℓ : Loc nD τ sig) → Buf (Elt F) ℓ) (c : Dev nD) : Buf (Elt F) ((c.tc : Thread nD τ).loc main_cst_34) :=
  constant S_ .f32 0x00000000#32
def st_main_v241 (m : (ℓ : Loc nD τ sig) → Buf (Elt F) ℓ) (c : Dev nD) : Buf (Elt F) ((c.tc : Thread nD τ).loc main_v241) :=
  broadcastInDim S100000x64 ![] bcast_S_S100000x64 (st_main_cst_34 m c)
def st_main_v242 (m : (ℓ : Loc nD τ sig) → Buf (Elt F) ℓ) (c : Dev nD) : Buf (Elt F) ((c.tc : Thread nD τ).loc main_v242) :=
  broadcastInDim S1000000x1 ![0] bcast_S1000000_S1000000x1_0 (st_main_v240 m c)
def st_main_v243 (m : (ℓ : Loc nD τ sig) → Buf (Elt F) ℓ) (c : Dev nD) : Buf (Elt F) ((c.tc : Thread nD τ).loc main_v243) :=
  Host.scatterAdd scatter_S100000x64_S1000000x1_S1000000x64_1_0_0_1 (st_main_v241 m c) (st_main_v242 m c) (st_main_v238 m c)
def st_main_v244 (m : (ℓ : Loc nD τ sig) → Buf (Elt F) ℓ) (c : Dev nD) : Buf (Elt F) ((c.tc : Thread nD τ).loc main_v244) :=
  extractStridedSlice S1x100000 ![1, 0] (st_main_v28 m c) slices_S3x100000_S1x100000_1_0
def st_main_v245 (m : (ℓ : Loc nD τ sig) → Buf (Elt F) ℓ) (c : Dev nD) : Buf (Elt F) ((c.tc : Thread nD τ).loc main_v245) :=
  shapeCast _ (st_main_v244 m c) shapeCasts_S1x100000_S100000
def st_main_v246 (m : (ℓ : Loc nD τ sig) → Buf (Elt F) ℓ) (c : Dev nD) : Buf (Elt F) ((c.tc : Thread nD τ).loc main_v246) :=
  broadcastInDim S100000x1 ![0] bcast_S100000_S100000x1_0 (st_main_v245 m c)
def st_main_v247 (m : (ℓ : Loc nD τ sig) → Buf (Elt F) ℓ) (c : Dev nD) : Buf (Elt F) ((c.tc : Thread nD τ).loc main_v247) :=
  broadcastInDim S100000x64 ![0, 1] bcast_S100000x1_S100000x64_0_1 (st_main_v246 m c)
def st_main_v248 (m : (ℓ : Loc nD τ sig) → Buf (Elt F) ℓ) (c : Dev nD) : Buf (Elt F) ((c.tc : Thread nD τ).loc main_v248) :=
  mulf (st_main_v243 m c) (st_main_v247 m c)
def st_main_v249 (m : (ℓ : Loc nD τ sig) → Buf (Elt F) ℓ) (c : Dev nD) : Buf (Elt F) ((c.tc : Thread nD τ).loc main_v249) :=
  extractStridedSlice S1x64x64 ![1, 0, 0] (m ((c.tc : Thread nD τ).loc main_arg5)) slices_S3x64x64_S1x64x64_1_0_0
def st_main_v250 (m : (ℓ : Loc nD τ sig) → Buf (Elt F) ℓ) (c : Dev nD) : Buf (Elt F) ((c.tc : Thread nD τ).loc main_v250) :=
  shapeCast _ (st_main_v249 m c) shapeCasts_S1x64x64_S64x64
def st_main_v251 (m : (ℓ : Loc nD τ sig) → Buf (Elt F) ℓ) (c : Dev nD) : Buf (Elt F) ((c.tc : Thread nD τ).loc main_v251) :=
  Host.dotGeneral dot_S100000x64_S64x64_S100000x64_1_0_0_1_n_n none (st_main_v248 m c) (st_main_v250 m c)
def st_main_v252 (m : (ℓ : Loc nD τ sig) → Buf (Elt F) ℓ) (c : Dev nD) : Buf (Elt F) ((c.tc : Thread nD τ).loc main_v252) :=
  addf (st_main_v229 m c) (st_main_v251 m c)
def st_main_v253 (m : (ℓ : Loc nD τ sig) → Buf (Elt F) ℓ) (c : Dev nD) : Buf (Elt F) ((c.tc : Thread nD τ).loc main_v253) :=
  extractStridedSlice S1x64 ![1, 0] (m ((c.tc : Thread nD τ).loc main_arg6)) slices_S3x64_S1x64_1_0
def st_main_v254 (m : (ℓ : Loc nD τ sig) → Buf (Elt F) ℓ) (c : Dev nD) : Buf (Elt F) ((c.tc : Thread nD τ).loc main_v254) :=
  shapeCast _ (st_main_v253 m c) shapeCasts_S1x64_S64
def st_main_v255 (m : (ℓ : Loc nD τ sig) → Buf (Elt F) ℓ) (c : Dev nD) : Buf (Elt F) ((c.tc : Thread nD τ).loc main_v255) :=
  broadcastInDim S1x64 ![1] bcast_S64_S1x64_1 (st_main_v254 m c)
def st_main_v256 (m : (ℓ : Loc nD τ sig) → Buf (Elt F) ℓ) (c : Dev nD) : Buf (Elt F) ((c.tc : Thread nD τ).loc main_v256) :=
  broadcastInDim S100000x64 ![0, 1] bcast_S1x64_S100000x64_0_1 (st_main_v255 m c)
def st_main_v257 (m : (ℓ : Loc nD τ sig) → Buf (Elt F) ℓ) (c : Dev nD) : Buf (Elt F) ((c.tc : Thread nD τ).loc main_v257) :=
  addf (st_main_v252 m c) (st_main_v256 m c)
def st_main_v258 (m : (ℓ : Loc nD τ sig) → Buf (Elt F) ℓ) (c : Dev nD) : Buf (Elt F) ((c.tc : Thread nD τ).loc main_v258) :=
  extractStridedSlice S1x1000000 ![2, 0] (m ((c.tc : Thread nD τ).loc main_arg7)) slices_S3x1000000_S1x1000000_2_0
def st_main_v259 (m : (ℓ : Loc nD τ sig) → Buf (Elt F) ℓ) (c : Dev nD) : Buf (Elt F) ((c.tc : Thread nD τ).loc main_v259) :=
  shapeCast _ (st_main_v258 m c) shapeCasts_S1x1000000_S1000000
def st_main_c_35 (m : (ℓ : Loc nD τ sig) → Buf (Elt F) ℓ) (c : Dev nD) : Buf (Elt F) ((c.tc : Thread nD τ).loc main_c_35) :=
  constantI S_ 32 0#32
def st_main_v260 (m : (ℓ : Loc nD τ sig) → Buf (Elt F) ℓ) (c : Dev nD) : Buf (Elt F) ((c.tc : Thread nD τ).loc main_v260) :=
  broadcastInDim S1000000 ![] bcast_S_S1000000 (st_main_c_35 m c)
def st_main_v261 (m : (ℓ : Loc nD τ sig) → Buf (Elt F) ℓ) (c : Dev nD) : Buf (Elt F) ((c.tc : Thread nD τ).loc main_v261) :=
  cmpi .slt (st_main_v259 m c) (st_main_v260 m c)
def st_main_c_36 (m : (ℓ : Loc nD τ sig) → Buf (Elt F) ℓ) (c : Dev nD) : Buf (Elt F) ((c.tc : Thread nD τ).loc main_c_36) :=
  constantI S_ 32 100000#32
def st_main_v262 (m : (ℓ : Loc nD τ sig) → Buf (Elt F) ℓ) (c : Dev nD) : Buf (Elt F) ((c.tc : Thread nD τ).loc main_v262) :=
  broadcastInDim S1000000 ![] bcast_S_S1000000 (st_main_c_36 m c)
def st_main_v263 (m : (ℓ : Loc nD τ sig) → Buf (Elt F) ℓ) (c : Dev nD) : Buf (Elt F) ((c.tc : Thread nD τ).loc main_v263) :=
  addi (st_main_v259 m c) (st_main_v262 m c)
def st_main_v264 (m : (ℓ : Loc nD τ sig) → Buf (Elt F) ℓ) (c : Dev nD) : Buf (Elt F) ((c.tc : Thread nD τ).loc main_v264) :=
  select (st_main_v261 m c) (st_main_v263 m c) (st_main_v259 m c)
def st_main_v265 (m : (ℓ : Loc nD τ sig) → Buf (Elt F) ℓ) (c : Dev nD) : Buf (Elt F) ((c.tc : Thread nD τ).loc main_v265) :=
  broadcastInDim S1000000x1 ![0] bcast_S1000000_S1000000x1_0 (st_main_v264 m c)
def st_main_v266 (m : (ℓ : Loc nD τ sig) → Buf (Elt F) ℓ) (c : Dev nD) : Buf (Elt F) ((c.tc : Thread nD τ).loc main_v266) :=
  Host.gather gather_S100000x64_S1000000x1_S1000000x64_1_0_n_n_0_1_164 (st_main_v200 m c) (st_main_v265 m c)
def st_main_v267 (m : (ℓ : Loc nD τ sig) → Buf (Elt F) ℓ) (c : Dev nD) : Buf (Elt F) ((c.tc : Thread nD τ).loc main_v267) :=
  extractStridedSlice S1x1000000 ![2, 0] (m ((c.tc : Thread nD τ).loc main_arg8)) slices_S3x1000000_S1x1000000_2_0
def st_main_v268 (m : (ℓ : Loc nD τ sig) → Buf (Elt F) ℓ) (c : Dev nD) : Buf (Elt F) ((c.tc : Thread nD τ).loc main_v268) :=
  shapeCast _ (st_main_v267 m c) shapeCasts_S1x1000000_S1000000
def st_main_cst_37 (m : (ℓ : Loc nD τ sig) → Buf (Elt F) ℓ) (c : Dev nD) : Buf (Elt F) ((c.tc : Thread nD τ).loc main_cst_37) :=
  constant S_ .f32 0x00000000#32
def st_main_v269 (m : (ℓ : Loc nD τ sig) → Buf (Elt F) ℓ) (c : Dev nD) : Buf (Elt F) ((c.tc : Thread nD τ).loc main_v269) :=
  broadcastInDim S100000x64 ![] bcast_S_S100000x64 (st_main_cst_37 m c)
def st_main_v270 (m : (ℓ : Loc nD τ sig) → Buf (Elt F) ℓ) (c : Dev nD) : Buf (Elt F) ((c.tc : Thread nD τ).loc main_v270) :=
  broadcastInDim S1000000x1 ![0] bcast_S1000000_S1000000x1_0 (st_main_v268 m c)
def st_main_v271 (m : (ℓ : Loc nD τ sig) → Buf (Elt F) ℓ) (c : Dev nD) : Buf (Elt F) ((c.tc : Thread nD τ).loc main_v271) :=
  Host.scatterAdd scatter_S100000x64_S1000000x1_S1000000x64_1_0_0_1 (st_main_v269 m c) (st_main_v270 m c) (st_main_v266 m c)
def st_main_v272 (m : (ℓ : Loc nD τ sig) → Buf (Elt F) ℓ) (c : Dev nD) : Buf (Elt F) ((c.tc : Thread nD τ).loc main_v272) :=
  extractStridedSlice S1x100000 ![2, 0] (st_main_v28 m c) slices_S3x100000_S1x100000_2_0
def st_main_v273 (m : (ℓ : Loc nD τ sig) → Buf (Elt F) ℓ) (c : Dev nD) : Buf (Elt F) ((c.tc : Thread nD τ).loc main_v273) :=
  shapeCast _ (st_main_v272 m c) shapeCasts_S1x100000_S100000
def st_main_v274 (m : (ℓ : Loc nD τ sig) → Buf (Elt F) ℓ) (c : Dev nD) : Buf (Elt F) ((c.tc : Thread nD τ).loc main_v274) :=
  broadcastInDim S100000x1 ![0] bcast_S100000_S100000x1_0 (st_main_v273 m c)
def st_main_v275 (m : (ℓ : Loc nD τ sig) → Buf (Elt F) ℓ) (c : Dev nD) : Buf (Elt F) ((c.tc : Thread nD τ).loc main_v275) :=
  broadcastInDim S100000x64 ![0, 1] bcast_S100000x1_S100000x64_0_1 (st_main_v274 m c)
def st_main_v276 (m : (ℓ : Loc nD τ sig) → Buf (Elt F) ℓ) (c : Dev nD) : Buf (Elt F) ((c.tc : Thread nD τ).loc main_v276) :=
  mulf (st_main_v271 m c) (st_main_v275 m c)
def st_main_v277 (m : (ℓ : Loc nD τ sig) → Buf (Elt F) ℓ) (c : Dev nD) : Buf (Elt F) ((c.tc : Thread nD τ).loc main_v277) :=
  extractStridedSlice S1x64x64 ![2, 0, 0] (m ((c.tc : Thread nD τ).loc main_arg5)) slices_S3x64x64_S1x64x64_2_0_0
def st_main_v278 (m : (ℓ : Loc nD τ sig) → Buf (Elt F) ℓ) (c : Dev nD) : Buf (Elt F) ((c.tc : Thread nD τ).loc main_v278) :=
  shapeCast _ (st_main_v277 m c) shapeCasts_S1x64x64_S64x64
def st_main_v279 (m : (ℓ : Loc nD τ sig) → Buf (Elt F) ℓ) (c : Dev nD) : Buf (Elt F) ((c.tc : Thread nD τ).loc main_v279) :=
  Host.dotGeneral dot_S100000x64_S64x64_S100000x64_1_0_0_1_n_n none (st_main_v276 m c) (st_main_v278 m c)
def st_main_v280 (m : (ℓ : Loc nD τ sig) → Buf (Elt F) ℓ) (c : Dev nD) : Buf (Elt F) ((c.tc : Thread nD τ).loc main_v280) :=
  addf (st_main_v257 m c) (st_main_v279 m c)
def st_main_v281 (m : (ℓ : Loc nD τ sig) → Buf (Elt F) ℓ) (c : Dev nD) : Buf (Elt F) ((c.tc : Thread nD τ).loc main_v281) :=
  extractStridedSlice S1x64 ![2, 0] (m ((c.tc : Thread nD τ).loc main_arg6)) slices_S3x64_S1x64_2_0
def st_main_v282 (m : (ℓ : Loc nD τ sig) → Buf (Elt F) ℓ) (c : Dev nD) : Buf (Elt F) ((c.tc : Thread nD τ).loc main_v282) :=
  shapeCast _ (st_main_v281 m c) shapeCasts_S1x64_S64
def st_main_v283 (m : (ℓ : Loc nD τ sig) → Buf (Elt F) ℓ) (c : Dev nD) : Buf (Elt F) ((c.tc : Thread nD τ).loc main_v283) :=
  broadcastInDim S1x64 ![1] bcast_S64_S1x64_1 (st_main_v282 m c)
def st_main_v284 (m : (ℓ : Loc nD τ sig) → Buf (Elt F) ℓ) (c : Dev nD) : Buf (Elt F) ((c.tc : Thread nD τ).loc main_v284) :=
  broadcastInDim S100000x64 ![0, 1] bcast_S1x64_S100000x64_0_1 (st_main_v283 m c)
def st_main_v285 (m : (ℓ : Loc nD τ sig) → Buf (Elt F) ℓ) (c : Dev nD) : Buf (Elt F) ((c.tc : Thread nD τ).loc main_v285) :=
  addf (st_main_v280 m c) (st_main_v284 m c)
def st_main_call5_cst (m : (ℓ : Loc nD τ sig) → Buf (Elt F) ℓ) (c : Dev nD) : Buf (Elt F) ((c.tc : Thread nD τ).loc main_call5_cst) :=
  constant S_ .f32 0x00000000#32
def st_main_call5_v0 (m : (ℓ : Loc nD τ sig) → Buf (Elt F) ℓ) (c : Dev nD) : Buf (Elt F) ((c.tc : Thread nD τ).loc main_call5_v0) :=
  broadcastInDim S100000x64 ![] bcast_S_S100000x64 (st_main_call5_cst m c)
def st_main_v286 (m : (ℓ : Loc nD τ sig) → Buf (Elt F) ℓ) (c : Dev nD) : Buf (Elt F) ((c.tc : Thread nD τ).loc main_v286) :=
  maximumf (st_main_v285 m c) (st_main_call5_v0 m c)
def st_main_c_38 (m : (ℓ : Loc nD τ sig) → Buf (Elt F) ℓ) (c : Dev nD) : Buf (Elt F) ((c.tc : Thread nD τ).loc main_c_38) :=
  constantI S_ 32 0#32
def st_main_v287 (m : (ℓ : Loc nD τ sig) → Buf (Elt F) ℓ) (c : Dev nD) : Buf (Elt F) ((c.tc : Thread nD τ).loc main_v287) :=
  broadcastInDim S500000 ![] bcast_S_S500000 (st_main_c_38 m c)
def st_main_v288 (m : (ℓ : Loc nD τ sig) → Buf (Elt F) ℓ) (c : Dev nD) : Buf (Elt F) ((c.tc : Thread nD τ).loc main_v288) :=
  cmpi .slt (m ((c.tc : Thread nD τ).loc main_arg9)) (st_main_v287 m c)
def st_main_c_39 (m : (ℓ : Loc nD τ sig) → Buf (Elt F) ℓ) (c : Dev nD) : Buf (Elt F) ((c.tc : Thread nD τ).loc main_c_39) :=
  constantI S_ 32 100000#32
def st_main_v289 (m : (ℓ : Loc nD τ sig) → Buf (Elt F) ℓ) (c : Dev nD) : Buf (Elt F) ((c.tc : Thread nD τ).loc main_v289) :=
  broadcastInDim S500000 ![] bcast_S_S500000 (st_main_c_39 m c)
def st_main_v290 (m : (ℓ : Loc nD τ sig) → Buf (Elt F) ℓ) (c : Dev nD) : Buf (Elt F) ((c.tc : Thread nD τ).loc main_v290) :=
  addi (m ((c.tc : Thread nD τ).loc main_arg9)) (st_main_v289 m c)
def st_main_v291 (m : (ℓ : Loc nD τ sig) → Buf (Elt F) ℓ) (c : Dev nD) : Buf (Elt F) ((c.tc : Thread nD τ).loc main_v291) :=
  select (st_main_v288 m c) (st_main_v290 m c) (m ((c.tc : Thread nD τ).loc main_arg9))
def st_main_v292 (m : (ℓ : Loc nD τ sig) → Buf (Elt F) ℓ) (c : Dev nD) : Buf (Elt F) ((c.tc : Thread nD τ).loc main_v292) :=
  broadcastInDim S500000x1 ![0] bcast_S500000_S500000x1_0 (st_main_v291 m c)
def st_main_v293 (m : (ℓ : Loc nD τ sig) → Buf (Elt F) ℓ) (c : Dev nD) : Buf (Elt F) ((c.tc : Thread nD τ).loc main_v293) :=
  Host.gather gather_S100000x64_S500000x1_S500000x64_1_0_n_n_0_1_164 (st_main_v286 m c) (st_main_v292 m c)
def st_main_c_40 (m : (ℓ : Loc nD τ sig) → Buf (Elt F) ℓ) (c : Dev nD) : Buf (Elt F) ((c.tc : Thread nD τ).loc main_c_40) :=
  constantI S_ 32 0#32
def st_main_v294 (m : (ℓ : Loc nD τ sig) → Buf (Elt F) ℓ) (c : Dev nD) : Buf (Elt F) ((c.tc : Thread nD τ).loc main_v294) :=
  broadcastInDim S500000 ![] bcast_S_S500000 (st_main_c_40 m c)
def st_main_v295 (m : (ℓ : Loc nD τ sig) → Buf (Elt F) ℓ) (c : Dev nD) : Buf (Elt F) ((c.tc : Thread nD τ).loc main_v295) :=
  cmpi .slt (m ((c.tc : Thread nD τ).loc main_arg10)) (st_main_v294 m c)
def st_main_c_41 (m : (ℓ : Loc nD τ sig) → Buf (Elt F) ℓ) (c : Dev nD) : Buf (Elt F) ((c.tc : Thread nD τ).loc main_c_41) :=
  constantI S_ 32 100000#32
def st_main_v296 (m : (ℓ : Loc nD τ sig) → Buf (Elt F) ℓ) (c : Dev nD) : Buf (Elt F) ((c.tc : Thread nD τ).loc main_v296) :=
  broadcastInDim S500000 ![] bcast_S_S500000 (st_main_c_41 m c)
def st_main_v297 (m : (ℓ : Loc nD τ sig) → Buf (Elt F) ℓ) (c : Dev nD) : Buf (Elt F) ((c.tc : Thread nD τ).loc main_v297) :=
  addi (m ((c.tc : Thread nD τ).loc main_arg10)) (st_main_v296 m c)
def st_main_v298 (m : (ℓ : Loc nD τ sig) → Buf (Elt F) ℓ) (c : Dev nD) : Buf (Elt F) ((c.tc : Thread nD τ).loc main_v298) :=
  select (st_main_v295 m c) (st_main_v297 m c) (m ((c.tc : Thread nD τ).loc main_arg10))
def st_main_v299 (m : (ℓ : Loc nD τ sig) → Buf (Elt F) ℓ) (c : Dev nD) : Buf (Elt F) ((c.tc : Thread nD τ).loc main_v299) :=
  broadcastInDim S500000x1 ![0] bcast_S500000_S500000x1_0 (st_main_v298 m c)
def st_main_v300 (m : (ℓ : Loc nD τ sig) → Buf (Elt F) ℓ) (c : Dev nD) : Buf (Elt F) ((c.tc : Thread nD τ).loc main_v300) :=
  Host.gather gather_S100000x64_S500000x1_S500000x64_1_0_n_n_0_1_164 (st_main_v286 m c) (st_main_v299 m c)
def st_main_v301 (m : (ℓ : Loc nD τ sig) → Buf (Elt F) ℓ) (c : Dev nD) : Buf (Elt F) ((c.tc : Thread nD τ).loc main_v301) :=
  mulf (st_main_v293 m c) (st_main_v300 m c)
def st_main_cst_42 (m : (ℓ : Loc nD τ sig) → Buf (Elt F) ℓ) (c : Dev nD) : Buf (Elt F) ((c.tc : Thread nD τ).loc main_cst_42) :=
  constant S_ .f32 0x00000000#32
def st_main_v302 (m : (ℓ : Loc nD τ sig) → Buf (Elt F) ℓ) (c : Dev nD) : Buf (Elt F) ((c.tc : Thread nD τ).loc main_v302) :=
  Host.reduceAdd (st_main_v301 m c) (st_main_cst_42 m c) reducesTo_S500000x64_S500000_d1 h_S_
def st_main_c_43 (m : (ℓ : Loc nD τ sig) → Buf (Elt F) ℓ) (c : Dev nD) : Buf (Elt F) ((c.tc : Thread nD τ).loc main_c_43) :=
  constantI S_ 32 0#32
def st_main_v303 (m : (ℓ : Loc nD τ sig) → Buf (Elt F) ℓ) (c : Dev nD) : Buf (Elt F) ((c.tc : Thread nD τ).loc main_v303) :=
  broadcastInDim S500000 ![] bcast_S_S500000 (st_main_c_43 m c)
def st_main_v304 (m : (ℓ : Loc nD τ sig) → Buf (Elt F) ℓ) (c : Dev nD) : Buf (Elt F) ((c.tc : Thread nD τ).loc main_v304) :=
  cmpi .slt (m ((c.tc : Thread nD τ).loc main_arg11)) (st_main_v303 m c)
def st_main_c_44 (m : (ℓ : Loc nD τ sig) → Buf (Elt F) ℓ) (c : Dev nD) : Buf (Elt F) ((c.tc : Thread nD τ).loc main_c_44) :=
  constantI S_ 32 100000#32
def st_main_v305 (m : (ℓ : Loc nD τ sig) → Buf (Elt F) ℓ) (c : Dev nD) : Buf (Elt F) ((c.tc : Thread nD τ).loc main_v305) :=
  broadcastInDim S500000 ![] bcast_S_S500000 (st_main_c_44 m c)
def st_main_v306 (m : (ℓ : Loc nD τ sig) → Buf (Elt F) ℓ) (c : Dev nD) : Buf (Elt F) ((c.tc : Thread nD τ).loc main_v306) :=
  addi (m ((c.tc : Thread nD τ).loc main_arg11)) (st_main_v305 m c)
def st_main_v307 (m : (ℓ : Loc nD τ sig) → Buf (Elt F) ℓ) (c : Dev nD) : Buf (Elt F) ((c.tc : Thread nD τ).loc main_v307) :=
  select (st_main_v304 m c) (st_main_v306 m c) (m ((c.tc : Thread nD τ).loc main_arg11))
def st_main_v308 (m : (ℓ : Loc nD τ sig) → Buf (Elt F) ℓ) (c : Dev nD) : Buf (Elt F) ((c.tc : Thread nD τ).loc main_v308) :=
  broadcastInDim S500000x1 ![0] bcast_S500000_S500000x1_0 (st_main_v307 m c)
def st_main_v309 (m : (ℓ : Loc nD τ sig) → Buf (Elt F) ℓ) (c : Dev nD) : Buf (Elt F) ((c.tc : Thread nD τ).loc main_v309) :=
  Host.gather gather_S100000x64_S500000x1_S500000x64_1_0_n_n_0_1_164 (st_main_v286 m c) (st_main_v308 m c)
def st_main_c_45 (m : (ℓ : Loc nD τ sig) → Buf (Elt F) ℓ) (c : Dev nD) : Buf (Elt F) ((c.tc : Thread nD τ).loc main_c_45) :=
  constantI S_ 32 0#32
def st_main_v310 (m : (ℓ : Loc nD τ sig) → Buf (Elt F) ℓ) (c : Dev nD) : Buf (Elt F) ((c.tc : Thread nD τ).loc main_v310) :=
  broadcastInDim S500000 ![] bcast_S_S500000 (st_main_c_45 m c)
def st_main_v311 (m : (ℓ : Loc nD τ sig) → Buf (Elt F) ℓ) (c : Dev nD) : Buf (Elt F) ((c.tc : Thread nD τ).loc main_v311) :=
  cmpi .slt (m ((c.tc : Thread nD τ).loc main_arg12)) (st_main_v310 m c)
def st_main_c_46 (m : (ℓ : Loc nD τ sig) → Buf (Elt F) ℓ) (c : Dev nD) : Buf (Elt F) ((c.tc : Thread nD τ).loc main_c_46) :=
  constantI S_ 32 100000#32
def st_main_v312 (m : (ℓ : Loc nD τ sig) → Buf (Elt F) ℓ) (c : Dev nD) : Buf (Elt F) ((c.tc : Thread nD τ).loc main_v312) :=
  broadcastInDim S500000 ![] bcast_S_S500000 (st_main_c_46 m c)
def st_main_v313 (m : (ℓ : Loc nD τ sig) → Buf (Elt F) ℓ) (c : Dev nD) : Buf (Elt F) ((c.tc : Thread nD τ).loc main_v313) :=
  addi (m ((c.tc : Thread nD τ).loc main_arg12)) (st_main_v312 m c)
def st_main_v314 (m : (ℓ : Loc nD τ sig) → Buf (Elt F) ℓ) (c : Dev nD) : Buf (Elt F) ((c.tc : Thread nD τ).loc main_v314) :=
  select (st_main_v311 m c) (st_main_v313 m c) (m ((c.tc : Thread nD τ).loc main_arg12))
def st_main_v315 (m : (ℓ : Loc nD τ sig) → Buf (Elt F) ℓ) (c : Dev nD) : Buf (Elt F) ((c.tc : Thread nD τ).loc main_v315) :=
  broadcastInDim S500000x1 ![0] bcast_S500000_S500000x1_0 (st_main_v314 m c)
def st_main_v316 (m : (ℓ : Loc nD τ sig) → Buf (Elt F) ℓ) (c : Dev nD) : Buf (Elt F) ((c.tc : Thread nD τ).loc main_v316) :=
  Host.gather gather_S100000x64_S500000x1_S500000x64_1_0_n_n_0_1_164 (st_main_v286 m c) (st_main_v315 m c)
def st_main_v317 (m : (ℓ : Loc nD τ sig) → Buf (Elt F) ℓ) (c : Dev nD) : Buf (Elt F) ((c.tc : Thread nD τ).loc main_v317) :=
  mulf (st_main_v309 m c) (st_main_v316 m c)
def st_main_cst_47 (m : (ℓ : Loc nD τ sig) → Buf (Elt F) ℓ) (c : Dev nD) : Buf (Elt F) ((c.tc : Thread nD τ).loc main_cst_47) :=
  constant S_ .f32 0x00000000#32
def st_main_v318 (m : (ℓ : Loc nD τ sig) → Buf (Elt F) ℓ) (c : Dev nD) : Buf (Elt F) ((c.tc : Thread nD τ).loc main_v318) :=
  Host.reduceAdd (st_main_v317 m c) (st_main_cst_47 m c) reducesTo_S500000x64_S500000_d1 h_S_

/-! ## The contents window by window -/

/-- The device's buffer contents before the first window: the launch's. -/
def val0 (m : (ℓ : Loc nD τ sig) → Buf (Elt F) ℓ) (c : Dev nD) : Valuation τ sig (Elt F) := launchContents m c
theorem val0_main_arg0 (m : (ℓ : Loc nD τ sig) → Buf (Elt F) ℓ) (c : Dev nD) : val0 m c (no_index (Proc.devRef .tc main_arg0)) = m ((c.tc : Thread nD τ).loc main_arg0) := rfl
theorem val0_main_arg1 (m : (ℓ : Loc nD τ sig) → Buf (Elt F) ℓ) (c : Dev nD) : val0 m c (no_index (Proc.devRef .tc main_arg1)) = m ((c.tc : Thread nD τ).loc main_arg1) := rfl
theorem val0_main_arg2 (m : (ℓ : Loc nD τ sig) → Buf (Elt F) ℓ) (c : Dev nD) : val0 m c (no_index (Proc.devRef .tc main_arg2)) = m ((c.tc : Thread nD τ).loc main_arg2) := rfl
theorem val0_main_arg3 (m : (ℓ : Loc nD τ sig) → Buf (Elt F) ℓ) (c : Dev nD) : val0 m c (no_index (Proc.devRef .tc main_arg3)) = m ((c.tc : Thread nD τ).loc main_arg3) := rfl
theorem val0_main_arg4 (m : (ℓ : Loc nD τ sig) → Buf (Elt F) ℓ) (c : Dev nD) : val0 m c (no_index (Proc.devRef .tc main_arg4)) = m ((c.tc : Thread nD τ).loc main_arg4) := rfl
theorem val0_main_arg5 (m : (ℓ : Loc nD τ sig) → Buf (Elt F) ℓ) (c : Dev nD) : val0 m c (no_index (Proc.devRef .tc main_arg5)) = m ((c.tc : Thread nD τ).loc main_arg5) := rfl
theorem val0_main_arg6 (m : (ℓ : Loc nD τ sig) → Buf (Elt F) ℓ) (c : Dev nD) : val0 m c (no_index (Proc.devRef .tc main_arg6)) = m ((c.tc : Thread nD τ).loc main_arg6) := rfl
theorem val0_main_arg7 (m : (ℓ : Loc nD τ sig) → Buf (Elt F) ℓ) (c : Dev nD) : val0 m c (no_index (Proc.devRef .tc main_arg7)) = m ((c.tc : Thread nD τ).loc main_arg7) := rfl
theorem val0_main_arg8 (m : (ℓ : Loc nD τ sig) → Buf (Elt F) ℓ) (c : Dev nD) : val0 m c (no_index (Proc.devRef .tc main_arg8)) = m ((c.tc : Thread nD τ).loc main_arg8) := rfl
theorem val0_main_arg9 (m : (ℓ : Loc nD τ sig) → Buf (Elt F) ℓ) (c : Dev nD) : val0 m c (no_index (Proc.devRef .tc main_arg9)) = m ((c.tc : Thread nD τ).loc main_arg9) := rfl
theorem val0_main_arg10 (m : (ℓ : Loc nD τ sig) → Buf (Elt F) ℓ) (c : Dev nD) : val0 m c (no_index (Proc.devRef .tc main_arg10)) = m ((c.tc : Thread nD τ).loc main_arg10) := rfl
theorem val0_main_arg11 (m : (ℓ : Loc nD τ sig) → Buf (Elt F) ℓ) (c : Dev nD) : val0 m c (no_index (Proc.devRef .tc main_arg11)) = m ((c.tc : Thread nD τ).loc main_arg11) := rfl
theorem val0_main_arg12 (m : (ℓ : Loc nD τ sig) → Buf (Elt F) ℓ) (c : Dev nD) : val0 m c (no_index (Proc.devRef .tc main_arg12)) = m ((c.tc : Thread nD τ).loc main_arg12) := rfl

/-- The device's buffer contents after the first 1 window. -/
def val1 (m : (ℓ : Loc nD τ sig) → Buf (Elt F) ℓ) (c : Dev nD) : Valuation τ sig (Elt F) := after ops1 (val0 m c)
/-- The buffers that window 1's operations write. -/
abbrev ops1_W : List (Ref sig .tc) := [main_cst, main_v0, main_v1, main_v2, main_cst_0, main_v3, main_v4, main_v5, main_cst_1, main_call0_v0, main_call0_v1, main_v6, main_cst_2, main_v7, main_v8, main_v9, main_v10, main_cst_3, main_v11, main_v12, main_v13, main_cst_4, main_call1_v0, main_call1_v1, main_v14, main_cst_5, main_v15, main_v16, main_v17, main_v18, main_cst_6, main_v19, main_v20, main_v21, main_cst_7, main_call2_v0, main_call2_v1, main_v22, main_cst_8, main_v23, main_v24, main_v25, main_v26, main_v27]
set_option maxRecDepth 8192 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 1 does not write keeps its contents through it. -/
theorem val1_keep (m : (ℓ : Loc nD τ sig) → Buf (Elt F) ℓ) (c : Dev nD) (r : Ref sig .tc) (h : r ∉ ops1_W) :
    val1 m c (Proc.devRef .tc r) = val0 m c (Proc.devRef .tc r) :=
  after_of_writes_sub ops1 _ ops1_writes h
theorem val1_main_arg0 (m : (ℓ : Loc nD τ sig) → Buf (Elt F) ℓ) (c : Dev nD) : val1 m c (no_index (Proc.devRef .tc main_arg0)) = m ((c.tc : Thread nD τ).loc main_arg0) :=
  (val1_keep m c main_arg0 (by decide)).trans (val0_main_arg0 m c)
theorem val1_main_arg1 (m : (ℓ : Loc nD τ sig) → Buf (Elt F) ℓ) (c : Dev nD) : val1 m c (no_index (Proc.devRef .tc main_arg1)) = m ((c.tc : Thread nD τ).loc main_arg1) :=
  (val1_keep m c main_arg1 (by decide)).trans (val0_main_arg1 m c)
theorem val1_main_arg2 (m : (ℓ : Loc nD τ sig) → Buf (Elt F) ℓ) (c : Dev nD) : val1 m c (no_index (Proc.devRef .tc main_arg2)) = m ((c.tc : Thread nD τ).loc main_arg2) :=
  (val1_keep m c main_arg2 (by decide)).trans (val0_main_arg2 m c)
theorem val1_main_arg3 (m : (ℓ : Loc nD τ sig) → Buf (Elt F) ℓ) (c : Dev nD) : val1 m c (no_index (Proc.devRef .tc main_arg3)) = m ((c.tc : Thread nD τ).loc main_arg3) :=
  (val1_keep m c main_arg3 (by decide)).trans (val0_main_arg3 m c)
theorem val1_main_arg4 (m : (ℓ : Loc nD τ sig) → Buf (Elt F) ℓ) (c : Dev nD) : val1 m c (no_index (Proc.devRef .tc main_arg4)) = m ((c.tc : Thread nD τ).loc main_arg4) :=
  (val1_keep m c main_arg4 (by decide)).trans (val0_main_arg4 m c)
theorem val1_main_arg5 (m : (ℓ : Loc nD τ sig) → Buf (Elt F) ℓ) (c : Dev nD) : val1 m c (no_index (Proc.devRef .tc main_arg5)) = m ((c.tc : Thread nD τ).loc main_arg5) :=
  (val1_keep m c main_arg5 (by decide)).trans (val0_main_arg5 m c)
theorem val1_main_arg6 (m : (ℓ : Loc nD τ sig) → Buf (Elt F) ℓ) (c : Dev nD) : val1 m c (no_index (Proc.devRef .tc main_arg6)) = m ((c.tc : Thread nD τ).loc main_arg6) :=
  (val1_keep m c main_arg6 (by decide)).trans (val0_main_arg6 m c)
theorem val1_main_arg7 (m : (ℓ : Loc nD τ sig) → Buf (Elt F) ℓ) (c : Dev nD) : val1 m c (no_index (Proc.devRef .tc main_arg7)) = m ((c.tc : Thread nD τ).loc main_arg7) :=
  (val1_keep m c main_arg7 (by decide)).trans (val0_main_arg7 m c)
theorem val1_main_arg8 (m : (ℓ : Loc nD τ sig) → Buf (Elt F) ℓ) (c : Dev nD) : val1 m c (no_index (Proc.devRef .tc main_arg8)) = m ((c.tc : Thread nD τ).loc main_arg8) :=
  (val1_keep m c main_arg8 (by decide)).trans (val0_main_arg8 m c)
theorem val1_main_arg9 (m : (ℓ : Loc nD τ sig) → Buf (Elt F) ℓ) (c : Dev nD) : val1 m c (no_index (Proc.devRef .tc main_arg9)) = m ((c.tc : Thread nD τ).loc main_arg9) :=
  (val1_keep m c main_arg9 (by decide)).trans (val0_main_arg9 m c)
theorem val1_main_arg10 (m : (ℓ : Loc nD τ sig) → Buf (Elt F) ℓ) (c : Dev nD) : val1 m c (no_index (Proc.devRef .tc main_arg10)) = m ((c.tc : Thread nD τ).loc main_arg10) :=
  (val1_keep m c main_arg10 (by decide)).trans (val0_main_arg10 m c)
theorem val1_main_arg11 (m : (ℓ : Loc nD τ sig) → Buf (Elt F) ℓ) (c : Dev nD) : val1 m c (no_index (Proc.devRef .tc main_arg11)) = m ((c.tc : Thread nD τ).loc main_arg11) :=
  (val1_keep m c main_arg11 (by decide)).trans (val0_main_arg11 m c)
theorem val1_main_arg12 (m : (ℓ : Loc nD τ sig) → Buf (Elt F) ℓ) (c : Dev nD) : val1 m c (no_index (Proc.devRef .tc main_arg12)) = m ((c.tc : Thread nD τ).loc main_arg12) :=
  (val1_keep m c main_arg12 (by decide)).trans (val0_main_arg12 m c)
set_option maxRecDepth 8192 in
set_option maxHeartbeats 4000000 in
theorem val1_main_v25 (m : (ℓ : Loc nD τ sig) → Buf (Elt F) ℓ) (c : Dev nD) : val1 m c (no_index (Proc.devRef .tc main_v25)) = st_main_v25 m c := by
  unfold val1
  simp only [ops1]
  after_results_simp
  try simp only [TRef.ofBuf, TRef.toBuf, cast_eq]
  try simp only [val0_main_arg8]
  all_goals rfl
set_option maxRecDepth 8192 in
set_option maxHeartbeats 4000000 in
theorem val1_main_v26 (m : (ℓ : Loc nD τ sig) → Buf (Elt F) ℓ) (c : Dev nD) : val1 m c (no_index (Proc.devRef .tc main_v26)) = st_main_v26 m c := by
  unfold val1
  simp only [ops1]
  after_results_simp
  try simp only [TRef.ofBuf, TRef.toBuf, cast_eq]
  try simp only [val0_main_arg8]
  all_goals rfl
set_option maxRecDepth 8192 in
set_option maxHeartbeats 4000000 in
theorem val1_main_v27 (m : (ℓ : Loc nD τ sig) → Buf (Elt F) ℓ) (c : Dev nD) : val1 m c (no_index (Proc.devRef .tc main_v27)) = st_main_v27 m c := by
  unfold val1
  simp only [ops1]
  after_results_simp
  try simp only [TRef.ofBuf, TRef.toBuf, cast_eq]
  try simp only [val0_main_arg8]
  all_goals rfl

/-- The device's buffer contents after the first 2 windows. -/
def val2 (m : (ℓ : Loc nD τ sig) → Buf (Elt F) ℓ) (c : Dev nD) : Valuation τ sig (Elt F) := after ops2 (val1 m c)
/-- The buffers that window 2's operations write. -/
abbrev ops2_W : List (Ref sig .tc) := [main_v28]
set_option maxRecDepth 8192 in
theorem ops2_writes : (ops2 : List (HloOp τ sig (Elt F))).Forall fun op => op.writes ⊆ (ops2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window 2 does not write keeps its contents through it. -/
theorem val2_keep (m : (ℓ : Loc nD τ sig) → Buf (Elt F) ℓ) (c : Dev nD) (r : Ref sig .tc) (h : r ∉ ops2_W) :
    val2 m c (Proc.devRef .tc r) = val1 m c (Proc.devRef .tc r) :=
  after_of_writes_sub ops2 _ ops2_writes h
theorem val2_main_arg0 (m : (ℓ : Loc nD τ sig) → Buf (Elt F) ℓ) (c : Dev nD) : val2 m c (no_index (Proc.devRef .tc main_arg0)) = m ((c.tc : Thread nD τ).loc main_arg0) :=
  (val2_keep m c main_arg0 (by decide)).trans (val1_main_arg0 m c)
theorem val2_main_arg1 (m : (ℓ : Loc nD τ sig) → Buf (Elt F) ℓ) (c : Dev nD) : val2 m c (no_index (Proc.devRef .tc main_arg1)) = m ((c.tc : Thread nD τ).loc main_arg1) :=
  (val2_keep m c main_arg1 (by decide)).trans (val1_main_arg1 m c)
theorem val2_main_arg2 (m : (ℓ : Loc nD τ sig) → Buf (Elt F) ℓ) (c : Dev nD) : val2 m c (no_index (Proc.devRef .tc main_arg2)) = m ((c.tc : Thread nD τ).loc main_arg2) :=
  (val2_keep m c main_arg2 (by decide)).trans (val1_main_arg2 m c)
theorem val2_main_arg3 (m : (ℓ : Loc nD τ sig) → Buf (Elt F) ℓ) (c : Dev nD) : val2 m c (no_index (Proc.devRef .tc main_arg3)) = m ((c.tc : Thread nD τ).loc main_arg3) :=
  (val2_keep m c main_arg3 (by decide)).trans (val1_main_arg3 m c)
theorem val2_main_arg4 (m : (ℓ : Loc nD τ sig) → Buf (Elt F) ℓ) (c : Dev nD) : val2 m c (no_index (Proc.devRef .tc main_arg4)) = m ((c.tc : Thread nD τ).loc main_arg4) :=
  (val2_keep m c main_arg4 (by decide)).trans (val1_main_arg4 m c)
theorem val2_main_arg5 (m : (ℓ : Loc nD τ sig) → Buf (Elt F) ℓ) (c : Dev nD) : val2 m c (no_index (Proc.devRef .tc main_arg5)) = m ((c.tc : Thread nD τ).loc main_arg5) :=
  (val2_keep m c main_arg5 (by decide)).trans (val1_main_arg5 m c)
theorem val2_main_arg6 (m : (ℓ : Loc nD τ sig) → Buf (Elt F) ℓ) (c : Dev nD) : val2 m c (no_index (Proc.devRef .tc main_arg6)) = m ((c.tc : Thread nD τ).loc main_arg6) :=
  (val2_keep m c main_arg6 (by decide)).trans (val1_main_arg6 m c)
theorem val2_main_arg7 (m : (ℓ : Loc nD τ sig) → Buf (Elt F) ℓ) (c : Dev nD) : val2 m c (no_index (Proc.devRef .tc main_arg7)) = m ((c.tc : Thread nD τ).loc main_arg7) :=
  (val2_keep m c main_arg7 (by decide)).trans (val1_main_arg7 m c)
theorem val2_main_arg8 (m : (ℓ : Loc nD τ sig) → Buf (Elt F) ℓ) (c : Dev nD) : val2 m c (no_index (Proc.devRef .tc main_arg8)) = m ((c.tc : Thread nD τ).loc main_arg8) :=
  (val2_keep m c main_arg8 (by decide)).trans (val1_main_arg8 m c)
theorem val2_main_arg9 (m : (ℓ : Loc nD τ sig) → Buf (Elt F) ℓ) (c : Dev nD) : val2 m c (no_index (Proc.devRef .tc main_arg9)) = m ((c.tc : Thread nD τ).loc main_arg9) :=
  (val2_keep m c main_arg9 (by decide)).trans (val1_main_arg9 m c)
theorem val2_main_arg10 (m : (ℓ : Loc nD τ sig) → Buf (Elt F) ℓ) (c : Dev nD) : val2 m c (no_index (Proc.devRef .tc main_arg10)) = m ((c.tc : Thread nD τ).loc main_arg10) :=
  (val2_keep m c main_arg10 (by decide)).trans (val1_main_arg10 m c)
theorem val2_main_arg11 (m : (ℓ : Loc nD τ sig) → Buf (Elt F) ℓ) (c : Dev nD) : val2 m c (no_index (Proc.devRef .tc main_arg11)) = m ((c.tc : Thread nD τ).loc main_arg11) :=
  (val2_keep m c main_arg11 (by decide)).trans (val1_main_arg11 m c)
theorem val2_main_arg12 (m : (ℓ : Loc nD τ sig) → Buf (Elt F) ℓ) (c : Dev nD) : val2 m c (no_index (Proc.devRef .tc main_arg12)) = m ((c.tc : Thread nD τ).loc main_arg12) :=
  (val2_keep m c main_arg12 (by decide)).trans (val1_main_arg12 m c)
set_option maxRecDepth 8192 in
set_option maxHeartbeats 4000000 in
theorem val2_main_v28 (m : (ℓ : Loc nD τ sig) → Buf (Elt F) ℓ) (c : Dev nD) : val2 m c (no_index (Proc.devRef .tc main_v28)) = st_main_v28 m c := by
  unfold val2
  simp only [ops2, after_cons, after_nil]
  rw [nary3_result, val1_main_v27, val1_main_v26, val1_main_v25]
  rfl

/-- The device's buffer contents after the first 3 windows. -/
def val3 (m : (ℓ : Loc nD τ sig) → Buf (Elt F) ℓ) (c : Dev nD) : Valuation τ sig (Elt F) := after ops3 (val2 m c)
/-- The buffers that window 3's operations write. -/
abbrev ops3_W : List (Ref sig .tc) := [main_cst_9, main_v29, main_v30, main_v31, main_c, main_v32, main_v33, main_c_10, main_v34, main_v35, main_v36, main_v37, main_v38, main_v39, main_v40, main_cst_11, main_v41, main_v42, main_v43, main_v44, main_v45]
set_option maxRecDepth 8192 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 3 does not write keeps its contents through it. -/
theorem val3_keep (m : (ℓ : Loc nD τ sig) → Buf (Elt F) ℓ) (c : Dev nD) (r : Ref sig .tc) (h : r ∉ ops3_W) :
    val3 m c (Proc.devRef .tc r) = val2 m c (Proc.devRef .tc r) :=
  after_of_writes_sub ops3 _ ops3_writes h
theorem val3_main_arg0 (m : (ℓ : Loc nD τ sig) → Buf (Elt F) ℓ) (c : Dev nD) : val3 m c (no_index (Proc.devRef .tc main_arg0)) = m ((c.tc : Thread nD τ).loc main_arg0) :=
  (val3_keep m c main_arg0 (by decide)).trans (val2_main_arg0 m c)
theorem val3_main_arg1 (m : (ℓ : Loc nD τ sig) → Buf (Elt F) ℓ) (c : Dev nD) : val3 m c (no_index (Proc.devRef .tc main_arg1)) = m ((c.tc : Thread nD τ).loc main_arg1) :=
  (val3_keep m c main_arg1 (by decide)).trans (val2_main_arg1 m c)
theorem val3_main_arg2 (m : (ℓ : Loc nD τ sig) → Buf (Elt F) ℓ) (c : Dev nD) : val3 m c (no_index (Proc.devRef .tc main_arg2)) = m ((c.tc : Thread nD τ).loc main_arg2) :=
  (val3_keep m c main_arg2 (by decide)).trans (val2_main_arg2 m c)
theorem val3_main_arg3 (m : (ℓ : Loc nD τ sig) → Buf (Elt F) ℓ) (c : Dev nD) : val3 m c (no_index (Proc.devRef .tc main_arg3)) = m ((c.tc : Thread nD τ).loc main_arg3) :=
  (val3_keep m c main_arg3 (by decide)).trans (val2_main_arg3 m c)
theorem val3_main_arg4 (m : (ℓ : Loc nD τ sig) → Buf (Elt F) ℓ) (c : Dev nD) : val3 m c (no_index (Proc.devRef .tc main_arg4)) = m ((c.tc : Thread nD τ).loc main_arg4) :=
  (val3_keep m c main_arg4 (by decide)).trans (val2_main_arg4 m c)
theorem val3_main_arg5 (m : (ℓ : Loc nD τ sig) → Buf (Elt F) ℓ) (c : Dev nD) : val3 m c (no_index (Proc.devRef .tc main_arg5)) = m ((c.tc : Thread nD τ).loc main_arg5) :=
  (val3_keep m c main_arg5 (by decide)).trans (val2_main_arg5 m c)
theorem val3_main_arg6 (m : (ℓ : Loc nD τ sig) → Buf (Elt F) ℓ) (c : Dev nD) : val3 m c (no_index (Proc.devRef .tc main_arg6)) = m ((c.tc : Thread nD τ).loc main_arg6) :=
  (val3_keep m c main_arg6 (by decide)).trans (val2_main_arg6 m c)
theorem val3_main_arg7 (m : (ℓ : Loc nD τ sig) → Buf (Elt F) ℓ) (c : Dev nD) : val3 m c (no_index (Proc.devRef .tc main_arg7)) = m ((c.tc : Thread nD τ).loc main_arg7) :=
  (val3_keep m c main_arg7 (by decide)).trans (val2_main_arg7 m c)
theorem val3_main_arg8 (m : (ℓ : Loc nD τ sig) → Buf (Elt F) ℓ) (c : Dev nD) : val3 m c (no_index (Proc.devRef .tc main_arg8)) = m ((c.tc : Thread nD τ).loc main_arg8) :=
  (val3_keep m c main_arg8 (by decide)).trans (val2_main_arg8 m c)
theorem val3_main_arg9 (m : (ℓ : Loc nD τ sig) → Buf (Elt F) ℓ) (c : Dev nD) : val3 m c (no_index (Proc.devRef .tc main_arg9)) = m ((c.tc : Thread nD τ).loc main_arg9) :=
  (val3_keep m c main_arg9 (by decide)).trans (val2_main_arg9 m c)
theorem val3_main_arg10 (m : (ℓ : Loc nD τ sig) → Buf (Elt F) ℓ) (c : Dev nD) : val3 m c (no_index (Proc.devRef .tc main_arg10)) = m ((c.tc : Thread nD τ).loc main_arg10) :=
  (val3_keep m c main_arg10 (by decide)).trans (val2_main_arg10 m c)
theorem val3_main_arg11 (m : (ℓ : Loc nD τ sig) → Buf (Elt F) ℓ) (c : Dev nD) : val3 m c (no_index (Proc.devRef .tc main_arg11)) = m ((c.tc : Thread nD τ).loc main_arg11) :=
  (val3_keep m c main_arg11 (by decide)).trans (val2_main_arg11 m c)
theorem val3_main_arg12 (m : (ℓ : Loc nD τ sig) → Buf (Elt F) ℓ) (c : Dev nD) : val3 m c (no_index (Proc.devRef .tc main_arg12)) = m ((c.tc : Thread nD τ).loc main_arg12) :=
  (val3_keep m c main_arg12 (by decide)).trans (val2_main_arg12 m c)
theorem val3_main_v28 (m : (ℓ : Loc nD τ sig) → Buf (Elt F) ℓ) (c : Dev nD) : val3 m c (no_index (Proc.devRef .tc main_v28)) = st_main_v28 m c :=
  (val3_keep m c main_v28 (by decide)).trans (val2_main_v28 m c)
set_option maxRecDepth 8192 in
set_option maxHeartbeats 4000000 in
theorem val3_main_v29 (m : (ℓ : Loc nD τ sig) → Buf (Elt F) ℓ) (c : Dev nD) : val3 m c (no_index (Proc.devRef .tc main_v29)) = st_main_v29 m c := by
  unfold val3
  simp only [ops3]
  after_results_simp
  all_goals rfl
set_option maxRecDepth 8192 in
set_option maxHeartbeats 4000000 in
theorem val3_main_v43 (m : (ℓ : Loc nD τ sig) → Buf (Elt F) ℓ) (c : Dev nD) : val3 m c (no_index (Proc.devRef .tc main_v43)) = st_main_v43 m c := by
  unfold val3
  simp only [ops3]
  after_results_simp
  try simp only [val2_main_arg7, val2_main_arg0, val2_main_arg8]
  all_goals rfl
set_option maxRecDepth 8192 in
set_option maxHeartbeats 4000000 in
theorem val3_main_v45 (m : (ℓ : Loc nD τ sig) → Buf (Elt F) ℓ) (c : Dev nD) : val3 m c (no_index (Proc.devRef .tc main_v45)) = st_main_v45 m c := by
  unfold val3
  simp only [ops3]
  after_results_simp
  try simp only [val2_main_v28]
  all_goals rfl

/-- The device's buffer contents after the first 4 windows. -/
def val4 (m : (ℓ : Loc nD τ sig) → Buf (Elt F) ℓ) (c : Dev nD) : Valuation τ sig (Elt F) := after ops4 (val3 m c)
/-- The buffers that window 4's operations write. -/
abbrev ops4_W : List (Ref sig .tc) := [main_v46, main_v47, main_v48, main_v49, main_v50, main_v51, main_v52, main_v53, main_v54, main_v55, main_v56, main_v57, main_v58, main_v59, main_c_12, main_v60, main_v61, main_c_13, main_v62, main_v63, main_v64, main_v65, main_v66, main_v67, main_v68, main_cst_14, main_v69, main_v70, main_v71]
set_option maxRecDepth 8192 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 4 does not write keeps its contents through it. -/
theorem val4_keep (m : (ℓ : Loc nD τ sig) → Buf (Elt F) ℓ) (c : Dev nD) (r : Ref sig .tc) (h : r ∉ ops4_W) :
    val4 m c (Proc.devRef .tc r) = val3 m c (Proc.devRef .tc r) :=
  after_of_writes_sub ops4 _ ops4_writes h
theorem val4_main_arg0 (m : (ℓ : Loc nD τ sig) → Buf (Elt F) ℓ) (c : Dev nD) : val4 m c (no_index (Proc.devRef .tc main_arg0)) = m ((c.tc : Thread nD τ).loc main_arg0) :=
  (val4_keep m c main_arg0 (by decide)).trans (val3_main_arg0 m c)
theorem val4_main_arg1 (m : (ℓ : Loc nD τ sig) → Buf (Elt F) ℓ) (c : Dev nD) : val4 m c (no_index (Proc.devRef .tc main_arg1)) = m ((c.tc : Thread nD τ).loc main_arg1) :=
  (val4_keep m c main_arg1 (by decide)).trans (val3_main_arg1 m c)
theorem val4_main_arg2 (m : (ℓ : Loc nD τ sig) → Buf (Elt F) ℓ) (c : Dev nD) : val4 m c (no_index (Proc.devRef .tc main_arg2)) = m ((c.tc : Thread nD τ).loc main_arg2) :=
  (val4_keep m c main_arg2 (by decide)).trans (val3_main_arg2 m c)
theorem val4_main_arg3 (m : (ℓ : Loc nD τ sig) → Buf (Elt F) ℓ) (c : Dev nD) : val4 m c (no_index (Proc.devRef .tc main_arg3)) = m ((c.tc : Thread nD τ).loc main_arg3) :=
  (val4_keep m c main_arg3 (by decide)).trans (val3_main_arg3 m c)
theorem val4_main_arg4 (m : (ℓ : Loc nD τ sig) → Buf (Elt F) ℓ) (c : Dev nD) : val4 m c (no_index (Proc.devRef .tc main_arg4)) = m ((c.tc : Thread nD τ).loc main_arg4) :=
  (val4_keep m c main_arg4 (by decide)).trans (val3_main_arg4 m c)
theorem val4_main_arg5 (m : (ℓ : Loc nD τ sig) → Buf (Elt F) ℓ) (c : Dev nD) : val4 m c (no_index (Proc.devRef .tc main_arg5)) = m ((c.tc : Thread nD τ).loc main_arg5) :=
  (val4_keep m c main_arg5 (by decide)).trans (val3_main_arg5 m c)
theorem val4_main_arg6 (m : (ℓ : Loc nD τ sig) → Buf (Elt F) ℓ) (c : Dev nD) : val4 m c (no_index (Proc.devRef .tc main_arg6)) = m ((c.tc : Thread nD τ).loc main_arg6) :=
  (val4_keep m c main_arg6 (by decide)).trans (val3_main_arg6 m c)
theorem val4_main_arg7 (m : (ℓ : Loc nD τ sig) → Buf (Elt F) ℓ) (c : Dev nD) : val4 m c (no_index (Proc.devRef .tc main_arg7)) = m ((c.tc : Thread nD τ).loc main_arg7) :=
  (val4_keep m c main_arg7 (by decide)).trans (val3_main_arg7 m c)
theorem val4_main_arg8 (m : (ℓ : Loc nD τ sig) → Buf (Elt F) ℓ) (c : Dev nD) : val4 m c (no_index (Proc.devRef .tc main_arg8)) = m ((c.tc : Thread nD τ).loc main_arg8) :=
  (val4_keep m c main_arg8 (by decide)).trans (val3_main_arg8 m c)
theorem val4_main_arg9 (m : (ℓ : Loc nD τ sig) → Buf (Elt F) ℓ) (c : Dev nD) : val4 m c (no_index (Proc.devRef .tc main_arg9)) = m ((c.tc : Thread nD τ).loc main_arg9) :=
  (val4_keep m c main_arg9 (by decide)).trans (val3_main_arg9 m c)
theorem val4_main_arg10 (m : (ℓ : Loc nD τ sig) → Buf (Elt F) ℓ) (c : Dev nD) : val4 m c (no_index (Proc.devRef .tc main_arg10)) = m ((c.tc : Thread nD τ).loc main_arg10) :=
  (val4_keep m c main_arg10 (by decide)).trans (val3_main_arg10 m c)
theorem val4_main_arg11 (m : (ℓ : Loc nD τ sig) → Buf (Elt F) ℓ) (c : Dev nD) : val4 m c (no_index (Proc.devRef .tc main_arg11)) = m ((c.tc : Thread nD τ).loc main_arg11) :=
  (val4_keep m c main_arg11 (by decide)).trans (val3_main_arg11 m c)
theorem val4_main_arg12 (m : (ℓ : Loc nD τ sig) → Buf (Elt F) ℓ) (c : Dev nD) : val4 m c (no_index (Proc.devRef .tc main_arg12)) = m ((c.tc : Thread nD τ).loc main_arg12) :=
  (val4_keep m c main_arg12 (by decide)).trans (val3_main_arg12 m c)
theorem val4_main_v28 (m : (ℓ : Loc nD τ sig) → Buf (Elt F) ℓ) (c : Dev nD) : val4 m c (no_index (Proc.devRef .tc main_v28)) = st_main_v28 m c :=
  (val4_keep m c main_v28 (by decide)).trans (val3_main_v28 m c)
set_option maxRecDepth 8192 in
set_option maxHeartbeats 4000000 in
theorem val4_main_v57 (m : (ℓ : Loc nD τ sig) → Buf (Elt F) ℓ) (c : Dev nD) : val4 m c (no_index (Proc.devRef .tc main_v57)) = st_main_v57 m c := by
  unfold val4
  simp only [ops4]
  after_results_simp
  try simp only [val3_main_arg2, val3_main_arg1, val3_main_v45, val3_main_v43, val3_main_v29]
  all_goals rfl
set_option maxRecDepth 8192 in
set_option maxHeartbeats 4000000 in
theorem val4_main_v71 (m : (ℓ : Loc nD τ sig) → Buf (Elt F) ℓ) (c : Dev nD) : val4 m c (no_index (Proc.devRef .tc main_v71)) = st_main_v71 m c := by
  unfold val4
  simp only [ops4]
  after_results_simp
  try simp only [val3_main_arg7, val3_main_arg0, val3_main_arg8]
  all_goals rfl

/-- The device's buffer contents after the first 5 windows. -/
def val5 (m : (ℓ : Loc nD τ sig) → Buf (Elt F) ℓ) (c : Dev nD) : Valuation τ sig (Elt F) := after ops5 (val4 m c)
/-- The buffers that window 5's operations write. -/
abbrev ops5_W : List (Ref sig .tc) := [main_v72, main_v73, main_v74, main_v75, main_v76, main_v77, main_v78, main_v79, main_v80, main_v81, main_v82, main_v83, main_v84, main_v85, main_v86, main_v87, main_c_15, main_v88, main_v89, main_c_16, main_v90, main_v91, main_v92, main_v93, main_v94, main_v95, main_v96, main_cst_17, main_v97, main_v98, main_v99]
set_option maxRecDepth 8192 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 5 does not write keeps its contents through it. -/
theorem val5_keep (m : (ℓ : Loc nD τ sig) → Buf (Elt F) ℓ) (c : Dev nD) (r : Ref sig .tc) (h : r ∉ ops5_W) :
    val5 m c (Proc.devRef .tc r) = val4 m c (Proc.devRef .tc r) :=
  after_of_writes_sub ops5 _ ops5_writes h
theorem val5_main_arg1 (m : (ℓ : Loc nD τ sig) → Buf (Elt F) ℓ) (c : Dev nD) : val5 m c (no_index (Proc.devRef .tc main_arg1)) = m ((c.tc : Thread nD τ).loc main_arg1) :=
  (val5_keep m c main_arg1 (by decide)).trans (val4_main_arg1 m c)
theorem val5_main_arg2 (m : (ℓ : Loc nD τ sig) → Buf (Elt F) ℓ) (c : Dev nD) : val5 m c (no_index (Proc.devRef .tc main_arg2)) = m ((c.tc : Thread nD τ).loc main_arg2) :=
  (val5_keep m c main_arg2 (by decide)).trans (val4_main_arg2 m c)
theorem val5_main_arg3 (m : (ℓ : Loc nD τ sig) → Buf (Elt F) ℓ) (c : Dev nD) : val5 m c (no_index (Proc.devRef .tc main_arg3)) = m ((c.tc : Thread nD τ).loc main_arg3) :=
  (val5_keep m c main_arg3 (by decide)).trans (val4_main_arg3 m c)
theorem val5_main_arg4 (m : (ℓ : Loc nD τ sig) → Buf (Elt F) ℓ) (c : Dev nD) : val5 m c (no_index (Proc.devRef .tc main_arg4)) = m ((c.tc : Thread nD τ).loc main_arg4) :=
  (val5_keep m c main_arg4 (by decide)).trans (val4_main_arg4 m c)
theorem val5_main_arg5 (m : (ℓ : Loc nD τ sig) → Buf (Elt F) ℓ) (c : Dev nD) : val5 m c (no_index (Proc.devRef .tc main_arg5)) = m ((c.tc : Thread nD τ).loc main_arg5) :=
  (val5_keep m c main_arg5 (by decide)).trans (val4_main_arg5 m c)
theorem val5_main_arg6 (m : (ℓ : Loc nD τ sig) → Buf (Elt F) ℓ) (c : Dev nD) : val5 m c (no_index (Proc.devRef .tc main_arg6)) = m ((c.tc : Thread nD τ).loc main_arg6) :=
  (val5_keep m c main_arg6 (by decide)).trans (val4_main_arg6 m c)
theorem val5_main_arg7 (m : (ℓ : Loc nD τ sig) → Buf (Elt F) ℓ) (c : Dev nD) : val5 m c (no_index (Proc.devRef .tc main_arg7)) = m ((c.tc : Thread nD τ).loc main_arg7) :=
  (val5_keep m c main_arg7 (by decide)).trans (val4_main_arg7 m c)
theorem val5_main_arg8 (m : (ℓ : Loc nD τ sig) → Buf (Elt F) ℓ) (c : Dev nD) : val5 m c (no_index (Proc.devRef .tc main_arg8)) = m ((c.tc : Thread nD τ).loc main_arg8) :=
  (val5_keep m c main_arg8 (by decide)).trans (val4_main_arg8 m c)
theorem val5_main_arg9 (m : (ℓ : Loc nD τ sig) → Buf (Elt F) ℓ) (c : Dev nD) : val5 m c (no_index (Proc.devRef .tc main_arg9)) = m ((c.tc : Thread nD τ).loc main_arg9) :=
  (val5_keep m c main_arg9 (by decide)).trans (val4_main_arg9 m c)
theorem val5_main_arg10 (m : (ℓ : Loc nD τ sig) → Buf (Elt F) ℓ) (c : Dev nD) : val5 m c (no_index (Proc.devRef .tc main_arg10)) = m ((c.tc : Thread nD τ).loc main_arg10) :=
  (val5_keep m c main_arg10 (by decide)).trans (val4_main_arg10 m c)
theorem val5_main_arg11 (m : (ℓ : Loc nD τ sig) → Buf (Elt F) ℓ) (c : Dev nD) : val5 m c (no_index (Proc.devRef .tc main_arg11)) = m ((c.tc : Thread nD τ).loc main_arg11) :=
  (val5_keep m c main_arg11 (by decide)).trans (val4_main_arg11 m c)
theorem val5_main_arg12 (m : (ℓ : Loc nD τ sig) → Buf (Elt F) ℓ) (c : Dev nD) : val5 m c (no_index (Proc.devRef .tc main_arg12)) = m ((c.tc : Thread nD τ).loc main_arg12) :=
  (val5_keep m c main_arg12 (by decide)).trans (val4_main_arg12 m c)
theorem val5_main_v28 (m : (ℓ : Loc nD τ sig) → Buf (Elt F) ℓ) (c : Dev nD) : val5 m c (no_index (Proc.devRef .tc main_v28)) = st_main_v28 m c :=
  (val5_keep m c main_v28 (by decide)).trans (val4_main_v28 m c)
set_option maxRecDepth 8192 in
set_option maxHeartbeats 4000000 in
theorem val5_main_v85 (m : (ℓ : Loc nD τ sig) → Buf (Elt F) ℓ) (c : Dev nD) : val5 m c (no_index (Proc.devRef .tc main_v85)) = st_main_v85 m c := by
  unfold val5
  simp only [ops5]
  after_results_simp
  try simp only [val4_main_arg2, val4_main_arg1, val4_main_v28, val4_main_v71, val4_main_v57]
  all_goals rfl
set_option maxRecDepth 8192 in
set_option maxHeartbeats 4000000 in
theorem val5_main_v99 (m : (ℓ : Loc nD τ sig) → Buf (Elt F) ℓ) (c : Dev nD) : val5 m c (no_index (Proc.devRef .tc main_v99)) = st_main_v99 m c := by
  unfold val5
  simp only [ops5]
  after_results_simp
  try simp only [val4_main_arg7, val4_main_arg0, val4_main_arg8]
  all_goals rfl

/-- The device's buffer contents after the first 6 windows. -/
def val6 (m : (ℓ : Loc nD τ sig) → Buf (Elt F) ℓ) (c : Dev nD) : Valuation τ sig (Elt F) := after ops6 (val5 m c)
/-- The buffers that window 6's operations write. -/
abbrev ops6_W : List (Ref sig .tc) := [main_v100, main_v101, main_v102, main_v103, main_v104, main_v105, main_v106, main_v107, main_v108, main_v109, main_v110, main_v111, main_v112, main_v113, main_call3_cst, main_call3_v0, main_v114, main_cst_18, main_v115, main_v116, main_v117, main_c_19, main_v118, main_v119, main_c_20, main_v120, main_v121, main_v122]
set_option maxRecDepth 8192 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 6 does not write keeps its contents through it. -/
theorem val6_keep (m : (ℓ : Loc nD τ sig) → Buf (Elt F) ℓ) (c : Dev nD) (r : Ref sig .tc) (h : r ∉ ops6_W) :
    val6 m c (Proc.devRef .tc r) = val5 m c (Proc.devRef .tc r) :=
  after_of_writes_sub ops6 _ ops6_writes h
theorem val6_main_arg3 (m : (ℓ : Loc nD τ sig) → Buf (Elt F) ℓ) (c : Dev nD) : val6 m c (no_index (Proc.devRef .tc main_arg3)) = m ((c.tc : Thread nD τ).loc main_arg3) :=
  (val6_keep m c main_arg3 (by decide)).trans (val5_main_arg3 m c)
theorem val6_main_arg4 (m : (ℓ : Loc nD τ sig) → Buf (Elt F) ℓ) (c : Dev nD) : val6 m c (no_index (Proc.devRef .tc main_arg4)) = m ((c.tc : Thread nD τ).loc main_arg4) :=
  (val6_keep m c main_arg4 (by decide)).trans (val5_main_arg4 m c)
theorem val6_main_arg5 (m : (ℓ : Loc nD τ sig) → Buf (Elt F) ℓ) (c : Dev nD) : val6 m c (no_index (Proc.devRef .tc main_arg5)) = m ((c.tc : Thread nD τ).loc main_arg5) :=
  (val6_keep m c main_arg5 (by decide)).trans (val5_main_arg5 m c)
theorem val6_main_arg6 (m : (ℓ : Loc nD τ sig) → Buf (Elt F) ℓ) (c : Dev nD) : val6 m c (no_index (Proc.devRef .tc main_arg6)) = m ((c.tc : Thread nD τ).loc main_arg6) :=
  (val6_keep m c main_arg6 (by decide)).trans (val5_main_arg6 m c)
theorem val6_main_arg7 (m : (ℓ : Loc nD τ sig) → Buf (Elt F) ℓ) (c : Dev nD) : val6 m c (no_index (Proc.devRef .tc main_arg7)) = m ((c.tc : Thread nD τ).loc main_arg7) :=
  (val6_keep m c main_arg7 (by decide)).trans (val5_main_arg7 m c)
theorem val6_main_arg8 (m : (ℓ : Loc nD τ sig) → Buf (Elt F) ℓ) (c : Dev nD) : val6 m c (no_index (Proc.devRef .tc main_arg8)) = m ((c.tc : Thread nD τ).loc main_arg8) :=
  (val6_keep m c main_arg8 (by decide)).trans (val5_main_arg8 m c)
theorem val6_main_arg9 (m : (ℓ : Loc nD τ sig) → Buf (Elt F) ℓ) (c : Dev nD) : val6 m c (no_index (Proc.devRef .tc main_arg9)) = m ((c.tc : Thread nD τ).loc main_arg9) :=
  (val6_keep m c main_arg9 (by decide)).trans (val5_main_arg9 m c)
theorem val6_main_arg10 (m : (ℓ : Loc nD τ sig) → Buf (Elt F) ℓ) (c : Dev nD) : val6 m c (no_index (Proc.devRef .tc main_arg10)) = m ((c.tc : Thread nD τ).loc main_arg10) :=
  (val6_keep m c main_arg10 (by decide)).trans (val5_main_arg10 m c)
theorem val6_main_arg11 (m : (ℓ : Loc nD τ sig) → Buf (Elt F) ℓ) (c : Dev nD) : val6 m c (no_index (Proc.devRef .tc main_arg11)) = m ((c.tc : Thread nD τ).loc main_arg11) :=
  (val6_keep m c main_arg11 (by decide)).trans (val5_main_arg11 m c)
theorem val6_main_arg12 (m : (ℓ : Loc nD τ sig) → Buf (Elt F) ℓ) (c : Dev nD) : val6 m c (no_index (Proc.devRef .tc main_arg12)) = m ((c.tc : Thread nD τ).loc main_arg12) :=
  (val6_keep m c main_arg12 (by decide)).trans (val5_main_arg12 m c)
theorem val6_main_v28 (m : (ℓ : Loc nD τ sig) → Buf (Elt F) ℓ) (c : Dev nD) : val6 m c (no_index (Proc.devRef .tc main_v28)) = st_main_v28 m c :=
  (val6_keep m c main_v28 (by decide)).trans (val5_main_v28 m c)
set_option maxRecDepth 8192 in
set_option maxHeartbeats 4000000 in
theorem val6_main_v114 (m : (ℓ : Loc nD τ sig) → Buf (Elt F) ℓ) (c : Dev nD) : val6 m c (no_index (Proc.devRef .tc main_v114)) = st_main_v114 m c := by
  unfold val6
  simp only [ops6]
  after_results_simp
  try simp only [TRef.ofBuf, TRef.toBuf, cast_eq]
  try simp only [val5_main_arg2, val5_main_arg1, val5_main_v28, val5_main_v99, val5_main_v85]
  all_goals rfl
set_option maxRecDepth 8192 in
set_option maxHeartbeats 4000000 in
theorem val6_main_v115 (m : (ℓ : Loc nD τ sig) → Buf (Elt F) ℓ) (c : Dev nD) : val6 m c (no_index (Proc.devRef .tc main_v115)) = st_main_v115 m c := by
  unfold val6
  simp only [ops6]
  after_results_simp
  try simp only [TRef.ofBuf, TRef.toBuf, cast_eq]
  all_goals rfl
set_option maxRecDepth 8192 in
set_option maxHeartbeats 4000000 in
theorem val6_main_v122 (m : (ℓ : Loc nD τ sig) → Buf (Elt F) ℓ) (c : Dev nD) : val6 m c (no_index (Proc.devRef .tc main_v122)) = st_main_v122 m c := by
  unfold val6
  simp only [ops6]
  after_results_simp
  try simp only [TRef.ofBuf, TRef.toBuf, cast_eq]
  try simp only [val5_main_arg7]
  all_goals rfl

/-- The device's buffer contents after the first 7 windows. -/
def val7 (m : (ℓ : Loc nD τ sig) → Buf (Elt F) ℓ) (c : Dev nD) : Valuation τ sig (Elt F) := after ops7 (val6 m c)
/-- The buffers that window 7's operations write. -/
abbrev ops7_W : List (Ref sig .tc) := [main_v123, main_v124, main_v125, main_v126, main_cst_21, main_v127, main_v128, main_v129, main_v130, main_v131, main_v132, main_v133, main_v134, main_v135, main_v136, main_v137, main_v138, main_v139, main_v140, main_v141, main_v142, main_v143, main_v144, main_v145, main_c_22, main_v146, main_v147, main_c_23, main_v148, main_v149, main_v150, main_v151, main_v152, main_v153]
set_option maxRecDepth 8192 in
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 7 does not write keeps its contents through it. -/
theorem val7_keep (m : (ℓ : Loc nD τ sig) → Buf (Elt F) ℓ) (c : Dev nD) (r : Ref sig .tc) (h : r ∉ ops7_W) :
    val7 m c (Proc.devRef .tc r) = val6 m c (Proc.devRef .tc r) :=
  after_of_writes_sub ops7 _ ops7_writes h
theorem val7_main_arg3 (m : (ℓ : Loc nD τ sig) → Buf (Elt F) ℓ) (c : Dev nD) : val7 m c (no_index (Proc.devRef .tc main_arg3)) = m ((c.tc : Thread nD τ).loc main_arg3) :=
  (val7_keep m c main_arg3 (by decide)).trans (val6_main_arg3 m c)
theorem val7_main_arg4 (m : (ℓ : Loc nD τ sig) → Buf (Elt F) ℓ) (c : Dev nD) : val7 m c (no_index (Proc.devRef .tc main_arg4)) = m ((c.tc : Thread nD τ).loc main_arg4) :=
  (val7_keep m c main_arg4 (by decide)).trans (val6_main_arg4 m c)
theorem val7_main_arg5 (m : (ℓ : Loc nD τ sig) → Buf (Elt F) ℓ) (c : Dev nD) : val7 m c (no_index (Proc.devRef .tc main_arg5)) = m ((c.tc : Thread nD τ).loc main_arg5) :=
  (val7_keep m c main_arg5 (by decide)).trans (val6_main_arg5 m c)
theorem val7_main_arg6 (m : (ℓ : Loc nD τ sig) → Buf (Elt F) ℓ) (c : Dev nD) : val7 m c (no_index (Proc.devRef .tc main_arg6)) = m ((c.tc : Thread nD τ).loc main_arg6) :=
  (val7_keep m c main_arg6 (by decide)).trans (val6_main_arg6 m c)
theorem val7_main_arg7 (m : (ℓ : Loc nD τ sig) → Buf (Elt F) ℓ) (c : Dev nD) : val7 m c (no_index (Proc.devRef .tc main_arg7)) = m ((c.tc : Thread nD τ).loc main_arg7) :=
  (val7_keep m c main_arg7 (by decide)).trans (val6_main_arg7 m c)
theorem val7_main_arg8 (m : (ℓ : Loc nD τ sig) → Buf (Elt F) ℓ) (c : Dev nD) : val7 m c (no_index (Proc.devRef .tc main_arg8)) = m ((c.tc : Thread nD τ).loc main_arg8) :=
  (val7_keep m c main_arg8 (by decide)).trans (val6_main_arg8 m c)
theorem val7_main_arg9 (m : (ℓ : Loc nD τ sig) → Buf (Elt F) ℓ) (c : Dev nD) : val7 m c (no_index (Proc.devRef .tc main_arg9)) = m ((c.tc : Thread nD τ).loc main_arg9) :=
  (val7_keep m c main_arg9 (by decide)).trans (val6_main_arg9 m c)
theorem val7_main_arg10 (m : (ℓ : Loc nD τ sig) → Buf (Elt F) ℓ) (c : Dev nD) : val7 m c (no_index (Proc.devRef .tc main_arg10)) = m ((c.tc : Thread nD τ).loc main_arg10) :=
  (val7_keep m c main_arg10 (by decide)).trans (val6_main_arg10 m c)
theorem val7_main_arg11 (m : (ℓ : Loc nD τ sig) → Buf (Elt F) ℓ) (c : Dev nD) : val7 m c (no_index (Proc.devRef .tc main_arg11)) = m ((c.tc : Thread nD τ).loc main_arg11) :=
  (val7_keep m c main_arg11 (by decide)).trans (val6_main_arg11 m c)
theorem val7_main_arg12 (m : (ℓ : Loc nD τ sig) → Buf (Elt F) ℓ) (c : Dev nD) : val7 m c (no_index (Proc.devRef .tc main_arg12)) = m ((c.tc : Thread nD τ).loc main_arg12) :=
  (val7_keep m c main_arg12 (by decide)).trans (val6_main_arg12 m c)
theorem val7_main_v28 (m : (ℓ : Loc nD τ sig) → Buf (Elt F) ℓ) (c : Dev nD) : val7 m c (no_index (Proc.devRef .tc main_v28)) = st_main_v28 m c :=
  (val7_keep m c main_v28 (by decide)).trans (val6_main_v28 m c)
theorem val7_main_v114 (m : (ℓ : Loc nD τ sig) → Buf (Elt F) ℓ) (c : Dev nD) : val7 m c (no_index (Proc.devRef .tc main_v114)) = st_main_v114 m c :=
  (val7_keep m c main_v114 (by decide)).trans (val6_main_v114 m c)
set_option maxRecDepth 8192 in
set_option maxHeartbeats 4000000 in
theorem val7_main_v143 (m : (ℓ : Loc nD τ sig) → Buf (Elt F) ℓ) (c : Dev nD) : val7 m c (no_index (Proc.devRef .tc main_v143)) = st_main_v143 m c := by
  unfold val7
  simp only [ops7]
  after_results_simp
  try simp only [val6_main_arg4, val6_main_arg3, val6_main_v28, val6_main_v122, val6_main_v114, val6_main_arg8, val6_main_v115]
  all_goals rfl
set_option maxRecDepth 8192 in
set_option maxHeartbeats 4000000 in
theorem val7_main_v152 (m : (ℓ : Loc nD τ sig) → Buf (Elt F) ℓ) (c : Dev nD) : val7 m c (no_index (Proc.devRef .tc main_v152)) = st_main_v152 m c := by
  unfold val7
  simp only [ops7]
  after_results_simp
  try simp only [val6_main_arg7, val6_main_v114]
  all_goals rfl
set_option maxRecDepth 8192 in
set_option maxHeartbeats 4000000 in
theorem val7_main_v153 (m : (ℓ : Loc nD τ sig) → Buf (Elt F) ℓ) (c : Dev nD) : val7 m c (no_index (Proc.devRef .tc main_v153)) = st_main_v153 m c := by
  unfold val7
  simp only [ops7]
  after_results_simp
  try simp only [val6_main_arg8]
  all_goals rfl

/-- The device's buffer contents after the first 8 windows. -/
def val8 (m : (ℓ : Loc nD τ sig) → Buf (Elt F) ℓ) (c : Dev nD) : Valuation τ sig (Elt F) := after ops8 (val7 m c)
/-- The buffers that window 8's operations write. -/
abbrev ops8_W : List (Ref sig .tc) := [main_v154, main_cst_24, main_v155, main_v156, main_v157, main_v158, main_v159, main_v160, main_v161, main_v162, main_v163, main_v164, main_v165, main_v166, main_v167, main_v168, main_v169, main_v170, main_v171, main_v172, main_v173, main_c_25, main_v174, main_v175, main_c_26, main_v176, main_v177, main_v178, main_v179, main_v180]
set_option maxRecDepth 8192 in
theorem ops8_writes : (ops8 : List (HloOp τ sig (Elt F))).Forall fun op => op.writes ⊆ (ops8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 8 does not write keeps its contents through it. -/
theorem val8_keep (m : (ℓ : Loc nD τ sig) → Buf (Elt F) ℓ) (c : Dev nD) (r : Ref sig .tc) (h : r ∉ ops8_W) :
    val8 m c (Proc.devRef .tc r) = val7 m c (Proc.devRef .tc r) :=
  after_of_writes_sub ops8 _ ops8_writes h
theorem val8_main_arg3 (m : (ℓ : Loc nD τ sig) → Buf (Elt F) ℓ) (c : Dev nD) : val8 m c (no_index (Proc.devRef .tc main_arg3)) = m ((c.tc : Thread nD τ).loc main_arg3) :=
  (val8_keep m c main_arg3 (by decide)).trans (val7_main_arg3 m c)
theorem val8_main_arg4 (m : (ℓ : Loc nD τ sig) → Buf (Elt F) ℓ) (c : Dev nD) : val8 m c (no_index (Proc.devRef .tc main_arg4)) = m ((c.tc : Thread nD τ).loc main_arg4) :=
  (val8_keep m c main_arg4 (by decide)).trans (val7_main_arg4 m c)
theorem val8_main_arg5 (m : (ℓ : Loc nD τ sig) → Buf (Elt F) ℓ) (c : Dev nD) : val8 m c (no_index (Proc.devRef .tc main_arg5)) = m ((c.tc : Thread nD τ).loc main_arg5) :=
  (val8_keep m c main_arg5 (by decide)).trans (val7_main_arg5 m c)
theorem val8_main_arg6 (m : (ℓ : Loc nD τ sig) → Buf (Elt F) ℓ) (c : Dev nD) : val8 m c (no_index (Proc.devRef .tc main_arg6)) = m ((c.tc : Thread nD τ).loc main_arg6) :=
  (val8_keep m c main_arg6 (by decide)).trans (val7_main_arg6 m c)
theorem val8_main_arg7 (m : (ℓ : Loc nD τ sig) → Buf (Elt F) ℓ) (c : Dev nD) : val8 m c (no_index (Proc.devRef .tc main_arg7)) = m ((c.tc : Thread nD τ).loc main_arg7) :=
  (val8_keep m c main_arg7 (by decide)).trans (val7_main_arg7 m c)
theorem val8_main_arg8 (m : (ℓ : Loc nD τ sig) → Buf (Elt F) ℓ) (c : Dev nD) : val8 m c (no_index (Proc.devRef .tc main_arg8)) = m ((c.tc : Thread nD τ).loc main_arg8) :=
  (val8_keep m c main_arg8 (by decide)).trans (val7_main_arg8 m c)
theorem val8_main_arg9 (m : (ℓ : Loc nD τ sig) → Buf (Elt F) ℓ) (c : Dev nD) : val8 m c (no_index (Proc.devRef .tc main_arg9)) = m ((c.tc : Thread nD τ).loc main_arg9) :=
  (val8_keep m c main_arg9 (by decide)).trans (val7_main_arg9 m c)
theorem val8_main_arg10 (m : (ℓ : Loc nD τ sig) → Buf (Elt F) ℓ) (c : Dev nD) : val8 m c (no_index (Proc.devRef .tc main_arg10)) = m ((c.tc : Thread nD τ).loc main_arg10) :=
  (val8_keep m c main_arg10 (by decide)).trans (val7_main_arg10 m c)
theorem val8_main_arg11 (m : (ℓ : Loc nD τ sig) → Buf (Elt F) ℓ) (c : Dev nD) : val8 m c (no_index (Proc.devRef .tc main_arg11)) = m ((c.tc : Thread nD τ).loc main_arg11) :=
  (val8_keep m c main_arg11 (by decide)).trans (val7_main_arg11 m c)
theorem val8_main_arg12 (m : (ℓ : Loc nD τ sig) → Buf (Elt F) ℓ) (c : Dev nD) : val8 m c (no_index (Proc.devRef .tc main_arg12)) = m ((c.tc : Thread nD τ).loc main_arg12) :=
  (val8_keep m c main_arg12 (by decide)).trans (val7_main_arg12 m c)
theorem val8_main_v28 (m : (ℓ : Loc nD τ sig) → Buf (Elt F) ℓ) (c : Dev nD) : val8 m c (no_index (Proc.devRef .tc main_v28)) = st_main_v28 m c :=
  (val8_keep m c main_v28 (by decide)).trans (val7_main_v28 m c)
set_option maxRecDepth 8192 in
set_option maxHeartbeats 4000000 in
theorem val8_main_v171 (m : (ℓ : Loc nD τ sig) → Buf (Elt F) ℓ) (c : Dev nD) : val8 m c (no_index (Proc.devRef .tc main_v171)) = st_main_v171 m c := by
  unfold val8
  simp only [ops8]
  after_results_simp
  try simp only [val7_main_arg4, val7_main_arg3, val7_main_v28, val7_main_v152, val7_main_v153, val7_main_v143]
  all_goals rfl
set_option maxRecDepth 8192 in
set_option maxHeartbeats 4000000 in
theorem val8_main_v180 (m : (ℓ : Loc nD τ sig) → Buf (Elt F) ℓ) (c : Dev nD) : val8 m c (no_index (Proc.devRef .tc main_v180)) = st_main_v180 m c := by
  unfold val8
  simp only [ops8]
  after_results_simp
  try simp only [val7_main_arg7, val7_main_v114]
  all_goals rfl

/-- The device's buffer contents after the first 9 windows. -/
def val9 (m : (ℓ : Loc nD τ sig) → Buf (Elt F) ℓ) (c : Dev nD) : Valuation τ sig (Elt F) := after ops9 (val8 m c)
/-- The buffers that window 9's operations write. -/
abbrev ops9_W : List (Ref sig .tc) := [main_v181, main_v182, main_cst_27, main_v183, main_v184, main_v185, main_v186, main_v187, main_v188, main_v189, main_v190, main_v191, main_v192, main_v193, main_v194, main_v195, main_v196, main_v197, main_v198, main_v199, main_call4_cst, main_call4_v0, main_v200, main_cst_28, main_v201, main_v202, main_v203, main_c_29, main_v204, main_v205, main_c_30, main_v206]
set_option maxRecDepth 8192 in
theorem ops9_writes : (ops9 : List (HloOp τ sig (Elt F))).Forall fun op => op.writes ⊆ (ops9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 9 does not write keeps its contents through it. -/
theorem val9_keep (m : (ℓ : Loc nD τ sig) → Buf (Elt F) ℓ) (c : Dev nD) (r : Ref sig .tc) (h : r ∉ ops9_W) :
    val9 m c (Proc.devRef .tc r) = val8 m c (Proc.devRef .tc r) :=
  after_of_writes_sub ops9 _ ops9_writes h
theorem val9_main_arg5 (m : (ℓ : Loc nD τ sig) → Buf (Elt F) ℓ) (c : Dev nD) : val9 m c (no_index (Proc.devRef .tc main_arg5)) = m ((c.tc : Thread nD τ).loc main_arg5) :=
  (val9_keep m c main_arg5 (by decide)).trans (val8_main_arg5 m c)
theorem val9_main_arg6 (m : (ℓ : Loc nD τ sig) → Buf (Elt F) ℓ) (c : Dev nD) : val9 m c (no_index (Proc.devRef .tc main_arg6)) = m ((c.tc : Thread nD τ).loc main_arg6) :=
  (val9_keep m c main_arg6 (by decide)).trans (val8_main_arg6 m c)
theorem val9_main_arg7 (m : (ℓ : Loc nD τ sig) → Buf (Elt F) ℓ) (c : Dev nD) : val9 m c (no_index (Proc.devRef .tc main_arg7)) = m ((c.tc : Thread nD τ).loc main_arg7) :=
  (val9_keep m c main_arg7 (by decide)).trans (val8_main_arg7 m c)
theorem val9_main_arg8 (m : (ℓ : Loc nD τ sig) → Buf (Elt F) ℓ) (c : Dev nD) : val9 m c (no_index (Proc.devRef .tc main_arg8)) = m ((c.tc : Thread nD τ).loc main_arg8) :=
  (val9_keep m c main_arg8 (by decide)).trans (val8_main_arg8 m c)
theorem val9_main_arg9 (m : (ℓ : Loc nD τ sig) → Buf (Elt F) ℓ) (c : Dev nD) : val9 m c (no_index (Proc.devRef .tc main_arg9)) = m ((c.tc : Thread nD τ).loc main_arg9) :=
  (val9_keep m c main_arg9 (by decide)).trans (val8_main_arg9 m c)
theorem val9_main_arg10 (m : (ℓ : Loc nD τ sig) → Buf (Elt F) ℓ) (c : Dev nD) : val9 m c (no_index (Proc.devRef .tc main_arg10)) = m ((c.tc : Thread nD τ).loc main_arg10) :=
  (val9_keep m c main_arg10 (by decide)).trans (val8_main_arg10 m c)
theorem val9_main_arg11 (m : (ℓ : Loc nD τ sig) → Buf (Elt F) ℓ) (c : Dev nD) : val9 m c (no_index (Proc.devRef .tc main_arg11)) = m ((c.tc : Thread nD τ).loc main_arg11) :=
  (val9_keep m c main_arg11 (by decide)).trans (val8_main_arg11 m c)
theorem val9_main_arg12 (m : (ℓ : Loc nD τ sig) → Buf (Elt F) ℓ) (c : Dev nD) : val9 m c (no_index (Proc.devRef .tc main_arg12)) = m ((c.tc : Thread nD τ).loc main_arg12) :=
  (val9_keep m c main_arg12 (by decide)).trans (val8_main_arg12 m c)
theorem val9_main_v28 (m : (ℓ : Loc nD τ sig) → Buf (Elt F) ℓ) (c : Dev nD) : val9 m c (no_index (Proc.devRef .tc main_v28)) = st_main_v28 m c :=
  (val9_keep m c main_v28 (by decide)).trans (val8_main_v28 m c)
set_option maxRecDepth 8192 in
set_option maxHeartbeats 4000000 in
theorem val9_main_v200 (m : (ℓ : Loc nD τ sig) → Buf (Elt F) ℓ) (c : Dev nD) : val9 m c (no_index (Proc.devRef .tc main_v200)) = st_main_v200 m c := by
  unfold val9
  simp only [ops9]
  after_results_simp
  try simp only [TRef.ofBuf, TRef.toBuf, cast_eq]
  try simp only [val8_main_arg4, val8_main_arg3, val8_main_v28, val8_main_v180, val8_main_arg8, val8_main_v171]
  all_goals rfl
set_option maxRecDepth 8192 in
set_option maxHeartbeats 4000000 in
theorem val9_main_v201 (m : (ℓ : Loc nD τ sig) → Buf (Elt F) ℓ) (c : Dev nD) : val9 m c (no_index (Proc.devRef .tc main_v201)) = st_main_v201 m c := by
  unfold val9
  simp only [ops9]
  after_results_simp
  try simp only [TRef.ofBuf, TRef.toBuf, cast_eq]
  all_goals rfl
set_option maxRecDepth 8192 in
set_option maxHeartbeats 4000000 in
theorem val9_main_v203 (m : (ℓ : Loc nD τ sig) → Buf (Elt F) ℓ) (c : Dev nD) : val9 m c (no_index (Proc.devRef .tc main_v203)) = st_main_v203 m c := by
  unfold val9
  simp only [ops9]
  after_results_simp
  try simp only [TRef.ofBuf, TRef.toBuf, cast_eq]
  try simp only [val8_main_arg7]
  all_goals rfl
set_option maxRecDepth 8192 in
set_option maxHeartbeats 4000000 in
theorem val9_main_v205 (m : (ℓ : Loc nD τ sig) → Buf (Elt F) ℓ) (c : Dev nD) : val9 m c (no_index (Proc.devRef .tc main_v205)) = st_main_v205 m c := by
  unfold val9
  simp only [ops9]
  after_results_simp
  try simp only [TRef.ofBuf, TRef.toBuf, cast_eq]
  try simp only [val8_main_arg7]
  all_goals rfl
set_option maxRecDepth 8192 in
set_option maxHeartbeats 4000000 in
theorem val9_main_v206 (m : (ℓ : Loc nD τ sig) → Buf (Elt F) ℓ) (c : Dev nD) : val9 m c (no_index (Proc.devRef .tc main_v206)) = st_main_v206 m c := by
  unfold val9
  simp only [ops9]
  after_results_simp
  try simp only [TRef.ofBuf, TRef.toBuf, cast_eq]
  all_goals rfl

/-- The device's buffer contents after the first 10 windows. -/
def val10 (m : (ℓ : Loc nD τ sig) → Buf (Elt F) ℓ) (c : Dev nD) : Valuation τ sig (Elt F) := after ops10 (val9 m c)
/-- The buffers that window 10's operations write. -/
abbrev ops10_W : List (Ref sig .tc) := [main_v207, main_v208, main_v209, main_v210, main_v211, main_v212, main_cst_31, main_v213, main_v214, main_v215, main_v216, main_v217, main_v218, main_v219, main_v220, main_v221, main_v222, main_v223, main_v224, main_v225, main_v226, main_v227, main_v228, main_v229]
set_option maxRecDepth 8192 in
theorem ops10_writes : (ops10 : List (HloOp τ sig (Elt F))).Forall fun op => op.writes ⊆ (ops10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 10 does not write keeps its contents through it. -/
theorem val10_keep (m : (ℓ : Loc nD τ sig) → Buf (Elt F) ℓ) (c : Dev nD) (r : Ref sig .tc) (h : r ∉ ops10_W) :
    val10 m c (Proc.devRef .tc r) = val9 m c (Proc.devRef .tc r) :=
  after_of_writes_sub ops10 _ ops10_writes h
theorem val10_main_arg5 (m : (ℓ : Loc nD τ sig) → Buf (Elt F) ℓ) (c : Dev nD) : val10 m c (no_index (Proc.devRef .tc main_arg5)) = m ((c.tc : Thread nD τ).loc main_arg5) :=
  (val10_keep m c main_arg5 (by decide)).trans (val9_main_arg5 m c)
theorem val10_main_arg6 (m : (ℓ : Loc nD τ sig) → Buf (Elt F) ℓ) (c : Dev nD) : val10 m c (no_index (Proc.devRef .tc main_arg6)) = m ((c.tc : Thread nD τ).loc main_arg6) :=
  (val10_keep m c main_arg6 (by decide)).trans (val9_main_arg6 m c)
theorem val10_main_arg7 (m : (ℓ : Loc nD τ sig) → Buf (Elt F) ℓ) (c : Dev nD) : val10 m c (no_index (Proc.devRef .tc main_arg7)) = m ((c.tc : Thread nD τ).loc main_arg7) :=
  (val10_keep m c main_arg7 (by decide)).trans (val9_main_arg7 m c)
theorem val10_main_arg8 (m : (ℓ : Loc nD τ sig) → Buf (Elt F) ℓ) (c : Dev nD) : val10 m c (no_index (Proc.devRef .tc main_arg8)) = m ((c.tc : Thread nD τ).loc main_arg8) :=
  (val10_keep m c main_arg8 (by decide)).trans (val9_main_arg8 m c)
theorem val10_main_arg9 (m : (ℓ : Loc nD τ sig) → Buf (Elt F) ℓ) (c : Dev nD) : val10 m c (no_index (Proc.devRef .tc main_arg9)) = m ((c.tc : Thread nD τ).loc main_arg9) :=
  (val10_keep m c main_arg9 (by decide)).trans (val9_main_arg9 m c)
theorem val10_main_arg10 (m : (ℓ : Loc nD τ sig) → Buf (Elt F) ℓ) (c : Dev nD) : val10 m c (no_index (Proc.devRef .tc main_arg10)) = m ((c.tc : Thread nD τ).loc main_arg10) :=
  (val10_keep m c main_arg10 (by decide)).trans (val9_main_arg10 m c)
theorem val10_main_arg11 (m : (ℓ : Loc nD τ sig) → Buf (Elt F) ℓ) (c : Dev nD) : val10 m c (no_index (Proc.devRef .tc main_arg11)) = m ((c.tc : Thread nD τ).loc main_arg11) :=
  (val10_keep m c main_arg11 (by decide)).trans (val9_main_arg11 m c)
theorem val10_main_arg12 (m : (ℓ : Loc nD τ sig) → Buf (Elt F) ℓ) (c : Dev nD) : val10 m c (no_index (Proc.devRef .tc main_arg12)) = m ((c.tc : Thread nD τ).loc main_arg12) :=
  (val10_keep m c main_arg12 (by decide)).trans (val9_main_arg12 m c)
theorem val10_main_v28 (m : (ℓ : Loc nD τ sig) → Buf (Elt F) ℓ) (c : Dev nD) : val10 m c (no_index (Proc.devRef .tc main_v28)) = st_main_v28 m c :=
  (val10_keep m c main_v28 (by decide)).trans (val9_main_v28 m c)
theorem val10_main_v200 (m : (ℓ : Loc nD τ sig) → Buf (Elt F) ℓ) (c : Dev nD) : val10 m c (no_index (Proc.devRef .tc main_v200)) = st_main_v200 m c :=
  (val10_keep m c main_v200 (by decide)).trans (val9_main_v200 m c)
set_option maxRecDepth 8192 in
set_option maxHeartbeats 4000000 in
theorem val10_main_v229 (m : (ℓ : Loc nD τ sig) → Buf (Elt F) ℓ) (c : Dev nD) : val10 m c (no_index (Proc.devRef .tc main_v229)) = st_main_v229 m c := by
  unfold val10
  simp only [ops10]
  after_results_simp
  try simp only [val9_main_arg6, val9_main_arg5, val9_main_v28, val9_main_v203, val9_main_v206, val9_main_v205, val9_main_v200, val9_main_arg8, val9_main_v201]
  all_goals rfl

/-- The device's buffer contents after the first 11 windows. -/
def val11 (m : (ℓ : Loc nD τ sig) → Buf (Elt F) ℓ) (c : Dev nD) : Valuation τ sig (Elt F) := after ops11 (val10 m c)
/-- The buffers that window 11's operations write. -/
abbrev ops11_W : List (Ref sig .tc) := [main_v230, main_v231, main_c_32, main_v232, main_v233, main_c_33, main_v234, main_v235, main_v236, main_v237, main_v238, main_v239, main_v240, main_cst_34, main_v241, main_v242, main_v243, main_v244, main_v245, main_v246, main_v247, main_v248, main_v249, main_v250, main_v251, main_v252, main_v253, main_v254, main_v255, main_v256, main_v257, main_v258, main_v259, main_c_35, main_v260, main_v261]
set_option maxRecDepth 8192 in
theorem ops11_writes : (ops11 : List (HloOp τ sig (Elt F))).Forall fun op => op.writes ⊆ (ops11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 11 does not write keeps its contents through it. -/
theorem val11_keep (m : (ℓ : Loc nD τ sig) → Buf (Elt F) ℓ) (c : Dev nD) (r : Ref sig .tc) (h : r ∉ ops11_W) :
    val11 m c (Proc.devRef .tc r) = val10 m c (Proc.devRef .tc r) :=
  after_of_writes_sub ops11 _ ops11_writes h
theorem val11_main_arg5 (m : (ℓ : Loc nD τ sig) → Buf (Elt F) ℓ) (c : Dev nD) : val11 m c (no_index (Proc.devRef .tc main_arg5)) = m ((c.tc : Thread nD τ).loc main_arg5) :=
  (val11_keep m c main_arg5 (by decide)).trans (val10_main_arg5 m c)
theorem val11_main_arg6 (m : (ℓ : Loc nD τ sig) → Buf (Elt F) ℓ) (c : Dev nD) : val11 m c (no_index (Proc.devRef .tc main_arg6)) = m ((c.tc : Thread nD τ).loc main_arg6) :=
  (val11_keep m c main_arg6 (by decide)).trans (val10_main_arg6 m c)
theorem val11_main_arg8 (m : (ℓ : Loc nD τ sig) → Buf (Elt F) ℓ) (c : Dev nD) : val11 m c (no_index (Proc.devRef .tc main_arg8)) = m ((c.tc : Thread nD τ).loc main_arg8) :=
  (val11_keep m c main_arg8 (by decide)).trans (val10_main_arg8 m c)
theorem val11_main_arg9 (m : (ℓ : Loc nD τ sig) → Buf (Elt F) ℓ) (c : Dev nD) : val11 m c (no_index (Proc.devRef .tc main_arg9)) = m ((c.tc : Thread nD τ).loc main_arg9) :=
  (val11_keep m c main_arg9 (by decide)).trans (val10_main_arg9 m c)
theorem val11_main_arg10 (m : (ℓ : Loc nD τ sig) → Buf (Elt F) ℓ) (c : Dev nD) : val11 m c (no_index (Proc.devRef .tc main_arg10)) = m ((c.tc : Thread nD τ).loc main_arg10) :=
  (val11_keep m c main_arg10 (by decide)).trans (val10_main_arg10 m c)
theorem val11_main_arg11 (m : (ℓ : Loc nD τ sig) → Buf (Elt F) ℓ) (c : Dev nD) : val11 m c (no_index (Proc.devRef .tc main_arg11)) = m ((c.tc : Thread nD τ).loc main_arg11) :=
  (val11_keep m c main_arg11 (by decide)).trans (val10_main_arg11 m c)
theorem val11_main_arg12 (m : (ℓ : Loc nD τ sig) → Buf (Elt F) ℓ) (c : Dev nD) : val11 m c (no_index (Proc.devRef .tc main_arg12)) = m ((c.tc : Thread nD τ).loc main_arg12) :=
  (val11_keep m c main_arg12 (by decide)).trans (val10_main_arg12 m c)
theorem val11_main_v28 (m : (ℓ : Loc nD τ sig) → Buf (Elt F) ℓ) (c : Dev nD) : val11 m c (no_index (Proc.devRef .tc main_v28)) = st_main_v28 m c :=
  (val11_keep m c main_v28 (by decide)).trans (val10_main_v28 m c)
theorem val11_main_v200 (m : (ℓ : Loc nD τ sig) → Buf (Elt F) ℓ) (c : Dev nD) : val11 m c (no_index (Proc.devRef .tc main_v200)) = st_main_v200 m c :=
  (val11_keep m c main_v200 (by decide)).trans (val10_main_v200 m c)
set_option maxRecDepth 8192 in
set_option maxHeartbeats 4000000 in
theorem val11_main_v257 (m : (ℓ : Loc nD τ sig) → Buf (Elt F) ℓ) (c : Dev nD) : val11 m c (no_index (Proc.devRef .tc main_v257)) = st_main_v257 m c := by
  unfold val11
  simp only [ops11]
  after_results_simp
  try simp only [val10_main_arg6, val10_main_arg5, val10_main_v28, val10_main_arg7, val10_main_v200, val10_main_arg8, val10_main_v229]
  all_goals rfl
set_option maxRecDepth 8192 in
set_option maxHeartbeats 4000000 in
theorem val11_main_v259 (m : (ℓ : Loc nD τ sig) → Buf (Elt F) ℓ) (c : Dev nD) : val11 m c (no_index (Proc.devRef .tc main_v259)) = st_main_v259 m c := by
  unfold val11
  simp only [ops11]
  after_results_simp
  try simp only [val10_main_arg7]
  all_goals rfl
set_option maxRecDepth 8192 in
set_option maxHeartbeats 4000000 in
theorem val11_main_v261 (m : (ℓ : Loc nD τ sig) → Buf (Elt F) ℓ) (c : Dev nD) : val11 m c (no_index (Proc.devRef .tc main_v261)) = st_main_v261 m c := by
  unfold val11
  simp only [ops11]
  after_results_simp
  try simp only [val10_main_arg7]
  all_goals rfl

/-- The device's buffer contents after the first 12 windows. -/
def val12 (m : (ℓ : Loc nD τ sig) → Buf (Elt F) ℓ) (c : Dev nD) : Valuation τ sig (Elt F) := after ops12 (val11 m c)
/-- The buffers that window 12's operations write. -/
abbrev ops12_W : List (Ref sig .tc) := [main_c_36, main_v262, main_v263, main_v264, main_v265, main_v266, main_v267, main_v268, main_cst_37, main_v269, main_v270, main_v271, main_v272, main_v273, main_v274, main_v275, main_v276, main_v277, main_v278, main_v279, main_v280, main_v281, main_v282, main_v283, main_v284, main_v285]
set_option maxRecDepth 8192 in
theorem ops12_writes : (ops12 : List (HloOp τ sig (Elt F))).Forall fun op => op.writes ⊆ (ops12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 12 does not write keeps its contents through it. -/
theorem val12_keep (m : (ℓ : Loc nD τ sig) → Buf (Elt F) ℓ) (c : Dev nD) (r : Ref sig .tc) (h : r ∉ ops12_W) :
    val12 m c (Proc.devRef .tc r) = val11 m c (Proc.devRef .tc r) :=
  after_of_writes_sub ops12 _ ops12_writes h
theorem val12_main_arg9 (m : (ℓ : Loc nD τ sig) → Buf (Elt F) ℓ) (c : Dev nD) : val12 m c (no_index (Proc.devRef .tc main_arg9)) = m ((c.tc : Thread nD τ).loc main_arg9) :=
  (val12_keep m c main_arg9 (by decide)).trans (val11_main_arg9 m c)
theorem val12_main_arg10 (m : (ℓ : Loc nD τ sig) → Buf (Elt F) ℓ) (c : Dev nD) : val12 m c (no_index (Proc.devRef .tc main_arg10)) = m ((c.tc : Thread nD τ).loc main_arg10) :=
  (val12_keep m c main_arg10 (by decide)).trans (val11_main_arg10 m c)
theorem val12_main_arg11 (m : (ℓ : Loc nD τ sig) → Buf (Elt F) ℓ) (c : Dev nD) : val12 m c (no_index (Proc.devRef .tc main_arg11)) = m ((c.tc : Thread nD τ).loc main_arg11) :=
  (val12_keep m c main_arg11 (by decide)).trans (val11_main_arg11 m c)
theorem val12_main_arg12 (m : (ℓ : Loc nD τ sig) → Buf (Elt F) ℓ) (c : Dev nD) : val12 m c (no_index (Proc.devRef .tc main_arg12)) = m ((c.tc : Thread nD τ).loc main_arg12) :=
  (val12_keep m c main_arg12 (by decide)).trans (val11_main_arg12 m c)
set_option maxRecDepth 8192 in
set_option maxHeartbeats 4000000 in
theorem val12_main_v285 (m : (ℓ : Loc nD τ sig) → Buf (Elt F) ℓ) (c : Dev nD) : val12 m c (no_index (Proc.devRef .tc main_v285)) = st_main_v285 m c := by
  unfold val12
  simp only [ops12]
  after_results_simp
  try simp only [val11_main_arg6, val11_main_arg5, val11_main_v28, val11_main_v259, val11_main_v261, val11_main_v200, val11_main_arg8, val11_main_v257]
  all_goals rfl

/-- The device's buffer contents after the first 13 windows. -/
def val13 (m : (ℓ : Loc nD τ sig) → Buf (Elt F) ℓ) (c : Dev nD) : Valuation τ sig (Elt F) := after ops13 (val12 m c)
/-- The buffers that window 13's operations write. -/
abbrev ops13_W : List (Ref sig .tc) := [main_call5_cst, main_call5_v0, main_v286, main_c_38, main_v287, main_v288, main_c_39, main_v289, main_v290, main_v291, main_v292, main_v293, main_c_40, main_v294, main_v295, main_c_41, main_v296, main_v297, main_v298, main_v299, main_v300, main_v301, main_cst_42, main_v302, main_c_43, main_v303, main_v304, main_c_44, main_v305, main_v306, main_v307, main_v308, main_v309, main_c_45, main_v310, main_v311]
set_option maxRecDepth 8192 in
theorem ops13_writes : (ops13 : List (HloOp τ sig (Elt F))).Forall fun op => op.writes ⊆ (ops13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 13 does not write keeps its contents through it. -/
theorem val13_keep (m : (ℓ : Loc nD τ sig) → Buf (Elt F) ℓ) (c : Dev nD) (r : Ref sig .tc) (h : r ∉ ops13_W) :
    val13 m c (Proc.devRef .tc r) = val12 m c (Proc.devRef .tc r) :=
  after_of_writes_sub ops13 _ ops13_writes h
theorem val13_main_arg12 (m : (ℓ : Loc nD τ sig) → Buf (Elt F) ℓ) (c : Dev nD) : val13 m c (no_index (Proc.devRef .tc main_arg12)) = m ((c.tc : Thread nD τ).loc main_arg12) :=
  (val13_keep m c main_arg12 (by decide)).trans (val12_main_arg12 m c)
set_option maxRecDepth 8192 in
set_option maxHeartbeats 4000000 in
theorem val13_main_v286 (m : (ℓ : Loc nD τ sig) → Buf (Elt F) ℓ) (c : Dev nD) : val13 m c (no_index (Proc.devRef .tc main_v286)) = st_main_v286 m c := by
  unfold val13
  simp only [ops13]
  after_results_simp
  try simp only [TRef.ofBuf, TRef.toBuf, cast_eq]
  try simp only [val12_main_v285]
  all_goals rfl
set_option maxRecDepth 8192 in
set_option maxHeartbeats 4000000 in
theorem val13_main_v302 (m : (ℓ : Loc nD τ sig) → Buf (Elt F) ℓ) (c : Dev nD) : val13 m c (no_index (Proc.devRef .tc main_v302)) = st_main_v302 m c := by
  unfold val13
  simp only [ops13]
  after_results_simp
  try simp only [TRef.ofBuf, TRef.toBuf, cast_eq]
  try simp only [val12_main_arg10, val12_main_v285, val12_main_arg9]
  all_goals rfl
set_option maxRecDepth 8192 in
set_option maxHeartbeats 4000000 in
theorem val13_main_v309 (m : (ℓ : Loc nD τ sig) → Buf (Elt F) ℓ) (c : Dev nD) : val13 m c (no_index (Proc.devRef .tc main_v309)) = st_main_v309 m c := by
  unfold val13
  simp only [ops13]
  after_results_simp
  try simp only [TRef.ofBuf, TRef.toBuf, cast_eq]
  try simp only [val12_main_arg11, val12_main_v285]
  all_goals rfl
set_option maxRecDepth 8192 in
set_option maxHeartbeats 4000000 in
theorem val13_main_v311 (m : (ℓ : Loc nD τ sig) → Buf (Elt F) ℓ) (c : Dev nD) : val13 m c (no_index (Proc.devRef .tc main_v311)) = st_main_v311 m c := by
  unfold val13
  simp only [ops13]
  after_results_simp
  try simp only [TRef.ofBuf, TRef.toBuf, cast_eq]
  try simp only [val12_main_arg12]
  all_goals rfl

/-- The device's buffer contents after the first 14 windows. -/
def val14 (m : (ℓ : Loc nD τ sig) → Buf (Elt F) ℓ) (c : Dev nD) : Valuation τ sig (Elt F) := after ops14 (val13 m c)
/-- The buffers that window 14's operations write. -/
abbrev ops14_W : List (Ref sig .tc) := [main_c_46, main_v312, main_v313, main_v314, main_v315, main_v316, main_v317, main_cst_47, main_v318]
set_option maxRecDepth 8192 in
theorem ops14_writes : (ops14 : List (HloOp τ sig (Elt F))).Forall fun op => op.writes ⊆ (ops14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 14 does not write keeps its contents through it. -/
theorem val14_keep (m : (ℓ : Loc nD τ sig) → Buf (Elt F) ℓ) (c : Dev nD) (r : Ref sig .tc) (h : r ∉ ops14_W) :
    val14 m c (Proc.devRef .tc r) = val13 m c (Proc.devRef .tc r) :=
  after_of_writes_sub ops14 _ ops14_writes h
theorem val14_main_v302 (m : (ℓ : Loc nD τ sig) → Buf (Elt F) ℓ) (c : Dev nD) : val14 m c (no_index (Proc.devRef .tc main_v302)) = st_main_v302 m c :=
  (val14_keep m c main_v302 (by decide)).trans (val13_main_v302 m c)
set_option maxRecDepth 8192 in
set_option maxHeartbeats 4000000 in
theorem val14_main_v318 (m : (ℓ : Loc nD τ sig) → Buf (Elt F) ℓ) (c : Dev nD) : val14 m c (no_index (Proc.devRef .tc main_v318)) = st_main_v318 m c := by
  unfold val14
  simp only [ops14]
  after_results_simp
  try simp only [val13_main_arg12, val13_main_v311, val13_main_v286, val13_main_v309]
  all_goals rfl

theorem after_ops (m : (ℓ : Loc nD τ sig) → Buf (Elt F) ℓ) (c : Dev nD) : after ops (launchContents m c) = val14 m c := by
  simp only [ops, opsP0, opsP1, opsP2, opsP3, opsP4, opsP5, opsP6, after_app]
  rfl

/-! An argument's buffer is written by no window. -/
theorem val14_arg_main_arg0 (m : (ℓ : Loc nD τ sig) → Buf (Elt F) ℓ) (c : Dev nD) : val14 m c (Proc.devRef .tc main_arg0) = m ((c.tc : Thread nD τ).loc main_arg0) :=
  (val14_keep m c main_arg0 (by decide)).trans ((val13_keep m c main_arg0 (by decide)).trans ((val12_keep m c main_arg0 (by decide)).trans ((val11_keep m c main_arg0 (by decide)).trans ((val10_keep m c main_arg0 (by decide)).trans ((val9_keep m c main_arg0 (by decide)).trans ((val8_keep m c main_arg0 (by decide)).trans ((val7_keep m c main_arg0 (by decide)).trans ((val6_keep m c main_arg0 (by decide)).trans ((val5_keep m c main_arg0 (by decide)).trans ((val4_keep m c main_arg0 (by decide)).trans ((val3_keep m c main_arg0 (by decide)).trans ((val2_keep m c main_arg0 (by decide)).trans ((val1_keep m c main_arg0 (by decide)).trans (rfl))))))))))))))
theorem val14_arg_main_arg1 (m : (ℓ : Loc nD τ sig) → Buf (Elt F) ℓ) (c : Dev nD) : val14 m c (Proc.devRef .tc main_arg1) = m ((c.tc : Thread nD τ).loc main_arg1) :=
  (val14_keep m c main_arg1 (by decide)).trans ((val13_keep m c main_arg1 (by decide)).trans ((val12_keep m c main_arg1 (by decide)).trans ((val11_keep m c main_arg1 (by decide)).trans ((val10_keep m c main_arg1 (by decide)).trans ((val9_keep m c main_arg1 (by decide)).trans ((val8_keep m c main_arg1 (by decide)).trans ((val7_keep m c main_arg1 (by decide)).trans ((val6_keep m c main_arg1 (by decide)).trans ((val5_keep m c main_arg1 (by decide)).trans ((val4_keep m c main_arg1 (by decide)).trans ((val3_keep m c main_arg1 (by decide)).trans ((val2_keep m c main_arg1 (by decide)).trans ((val1_keep m c main_arg1 (by decide)).trans (rfl))))))))))))))
theorem val14_arg_main_arg2 (m : (ℓ : Loc nD τ sig) → Buf (Elt F) ℓ) (c : Dev nD) : val14 m c (Proc.devRef .tc main_arg2) = m ((c.tc : Thread nD τ).loc main_arg2) :=
  (val14_keep m c main_arg2 (by decide)).trans ((val13_keep m c main_arg2 (by decide)).trans ((val12_keep m c main_arg2 (by decide)).trans ((val11_keep m c main_arg2 (by decide)).trans ((val10_keep m c main_arg2 (by decide)).trans ((val9_keep m c main_arg2 (by decide)).trans ((val8_keep m c main_arg2 (by decide)).trans ((val7_keep m c main_arg2 (by decide)).trans ((val6_keep m c main_arg2 (by decide)).trans ((val5_keep m c main_arg2 (by decide)).trans ((val4_keep m c main_arg2 (by decide)).trans ((val3_keep m c main_arg2 (by decide)).trans ((val2_keep m c main_arg2 (by decide)).trans ((val1_keep m c main_arg2 (by decide)).trans (rfl))))))))))))))
theorem val14_arg_main_arg3 (m : (ℓ : Loc nD τ sig) → Buf (Elt F) ℓ) (c : Dev nD) : val14 m c (Proc.devRef .tc main_arg3) = m ((c.tc : Thread nD τ).loc main_arg3) :=
  (val14_keep m c main_arg3 (by decide)).trans ((val13_keep m c main_arg3 (by decide)).trans ((val12_keep m c main_arg3 (by decide)).trans ((val11_keep m c main_arg3 (by decide)).trans ((val10_keep m c main_arg3 (by decide)).trans ((val9_keep m c main_arg3 (by decide)).trans ((val8_keep m c main_arg3 (by decide)).trans ((val7_keep m c main_arg3 (by decide)).trans ((val6_keep m c main_arg3 (by decide)).trans ((val5_keep m c main_arg3 (by decide)).trans ((val4_keep m c main_arg3 (by decide)).trans ((val3_keep m c main_arg3 (by decide)).trans ((val2_keep m c main_arg3 (by decide)).trans ((val1_keep m c main_arg3 (by decide)).trans (rfl))))))))))))))
theorem val14_arg_main_arg4 (m : (ℓ : Loc nD τ sig) → Buf (Elt F) ℓ) (c : Dev nD) : val14 m c (Proc.devRef .tc main_arg4) = m ((c.tc : Thread nD τ).loc main_arg4) :=
  (val14_keep m c main_arg4 (by decide)).trans ((val13_keep m c main_arg4 (by decide)).trans ((val12_keep m c main_arg4 (by decide)).trans ((val11_keep m c main_arg4 (by decide)).trans ((val10_keep m c main_arg4 (by decide)).trans ((val9_keep m c main_arg4 (by decide)).trans ((val8_keep m c main_arg4 (by decide)).trans ((val7_keep m c main_arg4 (by decide)).trans ((val6_keep m c main_arg4 (by decide)).trans ((val5_keep m c main_arg4 (by decide)).trans ((val4_keep m c main_arg4 (by decide)).trans ((val3_keep m c main_arg4 (by decide)).trans ((val2_keep m c main_arg4 (by decide)).trans ((val1_keep m c main_arg4 (by decide)).trans (rfl))))))))))))))
theorem val14_arg_main_arg5 (m : (ℓ : Loc nD τ sig) → Buf (Elt F) ℓ) (c : Dev nD) : val14 m c (Proc.devRef .tc main_arg5) = m ((c.tc : Thread nD τ).loc main_arg5) :=
  (val14_keep m c main_arg5 (by decide)).trans ((val13_keep m c main_arg5 (by decide)).trans ((val12_keep m c main_arg5 (by decide)).trans ((val11_keep m c main_arg5 (by decide)).trans ((val10_keep m c main_arg5 (by decide)).trans ((val9_keep m c main_arg5 (by decide)).trans ((val8_keep m c main_arg5 (by decide)).trans ((val7_keep m c main_arg5 (by decide)).trans ((val6_keep m c main_arg5 (by decide)).trans ((val5_keep m c main_arg5 (by decide)).trans ((val4_keep m c main_arg5 (by decide)).trans ((val3_keep m c main_arg5 (by decide)).trans ((val2_keep m c main_arg5 (by decide)).trans ((val1_keep m c main_arg5 (by decide)).trans (rfl))))))))))))))
theorem val14_arg_main_arg6 (m : (ℓ : Loc nD τ sig) → Buf (Elt F) ℓ) (c : Dev nD) : val14 m c (Proc.devRef .tc main_arg6) = m ((c.tc : Thread nD τ).loc main_arg6) :=
  (val14_keep m c main_arg6 (by decide)).trans ((val13_keep m c main_arg6 (by decide)).trans ((val12_keep m c main_arg6 (by decide)).trans ((val11_keep m c main_arg6 (by decide)).trans ((val10_keep m c main_arg6 (by decide)).trans ((val9_keep m c main_arg6 (by decide)).trans ((val8_keep m c main_arg6 (by decide)).trans ((val7_keep m c main_arg6 (by decide)).trans ((val6_keep m c main_arg6 (by decide)).trans ((val5_keep m c main_arg6 (by decide)).trans ((val4_keep m c main_arg6 (by decide)).trans ((val3_keep m c main_arg6 (by decide)).trans ((val2_keep m c main_arg6 (by decide)).trans ((val1_keep m c main_arg6 (by decide)).trans (rfl))))))))))))))
theorem val14_arg_main_arg7 (m : (ℓ : Loc nD τ sig) → Buf (Elt F) ℓ) (c : Dev nD) : val14 m c (Proc.devRef .tc main_arg7) = m ((c.tc : Thread nD τ).loc main_arg7) :=
  (val14_keep m c main_arg7 (by decide)).trans ((val13_keep m c main_arg7 (by decide)).trans ((val12_keep m c main_arg7 (by decide)).trans ((val11_keep m c main_arg7 (by decide)).trans ((val10_keep m c main_arg7 (by decide)).trans ((val9_keep m c main_arg7 (by decide)).trans ((val8_keep m c main_arg7 (by decide)).trans ((val7_keep m c main_arg7 (by decide)).trans ((val6_keep m c main_arg7 (by decide)).trans ((val5_keep m c main_arg7 (by decide)).trans ((val4_keep m c main_arg7 (by decide)).trans ((val3_keep m c main_arg7 (by decide)).trans ((val2_keep m c main_arg7 (by decide)).trans ((val1_keep m c main_arg7 (by decide)).trans (rfl))))))))))))))
theorem val14_arg_main_arg8 (m : (ℓ : Loc nD τ sig) → Buf (Elt F) ℓ) (c : Dev nD) : val14 m c (Proc.devRef .tc main_arg8) = m ((c.tc : Thread nD τ).loc main_arg8) :=
  (val14_keep m c main_arg8 (by decide)).trans ((val13_keep m c main_arg8 (by decide)).trans ((val12_keep m c main_arg8 (by decide)).trans ((val11_keep m c main_arg8 (by decide)).trans ((val10_keep m c main_arg8 (by decide)).trans ((val9_keep m c main_arg8 (by decide)).trans ((val8_keep m c main_arg8 (by decide)).trans ((val7_keep m c main_arg8 (by decide)).trans ((val6_keep m c main_arg8 (by decide)).trans ((val5_keep m c main_arg8 (by decide)).trans ((val4_keep m c main_arg8 (by decide)).trans ((val3_keep m c main_arg8 (by decide)).trans ((val2_keep m c main_arg8 (by decide)).trans ((val1_keep m c main_arg8 (by decide)).trans (rfl))))))))))))))
theorem val14_arg_main_arg9 (m : (ℓ : Loc nD τ sig) → Buf (Elt F) ℓ) (c : Dev nD) : val14 m c (Proc.devRef .tc main_arg9) = m ((c.tc : Thread nD τ).loc main_arg9) :=
  (val14_keep m c main_arg9 (by decide)).trans ((val13_keep m c main_arg9 (by decide)).trans ((val12_keep m c main_arg9 (by decide)).trans ((val11_keep m c main_arg9 (by decide)).trans ((val10_keep m c main_arg9 (by decide)).trans ((val9_keep m c main_arg9 (by decide)).trans ((val8_keep m c main_arg9 (by decide)).trans ((val7_keep m c main_arg9 (by decide)).trans ((val6_keep m c main_arg9 (by decide)).trans ((val5_keep m c main_arg9 (by decide)).trans ((val4_keep m c main_arg9 (by decide)).trans ((val3_keep m c main_arg9 (by decide)).trans ((val2_keep m c main_arg9 (by decide)).trans ((val1_keep m c main_arg9 (by decide)).trans (rfl))))))))))))))
theorem val14_arg_main_arg10 (m : (ℓ : Loc nD τ sig) → Buf (Elt F) ℓ) (c : Dev nD) : val14 m c (Proc.devRef .tc main_arg10) = m ((c.tc : Thread nD τ).loc main_arg10) :=
  (val14_keep m c main_arg10 (by decide)).trans ((val13_keep m c main_arg10 (by decide)).trans ((val12_keep m c main_arg10 (by decide)).trans ((val11_keep m c main_arg10 (by decide)).trans ((val10_keep m c main_arg10 (by decide)).trans ((val9_keep m c main_arg10 (by decide)).trans ((val8_keep m c main_arg10 (by decide)).trans ((val7_keep m c main_arg10 (by decide)).trans ((val6_keep m c main_arg10 (by decide)).trans ((val5_keep m c main_arg10 (by decide)).trans ((val4_keep m c main_arg10 (by decide)).trans ((val3_keep m c main_arg10 (by decide)).trans ((val2_keep m c main_arg10 (by decide)).trans ((val1_keep m c main_arg10 (by decide)).trans (rfl))))))))))))))
theorem val14_arg_main_arg11 (m : (ℓ : Loc nD τ sig) → Buf (Elt F) ℓ) (c : Dev nD) : val14 m c (Proc.devRef .tc main_arg11) = m ((c.tc : Thread nD τ).loc main_arg11) :=
  (val14_keep m c main_arg11 (by decide)).trans ((val13_keep m c main_arg11 (by decide)).trans ((val12_keep m c main_arg11 (by decide)).trans ((val11_keep m c main_arg11 (by decide)).trans ((val10_keep m c main_arg11 (by decide)).trans ((val9_keep m c main_arg11 (by decide)).trans ((val8_keep m c main_arg11 (by decide)).trans ((val7_keep m c main_arg11 (by decide)).trans ((val6_keep m c main_arg11 (by decide)).trans ((val5_keep m c main_arg11 (by decide)).trans ((val4_keep m c main_arg11 (by decide)).trans ((val3_keep m c main_arg11 (by decide)).trans ((val2_keep m c main_arg11 (by decide)).trans ((val1_keep m c main_arg11 (by decide)).trans (rfl))))))))))))))
theorem val14_arg_main_arg12 (m : (ℓ : Loc nD τ sig) → Buf (Elt F) ℓ) (c : Dev nD) : val14 m c (Proc.devRef .tc main_arg12) = m ((c.tc : Thread nD τ).loc main_arg12) :=
  (val14_keep m c main_arg12 (by decide)).trans ((val13_keep m c main_arg12 (by decide)).trans ((val12_keep m c main_arg12 (by decide)).trans ((val11_keep m c main_arg12 (by decide)).trans ((val10_keep m c main_arg12 (by decide)).trans ((val9_keep m c main_arg12 (by decide)).trans ((val8_keep m c main_arg12 (by decide)).trans ((val7_keep m c main_arg12 (by decide)).trans ((val6_keep m c main_arg12 (by decide)).trans ((val5_keep m c main_arg12 (by decide)).trans ((val4_keep m c main_arg12 (by decide)).trans ((val3_keep m c main_arg12 (by decide)).trans ((val2_keep m c main_arg12 (by decide)).trans ((val1_keep m c main_arg12 (by decide)).trans (rfl))))))))))))))

/-! ## The results' composed terms -/

set_option maxRecDepth 100000 in
set_option maxHeartbeats 40000000 in
/-- `main_v318`'s composed term of the arguments. -/
def res_main_v318 (m : (ℓ : Loc nD τ sig) → Buf (Elt F) ℓ) (c : Dev nD) : Buf (Elt F) ((c.tc : Thread nD τ).loc main_v318) :=
  Host.reduceAdd (mulf (Host.gather gather_S100000x64_S500000x1_S500000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg3)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg4)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg3)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg4)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg3)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg4)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg5)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg6)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg3)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg4)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg3)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg4)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg3)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg4)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg5)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg6)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg3)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg4)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg3)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg4)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg3)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg4)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg5)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg6)) slices_S3x64_S1x64_2_0) shapeCasts_S1x64_S64)))) (broadcastInDim S100000x64 ![] bcast_S_S100000x64 (constant S_ .f32 0x00000000#32))) (broadcastInDim S500000x1 ![0] bcast_S500000_S500000x1_0 (select (cmpi .slt (m ((c.tc : Thread nD τ).loc main_arg11)) (broadcastInDim S500000 ![] bcast_S_S500000 (constantI S_ 32 0#32))) (addi (m ((c.tc : Thread nD τ).loc main_arg11)) (broadcastInDim S500000 ![] bcast_S_S500000 (constantI S_ 32 100000#32))) (m ((c.tc : Thread nD τ).loc main_arg11))))) (Host.gather gather_S100000x64_S500000x1_S500000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg3)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg4)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg3)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg4)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg3)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg4)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg5)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg6)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg3)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg4)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg3)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg4)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg3)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg4)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg5)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg6)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg3)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg4)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg3)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg4)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg3)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg4)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg5)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg6)) slices_S3x64_S1x64_2_0) shapeCasts_S1x64_S64)))) (broadcastInDim S100000x64 ![] bcast_S_S100000x64 (constant S_ .f32 0x00000000#32))) (broadcastInDim S500000x1 ![0] bcast_S500000_S500000x1_0 (select (cmpi .slt (m ((c.tc : Thread nD τ).loc main_arg12)) (broadcastInDim S500000 ![] bcast_S_S500000 (constantI S_ 32 0#32))) (addi (m ((c.tc : Thread nD τ).loc main_arg12)) (broadcastInDim S500000 ![] bcast_S_S500000 (constantI S_ 32 100000#32))) (m ((c.tc : Thread nD τ).loc main_arg12)))))) (constant S_ .f32 0x00000000#32) reducesTo_S500000x64_S500000_d1 h_S_

/-- `res_main_v318` by its position among the values @main returns, 1 counting from 0. -/
abbrev res_out1 (m : (ℓ : Loc nD τ sig) → Buf (Elt F) ℓ) (c : Dev nD) : Buf (Elt F) ((c.tc : Thread nD τ).loc main_v318) := res_main_v318 m c

set_option maxRecDepth 100000 in
set_option maxHeartbeats 40000000 in
/-- The stage value of `main_v318` is its composed term: every stage value unfolds to its operation's function of its operands'. -/
theorem st_main_v318_eq (m : (ℓ : Loc nD τ sig) → Buf (Elt F) ℓ) (c : Dev nD) : st_main_v318 m c = res_main_v318 m c := rfl

set_option maxRecDepth 100000 in
set_option maxHeartbeats 40000000 in
/-- `main_v302`'s composed term of the arguments. -/
def res_main_v302 (m : (ℓ : Loc nD τ sig) → Buf (Elt F) ℓ) (c : Dev nD) : Buf (Elt F) ((c.tc : Thread nD τ).loc main_v302) :=
  Host.reduceAdd (mulf (Host.gather gather_S100000x64_S500000x1_S500000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg3)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg4)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg3)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg4)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg3)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg4)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg5)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg6)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg3)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg4)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg3)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg4)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg3)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg4)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg5)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg6)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg3)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg4)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg3)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg4)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg3)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg4)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg5)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg6)) slices_S3x64_S1x64_2_0) shapeCasts_S1x64_S64)))) (broadcastInDim S100000x64 ![] bcast_S_S100000x64 (constant S_ .f32 0x00000000#32))) (broadcastInDim S500000x1 ![0] bcast_S500000_S500000x1_0 (select (cmpi .slt (m ((c.tc : Thread nD τ).loc main_arg9)) (broadcastInDim S500000 ![] bcast_S_S500000 (constantI S_ 32 0#32))) (addi (m ((c.tc : Thread nD τ).loc main_arg9)) (broadcastInDim S500000 ![] bcast_S_S500000 (constantI S_ 32 100000#32))) (m ((c.tc : Thread nD τ).loc main_arg9))))) (Host.gather gather_S100000x64_S500000x1_S500000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg3)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg4)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg3)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg4)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg3)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg4)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg5)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg6)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg3)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg4)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg3)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg4)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg3)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg4)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg5)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg6)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg3)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg4)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg3)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg4)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (maximumf (addf (addf (addf (addf (addf (addf (broadcastInDim S100000x64 ![] bcast_S_S100000x64 (constant S_ .f32 0x00000000#32)) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg7)) slices_S3x1000000_S1x1000000_0_0) shapeCasts_S1x1000000_S1000000) (broadcastInDim S1000000 ![] bcast_S_S1000000 (constantI S_ 32 100000#32))) (shapeCast _ (extractStridedSlice S1x1000000 ![0, 0] (m ((c.tc : Thread nD τ).loc main_arg7)) slices_S3x1000000_S1x1000000_0_0) shapeCasts_S1x1000000_S1000000))))) (broadcastInDim S100000x64 ![0, 1] bcast_S100000x1_S100000x64_0_1 (broadcastInDim S100000x1 ![0] bcast_S100000_S100000x1_0 (shapeCast _ (extractStridedSlice S1x100000 ![0, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_0_0) shapeCasts_S1x100000_S100000)))) (shapeCast _ (extractStridedSlice S1x64x64 ![0, 0, 0] (m ((c.tc : Thread nD τ).loc main_arg1)) slices_S3x64x64_S1x64x64_0_0_0) shapeCasts_S1x64x64_S64x64))) (broadcastInDim S100000x64 ![0, 1] bcast_S1x64_S100000x64_0_1 (broadcastInDim S1x64 ![1] bcast_S64_S1x64_1 (shapeCast _ (extractStridedSlice S1x64 ![0, 0] (m ((c.tc : Thread nD τ).loc main_arg2)) slices_S3x64_S1x64_0_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 0#32))) (addi (shapeCast _ (extractStridedSlice S1x1000000 ![1, 0] (m ((c.tc : Thread nD τ).loc main_arg7)) slices_S3x1000000_S1x1000000_1_0) shapeCasts_S1x1000000_S1000000) (broadcastInDim S1000000 ![] bcast_S_S1000000 (constantI S_ 32 100000#32))) (shapeCast _ (extractStridedSlice S1x1000000 ![1, 0] (m ((c.tc : Thread nD τ).loc main_arg7)) slices_S3x1000000_S1x1000000_1_0) shapeCasts_S1x1000000_S1000000))))) (broadcastInDim S100000x64 ![0, 1] bcast_S100000x1_S100000x64_0_1 (broadcastInDim S100000x1 ![0] bcast_S100000_S100000x1_0 (shapeCast _ (extractStridedSlice S1x100000 ![1, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_1_0) shapeCasts_S1x100000_S100000)))) (shapeCast _ (extractStridedSlice S1x64x64 ![1, 0, 0] (m ((c.tc : Thread nD τ).loc main_arg1)) slices_S3x64x64_S1x64x64_1_0_0) shapeCasts_S1x64x64_S64x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg2)) slices_S3x64_S1x64_1_0) shapeCasts_S1x64_S64)))) (Host.dotGeneral dot_S100000x64_S64x64_S100000x64_1_0_0_1_n_n none (mulf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (Host.gather gather_S100000x64_S1000000x1_S1000000x64_1_0_n_n_0_1_164 (m ((c.tc : Thread nD τ).loc main_arg0)) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg1)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg2)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg3)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg4)) slices_S3x64_S1x64_2_0) shapeCasts_S1x64_S64)))) (broadcastInDim S100000x64 ![] bcast_S_S100000x64 (constant S_ .f32 0x00000000#32))) (broadcastInDim S1000000x1 ![0] bcast_S1000000_S1000000x1_0 (select (cmpi .slt (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 0#32))) (addi (shapeCast _ (extractStridedSlice S1x1000000 ![2, 0] (m ((c.tc : Thread nD τ).loc main_arg7)) slices_S3x1000000_S1x1000000_2_0) shapeCasts_S1x1000000_S1000000) (broadcastInDim S1000000 ![] bcast_S_S1000000 (constantI S_ 32 100000#32))) (shapeCast _ (extractStridedSlice S1x1000000 ![2, 0] (m ((c.tc : Thread nD τ).loc main_arg7)) slices_S3x1000000_S1x1000000_2_0) shapeCasts_S1x1000000_S1000000))))) (broadcastInDim S100000x64 ![0, 1] bcast_S100000x1_S100000x64_0_1 (broadcastInDim S100000x1 ![0] bcast_S100000_S100000x1_0 (shapeCast _ (extractStridedSlice S1x100000 ![2, 0] (concatenate S3x100000 0 [⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (m ((c.tc : Thread nD τ).loc main_arg8)) slices_S3x1000000_S1x1000000_0_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] (m ((c.tc : Thread nD τ).loc main_arg8)) slices_S3x1000000_S1x1000000_1_0) shapeCasts_S1x1000000_S1000000)) (broadcastInDim S1000000 ![] bcast_S_S1000000 (constant S_ .f32 0x3F800000#32))))))⟩, ⟨S1x100000, (broadcastInDim S1x100000 ![1] bcast_S100000_S1x100000_1 (Host.divf (broadcastInDim S100000 ![] bcast_S_S100000 (constant S_ .f32 0x3F800000#32)) (maximumf (broadcastInDim S100000 ![] bcast_S_S100000 (id (constant S_ .f32 0x3F800000#32))) (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![2, 0] (m ((c.tc : Thread nD τ).loc main_arg8)) slices_S3x1000000_S1x1000000_2_0) shapeCasts_S1x1000000_S1000000)) (broadcastInDim S1000000 ![] bcast_S_S1000000 (constant S_ .f32 0x3F800000#32))))))⟩] concatenates_S1x100000_S1x100000_S1x100000_S3x100000_d0) slices_S3x100000_S1x100000_2_0) shapeCasts_S1x100000_S100000)))) (shapeCast _ (extractStridedSlice S1x64x64 ![2, 0, 0] (m ((c.tc : Thread nD τ).loc main_arg5)) slices_S3x64x64_S1x64x64_2_0_0) shapeCasts_S1x64x64_S64x64))) (broadcastInDim S100000x64 ![0, 1] bcast_S1x64_S100000x64_0_1 (broadcastInDim S1x64 ![1] bcast_S64_S1x64_1 (shapeCast _ (extractStridedSlice S1x64 ![2, 0] (m ((c.tc : Thread nD τ).loc main_arg6)) slices_S3x64_S1x64_2_0) shapeCasts_S1x64_S64)))) (broadcastInDim S100000x64 ![] bcast_S_S100000x64 (constant S_ .f32 0x00000000#32))) (broadcastInDim S500000x1 ![0] bcast_S500000_S500000x1_0 (select (cmpi .slt (m ((c.tc : Thread nD τ).loc main_arg10)) (broadcastInDim S500000 ![] bcast_S_S500000 (constantI S_ 32 0#32))) (addi (m ((c.tc : Thread nD τ).loc main_arg10)) (broadcastInDim S500000 ![] bcast_S_S500000 (constantI S_ 32 100000#32))) (m ((c.tc : Thread nD τ).loc main_arg10)))))) (constant S_ .f32 0x00000000#32) reducesTo_S500000x64_S500000_d1 h_S_

/-- `res_main_v302` by its position among the values @main returns, 0 counting from 0. -/
abbrev res_out0 (m : (ℓ : Loc nD τ sig) → Buf (Elt F) ℓ) (c : Dev nD) : Buf (Elt F) ((c.tc : Thread nD τ).loc main_v302) := res_main_v302 m c

set_option maxRecDepth 100000 in
set_option maxHeartbeats 40000000 in
/-- The stage value of `main_v302` is its composed term: every stage value unfolds to its operation's function of its operands'. -/
theorem st_main_v302_eq (m : (ℓ : Loc nD τ sig) → Buf (Elt F) ℓ) (c : Dev nD) : st_main_v302 m c = res_main_v302 m c := rfl

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v302) = res_main_v302 m c
      ∧ r.2.mem ((c.tc : Thread nD τ).loc main_v318) = res_main_v318 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v302).trans ((congrFun (after_ops m c) _).trans ((val14_main_v302 m c).trans (st_main_v302_eq m c))),
      (h c main_v318).trans ((congrFun (after_ops m c) _).trans ((val14_main_v318 m c).trans (st_main_v318_eq m c))),
      (h c main_arg0).trans ((congrFun (after_ops m c) _).trans (val14_arg_main_arg0 m c)),
      (h c main_arg1).trans ((congrFun (after_ops m c) _).trans (val14_arg_main_arg1 m c)),
      (h c main_arg2).trans ((congrFun (after_ops m c) _).trans (val14_arg_main_arg2 m c)),
      (h c main_arg3).trans ((congrFun (after_ops m c) _).trans (val14_arg_main_arg3 m c)),
      (h c main_arg4).trans ((congrFun (after_ops m c) _).trans (val14_arg_main_arg4 m c)),
      (h c main_arg5).trans ((congrFun (after_ops m c) _).trans (val14_arg_main_arg5 m c)),
      (h c main_arg6).trans ((congrFun (after_ops m c) _).trans (val14_arg_main_arg6 m c)),
      (h c main_arg7).trans ((congrFun (after_ops m c) _).trans (val14_arg_main_arg7 m c)),
      (h c main_arg8).trans ((congrFun (after_ops m c) _).trans (val14_arg_main_arg8 m c)),
      (h c main_arg9).trans ((congrFun (after_ops m c) _).trans (val14_arg_main_arg9 m c)),
      (h c main_arg10).trans ((congrFun (after_ops m c) _).trans (val14_arg_main_arg10 m c)),
      (h c main_arg11).trans ((congrFun (after_ops m c) _).trans (val14_arg_main_arg11 m c)),
      (h c main_arg12).trans ((congrFun (after_ops m c) _).trans (val14_arg_main_arg12 m c))⟩)
    (run_seq scopedRefs_eq scopedSems_eq defs main (fun _ => ops) main_eq (fun _ => ops_sub) m ρ (fun _ => ops_fresh))

/-- info: 'Cert.ReferenceIdeal.RunP.run' depends on axioms: [propext, Classical.choice, Quot.sound] -/
#guard_msgs in #print axioms run

end Cert.ReferenceIdeal.RunP

end
-- ==== Proof.RefValueDot.lean ====
import proofs.«400914_j13511967113603_4_alg».proof.ReferenceIdeal
import Idealize.ShloMosaic.Lib.ValueIdx
import Idealize.ShloMosaic.PureOps.Ideal.Laws

/-! The reference's two contractions read at an index, over the extended reals and over variable operands.

    A `[100000, 64] × [64, 64]` product contracting the left operand's columns with the right operand's rows is, at
    `(n, j)`, the sum over `k` of `A[n, k] · M[k, j]`; the sum of a `[500000, 64]` array along its second axis from the
    initial value zero is, at `i`, the sum over `k` of `X[i, k]` (zero is neutral for the extended reals' addition). -/

noncomputable section

namespace Cert.ReferenceIdeal.RefValue

open Cert.ReferenceIdeal Idealize.ShloMosaic
open Facts₀ Facts

variable [Facts]

/-! ## The product -/

/-- The product's operand indices, axis by axis: the left operand is read at (row, contracted), the right at
    (contracted, column). -/
theorem dot_apply_lhs_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch from List.not_mem_nil), dif_pos (show (0 : Fin S100000x64.rank) ∈ dot_S100000x64_S64x64_S100000x64_1_0_0_1_n_n.lhsNonContracting from List.mem_singleton_self _)]
  rfl
theorem dot_apply_lhs_1 (i : S100000x64.Idx) (q : dot_S100000x64_S64x64_S100000x64_1_0_0_1_n_n.contr.Idx) :
    (dot_S100000x64_S64x64_S100000x64_1_0_0_1_n_n.lhsIdx i q 1).val = (q ⟨0, Nat.zero_lt_one⟩).val :=
  dot_S100000x64_S64x64_S100000x64_1_0_0_1_n_n.lhsIdx_val_of_single rfl i q
theorem dot_apply_rhs_0 (i : S100000x64.Idx) (q : dot_S100000x64_S64x64_S100000x64_1_0_0_1_n_n.contr.Idx) :
    (dot_S100000x64_S64x64_S100000x64_1_0_0_1_n_n.rhsIdx i q 0).val = (q ⟨0, Nat.zero_lt_one⟩).val :=
  dot_S100000x64_S64x64_S100000x64_1_0_0_1_n_n.rhsIdx_val_of_single rfl i q
theorem dot_apply_rhs_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch from List.not_mem_nil), dif_pos (show (1 : Fin S64x64.rank) ∈ dot_S100000x64_S64x64_S100000x64_1_0_0_1_n_n.rhsNonContracting from List.mem_singleton_self _)]
  rfl

/-- The product at `(n, j)`: the sum over the contracted coordinate. -/
theorem dot_apply (A : FVec Ideal S100000x64 .f32) (M : FVec Ideal S64x64 .f32) (n : Fin 100000) (j : Fin 64) :
    Host.dotGeneral dot_S100000x64_S64x64_S100000x64_1_0_0_1_n_n none A M (ValueIdx.ix2 n j)
      = ∑ k : Fin 64, A (ValueIdx.ix2 n k) * M (ValueIdx.ix2 k j) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ValueIdx.ix2 n j) ((ValueIdx.contrEquiv1 dot_S100000x64_S64x64_S100000x64_1_0_0_1_n_n 64 rfl rfl).symm k) = ValueIdx.ix2 n k := funext fun a => Fin.ext (by
    match a with
    | ⟨0, _⟩ => exact dot_apply_lhs_0 _ _
    | ⟨1, _⟩ => exact (dot_apply_lhs_1 _ _).trans hk)
  have er : dot_S100000x64_S64x64_S100000x64_1_0_0_1_n_n.rhsIdx (ValueIdx.ix2 n j) ((ValueIdx.contrEquiv1 dot_S100000x64_S64x64_S100000x64_1_0_0_1_n_n 64 rfl rfl).symm k) = ValueIdx.ix2 k j := funext fun a => Fin.ext (by
    match a with
    | ⟨0, _⟩ => exact (dot_apply_rhs_0 _ _).trans hk
    | ⟨1, _⟩ => exact dot_apply_rhs_1 _ _)
  rw [el, er]

/-! ## The sum along the second axis -/

/-- The sum at `i`: the row's entries added up, from zero. -/
theorem reduce_apply (X : FVec Ideal S500000x64 .f32) (i : Fin 500000) :
    Host.reduceAdd X (constant S_ .f32 0x00000000#32) reducesTo_S500000x64_S500000_d1 h_S_ (ValueIdx.ix1 i)
      = ∑ k : Fin 64, X (ValueIdx.ix2 i k) := by
  simp only [Host.reduceAdd, Ideal.hostReduceAdd_def]
  rw [Ideal.hostReduceAdd_single reducesTo_S500000x64_S500000_d1 (by decide)]
  refine (congrArg (· + _) (show constant (F := Ideal) S_ .f32 0x00000000#32 (Shape.Idx.first h_S_) = 0 from Ideal.ofBits_zero_f32)).trans ?_
  refine (zero_add _).trans (Finset.sum_congr rfl fun k _ => ?_)
  exact congrArg X (funext fun a => Fin.ext (by match a with | ⟨0, _⟩ => rfl | ⟨1, _⟩ => rfl))

end Cert.ReferenceIdeal.RefValue

end
-- ==== Proof.RefValue.lean ====
/-
  The reference program's results as functions of its argument arrays, read at an index.

  The program is three rounds of a relational graph convolution followed by a dot-product score.  Its arrays are
  written here once, as functions of VARIABLE arrays: the stacked normaliser (one row per relation, 1 / max(1, in-degree)),
  one round (for each relation: gather the source rows, scatter-add them onto the destination rows, scale by the
  normaliser, multiply by that relation's 64 × 64 matrix, add its bias row; sum the three relations from the left
  and clip below at zero), and the score (gather the two rows of a pair, multiply, sum over the features).
  Each is then read at one index and found to be the index-by-index formula of the specification: a layout operation
  (slice, reshape, broadcast, concatenate) reads one element of its operand, a gather reads the table at the clamped
  start row, a scatter-add reads its operand plus the sum of the update rows sent there, a dot_general is the sum of
  products over the contracted axis, and the reduction is the sum over the feature axis.
-/
import proofs.«400914_j13511967113603_4_alg».proof.ReferenceIdeal
import proofs.«400914_j13511967113603_4_alg».proof.Proof.Spec
import proofs.«400914_j13511967113603_4_alg».proof.Proof.LibRowOps
import proofs.«400914_j13511967113603_4_alg».proof.Proof.RefValueDot
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Idealize.ShloMosaic Idealize.ShloMosaic.ValueIdx Idealize.ShloMosaic.RowOps
open Facts₀

variable [Facts]

/-! ## The arrays, for any float values -/

section Arrays
variable {F : FTy → Type} [FloatOps F]

/-- The all-zero [100000, 64] table. -/
def zeros : FVec F S100000x64 .f32 :=
  broadcastInDim S100000x64 ![] bcast_S_S100000x64 (constant S_ .f32 0x00000000#32)

/-- Row `r` of a [3, 1000000] array of words, as a vector. -/
def rowWords (r : Nat) (hs : S3x1000000.Slices ![r, 0] S1x1000000) (a : IVec S3x1000000 32) : IVec S1000000 32 :=
  shapeCast _ (extractStridedSlice S1x1000000 ![r, 0] a hs) shapeCasts_S1x1000000_S1000000

/-- The destination words of relation `r`, as a column. -/
def dstCol (r : Nat) (hs : S3x1000000.Slices ![r, 0] S1x1000000) (dst : IVec S3x1000000 32) : IVec S1000000x1 32 :=
  broadcastInDim S1000000x1 ![0] bcast_S1000000_S1000000x1_0 (rowWords r hs dst)

/-- The source words of relation `r`, a negative word shifted by the table's height, as a column. -/
def srcCol (r : Nat) (hs : S3x1000000.Slices ![r, 0] S1x1000000) (src : IVec S3x1000000 32) : IVec S1000000x1 32 :=
  broadcastInDim S1000000x1 ![0] bcast_S1000000_S1000000x1_0
    (select (cmpi .slt (rowWords r hs src) (broadcastInDim S1000000 ![] bcast_S_S1000000 (constantI S_ 32 0#32)))
      (addi (rowWords r hs src) (broadcastInDim S1000000 ![] bcast_S_S1000000 (constantI S_ 32 100000#32)))
      (rowWords r hs src))

/-- The normaliser of relation `r` as a [1, 100000] row: one over the in-degree raised to at least one. -/
def dinvRow (r : Nat) (hs : S3x1000000.Slices ![r, 0] S1x1000000) (dst : IVec S3x1000000 32) : FVec F S1x100000 .f32 :=
  broadcastInDim S1x100000 ![1] bcast_S100000_S1x100000_1
    (Host.divf (broadcastInDim S100000 ![] bcast_S_S100000 (constant S_ .f32 0x3F800000#32))
      (maximumf (broadcastInDim S100000 ![] bcast_S_S100000 (id (constant S_ .f32 0x3F800000#32)))
        (Host.scatterAdd scatter_S100000_S1000000x1_S1000000_n_0_0_1
          (broadcastInDim S100000 ![] bcast_S_S100000 (constant S_ .f32 0x00000000#32))
          (dstCol r hs dst)
          (broadcastInDim S1000000 ![] bcast_S_S1000000 (constant S_ .f32 0x3F800000#32)))))

/-- The stacked normaliser: the three relations' rows. -/
def refD (dst : IVec S3x1000000 32) : FVec F S3x100000 .f32 :=
  concatenate S3x100000 0
    [⟨S1x100000, dinvRow 0 slices_S3x1000000_S1x1000000_0_0 dst⟩,
     ⟨S1x100000, dinvRow 1 slices_S3x1000000_S1x1000000_1_0 dst⟩,
     ⟨S1x100000, dinvRow 2 slices_S3x1000000_S1x1000000_2_0 dst⟩]
    concatenates_S1x100000_S1x100000_S1x100000_S3x100000_d0

/-- Row `r` of a stacked normaliser, repeated along the 64 features. -/
def dinvTable (r : Nat) (hd : S3x100000.Slices ![r, 0] S1x100000) (D : FVec F S3x100000 .f32) : FVec F S100000x64 .f32 :=
  broadcastInDim S100000x64 ![0, 1] bcast_S100000x1_S100000x64_0_1
    (broadcastInDim S100000x1 ![0] bcast_S100000_S100000x1_0
      (shapeCast _ (extractStridedSlice S1x100000 ![r, 0] D hd) shapeCasts_S1x100000_S100000))

/-- The normalised aggregate of relation `r`: source rows gathered, summed onto their destination rows, scaled. -/
def aggTable (r : Nat) (hs : S3x1000000.Slices ![r, 0] S1x1000000) (hd : S3x100000.Slices ![r, 0] S1x100000)
    (src dst : IVec S3x1000000 32) (h : FVec F S100000x64 .f32) : FVec F S100000x64 .f32 :=
  mulf
    (Host.scatterAdd scatter_S100000x64_S1000000x1_S1000000x64_1_0_0_1 zeros (dstCol r hs dst)
      (Host.gather gather_S100000x64_S1000000x1_S1000000x64_1_0_n_n_0_1_164 h (srcCol r hs src)))
    (dinvTable r hd (refD dst))

/-- The 64 × 64 matrix of relation `r`. -/
def wMat (r : Nat) (hw : S3x64x64.Slices ![r, 0, 0] S1x64x64) (W : FVec F S3x64x64 .f32) : FVec F S64x64 .f32 :=
  shapeCast _ (extractStridedSlice S1x64x64 ![r, 0, 0] W hw) shapeCasts_S1x64x64_S64x64

/-- The bias row of relation `r`, repeated along the nodes. -/
def biasTable (r : Nat) (hb : S3x64.Slices ![r, 0] S1x64) (b : FVec F S3x64 .f32) : FVec F S100000x64 .f32 :=
  broadcastInDim S100000x64 ![0, 1] bcast_S1x64_S100000x64_0_1
    (broadcastInDim S1x64 ![1] bcast_S64_S1x64_1
      (shapeCast _ (extractStridedSlice S1x64 ![r, 0] b hb) shapeCasts_S1x64_S64))

/-- The matrix product of relation `r`'s aggregate with its matrix. -/
def relTerm (r : Nat) (hs : S3x1000000.Slices ![r, 0] S1x1000000) (hd : S3x100000.Slices ![r, 0] S1x100000)
    (hw : S3x64x64.Slices ![r, 0, 0] S1x64x64)
    (src dst : IVec S3x1000000 32) (h : FVec F S100000x64 .f32) (W : FVec F S3x64x64 .f32) : FVec F S100000x64 .f32 :=
  Host.dotGeneral dot_S100000x64_S64x64_S100000x64_1_0_0_1_n_n none (aggTable r hs hd src dst h) (wMat r hw W)

/-- One round. -/
def refLayer (src dst : IVec S3x1000000 32) (h : FVec F S100000x64 .f32) (W : FVec F S3x64x64 .f32)
    (b : FVec F S3x64 .f32) : FVec F S100000x64 .f32 :=
  maximumf
    (addf (addf (addf (addf (addf (addf zeros
      (relTerm 0 slices_S3x1000000_S1x1000000_0_0 slices_S3x100000_S1x100000_0_0 slices_S3x64x64_S1x64x64_0_0_0 src dst h W))
      (biasTable 0 slices_S3x64_S1x64_0_0 b))
      (relTerm 1 slices_S3x1000000_S1x1000000_1_0 slices_S3x100000_S1x100000_1_0 slices_S3x64x64_S1x64x64_1_0_0 src dst h W))
      (biasTable 1 slices_S3x64_S1x64_1_0 b))
      (relTerm 2 slices_S3x1000000_S1x1000000_2_0 slices_S3x100000_S1x100000_2_0 slices_S3x64x64_S1x64x64_2_0_0 src dst h W))
      (biasTable 2 slices_S3x64_S1x64_2_0 b))
    zeros

/-- The words of a list of 500000 nodes, a negative word shifted by the table's height, as a column. -/
def pairCol (u : IVec S500000 32) : IVec S500000x1 32 :=
  broadcastInDim S500000x1 ![0] bcast_S500000_S500000x1_0
    (select (cmpi .slt u (broadcastInDim S500000 ![] bcast_S_S500000 (constantI S_ 32 0#32)))
      (addi u (broadcastInDim S500000 ![] bcast_S_S500000 (constantI S_ 32 100000#32)))
      u)

/-- The score of each pair: the dot product of the two nodes' feature rows. -/
def refScore (h : FVec F S100000x64 .f32) (u v : IVec S500000 32) : FVec F S500000 .f32 :=
  Host.reduceAdd
    (mulf (Host.gather gather_S100000x64_S500000x1_S500000x64_1_0_n_n_0_1_164 h (pairCol u))
      (Host.gather gather_S100000x64_S500000x1_S500000x64_1_0_n_n_0_1_164 h (pairCol v)))
    (constant S_ .f32 0x00000000#32) reducesTo_S500000x64_S500000_d1 h_S_

end Arrays

/-! ## The arrays read at an index, at the ideal values -/

section Words

/-- Row `r` of a [3, 1000000] array of words at position `e` is the array's word at (r, e). -/
theorem rowWords_apply (r : Nat) (hr : r < 3) (hs : S3x1000000.Slices ![r, 0] S1x1000000) (a : IVec S3x1000000 32)
    (e : Fin 1000000) : rowWords r hs a (ix1 e) = a (ix2 (⟨r, hr⟩ : Fin 3) e) := by
  unfold rowWords
  refine (shapeCast_apply _ shapeCasts_S1x1000000_S1000000 (ix1 e) (ix2 (0 : Fin 1) e) ?_).trans ?_
  · rewrite [Shape.rowMajor_val_two, Shape.rowMajor_val_one]
    show 0 * 1000000 + e.val = e.val
    omega
  · exact extractStridedSlice_apply ![r, 0] a hs (ix2 (0 : Fin 1) e) (ix2 (⟨r, hr⟩ : Fin 3) e) (fun a => match a with
      | ⟨0, _⟩ => by show r = r + 0; omega
      | ⟨1, _⟩ => by show e.val = 0 + e.val; omega)

/-- The destination column of relation `r` at row `e` is the destination word at (r, e). -/
theorem dstCol_apply (r : Nat) (hr : r < 3) (hs : S3x1000000.Slices ![r, 0] S1x1000000) (dst : IVec S3x1000000 32)
    (e : Fin 1000000) : dstCol r hs dst (ix2 e (0 : Fin 1)) = dst (ix2 (⟨r, hr⟩ : Fin 3) e) := by
  unfold dstCol
  refine (broadcastInDim_apply _ bcast_S1000000_S1000000x1_0 _ (ix2 e (0 : Fin 1)) (ix1 e) (fun a => match a with
    | ⟨0, _⟩ => by show e.val = if (1000000 : Nat) = 1 then 0 else e.val; rw [if_neg (by decide)])).trans ?_
  exact rowWords_apply r hr hs dst e

/-- Selecting the shifted word when the word is negative is the specification's wrapped word. -/
theorem wrap_select (w : BitVec 32) :
    Scalar.select (IntOp.cmpi .slt w 0#32) (IntOp.addi w 100000#32) w = Cert.Spec.wrapWord w := by
  unfold Cert.Spec.wrapWord Scalar.select IntOp.cmpi IntOp.addi
  cases h : w.slt 0#32 <;> simp [h]

/-- The source column of relation `r` at row `e` is the wrapped source word at (r, e). -/
theorem srcCol_apply (r : Nat) (hr : r < 3) (hs : S3x1000000.Slices ![r, 0] S1x1000000) (src : IVec S3x1000000 32)
    (e : Fin 1000000) : srcCol r hs src (ix2 e (0 : Fin 1)) = Cert.Spec.wrapWord (src (ix2 (⟨r, hr⟩ : Fin 3) e)) := by
  unfold srcCol
  refine (broadcastInDim_apply _ bcast_S1000000_S1000000x1_0 _ (ix2 e (0 : Fin 1)) (ix1 e) (fun a => match a with
    | ⟨0, _⟩ => by show e.val = if (1000000 : Nat) = 1 then 0 else e.val; rw [if_neg (by decide)])).trans ?_
  show Scalar.select (IntOp.cmpi .slt (rowWords r hs src (ix1 e)) 0#32) (IntOp.addi (rowWords r hs src (ix1 e)) 100000#32)
      (rowWords r hs src (ix1 e)) = _
  rw [rowWords_apply r hr hs src e]
  exact wrap_select _

/-- The column of a list of nodes at row `i` is the wrapped word at `i`. -/
theorem pairCol_apply (u : IVec S500000 32) (i : Fin 500000) :
    pairCol u (ix2 i (0 : Fin 1)) = Cert.Spec.wrapWord (u (ix1 i)) := by
  unfold pairCol
  refine (broadcastInDim_apply _ bcast_S500000_S500000x1_0 _ (ix2 i (0 : Fin 1)) (ix1 i) (fun a => match a with
    | ⟨0, _⟩ => by show i.val = if (500000 : Nat) = 1 then 0 else i.val; rw [if_neg (by decide)])).trans ?_
  exact wrap_select _

end Words

section Reads

/-- The all-zero table reads zero. -/
theorem zeros_apply (i : S100000x64.Idx) : (zeros (F := Ideal)) i = 0 := Ideal.ofBits_zero_f32

/-- The float word 1.0 broadcast to any shape reads the specification's one everywhere. -/
theorem bcastOne_apply {T : Shape} (hb : S_.BroadcastsInDim T ![]) (j : T.Idx) :
    broadcastInDim T ![] hb (constant (F := Ideal) S_ .f32 0x3F800000#32) j = Cert.Spec.oneE :=
  (broadcastInDim_scalar_apply hb _ j).trans rfl

/-- The float word 0.0 broadcast to any shape reads zero everywhere. -/
theorem bcastZero_apply {T : Shape} (hb : S_.BroadcastsInDim T ![]) (j : T.Idx) :
    broadcastInDim T ![] hb (constant (F := Ideal) S_ .f32 0x00000000#32) j = 0 :=
  (broadcastInDim_scalar_apply hb _ j).trans Ideal.ofBits_zero_f32

/-- At the ideal values the host's accumulating scatter is the exact one. -/
theorem hostScatterAdd_eq {s si u : Shape} {w : Nat} (d : ScatterDims s si u) (x : FVec Ideal s .f32)
    (idx : IVec si w) (upd : FVec Ideal u .f32) :
    Host.scatterAdd d x idx upd = Ideal.hostScatterAdd d x idx upd := rfl

/-- The program's row scatter-add at (n, k): the operand there plus the update rows whose destination word is n. -/
theorem rowScatterRec_apply (x : FVec Ideal S100000x64 .f32) (idx : IVec S1000000x1 32)
    (upd : FVec Ideal S1000000x64 .f32) (n : Fin 100000) (k : Fin 64) :
    Host.scatterAdd scatter_S100000x64_S1000000x1_S1000000x64_1_0_0_1 x idx upd (ix2 n k)
      = x (ix2 n k) + ∑ e ∈ Finset.univ.filter (fun e : Fin 1000000 => (idx (ix2 e (0 : Fin 1))).toInt = (n.val : ℤ)),
          upd (ix2 e k) :=
  (congrFun (hostScatterAdd_eq _ x idx upd) (ix2 n k)).trans
    (rowScatterAdd_apply scatter_S100000x64_S1000000x1_S1000000x64_1_0_0_1_wf x idx upd n k)

/-- The program's vector scatter-add at n: the operand there plus the updates whose destination word is n. -/
theorem vecScatterRec_apply (x : FVec Ideal S100000 .f32) (idx : IVec S1000000x1 32)
    (upd : FVec Ideal S1000000 .f32) (n : Fin 100000) :
    Host.scatterAdd scatter_S100000_S1000000x1_S1000000_n_0_0_1 x idx upd (ix1 n)
      = x (ix1 n) + ∑ e ∈ Finset.univ.filter (fun e : Fin 1000000 => (idx (ix2 e (0 : Fin 1))).toInt = (n.val : ℤ)),
          upd (ix1 e) :=
  (congrFun (hostScatterAdd_eq _ x idx upd) (ix1 n)).trans
    (vecScatterAdd_apply scatter_S100000_S1000000x1_S1000000_n_0_0_1_wf x idx upd n)

/-- The gathered source rows of relation `r`: row `e`, feature `k`, is the table at the row the source word names. -/
theorem gatherRows_apply (r : Nat) (hr : r < 3) (hs : S3x1000000.Slices ![r, 0] S1x1000000) (src : IVec S3x1000000 32)
    (h : FVec Ideal S100000x64 .f32) (e : Fin 1000000) (k : Fin 64) :
    Host.gather gather_S100000x64_S1000000x1_S1000000x64_1_0_n_n_0_1_164 h (srcCol r hs src) (ix2 e k)
      = h (ix2 (Cert.Spec.rowRef (src (ix2 (⟨r, hr⟩ : Fin 3) e))) k) := by
  have hg : gather_S100000x64_S1000000x1_S1000000x64_1_0_n_n_0_1_164
      = rowGather 100000 1000000 64 gather_S100000x64_S1000000x1_S1000000x64_1_0_n_n_0_1_164_wf := rfl
  rw [hg, rowGather_apply (by decide) _ h (srcCol r hs src) e k]
  refine congrArg h (congrArg (fun a => ix2 a k) (Fin.ext ?_))
  show min (srcCol r hs src (ix2 e (0 : Fin 1))).toInt.toNat (100000 - 1) = _
  rw [srcCol_apply r hr hs src e]
  rfl

/-- The gathered rows of a list of nodes: row `i`, feature `k`, is the table at the row the word names. -/
theorem gatherPairs_apply (u : IVec S500000 32) (h : FVec Ideal S100000x64 .f32) (i : Fin 500000) (k : Fin 64) :
    Host.gather gather_S100000x64_S500000x1_S500000x64_1_0_n_n_0_1_164 h (pairCol u) (ix2 i k)
      = h (ix2 (Cert.Spec.rowRef (u (ix1 i))) k) := by
  have hg : gather_S100000x64_S500000x1_S500000x64_1_0_n_n_0_1_164
      = rowGather 100000 500000 64 gather_S100000x64_S500000x1_S500000x64_1_0_n_n_0_1_164_wf := rfl
  rw [hg, rowGather_apply (by decide) _ h (pairCol u) i k]
  refine congrArg h (congrArg (fun a => ix2 a k) (Fin.ext ?_))
  show min (pairCol u (ix2 i (0 : Fin 1))).toInt.toNat (100000 - 1) = _
  rw [pairCol_apply u i]
  rfl

/-- The scatter-added rows of relation `r` at (n, k): the sum, over the edges whose destination word is n, of the
    table at the row the edge's source word names. -/
theorem aggSum_apply (r : Nat) (hr : r < 3) (hs : S3x1000000.Slices ![r, 0] S1x1000000) (src dst : IVec S3x1000000 32)
    (h : FVec Ideal S100000x64 .f32) (n : Fin 100000) (k : Fin 64) :
    Host.scatterAdd scatter_S100000x64_S1000000x1_S1000000x64_1_0_0_1 zeros (dstCol r hs dst)
        (Host.gather gather_S100000x64_S1000000x1_S1000000x64_1_0_n_n_0_1_164 h (srcCol r hs src)) (ix2 n k)
      = ∑ e ∈ Finset.univ.filter (fun e : Fin 1000000 => (dst (ix2 (⟨r, hr⟩ : Fin 3) e)).toInt = (n.val : ℤ)),
          h (ix2 (Cert.Spec.rowRef (src (ix2 (⟨r, hr⟩ : Fin 3) e))) k) :=
  (rowScatterRec_apply zeros (dstCol r hs dst)
      (Host.gather gather_S100000x64_S1000000x1_S1000000x64_1_0_n_n_0_1_164 h (srcCol r hs src)) n k).trans
    ((congrArg₂ (· + ·) (zeros_apply (ix2 n k))
        (Finset.sum_congr (Finset.filter_congr fun e _ => by rw [dstCol_apply r hr hs dst e])
          (fun e _ => gatherRows_apply r hr hs src h e k))).trans (zero_add _))

/-- The normaliser row of relation `r` at node `n`, down to the scatter-added count: one over the larger of one
    and the count. -/
theorem dinvRow_eq (r : Nat) (hs : S3x1000000.Slices ![r, 0] S1x1000000) (dst : IVec S3x1000000 32) (n : Fin 100000) :
    dinvRow (F := Ideal) r hs dst (ix2 (0 : Fin 1) n)
      = Ideal.div Cert.Spec.oneE (max Cert.Spec.oneE
          (Host.scatterAdd scatter_S100000_S1000000x1_S1000000_n_0_0_1
            (broadcastInDim S100000 ![] bcast_S_S100000 (constant (F := Ideal) S_ .f32 0x00000000#32)) (dstCol r hs dst)
            (broadcastInDim S1000000 ![] bcast_S_S1000000 (constant (F := Ideal) S_ .f32 0x3F800000#32)) (ix1 n))) := by
  unfold dinvRow
  refine (broadcastInDim_apply _ bcast_S100000_S1x100000_1 _ (ix2 (0 : Fin 1) n) (ix1 n) (fun a => match a with
    | ⟨0, _⟩ => by show n.val = if (100000 : Nat) = 1 then 0 else n.val; rw [if_neg (by decide)])).trans ?_
  refine (hostDivf_apply _ _ (ix1 n)).trans ?_
  refine congrArg₂ Ideal.div (bcastOne_apply _ _) ?_
  refine (maximumf_apply _ _ (ix1 n)).trans ?_
  exact congrArg₂ max (bcastOne_apply _ _) rfl

/-- The scatter-added count of relation `r` at node `n`: a one for every edge whose destination word is n. -/
theorem count_apply (r : Nat) (hr : r < 3) (hs : S3x1000000.Slices ![r, 0] S1x1000000) (dst : IVec S3x1000000 32)
    (n : Fin 100000) :
    Host.scatterAdd scatter_S100000_S1000000x1_S1000000_n_0_0_1
        (broadcastInDim S100000 ![] bcast_S_S100000 (constant (F := Ideal) S_ .f32 0x00000000#32)) (dstCol r hs dst)
        (broadcastInDim S1000000 ![] bcast_S_S1000000 (constant (F := Ideal) S_ .f32 0x3F800000#32)) (ix1 n)
      = ∑ _e ∈ Finset.univ.filter (fun e : Fin 1000000 => (dst (ix2 (⟨r, hr⟩ : Fin 3) e)).toInt = (n.val : ℤ)),
          Cert.Spec.oneE :=
  (vecScatterRec_apply
      (broadcastInDim S100000 ![] bcast_S_S100000 (constant (F := Ideal) S_ .f32 0x00000000#32)) (dstCol r hs dst)
      (broadcastInDim S1000000 ![] bcast_S_S1000000 (constant (F := Ideal) S_ .f32 0x3F800000#32)) n).trans
    ((congrArg₂ (· + ·) (bcastZero_apply bcast_S_S100000 (ix1 n))
        (Finset.sum_congr (Finset.filter_congr fun e _ => by rw [dstCol_apply r hr hs dst e])
          (fun e _ => bcastOne_apply bcast_S_S1000000 (ix1 e)))).trans (zero_add _))

/-- The normaliser row of relation `r` at node `n` is the specification's normaliser. -/
theorem dinvRow_apply (r : Nat) (hr : r < 3) (hs : S3x1000000.Slices ![r, 0] S1x1000000) (dst : IVec S3x1000000 32)
    (n : Fin 100000) :
    dinvRow (F := Ideal) r hs dst (ix2 (0 : Fin 1) n) = Cert.Spec.dinv (fun r e => dst (ix2 r e)) (⟨r, hr⟩ : Fin 3) n :=
  (dinvRow_eq r hs dst n).trans
    (congrArg (fun s => Ideal.div Cert.Spec.oneE (max Cert.Spec.oneE s)) (count_apply r hr hs dst n))

/-- The stacked normaliser at (r, n) is the specification's normaliser of node n under relation r. -/
theorem refD_apply (dst : IVec S3x1000000 32) (r : Fin 3) (n : Fin 100000) :
    refD (F := Ideal) dst (ix2 r n) = Cert.Spec.dinv (fun r e => dst (ix2 r e)) r n := by
  unfold refD
  match r with
  | ⟨0, h0⟩ =>
    refine (concatenate_apply_piece (t := S3x100000) 0
      [⟨S1x100000, dinvRow (F := Ideal) 0 slices_S3x1000000_S1x1000000_0_0 dst⟩,
       ⟨S1x100000, dinvRow (F := Ideal) 1 slices_S3x1000000_S1x1000000_1_0 dst⟩,
       ⟨S1x100000, dinvRow (F := Ideal) 2 slices_S3x1000000_S1x1000000_2_0 dst⟩]
      concatenates_S1x100000_S1x100000_S1x100000_S3x100000_d0 (ix2 (⟨0, h0⟩ : Fin 3) n)
      0 (by show 0 < 3; omega) S1x100000 _ rfl rfl 0 rfl (ix2 (0 : Fin 1) n) (fun b hb => ?_) rfl).trans
      (dinvRow_apply 0 h0 _ dst n)
    match b with
    | ⟨0, _⟩ => exact absurd rfl hb
    | ⟨1, _⟩ => rfl
  | ⟨1, h1⟩ =>
    refine (concatenate_apply_piece (t := S3x100000) 0
      [⟨S1x100000, dinvRow (F := Ideal) 0 slices_S3x1000000_S1x1000000_0_0 dst⟩,
       ⟨S1x100000, dinvRow (F := Ideal) 1 slices_S3x1000000_S1x1000000_1_0 dst⟩,
       ⟨S1x100000, dinvRow (F := Ideal) 2 slices_S3x1000000_S1x1000000_2_0 dst⟩]
      concatenates_S1x100000_S1x100000_S1x100000_S3x100000_d0 (ix2 (⟨1, h1⟩ : Fin 3) n)
      1 (by show 1 < 3; omega) S1x100000 _ rfl rfl 1 rfl (ix2 (0 : Fin 1) n) (fun b hb => ?_) rfl).trans
      (dinvRow_apply 1 h1 _ dst n)
    match b with
    | ⟨0, _⟩ => exact absurd rfl hb
    | ⟨1, _⟩ => rfl
  | ⟨2, h2⟩ =>
    refine (concatenate_apply_piece (t := S3x100000) 0
      [⟨S1x100000, dinvRow (F := Ideal) 0 slices_S3x1000000_S1x1000000_0_0 dst⟩,
       ⟨S1x100000, dinvRow (F := Ideal) 1 slices_S3x1000000_S1x1000000_1_0 dst⟩,
       ⟨S1x100000, dinvRow (F := Ideal) 2 slices_S3x1000000_S1x1000000_2_0 dst⟩]
      concatenates_S1x100000_S1x100000_S1x100000_S3x100000_d0 (ix2 (⟨2, h2⟩ : Fin 3) n)
      2 (by show 2 < 3; omega) S1x100000 _ rfl rfl 2 rfl (ix2 (0 : Fin 1) n) (fun b hb => ?_) rfl).trans
      (dinvRow_apply 2 h2 _ dst n)
    match b with
    | ⟨0, _⟩ => exact absurd rfl hb
    | ⟨1, _⟩ => rfl

end Reads

section Layer

/-- Row `r` of a stacked normaliser repeated along the features, at (n, k), is the stacked normaliser at (r, n). -/
theorem dinvTable_apply (r : Nat) (hr : r < 3) (hd : S3x100000.Slices ![r, 0] S1x100000) (D : FVec Ideal S3x100000 .f32)
    (n : Fin 100000) (k : Fin 64) : dinvTable r hd D (ix2 n k) = D (ix2 (⟨r, hr⟩ : Fin 3) n) := by
  unfold dinvTable
  refine (broadcastInDim_apply _ bcast_S100000x1_S100000x64_0_1 _ (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])).trans ?_
  refine (broadcastInDim_apply _ bcast_S100000_S100000x1_0 _ (ix2 n (0 : Fin 1)) (ix1 n) (fun a => match a with
    | ⟨0, _⟩ => by show n.val = if (100000 : Nat) = 1 then 0 else n.val; rw [if_neg (by decide)])).trans ?_
  refine (shapeCast_apply _ shapeCasts_S1x100000_S100000 (ix1 n) (ix2 (0 : Fin 1) n) ?_).trans ?_
  · rewrite [Shape.rowMajor_val_two, Shape.rowMajor_val_one]
    show 0 * 100000 + n.val = n.val
    omega
  · exact extractStridedSlice_apply ![r, 0] D hd (ix2 (0 : Fin 1) n) (ix2 (⟨r, hr⟩ : Fin 3) n) (fun a => match a with
      | ⟨0, _⟩ => by show r = r + 0; omega
      | ⟨1, _⟩ => by show n.val = 0 + n.val; omega)

/-- The matrix of relation `r` at (k, j) is the stacked matrices at (r, k, j). -/
theorem wMat_apply (r : Nat) (hr : r < 3) (hw : S3x64x64.Slices ![r, 0, 0] S1x64x64) (W : FVec Ideal S3x64x64 .f32)
    (k j : Fin 64) : wMat r hw W (ix2 k j) = W (ix3 (⟨r, hr⟩ : Fin 3) k j) := by
  unfold wMat
  refine (shapeCast_apply _ shapeCasts_S1x64x64_S64x64 (ix2 k j) (ix3 (0 : Fin 1) k j) ?_).trans ?_
  · rewrite [Shape.rowMajor_val_three, Shape.rowMajor_val_two]
    show (0 * 64 + k.val) * 64 + j.val = k.val * 64 + j.val
    omega
  · exact extractStridedSlice_apply ![r, 0, 0] W hw (ix3 (0 : Fin 1) k j) (ix3 (⟨r, hr⟩ : Fin 3) k j) (fun a => match a with
      | ⟨0, _⟩ => by show r = r + 0; omega
      | ⟨1, _⟩ => by show k.val = 0 + k.val; omega
      | ⟨2, _⟩ => by show j.val = 0 + j.val; omega)

/-- The bias row of relation `r` repeated along the nodes, at (n, j), is the stacked biases at (r, j). -/
theorem biasTable_apply (r : Nat) (hr : r < 3) (hb : S3x64.Slices ![r, 0] S1x64) (b : FVec Ideal S3x64 .f32)
    (n : Fin 100000) (j : Fin 64) : biasTable r hb b (ix2 n j) = b (ix2 (⟨r, hr⟩ : Fin 3) j) := by
  unfold biasTable
  refine (broadcastInDim_apply _ bcast_S1x64_S100000x64_0_1 _ (ix2 n j) (ix2 (0 : Fin 1) j) (fun a => match a with
    | ⟨0, _⟩ => by show 0 = if (1 : Nat) = 1 then 0 else n.val; rw [if_pos rfl]
    | ⟨1, _⟩ => by show j.val = if (64 : Nat) = 1 then 0 else j.val; rw [if_neg (by decide)])).trans ?_
  refine (broadcastInDim_apply _ bcast_S64_S1x64_1 _ (ix2 (0 : Fin 1) j) (ix1 j) (fun a => match a with
    | ⟨0, _⟩ => by show j.val = if (64 : Nat) = 1 then 0 else j.val; rw [if_neg (by decide)])).trans ?_
  refine (shapeCast_apply _ shapeCasts_S1x64_S64 (ix1 j) (ix2 (0 : Fin 1) j) ?_).trans ?_
  · rewrite [Shape.rowMajor_val_two, Shape.rowMajor_val_one]
    show 0 * 64 + j.val = j.val
    omega
  · exact extractStridedSlice_apply ![r, 0] b hb (ix2 (0 : Fin 1) j) (ix2 (⟨r, hr⟩ : Fin 3) j) (fun a => match a with
      | ⟨0, _⟩ => by show r = r + 0; omega
      | ⟨1, _⟩ => by show j.val = 0 + j.val; omega)

/-- The normalised aggregate of relation `r` at (n, k) is the specification's. -/
theorem aggTable_apply (r : Nat) (hr : r < 3) (hs : S3x1000000.Slices ![r, 0] S1x1000000)
    (hd : S3x100000.Slices ![r, 0] S1x100000) (src dst : IVec S3x1000000 32) (h : FVec Ideal S100000x64 .f32)
    (n : Fin 100000) (k : Fin 64) :
    aggTable r hs hd src dst h (ix2 n k)
      = Cert.Spec.agg (fun r e => src (ix2 r e)) (fun r e => dst (ix2 r e)) (fun n k => h (ix2 n k))
          (⟨r, hr⟩ : Fin 3) n k := by
  unfold aggTable
  refine (mulf_apply _ _ (ix2 n k)).trans ?_
  exact congrArg₂ (· * ·) (aggSum_apply r hr hs src dst h n k)
    ((dinvTable_apply r hr hd (refD dst) n k).trans (refD_apply dst (⟨r, hr⟩ : Fin 3) n))

end Layer

section Rounds

/-- The matrix product of relation `r` at (n, j): the sum over the features of the specification's aggregate times the
    relation's matrix. -/
theorem relTerm_apply (r : Nat) (hr : r < 3) (hs : S3x1000000.Slices ![r, 0] S1x1000000)
    (hd : S3x100000.Slices ![r, 0] S1x100000) (hw : S3x64x64.Slices ![r, 0, 0] S1x64x64)
    (src dst : IVec S3x1000000 32) (h : FVec Ideal S100000x64 .f32) (W : FVec Ideal S3x64x64 .f32)
    (n : Fin 100000) (j : Fin 64) :
    relTerm r hs hd hw src dst h W (ix2 n j)
      = ∑ k : Fin 64, Cert.Spec.agg (fun r e => src (ix2 r e)) (fun r e => dst (ix2 r e)) (fun n k => h (ix2 n k))
          (⟨r, hr⟩ : Fin 3) n k * W (ix3 (⟨r, hr⟩ : Fin 3) k j) := by
  unfold relTerm
  refine (dot_apply (aggTable r hs hd src dst h) (wMat r hw W) n j).trans ?_
  exact Finset.sum_congr rfl fun k _ =>
    congrArg₂ (· * ·) (aggTable_apply r hr hs hd src dst h n k) (wMat_apply r hr hw W k j)

/-- One round at (n, j) is the specification's round. -/
theorem refLayer_apply (src dst : IVec S3x1000000 32) (h : FVec Ideal S100000x64 .f32) (W : FVec Ideal S3x64x64 .f32)
    (b : FVec Ideal S3x64 .f32) (n : Fin 100000) (j : Fin 64) :
    refLayer src dst h W b (ix2 n j)
      = Cert.Spec.layerS (fun r e => src (ix2 r e)) (fun r e => dst (ix2 r e)) (fun r k j => W (ix3 r k j))
          (fun r j => b (ix2 r j)) (fun n k => h (ix2 n k)) n j := by
  unfold refLayer
  refine (maximumf_apply _ _ (ix2 n j)).trans ?_
  refine (congrArg₂ max (?_ : _ = (0 : EReal)
        + (∑ k : Fin 64, Cert.Spec.agg (fun r e => src (ix2 r e)) (fun r e => dst (ix2 r e)) (fun n k => h (ix2 n k))
            (⟨0, by decide⟩ : Fin 3) n k * W (ix3 (⟨0, by decide⟩ : Fin 3) k j))
        + b (ix2 (⟨0, by decide⟩ : Fin 3) j)
        + (∑ k : Fin 64, Cert.Spec.agg (fun r e => src (ix2 r e)) (fun r e => dst (ix2 r e)) (fun n k => h (ix2 n k))
            (⟨1, by decide⟩ : Fin 3) n k * W (ix3 (⟨1, by decide⟩ : Fin 3) k j))
        + b (ix2 (⟨1, by decide⟩ : Fin 3) j)
        + (∑ k : Fin 64, Cert.Spec.agg (fun r e => src (ix2 r e)) (fun r e => dst (ix2 r e)) (fun n k => h (ix2 n k))
            (⟨2, by decide⟩ : Fin 3) n k * W (ix3 (⟨2, by decide⟩ : Fin 3) k j))
        + b (ix2 (⟨2, by decide⟩ : Fin 3) j)) (zeros_apply (ix2 n j))).trans ?_
  · refine (addf_apply _ _ (ix2 n j)).trans (congrArg₂ (· + ·) ?_ (biasTable_apply 2 (by decide) _ b n j))
    refine (addf_apply _ _ (ix2 n j)).trans (congrArg₂ (· + ·) ?_ (relTerm_apply 2 (by decide) _ _ _ src dst h W n j))
    refine (addf_apply _ _ (ix2 n j)).trans (congrArg₂ (· + ·) ?_ (biasTable_apply 1 (by decide) _ b n j))
    refine (addf_apply _ _ (ix2 n j)).trans (congrArg₂ (· + ·) ?_ (relTerm_apply 1 (by decide) _ _ _ src dst h W n j))
    refine (addf_apply _ _ (ix2 n j)).trans (congrArg₂ (· + ·) ?_ (biasTable_apply 0 (by decide) _ b n j))
    exact (addf_apply _ _ (ix2 n j)).trans
      (congrArg₂ (· + ·) (zeros_apply (ix2 n j)) (relTerm_apply 0 (by decide) _ _ _ src dst h W n j))
  · rw [zero_add]
    rfl

/-- The score at pair i is the specification's score. -/
theorem refScore_apply (h : FVec Ideal S100000x64 .f32) (u v : IVec S500000 32) (i : Fin 500000) :
    refScore h u v (ix1 i)
      = Cert.Spec.scoreS (fun n k => h (ix2 n k)) (fun i => u (ix1 i)) (fun i => v (ix1 i)) i := by
  unfold refScore
  refine (reduce_apply _ i).trans ?_
  exact Finset.sum_congr rfl fun k _ =>
    (mulf_apply _ _ (ix2 i k)).trans (congrArg₂ (· * ·) (gatherPairs_apply u h i k) (gatherPairs_apply v h i k))

end Rounds

end Cert.ReferenceIdeal.RefValue

end
-- ==== Proof.RefValueRun.lean ====
/-
  The run's two results as the array-level functions of the arguments.

  The composed term the run states for a result is a tree: every value an operation reads more than once is written
  out once per reader.  The array-level functions name those values: the stacked normaliser, one round as a function
  of the round before, the score as a function of the last round.  Unfolding the three functions (and the small ones
  they are made of) gives the composed term back node for node: the same operations over the same operands, in the same
  order; the side conditions are propositions, so it does not matter whose proofs of them the two texts cite.  The
  equation therefore holds by unfolding alone, for any float values.
-/
import proofs.«400914_j13511967113603_4_alg».proof.Proof.RefRun
import proofs.«400914_j13511967113603_4_alg».proof.Proof.RefValue

noncomputable section

namespace Cert.ReferenceIdeal.RefValue

open Cert.ReferenceIdeal Idealize.ShloMosaic Idealize.ShloMosaic.TcCoe Idealize.SL.Sem

variable {F : FTy → Type} [FloatOps F]

set_option maxRecDepth 100000 in
set_option maxHeartbeats 4000000 in
/-- The first result (the scores of the positive pairs): three rounds from the node features, each with its own
    matrices and bias rows over the same edge lists, then the score of the pairs (arguments 9 and 10). -/
theorem res_out0_eq (m : (ℓ : Loc nD τ sig) → Buf (Elt F) ℓ) (c : Dev nD) :
    Cert.ReferenceIdeal.RunP.res_out0 (F := F) m c
      = refScore
          (refLayer (m ((c.tc : Thread nD τ).loc main_arg7)) (m ((c.tc : Thread nD τ).loc main_arg8))
            (refLayer (m ((c.tc : Thread nD τ).loc main_arg7)) (m ((c.tc : Thread nD τ).loc main_arg8))
              (refLayer (m ((c.tc : Thread nD τ).loc main_arg7)) (m ((c.tc : Thread nD τ).loc main_arg8))
                (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4)))
            (m ((c.tc : Thread nD τ).loc main_arg5)) (m ((c.tc : Thread nD τ).loc main_arg6)))
          (m ((c.tc : Thread nD τ).loc main_arg9)) (m ((c.tc : Thread nD τ).loc main_arg10)) := rfl

set_option maxRecDepth 100000 in
set_option maxHeartbeats 4000000 in
/-- The second result (the scores of the negative pairs): the same three rounds, scored at arguments 11 and 12. -/
theorem res_out1_eq (m : (ℓ : Loc nD τ sig) → Buf (Elt F) ℓ) (c : Dev nD) :
    Cert.ReferenceIdeal.RunP.res_out1 (F := F) m c
      = refScore
          (refLayer (m ((c.tc : Thread nD τ).loc main_arg7)) (m ((c.tc : Thread nD τ).loc main_arg8))
            (refLayer (m ((c.tc : Thread nD τ).loc main_arg7)) (m ((c.tc : Thread nD τ).loc main_arg8))
              (refLayer (m ((c.tc : Thread nD τ).loc main_arg7)) (m ((c.tc : Thread nD τ).loc main_arg8))
                (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4)))
            (m ((c.tc : Thread nD τ).loc main_arg5)) (m ((c.tc : Thread nD τ).loc main_arg6)))
          (m ((c.tc : Thread nD τ).loc main_arg11)) (m ((c.tc : Thread nD τ).loc main_arg12)) := rfl

end Cert.ReferenceIdeal.RefValue

end
-- ==== Proof.Algebraic.lean ====
import proofs.«400914_j13511967113603_4_alg».proof.Defs
import proofs.«400914_j13511967113603_4_alg».proof.Proof.PreRange
import proofs.«400914_j13511967113603_4_alg».proof.Proof.Gen.Pre_finite_inputs
import proofs.«400914_j13511967113603_4_alg».proof.Proof.KI.Run
import proofs.«400914_j13511967113603_4_alg».proof.Proof.KI.KernelValue
import proofs.«400914_j13511967113603_4_alg».proof.Proof.RefRun
import proofs.«400914_j13511967113603_4_alg».proof.Proof.RefValue
import proofs.«400914_j13511967113603_4_alg».proof.Proof.RefValueRun

/-! # The two idealized programs compute the same scores

Both programs' results are the pair scores of the specification over the features after three rounds: the kernel
program's by following its boundary contents, the reference's by reading its composed term; the argument arrays agree,
so the two specifications are one. The reference never writes an argument, so its run is also its frame. -/

set_option maxRecDepth 16384

noncomputable section

namespace Cert.Proof.Alg

open Idealize.ShloMosaic Idealize.ShloMosaic.TcCoe Idealize.ShloMosaic.ValueIdx Idealize.SL.Sem

/-- The reference runs and leaves its arguments unchanged. -/
theorem frame_ref : Cert.frame_ReferenceIdeal := fun m ρ _ =>
  (θ_run Cert.ReferenceIdeal.defs _ _).mono (fun _ h c => (h c).2.2) (Cert.ReferenceIdeal.RunP.run (F := Ideal) m ρ)

section Ref

open Cert.ReferenceIdeal Cert.ReferenceIdeal.RefValue

variable (m' : (ℓ : Loc Cert.ReferenceIdeal.nD Cert.ReferenceIdeal.τ Cert.ReferenceIdeal.sig) → Buf (Elt Ideal) ℓ) (c : Dev Cert.ReferenceIdeal.nD)

/-- The reference's features after one, two and three rounds, as arrays. -/
abbrev rf1 : FVec Ideal S100000x64 .f32 :=
  refLayer (m' ((c.tc : Thread nD τ).loc main_arg7)) (m' ((c.tc : Thread nD τ).loc main_arg8))
    (m' ((c.tc : Thread nD τ).loc main_arg0)) (m' ((c.tc : Thread nD τ).loc main_arg1)) (m' ((c.tc : Thread nD τ).loc main_arg2))
abbrev rf2 : FVec Ideal S100000x64 .f32 :=
  refLayer (m' ((c.tc : Thread nD τ).loc main_arg7)) (m' ((c.tc : Thread nD τ).loc main_arg8))
    (rf1 m' c) (m' ((c.tc : Thread nD τ).loc main_arg3)) (m' ((c.tc : Thread nD τ).loc main_arg4))
abbrev rf3 : FVec Ideal S100000x64 .f32 :=
  refLayer (m' ((c.tc : Thread nD τ).loc main_arg7)) (m' ((c.tc : Thread nD τ).loc main_arg8))
    (rf2 m' c) (m' ((c.tc : Thread nD τ).loc main_arg5)) (m' ((c.tc : Thread nD τ).loc main_arg6))

end Ref

open Cert.KernelIdeal.HandValue in
/-- Equal results. -/
theorem algebraic : Cert.algebraic_KernelIdeal_ReferenceIdeal := by
  intro m ρ m' ρ' hpre hagree
  refine ⟨fun c i => Cert.Spec.scoreS (h3S m c) (psS m c) (pdS m c) (i 0),
    fun c i => Cert.Spec.scoreS (h3S m c) (nsS m c) (ndS m c) (i 0), ?_, ?_⟩
  · refine (θ_run _ _ _).mono (fun r h c => ?_) (Cert.KernelIdeal.Hand.run_main m ρ)
    have hp := Cert.Proof.PreRange.of_pre_KernelIdeal m hpre c
    have hR : Ranges m c := ⟨hp.1, hp.2.1, hp.2.2.1, hp.2.2.2.1, hp.2.2.2.2⟩
    refine ⟨?_, ?_,
      (h c _ (Cert.KernelIdeal.Hand.mem_uc Cert.KernelIdeal.main_arg0 (by decide))).trans (Cert.KernelIdeal.Hand.W21_arg m ρ c Cert.KernelIdeal.main_arg0 (by decide)),
      (h c _ (Cert.KernelIdeal.Hand.mem_uc Cert.KernelIdeal.main_arg1 (by decide))).trans (Cert.KernelIdeal.Hand.W21_arg m ρ c Cert.KernelIdeal.main_arg1 (by decide)),
      (h c _ (Cert.KernelIdeal.Hand.mem_uc Cert.KernelIdeal.main_arg2 (by decide))).trans (Cert.KernelIdeal.Hand.W21_arg m ρ c Cert.KernelIdeal.main_arg2 (by decide)),
      (h c _ (Cert.KernelIdeal.Hand.mem_uc Cert.KernelIdeal.main_arg3 (by decide))).trans (Cert.KernelIdeal.Hand.W21_arg m ρ c Cert.KernelIdeal.main_arg3 (by decide)),
      (h c _ (Cert.KernelIdeal.Hand.mem_uc Cert.KernelIdeal.main_arg4 (by decide))).trans (Cert.KernelIdeal.Hand.W21_arg m ρ c Cert.KernelIdeal.main_arg4 (by decide)),
      (h c _ (Cert.KernelIdeal.Hand.mem_uc Cert.KernelIdeal.main_arg5 (by decide))).trans (Cert.KernelIdeal.Hand.W21_arg m ρ c Cert.KernelIdeal.main_arg5 (by decide)),
      (h c _ (Cert.KernelIdeal.Hand.mem_uc Cert.KernelIdeal.main_arg6 (by decide))).trans (Cert.KernelIdeal.Hand.W21_arg m ρ c Cert.KernelIdeal.main_arg6 (by decide)),
      (h c _ (Cert.KernelIdeal.Hand.mem_uc Cert.KernelIdeal.main_arg7 (by decide))).trans (Cert.KernelIdeal.Hand.W21_arg m ρ c Cert.KernelIdeal.main_arg7 (by decide)),
      (h c _ (Cert.KernelIdeal.Hand.mem_uc Cert.KernelIdeal.main_arg8 (by decide))).trans (Cert.KernelIdeal.Hand.W21_arg m ρ c Cert.KernelIdeal.main_arg8 (by decide)),
      (h c _ (Cert.KernelIdeal.Hand.mem_uc Cert.KernelIdeal.main_arg9 (by decide))).trans (Cert.KernelIdeal.Hand.W21_arg m ρ c Cert.KernelIdeal.main_arg9 (by decide)),
      (h c _ (Cert.KernelIdeal.Hand.mem_uc Cert.KernelIdeal.main_arg10 (by decide))).trans (Cert.KernelIdeal.Hand.W21_arg m ρ c Cert.KernelIdeal.main_arg10 (by decide)),
      (h c _ (Cert.KernelIdeal.Hand.mem_uc Cert.KernelIdeal.main_arg11 (by decide))).trans (Cert.KernelIdeal.Hand.W21_arg m ρ c Cert.KernelIdeal.main_arg11 (by decide)),
      (h c _ (Cert.KernelIdeal.Hand.mem_uc Cert.KernelIdeal.main_arg12 (by decide))).trans (Cert.KernelIdeal.Hand.W21_arg m ρ c Cert.KernelIdeal.main_arg12 (by decide))⟩
    · refine (h c _ (Cert.KernelIdeal.Hand.mem_uc Cert.KernelIdeal.main_v212 (by decide))).trans ?_
      funext i
      obtain ⟨p, rfl⟩ : ∃ p : Fin 500000, i = ix1 p := ⟨i 0, eq_ix1 i⟩
      exact out_pos_eq ρ hR p
    · refine (h c _ (Cert.KernelIdeal.Hand.mem_uc Cert.KernelIdeal.main_v213 (by decide))).trans ?_
      funext i
      obtain ⟨p, rfl⟩ : ∃ p : Fin 500000, i = ix1 p := ⟨i 0, eq_ix1 i⟩
      exact out_neg_eq ρ hR p
  · refine (θ_run Cert.ReferenceIdeal.defs _ _).mono (fun r h c => ⟨(h c).1.trans ?_, (h c).2.1.trans ?_, (h c).2.2⟩)
      (Cert.ReferenceIdeal.RunP.run (F := Ideal) m' ρ')
    all_goals
      obtain ⟨a0, a1, a2, a3, a4, a5, a6, a7, a8, a9, a10, a11, a12⟩ := hagree c
    · -- the positive pairs
      have f1 : ∀ n k, rf1 m' c (ix2 n k) = h1S m c n k := fun n k => by
        refine (Cert.ReferenceIdeal.RefValue.refLayer_apply _ _ _ _ _ n k).trans ?_
        rw [a0, a1, a2, a7, a8]
      have f2 : ∀ n k, rf2 m' c (ix2 n k) = h2S m c n k := fun n k => by
        refine (Cert.ReferenceIdeal.RefValue.refLayer_apply _ _ _ _ _ n k).trans ?_
        rw [a3, a4, a7, a8, show (fun n k => rf1 m' c (ix2 n k)) = h1S m c from funext fun n => funext fun k => f1 n k]
      have f3 : ∀ n k, rf3 m' c (ix2 n k) = h3S m c n k := fun n k => by
        refine (Cert.ReferenceIdeal.RefValue.refLayer_apply _ _ _ _ _ n k).trans ?_
        rw [a5, a6, a7, a8, show (fun n k => rf2 m' c (ix2 n k)) = h2S m c from funext fun n => funext fun k => f2 n k]
      refine (Cert.ReferenceIdeal.RefValue.res_out0_eq (F := Ideal) m' c).trans ?_
      funext i
      obtain ⟨p, rfl⟩ : ∃ p : Fin 500000, i = ix1 p := ⟨i 0, eq_ix1 i⟩
      refine (Cert.ReferenceIdeal.RefValue.refScore_apply (rf3 m' c) _ _ p).trans ?_
      rw [a9, a10, show (fun n k => rf3 m' c (ix2 n k)) = h3S m c from funext fun n => funext fun k => f3 n k]
      rfl
    · -- the negative pairs
      have f1 : ∀ n k, rf1 m' c (ix2 n k) = h1S m c n k := fun n k => by
        refine (Cert.ReferenceIdeal.RefValue.refLayer_apply _ _ _ _ _ n k).trans ?_
        rw [a0, a1, a2, a7, a8]
      have f2 : ∀ n k, rf2 m' c (ix2 n k) = h2S m c n k := fun n k => by
        refine (Cert.ReferenceIdeal.RefValue.refLayer_apply _ _ _ _ _ n k).trans ?_
        rw [a3, a4, a7, a8, show (fun n k => rf1 m' c (ix2 n k)) = h1S m c from funext fun n => funext fun k => f1 n k]
      have f3 : ∀ n k, rf3 m' c (ix2 n k) = h3S m c n k := fun n k => by
        refine (Cert.ReferenceIdeal.RefValue.refLayer_apply _ _ _ _ _ n k).trans ?_
        rw [a5, a6, a7, a8, show (fun n k => rf2 m' c (ix2 n k)) = h2S m c from funext fun n => funext fun k => f2 n k]
      refine (Cert.ReferenceIdeal.RefValue.res_out1_eq (F := Ideal) m' c).trans ?_
      funext i
      obtain ⟨p, rfl⟩ : ∃ p : Fin 500000, i = ix1 p := ⟨i 0, eq_ix1 i⟩
      refine (Cert.ReferenceIdeal.RefValue.refScore_apply (rf3 m' c) _ _ p).trans ?_
      rw [a11, a12, show (fun n k => rf3 m' c (ix2 n k)) = h3S m c from funext fun n => funext fun k => f3 n k]
      rfl

end Cert.Proof.Alg

end
-- ==== Proof.lean ====
/- The certificate of the five claims of `Cert.Claim`.

   The kernel program is a three-round relational graph convolution followed by a dot-product scoring of node pairs:
   per round and relation the source rows are gathered, summed into their destination rows and scaled by the inverse
   in-degree on the host; a kernel multiplies each relation's aggregate by its weight matrix, adds the bias, sums over
   the relations in an accumulator and applies max(·, 0); a last kernel takes the lane sums of the products of the
   pairs' gathered rows.  The reference does the same on unpadded arrays.

   Frames.  Both instances of the kernel program run through one text, generic in the float family: each kernel call's
   proof data (its accumulator carried from grid point to grid point, its output block written back at the last
   relation) and body obligation, the buffer contents at every boundary of @main as a fold from the launch memory, the
   segments' launch, and the fact that no item writes an argument.  The reference's frame is its run.

   Values.  The precondition bounds every source and pair index word inside the node table, where the kernel's padded
   tables and the reference's unpadded ones name the same rows; destination words need no bound, an edge landing
   outside the first 100000 rows being read by no later operation.  Round by round the kernel program's rows below
   100000 are the specification's (`Cert.Spec`), whose sums the reference's composed term also reads, index by index;
   the two sides differ only in how the relation sum is nested, which addition's associativity absorbs.  The ideal
   pass rewrote nothing, so the kernel's idealization is itself. -/
import proofs.«400914_j13511967113603_4_alg».proof.Defs
import proofs.«400914_j13511967113603_4_alg».proof.Proof.Gen.Kernel
import proofs.«400914_j13511967113603_4_alg».proof.Proof.Gen.KernelIdeal
import proofs.«400914_j13511967113603_4_alg».proof.Proof.Gen.ReferenceIdeal
import proofs.«400914_j13511967113603_4_alg».proof.Proof.Gen.Pre_finite_inputs
import proofs.«400914_j13511967113603_4_alg».proof.Proof.Frames
import proofs.«400914_j13511967113603_4_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_kernel, Cert.Proof.Frames.frame_kernelIdeal, Cert.Proof.Alg.frame_ref, trivial,
    Cert.Proof.Alg.algebraic⟩

end Cert.Proof

end
